-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v410)) (v1 : (c : Dev Cert.KernelIdeal.nD) → Buf (Elt Ideal) ((c.tc : Thread Cert.KernelIdeal.nD Cert.KernelIdeal.τ).loc Cert.KernelIdeal.main_v413)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v410) = v0 c
          ∧ r.2.mem ((c.tc : Thread Cert.KernelIdeal.nD Cert.KernelIdeal.τ).loc Cert.KernelIdeal.main_v413) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v496) = v0 c
          ∧ r.2.mem ((c.tc : Thread Cert.ReferenceIdeal.nD Cert.ReferenceIdeal.τ).loc Cert.ReferenceIdeal.main_v499) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x96x96 : Shape := ⟨4, ![2, 64, 96, 96]⟩
abbrev S2x65536x2 : Shape := ⟨3, ![2, 65536, 2]⟩
abbrev S580x256 : Shape := ⟨2, ![580, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S2x64x96x96 : S_.BroadcastsInDim S2x64x96x96 (![] : Fin 0 → Fin S2x64x96x96.rank)
  reducesTo_S2x64x96x96_S_d0_1_2_3 : S2x64x96x96.ReducesTo [0, 1, 2, 3] S_
  h_S_ : 0 < S_.numel
  bcast_S_S2x65536x2 : S_.BroadcastsInDim S2x65536x2 (![] : Fin 0 → Fin S2x65536x2.rank)
  reducesTo_S2x65536x2_S_d0_1_2 : S2x65536x2.ReducesTo [0, 1, 2] S_
  bcast_S_S580x256 : S_.BroadcastsInDim S580x256 (![] : Fin 0 → Fin S580x256.rank)
  reducesTo_S580x256_S_d0_1 : S580x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S256x2 .f32) (main_arg12 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x2 .f32 := Host.absf main_arg11
  let main_cst_20 : FVec F S_ .f32 := constant S_ .f32 0x7F800000#32
  let main_v55 : FVec F S256x2 .f32 := broadcastInDim S256x2 ![] bcast_S_S256x2 main_cst_20
  let main_v56 : IVec S256x2 1 := cmpf .olt main_v54 main_v55
  let main_c_21 : IVec S_ 1 := constantI S_ 1 1#1
  let main_v57 : IVec S_ 1 := (fun x v => Host.reduce IntOp.andi x v reducesTo_S256x2_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg7 : FVec F S256x256 .f32) (main_arg8 : FVec F S256 .f32) (main_arg9 : FVec F S256x256 .f32) (main_arg10 : FVec F S256 .f32) (main_arg11 : FVec F S256x2 .f32) (main_arg12 : FVec F S2 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x2 .f32) (main_arg12 : FVec F S2 .f32) (main_v13 : IVec S_ 1) (main_v16 : IVec S580x256 1) : IVec S_ 1 :=
  let main_c_5 : IVec S_ 1 := constantI S_ 1 1#1
  let main_v17 : IVec S_ 1 := (fun x v => Host.reduce IntOp.andi x v reducesTo_S580x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2x64x96x96 .f32) (main_arg1 : FVec F S2x65536x2 .f32) (main_arg2 : FVec F S2x65536x2 .f32) (main_arg3 : FVec F S580x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x2 .f32) (main_arg12 : FVec F S2 .f32) : IVec S_ 1 :=
  let main_v0 : FVec F S2x64x96x96 .f32 := Host.absf main_arg0
  let main_cst : FVec F S_ .f32 := constant S_ .f32 0x7F800000#32
  let main_v1 : FVec F S2x64x96x96 .f32 := broadcastInDim S2x64x96x96 ![] bcast_S_S2x64x96x96 main_cst
  let main_v2 : IVec S2x64x96x96 1 := cmpf .olt main_v0 main_v1
  let main_c : IVec S_ 1 := constantI S_ 1 1#1
  let main_v3 : IVec S_ 1 := (fun x v => Host.reduce IntOp.andi x v reducesTo_S2x64x96x96_S_d0_1_2_3 h_S_) main_v2 main_c
  let main_v4 : FVec F S2x65536x2 .f32 := Host.absf main_arg1
  let main_cst_0 : FVec F S_ .f32 := constant S_ .f32 0x7F800000#32
  let main_v5 : FVec F S2x65536x2 .f32 := broadcastInDim S2x65536x2 ![] bcast_S_S2x65536x2 main_cst_0
  let main_v6 : IVec S2x65536x2 1 := cmpf .olt main_v4 main_v5
  let main_c_1 : IVec S_ 1 := constantI S_ 1 1#1
  let main_v7 : IVec S_ 1 := (fun x v => Host.reduce IntOp.andi x v reducesTo_S2x65536x2_S_d0_1_2 h_S_) main_v6 main_c_1
  let main_v8 : IVec S_ 1 := andi main_v3 main_v7
  let main_v9 : FVec F S2x65536x2 .f32 := Host.absf main_arg2
  let main_cst_2 : FVec F S_ .f32 := constant S_ .f32 0x7F800000#32
  let main_v10 : FVec F S2x65536x2 .f32 := broadcastInDim S2x65536x2 ![] bcast_S_S2x65536x2 main_cst_2
  let main_v11 : IVec S2x65536x2 1 := cmpf .olt main_v9 main_v10
  let main_c_3 : IVec S_ 1 := constantI S_ 1 1#1
  let main_v12 : IVec S_ 1 := (fun x v => Host.reduce IntOp.andi x v reducesTo_S2x65536x2_S_d0_1_2 h_S_) main_v11 main_c_3
  let main_v13 : IVec S_ 1 := andi main_v8 main_v12
  let main_v14 : FVec F S580x256 .f32 := Host.absf main_arg3
  let main_cst_4 : FVec F S_ .f32 := constant S_ .f32 0x7F800000#32
  let main_v15 : FVec F S580x256 .f32 := broadcastInDim S580x256 ![] bcast_S_S580x256 main_cst_4
  let main_v16 : IVec S580x256 1 := cmpf .olt main_v14 main_v15
  fn_part1 (F := F) main_arg4 main_arg5 main_arg6 main_arg7 main_arg8 main_arg9 main_arg10 main_arg11 main_arg12 main_v13 main_v16
-- ==== Kernel.lean ====
abbrev S2x64x96x96 : Shape := ⟨4, ![2, 64, 96, 96]⟩
abbrev S2x65536x2 : Shape := ⟨3, ![2, 65536, 2]⟩
abbrev S580x256 : Shape := ⟨2, ![580, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S576x256 : Shape := ⟨2, ![576, 256]⟩
abbrev S4x256 : Shape := ⟨2, ![4, 256]⟩
abbrev S_ : Shape := ⟨0, ![]⟩
abbrev S2x64x98x98 : Shape := ⟨4, ![2, 64, 98, 98]⟩
abbrev S2x64x1x96x96 : Shape := ⟨5, ![2, 64, 1, 96, 96]⟩
abbrev S2x64x9x96x96 : Shape := ⟨5, ![2, 64, 9, 96, 96]⟩
abbrev S2x576x96x96 : Shape := ⟨4, ![2, 576, 96, 96]⟩
abbrev S2x96x96x576 : Shape := ⟨4, ![2, 96, 96, 576]⟩
abbrev S18432x576 : Shape := ⟨2, ![18432, 576]⟩
abbrev S18432x256 : Shape := ⟨2, ![18432, 256]⟩
abbrev S2048x576 : Shape := ⟨2, ![2048, 576]⟩
abbrev S2048x256 : Shape := ⟨2, ![2048, 256]⟩
abbrev S2x96x96x256 : Shape := ⟨4, ![2, 96, 96, 256]⟩
abbrev S1x1x2 : Shape := ⟨3, ![1, 1, 2]⟩
abbrev S2x65536x1 : Shape := ⟨3, ![2, 65536, 1]⟩
abbrev S2x65536 : Shape := ⟨2, ![2, 65536]⟩
abbrev S2x65536x256 : Shape := ⟨3, ![2, 65536, 256]⟩
abbrev S2x65536x4 : Shape := ⟨3, ![2, 65536, 4]⟩
abbrev S131072x256 : Shape := ⟨2, ![131072, 256]⟩
abbrev S131072x4 : Shape := ⟨2, ![131072, 4]⟩
abbrev S131072 : Shape := ⟨1, ![131072]⟩
abbrev S1x131072x256 : Shape := ⟨3, ![1, 131072, 256]⟩
abbrev S4x131072x256 : Shape := ⟨3, ![4, 131072, 256]⟩
abbrev S1x131072x4 : Shape := ⟨3, ![1, 131072, 4]⟩
abbrev S4x131072x4 : Shape := ⟨3, ![4, 131072, 4]⟩
abbrev S1x131072 : Shape := ⟨2, ![1, 131072]⟩
abbrev S4x131072 : Shape := ⟨2, ![4, 131072]⟩
abbrev S4x131072x1 : Shape := ⟨3, ![4, 131072, 1]⟩
abbrev S1x256 : Shape := ⟨2, ![1, 256]⟩
abbrev S1x2 : Shape := ⟨2, ![1, 2]⟩
abbrev S131072x2 : Shape := ⟨2, ![131072, 2]⟩
abbrev S4x4096x256 : Shape := ⟨3, ![4, 4096, 256]⟩
abbrev S4x4096x4 : Shape := ⟨3, ![4, 4096, 4]⟩
abbrev S4x4096x1 : Shape := ⟨3, ![4, 4096, 1]⟩
abbrev S4096x2 : Shape := ⟨2, ![4096, 2]⟩
abbrev S1x4096x256 : Shape := ⟨3, ![1, 4096, 256]⟩
abbrev S4096x256 : Shape := ⟨2, ![4096, 256]⟩
abbrev S1x4096x4 : Shape := ⟨3, ![1, 4096, 4]⟩
abbrev S4096x4 : Shape := ⟨2, ![4096, 4]⟩
abbrev S1x4096x1 : Shape := ⟨3, ![1, 4096, 1]⟩
abbrev S4096x1 : Shape := ⟨2, ![4096, 1]⟩

abbrev nBuf : Space → Nat
  | .hbm => 613
  | .vmem => 23
  | .smem => 0
  | _ => 0

abbrev hbmTy0_0 (i : Nat) : BufTy := match i % 128 with
  | 0 => ⟨S2x64x96x96, .f32⟩
  | 1 => ⟨S2x65536x2, .f32⟩
  | 2 => ⟨S2x65536x2, .f32⟩
  | 3 => ⟨S580x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x2, .f32⟩
  | 12 => ⟨S2, .f32⟩
  | 13 => ⟨S2, .f32⟩
  | 14 => ⟨S2, .f32⟩
  | 15 => ⟨S2, .f32⟩
  | 16 => ⟨S2, .f32⟩
  | 17 => ⟨S2, .f32⟩
  | 18 => ⟨S576x256, .f32⟩
  | 19 => ⟨S4x256, .f32⟩
  | 20 => ⟨S_, .i32⟩
  | 21 => ⟨S_, .f32⟩
  | 22 => ⟨S2x64x98x98, .f32⟩
  | 23 => ⟨S2x64x96x96, .f32⟩
  | 24 => ⟨S2x64x96x96, .f32⟩
  | 25 => ⟨S2x64x96x96, .f32⟩
  | 26 => ⟨S2x64x96x96, .f32⟩
  | 27 => ⟨S2x64x96x96, .f32⟩
  | 28 => ⟨S2x64x96x96, .f32⟩
  | 29 => ⟨S2x64x96x96, .f32⟩
  | 30 => ⟨S2x64x96x96, .f32⟩
  | 31 => ⟨S2x64x96x96, .f32⟩
  | 32 => ⟨S2x64x1x96x96, .f32⟩
  | 33 => ⟨S2x64x1x96x96, .f32⟩
  | 34 => ⟨S2x64x1x96x96, .f32⟩
  | 35 => ⟨S2x64x1x96x96, .f32⟩
  | 36 => ⟨S2x64x1x96x96, .f32⟩
  | 37 => ⟨S2x64x1x96x96, .f32⟩
  | 38 => ⟨S2x64x1x96x96, .f32⟩
  | 39 => ⟨S2x64x1x96x96, .f32⟩
  | 40 => ⟨S2x64x1x96x96, .f32⟩
  | 41 => ⟨S2x64x9x96x96, .f32⟩
  | 42 => ⟨S2x576x96x96, .f32⟩
  | 43 => ⟨S2x96x96x576, .f32⟩
  | 44 => ⟨S18432x576, .f32⟩
  | 45 => ⟨S18432x256, .bf16⟩
  | 46 => ⟨S2x96x96x256, .bf16⟩
  | 47 => ⟨S1x1x2, .f32⟩
  | 48 => ⟨S2x65536x2, .f32⟩
  | 49 => ⟨S2x65536x2, .f32⟩
  | 50 => ⟨S_, .f32⟩
  | 51 => ⟨S_, .f32⟩
  | 52 => ⟨S_, .f32⟩
  | 53 => ⟨S2x65536x2, .f32⟩
  | 54 => ⟨S2x65536x2, .f32⟩
  | 55 => ⟨S_, .f32⟩
  | 56 => ⟨S2x65536x2, .f32⟩
  | 57 => ⟨S2x65536x2, .f32⟩
  | 58 => ⟨S2x65536x1, .f32⟩
  | 59 => ⟨S2x65536, .f32⟩
  | 60 => ⟨S_, .f32⟩
  | 61 => ⟨S2x65536, .f32⟩
  | 62 => ⟨S2x65536, .f32⟩
  | 63 => ⟨S_, .f32⟩
  | 64 => ⟨S2x65536, .f32⟩
  | 65 => ⟨S2x65536, .f32⟩
  | 66 => ⟨S_, .f32⟩
  | 67 => ⟨S2x65536, .f32⟩
  | 68 => ⟨S2x65536, .f32⟩
  | 69 => ⟨S_, .f32⟩
  | 70 => ⟨S2x65536, .f32⟩
  | 71 => ⟨S2x65536, .f32⟩
  | 72 => ⟨S_, .f32⟩
  | 73 => ⟨S2x65536, .f32⟩
  | 74 => ⟨S2x65536, .f32⟩
  | 75 => ⟨S2x65536, .f32⟩
  | 76 => ⟨S_, .i32⟩
  | 77 => ⟨S_, .i32⟩
  | 78 => ⟨S_, .f32⟩
  | 79 => ⟨S2x65536, .f32⟩
  | 80 => ⟨S2x65536, .f32⟩
  | 81 => ⟨S_, .f32⟩
  | 82 => ⟨S2x65536, .f32⟩
  | 83 => ⟨S2x65536, .f32⟩
  | 84 => ⟨S2x65536, .i32⟩
  | 85 => ⟨S2x65536x1, .f32⟩
  | 86 => ⟨S2x65536, .f32⟩
  | 87 => ⟨S_, .f32⟩
  | 88 => ⟨S2x65536, .f32⟩
  | 89 => ⟨S2x65536, .f32⟩
  | 90 => ⟨S_, .f32⟩
  | 91 => ⟨S2x65536, .f32⟩
  | 92 => ⟨S2x65536, .f32⟩
  | 93 => ⟨S_, .f32⟩
  | 94 => ⟨S2x65536, .f32⟩
  | 95 => ⟨S2x65536, .f32⟩
  | 96 => ⟨S_, .f32⟩
  | 97 => ⟨S2x65536, .f32⟩
  | 98 => ⟨S2x65536, .f32⟩
  | 99 => ⟨S_, .f32⟩
  | 100 => ⟨S2x65536, .f32⟩
  | 101 => ⟨S2x65536, .f32⟩
  | 102 => ⟨S2x65536, .f32⟩
  | 103 => ⟨S_, .i32⟩
  | 104 => ⟨S_, .i32⟩
  | 105 => ⟨S_, .f32⟩
  | 106 => ⟨S2x65536, .f32⟩
  | 107 => ⟨S2x65536, .f32⟩
  | 108 => ⟨S_, .f32⟩
  | 109 => ⟨S2x65536, .f32⟩
  | 110 => ⟨S2x65536, .f32⟩
  | 111 => ⟨S2x65536, .i32⟩
  | 112 => ⟨S_, .i32⟩
  | 113 => ⟨S2x65536, .i32⟩
  | 114 => ⟨S2x65536, .i1⟩
  | 115 => ⟨S_, .i32⟩
  | 116 => ⟨S2x65536, .i32⟩
  | 117 => ⟨S2x65536, .i32⟩
  | 118 => ⟨S2x65536, .i32⟩
  | 119 => ⟨S_, .i32⟩
  | 120 => ⟨S2x65536, .i32⟩
  | 121 => ⟨S2x65536, .i1⟩
  | 122 => ⟨S_, .i32⟩
  | 123 => ⟨S2x65536, .i32⟩
  | 124 => ⟨S2x65536, .i32⟩
  | 125 => ⟨S2x65536, .i32⟩
  | 126 => ⟨S2x65536x1, .i32⟩
  | 127 => ⟨S2x65536x1, .i32⟩
  | _ => ⟨S2x64x96x96, .f32⟩

abbrev hbmTy0_1 (i : Nat) : BufTy := match i % 128 with
  | 0 => ⟨S2x65536x2, .i32⟩
  | 1 => ⟨S2x65536x256, .bf16⟩
  | 2 => ⟨S2x65536, .f32⟩
  | 3 => ⟨S_, .f32⟩
  | 4 => ⟨S2x65536, .f32⟩
  | 5 => ⟨S2x65536, .f32⟩
  | 6 => ⟨S_, .f32⟩
  | 7 => ⟨S2x65536, .f32⟩
  | 8 => ⟨S2x65536, .f32⟩
  | 9 => ⟨S_, .f32⟩
  | 10 => ⟨S2x65536, .f32⟩
  | 11 => ⟨S2x65536, .f32⟩
  | 12 => ⟨S_, .f32⟩
  | 13 => ⟨S2x65536, .f32⟩
  | 14 => ⟨S2x65536, .f32⟩
  | 15 => ⟨S2x65536, .f32⟩
  | 16 => ⟨S_, .f32⟩
  | 17 => ⟨S2x65536, .f32⟩
  | 18 => ⟨S2x65536, .f32⟩
  | 19 => ⟨S_, .f32⟩
  | 20 => ⟨S2x65536, .f32⟩
  | 21 => ⟨S2x65536, .f32⟩
  | 22 => ⟨S_, .f32⟩
  | 23 => ⟨S2x65536, .f32⟩
  | 24 => ⟨S2x65536, .f32⟩
  | 25 => ⟨S_, .f32⟩
  | 26 => ⟨S2x65536, .f32⟩
  | 27 => ⟨S2x65536, .f32⟩
  | 28 => ⟨S2x65536x1, .f32⟩
  | 29 => ⟨S2x65536x1, .f32⟩
  | 30 => ⟨S2x65536x2, .f32⟩
  | 31 => ⟨S2x65536x2, .f32⟩
  | 32 => ⟨S2x65536x2, .f32⟩
  | 33 => ⟨S1x1x2, .f32⟩
  | 34 => ⟨S2x65536x2, .f32⟩
  | 35 => ⟨S2x65536x2, .f32⟩
  | 36 => ⟨S1x1x2, .f32⟩
  | 37 => ⟨S2x65536x2, .f32⟩
  | 38 => ⟨S2x65536x2, .f32⟩
  | 39 => ⟨S2x65536x4, .f32⟩
  | 40 => ⟨S2x65536x1, .f32⟩
  | 41 => ⟨S2x65536, .f32⟩
  | 42 => ⟨S2x65536x1, .f32⟩
  | 43 => ⟨S2x65536, .f32⟩
  | 44 => ⟨S2x65536, .f32⟩
  | 45 => ⟨S2x65536, .f32⟩
  | 46 => ⟨S_, .f32⟩
  | 47 => ⟨S2x65536, .f32⟩
  | 48 => ⟨S2x65536, .f32⟩
  | 49 => ⟨S131072x256, .bf16⟩
  | 50 => ⟨S131072x4, .f32⟩
  | 51 => ⟨S131072, .f32⟩
  | 52 => ⟨S1x1x2, .f32⟩
  | 53 => ⟨S2x65536x2, .f32⟩
  | 54 => ⟨S2x65536x2, .f32⟩
  | 55 => ⟨S_, .f32⟩
  | 56 => ⟨S_, .f32⟩
  | 57 => ⟨S_, .f32⟩
  | 58 => ⟨S2x65536x2, .f32⟩
  | 59 => ⟨S2x65536x2, .f32⟩
  | 60 => ⟨S_, .f32⟩
  | 61 => ⟨S2x65536x2, .f32⟩
  | 62 => ⟨S2x65536x2, .f32⟩
  | 63 => ⟨S2x65536x1, .f32⟩
  | 64 => ⟨S2x65536, .f32⟩
  | 65 => ⟨S_, .f32⟩
  | 66 => ⟨S2x65536, .f32⟩
  | 67 => ⟨S2x65536, .f32⟩
  | 68 => ⟨S_, .f32⟩
  | 69 => ⟨S2x65536, .f32⟩
  | 70 => ⟨S2x65536, .f32⟩
  | 71 => ⟨S_, .f32⟩
  | 72 => ⟨S2x65536, .f32⟩
  | 73 => ⟨S2x65536, .f32⟩
  | 74 => ⟨S_, .f32⟩
  | 75 => ⟨S2x65536, .f32⟩
  | 76 => ⟨S2x65536, .f32⟩
  | 77 => ⟨S_, .f32⟩
  | 78 => ⟨S2x65536, .f32⟩
  | 79 => ⟨S2x65536, .f32⟩
  | 80 => ⟨S2x65536, .f32⟩
  | 81 => ⟨S_, .i32⟩
  | 82 => ⟨S_, .i32⟩
  | 83 => ⟨S_, .f32⟩
  | 84 => ⟨S2x65536, .f32⟩
  | 85 => ⟨S2x65536, .f32⟩
  | 86 => ⟨S_, .f32⟩
  | 87 => ⟨S2x65536, .f32⟩
  | 88 => ⟨S2x65536, .f32⟩
  | 89 => ⟨S2x65536, .i32⟩
  | 90 => ⟨S2x65536x1, .f32⟩
  | 91 => ⟨S2x65536, .f32⟩
  | 92 => ⟨S_, .f32⟩
  | 93 => ⟨S2x65536, .f32⟩
  | 94 => ⟨S2x65536, .f32⟩
  | 95 => ⟨S_, .f32⟩
  | 96 => ⟨S2x65536, .f32⟩
  | 97 => ⟨S2x65536, .f32⟩
  | 98 => ⟨S_, .f32⟩
  | 99 => ⟨S2x65536, .f32⟩
  | 100 => ⟨S2x65536, .f32⟩
  | 101 => ⟨S_, .f32⟩
  | 102 => ⟨S2x65536, .f32⟩
  | 103 => ⟨S2x65536, .f32⟩
  | 104 => ⟨S_, .f32⟩
  | 105 => ⟨S2x65536, .f32⟩
  | 106 => ⟨S2x65536, .f32⟩
  | 107 => ⟨S2x65536, .f32⟩
  | 108 => ⟨S_, .i32⟩
  | 109 => ⟨S_, .i32⟩
  | 110 => ⟨S_, .f32⟩
  | 111 => ⟨S2x65536, .f32⟩
  | 112 => ⟨S2x65536, .f32⟩
  | 113 => ⟨S_, .f32⟩
  | 114 => ⟨S2x65536, .f32⟩
  | 115 => ⟨S2x65536, .f32⟩
  | 116 => ⟨S2x65536, .i32⟩
  | 117 => ⟨S_, .i32⟩
  | 118 => ⟨S2x65536, .i32⟩
  | 119 => ⟨S2x65536, .i1⟩
  | 120 => ⟨S_, .i32⟩
  | 121 => ⟨S2x65536, .i32⟩
  | 122 => ⟨S2x65536, .i32⟩
  | 123 => ⟨S2x65536, .i32⟩
  | 124 => ⟨S_, .i32⟩
  | 125 => ⟨S2x65536, .i32⟩
  | 126 => ⟨S2x65536, .i1⟩
  | 127 => ⟨S_, .i32⟩
  | _ => ⟨S2x64x96x96, .f32⟩

abbrev hbmTy0_2 (i : Nat) : BufTy := match i % 128 with
  | 0 => ⟨S2x65536, .i32⟩
  | 1 => ⟨S2x65536, .i32⟩
  | 2 => ⟨S2x65536, .i32⟩
  | 3 => ⟨S2x65536x1, .i32⟩
  | 4 => ⟨S2x65536x1, .i32⟩
  | 5 => ⟨S2x65536x2, .i32⟩
  | 6 => ⟨S2x65536x256, .bf16⟩
  | 7 => ⟨S2x65536, .f32⟩
  | 8 => ⟨S_, .f32⟩
  | 9 => ⟨S2x65536, .f32⟩
  | 10 => ⟨S2x65536, .f32⟩
  | 11 => ⟨S_, .f32⟩
  | 12 => ⟨S2x65536, .f32⟩
  | 13 => ⟨S2x65536, .f32⟩
  | 14 => ⟨S_, .f32⟩
  | 15 => ⟨S2x65536, .f32⟩
  | 16 => ⟨S2x65536, .f32⟩
  | 17 => ⟨S_, .f32⟩
  | 18 => ⟨S2x65536, .f32⟩
  | 19 => ⟨S2x65536, .f32⟩
  | 20 => ⟨S2x65536, .f32⟩
  | 21 => ⟨S_, .f32⟩
  | 22 => ⟨S2x65536, .f32⟩
  | 23 => ⟨S2x65536, .f32⟩
  | 24 => ⟨S_, .f32⟩
  | 25 => ⟨S2x65536, .f32⟩
  | 26 => ⟨S2x65536, .f32⟩
  | 27 => ⟨S_, .f32⟩
  | 28 => ⟨S2x65536, .f32⟩
  | 29 => ⟨S2x65536, .f32⟩
  | 30 => ⟨S_, .f32⟩
  | 31 => ⟨S2x65536, .f32⟩
  | 32 => ⟨S2x65536, .f32⟩
  | 33 => ⟨S2x65536x1, .f32⟩
  | 34 => ⟨S2x65536x1, .f32⟩
  | 35 => ⟨S2x65536x2, .f32⟩
  | 36 => ⟨S2x65536x2, .f32⟩
  | 37 => ⟨S2x65536x2, .f32⟩
  | 38 => ⟨S1x1x2, .f32⟩
  | 39 => ⟨S2x65536x2, .f32⟩
  | 40 => ⟨S2x65536x2, .f32⟩
  | 41 => ⟨S1x1x2, .f32⟩
  | 42 => ⟨S2x65536x2, .f32⟩
  | 43 => ⟨S2x65536x2, .f32⟩
  | 44 => ⟨S2x65536x4, .f32⟩
  | 45 => ⟨S2x65536x1, .f32⟩
  | 46 => ⟨S2x65536, .f32⟩
  | 47 => ⟨S2x65536x1, .f32⟩
  | 48 => ⟨S2x65536, .f32⟩
  | 49 => ⟨S2x65536, .f32⟩
  | 50 => ⟨S2x65536, .f32⟩
  | 51 => ⟨S_, .f32⟩
  | 52 => ⟨S2x65536, .f32⟩
  | 53 => ⟨S2x65536, .f32⟩
  | 54 => ⟨S131072x256, .bf16⟩
  | 55 => ⟨S131072x4, .f32⟩
  | 56 => ⟨S131072, .f32⟩
  | 57 => ⟨S1x1x2, .f32⟩
  | 58 => ⟨S2x65536x2, .f32⟩
  | 59 => ⟨S2x65536x2, .f32⟩
  | 60 => ⟨S_, .f32⟩
  | 61 => ⟨S_, .f32⟩
  | 62 => ⟨S_, .f32⟩
  | 63 => ⟨S2x65536x2, .f32⟩
  | 64 => ⟨S2x65536x2, .f32⟩
  | 65 => ⟨S_, .f32⟩
  | 66 => ⟨S2x65536x2, .f32⟩
  | 67 => ⟨S2x65536x2, .f32⟩
  | 68 => ⟨S2x65536x1, .f32⟩
  | 69 => ⟨S2x65536, .f32⟩
  | 70 => ⟨S_, .f32⟩
  | 71 => ⟨S2x65536, .f32⟩
  | 72 => ⟨S2x65536, .f32⟩
  | 73 => ⟨S_, .f32⟩
  | 74 => ⟨S2x65536, .f32⟩
  | 75 => ⟨S2x65536, .f32⟩
  | 76 => ⟨S_, .f32⟩
  | 77 => ⟨S2x65536, .f32⟩
  | 78 => ⟨S2x65536, .f32⟩
  | 79 => ⟨S_, .f32⟩
  | 80 => ⟨S2x65536, .f32⟩
  | 81 => ⟨S2x65536, .f32⟩
  | 82 => ⟨S_, .f32⟩
  | 83 => ⟨S2x65536, .f32⟩
  | 84 => ⟨S2x65536, .f32⟩
  | 85 => ⟨S2x65536, .f32⟩
  | 86 => ⟨S_, .i32⟩
  | 87 => ⟨S_, .i32⟩
  | 88 => ⟨S_, .f32⟩
  | 89 => ⟨S2x65536, .f32⟩
  | 90 => ⟨S2x65536, .f32⟩
  | 91 => ⟨S_, .f32⟩
  | 92 => ⟨S2x65536, .f32⟩
  | 93 => ⟨S2x65536, .f32⟩
  | 94 => ⟨S2x65536, .i32⟩
  | 95 => ⟨S2x65536x1, .f32⟩
  | 96 => ⟨S2x65536, .f32⟩
  | 97 => ⟨S_, .f32⟩
  | 98 => ⟨S2x65536, .f32⟩
  | 99 => ⟨S2x65536, .f32⟩
  | 100 => ⟨S_, .f32⟩
  | 101 => ⟨S2x65536, .f32⟩
  | 102 => ⟨S2x65536, .f32⟩
  | 103 => ⟨S_, .f32⟩
  | 104 => ⟨S2x65536, .f32⟩
  | 105 => ⟨S2x65536, .f32⟩
  | 106 => ⟨S_, .f32⟩
  | 107 => ⟨S2x65536, .f32⟩
  | 108 => ⟨S2x65536, .f32⟩
  | 109 => ⟨S_, .f32⟩
  | 110 => ⟨S2x65536, .f32⟩
  | 111 => ⟨S2x65536, .f32⟩
  | 112 => ⟨S2x65536, .f32⟩
  | 113 => ⟨S_, .i32⟩
  | 114 => ⟨S_, .i32⟩
  | 115 => ⟨S_, .f32⟩
  | 116 => ⟨S2x65536, .f32⟩
  | 117 => ⟨S2x65536, .f32⟩
  | 118 => ⟨S_, .f32⟩
  | 119 => ⟨S2x65536, .f32⟩
  | 120 => ⟨S2x65536, .f32⟩
  | 121 => ⟨S2x65536, .i32⟩
  | 122 => ⟨S_, .i32⟩
  | 123 => ⟨S2x65536, .i32⟩
  | 124 => ⟨S2x65536, .i1⟩
  | 125 => ⟨S_, .i32⟩
  | 126 => ⟨S2x65536, .i32⟩
  | 127 => ⟨S2x65536, .i32⟩
  | _ => ⟨S2x64x96x96, .f32⟩

abbrev hbmTy0_3 (i : Nat) : BufTy := match i % 128 with
  | 0 => ⟨S2x65536, .i32⟩
  | 1 => ⟨S_, .i32⟩
  | 2 => ⟨S2x65536, .i32⟩
  | 3 => ⟨S2x65536, .i1⟩
  | 4 => ⟨S_, .i32⟩
  | 5 => ⟨S2x65536, .i32⟩
  | 6 => ⟨S2x65536, .i32⟩
  | 7 => ⟨S2x65536, .i32⟩
  | 8 => ⟨S2x65536x1, .i32⟩
  | 9 => ⟨S2x65536x1, .i32⟩
  | 10 => ⟨S2x65536x2, .i32⟩
  | 11 => ⟨S2x65536x256, .bf16⟩
  | 12 => ⟨S2x65536, .f32⟩
  | 13 => ⟨S_, .f32⟩
  | 14 => ⟨S2x65536, .f32⟩
  | 15 => ⟨S2x65536, .f32⟩
  | 16 => ⟨S_, .f32⟩
  | 17 => ⟨S2x65536, .f32⟩
  | 18 => ⟨S2x65536, .f32⟩
  | 19 => ⟨S_, .f32⟩
  | 20 => ⟨S2x65536, .f32⟩
  | 21 => ⟨S2x65536, .f32⟩
  | 22 => ⟨S_, .f32⟩
  | 23 => ⟨S2x65536, .f32⟩
  | 24 => ⟨S2x65536, .f32⟩
  | 25 => ⟨S2x65536, .f32⟩
  | 26 => ⟨S_, .f32⟩
  | 27 => ⟨S2x65536, .f32⟩
  | 28 => ⟨S2x65536, .f32⟩
  | 29 => ⟨S_, .f32⟩
  | 30 => ⟨S2x65536, .f32⟩
  | 31 => ⟨S2x65536, .f32⟩
  | 32 => ⟨S_, .f32⟩
  | 33 => ⟨S2x65536, .f32⟩
  | 34 => ⟨S2x65536, .f32⟩
  | 35 => ⟨S_, .f32⟩
  | 36 => ⟨S2x65536, .f32⟩
  | 37 => ⟨S2x65536, .f32⟩
  | 38 => ⟨S2x65536x1, .f32⟩
  | 39 => ⟨S2x65536x1, .f32⟩
  | 40 => ⟨S2x65536x2, .f32⟩
  | 41 => ⟨S2x65536x2, .f32⟩
  | 42 => ⟨S2x65536x2, .f32⟩
  | 43 => ⟨S1x1x2, .f32⟩
  | 44 => ⟨S2x65536x2, .f32⟩
  | 45 => ⟨S2x65536x2, .f32⟩
  | 46 => ⟨S1x1x2, .f32⟩
  | 47 => ⟨S2x65536x2, .f32⟩
  | 48 => ⟨S2x65536x2, .f32⟩
  | 49 => ⟨S2x65536x4, .f32⟩
  | 50 => ⟨S2x65536x1, .f32⟩
  | 51 => ⟨S2x65536, .f32⟩
  | 52 => ⟨S2x65536x1, .f32⟩
  | 53 => ⟨S2x65536, .f32⟩
  | 54 => ⟨S2x65536, .f32⟩
  | 55 => ⟨S2x65536, .f32⟩
  | 56 => ⟨S_, .f32⟩
  | 57 => ⟨S2x65536, .f32⟩
  | 58 => ⟨S2x65536, .f32⟩
  | 59 => ⟨S131072x256, .bf16⟩
  | 60 => ⟨S131072x4, .f32⟩
  | 61 => ⟨S131072, .f32⟩
  | 62 => ⟨S1x1x2, .f32⟩
  | 63 => ⟨S2x65536x2, .f32⟩
  | 64 => ⟨S2x65536x2, .f32⟩
  | 65 => ⟨S_, .f32⟩
  | 66 => ⟨S_, .f32⟩
  | 67 => ⟨S_, .f32⟩
  | 68 => ⟨S2x65536x2, .f32⟩
  | 69 => ⟨S2x65536x2, .f32⟩
  | 70 => ⟨S_, .f32⟩
  | 71 => ⟨S2x65536x2, .f32⟩
  | 72 => ⟨S2x65536x2, .f32⟩
  | 73 => ⟨S2x65536x1, .f32⟩
  | 74 => ⟨S2x65536, .f32⟩
  | 75 => ⟨S_, .f32⟩
  | 76 => ⟨S2x65536, .f32⟩
  | 77 => ⟨S2x65536, .f32⟩
  | 78 => ⟨S_, .f32⟩
  | 79 => ⟨S2x65536, .f32⟩
  | 80 => ⟨S2x65536, .f32⟩
  | 81 => ⟨S_, .f32⟩
  | 82 => ⟨S2x65536, .f32⟩
  | 83 => ⟨S2x65536, .f32⟩
  | 84 => ⟨S_, .f32⟩
  | 85 => ⟨S2x65536, .f32⟩
  | 86 => ⟨S2x65536, .f32⟩
  | 87 => ⟨S_, .f32⟩
  | 88 => ⟨S2x65536, .f32⟩
  | 89 => ⟨S2x65536, .f32⟩
  | 90 => ⟨S2x65536, .f32⟩
  | 91 => ⟨S_, .i32⟩
  | 92 => ⟨S_, .i32⟩
  | 93 => ⟨S_, .f32⟩
  | 94 => ⟨S2x65536, .f32⟩
  | 95 => ⟨S2x65536, .f32⟩
  | 96 => ⟨S_, .f32⟩
  | 97 => ⟨S2x65536, .f32⟩
  | 98 => ⟨S2x65536, .f32⟩
  | 99 => ⟨S2x65536, .i32⟩
  | 100 => ⟨S2x65536x1, .f32⟩
  | 101 => ⟨S2x65536, .f32⟩
  | 102 => ⟨S_, .f32⟩
  | 103 => ⟨S2x65536, .f32⟩
  | 104 => ⟨S2x65536, .f32⟩
  | 105 => ⟨S_, .f32⟩
  | 106 => ⟨S2x65536, .f32⟩
  | 107 => ⟨S2x65536, .f32⟩
  | 108 => ⟨S_, .f32⟩
  | 109 => ⟨S2x65536, .f32⟩
  | 110 => ⟨S2x65536, .f32⟩
  | 111 => ⟨S_, .f32⟩
  | 112 => ⟨S2x65536, .f32⟩
  | 113 => ⟨S2x65536, .f32⟩
  | 114 => ⟨S_, .f32⟩
  | 115 => ⟨S2x65536, .f32⟩
  | 116 => ⟨S2x65536, .f32⟩
  | 117 => ⟨S2x65536, .f32⟩
  | 118 => ⟨S_, .i32⟩
  | 119 => ⟨S_, .i32⟩
  | 120 => ⟨S_, .f32⟩
  | 121 => ⟨S2x65536, .f32⟩
  | 122 => ⟨S2x65536, .f32⟩
  | 123 => ⟨S_, .f32⟩
  | 124 => ⟨S2x65536, .f32⟩
  | 125 => ⟨S2x65536, .f32⟩
  | 126 => ⟨S2x65536, .i32⟩
  | 127 => ⟨S_, .i32⟩
  | _ => ⟨S2x64x96x96, .f32⟩

abbrev hbmTy0_4 (i : Nat) : BufTy := match i % 128 with
  | 0 => ⟨S2x65536, .i32⟩
  | 1 => ⟨S2x65536, .i1⟩
  | 2 => ⟨S_, .i32⟩
  | 3 => ⟨S2x65536, .i32⟩
  | 4 => ⟨S2x65536, .i32⟩
  | 5 => ⟨S2x65536, .i32⟩
  | 6 => ⟨S_, .i32⟩
  | 7 => ⟨S2x65536, .i32⟩
  | 8 => ⟨S2x65536, .i1⟩
  | 9 => ⟨S_, .i32⟩
  | 10 => ⟨S2x65536, .i32⟩
  | 11 => ⟨S2x65536, .i32⟩
  | 12 => ⟨S2x65536, .i32⟩
  | 13 => ⟨S2x65536x1, .i32⟩
  | 14 => ⟨S2x65536x1, .i32⟩
  | 15 => ⟨S2x65536x2, .i32⟩
  | 16 => ⟨S2x65536x256, .bf16⟩
  | 17 => ⟨S2x65536, .f32⟩
  | 18 => ⟨S_, .f32⟩
  | 19 => ⟨S2x65536, .f32⟩
  | 20 => ⟨S2x65536, .f32⟩
  | 21 => ⟨S_, .f32⟩
  | 22 => ⟨S2x65536, .f32⟩
  | 23 => ⟨S2x65536, .f32⟩
  | 24 => ⟨S_, .f32⟩
  | 25 => ⟨S2x65536, .f32⟩
  | 26 => ⟨S2x65536, .f32⟩
  | 27 => ⟨S_, .f32⟩
  | 28 => ⟨S2x65536, .f32⟩
  | 29 => ⟨S2x65536, .f32⟩
  | 30 => ⟨S2x65536, .f32⟩
  | 31 => ⟨S_, .f32⟩
  | 32 => ⟨S2x65536, .f32⟩
  | 33 => ⟨S2x65536, .f32⟩
  | 34 => ⟨S_, .f32⟩
  | 35 => ⟨S2x65536, .f32⟩
  | 36 => ⟨S2x65536, .f32⟩
  | 37 => ⟨S_, .f32⟩
  | 38 => ⟨S2x65536, .f32⟩
  | 39 => ⟨S2x65536, .f32⟩
  | 40 => ⟨S_, .f32⟩
  | 41 => ⟨S2x65536, .f32⟩
  | 42 => ⟨S2x65536, .f32⟩
  | 43 => ⟨S2x65536x1, .f32⟩
  | 44 => ⟨S2x65536x1, .f32⟩
  | 45 => ⟨S2x65536x2, .f32⟩
  | 46 => ⟨S2x65536x2, .f32⟩
  | 47 => ⟨S2x65536x2, .f32⟩
  | 48 => ⟨S1x1x2, .f32⟩
  | 49 => ⟨S2x65536x2, .f32⟩
  | 50 => ⟨S2x65536x2, .f32⟩
  | 51 => ⟨S1x1x2, .f32⟩
  | 52 => ⟨S2x65536x2, .f32⟩
  | 53 => ⟨S2x65536x2, .f32⟩
  | 54 => ⟨S2x65536x4, .f32⟩
  | 55 => ⟨S2x65536x1, .f32⟩
  | 56 => ⟨S2x65536, .f32⟩
  | 57 => ⟨S2x65536x1, .f32⟩
  | 58 => ⟨S2x65536, .f32⟩
  | 59 => ⟨S2x65536, .f32⟩
  | 60 => ⟨S2x65536, .f32⟩
  | 61 => ⟨S_, .f32⟩
  | 62 => ⟨S2x65536, .f32⟩
  | 63 => ⟨S2x65536, .f32⟩
  | 64 => ⟨S131072x256, .bf16⟩
  | 65 => ⟨S131072x4, .f32⟩
  | 66 => ⟨S131072, .f32⟩
  | 67 => ⟨S1x131072x256, .bf16⟩
  | 68 => ⟨S1x131072x256, .bf16⟩
  | 69 => ⟨S1x131072x256, .bf16⟩
  | 70 => ⟨S1x131072x256, .bf16⟩
  | 71 => ⟨S4x131072x256, .bf16⟩
  | 72 => ⟨S1x131072x4, .f32⟩
  | 73 => ⟨S1x131072x4, .f32⟩
  | 74 => ⟨S1x131072x4, .f32⟩
  | 75 => ⟨S1x131072x4, .f32⟩
  | 76 => ⟨S4x131072x4, .f32⟩
  | 77 => ⟨S1x131072, .f32⟩
  | 78 => ⟨S1x131072, .f32⟩
  | 79 => ⟨S1x131072, .f32⟩
  | 80 => ⟨S1x131072, .f32⟩
  | 81 => ⟨S4x131072, .f32⟩
  | 82 => ⟨S_, .f32⟩
  | 83 => ⟨S131072, .f32⟩
  | 84 => ⟨S4x131072, .f32⟩
  | 85 => ⟨S1x131072, .f32⟩
  | 86 => ⟨S4x131072, .f32⟩
  | 87 => ⟨S4x131072, .f32⟩
  | 88 => ⟨S4x131072x1, .f32⟩
  | 89 => ⟨S1x256, .f32⟩
  | 90 => ⟨S1x256, .f32⟩
  | 91 => ⟨S1x256, .f32⟩
  | 92 => ⟨S1x256, .f32⟩
  | 93 => ⟨S1x2, .f32⟩
  | 94 => ⟨S131072x2, .f32⟩
  | 95 => ⟨S2x65536x2, .f32⟩
  | 96 => ⟨S2x65536x2, .f32⟩
  | 97 => ⟨S_, .f32⟩
  | 98 => ⟨S_, .f32⟩
  | 99 => ⟨S_, .f32⟩
  | 100 => ⟨S_, .f32⟩
  | _ => ⟨S2x64x96x96, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x64x96x96, .f32⟩

abbrev bufTy : (tb : Table) → Fin (tcTables nBuf tb) → BufTy
  | .hbm, ⟨i, _⟩ => hbmTy i
  | .local _ .vmem, ⟨0, _⟩ => ⟨S2048x576, .f32⟩
  | .local _ .vmem, ⟨1, _⟩ => ⟨S2048x576, .f32⟩
  | .local _ .vmem, ⟨2, _⟩ => ⟨S576x256, .f32⟩
  | .local _ .vmem, ⟨3, _⟩ => ⟨S2048x256, .bf16⟩
  | .local _ .vmem, ⟨4, _⟩ => ⟨S2048x256, .bf16⟩
  | .local _ .vmem, ⟨5, _⟩ => ⟨S4x4096x256, .bf16⟩
  | .local _ .vmem, ⟨6, _⟩ => ⟨S4x4096x256, .bf16⟩
  | .local _ .vmem, ⟨7, _⟩ => ⟨S4x4096x4, .f32⟩
  | .local _ .vmem, ⟨8, _⟩ => ⟨S4x4096x4, .f32⟩
  | .local _ .vmem, ⟨9, _⟩ => ⟨S4x4096x1, .f32⟩
  | .local _ .vmem, ⟨10, _⟩ => ⟨S4x4096x1, .f32⟩
  | .local _ .vmem, ⟨11, _⟩ => ⟨S4x256, .f32⟩
  | .local _ .vmem, ⟨12, _⟩ => ⟨S1x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S256x256, .f32⟩
  | .local _ .vmem, ⟨18, _⟩ => ⟨S1x256, .f32⟩
  | .local _ .vmem, ⟨19, _⟩ => ⟨S256x2, .f32⟩
  | .local _ .vmem, ⟨20, _⟩ => ⟨S1x2, .f32⟩
  | .local _ .vmem, ⟨21, _⟩ => ⟨S4096x2, .f32⟩
  | .local _ .vmem, ⟨22, _⟩ => ⟨S4096x2, .f32⟩
  | _, _ => ⟨S2x64x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_cst_1 : Ref sig .tc := ⟨.hbm, 15, rfl⟩
abbrev main_cst_2 : Ref sig .tc := ⟨.hbm, 16, rfl⟩
abbrev main_cst_3 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_call0_v0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_cst_9 : Ref sig .tc := ⟨.hbm, 69, rfl⟩
abbrev main_v39 : Ref sig .tc := ⟨.hbm, 70, rfl⟩
abbrev main_v40 : Ref sig .tc := ⟨.hbm, 71, rfl⟩
abbrev main_cst_10 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_11 : Ref sig .tc := ⟨.hbm, 76, rfl⟩
abbrev main_c_12 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_13 : Ref sig .tc := ⟨.hbm, 87, rfl⟩
abbrev main_v48 : Ref sig .tc := ⟨.hbm, 88, rfl⟩
abbrev main_v49 : Ref sig .tc := ⟨.hbm, 89, rfl⟩
abbrev main_cst_14 : Ref sig .tc := ⟨.hbm, 90, rfl⟩
abbrev main_v50 : Ref sig .tc := ⟨.hbm, 91, rfl⟩
abbrev main_v51 : Ref sig .tc := ⟨.hbm, 92, rfl⟩
abbrev main_cst_15 : Ref sig .tc := ⟨.hbm, 93, rfl⟩
abbrev main_v52 : Ref sig .tc := ⟨.hbm, 94, rfl⟩
abbrev main_v53 : Ref sig .tc := ⟨.hbm, 95, rfl⟩
abbrev main_cst_16 : Ref sig .tc := ⟨.hbm, 96, rfl⟩
abbrev main_v54 : Ref sig .tc := ⟨.hbm, 97, rfl⟩
abbrev main_v55 : Ref sig .tc := ⟨.hbm, 98, rfl⟩
abbrev main_cst_17 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_c_18 : Ref sig .tc := ⟨.hbm, 103, rfl⟩
abbrev main_c_19 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_v59 : Ref sig .tc := ⟨.hbm, 110, rfl⟩
abbrev main_v60 : Ref sig .tc := ⟨.hbm, 111, rfl⟩
abbrev main_c_20 : Ref sig .tc := ⟨.hbm, 112, rfl⟩
abbrev main_v61 : Ref sig .tc := ⟨.hbm, 113, rfl⟩
abbrev main_v62 : Ref sig .tc := ⟨.hbm, 114, rfl⟩
abbrev main_c_21 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_c_22 : Ref sig .tc := ⟨.hbm, 119, rfl⟩
abbrev main_v66 : Ref sig .tc := ⟨.hbm, 120, rfl⟩
abbrev main_v67 : Ref sig .tc := ⟨.hbm, 121, rfl⟩
abbrev main_c_23 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_24 : Ref sig .tc := ⟨.hbm, 131, rfl⟩
abbrev main_v76 : Ref sig .tc := ⟨.hbm, 132, rfl⟩
abbrev main_v77 : Ref sig .tc := ⟨.hbm, 133, rfl⟩
abbrev main_cst_25 : Ref sig .tc := ⟨.hbm, 134, rfl⟩
abbrev main_v78 : Ref sig .tc := ⟨.hbm, 135, rfl⟩
abbrev main_v79 : Ref sig .tc := ⟨.hbm, 136, rfl⟩
abbrev main_cst_26 : Ref sig .tc := ⟨.hbm, 137, rfl⟩
abbrev main_v80 : Ref sig .tc := ⟨.hbm, 138, rfl⟩
abbrev main_v81 : Ref sig .tc := ⟨.hbm, 139, rfl⟩
abbrev main_cst_27 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_cst_28 : Ref sig .tc := ⟨.hbm, 144, rfl⟩
abbrev main_v85 : Ref sig .tc := ⟨.hbm, 145, rfl⟩
abbrev main_v86 : Ref sig .tc := ⟨.hbm, 146, rfl⟩
abbrev main_cst_29 : Ref sig .tc := ⟨.hbm, 147, rfl⟩
abbrev main_v87 : Ref sig .tc := ⟨.hbm, 148, rfl⟩
abbrev main_v88 : Ref sig .tc := ⟨.hbm, 149, rfl⟩
abbrev main_cst_30 : Ref sig .tc := ⟨.hbm, 150, rfl⟩
abbrev main_v89 : Ref sig .tc := ⟨.hbm, 151, rfl⟩
abbrev main_v90 : Ref sig .tc := ⟨.hbm, 152, rfl⟩
abbrev main_cst_31 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_cst_32 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_cst_33 : Ref sig .tc := ⟨.hbm, 183, rfl⟩
abbrev main_cst_34 : Ref sig .tc := ⟨.hbm, 184, rfl⟩
abbrev main_call4_v0 : Ref sig .tc := ⟨.hbm, 185, rfl⟩
abbrev main_call4_v1 : Ref sig .tc := ⟨.hbm, 186, rfl⟩
abbrev main_call4_v2 : Ref sig .tc := ⟨.hbm, 187, rfl⟩
abbrev main_call4_v3 : Ref sig .tc := ⟨.hbm, 188, rfl⟩
abbrev main_call4_v4 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_cst_35 : Ref sig .tc := ⟨.hbm, 193, rfl⟩
abbrev main_v122 : Ref sig .tc := ⟨.hbm, 194, rfl⟩
abbrev main_v123 : Ref sig .tc := ⟨.hbm, 195, rfl⟩
abbrev main_cst_36 : Ref sig .tc := ⟨.hbm, 196, rfl⟩
abbrev main_v124 : Ref sig .tc := ⟨.hbm, 197, rfl⟩
abbrev main_v125 : Ref sig .tc := ⟨.hbm, 198, rfl⟩
abbrev main_cst_37 : Ref sig .tc := ⟨.hbm, 199, rfl⟩
abbrev main_v126 : Ref sig .tc := ⟨.hbm, 200, rfl⟩
abbrev main_v127 : Ref sig .tc := ⟨.hbm, 201, rfl⟩
abbrev main_cst_38 : Ref sig .tc := ⟨.hbm, 202, rfl⟩
abbrev main_v128 : Ref sig .tc := ⟨.hbm, 203, rfl⟩
abbrev main_v129 : Ref sig .tc := ⟨.hbm, 204, rfl⟩
abbrev main_cst_39 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_c_40 : Ref sig .tc := ⟨.hbm, 209, rfl⟩
abbrev main_c_41 : Ref sig .tc := ⟨.hbm, 210, rfl⟩
abbrev main_call5_v0 : Ref sig .tc := ⟨.hbm, 211, rfl⟩
abbrev main_call5_v1 : Ref sig .tc := ⟨.hbm, 212, rfl⟩
abbrev main_call5_v2 : Ref sig .tc := ⟨.hbm, 213, rfl⟩
abbrev main_call5_v3 : Ref sig .tc := ⟨.hbm, 214, rfl⟩
abbrev main_call5_v4 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_cst_42 : Ref sig .tc := ⟨.hbm, 220, rfl⟩
abbrev main_v137 : Ref sig .tc := ⟨.hbm, 221, rfl⟩
abbrev main_v138 : Ref sig .tc := ⟨.hbm, 222, rfl⟩
abbrev main_cst_43 : Ref sig .tc := ⟨.hbm, 223, rfl⟩
abbrev main_v139 : Ref sig .tc := ⟨.hbm, 224, rfl⟩
abbrev main_v140 : Ref sig .tc := ⟨.hbm, 225, rfl⟩
abbrev main_cst_44 : Ref sig .tc := ⟨.hbm, 226, rfl⟩
abbrev main_v141 : Ref sig .tc := ⟨.hbm, 227, rfl⟩
abbrev main_v142 : Ref sig .tc := ⟨.hbm, 228, rfl⟩
abbrev main_cst_45 : Ref sig .tc := ⟨.hbm, 229, rfl⟩
abbrev main_v143 : Ref sig .tc := ⟨.hbm, 230, rfl⟩
abbrev main_v144 : Ref sig .tc := ⟨.hbm, 231, rfl⟩
abbrev main_cst_46 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_c_47 : Ref sig .tc := ⟨.hbm, 236, rfl⟩
abbrev main_c_48 : Ref sig .tc := ⟨.hbm, 237, rfl⟩
abbrev main_call6_v0 : Ref sig .tc := ⟨.hbm, 238, rfl⟩
abbrev main_call6_v1 : Ref sig .tc := ⟨.hbm, 239, rfl⟩
abbrev main_call6_v2 : Ref sig .tc := ⟨.hbm, 240, rfl⟩
abbrev main_call6_v3 : Ref sig .tc := ⟨.hbm, 241, rfl⟩
abbrev main_call6_v4 : Ref sig .tc := ⟨.hbm, 242, rfl⟩
abbrev main_v148 : Ref sig .tc := ⟨.hbm, 243, rfl⟩
abbrev main_v149 : Ref sig .tc := ⟨.hbm, 244, rfl⟩
abbrev main_c_49 : Ref sig .tc := ⟨.hbm, 245, rfl⟩
abbrev main_v150 : Ref sig .tc := ⟨.hbm, 246, rfl⟩
abbrev main_v151 : Ref sig .tc := ⟨.hbm, 247, rfl⟩
abbrev main_c_50 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_c_51 : Ref sig .tc := ⟨.hbm, 252, rfl⟩
abbrev main_v155 : Ref sig .tc := ⟨.hbm, 253, rfl⟩
abbrev main_v156 : Ref sig .tc := ⟨.hbm, 254, rfl⟩
abbrev main_c_52 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_cst_53 : Ref sig .tc := ⟨.hbm, 264, rfl⟩
abbrev main_v165 : Ref sig .tc := ⟨.hbm, 265, rfl⟩
abbrev main_v166 : Ref sig .tc := ⟨.hbm, 266, rfl⟩
abbrev main_cst_54 : Ref sig .tc := ⟨.hbm, 267, rfl⟩
abbrev main_v167 : Ref sig .tc := ⟨.hbm, 268, rfl⟩
abbrev main_v168 : Ref sig .tc := ⟨.hbm, 269, rfl⟩
abbrev main_cst_55 : Ref sig .tc := ⟨.hbm, 270, rfl⟩
abbrev main_v169 : Ref sig .tc := ⟨.hbm, 271, rfl⟩
abbrev main_v170 : Ref sig .tc := ⟨.hbm, 272, rfl⟩
abbrev main_cst_56 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_cst_57 : Ref sig .tc := ⟨.hbm, 277, rfl⟩
abbrev main_v174 : Ref sig .tc := ⟨.hbm, 278, rfl⟩
abbrev main_v175 : Ref sig .tc := ⟨.hbm, 279, rfl⟩
abbrev main_cst_58 : Ref sig .tc := ⟨.hbm, 280, rfl⟩
abbrev main_v176 : Ref sig .tc := ⟨.hbm, 281, rfl⟩
abbrev main_v177 : Ref sig .tc := ⟨.hbm, 282, rfl⟩
abbrev main_cst_59 : Ref sig .tc := ⟨.hbm, 283, rfl⟩
abbrev main_v178 : Ref sig .tc := ⟨.hbm, 284, rfl⟩
abbrev main_v179 : Ref sig .tc := ⟨.hbm, 285, rfl⟩
abbrev main_cst_60 : Ref sig .tc := ⟨.hbm, 286, rfl⟩
abbrev main_v180 : Ref sig .tc := ⟨.hbm, 287, rfl⟩
abbrev main_v181 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_cst_61 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_v205 : Ref sig .tc := ⟨.hbm, 313, rfl⟩
abbrev main_v206 : Ref sig .tc := ⟨.hbm, 314, rfl⟩
abbrev main_v207 : Ref sig .tc := ⟨.hbm, 315, rfl⟩
abbrev main_cst_62 : Ref sig .tc := ⟨.hbm, 316, rfl⟩
abbrev main_cst_63 : Ref sig .tc := ⟨.hbm, 317, rfl⟩
abbrev main_call7_v0 : Ref sig .tc := ⟨.hbm, 318, rfl⟩
abbrev main_call7_v1 : Ref sig .tc := ⟨.hbm, 319, rfl⟩
abbrev main_call7_v2 : Ref sig .tc := ⟨.hbm, 320, rfl⟩
abbrev main_call7_v3 : Ref sig .tc := ⟨.hbm, 321, rfl⟩
abbrev main_call7_v4 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_64 : Ref sig .tc := ⟨.hbm, 326, rfl⟩
abbrev main_v211 : Ref sig .tc := ⟨.hbm, 327, rfl⟩
abbrev main_v212 : Ref sig .tc := ⟨.hbm, 328, rfl⟩
abbrev main_cst_65 : Ref sig .tc := ⟨.hbm, 329, rfl⟩
abbrev main_v213 : Ref sig .tc := ⟨.hbm, 330, rfl⟩
abbrev main_v214 : Ref sig .tc := ⟨.hbm, 331, rfl⟩
abbrev main_cst_66 : Ref sig .tc := ⟨.hbm, 332, rfl⟩
abbrev main_v215 : Ref sig .tc := ⟨.hbm, 333, rfl⟩
abbrev main_v216 : Ref sig .tc := ⟨.hbm, 334, rfl⟩
abbrev main_cst_67 : Ref sig .tc := ⟨.hbm, 335, rfl⟩
abbrev main_v217 : Ref sig .tc := ⟨.hbm, 336, rfl⟩
abbrev main_v218 : Ref sig .tc := ⟨.hbm, 337, rfl⟩
abbrev main_cst_68 : Ref sig .tc := ⟨.hbm, 338, rfl⟩
abbrev main_v219 : Ref sig .tc := ⟨.hbm, 339, rfl⟩
abbrev main_v220 : Ref sig .tc := ⟨.hbm, 340, rfl⟩
abbrev main_v221 : Ref sig .tc := ⟨.hbm, 341, rfl⟩
abbrev main_c_69 : Ref sig .tc := ⟨.hbm, 342, rfl⟩
abbrev main_c_70 : Ref sig .tc := ⟨.hbm, 343, rfl⟩
abbrev main_call8_v0 : Ref sig .tc := ⟨.hbm, 344, rfl⟩
abbrev main_call8_v1 : Ref sig .tc := ⟨.hbm, 345, rfl⟩
abbrev main_call8_v2 : Ref sig .tc := ⟨.hbm, 346, rfl⟩
abbrev main_call8_v3 : Ref sig .tc := ⟨.hbm, 347, rfl⟩
abbrev main_call8_v4 : Ref sig .tc := ⟨.hbm, 348, rfl⟩
abbrev main_v222 : Ref sig .tc := ⟨.hbm, 349, rfl⟩
abbrev main_v223 : Ref sig .tc := ⟨.hbm, 350, rfl⟩
abbrev main_v224 : Ref sig .tc := ⟨.hbm, 351, rfl⟩
abbrev main_v225 : Ref sig .tc := ⟨.hbm, 352, rfl⟩
abbrev main_cst_71 : Ref sig .tc := ⟨.hbm, 353, rfl⟩
abbrev main_v226 : Ref sig .tc := ⟨.hbm, 354, rfl⟩
abbrev main_v227 : Ref sig .tc := ⟨.hbm, 355, rfl⟩
abbrev main_cst_72 : Ref sig .tc := ⟨.hbm, 356, rfl⟩
abbrev main_v228 : Ref sig .tc := ⟨.hbm, 357, rfl⟩
abbrev main_v229 : Ref sig .tc := ⟨.hbm, 358, rfl⟩
abbrev main_cst_73 : Ref sig .tc := ⟨.hbm, 359, rfl⟩
abbrev main_v230 : Ref sig .tc := ⟨.hbm, 360, rfl⟩
abbrev main_v231 : Ref sig .tc := ⟨.hbm, 361, rfl⟩
abbrev main_cst_74 : Ref sig .tc := ⟨.hbm, 362, rfl⟩
abbrev main_v232 : Ref sig .tc := ⟨.hbm, 363, rfl⟩
abbrev main_v233 : Ref sig .tc := ⟨.hbm, 364, rfl⟩
abbrev main_cst_75 : Ref sig .tc := ⟨.hbm, 365, rfl⟩
abbrev main_v234 : Ref sig .tc := ⟨.hbm, 366, rfl⟩
abbrev main_v235 : Ref sig .tc := ⟨.hbm, 367, rfl⟩
abbrev main_v236 : Ref sig .tc := ⟨.hbm, 368, rfl⟩
abbrev main_c_76 : Ref sig .tc := ⟨.hbm, 369, rfl⟩
abbrev main_c_77 : Ref sig .tc := ⟨.hbm, 370, rfl⟩
abbrev main_call9_v0 : Ref sig .tc := ⟨.hbm, 371, rfl⟩
abbrev main_call9_v1 : Ref sig .tc := ⟨.hbm, 372, rfl⟩
abbrev main_call9_v2 : Ref sig .tc := ⟨.hbm, 373, rfl⟩
abbrev main_call9_v3 : Ref sig .tc := ⟨.hbm, 374, rfl⟩
abbrev main_call9_v4 : Ref sig .tc := ⟨.hbm, 375, rfl⟩
abbrev main_v237 : Ref sig .tc := ⟨.hbm, 376, rfl⟩
abbrev main_v238 : Ref sig .tc := ⟨.hbm, 377, rfl⟩
abbrev main_c_78 : Ref sig .tc := ⟨.hbm, 378, rfl⟩
abbrev main_v239 : Ref sig .tc := ⟨.hbm, 379, rfl⟩
abbrev main_v240 : Ref sig .tc := ⟨.hbm, 380, rfl⟩
abbrev main_c_79 : Ref sig .tc := ⟨.hbm, 381, rfl⟩
abbrev main_v241 : Ref sig .tc := ⟨.hbm, 382, rfl⟩
abbrev main_v242 : Ref sig .tc := ⟨.hbm, 383, rfl⟩
abbrev main_v243 : Ref sig .tc := ⟨.hbm, 384, rfl⟩
abbrev main_c_80 : Ref sig .tc := ⟨.hbm, 385, rfl⟩
abbrev main_v244 : Ref sig .tc := ⟨.hbm, 386, rfl⟩
abbrev main_v245 : Ref sig .tc := ⟨.hbm, 387, rfl⟩
abbrev main_c_81 : Ref sig .tc := ⟨.hbm, 388, rfl⟩
abbrev main_v246 : Ref sig .tc := ⟨.hbm, 389, rfl⟩
abbrev main_v247 : Ref sig .tc := ⟨.hbm, 390, rfl⟩
abbrev main_v248 : Ref sig .tc := ⟨.hbm, 391, rfl⟩
abbrev main_v249 : Ref sig .tc := ⟨.hbm, 392, rfl⟩
abbrev main_v250 : Ref sig .tc := ⟨.hbm, 393, rfl⟩
abbrev main_v251 : Ref sig .tc := ⟨.hbm, 394, rfl⟩
abbrev main_v252 : Ref sig .tc := ⟨.hbm, 395, rfl⟩
abbrev main_v253 : Ref sig .tc := ⟨.hbm, 396, rfl⟩
abbrev main_cst_82 : Ref sig .tc := ⟨.hbm, 397, rfl⟩
abbrev main_v254 : Ref sig .tc := ⟨.hbm, 398, rfl⟩
abbrev main_v255 : Ref sig .tc := ⟨.hbm, 399, rfl⟩
abbrev main_cst_83 : Ref sig .tc := ⟨.hbm, 400, rfl⟩
abbrev main_v256 : Ref sig .tc := ⟨.hbm, 401, rfl⟩
abbrev main_v257 : Ref sig .tc := ⟨.hbm, 402, rfl⟩
abbrev main_cst_84 : Ref sig .tc := ⟨.hbm, 403, rfl⟩
abbrev main_v258 : Ref sig .tc := ⟨.hbm, 404, rfl⟩
abbrev main_v259 : Ref sig .tc := ⟨.hbm, 405, rfl⟩
abbrev main_cst_85 : Ref sig .tc := ⟨.hbm, 406, rfl⟩
abbrev main_v260 : Ref sig .tc := ⟨.hbm, 407, rfl⟩
abbrev main_v261 : Ref sig .tc := ⟨.hbm, 408, rfl⟩
abbrev main_v262 : Ref sig .tc := ⟨.hbm, 409, rfl⟩
abbrev main_cst_86 : Ref sig .tc := ⟨.hbm, 410, rfl⟩
abbrev main_v263 : Ref sig .tc := ⟨.hbm, 411, rfl⟩
abbrev main_v264 : Ref sig .tc := ⟨.hbm, 412, rfl⟩
abbrev main_cst_87 : Ref sig .tc := ⟨.hbm, 413, rfl⟩
abbrev main_v265 : Ref sig .tc := ⟨.hbm, 414, rfl⟩
abbrev main_v266 : Ref sig .tc := ⟨.hbm, 415, rfl⟩
abbrev main_cst_88 : Ref sig .tc := ⟨.hbm, 416, rfl⟩
abbrev main_v267 : Ref sig .tc := ⟨.hbm, 417, rfl⟩
abbrev main_v268 : Ref sig .tc := ⟨.hbm, 418, rfl⟩
abbrev main_cst_89 : Ref sig .tc := ⟨.hbm, 419, rfl⟩
abbrev main_v269 : Ref sig .tc := ⟨.hbm, 420, rfl⟩
abbrev main_v270 : Ref sig .tc := ⟨.hbm, 421, rfl⟩
abbrev main_v271 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_v275 : Ref sig .tc := ⟨.hbm, 426, rfl⟩
abbrev main_v276 : Ref sig .tc := ⟨.hbm, 427, rfl⟩
abbrev main_v277 : Ref sig .tc := ⟨.hbm, 428, rfl⟩
abbrev main_v278 : Ref sig .tc := ⟨.hbm, 429, rfl⟩
abbrev main_v279 : Ref sig .tc := ⟨.hbm, 430, rfl⟩
abbrev main_v280 : Ref sig .tc := ⟨.hbm, 431, rfl⟩
abbrev main_v281 : Ref sig .tc := ⟨.hbm, 432, rfl⟩
abbrev main_v282 : Ref sig .tc := ⟨.hbm, 433, rfl⟩
abbrev main_v283 : Ref sig .tc := ⟨.hbm, 434, rfl⟩
abbrev main_v284 : Ref sig .tc := ⟨.hbm, 435, rfl⟩
abbrev main_v285 : Ref sig .tc := ⟨.hbm, 436, rfl⟩
abbrev main_v286 : Ref sig .tc := ⟨.hbm, 437, rfl⟩
abbrev main_v287 : Ref sig .tc := ⟨.hbm, 438, rfl⟩
abbrev main_v288 : Ref sig .tc := ⟨.hbm, 439, rfl⟩
abbrev main_cst_90 : Ref sig .tc := ⟨.hbm, 440, rfl⟩
abbrev main_v289 : Ref sig .tc := ⟨.hbm, 441, rfl⟩
abbrev main_v290 : Ref sig .tc := ⟨.hbm, 442, rfl⟩
abbrev main_v291 : Ref sig .tc := ⟨.hbm, 443, rfl⟩
abbrev main_v292 : Ref sig .tc := ⟨.hbm, 444, rfl⟩
abbrev main_v293 : Ref sig .tc := ⟨.hbm, 445, rfl⟩
abbrev main_v294 : Ref sig .tc := ⟨.hbm, 446, rfl⟩
abbrev main_v295 : Ref sig .tc := ⟨.hbm, 447, rfl⟩
abbrev main_v296 : Ref sig .tc := ⟨.hbm, 448, rfl⟩
abbrev main_cst_91 : Ref sig .tc := ⟨.hbm, 449, rfl⟩
abbrev main_cst_92 : Ref sig .tc := ⟨.hbm, 450, rfl⟩
abbrev main_call10_v0 : Ref sig .tc := ⟨.hbm, 451, rfl⟩
abbrev main_call10_v1 : Ref sig .tc := ⟨.hbm, 452, rfl⟩
abbrev main_call10_v2 : Ref sig .tc := ⟨.hbm, 453, rfl⟩
abbrev main_call10_v3 : Ref sig .tc := ⟨.hbm, 454, rfl⟩
abbrev main_call10_v4 : Ref sig .tc := ⟨.hbm, 455, rfl⟩
abbrev main_v297 : Ref sig .tc := ⟨.hbm, 456, rfl⟩
abbrev main_v298 : Ref sig .tc := ⟨.hbm, 457, rfl⟩
abbrev main_v299 : Ref sig .tc := ⟨.hbm, 458, rfl⟩
abbrev main_cst_93 : Ref sig .tc := ⟨.hbm, 459, rfl⟩
abbrev main_v300 : Ref sig .tc := ⟨.hbm, 460, rfl⟩
abbrev main_v301 : Ref sig .tc := ⟨.hbm, 461, rfl⟩
abbrev main_cst_94 : Ref sig .tc := ⟨.hbm, 462, rfl⟩
abbrev main_v302 : Ref sig .tc := ⟨.hbm, 463, rfl⟩
abbrev main_v303 : Ref sig .tc := ⟨.hbm, 464, rfl⟩
abbrev main_cst_95 : Ref sig .tc := ⟨.hbm, 465, rfl⟩
abbrev main_v304 : Ref sig .tc := ⟨.hbm, 466, rfl⟩
abbrev main_v305 : Ref sig .tc := ⟨.hbm, 467, rfl⟩
abbrev main_cst_96 : Ref sig .tc := ⟨.hbm, 468, rfl⟩
abbrev main_v306 : Ref sig .tc := ⟨.hbm, 469, rfl⟩
abbrev main_v307 : Ref sig .tc := ⟨.hbm, 470, rfl⟩
abbrev main_cst_97 : Ref sig .tc := ⟨.hbm, 471, rfl⟩
abbrev main_v308 : Ref sig .tc := ⟨.hbm, 472, rfl⟩
abbrev main_v309 : Ref sig .tc := ⟨.hbm, 473, rfl⟩
abbrev main_v310 : Ref sig .tc := ⟨.hbm, 474, rfl⟩
abbrev main_c_98 : Ref sig .tc := ⟨.hbm, 475, rfl⟩
abbrev main_c_99 : Ref sig .tc := ⟨.hbm, 476, rfl⟩
abbrev main_call11_v0 : Ref sig .tc := ⟨.hbm, 477, rfl⟩
abbrev main_call11_v1 : Ref sig .tc := ⟨.hbm, 478, rfl⟩
abbrev main_call11_v2 : Ref sig .tc := ⟨.hbm, 479, rfl⟩
abbrev main_call11_v3 : Ref sig .tc := ⟨.hbm, 480, rfl⟩
abbrev main_call11_v4 : Ref sig .tc := ⟨.hbm, 481, rfl⟩
abbrev main_v311 : Ref sig .tc := ⟨.hbm, 482, rfl⟩
abbrev main_v312 : Ref sig .tc := ⟨.hbm, 483, rfl⟩
abbrev main_v313 : Ref sig .tc := ⟨.hbm, 484, rfl⟩
abbrev main_v314 : Ref sig .tc := ⟨.hbm, 485, rfl⟩
abbrev main_cst_100 : Ref sig .tc := ⟨.hbm, 486, rfl⟩
abbrev main_v315 : Ref sig .tc := ⟨.hbm, 487, rfl⟩
abbrev main_v316 : Ref sig .tc := ⟨.hbm, 488, rfl⟩
abbrev main_cst_101 : Ref sig .tc := ⟨.hbm, 489, rfl⟩
abbrev main_v317 : Ref sig .tc := ⟨.hbm, 490, rfl⟩
abbrev main_v318 : Ref sig .tc := ⟨.hbm, 491, rfl⟩
abbrev main_cst_102 : Ref sig .tc := ⟨.hbm, 492, rfl⟩
abbrev main_v319 : Ref sig .tc := ⟨.hbm, 493, rfl⟩
abbrev main_v320 : Ref sig .tc := ⟨.hbm, 494, rfl⟩
abbrev main_cst_103 : Ref sig .tc := ⟨.hbm, 495, rfl⟩
abbrev main_v321 : Ref sig .tc := ⟨.hbm, 496, rfl⟩
abbrev main_v322 : Ref sig .tc := ⟨.hbm, 497, rfl⟩
abbrev main_cst_104 : Ref sig .tc := ⟨.hbm, 498, rfl⟩
abbrev main_v323 : Ref sig .tc := ⟨.hbm, 499, rfl⟩
abbrev main_v324 : Ref sig .tc := ⟨.hbm, 500, rfl⟩
abbrev main_v325 : Ref sig .tc := ⟨.hbm, 501, rfl⟩
abbrev main_c_105 : Ref sig .tc := ⟨.hbm, 502, rfl⟩
abbrev main_c_106 : Ref sig .tc := ⟨.hbm, 503, rfl⟩
abbrev main_call12_v0 : Ref sig .tc := ⟨.hbm, 504, rfl⟩
abbrev main_call12_v1 : Ref sig .tc := ⟨.hbm, 505, rfl⟩
abbrev main_call12_v2 : Ref sig .tc := ⟨.hbm, 506, rfl⟩
abbrev main_call12_v3 : Ref sig .tc := ⟨.hbm, 507, rfl⟩
abbrev main_call12_v4 : Ref sig .tc := ⟨.hbm, 508, rfl⟩
abbrev main_v326 : Ref sig .tc := ⟨.hbm, 509, rfl⟩
abbrev main_v327 : Ref sig .tc := ⟨.hbm, 510, rfl⟩
abbrev main_c_107 : Ref sig .tc := ⟨.hbm, 511, rfl⟩
abbrev main_v328 : Ref sig .tc := ⟨.hbm, 512, rfl⟩
abbrev main_v329 : Ref sig .tc := ⟨.hbm, 513, rfl⟩
abbrev main_c_108 : Ref sig .tc := ⟨.hbm, 514, rfl⟩
abbrev main_v330 : Ref sig .tc := ⟨.hbm, 515, rfl⟩
abbrev main_v331 : Ref sig .tc := ⟨.hbm, 516, rfl⟩
abbrev main_v332 : Ref sig .tc := ⟨.hbm, 517, rfl⟩
abbrev main_c_109 : Ref sig .tc := ⟨.hbm, 518, rfl⟩
abbrev main_v333 : Ref sig .tc := ⟨.hbm, 519, rfl⟩
abbrev main_v334 : Ref sig .tc := ⟨.hbm, 520, rfl⟩
abbrev main_c_110 : Ref sig .tc := ⟨.hbm, 521, rfl⟩
abbrev main_v335 : Ref sig .tc := ⟨.hbm, 522, rfl⟩
abbrev main_v336 : Ref sig .tc := ⟨.hbm, 523, rfl⟩
abbrev main_v337 : Ref sig .tc := ⟨.hbm, 524, rfl⟩
abbrev main_v338 : Ref sig .tc := ⟨.hbm, 525, rfl⟩
abbrev main_v339 : Ref sig .tc := ⟨.hbm, 526, rfl⟩
abbrev main_v340 : Ref sig .tc := ⟨.hbm, 527, rfl⟩
abbrev main_v341 : Ref sig .tc := ⟨.hbm, 528, rfl⟩
abbrev main_v342 : Ref sig .tc := ⟨.hbm, 529, rfl⟩
abbrev main_cst_111 : Ref sig .tc := ⟨.hbm, 530, rfl⟩
abbrev main_v343 : Ref sig .tc := ⟨.hbm, 531, rfl⟩
abbrev main_v344 : Ref sig .tc := ⟨.hbm, 532, rfl⟩
abbrev main_cst_112 : Ref sig .tc := ⟨.hbm, 533, rfl⟩
abbrev main_v345 : Ref sig .tc := ⟨.hbm, 534, rfl⟩
abbrev main_v346 : Ref sig .tc := ⟨.hbm, 535, rfl⟩
abbrev main_cst_113 : Ref sig .tc := ⟨.hbm, 536, rfl⟩
abbrev main_v347 : Ref sig .tc := ⟨.hbm, 537, rfl⟩
abbrev main_v348 : Ref sig .tc := ⟨.hbm, 538, rfl⟩
abbrev main_cst_114 : Ref sig .tc := ⟨.hbm, 539, rfl⟩
abbrev main_v349 : Ref sig .tc := ⟨.hbm, 540, rfl⟩
abbrev main_v350 : Ref sig .tc := ⟨.hbm, 541, rfl⟩
abbrev main_v351 : Ref sig .tc := ⟨.hbm, 542, rfl⟩
abbrev main_cst_115 : Ref sig .tc := ⟨.hbm, 543, rfl⟩
abbrev main_v352 : Ref sig .tc := ⟨.hbm, 544, rfl⟩
abbrev main_v353 : Ref sig .tc := ⟨.hbm, 545, rfl⟩
abbrev main_cst_116 : Ref sig .tc := ⟨.hbm, 546, rfl⟩
abbrev main_v354 : Ref sig .tc := ⟨.hbm, 547, rfl⟩
abbrev main_v355 : Ref sig .tc := ⟨.hbm, 548, rfl⟩
abbrev main_cst_117 : Ref sig .tc := ⟨.hbm, 549, rfl⟩
abbrev main_v356 : Ref sig .tc := ⟨.hbm, 550, rfl⟩
abbrev main_v357 : Ref sig .tc := ⟨.hbm, 551, rfl⟩
abbrev main_cst_118 : Ref sig .tc := ⟨.hbm, 552, rfl⟩
abbrev main_v358 : Ref sig .tc := ⟨.hbm, 553, rfl⟩
abbrev main_v359 : Ref sig .tc := ⟨.hbm, 554, rfl⟩
abbrev main_v360 : Ref sig .tc := ⟨.hbm, 555, rfl⟩
abbrev main_v361 : Ref sig .tc := ⟨.hbm, 556, rfl⟩
abbrev main_v362 : Ref sig .tc := ⟨.hbm, 557, rfl⟩
abbrev main_v363 : Ref sig .tc := ⟨.hbm, 558, rfl⟩
abbrev main_v364 : Ref sig .tc := ⟨.hbm, 559, rfl⟩
abbrev main_v365 : Ref sig .tc := ⟨.hbm, 560, rfl⟩
abbrev main_v366 : Ref sig .tc := ⟨.hbm, 561, rfl⟩
abbrev main_v367 : Ref sig .tc := ⟨.hbm, 562, rfl⟩
abbrev main_v368 : Ref sig .tc := ⟨.hbm, 563, rfl⟩
abbrev main_v369 : Ref sig .tc := ⟨.hbm, 564, rfl⟩
abbrev main_v370 : Ref sig .tc := ⟨.hbm, 565, rfl⟩
abbrev main_v371 : Ref sig .tc := ⟨.hbm, 566, rfl⟩
abbrev main_v372 : Ref sig .tc := ⟨.hbm, 567, rfl⟩
abbrev main_v373 : Ref sig .tc := ⟨.hbm, 568, rfl⟩
abbrev main_v374 : Ref sig .tc := ⟨.hbm, 569, rfl⟩
abbrev main_v375 : Ref sig .tc := ⟨.hbm, 570, rfl⟩
abbrev main_v376 : Ref sig .tc := ⟨.hbm, 571, rfl⟩
abbrev main_v377 : Ref sig .tc := ⟨.hbm, 572, rfl⟩
abbrev main_cst_119 : Ref sig .tc := ⟨.hbm, 573, rfl⟩
abbrev main_v378 : Ref sig .tc := ⟨.hbm, 574, rfl⟩
abbrev main_v379 : Ref sig .tc := ⟨.hbm, 575, rfl⟩
abbrev main_v380 : Ref sig .tc := ⟨.hbm, 576, rfl⟩
abbrev main_v381 : Ref sig .tc := ⟨.hbm, 577, rfl⟩
abbrev main_v382 : Ref sig .tc := ⟨.hbm, 578, rfl⟩
abbrev main_v383 : Ref sig .tc := ⟨.hbm, 579, rfl⟩
abbrev main_v384 : Ref sig .tc := ⟨.hbm, 580, rfl⟩
abbrev main_v385 : Ref sig .tc := ⟨.hbm, 581, rfl⟩
abbrev main_v386 : Ref sig .tc := ⟨.hbm, 582, rfl⟩
abbrev main_v387 : Ref sig .tc := ⟨.hbm, 583, rfl⟩
abbrev main_v388 : Ref sig .tc := ⟨.hbm, 584, rfl⟩
abbrev main_v389 : Ref sig .tc := ⟨.hbm, 585, rfl⟩
abbrev main_v390 : Ref sig .tc := ⟨.hbm, 586, rfl⟩
abbrev main_v391 : Ref sig .tc := ⟨.hbm, 587, rfl⟩
abbrev main_v392 : Ref sig .tc := ⟨.hbm, 588, rfl⟩
abbrev main_v393 : Ref sig .tc := ⟨.hbm, 589, rfl⟩
abbrev main_v394 : Ref sig .tc := ⟨.hbm, 590, rfl⟩
abbrev main_v395 : Ref sig .tc := ⟨.hbm, 591, rfl⟩
abbrev main_v396 : Ref sig .tc := ⟨.hbm, 592, rfl⟩
abbrev main_v397 : Ref sig .tc := ⟨.hbm, 593, rfl⟩
abbrev main_cst_120 : Ref sig .tc := ⟨.hbm, 594, rfl⟩
abbrev main_v398 : Ref sig .tc := ⟨.hbm, 595, rfl⟩
abbrev main_v399 : Ref sig .tc := ⟨.hbm, 596, rfl⟩
abbrev main_v400 : Ref sig .tc := ⟨.hbm, 597, rfl⟩
abbrev main_v401 : Ref sig .tc := ⟨.hbm, 598, rfl⟩
abbrev main_v402 : Ref sig .tc := ⟨.hbm, 599, rfl⟩
abbrev main_v403 : Ref sig .tc := ⟨.hbm, 600, rfl⟩
abbrev main_v404 : Ref sig .tc := ⟨.hbm, 601, rfl⟩
abbrev main_v405 : Ref sig .tc := ⟨.hbm, 602, rfl⟩
abbrev main_v406 : Ref sig .tc := ⟨.hbm, 603, rfl⟩
abbrev main_v407 : Ref sig .tc := ⟨.hbm, 604, rfl⟩
abbrev main_v408 : Ref sig .tc := ⟨.hbm, 605, rfl⟩
abbrev main_v409 : Ref sig .tc := ⟨.hbm, 606, rfl⟩
abbrev main_v410 : Ref sig .tc := ⟨.hbm, 607, rfl⟩
abbrev main_v411 : Ref sig .tc := ⟨.hbm, 608, rfl⟩
abbrev main_cst_121 : Ref sig .tc := ⟨.hbm, 609, rfl⟩
abbrev main_v412 : Ref sig .tc := ⟨.hbm, 610, rfl⟩
abbrev main_cst_122 : Ref sig .tc := ⟨.hbm, 611, rfl⟩
abbrev main_v413 : Ref sig .tc := ⟨.hbm, 612, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem13_1 : DmaSem sig := 22

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x4096x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x2 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x2 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S4096x2 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S580x256_S576x256_0_0 : S580x256.Slices ![0, 0] S576x256
  slices_S580x256_S4x256_576_0 : S580x256.Slices ![576, 0] S4x256
  pads_S2x64x96x96_S2x64x98x98_000_000_110_110 : S2x64x96x96.Pads (![0, 0, 1, 1] : Fin 4 → Nat) ![0, 0, 1, 1] ![0, 0, 0, 0] S2x64x98x98
  h_S_ : 0 < S_.numel
  slices_S2x64x98x98_S2x64x96x96_0_0_0_0 : S2x64x98x98.Slices ![0, 0, 0, 0] S2x64x96x96
  slices_S2x64x98x98_S2x64x96x96_0_0_0_1 : S2x64x98x98.Slices ![0, 0, 0, 1] S2x64x96x96
  slices_S2x64x98x98_S2x64x96x96_0_0_0_2 : S2x64x98x98.Slices ![0, 0, 0, 2] S2x64x96x96
  slices_S2x64x98x98_S2x64x96x96_0_0_1_0 : S2x64x98x98.Slices ![0, 0, 1, 0] S2x64x96x96
  slices_S2x64x98x98_S2x64x96x96_0_0_1_1 : S2x64x98x98.Slices ![0, 0, 1, 1] S2x64x96x96
  slices_S2x64x98x98_S2x64x96x96_0_0_1_2 : S2x64x98x98.Slices ![0, 0, 1, 2] S2x64x96x96
  slices_S2x64x98x98_S2x64x96x96_0_0_2_0 : S2x64x98x98.Slices ![0, 0, 2, 0] S2x64x96x96
  slices_S2x64x98x98_S2x64x96x96_0_0_2_1 : S2x64x98x98.Slices ![0, 0, 2, 1] S2x64x96x96
  slices_S2x64x98x98_S2x64x96x96_0_0_2_2 : S2x64x98x98.Slices ![0, 0, 2, 2] S2x64x96x96
  bcast_S2x64x96x96_S2x64x1x96x96_0_1_3_4 : S2x64x96x96.BroadcastsInDim S2x64x1x96x96 (![0, 1, 3, 4] : Fin 4 → Fin S2x64x1x96x96.rank)
  concatenates_S2x64x1x96x96_S2x64x1x96x96_S2x64x1x96x96_S2x64x1x96x96_S2x64x1x96x96_S2x64x1x96x96_S2x64x1x96x96_S2x64x1x96x96_S2x64x1x96x96_S2x64x9x96x96_d2 : Shape.Concatenates [S2x64x1x96x96, S2x64x1x96x96, S2x64x1x96x96, S2x64x1x96x96, S2x64x1x96x96, S2x64x1x96x96, S2x64x1x96x96, S2x64x1x96x96, S2x64x1x96x96] S2x64x9x96x96 2
  shapeCasts_S2x64x9x96x96_S2x576x96x96 : S2x64x9x96x96.ShapeCasts S2x576x96x96
  transposes_S2x576x96x96_S2x96x96x576_0_2_3_1 : S2x576x96x96.Transposes [0, 2, 3, 1] S2x96x96x576
  shapeCasts_S2x96x96x576_S18432x576 : S2x96x96x576.ShapeCasts S18432x576
  inb_S2048x576_S2048x576_0_0 : ∀ a, (![0, 0] : Fin 2 → Nat) a + S2048x576.size a ≤ S2048x576.size a
  h_S2048x576 : 0 < S2048x576.numel
  shapeCasts_S2048x576_S2048x576 : S2048x576.ShapeCasts S2048x576
  bitsLt_bf16_f32 : FTy.bits .bf16 < FTy.bits .f32
  inb_S576x256_S576x256_0_0 : ∀ a, (![0, 0] : Fin 2 → Nat) a + S576x256.size a ≤ S576x256.size a
  h_S576x256 : 0 < S576x256.numel
  shapeCasts_S576x256_S576x256 : S576x256.ShapeCasts S576x256
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  shapeCasts_S18432x256_S2x96x96x256 : S18432x256.ShapeCasts S2x96x96x256
  bcast_S2_S1x1x2_2 : S2.BroadcastsInDim S1x1x2 (![2] : Fin 1 → Fin S1x1x2.rank)
  bcast_S1x1x2_S2x65536x2_0_1_2 : S1x1x2.BroadcastsInDim S2x65536x2 (![0, 1, 2] : Fin 3 → Fin S2x65536x2.rank)
  bcast_S_S2x65536x2 : S_.BroadcastsInDim S2x65536x2 (![] : Fin 0 → Fin S2x65536x2.rank)
  slices_S2x65536x2_S2x65536x1_0_0_0 : S2x65536x2.Slices ![0, 0, 0] S2x65536x1
  shapeCasts_S2x65536x1_S2x65536 : S2x65536x1.ShapeCasts S2x65536
  bcast_S_S2x65536 : S_.BroadcastsInDim S2x65536 (![] : Fin 0 → Fin S2x65536.rank)
  slices_S2x65536x2_S2x65536x1_0_0_1 : S2x65536x2.Slices ![0, 0, 1] S2x65536x1
  bcast_S2x65536_S2x65536x1_0_1 : S2x65536.BroadcastsInDim S2x65536x1 (![0, 1] : Fin 2 → Fin S2x65536x1.rank)
  concatenates_S2x65536x1_S2x65536x1_S2x65536x2_d2 : Shape.Concatenates [S2x65536x1, S2x65536x1] S2x65536x2 2
  concatenates_S2x65536x2_S2x65536x2_S2x65536x4_d2 : Shape.Concatenates [S2x65536x2, S2x65536x2] S2x65536x4 2
  shapeCasts_S2x65536x256_S131072x256 : S2x65536x256.ShapeCasts S131072x256
  shapeCasts_S2x65536x4_S131072x4 : S2x65536x4.ShapeCasts S131072x4
  shapeCasts_S2x65536_S131072 : S2x65536.ShapeCasts S131072
  bcast_S131072x256_S1x131072x256_1_2 : S131072x256.BroadcastsInDim S1x131072x256 (![1, 2] : Fin 2 → Fin S1x131072x256.rank)
  concatenates_S1x131072x256_S1x131072x256_S1x131072x256_S1x131072x256_S4x131072x256_d0 : Shape.Concatenates [S1x131072x256, S1x131072x256, S1x131072x256, S1x131072x256] S4x131072x256 0
  bcast_S131072x4_S1x131072x4_1_2 : S131072x4.BroadcastsInDim S1x131072x4 (![1, 2] : Fin 2 → Fin S1x131072x4.rank)
  concatenates_S1x131072x4_S1x131072x4_S1x131072x4_S1x131072x4_S4x131072x4_d0 : Shape.Concatenates [S1x131072x4, S1x131072x4, S1x131072x4, S1x131072x4] S4x131072x4 0
  bcast_S131072_S1x131072_1 : S131072.BroadcastsInDim S1x131072 (![1] : Fin 1 → Fin S1x131072.rank)
  concatenates_S1x131072_S1x131072_S1x131072_S1x131072_S4x131072_d0 : Shape.Concatenates [S1x131072, S1x131072, S1x131072, S1x131072] S4x131072 0
  reducesTo_S4x131072_S131072_d0 : S4x131072.ReducesTo [0] S131072
  bcast_S1x131072_S4x131072_0_1 : S1x131072.BroadcastsInDim S4x131072 (![0, 1] : Fin 2 → Fin S4x131072.rank)
  bcast_S4x131072_S4x131072x1_0_1 : S4x131072.BroadcastsInDim S4x131072x1 (![0, 1] : Fin 2 → Fin S4x131072x1.rank)
  shapeCasts_S256_S1x256 : S256.ShapeCasts S1x256
  shapeCasts_S2_S1x2 : S2.ShapeCasts S1x2
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S4x4096x256_S1x4096x256_0_0_0 : ∀ a, (![0, 0, 0] : Fin 3 → Nat) a + S1x4096x256.size a ≤ S4x4096x256.size a
  h_S1x4096x256 : 0 < S1x4096x256.numel
  shapeCasts_S1x4096x256_S4096x256 : S1x4096x256.ShapeCasts S4096x256
  inb_S4x4096x4_S1x4096x4_0_0_0 : ∀ a, (![0, 0, 0] : Fin 3 → Nat) a + S1x4096x4.size a ≤ S4x4096x4.size a
  h_S1x4096x4 : 0 < S1x4096x4.numel
  shapeCasts_S1x4096x4_S4096x4 : S1x4096x4.ShapeCasts S4096x4
  inb_S4x4096x1_S1x4096x1_0_0_0 : ∀ a, (![0, 0, 0] : Fin 3 → Nat) a + S1x4096x1.size a ≤ S4x4096x1.size a
  h_S1x4096x1 : 0 < S1x4096x1.numel
  shapeCasts_S1x4096x1_S4096x1 : S1x4096x1.ShapeCasts S4096x1
  broadcasts_S1x256_S4096x256 : S1x256.Broadcasts S4096x256
  broadcasts_S1x2_S4096x2 : S1x2.Broadcasts S4096x2
  broadcasts_S4096x1_S4096x2 : S4096x1.Broadcasts S4096x2
  inb_S4x4096x256_S1x4096x256_1_0_0 : ∀ a, (![1, 0, 0] : Fin 3 → Nat) a + S1x4096x256.size a ≤ S4x4096x256.size a
  inb_S4x4096x4_S1x4096x4_1_0_0 : ∀ a, (![1, 0, 0] : Fin 3 → Nat) a + S1x4096x4.size a ≤ S4x4096x4.size a
  inb_S4x4096x1_S1x4096x1_1_0_0 : ∀ a, (![1, 0, 0] : Fin 3 → Nat) a + S1x4096x1.size a ≤ S4x4096x1.size a
  inb_S4x4096x256_S1x4096x256_2_0_0 : ∀ a, (![2, 0, 0] : Fin 3 → Nat) a + S1x4096x256.size a ≤ S4x4096x256.size a
  inb_S4x4096x4_S1x4096x4_2_0_0 : ∀ a, (![2, 0, 0] : Fin 3 → Nat) a + S1x4096x4.size a ≤ S4x4096x4.size a
  inb_S4x4096x1_S1x4096x1_2_0_0 : ∀ a, (![2, 0, 0] : Fin 3 → Nat) a + S1x4096x1.size a ≤ S4x4096x1.size a
  inb_S4x4096x256_S1x4096x256_3_0_0 : ∀ a, (![3, 0, 0] : Fin 3 → Nat) a + S1x4096x256.size a ≤ S4x4096x256.size a
  inb_S4x4096x4_S1x4096x4_3_0_0 : ∀ a, (![3, 0, 0] : Fin 3 → Nat) a + S1x4096x4.size a ≤ S4x4096x4.size a
  inb_S4x4096x1_S1x4096x1_3_0_0 : ∀ a, (![3, 0, 0] : Fin 3 → Nat) a + S1x4096x1.size a ≤ S4x4096x1.size a
  inb_S4096x2_S4096x2_0_0 : ∀ a, (![0, 0] : Fin 2 → Nat) a + S4096x2.size a ≤ S4096x2.size a
  h_S4096x2 : 0 < S4096x2.numel
  shapeCasts_S131072x2_S2x65536x2 : S131072x2.ShapeCasts S2x65536x2
  reducesTo_S2x65536x2_S_d0_1_2 : S2x65536x2.ReducesTo [0, 1, 2] S_
  dot_S2048x576_S576x256_S2048x256_1_0_0_1_n_n_wf : DotDims.WF S2048x576 S576x256 S2048x256 [1] [0] [0] [1] [] []
  gather_S2x96x96x256_S2x65536x2_S2x65536x256_2_12_0_0_12_2_111256_wf : GatherDims.WF S2x96x96x256 S2x65536x2 S2x65536x256 [2] [1, 2] [0] [1, 2] [0] 2 ![1, 1, 1, 256]
  dot_S4096x4_S4x256_S4096x256_1_0_0_1_n_n_wf : DotDims.WF S4096x4 S4x256 S4096x256 [1] [0] [0] [1] [] []
  dot_S4096x256_S256x256_S4096x256_1_0_0_1_n_n_wf : DotDims.WF S4096x256 S256x256 S4096x256 [1] [0] [0] [1] [] []
  dot_S4096x256_S256x2_S4096x2_1_0_0_1_n_n_wf : DotDims.WF S4096x256 S256x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x576.size a ≤ S18432x576.size a
  hwx0_0 : ∀ i : grid0.Coords, EltTy.bits .f32 = 32 ∨ (Rect.block (s := S18432x576) S2048x576.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x256.size a ≤ S576x256.size a
  hwx0_1 : ∀ i : grid0.Coords, EltTy.bits .f32 = 32 ∨ (Rect.block (s := S576x256) S576x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S18432x256.size a
  hwx0_2 : ∀ i : grid0.Coords, EltTy.bits .bf16 = 32 ∨ (Rect.block (s := S18432x256) S2048x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x4096x256.size a ≤ S4x131072x256.size a
  hwx1_0 : ∀ i : grid1.Coords, EltTy.bits .bf16 = 32 ∨ (Rect.block (s := S4x131072x256) S4x4096x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x4096x4.size a ≤ S4x131072x4.size a
  hwx1_1 : ∀ i : grid1.Coords, EltTy.bits .f32 = 32 ∨ (Rect.block (s := S4x131072x4) S4x4096x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x4096x1.size a ≤ S4x131072x1.size a
  hwx1_2 : ∀ i : grid1.Coords, EltTy.bits .f32 = 32 ∨ (Rect.block (s := S4x131072x1) S4x4096x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x256.size a ≤ S4x256.size a
  hwx1_3 : ∀ i : grid1.Coords, EltTy.bits .f32 = 32 ∨ (Rect.block (s := S4x256) S4x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x256.size a ≤ S256x256.size a
  hwx1_9 : ∀ i : grid1.Coords, EltTy.bits .f32 = 32 ∨ (Rect.block (s := S256x256) S256x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x2.size a ≤ S256x2.size a
  hwx1_11 : ∀ i : grid1.Coords, EltTy.bits .f32 = 32 ∨ (Rect.block (s := S256x2) S256x2.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x2.size a ≤ S1x2.size a
  hwx1_12 : ∀ i : grid1.Coords, EltTy.bits .f32 = 32 ∨ (Rect.block (s := S1x2) S1x2.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S4096x2.size a ≤ S131072x2.size a
  hwx1_13 : ∀ i : grid1.Coords, EltTy.bits .f32 = 32 ∨ (Rect.block (s := S131072x2) S4096x2.size (cc1_transform_13 i) (hinb1_13 i)).WholeWords (EltTy.packing .f32)

variable [Facts₀]

def dot_S2048x576_S576x256_S2048x256_1_0_0_1_n_n : DotDims S2048x576 S576x256 S2048x256 where
  lhsContracting := [1]
  rhsContracting := [0]
  lhsNonContracting := [0]
  rhsNonContracting := [1]
  lhsBatch := []
  rhsBatch := []
  wf := dot_S2048x576_S576x256_S2048x256_1_0_0_1_n_n_wf
def gather_S2x96x96x256_S2x65536x2_S2x65536x256_2_12_0_0_12_2_111256 : GatherDims S2x96x96x256 S2x65536x2 S2x65536x256 where
  offsetDims := [2]
  collapsedSliceDims := [1, 2]
  operandBatchingDims := [0]
  startIndicesBatchingDims := [0]
  startIndexMap := [1, 2]
  indexVectorDim := 2
  sliceSizes := ![1, 1, 1, 256]
  wf := gather_S2x96x96x256_S2x65536x2_S2x65536x256_2_12_0_0_12_2_111256_wf
def dot_S4096x4_S4x256_S4096x256_1_0_0_1_n_n : DotDims S4096x4 S4x256 S4096x256 where
  lhsContracting := [1]
  rhsContracting := [0]
  lhsNonContracting := [0]
  rhsNonContracting := [1]
  lhsBatch := []
  rhsBatch := []
  wf := dot_S4096x4_S4x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x2_S4096x2_1_0_0_1_n_n : DotDims S4096x256 S256x2 S4096x2 where
  lhsContracting := [1]
  rhsContracting := [0]
  lhsNonContracting := [0]
  rhsNonContracting := [1]
  lhsBatch := []
  rhsBatch := []
  wf := dot_S4096x256_S256x2_S4096x2_1_0_0_1_n_n_wf

abbrev win0_0 : Pipeline.Window sig grid0 :=
  Pipeline.Window.ofSpec (Memref.whole main_v24) S2048x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S576x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v387) S4x4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v392) S4x4096x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v403) S4x4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S4x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v404) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v405) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v406) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg9) S256x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v407) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg11) S256x2.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v408) S1x2.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v409) S4096x2.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S2x64x96x96 : Shape := ⟨4, ![2, 64, 96, 96]⟩
abbrev S2x65536x2 : Shape := ⟨3, ![2, 65536, 2]⟩
abbrev S580x256 : Shape := ⟨2, ![580, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩
abbrev S2x64x98x98 : Shape := ⟨4, ![2, 64, 98, 98]⟩
abbrev S2x64x1x96x96 : Shape := ⟨5, ![2, 64, 1, 96, 96]⟩
abbrev S2x64x9x96x96 : Shape := ⟨5, ![2, 64, 9, 96, 96]⟩
abbrev S2x576x96x96 : Shape := ⟨4, ![2, 576, 96, 96]⟩
abbrev S1x1x2 : Shape := ⟨3, ![1, 1, 2]⟩
abbrev S2x65536x1 : Shape := ⟨3, ![2, 65536, 1]⟩
abbrev S2x65536 : Shape := ⟨2, ![2, 65536]⟩
abbrev S2x576x65536 : Shape := ⟨3, ![2, 576, 65536]⟩
abbrev S2x65536x576 : Shape := ⟨3, ![2, 65536, 576]⟩
abbrev S2x65536x580 : Shape := ⟨3, ![2, 65536, 580]⟩
abbrev S131072x580 : Shape := ⟨2, ![131072, 580]⟩
abbrev S131072x256 : Shape := ⟨2, ![131072, 256]⟩
abbrev S1x256 : Shape := ⟨2, ![1, 256]⟩
abbrev S131072x2 : Shape := ⟨2, ![131072, 2]⟩
abbrev S1x2 : Shape := ⟨2, ![1, 2]⟩

abbrev nBuf : Space → Nat
  | .hbm => 731
  | .vmem => 0
  | .smem => 0
  | _ => 0

abbrev hbmTy0_0 (i : Nat) : BufTy := match i % 128 with
  | 0 => ⟨S2x64x96x96, .f32⟩
  | 1 => ⟨S2x65536x2, .f32⟩
  | 2 => ⟨S2x65536x2, .f32⟩
  | 3 => ⟨S580x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x2, .f32⟩
  | 12 => ⟨S2, .f32⟩
  | 13 => ⟨S2, .f32⟩
  | 14 => ⟨S2, .f32⟩
  | 15 => ⟨S2, .f32⟩
  | 16 => ⟨S2, .f32⟩
  | 17 => ⟨S2, .f32⟩
  | 18 => ⟨S_, .i32⟩
  | 19 => ⟨S_, .f32⟩
  | 20 => ⟨S2x64x98x98, .f32⟩
  | 21 => ⟨S2x64x96x96, .f32⟩
  | 22 => ⟨S2x64x96x96, .f32⟩
  | 23 => ⟨S2x64x96x96, .f32⟩
  | 24 => ⟨S2x64x96x96, .f32⟩
  | 25 => ⟨S2x64x96x96, .f32⟩
  | 26 => ⟨S2x64x96x96, .f32⟩
  | 27 => ⟨S2x64x96x96, .f32⟩
  | 28 => ⟨S2x64x96x96, .f32⟩
  | 29 => ⟨S2x64x96x96, .f32⟩
  | 30 => ⟨S2x64x1x96x96, .f32⟩
  | 31 => ⟨S2x64x1x96x96, .f32⟩
  | 32 => ⟨S2x64x1x96x96, .f32⟩
  | 33 => ⟨S2x64x1x96x96, .f32⟩
  | 34 => ⟨S2x64x1x96x96, .f32⟩
  | 35 => ⟨S2x64x1x96x96, .f32⟩
  | 36 => ⟨S2x64x1x96x96, .f32⟩
  | 37 => ⟨S2x64x1x96x96, .f32⟩
  | 38 => ⟨S2x64x1x96x96, .f32⟩
  | 39 => ⟨S2x64x9x96x96, .f32⟩
  | 40 => ⟨S2x576x96x96, .f32⟩
  | 41 => ⟨S1x1x2, .f32⟩
  | 42 => ⟨S2x65536x2, .f32⟩
  | 43 => ⟨S2x65536x2, .f32⟩
  | 44 => ⟨S_, .f32⟩
  | 45 => ⟨S_, .f32⟩
  | 46 => ⟨S_, .f32⟩
  | 47 => ⟨S2x65536x2, .f32⟩
  | 48 => ⟨S2x65536x2, .f32⟩
  | 49 => ⟨S_, .f32⟩
  | 50 => ⟨S2x65536x2, .f32⟩
  | 51 => ⟨S2x65536x2, .f32⟩
  | 52 => ⟨S2x65536x1, .f32⟩
  | 53 => ⟨S2x65536, .f32⟩
  | 54 => ⟨S_, .f32⟩
  | 55 => ⟨S2x65536, .f32⟩
  | 56 => ⟨S2x65536, .f32⟩
  | 57 => ⟨S_, .f32⟩
  | 58 => ⟨S2x65536, .f32⟩
  | 59 => ⟨S2x65536, .f32⟩
  | 60 => ⟨S_, .f32⟩
  | 61 => ⟨S2x65536, .f32⟩
  | 62 => ⟨S2x65536, .f32⟩
  | 63 => ⟨S_, .f32⟩
  | 64 => ⟨S2x65536, .f32⟩
  | 65 => ⟨S2x65536, .f32⟩
  | 66 => ⟨S_, .f32⟩
  | 67 => ⟨S2x65536, .f32⟩
  | 68 => ⟨S2x65536, .f32⟩
  | 69 => ⟨S2x65536, .f32⟩
  | 70 => ⟨S_, .i32⟩
  | 71 => ⟨S_, .i32⟩
  | 72 => ⟨S_, .f32⟩
  | 73 => ⟨S2x65536, .f32⟩
  | 74 => ⟨S2x65536, .f32⟩
  | 75 => ⟨S_, .f32⟩
  | 76 => ⟨S2x65536, .f32⟩
  | 77 => ⟨S2x65536, .f32⟩
  | 78 => ⟨S2x65536, .i32⟩
  | 79 => ⟨S2x65536x1, .f32⟩
  | 80 => ⟨S2x65536, .f32⟩
  | 81 => ⟨S_, .f32⟩
  | 82 => ⟨S2x65536, .f32⟩
  | 83 => ⟨S2x65536, .f32⟩
  | 84 => ⟨S_, .f32⟩
  | 85 => ⟨S2x65536, .f32⟩
  | 86 => ⟨S2x65536, .f32⟩
  | 87 => ⟨S_, .f32⟩
  | 88 => ⟨S2x65536, .f32⟩
  | 89 => ⟨S2x65536, .f32⟩
  | 90 => ⟨S_, .f32⟩
  | 91 => ⟨S2x65536, .f32⟩
  | 92 => ⟨S2x65536, .f32⟩
  | 93 => ⟨S_, .f32⟩
  | 94 => ⟨S2x65536, .f32⟩
  | 95 => ⟨S2x65536, .f32⟩
  | 96 => ⟨S2x65536, .f32⟩
  | 97 => ⟨S_, .i32⟩
  | 98 => ⟨S_, .i32⟩
  | 99 => ⟨S_, .f32⟩
  | 100 => ⟨S2x65536, .f32⟩
  | 101 => ⟨S2x65536, .f32⟩
  | 102 => ⟨S_, .f32⟩
  | 103 => ⟨S2x65536, .f32⟩
  | 104 => ⟨S2x65536, .f32⟩
  | 105 => ⟨S2x65536, .i32⟩
  | 106 => ⟨S_, .i32⟩
  | 107 => ⟨S2x65536, .i32⟩
  | 108 => ⟨S2x65536, .i1⟩
  | 109 => ⟨S_, .i32⟩
  | 110 => ⟨S2x65536, .i32⟩
  | 111 => ⟨S2x65536, .i32⟩
  | 112 => ⟨S2x65536, .i32⟩
  | 113 => ⟨S_, .i32⟩
  | 114 => ⟨S2x65536, .i32⟩
  | 115 => ⟨S2x65536, .i1⟩
  | 116 => ⟨S_, .i32⟩
  | 117 => ⟨S2x65536, .i32⟩
  | 118 => ⟨S2x65536, .i32⟩
  | 119 => ⟨S2x65536, .i32⟩
  | 120 => ⟨S2x65536x1, .i32⟩
  | 121 => ⟨S2x65536x1, .i32⟩
  | 122 => ⟨S2x65536x2, .i32⟩
  | 123 => ⟨S2x576x65536, .f32⟩
  | 124 => ⟨S2x65536x576, .f32⟩
  | 125 => ⟨S2x65536, .f32⟩
  | 126 => ⟨S_, .f32⟩
  | 127 => ⟨S2x65536, .f32⟩
  | _ => ⟨S2x64x96x96, .f32⟩

abbrev hbmTy0_1 (i : Nat) : BufTy := match i % 128 with
  | 0 => ⟨S2x65536, .f32⟩
  | 1 => ⟨S_, .f32⟩
  | 2 => ⟨S2x65536, .f32⟩
  | 3 => ⟨S2x65536, .f32⟩
  | 4 => ⟨S_, .f32⟩
  | 5 => ⟨S2x65536, .f32⟩
  | 6 => ⟨S2x65536, .f32⟩
  | 7 => ⟨S_, .f32⟩
  | 8 => ⟨S2x65536, .f32⟩
  | 9 => ⟨S2x65536, .f32⟩
  | 10 => ⟨S2x65536, .f32⟩
  | 11 => ⟨S_, .f32⟩
  | 12 => ⟨S2x65536, .f32⟩
  | 13 => ⟨S2x65536, .f32⟩
  | 14 => ⟨S_, .f32⟩
  | 15 => ⟨S2x65536, .f32⟩
  | 16 => ⟨S2x65536, .f32⟩
  | 17 => ⟨S_, .f32⟩
  | 18 => ⟨S2x65536, .f32⟩
  | 19 => ⟨S2x65536, .f32⟩
  | 20 => ⟨S_, .f32⟩
  | 21 => ⟨S2x65536, .f32⟩
  | 22 => ⟨S2x65536, .f32⟩
  | 23 => ⟨S2x65536x1, .f32⟩
  | 24 => ⟨S2x65536x1, .f32⟩
  | 25 => ⟨S2x65536x2, .f32⟩
  | 26 => ⟨S2x65536x2, .f32⟩
  | 27 => ⟨S2x65536x2, .f32⟩
  | 28 => ⟨S1x1x2, .f32⟩
  | 29 => ⟨S2x65536x2, .f32⟩
  | 30 => ⟨S2x65536x2, .f32⟩
  | 31 => ⟨S1x1x2, .f32⟩
  | 32 => ⟨S2x65536x2, .f32⟩
  | 33 => ⟨S2x65536x2, .f32⟩
  | 34 => ⟨S2x65536x580, .f32⟩
  | 35 => ⟨S131072x580, .f32⟩
  | 36 => ⟨S131072x256, .f32⟩
  | 37 => ⟨S1x256, .f32⟩
  | 38 => ⟨S131072x256, .f32⟩
  | 39 => ⟨S131072x256, .f32⟩
  | 40 => ⟨S_, .f32⟩
  | 41 => ⟨S131072x256, .f32⟩
  | 42 => ⟨S131072x256, .f32⟩
  | 43 => ⟨S131072x256, .f32⟩
  | 44 => ⟨S1x256, .f32⟩
  | 45 => ⟨S131072x256, .f32⟩
  | 46 => ⟨S131072x256, .f32⟩
  | 47 => ⟨S_, .f32⟩
  | 48 => ⟨S131072x256, .f32⟩
  | 49 => ⟨S131072x256, .f32⟩
  | 50 => ⟨S131072x256, .f32⟩
  | 51 => ⟨S1x256, .f32⟩
  | 52 => ⟨S131072x256, .f32⟩
  | 53 => ⟨S131072x256, .f32⟩
  | 54 => ⟨S_, .f32⟩
  | 55 => ⟨S131072x256, .f32⟩
  | 56 => ⟨S131072x256, .f32⟩
  | 57 => ⟨S131072x256, .f32⟩
  | 58 => ⟨S1x256, .f32⟩
  | 59 => ⟨S131072x256, .f32⟩
  | 60 => ⟨S131072x256, .f32⟩
  | 61 => ⟨S_, .f32⟩
  | 62 => ⟨S131072x256, .f32⟩
  | 63 => ⟨S131072x256, .f32⟩
  | 64 => ⟨S131072x2, .f32⟩
  | 65 => ⟨S1x2, .f32⟩
  | 66 => ⟨S131072x2, .f32⟩
  | 67 => ⟨S131072x2, .f32⟩
  | 68 => ⟨S2x65536x2, .f32⟩
  | 69 => ⟨S2x65536x1, .f32⟩
  | 70 => ⟨S2x65536, .f32⟩
  | 71 => ⟨S2x65536x1, .f32⟩
  | 72 => ⟨S2x65536, .f32⟩
  | 73 => ⟨S2x65536, .f32⟩
  | 74 => ⟨S2x65536, .f32⟩
  | 75 => ⟨S_, .f32⟩
  | 76 => ⟨S2x65536, .f32⟩
  | 77 => ⟨S2x65536, .f32⟩
  | 78 => ⟨S1x1x2, .f32⟩
  | 79 => ⟨S2x65536x2, .f32⟩
  | 80 => ⟨S2x65536x2, .f32⟩
  | 81 => ⟨S_, .f32⟩
  | 82 => ⟨S_, .f32⟩
  | 83 => ⟨S_, .f32⟩
  | 84 => ⟨S2x65536x2, .f32⟩
  | 85 => ⟨S2x65536x2, .f32⟩
  | 86 => ⟨S_, .f32⟩
  | 87 => ⟨S2x65536x2, .f32⟩
  | 88 => ⟨S2x65536x2, .f32⟩
  | 89 => ⟨S2x65536x1, .f32⟩
  | 90 => ⟨S2x65536, .f32⟩
  | 91 => ⟨S_, .f32⟩
  | 92 => ⟨S2x65536, .f32⟩
  | 93 => ⟨S2x65536, .f32⟩
  | 94 => ⟨S_, .f32⟩
  | 95 => ⟨S2x65536, .f32⟩
  | 96 => ⟨S2x65536, .f32⟩
  | 97 => ⟨S_, .f32⟩
  | 98 => ⟨S2x65536, .f32⟩
  | 99 => ⟨S2x65536, .f32⟩
  | 100 => ⟨S_, .f32⟩
  | 101 => ⟨S2x65536, .f32⟩
  | 102 => ⟨S2x65536, .f32⟩
  | 103 => ⟨S_, .f32⟩
  | 104 => ⟨S2x65536, .f32⟩
  | 105 => ⟨S2x65536, .f32⟩
  | 106 => ⟨S2x65536, .f32⟩
  | 107 => ⟨S_, .i32⟩
  | 108 => ⟨S_, .i32⟩
  | 109 => ⟨S_, .f32⟩
  | 110 => ⟨S2x65536, .f32⟩
  | 111 => ⟨S2x65536, .f32⟩
  | 112 => ⟨S_, .f32⟩
  | 113 => ⟨S2x65536, .f32⟩
  | 114 => ⟨S2x65536, .f32⟩
  | 115 => ⟨S2x65536, .i32⟩
  | 116 => ⟨S2x65536x1, .f32⟩
  | 117 => ⟨S2x65536, .f32⟩
  | 118 => ⟨S_, .f32⟩
  | 119 => ⟨S2x65536, .f32⟩
  | 120 => ⟨S2x65536, .f32⟩
  | 121 => ⟨S_, .f32⟩
  | 122 => ⟨S2x65536, .f32⟩
  | 123 => ⟨S2x65536, .f32⟩
  | 124 => ⟨S_, .f32⟩
  | 125 => ⟨S2x65536, .f32⟩
  | 126 => ⟨S2x65536, .f32⟩
  | 127 => ⟨S_, .f32⟩
  | _ => ⟨S2x64x96x96, .f32⟩

abbrev hbmTy0_2 (i : Nat) : BufTy := match i % 128 with
  | 0 => ⟨S2x65536, .f32⟩
  | 1 => ⟨S2x65536, .f32⟩
  | 2 => ⟨S_, .f32⟩
  | 3 => ⟨S2x65536, .f32⟩
  | 4 => ⟨S2x65536, .f32⟩
  | 5 => ⟨S2x65536, .f32⟩
  | 6 => ⟨S_, .i32⟩
  | 7 => ⟨S_, .i32⟩
  | 8 => ⟨S_, .f32⟩
  | 9 => ⟨S2x65536, .f32⟩
  | 10 => ⟨S2x65536, .f32⟩
  | 11 => ⟨S_, .f32⟩
  | 12 => ⟨S2x65536, .f32⟩
  | 13 => ⟨S2x65536, .f32⟩
  | 14 => ⟨S2x65536, .i32⟩
  | 15 => ⟨S_, .i32⟩
  | 16 => ⟨S2x65536, .i32⟩
  | 17 => ⟨S2x65536, .i1⟩
  | 18 => ⟨S_, .i32⟩
  | 19 => ⟨S2x65536, .i32⟩
  | 20 => ⟨S2x65536, .i32⟩
  | 21 => ⟨S2x65536, .i32⟩
  | 22 => ⟨S_, .i32⟩
  | 23 => ⟨S2x65536, .i32⟩
  | 24 => ⟨S2x65536, .i1⟩
  | 25 => ⟨S_, .i32⟩
  | 26 => ⟨S2x65536, .i32⟩
  | 27 => ⟨S2x65536, .i32⟩
  | 28 => ⟨S2x65536, .i32⟩
  | 29 => ⟨S2x65536x1, .i32⟩
  | 30 => ⟨S2x65536x1, .i32⟩
  | 31 => ⟨S2x65536x2, .i32⟩
  | 32 => ⟨S2x576x65536, .f32⟩
  | 33 => ⟨S2x65536x576, .f32⟩
  | 34 => ⟨S2x65536, .f32⟩
  | 35 => ⟨S_, .f32⟩
  | 36 => ⟨S2x65536, .f32⟩
  | 37 => ⟨S2x65536, .f32⟩
  | 38 => ⟨S_, .f32⟩
  | 39 => ⟨S2x65536, .f32⟩
  | 40 => ⟨S2x65536, .f32⟩
  | 41 => ⟨S_, .f32⟩
  | 42 => ⟨S2x65536, .f32⟩
  | 43 => ⟨S2x65536, .f32⟩
  | 44 => ⟨S_, .f32⟩
  | 45 => ⟨S2x65536, .f32⟩
  | 46 => ⟨S2x65536, .f32⟩
  | 47 => ⟨S2x65536, .f32⟩
  | 48 => ⟨S_, .f32⟩
  | 49 => ⟨S2x65536, .f32⟩
  | 50 => ⟨S2x65536, .f32⟩
  | 51 => ⟨S_, .f32⟩
  | 52 => ⟨S2x65536, .f32⟩
  | 53 => ⟨S2x65536, .f32⟩
  | 54 => ⟨S_, .f32⟩
  | 55 => ⟨S2x65536, .f32⟩
  | 56 => ⟨S2x65536, .f32⟩
  | 57 => ⟨S_, .f32⟩
  | 58 => ⟨S2x65536, .f32⟩
  | 59 => ⟨S2x65536, .f32⟩
  | 60 => ⟨S2x65536x1, .f32⟩
  | 61 => ⟨S2x65536x1, .f32⟩
  | 62 => ⟨S2x65536x2, .f32⟩
  | 63 => ⟨S2x65536x2, .f32⟩
  | 64 => ⟨S2x65536x2, .f32⟩
  | 65 => ⟨S1x1x2, .f32⟩
  | 66 => ⟨S2x65536x2, .f32⟩
  | 67 => ⟨S2x65536x2, .f32⟩
  | 68 => ⟨S1x1x2, .f32⟩
  | 69 => ⟨S2x65536x2, .f32⟩
  | 70 => ⟨S2x65536x2, .f32⟩
  | 71 => ⟨S2x65536x580, .f32⟩
  | 72 => ⟨S131072x580, .f32⟩
  | 73 => ⟨S131072x256, .f32⟩
  | 74 => ⟨S1x256, .f32⟩
  | 75 => ⟨S131072x256, .f32⟩
  | 76 => ⟨S131072x256, .f32⟩
  | 77 => ⟨S_, .f32⟩
  | 78 => ⟨S131072x256, .f32⟩
  | 79 => ⟨S131072x256, .f32⟩
  | 80 => ⟨S131072x256, .f32⟩
  | 81 => ⟨S1x256, .f32⟩
  | 82 => ⟨S131072x256, .f32⟩
  | 83 => ⟨S131072x256, .f32⟩
  | 84 => ⟨S_, .f32⟩
  | 85 => ⟨S131072x256, .f32⟩
  | 86 => ⟨S131072x256, .f32⟩
  | 87 => ⟨S131072x256, .f32⟩
  | 88 => ⟨S1x256, .f32⟩
  | 89 => ⟨S131072x256, .f32⟩
  | 90 => ⟨S131072x256, .f32⟩
  | 91 => ⟨S_, .f32⟩
  | 92 => ⟨S131072x256, .f32⟩
  | 93 => ⟨S131072x256, .f32⟩
  | 94 => ⟨S131072x256, .f32⟩
  | 95 => ⟨S1x256, .f32⟩
  | 96 => ⟨S131072x256, .f32⟩
  | 97 => ⟨S131072x256, .f32⟩
  | 98 => ⟨S_, .f32⟩
  | 99 => ⟨S131072x256, .f32⟩
  | 100 => ⟨S131072x256, .f32⟩
  | 101 => ⟨S131072x2, .f32⟩
  | 102 => ⟨S1x2, .f32⟩
  | 103 => ⟨S131072x2, .f32⟩
  | 104 => ⟨S131072x2, .f32⟩
  | 105 => ⟨S2x65536x2, .f32⟩
  | 106 => ⟨S2x65536x1, .f32⟩
  | 107 => ⟨S2x65536, .f32⟩
  | 108 => ⟨S2x65536x1, .f32⟩
  | 109 => ⟨S2x65536, .f32⟩
  | 110 => ⟨S2x65536, .f32⟩
  | 111 => ⟨S2x65536, .f32⟩
  | 112 => ⟨S_, .f32⟩
  | 113 => ⟨S2x65536, .f32⟩
  | 114 => ⟨S2x65536, .f32⟩
  | 115 => ⟨S1x1x2, .f32⟩
  | 116 => ⟨S2x65536x2, .f32⟩
  | 117 => ⟨S2x65536x2, .f32⟩
  | 118 => ⟨S_, .f32⟩
  | 119 => ⟨S_, .f32⟩
  | 120 => ⟨S_, .f32⟩
  | 121 => ⟨S2x65536x2, .f32⟩
  | 122 => ⟨S2x65536x2, .f32⟩
  | 123 => ⟨S_, .f32⟩
  | 124 => ⟨S2x65536x2, .f32⟩
  | 125 => ⟨S2x65536x2, .f32⟩
  | 126 => ⟨S2x65536x1, .f32⟩
  | 127 => ⟨S2x65536, .f32⟩
  | _ => ⟨S2x64x96x96, .f32⟩

abbrev hbmTy0_3 (i : Nat) : BufTy := match i % 128 with
  | 0 => ⟨S_, .f32⟩
  | 1 => ⟨S2x65536, .f32⟩
  | 2 => ⟨S2x65536, .f32⟩
  | 3 => ⟨S_, .f32⟩
  | 4 => ⟨S2x65536, .f32⟩
  | 5 => ⟨S2x65536, .f32⟩
  | 6 => ⟨S_, .f32⟩
  | 7 => ⟨S2x65536, .f32⟩
  | 8 => ⟨S2x65536, .f32⟩
  | 9 => ⟨S_, .f32⟩
  | 10 => ⟨S2x65536, .f32⟩
  | 11 => ⟨S2x65536, .f32⟩
  | 12 => ⟨S_, .f32⟩
  | 13 => ⟨S2x65536, .f32⟩
  | 14 => ⟨S2x65536, .f32⟩
  | 15 => ⟨S2x65536, .f32⟩
  | 16 => ⟨S_, .i32⟩
  | 17 => ⟨S_, .i32⟩
  | 18 => ⟨S_, .f32⟩
  | 19 => ⟨S2x65536, .f32⟩
  | 20 => ⟨S2x65536, .f32⟩
  | 21 => ⟨S_, .f32⟩
  | 22 => ⟨S2x65536, .f32⟩
  | 23 => ⟨S2x65536, .f32⟩
  | 24 => ⟨S2x65536, .i32⟩
  | 25 => ⟨S2x65536x1, .f32⟩
  | 26 => ⟨S2x65536, .f32⟩
  | 27 => ⟨S_, .f32⟩
  | 28 => ⟨S2x65536, .f32⟩
  | 29 => ⟨S2x65536, .f32⟩
  | 30 => ⟨S_, .f32⟩
  | 31 => ⟨S2x65536, .f32⟩
  | 32 => ⟨S2x65536, .f32⟩
  | 33 => ⟨S_, .f32⟩
  | 34 => ⟨S2x65536, .f32⟩
  | 35 => ⟨S2x65536, .f32⟩
  | 36 => ⟨S_, .f32⟩
  | 37 => ⟨S2x65536, .f32⟩
  | 38 => ⟨S2x65536, .f32⟩
  | 39 => ⟨S_, .f32⟩
  | 40 => ⟨S2x65536, .f32⟩
  | 41 => ⟨S2x65536, .f32⟩
  | 42 => ⟨S2x65536, .f32⟩
  | 43 => ⟨S_, .i32⟩
  | 44 => ⟨S_, .i32⟩
  | 45 => ⟨S_, .f32⟩
  | 46 => ⟨S2x65536, .f32⟩
  | 47 => ⟨S2x65536, .f32⟩
  | 48 => ⟨S_, .f32⟩
  | 49 => ⟨S2x65536, .f32⟩
  | 50 => ⟨S2x65536, .f32⟩
  | 51 => ⟨S2x65536, .i32⟩
  | 52 => ⟨S_, .i32⟩
  | 53 => ⟨S2x65536, .i32⟩
  | 54 => ⟨S2x65536, .i1⟩
  | 55 => ⟨S_, .i32⟩
  | 56 => ⟨S2x65536, .i32⟩
  | 57 => ⟨S2x65536, .i32⟩
  | 58 => ⟨S2x65536, .i32⟩
  | 59 => ⟨S_, .i32⟩
  | 60 => ⟨S2x65536, .i32⟩
  | 61 => ⟨S2x65536, .i1⟩
  | 62 => ⟨S_, .i32⟩
  | 63 => ⟨S2x65536, .i32⟩
  | 64 => ⟨S2x65536, .i32⟩
  | 65 => ⟨S2x65536, .i32⟩
  | 66 => ⟨S2x65536x1, .i32⟩
  | 67 => ⟨S2x65536x1, .i32⟩
  | 68 => ⟨S2x65536x2, .i32⟩
  | 69 => ⟨S2x576x65536, .f32⟩
  | 70 => ⟨S2x65536x576, .f32⟩
  | 71 => ⟨S2x65536, .f32⟩
  | 72 => ⟨S_, .f32⟩
  | 73 => ⟨S2x65536, .f32⟩
  | 74 => ⟨S2x65536, .f32⟩
  | 75 => ⟨S_, .f32⟩
  | 76 => ⟨S2x65536, .f32⟩
  | 77 => ⟨S2x65536, .f32⟩
  | 78 => ⟨S_, .f32⟩
  | 79 => ⟨S2x65536, .f32⟩
  | 80 => ⟨S2x65536, .f32⟩
  | 81 => ⟨S_, .f32⟩
  | 82 => ⟨S2x65536, .f32⟩
  | 83 => ⟨S2x65536, .f32⟩
  | 84 => ⟨S2x65536, .f32⟩
  | 85 => ⟨S_, .f32⟩
  | 86 => ⟨S2x65536, .f32⟩
  | 87 => ⟨S2x65536, .f32⟩
  | 88 => ⟨S_, .f32⟩
  | 89 => ⟨S2x65536, .f32⟩
  | 90 => ⟨S2x65536, .f32⟩
  | 91 => ⟨S_, .f32⟩
  | 92 => ⟨S2x65536, .f32⟩
  | 93 => ⟨S2x65536, .f32⟩
  | 94 => ⟨S_, .f32⟩
  | 95 => ⟨S2x65536, .f32⟩
  | 96 => ⟨S2x65536, .f32⟩
  | 97 => ⟨S2x65536x1, .f32⟩
  | 98 => ⟨S2x65536x1, .f32⟩
  | 99 => ⟨S2x65536x2, .f32⟩
  | 100 => ⟨S2x65536x2, .f32⟩
  | 101 => ⟨S2x65536x2, .f32⟩
  | 102 => ⟨S1x1x2, .f32⟩
  | 103 => ⟨S2x65536x2, .f32⟩
  | 104 => ⟨S2x65536x2, .f32⟩
  | 105 => ⟨S1x1x2, .f32⟩
  | 106 => ⟨S2x65536x2, .f32⟩
  | 107 => ⟨S2x65536x2, .f32⟩
  | 108 => ⟨S2x65536x580, .f32⟩
  | 109 => ⟨S131072x580, .f32⟩
  | 110 => ⟨S131072x256, .f32⟩
  | 111 => ⟨S1x256, .f32⟩
  | 112 => ⟨S131072x256, .f32⟩
  | 113 => ⟨S131072x256, .f32⟩
  | 114 => ⟨S_, .f32⟩
  | 115 => ⟨S131072x256, .f32⟩
  | 116 => ⟨S131072x256, .f32⟩
  | 117 => ⟨S131072x256, .f32⟩
  | 118 => ⟨S1x256, .f32⟩
  | 119 => ⟨S131072x256, .f32⟩
  | 120 => ⟨S131072x256, .f32⟩
  | 121 => ⟨S_, .f32⟩
  | 122 => ⟨S131072x256, .f32⟩
  | 123 => ⟨S131072x256, .f32⟩
  | 124 => ⟨S131072x256, .f32⟩
  | 125 => ⟨S1x256, .f32⟩
  | 126 => ⟨S131072x256, .f32⟩
  | 127 => ⟨S131072x256, .f32⟩
  | _ => ⟨S2x64x96x96, .f32⟩

abbrev hbmTy0_4 (i : Nat) : BufTy := match i % 128 with
  | 0 => ⟨S_, .f32⟩
  | 1 => ⟨S131072x256, .f32⟩
  | 2 => ⟨S131072x256, .f32⟩
  | 3 => ⟨S131072x256, .f32⟩
  | 4 => ⟨S1x256, .f32⟩
  | 5 => ⟨S131072x256, .f32⟩
  | 6 => ⟨S131072x256, .f32⟩
  | 7 => ⟨S_, .f32⟩
  | 8 => ⟨S131072x256, .f32⟩
  | 9 => ⟨S131072x256, .f32⟩
  | 10 => ⟨S131072x2, .f32⟩
  | 11 => ⟨S1x2, .f32⟩
  | 12 => ⟨S131072x2, .f32⟩
  | 13 => ⟨S131072x2, .f32⟩
  | 14 => ⟨S2x65536x2, .f32⟩
  | 15 => ⟨S2x65536x1, .f32⟩
  | 16 => ⟨S2x65536, .f32⟩
  | 17 => ⟨S2x65536x1, .f32⟩
  | 18 => ⟨S2x65536, .f32⟩
  | 19 => ⟨S2x65536, .f32⟩
  | 20 => ⟨S2x65536, .f32⟩
  | 21 => ⟨S_, .f32⟩
  | 22 => ⟨S2x65536, .f32⟩
  | 23 => ⟨S2x65536, .f32⟩
  | 24 => ⟨S1x1x2, .f32⟩
  | 25 => ⟨S2x65536x2, .f32⟩
  | 26 => ⟨S2x65536x2, .f32⟩
  | 27 => ⟨S_, .f32⟩
  | 28 => ⟨S_, .f32⟩
  | 29 => ⟨S_, .f32⟩
  | 30 => ⟨S2x65536x2, .f32⟩
  | 31 => ⟨S2x65536x2, .f32⟩
  | 32 => ⟨S_, .f32⟩
  | 33 => ⟨S2x65536x2, .f32⟩
  | 34 => ⟨S2x65536x2, .f32⟩
  | 35 => ⟨S2x65536x1, .f32⟩
  | 36 => ⟨S2x65536, .f32⟩
  | 37 => ⟨S_, .f32⟩
  | 38 => ⟨S2x65536, .f32⟩
  | 39 => ⟨S2x65536, .f32⟩
  | 40 => ⟨S_, .f32⟩
  | 41 => ⟨S2x65536, .f32⟩
  | 42 => ⟨S2x65536, .f32⟩
  | 43 => ⟨S_, .f32⟩
  | 44 => ⟨S2x65536, .f32⟩
  | 45 => ⟨S2x65536, .f32⟩
  | 46 => ⟨S_, .f32⟩
  | 47 => ⟨S2x65536, .f32⟩
  | 48 => ⟨S2x65536, .f32⟩
  | 49 => ⟨S_, .f32⟩
  | 50 => ⟨S2x65536, .f32⟩
  | 51 => ⟨S2x65536, .f32⟩
  | 52 => ⟨S2x65536, .f32⟩
  | 53 => ⟨S_, .i32⟩
  | 54 => ⟨S_, .i32⟩
  | 55 => ⟨S_, .f32⟩
  | 56 => ⟨S2x65536, .f32⟩
  | 57 => ⟨S2x65536, .f32⟩
  | 58 => ⟨S_, .f32⟩
  | 59 => ⟨S2x65536, .f32⟩
  | 60 => ⟨S2x65536, .f32⟩
  | 61 => ⟨S2x65536, .i32⟩
  | 62 => ⟨S2x65536x1, .f32⟩
  | 63 => ⟨S2x65536, .f32⟩
  | 64 => ⟨S_, .f32⟩
  | 65 => ⟨S2x65536, .f32⟩
  | 66 => ⟨S2x65536, .f32⟩
  | 67 => ⟨S_, .f32⟩
  | 68 => ⟨S2x65536, .f32⟩
  | 69 => ⟨S2x65536, .f32⟩
  | 70 => ⟨S_, .f32⟩
  | 71 => ⟨S2x65536, .f32⟩
  | 72 => ⟨S2x65536, .f32⟩
  | 73 => ⟨S_, .f32⟩
  | 74 => ⟨S2x65536, .f32⟩
  | 75 => ⟨S2x65536, .f32⟩
  | 76 => ⟨S_, .f32⟩
  | 77 => ⟨S2x65536, .f32⟩
  | 78 => ⟨S2x65536, .f32⟩
  | 79 => ⟨S2x65536, .f32⟩
  | 80 => ⟨S_, .i32⟩
  | 81 => ⟨S_, .i32⟩
  | 82 => ⟨S_, .f32⟩
  | 83 => ⟨S2x65536, .f32⟩
  | 84 => ⟨S2x65536, .f32⟩
  | 85 => ⟨S_, .f32⟩
  | 86 => ⟨S2x65536, .f32⟩
  | 87 => ⟨S2x65536, .f32⟩
  | 88 => ⟨S2x65536, .i32⟩
  | 89 => ⟨S_, .i32⟩
  | 90 => ⟨S2x65536, .i32⟩
  | 91 => ⟨S2x65536, .i1⟩
  | 92 => ⟨S_, .i32⟩
  | 93 => ⟨S2x65536, .i32⟩
  | 94 => ⟨S2x65536, .i32⟩
  | 95 => ⟨S2x65536, .i32⟩
  | 96 => ⟨S_, .i32⟩
  | 97 => ⟨S2x65536, .i32⟩
  | 98 => ⟨S2x65536, .i1⟩
  | 99 => ⟨S_, .i32⟩
  | 100 => ⟨S2x65536, .i32⟩
  | 101 => ⟨S2x65536, .i32⟩
  | 102 => ⟨S2x65536, .i32⟩
  | 103 => ⟨S2x65536x1, .i32⟩
  | 104 => ⟨S2x65536x1, .i32⟩
  | 105 => ⟨S2x65536x2, .i32⟩
  | 106 => ⟨S2x576x65536, .f32⟩
  | 107 => ⟨S2x65536x576, .f32⟩
  | 108 => ⟨S2x65536, .f32⟩
  | 109 => ⟨S_, .f32⟩
  | 110 => ⟨S2x65536, .f32⟩
  | 111 => ⟨S2x65536, .f32⟩
  | 112 => ⟨S_, .f32⟩
  | 113 => ⟨S2x65536, .f32⟩
  | 114 => ⟨S2x65536, .f32⟩
  | 115 => ⟨S_, .f32⟩
  | 116 => ⟨S2x65536, .f32⟩
  | 117 => ⟨S2x65536, .f32⟩
  | 118 => ⟨S_, .f32⟩
  | 119 => ⟨S2x65536, .f32⟩
  | 120 => ⟨S2x65536, .f32⟩
  | 121 => ⟨S2x65536, .f32⟩
  | 122 => ⟨S_, .f32⟩
  | 123 => ⟨S2x65536, .f32⟩
  | 124 => ⟨S2x65536, .f32⟩
  | 125 => ⟨S_, .f32⟩
  | 126 => ⟨S2x65536, .f32⟩
  | 127 => ⟨S2x65536, .f32⟩
  | _ => ⟨S2x64x96x96, .f32⟩

abbrev hbmTy0_5 (i : Nat) : BufTy := match i % 128 with
  | 0 => ⟨S_, .f32⟩
  | 1 => ⟨S2x65536, .f32⟩
  | 2 => ⟨S2x65536, .f32⟩
  | 3 => ⟨S_, .f32⟩
  | 4 => ⟨S2x65536, .f32⟩
  | 5 => ⟨S2x65536, .f32⟩
  | 6 => ⟨S2x65536x1, .f32⟩
  | 7 => ⟨S2x65536x1, .f32⟩
  | 8 => ⟨S2x65536x2, .f32⟩
  | 9 => ⟨S2x65536x2, .f32⟩
  | 10 => ⟨S2x65536x2, .f32⟩
  | 11 => ⟨S1x1x2, .f32⟩
  | 12 => ⟨S2x65536x2, .f32⟩
  | 13 => ⟨S2x65536x2, .f32⟩
  | 14 => ⟨S1x1x2, .f32⟩
  | 15 => ⟨S2x65536x2, .f32⟩
  | 16 => ⟨S2x65536x2, .f32⟩
  | 17 => ⟨S2x65536x580, .f32⟩
  | 18 => ⟨S131072x580, .f32⟩
  | 19 => ⟨S131072x256, .f32⟩
  | 20 => ⟨S1x256, .f32⟩
  | 21 => ⟨S131072x256, .f32⟩
  | 22 => ⟨S131072x256, .f32⟩
  | 23 => ⟨S_, .f32⟩
  | 24 => ⟨S131072x256, .f32⟩
  | 25 => ⟨S131072x256, .f32⟩
  | 26 => ⟨S131072x256, .f32⟩
  | 27 => ⟨S1x256, .f32⟩
  | 28 => ⟨S131072x256, .f32⟩
  | 29 => ⟨S131072x256, .f32⟩
  | 30 => ⟨S_, .f32⟩
  | 31 => ⟨S131072x256, .f32⟩
  | 32 => ⟨S131072x256, .f32⟩
  | 33 => ⟨S131072x256, .f32⟩
  | 34 => ⟨S1x256, .f32⟩
  | 35 => ⟨S131072x256, .f32⟩
  | 36 => ⟨S131072x256, .f32⟩
  | 37 => ⟨S_, .f32⟩
  | 38 => ⟨S131072x256, .f32⟩
  | 39 => ⟨S131072x256, .f32⟩
  | 40 => ⟨S131072x256, .f32⟩
  | 41 => ⟨S1x256, .f32⟩
  | 42 => ⟨S131072x256, .f32⟩
  | 43 => ⟨S131072x256, .f32⟩
  | 44 => ⟨S_, .f32⟩
  | 45 => ⟨S131072x256, .f32⟩
  | 46 => ⟨S131072x256, .f32⟩
  | 47 => ⟨S131072x2, .f32⟩
  | 48 => ⟨S1x2, .f32⟩
  | 49 => ⟨S131072x2, .f32⟩
  | 50 => ⟨S131072x2, .f32⟩
  | 51 => ⟨S2x65536x2, .f32⟩
  | 52 => ⟨S2x65536x1, .f32⟩
  | 53 => ⟨S2x65536, .f32⟩
  | 54 => ⟨S2x65536x1, .f32⟩
  | 55 => ⟨S2x65536, .f32⟩
  | 56 => ⟨S2x65536, .f32⟩
  | 57 => ⟨S2x65536, .f32⟩
  | 58 => ⟨S_, .f32⟩
  | 59 => ⟨S2x65536, .f32⟩
  | 60 => ⟨S2x65536, .f32⟩
  | 61 => ⟨S2x65536, .f32⟩
  | 62 => ⟨S2x65536, .f32⟩
  | 63 => ⟨S2x65536, .f32⟩
  | 64 => ⟨S2x65536, .f32⟩
  | 65 => ⟨S2x65536x1, .f32⟩
  | 66 => ⟨S2x65536x2, .f32⟩
  | 67 => ⟨S2x65536x2, .f32⟩
  | 68 => ⟨S_, .f32⟩
  | 69 => ⟨S2x65536x2, .f32⟩
  | 70 => ⟨S2x65536x2, .f32⟩
  | 71 => ⟨S2x65536, .f32⟩
  | 72 => ⟨S2x65536x1, .f32⟩
  | 73 => ⟨S2x65536x2, .f32⟩
  | 74 => ⟨S2x65536x2, .f32⟩
  | 75 => ⟨S2x65536x2, .f32⟩
  | 76 => ⟨S2x65536, .f32⟩
  | 77 => ⟨S2x65536x1, .f32⟩
  | 78 => ⟨S2x65536x2, .f32⟩
  | 79 => ⟨S2x65536x2, .f32⟩
  | 80 => ⟨S2x65536x2, .f32⟩
  | 81 => ⟨S2x65536, .f32⟩
  | 82 => ⟨S2x65536x1, .f32⟩
  | 83 => ⟨S2x65536x2, .f32⟩
  | 84 => ⟨S2x65536x2, .f32⟩
  | 85 => ⟨S2x65536x2, .f32⟩
  | 86 => ⟨S2x65536x2, .f32⟩
  | 87 => ⟨S_, .f32⟩
  | 88 => ⟨S_, .f32⟩
  | 89 => ⟨S_, .f32⟩
  | 90 => ⟨S_, .f32⟩
  | _ => ⟨S2x64x96x96, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x64x96x96, .f32⟩

abbrev bufTy : (tb : Table) → Fin (tcTables nBuf tb) → BufTy
  | .hbm, ⟨i, _⟩ => hbmTy i
  | _, _ => ⟨S2x64x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_cst_1 : Ref sig .tc := ⟨.hbm, 15, rfl⟩
abbrev main_cst_2 : Ref sig .tc := ⟨.hbm, 16, rfl⟩
abbrev main_cst_3 : Ref sig .tc := ⟨.hbm, 17, rfl⟩
abbrev main_c : Ref sig .tc := ⟨.hbm, 18, rfl⟩
abbrev main_call0_v0 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_6 : Ref sig .tc := ⟨.hbm, 54, rfl⟩
abbrev main_v27 : Ref sig .tc := ⟨.hbm, 55, rfl⟩
abbrev main_v28 : Ref sig .tc := ⟨.hbm, 56, rfl⟩
abbrev main_cst_7 : Ref sig .tc := ⟨.hbm, 57, rfl⟩
abbrev main_v29 : Ref sig .tc := ⟨.hbm, 58, rfl⟩
abbrev main_v30 : Ref sig .tc := ⟨.hbm, 59, rfl⟩
abbrev main_cst_8 : Ref sig .tc := ⟨.hbm, 60, rfl⟩
abbrev main_v31 : Ref sig .tc := ⟨.hbm, 61, rfl⟩
abbrev main_v32 : Ref sig .tc := ⟨.hbm, 62, rfl⟩
abbrev main_cst_9 : Ref sig .tc := ⟨.hbm, 63, rfl⟩
abbrev main_v33 : Ref sig .tc := ⟨.hbm, 64, rfl⟩
abbrev main_v34 : Ref sig .tc := ⟨.hbm, 65, rfl⟩
abbrev main_cst_10 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_11 : Ref sig .tc := ⟨.hbm, 70, rfl⟩
abbrev main_c_12 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_13 : Ref sig .tc := ⟨.hbm, 81, rfl⟩
abbrev main_v42 : Ref sig .tc := ⟨.hbm, 82, rfl⟩
abbrev main_v43 : Ref sig .tc := ⟨.hbm, 83, rfl⟩
abbrev main_cst_14 : Ref sig .tc := ⟨.hbm, 84, rfl⟩
abbrev main_v44 : Ref sig .tc := ⟨.hbm, 85, rfl⟩
abbrev main_v45 : Ref sig .tc := ⟨.hbm, 86, rfl⟩
abbrev main_cst_15 : Ref sig .tc := ⟨.hbm, 87, rfl⟩
abbrev main_v46 : Ref sig .tc := ⟨.hbm, 88, rfl⟩
abbrev main_v47 : Ref sig .tc := ⟨.hbm, 89, rfl⟩
abbrev main_cst_16 : Ref sig .tc := ⟨.hbm, 90, rfl⟩
abbrev main_v48 : Ref sig .tc := ⟨.hbm, 91, rfl⟩
abbrev main_v49 : Ref sig .tc := ⟨.hbm, 92, rfl⟩
abbrev main_cst_17 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_c_18 : Ref sig .tc := ⟨.hbm, 97, rfl⟩
abbrev main_c_19 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_v53 : Ref sig .tc := ⟨.hbm, 104, rfl⟩
abbrev main_v54 : Ref sig .tc := ⟨.hbm, 105, rfl⟩
abbrev main_c_20 : Ref sig .tc := ⟨.hbm, 106, rfl⟩
abbrev main_v55 : Ref sig .tc := ⟨.hbm, 107, rfl⟩
abbrev main_v56 : Ref sig .tc := ⟨.hbm, 108, rfl⟩
abbrev main_c_21 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_c_22 : Ref sig .tc := ⟨.hbm, 113, rfl⟩
abbrev main_v60 : Ref sig .tc := ⟨.hbm, 114, rfl⟩
abbrev main_v61 : Ref sig .tc := ⟨.hbm, 115, rfl⟩
abbrev main_c_23 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_24 : Ref sig .tc := ⟨.hbm, 126, rfl⟩
abbrev main_v71 : Ref sig .tc := ⟨.hbm, 127, rfl⟩
abbrev main_v72 : Ref sig .tc := ⟨.hbm, 128, rfl⟩
abbrev main_cst_25 : Ref sig .tc := ⟨.hbm, 129, rfl⟩
abbrev main_v73 : Ref sig .tc := ⟨.hbm, 130, rfl⟩
abbrev main_v74 : Ref sig .tc := ⟨.hbm, 131, rfl⟩
abbrev main_cst_26 : Ref sig .tc := ⟨.hbm, 132, rfl⟩
abbrev main_v75 : Ref sig .tc := ⟨.hbm, 133, rfl⟩
abbrev main_v76 : Ref sig .tc := ⟨.hbm, 134, rfl⟩
abbrev main_cst_27 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_cst_28 : Ref sig .tc := ⟨.hbm, 139, rfl⟩
abbrev main_v80 : Ref sig .tc := ⟨.hbm, 140, rfl⟩
abbrev main_v81 : Ref sig .tc := ⟨.hbm, 141, rfl⟩
abbrev main_cst_29 : Ref sig .tc := ⟨.hbm, 142, rfl⟩
abbrev main_v82 : Ref sig .tc := ⟨.hbm, 143, rfl⟩
abbrev main_v83 : Ref sig .tc := ⟨.hbm, 144, rfl⟩
abbrev main_cst_30 : Ref sig .tc := ⟨.hbm, 145, rfl⟩
abbrev main_v84 : Ref sig .tc := ⟨.hbm, 146, rfl⟩
abbrev main_v85 : Ref sig .tc := ⟨.hbm, 147, rfl⟩
abbrev main_cst_31 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_call4_cst : Ref sig .tc := ⟨.hbm, 168, rfl⟩
abbrev main_call4_v0 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_call5_cst : Ref sig .tc := ⟨.hbm, 175, rfl⟩
abbrev main_call5_v0 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_call6_cst : Ref sig .tc := ⟨.hbm, 182, rfl⟩
abbrev main_call6_v0 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_call7_cst : Ref sig .tc := ⟨.hbm, 189, rfl⟩
abbrev main_call7_v0 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_cst_32 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_cst_33 : Ref sig .tc := ⟨.hbm, 209, rfl⟩
abbrev main_cst_34 : Ref sig .tc := ⟨.hbm, 210, rfl⟩
abbrev main_call8_v0 : Ref sig .tc := ⟨.hbm, 211, rfl⟩
abbrev main_call8_v1 : Ref sig .tc := ⟨.hbm, 212, rfl⟩
abbrev main_call8_v2 : Ref sig .tc := ⟨.hbm, 213, rfl⟩
abbrev main_call8_v3 : Ref sig .tc := ⟨.hbm, 214, rfl⟩
abbrev main_call8_v4 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_cst_35 : Ref sig .tc := ⟨.hbm, 219, rfl⟩
abbrev main_v140 : Ref sig .tc := ⟨.hbm, 220, rfl⟩
abbrev main_v141 : Ref sig .tc := ⟨.hbm, 221, rfl⟩
abbrev main_cst_36 : Ref sig .tc := ⟨.hbm, 222, rfl⟩
abbrev main_v142 : Ref sig .tc := ⟨.hbm, 223, rfl⟩
abbrev main_v143 : Ref sig .tc := ⟨.hbm, 224, rfl⟩
abbrev main_cst_37 : Ref sig .tc := ⟨.hbm, 225, rfl⟩
abbrev main_v144 : Ref sig .tc := ⟨.hbm, 226, rfl⟩
abbrev main_v145 : Ref sig .tc := ⟨.hbm, 227, rfl⟩
abbrev main_cst_38 : Ref sig .tc := ⟨.hbm, 228, rfl⟩
abbrev main_v146 : Ref sig .tc := ⟨.hbm, 229, rfl⟩
abbrev main_v147 : Ref sig .tc := ⟨.hbm, 230, rfl⟩
abbrev main_cst_39 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_c_40 : Ref sig .tc := ⟨.hbm, 235, rfl⟩
abbrev main_c_41 : Ref sig .tc := ⟨.hbm, 236, rfl⟩
abbrev main_call9_v0 : Ref sig .tc := ⟨.hbm, 237, rfl⟩
abbrev main_call9_v1 : Ref sig .tc := ⟨.hbm, 238, rfl⟩
abbrev main_call9_v2 : Ref sig .tc := ⟨.hbm, 239, rfl⟩
abbrev main_call9_v3 : Ref sig .tc := ⟨.hbm, 240, rfl⟩
abbrev main_call9_v4 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_cst_42 : Ref sig .tc := ⟨.hbm, 246, rfl⟩
abbrev main_v155 : Ref sig .tc := ⟨.hbm, 247, rfl⟩
abbrev main_v156 : Ref sig .tc := ⟨.hbm, 248, rfl⟩
abbrev main_cst_43 : Ref sig .tc := ⟨.hbm, 249, rfl⟩
abbrev main_v157 : Ref sig .tc := ⟨.hbm, 250, rfl⟩
abbrev main_v158 : Ref sig .tc := ⟨.hbm, 251, rfl⟩
abbrev main_cst_44 : Ref sig .tc := ⟨.hbm, 252, rfl⟩
abbrev main_v159 : Ref sig .tc := ⟨.hbm, 253, rfl⟩
abbrev main_v160 : Ref sig .tc := ⟨.hbm, 254, rfl⟩
abbrev main_cst_45 : Ref sig .tc := ⟨.hbm, 255, rfl⟩
abbrev main_v161 : Ref sig .tc := ⟨.hbm, 256, rfl⟩
abbrev main_v162 : Ref sig .tc := ⟨.hbm, 257, rfl⟩
abbrev main_cst_46 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_c_47 : Ref sig .tc := ⟨.hbm, 262, rfl⟩
abbrev main_c_48 : Ref sig .tc := ⟨.hbm, 263, rfl⟩
abbrev main_call10_v0 : Ref sig .tc := ⟨.hbm, 264, rfl⟩
abbrev main_call10_v1 : Ref sig .tc := ⟨.hbm, 265, rfl⟩
abbrev main_call10_v2 : Ref sig .tc := ⟨.hbm, 266, rfl⟩
abbrev main_call10_v3 : Ref sig .tc := ⟨.hbm, 267, rfl⟩
abbrev main_call10_v4 : Ref sig .tc := ⟨.hbm, 268, rfl⟩
abbrev main_v166 : Ref sig .tc := ⟨.hbm, 269, rfl⟩
abbrev main_v167 : Ref sig .tc := ⟨.hbm, 270, rfl⟩
abbrev main_c_49 : Ref sig .tc := ⟨.hbm, 271, rfl⟩
abbrev main_v168 : Ref sig .tc := ⟨.hbm, 272, rfl⟩
abbrev main_v169 : Ref sig .tc := ⟨.hbm, 273, rfl⟩
abbrev main_c_50 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_c_51 : Ref sig .tc := ⟨.hbm, 278, rfl⟩
abbrev main_v173 : Ref sig .tc := ⟨.hbm, 279, rfl⟩
abbrev main_v174 : Ref sig .tc := ⟨.hbm, 280, rfl⟩
abbrev main_c_52 : Ref sig .tc := ⟨.hbm, 281, rfl⟩
abbrev main_v175 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_v182 : Ref sig .tc := ⟨.hbm, 289, rfl⟩
abbrev main_v183 : Ref sig .tc := ⟨.hbm, 290, rfl⟩
abbrev main_cst_53 : Ref sig .tc := ⟨.hbm, 291, rfl⟩
abbrev main_v184 : Ref sig .tc := ⟨.hbm, 292, rfl⟩
abbrev main_v185 : Ref sig .tc := ⟨.hbm, 293, rfl⟩
abbrev main_cst_54 : Ref sig .tc := ⟨.hbm, 294, rfl⟩
abbrev main_v186 : Ref sig .tc := ⟨.hbm, 295, rfl⟩
abbrev main_v187 : Ref sig .tc := ⟨.hbm, 296, rfl⟩
abbrev main_cst_55 : Ref sig .tc := ⟨.hbm, 297, rfl⟩
abbrev main_v188 : Ref sig .tc := ⟨.hbm, 298, rfl⟩
abbrev main_v189 : Ref sig .tc := ⟨.hbm, 299, rfl⟩
abbrev main_cst_56 : Ref sig .tc := ⟨.hbm, 300, rfl⟩
abbrev main_v190 : Ref sig .tc := ⟨.hbm, 301, rfl⟩
abbrev main_v191 : Ref sig .tc := ⟨.hbm, 302, rfl⟩
abbrev main_v192 : Ref sig .tc := ⟨.hbm, 303, rfl⟩
abbrev main_cst_57 : Ref sig .tc := ⟨.hbm, 304, rfl⟩
abbrev main_v193 : Ref sig .tc := ⟨.hbm, 305, rfl⟩
abbrev main_v194 : Ref sig .tc := ⟨.hbm, 306, rfl⟩
abbrev main_cst_58 : Ref sig .tc := ⟨.hbm, 307, rfl⟩
abbrev main_v195 : Ref sig .tc := ⟨.hbm, 308, rfl⟩
abbrev main_v196 : Ref sig .tc := ⟨.hbm, 309, rfl⟩
abbrev main_cst_59 : Ref sig .tc := ⟨.hbm, 310, rfl⟩
abbrev main_v197 : Ref sig .tc := ⟨.hbm, 311, rfl⟩
abbrev main_v198 : Ref sig .tc := ⟨.hbm, 312, rfl⟩
abbrev main_cst_60 : Ref sig .tc := ⟨.hbm, 313, rfl⟩
abbrev main_v199 : Ref sig .tc := ⟨.hbm, 314, rfl⟩
abbrev main_v200 : Ref sig .tc := ⟨.hbm, 315, rfl⟩
abbrev main_v201 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_call11_cst : Ref sig .tc := ⟨.hbm, 333, rfl⟩
abbrev main_call11_v0 : Ref sig .tc := ⟨.hbm, 334, rfl⟩
abbrev main_v218 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_call12_cst : Ref sig .tc := ⟨.hbm, 340, rfl⟩
abbrev main_call12_v0 : Ref sig .tc := ⟨.hbm, 341, rfl⟩
abbrev main_v223 : Ref sig .tc := ⟨.hbm, 342, rfl⟩
abbrev main_v224 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_call13_cst : Ref sig .tc := ⟨.hbm, 347, rfl⟩
abbrev main_call13_v0 : Ref sig .tc := ⟨.hbm, 348, rfl⟩
abbrev main_v228 : Ref sig .tc := ⟨.hbm, 349, rfl⟩
abbrev main_v229 : Ref sig .tc := ⟨.hbm, 350, rfl⟩
abbrev main_v230 : Ref sig .tc := ⟨.hbm, 351, rfl⟩
abbrev main_v231 : Ref sig .tc := ⟨.hbm, 352, rfl⟩
abbrev main_v232 : Ref sig .tc := ⟨.hbm, 353, rfl⟩
abbrev main_call14_cst : Ref sig .tc := ⟨.hbm, 354, rfl⟩
abbrev main_call14_v0 : Ref sig .tc := ⟨.hbm, 355, rfl⟩
abbrev main_v233 : Ref sig .tc := ⟨.hbm, 356, rfl⟩
abbrev main_v234 : Ref sig .tc := ⟨.hbm, 357, rfl⟩
abbrev main_v235 : Ref sig .tc := ⟨.hbm, 358, rfl⟩
abbrev main_v236 : Ref sig .tc := ⟨.hbm, 359, rfl⟩
abbrev main_v237 : Ref sig .tc := ⟨.hbm, 360, rfl⟩
abbrev main_v238 : Ref sig .tc := ⟨.hbm, 361, rfl⟩
abbrev main_v239 : Ref sig .tc := ⟨.hbm, 362, rfl⟩
abbrev main_v240 : Ref sig .tc := ⟨.hbm, 363, rfl⟩
abbrev main_v241 : Ref sig .tc := ⟨.hbm, 364, rfl⟩
abbrev main_v242 : Ref sig .tc := ⟨.hbm, 365, rfl⟩
abbrev main_v243 : Ref sig .tc := ⟨.hbm, 366, rfl⟩
abbrev main_v244 : Ref sig .tc := ⟨.hbm, 367, rfl⟩
abbrev main_cst_61 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_v248 : Ref sig .tc := ⟨.hbm, 372, rfl⟩
abbrev main_v249 : Ref sig .tc := ⟨.hbm, 373, rfl⟩
abbrev main_cst_62 : Ref sig .tc := ⟨.hbm, 374, rfl⟩
abbrev main_cst_63 : Ref sig .tc := ⟨.hbm, 375, rfl⟩
abbrev main_call15_v0 : Ref sig .tc := ⟨.hbm, 376, rfl⟩
abbrev main_call15_v1 : Ref sig .tc := ⟨.hbm, 377, rfl⟩
abbrev main_call15_v2 : Ref sig .tc := ⟨.hbm, 378, rfl⟩
abbrev main_call15_v3 : Ref sig .tc := ⟨.hbm, 379, rfl⟩
abbrev main_call15_v4 : Ref sig .tc := ⟨.hbm, 380, rfl⟩
abbrev main_v250 : Ref sig .tc := ⟨.hbm, 381, rfl⟩
abbrev main_v251 : Ref sig .tc := ⟨.hbm, 382, rfl⟩
abbrev main_v252 : Ref sig .tc := ⟨.hbm, 383, rfl⟩
abbrev main_cst_64 : Ref sig .tc := ⟨.hbm, 384, rfl⟩
abbrev main_v253 : Ref sig .tc := ⟨.hbm, 385, rfl⟩
abbrev main_v254 : Ref sig .tc := ⟨.hbm, 386, rfl⟩
abbrev main_cst_65 : Ref sig .tc := ⟨.hbm, 387, rfl⟩
abbrev main_v255 : Ref sig .tc := ⟨.hbm, 388, rfl⟩
abbrev main_v256 : Ref sig .tc := ⟨.hbm, 389, rfl⟩
abbrev main_cst_66 : Ref sig .tc := ⟨.hbm, 390, rfl⟩
abbrev main_v257 : Ref sig .tc := ⟨.hbm, 391, rfl⟩
abbrev main_v258 : Ref sig .tc := ⟨.hbm, 392, rfl⟩
abbrev main_cst_67 : Ref sig .tc := ⟨.hbm, 393, rfl⟩
abbrev main_v259 : Ref sig .tc := ⟨.hbm, 394, rfl⟩
abbrev main_v260 : Ref sig .tc := ⟨.hbm, 395, rfl⟩
abbrev main_cst_68 : Ref sig .tc := ⟨.hbm, 396, rfl⟩
abbrev main_v261 : Ref sig .tc := ⟨.hbm, 397, rfl⟩
abbrev main_v262 : Ref sig .tc := ⟨.hbm, 398, rfl⟩
abbrev main_v263 : Ref sig .tc := ⟨.hbm, 399, rfl⟩
abbrev main_c_69 : Ref sig .tc := ⟨.hbm, 400, rfl⟩
abbrev main_c_70 : Ref sig .tc := ⟨.hbm, 401, rfl⟩
abbrev main_call16_v0 : Ref sig .tc := ⟨.hbm, 402, rfl⟩
abbrev main_call16_v1 : Ref sig .tc := ⟨.hbm, 403, rfl⟩
abbrev main_call16_v2 : Ref sig .tc := ⟨.hbm, 404, rfl⟩
abbrev main_call16_v3 : Ref sig .tc := ⟨.hbm, 405, rfl⟩
abbrev main_call16_v4 : Ref sig .tc := ⟨.hbm, 406, rfl⟩
abbrev main_v264 : Ref sig .tc := ⟨.hbm, 407, rfl⟩
abbrev main_v265 : Ref sig .tc := ⟨.hbm, 408, rfl⟩
abbrev main_v266 : Ref sig .tc := ⟨.hbm, 409, rfl⟩
abbrev main_v267 : Ref sig .tc := ⟨.hbm, 410, rfl⟩
abbrev main_cst_71 : Ref sig .tc := ⟨.hbm, 411, rfl⟩
abbrev main_v268 : Ref sig .tc := ⟨.hbm, 412, rfl⟩
abbrev main_v269 : Ref sig .tc := ⟨.hbm, 413, rfl⟩
abbrev main_cst_72 : Ref sig .tc := ⟨.hbm, 414, rfl⟩
abbrev main_v270 : Ref sig .tc := ⟨.hbm, 415, rfl⟩
abbrev main_v271 : Ref sig .tc := ⟨.hbm, 416, rfl⟩
abbrev main_cst_73 : Ref sig .tc := ⟨.hbm, 417, rfl⟩
abbrev main_v272 : Ref sig .tc := ⟨.hbm, 418, rfl⟩
abbrev main_v273 : Ref sig .tc := ⟨.hbm, 419, rfl⟩
abbrev main_cst_74 : Ref sig .tc := ⟨.hbm, 420, rfl⟩
abbrev main_v274 : Ref sig .tc := ⟨.hbm, 421, rfl⟩
abbrev main_v275 : Ref sig .tc := ⟨.hbm, 422, rfl⟩
abbrev main_cst_75 : Ref sig .tc := ⟨.hbm, 423, rfl⟩
abbrev main_v276 : Ref sig .tc := ⟨.hbm, 424, rfl⟩
abbrev main_v277 : Ref sig .tc := ⟨.hbm, 425, rfl⟩
abbrev main_v278 : Ref sig .tc := ⟨.hbm, 426, rfl⟩
abbrev main_c_76 : Ref sig .tc := ⟨.hbm, 427, rfl⟩
abbrev main_c_77 : Ref sig .tc := ⟨.hbm, 428, rfl⟩
abbrev main_call17_v0 : Ref sig .tc := ⟨.hbm, 429, rfl⟩
abbrev main_call17_v1 : Ref sig .tc := ⟨.hbm, 430, rfl⟩
abbrev main_call17_v2 : Ref sig .tc := ⟨.hbm, 431, rfl⟩
abbrev main_call17_v3 : Ref sig .tc := ⟨.hbm, 432, rfl⟩
abbrev main_call17_v4 : Ref sig .tc := ⟨.hbm, 433, rfl⟩
abbrev main_v279 : Ref sig .tc := ⟨.hbm, 434, rfl⟩
abbrev main_v280 : Ref sig .tc := ⟨.hbm, 435, rfl⟩
abbrev main_c_78 : Ref sig .tc := ⟨.hbm, 436, rfl⟩
abbrev main_v281 : Ref sig .tc := ⟨.hbm, 437, rfl⟩
abbrev main_v282 : Ref sig .tc := ⟨.hbm, 438, rfl⟩
abbrev main_c_79 : Ref sig .tc := ⟨.hbm, 439, rfl⟩
abbrev main_v283 : Ref sig .tc := ⟨.hbm, 440, rfl⟩
abbrev main_v284 : Ref sig .tc := ⟨.hbm, 441, rfl⟩
abbrev main_v285 : Ref sig .tc := ⟨.hbm, 442, rfl⟩
abbrev main_c_80 : Ref sig .tc := ⟨.hbm, 443, rfl⟩
abbrev main_v286 : Ref sig .tc := ⟨.hbm, 444, rfl⟩
abbrev main_v287 : Ref sig .tc := ⟨.hbm, 445, rfl⟩
abbrev main_c_81 : Ref sig .tc := ⟨.hbm, 446, rfl⟩
abbrev main_v288 : Ref sig .tc := ⟨.hbm, 447, rfl⟩
abbrev main_v289 : Ref sig .tc := ⟨.hbm, 448, rfl⟩
abbrev main_v290 : Ref sig .tc := ⟨.hbm, 449, rfl⟩
abbrev main_v291 : Ref sig .tc := ⟨.hbm, 450, rfl⟩
abbrev main_v292 : Ref sig .tc := ⟨.hbm, 451, rfl⟩
abbrev main_v293 : Ref sig .tc := ⟨.hbm, 452, rfl⟩
abbrev main_v294 : Ref sig .tc := ⟨.hbm, 453, rfl⟩
abbrev main_v295 : Ref sig .tc := ⟨.hbm, 454, rfl⟩
abbrev main_v296 : Ref sig .tc := ⟨.hbm, 455, rfl⟩
abbrev main_cst_82 : Ref sig .tc := ⟨.hbm, 456, rfl⟩
abbrev main_v297 : Ref sig .tc := ⟨.hbm, 457, rfl⟩
abbrev main_v298 : Ref sig .tc := ⟨.hbm, 458, rfl⟩
abbrev main_cst_83 : Ref sig .tc := ⟨.hbm, 459, rfl⟩
abbrev main_v299 : Ref sig .tc := ⟨.hbm, 460, rfl⟩
abbrev main_v300 : Ref sig .tc := ⟨.hbm, 461, rfl⟩
abbrev main_cst_84 : Ref sig .tc := ⟨.hbm, 462, rfl⟩
abbrev main_v301 : Ref sig .tc := ⟨.hbm, 463, rfl⟩
abbrev main_v302 : Ref sig .tc := ⟨.hbm, 464, rfl⟩
abbrev main_cst_85 : Ref sig .tc := ⟨.hbm, 465, rfl⟩
abbrev main_v303 : Ref sig .tc := ⟨.hbm, 466, rfl⟩
abbrev main_v304 : Ref sig .tc := ⟨.hbm, 467, rfl⟩
abbrev main_v305 : Ref sig .tc := ⟨.hbm, 468, rfl⟩
abbrev main_cst_86 : Ref sig .tc := ⟨.hbm, 469, rfl⟩
abbrev main_v306 : Ref sig .tc := ⟨.hbm, 470, rfl⟩
abbrev main_v307 : Ref sig .tc := ⟨.hbm, 471, rfl⟩
abbrev main_cst_87 : Ref sig .tc := ⟨.hbm, 472, rfl⟩
abbrev main_v308 : Ref sig .tc := ⟨.hbm, 473, rfl⟩
abbrev main_v309 : Ref sig .tc := ⟨.hbm, 474, rfl⟩
abbrev main_cst_88 : Ref sig .tc := ⟨.hbm, 475, rfl⟩
abbrev main_v310 : Ref sig .tc := ⟨.hbm, 476, rfl⟩
abbrev main_v311 : Ref sig .tc := ⟨.hbm, 477, rfl⟩
abbrev main_cst_89 : Ref sig .tc := ⟨.hbm, 478, rfl⟩
abbrev main_v312 : Ref sig .tc := ⟨.hbm, 479, rfl⟩
abbrev main_v313 : Ref sig .tc := ⟨.hbm, 480, rfl⟩
abbrev main_v314 : Ref sig .tc := ⟨.hbm, 481, rfl⟩
abbrev main_v315 : Ref sig .tc := ⟨.hbm, 482, rfl⟩
abbrev main_v316 : Ref sig .tc := ⟨.hbm, 483, rfl⟩
abbrev main_v317 : Ref sig .tc := ⟨.hbm, 484, rfl⟩
abbrev main_v318 : Ref sig .tc := ⟨.hbm, 485, rfl⟩
abbrev main_v319 : Ref sig .tc := ⟨.hbm, 486, rfl⟩
abbrev main_v320 : Ref sig .tc := ⟨.hbm, 487, rfl⟩
abbrev main_v321 : Ref sig .tc := ⟨.hbm, 488, rfl⟩
abbrev main_v322 : Ref sig .tc := ⟨.hbm, 489, rfl⟩
abbrev main_v323 : Ref sig .tc := ⟨.hbm, 490, rfl⟩
abbrev main_v324 : Ref sig .tc := ⟨.hbm, 491, rfl⟩
abbrev main_v325 : Ref sig .tc := ⟨.hbm, 492, rfl⟩
abbrev main_v326 : Ref sig .tc := ⟨.hbm, 493, rfl⟩
abbrev main_v327 : Ref sig .tc := ⟨.hbm, 494, rfl⟩
abbrev main_v328 : Ref sig .tc := ⟨.hbm, 495, rfl⟩
abbrev main_v329 : Ref sig .tc := ⟨.hbm, 496, rfl⟩
abbrev main_v330 : Ref sig .tc := ⟨.hbm, 497, rfl⟩
abbrev main_call18_cst : Ref sig .tc := ⟨.hbm, 498, rfl⟩
abbrev main_call18_v0 : Ref sig .tc := ⟨.hbm, 499, rfl⟩
abbrev main_v331 : Ref sig .tc := ⟨.hbm, 500, rfl⟩
abbrev main_v332 : Ref sig .tc := ⟨.hbm, 501, rfl⟩
abbrev main_v333 : Ref sig .tc := ⟨.hbm, 502, rfl⟩
abbrev main_v334 : Ref sig .tc := ⟨.hbm, 503, rfl⟩
abbrev main_v335 : Ref sig .tc := ⟨.hbm, 504, rfl⟩
abbrev main_call19_cst : Ref sig .tc := ⟨.hbm, 505, rfl⟩
abbrev main_call19_v0 : Ref sig .tc := ⟨.hbm, 506, rfl⟩
abbrev main_v336 : Ref sig .tc := ⟨.hbm, 507, rfl⟩
abbrev main_v337 : Ref sig .tc := ⟨.hbm, 508, rfl⟩
abbrev main_v338 : Ref sig .tc := ⟨.hbm, 509, rfl⟩
abbrev main_v339 : Ref sig .tc := ⟨.hbm, 510, rfl⟩
abbrev main_v340 : Ref sig .tc := ⟨.hbm, 511, rfl⟩
abbrev main_call20_cst : Ref sig .tc := ⟨.hbm, 512, rfl⟩
abbrev main_call20_v0 : Ref sig .tc := ⟨.hbm, 513, rfl⟩
abbrev main_v341 : Ref sig .tc := ⟨.hbm, 514, rfl⟩
abbrev main_v342 : Ref sig .tc := ⟨.hbm, 515, rfl⟩
abbrev main_v343 : Ref sig .tc := ⟨.hbm, 516, rfl⟩
abbrev main_v344 : Ref sig .tc := ⟨.hbm, 517, rfl⟩
abbrev main_v345 : Ref sig .tc := ⟨.hbm, 518, rfl⟩
abbrev main_call21_cst : Ref sig .tc := ⟨.hbm, 519, rfl⟩
abbrev main_call21_v0 : Ref sig .tc := ⟨.hbm, 520, rfl⟩
abbrev main_v346 : Ref sig .tc := ⟨.hbm, 521, rfl⟩
abbrev main_v347 : Ref sig .tc := ⟨.hbm, 522, rfl⟩
abbrev main_v348 : Ref sig .tc := ⟨.hbm, 523, rfl⟩
abbrev main_v349 : Ref sig .tc := ⟨.hbm, 524, rfl⟩
abbrev main_v350 : Ref sig .tc := ⟨.hbm, 525, rfl⟩
abbrev main_v351 : Ref sig .tc := ⟨.hbm, 526, rfl⟩
abbrev main_v352 : Ref sig .tc := ⟨.hbm, 527, rfl⟩
abbrev main_v353 : Ref sig .tc := ⟨.hbm, 528, rfl⟩
abbrev main_v354 : Ref sig .tc := ⟨.hbm, 529, rfl⟩
abbrev main_v355 : Ref sig .tc := ⟨.hbm, 530, rfl⟩
abbrev main_v356 : Ref sig .tc := ⟨.hbm, 531, rfl⟩
abbrev main_v357 : Ref sig .tc := ⟨.hbm, 532, rfl⟩
abbrev main_cst_90 : Ref sig .tc := ⟨.hbm, 533, rfl⟩
abbrev main_v358 : Ref sig .tc := ⟨.hbm, 534, rfl⟩
abbrev main_v359 : Ref sig .tc := ⟨.hbm, 535, rfl⟩
abbrev main_v360 : Ref sig .tc := ⟨.hbm, 536, rfl⟩
abbrev main_v361 : Ref sig .tc := ⟨.hbm, 537, rfl⟩
abbrev main_v362 : Ref sig .tc := ⟨.hbm, 538, rfl⟩
abbrev main_cst_91 : Ref sig .tc := ⟨.hbm, 539, rfl⟩
abbrev main_cst_92 : Ref sig .tc := ⟨.hbm, 540, rfl⟩
abbrev main_call22_v0 : Ref sig .tc := ⟨.hbm, 541, rfl⟩
abbrev main_call22_v1 : Ref sig .tc := ⟨.hbm, 542, rfl⟩
abbrev main_call22_v2 : Ref sig .tc := ⟨.hbm, 543, rfl⟩
abbrev main_call22_v3 : Ref sig .tc := ⟨.hbm, 544, rfl⟩
abbrev main_call22_v4 : Ref sig .tc := ⟨.hbm, 545, rfl⟩
abbrev main_v363 : Ref sig .tc := ⟨.hbm, 546, rfl⟩
abbrev main_v364 : Ref sig .tc := ⟨.hbm, 547, rfl⟩
abbrev main_v365 : Ref sig .tc := ⟨.hbm, 548, rfl⟩
abbrev main_cst_93 : Ref sig .tc := ⟨.hbm, 549, rfl⟩
abbrev main_v366 : Ref sig .tc := ⟨.hbm, 550, rfl⟩
abbrev main_v367 : Ref sig .tc := ⟨.hbm, 551, rfl⟩
abbrev main_cst_94 : Ref sig .tc := ⟨.hbm, 552, rfl⟩
abbrev main_v368 : Ref sig .tc := ⟨.hbm, 553, rfl⟩
abbrev main_v369 : Ref sig .tc := ⟨.hbm, 554, rfl⟩
abbrev main_cst_95 : Ref sig .tc := ⟨.hbm, 555, rfl⟩
abbrev main_v370 : Ref sig .tc := ⟨.hbm, 556, rfl⟩
abbrev main_v371 : Ref sig .tc := ⟨.hbm, 557, rfl⟩
abbrev main_cst_96 : Ref sig .tc := ⟨.hbm, 558, rfl⟩
abbrev main_v372 : Ref sig .tc := ⟨.hbm, 559, rfl⟩
abbrev main_v373 : Ref sig .tc := ⟨.hbm, 560, rfl⟩
abbrev main_cst_97 : Ref sig .tc := ⟨.hbm, 561, rfl⟩
abbrev main_v374 : Ref sig .tc := ⟨.hbm, 562, rfl⟩
abbrev main_v375 : Ref sig .tc := ⟨.hbm, 563, rfl⟩
abbrev main_v376 : Ref sig .tc := ⟨.hbm, 564, rfl⟩
abbrev main_c_98 : Ref sig .tc := ⟨.hbm, 565, rfl⟩
abbrev main_c_99 : Ref sig .tc := ⟨.hbm, 566, rfl⟩
abbrev main_call23_v0 : Ref sig .tc := ⟨.hbm, 567, rfl⟩
abbrev main_call23_v1 : Ref sig .tc := ⟨.hbm, 568, rfl⟩
abbrev main_call23_v2 : Ref sig .tc := ⟨.hbm, 569, rfl⟩
abbrev main_call23_v3 : Ref sig .tc := ⟨.hbm, 570, rfl⟩
abbrev main_call23_v4 : Ref sig .tc := ⟨.hbm, 571, rfl⟩
abbrev main_v377 : Ref sig .tc := ⟨.hbm, 572, rfl⟩
abbrev main_v378 : Ref sig .tc := ⟨.hbm, 573, rfl⟩
abbrev main_v379 : Ref sig .tc := ⟨.hbm, 574, rfl⟩
abbrev main_v380 : Ref sig .tc := ⟨.hbm, 575, rfl⟩
abbrev main_cst_100 : Ref sig .tc := ⟨.hbm, 576, rfl⟩
abbrev main_v381 : Ref sig .tc := ⟨.hbm, 577, rfl⟩
abbrev main_v382 : Ref sig .tc := ⟨.hbm, 578, rfl⟩
abbrev main_cst_101 : Ref sig .tc := ⟨.hbm, 579, rfl⟩
abbrev main_v383 : Ref sig .tc := ⟨.hbm, 580, rfl⟩
abbrev main_v384 : Ref sig .tc := ⟨.hbm, 581, rfl⟩
abbrev main_cst_102 : Ref sig .tc := ⟨.hbm, 582, rfl⟩
abbrev main_v385 : Ref sig .tc := ⟨.hbm, 583, rfl⟩
abbrev main_v386 : Ref sig .tc := ⟨.hbm, 584, rfl⟩
abbrev main_cst_103 : Ref sig .tc := ⟨.hbm, 585, rfl⟩
abbrev main_v387 : Ref sig .tc := ⟨.hbm, 586, rfl⟩
abbrev main_v388 : Ref sig .tc := ⟨.hbm, 587, rfl⟩
abbrev main_cst_104 : Ref sig .tc := ⟨.hbm, 588, rfl⟩
abbrev main_v389 : Ref sig .tc := ⟨.hbm, 589, rfl⟩
abbrev main_v390 : Ref sig .tc := ⟨.hbm, 590, rfl⟩
abbrev main_v391 : Ref sig .tc := ⟨.hbm, 591, rfl⟩
abbrev main_c_105 : Ref sig .tc := ⟨.hbm, 592, rfl⟩
abbrev main_c_106 : Ref sig .tc := ⟨.hbm, 593, rfl⟩
abbrev main_call24_v0 : Ref sig .tc := ⟨.hbm, 594, rfl⟩
abbrev main_call24_v1 : Ref sig .tc := ⟨.hbm, 595, rfl⟩
abbrev main_call24_v2 : Ref sig .tc := ⟨.hbm, 596, rfl⟩
abbrev main_call24_v3 : Ref sig .tc := ⟨.hbm, 597, rfl⟩
abbrev main_call24_v4 : Ref sig .tc := ⟨.hbm, 598, rfl⟩
abbrev main_v392 : Ref sig .tc := ⟨.hbm, 599, rfl⟩
abbrev main_v393 : Ref sig .tc := ⟨.hbm, 600, rfl⟩
abbrev main_c_107 : Ref sig .tc := ⟨.hbm, 601, rfl⟩
abbrev main_v394 : Ref sig .tc := ⟨.hbm, 602, rfl⟩
abbrev main_v395 : Ref sig .tc := ⟨.hbm, 603, rfl⟩
abbrev main_c_108 : Ref sig .tc := ⟨.hbm, 604, rfl⟩
abbrev main_v396 : Ref sig .tc := ⟨.hbm, 605, rfl⟩
abbrev main_v397 : Ref sig .tc := ⟨.hbm, 606, rfl⟩
abbrev main_v398 : Ref sig .tc := ⟨.hbm, 607, rfl⟩
abbrev main_c_109 : Ref sig .tc := ⟨.hbm, 608, rfl⟩
abbrev main_v399 : Ref sig .tc := ⟨.hbm, 609, rfl⟩
abbrev main_v400 : Ref sig .tc := ⟨.hbm, 610, rfl⟩
abbrev main_c_110 : Ref sig .tc := ⟨.hbm, 611, rfl⟩
abbrev main_v401 : Ref sig .tc := ⟨.hbm, 612, rfl⟩
abbrev main_v402 : Ref sig .tc := ⟨.hbm, 613, rfl⟩
abbrev main_v403 : Ref sig .tc := ⟨.hbm, 614, rfl⟩
abbrev main_v404 : Ref sig .tc := ⟨.hbm, 615, rfl⟩
abbrev main_v405 : Ref sig .tc := ⟨.hbm, 616, rfl⟩
abbrev main_v406 : Ref sig .tc := ⟨.hbm, 617, rfl⟩
abbrev main_v407 : Ref sig .tc := ⟨.hbm, 618, rfl⟩
abbrev main_v408 : Ref sig .tc := ⟨.hbm, 619, rfl⟩
abbrev main_v409 : Ref sig .tc := ⟨.hbm, 620, rfl⟩
abbrev main_cst_111 : Ref sig .tc := ⟨.hbm, 621, rfl⟩
abbrev main_v410 : Ref sig .tc := ⟨.hbm, 622, rfl⟩
abbrev main_v411 : Ref sig .tc := ⟨.hbm, 623, rfl⟩
abbrev main_cst_112 : Ref sig .tc := ⟨.hbm, 624, rfl⟩
abbrev main_v412 : Ref sig .tc := ⟨.hbm, 625, rfl⟩
abbrev main_v413 : Ref sig .tc := ⟨.hbm, 626, rfl⟩
abbrev main_cst_113 : Ref sig .tc := ⟨.hbm, 627, rfl⟩
abbrev main_v414 : Ref sig .tc := ⟨.hbm, 628, rfl⟩
abbrev main_v415 : Ref sig .tc := ⟨.hbm, 629, rfl⟩
abbrev main_cst_114 : Ref sig .tc := ⟨.hbm, 630, rfl⟩
abbrev main_v416 : Ref sig .tc := ⟨.hbm, 631, rfl⟩
abbrev main_v417 : Ref sig .tc := ⟨.hbm, 632, rfl⟩
abbrev main_v418 : Ref sig .tc := ⟨.hbm, 633, rfl⟩
abbrev main_cst_115 : Ref sig .tc := ⟨.hbm, 634, rfl⟩
abbrev main_v419 : Ref sig .tc := ⟨.hbm, 635, rfl⟩
abbrev main_v420 : Ref sig .tc := ⟨.hbm, 636, rfl⟩
abbrev main_cst_116 : Ref sig .tc := ⟨.hbm, 637, rfl⟩
abbrev main_v421 : Ref sig .tc := ⟨.hbm, 638, rfl⟩
abbrev main_v422 : Ref sig .tc := ⟨.hbm, 639, rfl⟩
abbrev main_cst_117 : Ref sig .tc := ⟨.hbm, 640, rfl⟩
abbrev main_v423 : Ref sig .tc := ⟨.hbm, 641, rfl⟩
abbrev main_v424 : Ref sig .tc := ⟨.hbm, 642, rfl⟩
abbrev main_cst_118 : Ref sig .tc := ⟨.hbm, 643, rfl⟩
abbrev main_v425 : Ref sig .tc := ⟨.hbm, 644, rfl⟩
abbrev main_v426 : Ref sig .tc := ⟨.hbm, 645, rfl⟩
abbrev main_v427 : Ref sig .tc := ⟨.hbm, 646, rfl⟩
abbrev main_v428 : Ref sig .tc := ⟨.hbm, 647, rfl⟩
abbrev main_v429 : Ref sig .tc := ⟨.hbm, 648, rfl⟩
abbrev main_v430 : Ref sig .tc := ⟨.hbm, 649, rfl⟩
abbrev main_v431 : Ref sig .tc := ⟨.hbm, 650, rfl⟩
abbrev main_v432 : Ref sig .tc := ⟨.hbm, 651, rfl⟩
abbrev main_v433 : Ref sig .tc := ⟨.hbm, 652, rfl⟩
abbrev main_v434 : Ref sig .tc := ⟨.hbm, 653, rfl⟩
abbrev main_v435 : Ref sig .tc := ⟨.hbm, 654, rfl⟩
abbrev main_v436 : Ref sig .tc := ⟨.hbm, 655, rfl⟩
abbrev main_v437 : Ref sig .tc := ⟨.hbm, 656, rfl⟩
abbrev main_v438 : Ref sig .tc := ⟨.hbm, 657, rfl⟩
abbrev main_v439 : Ref sig .tc := ⟨.hbm, 658, rfl⟩
abbrev main_v440 : Ref sig .tc := ⟨.hbm, 659, rfl⟩
abbrev main_v441 : Ref sig .tc := ⟨.hbm, 660, rfl⟩
abbrev main_v442 : Ref sig .tc := ⟨.hbm, 661, rfl⟩
abbrev main_v443 : Ref sig .tc := ⟨.hbm, 662, rfl⟩
abbrev main_call25_cst : Ref sig .tc := ⟨.hbm, 663, rfl⟩
abbrev main_call25_v0 : Ref sig .tc := ⟨.hbm, 664, rfl⟩
abbrev main_v444 : Ref sig .tc := ⟨.hbm, 665, rfl⟩
abbrev main_v445 : Ref sig .tc := ⟨.hbm, 666, rfl⟩
abbrev main_v446 : Ref sig .tc := ⟨.hbm, 667, rfl⟩
abbrev main_v447 : Ref sig .tc := ⟨.hbm, 668, rfl⟩
abbrev main_v448 : Ref sig .tc := ⟨.hbm, 669, rfl⟩
abbrev main_call26_cst : Ref sig .tc := ⟨.hbm, 670, rfl⟩
abbrev main_call26_v0 : Ref sig .tc := ⟨.hbm, 671, rfl⟩
abbrev main_v449 : Ref sig .tc := ⟨.hbm, 672, rfl⟩
abbrev main_v450 : Ref sig .tc := ⟨.hbm, 673, rfl⟩
abbrev main_v451 : Ref sig .tc := ⟨.hbm, 674, rfl⟩
abbrev main_v452 : Ref sig .tc := ⟨.hbm, 675, rfl⟩
abbrev main_v453 : Ref sig .tc := ⟨.hbm, 676, rfl⟩
abbrev main_call27_cst : Ref sig .tc := ⟨.hbm, 677, rfl⟩
abbrev main_call27_v0 : Ref sig .tc := ⟨.hbm, 678, rfl⟩
abbrev main_v454 : Ref sig .tc := ⟨.hbm, 679, rfl⟩
abbrev main_v455 : Ref sig .tc := ⟨.hbm, 680, rfl⟩
abbrev main_v456 : Ref sig .tc := ⟨.hbm, 681, rfl⟩
abbrev main_v457 : Ref sig .tc := ⟨.hbm, 682, rfl⟩
abbrev main_v458 : Ref sig .tc := ⟨.hbm, 683, rfl⟩
abbrev main_call28_cst : Ref sig .tc := ⟨.hbm, 684, rfl⟩
abbrev main_call28_v0 : Ref sig .tc := ⟨.hbm, 685, rfl⟩
abbrev main_v459 : Ref sig .tc := ⟨.hbm, 686, rfl⟩
abbrev main_v460 : Ref sig .tc := ⟨.hbm, 687, rfl⟩
abbrev main_v461 : Ref sig .tc := ⟨.hbm, 688, rfl⟩
abbrev main_v462 : Ref sig .tc := ⟨.hbm, 689, rfl⟩
abbrev main_v463 : Ref sig .tc := ⟨.hbm, 690, rfl⟩
abbrev main_v464 : Ref sig .tc := ⟨.hbm, 691, rfl⟩
abbrev main_v465 : Ref sig .tc := ⟨.hbm, 692, rfl⟩
abbrev main_v466 : Ref sig .tc := ⟨.hbm, 693, rfl⟩
abbrev main_v467 : Ref sig .tc := ⟨.hbm, 694, rfl⟩
abbrev main_v468 : Ref sig .tc := ⟨.hbm, 695, rfl⟩
abbrev main_v469 : Ref sig .tc := ⟨.hbm, 696, rfl⟩
abbrev main_v470 : Ref sig .tc := ⟨.hbm, 697, rfl⟩
abbrev main_cst_119 : Ref sig .tc := ⟨.hbm, 698, rfl⟩
abbrev main_v471 : Ref sig .tc := ⟨.hbm, 699, rfl⟩
abbrev main_v472 : Ref sig .tc := ⟨.hbm, 700, rfl⟩
abbrev main_v473 : Ref sig .tc := ⟨.hbm, 701, rfl⟩
abbrev main_v474 : Ref sig .tc := ⟨.hbm, 702, rfl⟩
abbrev main_v475 : Ref sig .tc := ⟨.hbm, 703, rfl⟩
abbrev main_v476 : Ref sig .tc := ⟨.hbm, 704, rfl⟩
abbrev main_v477 : Ref sig .tc := ⟨.hbm, 705, rfl⟩
abbrev main_v478 : Ref sig .tc := ⟨.hbm, 706, rfl⟩
abbrev main_v479 : Ref sig .tc := ⟨.hbm, 707, rfl⟩
abbrev main_cst_120 : Ref sig .tc := ⟨.hbm, 708, rfl⟩
abbrev main_v480 : Ref sig .tc := ⟨.hbm, 709, rfl⟩
abbrev main_v481 : Ref sig .tc := ⟨.hbm, 710, rfl⟩
abbrev main_v482 : Ref sig .tc := ⟨.hbm, 711, rfl⟩
abbrev main_v483 : Ref sig .tc := ⟨.hbm, 712, rfl⟩
abbrev main_v484 : Ref sig .tc := ⟨.hbm, 713, rfl⟩
abbrev main_v485 : Ref sig .tc := ⟨.hbm, 714, rfl⟩
abbrev main_v486 : Ref sig .tc := ⟨.hbm, 715, rfl⟩
abbrev main_v487 : Ref sig .tc := ⟨.hbm, 716, rfl⟩
abbrev main_v488 : Ref sig .tc := ⟨.hbm, 717, rfl⟩
abbrev main_v489 : Ref sig .tc := ⟨.hbm, 718, rfl⟩
abbrev main_v490 : Ref sig .tc := ⟨.hbm, 719, rfl⟩
abbrev main_v491 : Ref sig .tc := ⟨.hbm, 720, rfl⟩
abbrev main_v492 : Ref sig .tc := ⟨.hbm, 721, rfl⟩
abbrev main_v493 : Ref sig .tc := ⟨.hbm, 722, rfl⟩
abbrev main_v494 : Ref sig .tc := ⟨.hbm, 723, rfl⟩
abbrev main_v495 : Ref sig .tc := ⟨.hbm, 724, rfl⟩
abbrev main_v496 : Ref sig .tc := ⟨.hbm, 725, rfl⟩
abbrev main_v497 : Ref sig .tc := ⟨.hbm, 726, rfl⟩
abbrev main_cst_121 : Ref sig .tc := ⟨.hbm, 727, rfl⟩
abbrev main_v498 : Ref sig .tc := ⟨.hbm, 728, rfl⟩
abbrev main_cst_122 : Ref sig .tc := ⟨.hbm, 729, rfl⟩
abbrev main_v499 : Ref sig .tc := ⟨.hbm, 730, rfl⟩

abbrev nD : Nat := 1
abbrev τ : Topo := Topo.v7x

variable {F : FTy → Type} [FloatOps F]

class Facts₀ : Prop where
  pads_S2x64x96x96_S2x64x98x98_000_000_110_110 : S2x64x96x96.Pads (![0, 0, 1, 1] : Fin 4 → Nat) ![0, 0, 1, 1] ![0, 0, 0, 0] S2x64x98x98
  h_S_ : 0 < S_.numel
  slices_S2x64x98x98_S2x64x96x96_0_0_0_0 : S2x64x98x98.Slices ![0, 0, 0, 0] S2x64x96x96
  slices_S2x64x98x98_S2x64x96x96_0_0_0_1 : S2x64x98x98.Slices ![0, 0, 0, 1] S2x64x96x96
  slices_S2x64x98x98_S2x64x96x96_0_0_0_2 : S2x64x98x98.Slices ![0, 0, 0, 2] S2x64x96x96
  slices_S2x64x98x98_S2x64x96x96_0_0_1_0 : S2x64x98x98.Slices ![0, 0, 1, 0] S2x64x96x96
  slices_S2x64x98x98_S2x64x96x96_0_0_1_1 : S2x64x98x98.Slices ![0, 0, 1, 1] S2x64x96x96
  slices_S2x64x98x98_S2x64x96x96_0_0_1_2 : S2x64x98x98.Slices ![0, 0, 1, 2] S2x64x96x96
  slices_S2x64x98x98_S2x64x96x96_0_0_2_0 : S2x64x98x98.Slices ![0, 0, 2, 0] S2x64x96x96
  slices_S2x64x98x98_S2x64x96x96_0_0_2_1 : S2x64x98x98.Slices ![0, 0, 2, 1] S2x64x96x96
  slices_S2x64x98x98_S2x64x96x96_0_0_2_2 : S2x64x98x98.Slices ![0, 0, 2, 2] S2x64x96x96
  bcast_S2x64x96x96_S2x64x1x96x96_0_1_3_4 : S2x64x96x96.BroadcastsInDim S2x64x1x96x96 (![0, 1, 3, 4] : Fin 4 → Fin S2x64x1x96x96.rank)
  concatenates_S2x64x1x96x96_S2x64x1x96x96_S2x64x1x96x96_S2x64x1x96x96_S2x64x1x96x96_S2x64x1x96x96_S2x64x1x96x96_S2x64x1x96x96_S2x64x1x96x96_S2x64x9x96x96_d2 : Shape.Concatenates [S2x64x1x96x96, S2x64x1x96x96, S2x64x1x96x96, S2x64x1x96x96, S2x64x1x96x96, S2x64x1x96x96, S2x64x1x96x96, S2x64x1x96x96, S2x64x1x96x96] S2x64x9x96x96 2
  shapeCasts_S2x64x9x96x96_S2x576x96x96 : S2x64x9x96x96.ShapeCasts S2x576x96x96
  bcast_S2_S1x1x2_2 : S2.BroadcastsInDim S1x1x2 (![2] : Fin 1 → Fin S1x1x2.rank)
  bcast_S1x1x2_S2x65536x2_0_1_2 : S1x1x2.BroadcastsInDim S2x65536x2 (![0, 1, 2] : Fin 3 → Fin S2x65536x2.rank)
  bcast_S_S2x65536x2 : S_.BroadcastsInDim S2x65536x2 (![] : Fin 0 → Fin S2x65536x2.rank)
  slices_S2x65536x2_S2x65536x1_0_0_0 : S2x65536x2.Slices ![0, 0, 0] S2x65536x1
  shapeCasts_S2x65536x1_S2x65536 : S2x65536x1.ShapeCasts S2x65536
  bcast_S_S2x65536 : S_.BroadcastsInDim S2x65536 (![] : Fin 0 → Fin S2x65536.rank)
  slices_S2x65536x2_S2x65536x1_0_0_1 : S2x65536x2.Slices ![0, 0, 1] S2x65536x1
  bcast_S2x65536_S2x65536x1_0_1 : S2x65536.BroadcastsInDim S2x65536x1 (![0, 1] : Fin 2 → Fin S2x65536x1.rank)
  concatenates_S2x65536x1_S2x65536x1_S2x65536x2_d2 : Shape.Concatenates [S2x65536x1, S2x65536x1] S2x65536x2 2
  transposes_S2x576x65536_S2x65536x576_0_2_1 : S2x576x65536.Transposes [0, 2, 1] S2x65536x576
  concatenates_S2x65536x576_S2x65536x2_S2x65536x2_S2x65536x580_d2 : Shape.Concatenates [S2x65536x576, S2x65536x2, S2x65536x2] S2x65536x580 2
  shapeCasts_S2x65536x580_S131072x580 : S2x65536x580.ShapeCasts S131072x580
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  shapeCasts_S131072x2_S2x65536x2 : S131072x2.ShapeCasts S2x65536x2
  bcast_S2x65536x1_S2x65536x2_0_1_2 : S2x65536x1.BroadcastsInDim S2x65536x2 (![0, 1, 2] : Fin 3 → Fin S2x65536x2.rank)
  reducesTo_S2x65536x2_S_d0_1_2 : S2x65536x2.ReducesTo [0, 1, 2] S_
  gather_S2x576x96x96_S2x65536x2_S2x576x65536_1_23_0_0_23_2_157611_wf : GatherDims.WF S2x576x96x96 S2x65536x2 S2x576x65536 [1] [2, 3] [0] [2, 3] [0] 2 ![1, 576, 1, 1]
  dot_S131072x580_S580x256_S131072x256_1_0_0_1_n_n_wf : DotDims.WF S131072x580 S580x256 S131072x256 [1] [0] [0] [1] [] []
  dot_S131072x256_S256x256_S131072x256_1_0_0_1_n_n_wf : DotDims.WF S131072x256 S256x256 S131072x256 [1] [0] [0] [1] [] []
  dot_S131072x256_S256x2_S131072x2_1_0_0_1_n_n_wf : DotDims.WF S131072x256 S256x2 S131072x2 [1] [0] [0] [1] [] []

variable [Facts₀]

def gather_S2x576x96x96_S2x65536x2_S2x576x65536_1_23_0_0_23_2_157611 : GatherDims S2x576x96x96 S2x65536x2 S2x576x65536 where
  offsetDims := [1]
  collapsedSliceDims := [2, 3]
  operandBatchingDims := [0]
  startIndicesBatchingDims := [0]
  startIndexMap := [2, 3]
  indexVectorDim := 2
  sliceSizes := ![1, 576, 1, 1]
  wf := gather_S2x576x96x96_S2x65536x2_S2x576x65536_1_23_0_0_23_2_157611_wf
def dot_S131072x580_S580x256_S131072x256_1_0_0_1_n_n : DotDims S131072x580 S580x256 S131072x256 where
  lhsContracting := [1]
  rhsContracting := [0]
  lhsNonContracting := [0]
  rhsNonContracting := [1]
  lhsBatch := []
  rhsBatch := []
  wf := dot_S131072x580_S580x256_S131072x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x2_S131072x2_1_0_0_1_n_n : DotDims S131072x256 S256x2 S131072x2 where
  lhsContracting := [1]
  rhsContracting := [0]
  lhsNonContracting := [0]
  rhsNonContracting := [1]
  lhsBatch := []
  rhsBatch := []
  wf := dot_S131072x256_S256x2_S131072x2_1_0_0_1_n_n_wf

class Facts : Prop extends Facts₀ where

variable [Facts]
-- ==== Proof.BRegion0.lean ====
import proofs.«100126_j36189394436483_2_alg».proof.Proof.Gen.Kernel.Launch
import proofs.«100126_j36189394436483_2_alg».proof.Proof.Gen.Kernel.Skeleton
import proofs.«100126_j36189394436483_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The projection kernel's region, at a parameter `V`

The program's first kernel call multiplies a block of 2048 rows of the activations by the whole 576x256 weight
matrix and rounds the product to bf16. On a grid of 9 points the activations' block and the result's
block move with the point; the weights are fetched once and stay. This module states, for any float
instance and for any contents `V` of the core's buffers at the region's entry, what each window's
staging buffer holds after the body at each point, and proves the pipeline's body obligation. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each is the whole of its block -/

abbrev r0_in0 : Rect S2048x576 := Rect.unit (s := S2048x576) ![0, 0] S2048x576.size inb_S2048x576_S2048x576_0_0
abbrev r0_in1 : Rect S576x256 := Rect.unit (s := S576x256) ![0, 0] S576x256.size inb_S576x256_S576x256_0_0
abbrev r0_out : Rect S2048x256 := Rect.unit (s := S2048x256) ![0, 0] S2048x256.size inb_S2048x256_S2048x256_0_0

/-! ## What the body leaves in the result's buffer -/

/-- The result window's staging buffer after the body: one store of the rounded product over the whole block. -/
def out0_2 (x0 : Vec F S2048x576 .f32) (x1 : Vec F S576x256 .f32) : Vec F S2048x256 .bf16 :=
  View.canon [⟨r0_out, k0_pay1 (View.ld x0 r0_in0) (View.ld x1 r0_in1)⟩]

/-! ## The pipeline's proof data -/

/-- The arrays as the region finds them; after the body each input's buffer still at its block and the
    result's at the rounded product of the two; the invariant the scoped rest and the generator register,
    untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The inputs' buffers before the body -/

/-- The activations' window is never cut nor idle and the body leaves its block where it found it, so at every
    point its current staging buffer holds that point's block. -/
theorem before0_0 (c : Dev nD) (t : Fin cfg0.N) (d) : (dat0 V c).before 0 t d = iblk0 V c 0 t := by
  have hkeep : ∀ t, (cfg0.win 0).cut (cfg0.grid.coords t) ((dat0 V c).after 0 t) = (dat0 V c).blockOf 0 t := by
    intro t; rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The weights' window is fetched at the first point only; at a later point its block index has not moved and
    the body left the block in place, so the buffer still holds the block. -/
theorem before0_1 (c : Dev nD) (t : Fin cfg0.N) (d) : (dat0 V c).before 1 t d = iblk0 V c 1 t := by
  have hkeep : ∀ t, (cfg0.win 1).cut (cfg0.grid.coords t) ((dat0 V c).after 1 t) = (dat0 V c).blockOf 1 t := by
    intro t; rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-! ## The body's triple -/

/-- The body's one store is over the whole block, so every index of the block lies in it. -/
theorem cover0_2 (p : r0_out.shape.Idx → Elt F .bf16) (y : S2048x256.Idx) :
    ∃ pc ∈ ([⟨r0_out, p⟩] : List (View.Piece (Elt F) S2048x256 .bf16)), y ∈ pc.1.set :=
  ⟨⟨r0_out, p⟩, List.mem_singleton_self _, (Rect.mem_set_unit (inb := inb_S2048x256_S2048x256_0_0)).mpr fun a => by
    have h0 : (![0, 0] : Fin 2 → ℕ) a = 0 := (by decide : ∀ b : Fin 2, (![0, 0] : Fin 2 → ℕ) b = 0) a
    exact ⟨h0.le.trans (Nat.zero_le _), Nat.lt_of_lt_of_le (y a).isLt (Nat.le_add_left _ _)⟩⟩

set_option maxHeartbeats 1000000 in
/-- On whole staging memrefs, the two inputs' at contents `x0` and `x1` and the result's at anything, the body
    runs to a continuation that holds the inputs' as they were and the result's at `out0_2 x0 x1`: two whole-block
    loads, a load of the result's buffer whose value is dropped, one whole-block store of the payload. -/
theorem sound_kernel0 (c : Dev nD) (E : Set ℕ) (i : grid0.Coords)
    (arg1 : Memref sig .tc .vmem S2048x576 .f32) (harg1 : arg1.IsWhole)
    (arg2 : Memref sig .tc .vmem S576x256 .f32) (harg2 : arg2.IsWhole)
    (arg3 : Memref sig .tc .vmem S2048x256 .bf16) (harg3 : arg3.IsWhole)
    (x0 : Vec F S2048x576 .f32) (x1 : Vec F S576x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr
    · ipureintro; rfl
    · iexact H1
  isplitl [H2]
  · iexists f2; isplitr
    · ipureintro; rfl
    · iexact H2
  iexists _; isplitr
  swap
  · iexact H3
  ipureintro
  unfold out0_2
  exact View.read_writes_eq_canon _ _ _ (cover0_2 _)

/-! ## The body obligation -/

/-- What the pipeline calls the body with at point `t`: the invariant, what the core owes, and each window's
    current staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body returns: the same invariant and debt, each buffer at what the proof data says it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the inputs' memrefs hold their blocks, whatever the result's holds; the body's triple applies,
    and the invariant and the debt, which the body never reads, pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]
  · iexact H0
  isplitl [H1]
  · iexact H1
  isplitl [H2]
  · iexists _; iexact H2
  iintro ⟨H0, H1, H2⟩
  isplitl [HΦ]
  · iexact HΦ
  isplitl [Ho]
  · iexact Ho
  isplitl [H0]
  · iexact H0
  isplitl [H1]
  · iexact H1
  iexact H2

/-- The library's body obligation: its two conjunctions over the windows written out one by one are the
    pre- and postcondition above, and its program is the kernel function at the point's staging memrefs. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.BRegion1.lean ====
import proofs.«100126_j36189394436483_2_alg».proof.Proof.Gen.Kernel.Launch
import proofs.«100126_j36189394436483_2_alg».proof.Proof.Gen.Kernel.Skeleton
import proofs.«100126_j36189394436483_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second pallas_call (`cc1__mlp_blend_kernel`, pipeline 1) as a region, at any entry contents

The kernel runs on a grid of 32 points over 13 input windows and one output window. Its body reads the ten
weight blocks whole, reads the four unit slabs `[k, :, :]` (k = 0..3) of each of the three rank-3 blocks, and
ends with one store over the whole output block. So what the output's staging buffer holds after the body is a
function of the input blocks alone: the one payload, composed through the intermediate payloads over the loaded
slabs. Everything here is generic in the float instance and in the contents `V` the region is entered at. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not
    moved; the windows are uncut and never idle. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

-- the weight blocks, read whole
abbrev r1_0 : Rect S4x256 := Rect.unit (s := S4x256) ![0, 0] S4x256.size inb_S4x256_S4x256_0_0
abbrev r1_1 : Rect S1x256 := Rect.unit (s := S1x256) ![0, 0] S1x256.size inb_S1x256_S1x256_0_0
abbrev r1_2 : Rect S256x256 := Rect.unit (s := S256x256) ![0, 0] S256x256.size inb_S256x256_S256x256_0_0
abbrev r1_3 : Rect S256x2 := Rect.unit (s := S256x2) ![0, 0] S256x2.size inb_S256x2_S256x2_0_0
abbrev r1_4 : Rect S1x2 := Rect.unit (s := S1x2) ![0, 0] S1x2.size inb_S1x2_S1x2_0_0
-- the four unit slabs of window 0's block
abbrev r1_5 : Rect S4x4096x256 := Rect.unit (s := S4x4096x256) ![0, 0, 0] S1x4096x256.size inb_S4x4096x256_S1x4096x256_0_0_0
abbrev r1_6 : Rect S4x4096x256 := Rect.unit (s := S4x4096x256) ![1, 0, 0] S1x4096x256.size inb_S4x4096x256_S1x4096x256_1_0_0
abbrev r1_7 : Rect S4x4096x256 := Rect.unit (s := S4x4096x256) ![2, 0, 0] S1x4096x256.size inb_S4x4096x256_S1x4096x256_2_0_0
abbrev r1_8 : Rect S4x4096x256 := Rect.unit (s := S4x4096x256) ![3, 0, 0] S1x4096x256.size inb_S4x4096x256_S1x4096x256_3_0_0
-- of window 1's
abbrev r1_9 : Rect S4x4096x4 := Rect.unit (s := S4x4096x4) ![0, 0, 0] S1x4096x4.size inb_S4x4096x4_S1x4096x4_0_0_0
abbrev r1_10 : Rect S4x4096x4 := Rect.unit (s := S4x4096x4) ![1, 0, 0] S1x4096x4.size inb_S4x4096x4_S1x4096x4_1_0_0
abbrev r1_11 : Rect S4x4096x4 := Rect.unit (s := S4x4096x4) ![2, 0, 0] S1x4096x4.size inb_S4x4096x4_S1x4096x4_2_0_0
abbrev r1_12 : Rect S4x4096x4 := Rect.unit (s := S4x4096x4) ![3, 0, 0] S1x4096x4.size inb_S4x4096x4_S1x4096x4_3_0_0
-- of window 2's
abbrev r1_13 : Rect S4x4096x1 := Rect.unit (s := S4x4096x1) ![0, 0, 0] S1x4096x1.size inb_S4x4096x1_S1x4096x1_0_0_0
abbrev r1_14 : Rect S4x4096x1 := Rect.unit (s := S4x4096x1) ![1, 0, 0] S1x4096x1.size inb_S4x4096x1_S1x4096x1_1_0_0
abbrev r1_15 : Rect S4x4096x1 := Rect.unit (s := S4x4096x1) ![2, 0, 0] S1x4096x1.size inb_S4x4096x1_S1x4096x1_2_0_0
abbrev r1_16 : Rect S4x4096x1 := Rect.unit (s := S4x4096x1) ![3, 0, 0] S1x4096x1.size inb_S4x4096x1_S1x4096x1_3_0_0
-- the output block, stored whole
abbrev r1_17 : Rect S4096x2 := Rect.unit (s := S4096x2) ![0, 0] S4096x2.size inb_S4096x2_S4096x2_0_0

/-! ## What the body leaves in the output window's buffer -/

/-- Window 13's staging buffer after the body, from the input windows' blocks: its one store, over the whole
    block. The payload is the skeleton's last payload over the values the four parts hand on: the converted
    weights (from windows 3 to 12), and per slab `k` the blend step over slab `k` of windows 0, 1 and 2,
    each step taking the step before it. -/
def out1_13 (x0 : Vec F S4x4096x256 .bf16) (x1 : Vec F S4x4096x4 .f32) (x2 : Vec F S4x4096x1 .f32) (x3 : Vec F S4x256 .f32) (x4 : Vec F S1x256 .f32) (x5 : Vec F S256x256 .f32) (x6 : Vec F S1x256 .f32) (x7 : Vec F S256x256 .f32) (x8 : Vec F S1x256 .f32) (x9 : Vec F S256x256 .f32) (x10 : Vec F S1x256 .f32) (x11 : Vec F S256x2 .f32) (x12 : Vec F S1x2 .f32) : Vec F S4096x2 .f32 :=
  -- the weights, converted once
  let v2 := k1_pay2 (View.ld x3 r1_0)
  let v4 := k1_pay3 (View.ld x4 r1_1)
  let v6 := k1_pay4 (View.ld x5 r1_2)
  let v8 := k1_pay5 (View.ld x6 r1_1)
  let v10 := k1_pay6 (View.ld x7 r1_2)
  let v12 := k1_pay7 (View.ld x8 r1_1)
  let v14 := k1_pay8 (View.ld x9 r1_2)
  let v16 := k1_pay9 (View.ld x10 r1_1)
  let v18 := k1_pay10 (View.ld x11 r1_3)
  let v20 := k1_pay11 (View.ld x12 r1_4)
  -- slab 0
  let v60 := k1_pay15 v2 v4 v6 v8 v10 v12 v14 v16 v18 v20 (k1_pay12 (F := F)) (k1_pay13 (View.ld x0 r1_5)) (k1_pay14 (View.ld x1 r1_9)) (View.ld x2 r1_13)
  -- slab 1
  let v99 := k1_pay19 v4 v6 v8 v10 v12 v14 v16 v18 v20 v60 (k1_pay16 (View.ld x0 r1_6)) (k1_pay17 (View.ld x2 r1_14)) (k1_pay18 v2 (View.ld x1 r1_10))
  -- slab 2
  let v138 := k1_pay22 v6 v8 v10 v12 v14 v16 v18 v20 v99 (k1_pay20 (View.ld x2 r1_15)) (k1_pay21 v2 v4 (View.ld x0 r1_7) (View.ld x1 r1_11))
  -- slab 3, and the store
  View.canon [⟨r1_17, k1_pay1 v6 v8 v10 v12 v14 v16 v18 v20 v138 (k1_pay23 (View.ld x2 r1_16)) (k1_pay24 v2 v4 (View.ld x0 r1_8) (View.ld x1 r1_12))⟩]

/-- The one store is over the whole block, so it covers it. -/
theorem cover1_13 (p0 : Vec F S4096x2 .f32) (y : S4096x2.Idx) :
    ∃ pc ∈ ([⟨r1_17, p0⟩] : List (View.Piece (Elt F) S4096x2 .f32)), y ∈ pc.1.set :=
  View.cover_of_tiled [⟨r1_17, p0⟩] S4096x2.size (by rfl) y

/-! ## The body's triple -/

set_option maxHeartbeats 1000000 in
/-- The kernel body on whole staging memrefs, the inputs' at contents `xW` and the output's at anything, runs to
    the continuation holding the inputs' as they were and the output's at `out1_13` of the inputs': the printed
    function and its four parts are their skeletons, run operation by operation; every load reads contents the
    body never writes, the last store covers the output block, so what it leaves reads as its canon. -/
theorem sound_kernel1 (c : Dev nD) (E : Set ℕ) (i : grid1.Coords) (arg0 : Memref sig .tc .vmem S4x4096x256 .bf16) (harg0 : arg0.IsWhole) (arg1 : Memref sig .tc .vmem S4x4096x4 .f32) (harg1 : arg1.IsWhole) (arg2 : Memref sig .tc .vmem S4x4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x2 .f32) (harg11 : arg11.IsWhole) (arg12 : Memref sig .tc .vmem S1x2 .f32) (harg12 : arg12.IsWhole) (arg13 : Memref sig .tc .vmem S4096x2 .f32) (harg13 : arg13.IsWhole)
    (x0 : Vec F S4x4096x256 .bf16) (x1 : Vec F S4x4096x4 .f32) (x2 : Vec F S4x4096x1 .f32) (x3 : Vec F S4x256 .f32) (x4 : Vec F S1x256 .f32) (x5 : Vec F S256x256 .f32) (x6 : Vec F S1x256 .f32) (x7 : Vec F S256x256 .f32) (x8 : Vec F S1x256 .f32) (x9 : Vec F S256x256 .f32) (x10 : Vec F S1x256 .f32) (x11 : Vec F S256x2 .f32) (x12 : Vec F S1x2 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ (∃ d, owns (c : Thread nD τ) arg13 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare (out1_13 x0 x1 x2 x3 x4 x5 x6 x7 x8 x9 x10 x11 x12)) -∗ K ⟨⟩))
      ⊢ wp frame (wpE (defs₀ (F := F)) Variants.none c none) E (cc1__mlp_blend_kernel i arg0 harg0 arg1 harg1 arg2 harg2 arg3 harg3 arg4 harg4 arg5 harg5 arg6 harg6 arg7 harg7 arg8 harg8 arg9 harg9 arg10 harg10 arg11 harg11 arg12 harg12 arg13 harg13) K := by
  simp only [cc1__mlp_blend_kernel_eq_skeleton]; unfold cc1__mlp_blend_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover1_13 _)

/-! ## The pipeline's proof data -/

/-- The proof data of pipeline 1 on core `c`: the arrays as the region finds them; after the body at point `t`
    each input's buffer at its block and the output's at `out1_13` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BFoldTab.lean ====
import proofs.«100126_j36189394436483_2_alg».proof.Kernel

/-! Per stretch of host operations of the entry function, in the order of its chain, the references the
    stretch's operations write, one entry per operation, in order. -/

namespace Cert.Kernel.Hand

open Idealize.ShloMosaic

/-- The references `main_part0_ops0`'s 8 operations write. -/
abbrev main_part0_ops0_W : List (Ref sig .tc) :=
  [main_cst, main_cst_0, main_cst_1, main_cst_2, main_cst_3, main_v0, main_v1, main_c]
/-- The references `main_part0_ops1`'s 2 operations write. -/
abbrev main_part0_ops1_W : List (Ref sig .tc) :=
  [main_call0_v0, main_v2]
/-- The references `main_part0_ops2`'s 22 operations write. -/
abbrev main_part0_ops2_W : List (Ref sig .tc) :=
  [main_v3, main_v4, main_v5, main_v6, main_v7, main_v8, main_v9, main_v10, main_v11, main_v12, main_v13, main_v14, main_v15, main_v16, main_v17, main_v18, main_v19, main_v20, main_v21, main_v22, main_v23, main_v24]
/-- The references `main_part0_ops3`'s 6 operations write. -/
abbrev main_part0_ops3_W : List (Ref sig .tc) :=
  [main_v26, main_v27, main_v28, main_v29, main_cst_4, main_cst_5]
/-- The references `main_part0_ops4`'s 6 operations write. -/
abbrev main_part0_ops4_W : List (Ref sig .tc) :=
  [main_call1_v0, main_call1_v1, main_call1_v2, main_call1_v3, main_call1_v4, main_v30]
/-- The references `main_part0_ops5`'s 20 operations write. -/
abbrev main_part0_ops5_W : List (Ref sig .tc) :=
  [main_v31, main_v32, main_cst_6, main_v33, main_v34, main_cst_7, main_v35, main_v36, main_cst_8, main_v37, main_v38, main_cst_9, main_v39, main_v40, main_cst_10, main_v41, main_v42, main_v43, main_c_11, main_c_12]
/-- The references `main_part0_ops6`'s 6 operations write. -/
abbrev main_part0_ops6_W : List (Ref sig .tc) :=
  [main_call2_v0, main_call2_v1, main_call2_v2, main_call2_v3, main_call2_v4, main_v44]
/-- The references `main_part1_ops0`'s 21 operations write. -/
abbrev main_part1_ops0_W : List (Ref sig .tc) :=
  [main_v45, main_v46, main_v47, main_cst_13, main_v48, main_v49, main_cst_14, main_v50, main_v51, main_cst_15, main_v52, main_v53, main_cst_16, main_v54, main_v55, main_cst_17, main_v56, main_v57, main_v58, main_c_18, main_c_19]
/-- The references `main_part1_ops1`'s 6 operations write. -/
abbrev main_part1_ops1_W : List (Ref sig .tc) :=
  [main_call3_v0, main_call3_v1, main_call3_v2, main_call3_v3, main_call3_v4, main_v59]
/-- The references `main_part1_ops2`'s 38 operations write. -/
abbrev main_part1_ops2_W : List (Ref sig .tc) :=
  [main_v60, main_c_20, main_v61, main_v62, main_c_21, main_v63, main_v64, main_v65, main_c_22, main_v66, main_v67, main_c_23, main_v68, main_v69, main_v70, main_v71, main_v72, main_v73, main_v74, main_v75, main_cst_24, main_v76, main_v77, main_cst_25, main_v78, main_v79, main_cst_26, main_v80, main_v81, main_cst_27, main_v82, main_v83, main_v84, main_cst_28, main_v85, main_v86, main_cst_29, main_v87]
/-- The references `main_part2_ops0`'s 36 operations write. -/
abbrev main_part2_ops0_W : List (Ref sig .tc) :=
  [main_v88, main_cst_30, main_v89, main_v90, main_cst_31, main_v91, main_v92, main_v93, main_v94, main_v95, main_v96, main_v97, main_v98, main_v99, main_v100, main_v101, main_v102, main_v103, main_v104, main_v105, main_v106, main_v107, main_v108, main_v109, main_v110, main_cst_32, main_v111, main_v112, main_v113, main_v114, main_v115, main_v116, main_v117, main_v118, main_cst_33, main_cst_34]
/-- The references `main_part2_ops1`'s 6 operations write. -/
abbrev main_part2_ops1_W : List (Ref sig .tc) :=
  [main_call4_v0, main_call4_v1, main_call4_v2, main_call4_v3, main_call4_v4, main_v119]
/-- The references `main_part2_ops2`'s 20 operations write. -/
abbrev main_part2_ops2_W : List (Ref sig .tc) :=
  [main_v120, main_v121, main_cst_35, main_v122, main_v123, main_cst_36, main_v124, main_v125, main_cst_37, main_v126, main_v127, main_cst_38, main_v128, main_v129, main_cst_39, main_v130, main_v131, main_v132, main_c_40, main_c_41]
/-- The references `main_part2_ops3`'s 6 operations write. -/
abbrev main_part2_ops3_W : List (Ref sig .tc) :=
  [main_call5_v0, main_call5_v1, main_call5_v2, main_call5_v3, main_call5_v4, main_v133]
/-- The references `main_part2_ops4`'s 2 operations write. -/
abbrev main_part2_ops4_W : List (Ref sig .tc) :=
  [main_v134, main_v135]
/-- The references `main_part3_ops0`'s 19 operations write. -/
abbrev main_part3_ops0_W : List (Ref sig .tc) :=
  [main_v136, main_cst_42, main_v137, main_v138, main_cst_43, main_v139, main_v140, main_cst_44, main_v141, main_v142, main_cst_45, main_v143, main_v144, main_cst_46, main_v145, main_v146, main_v147, main_c_47, main_c_48]
/-- The references `main_part3_ops1`'s 6 operations write. -/
abbrev main_part3_ops1_W : List (Ref sig .tc) :=
  [main_call6_v0, main_call6_v1, main_call6_v2, main_call6_v3, main_call6_v4, main_v148]
/-- The references `main_part3_ops2`'s 40 operations write. -/
abbrev main_part3_ops2_W : List (Ref sig .tc) :=
  [main_v149, main_c_49, main_v150, main_v151, main_c_50, main_v152, main_v153, main_v154, main_c_51, main_v155, main_v156, main_c_52, main_v157, main_v158, main_v159, main_v160, main_v161, main_v162, main_v163, main_v164, main_cst_53, main_v165, main_v166, main_cst_54, main_v167, main_v168, main_cst_55, main_v169, main_v170, main_cst_56, main_v171, main_v172, main_v173, main_cst_57, main_v174, main_v175, main_cst_58, main_v176, main_v177, main_cst_59]
/-- The references `main_part4_ops0`'s 34 operations write. -/
abbrev main_part4_ops0_W : List (Ref sig .tc) :=
  [main_v178, main_v179, main_cst_60, main_v180, main_v181, main_v182, main_v183, main_v184, main_v185, main_v186, main_v187, main_v188, main_v189, main_v190, main_v191, main_v192, main_v193, main_v194, main_v195, main_v196, main_v197, main_v198, main_v199, main_cst_61, main_v200, main_v201, main_v202, main_v203, main_v204, main_v205, main_v206, main_v207, main_cst_62, main_cst_63]
/-- The references `main_part4_ops1`'s 6 operations write. -/
abbrev main_part4_ops1_W : List (Ref sig .tc) :=
  [main_call7_v0, main_call7_v1, main_call7_v2, main_call7_v3, main_call7_v4, main_v208]
/-- The references `main_part4_ops2`'s 20 operations write. -/
abbrev main_part4_ops2_W : List (Ref sig .tc) :=
  [main_v209, main_v210, main_cst_64, main_v211, main_v212, main_cst_65, main_v213, main_v214, main_cst_66, main_v215, main_v216, main_cst_67, main_v217, main_v218, main_cst_68, main_v219, main_v220, main_v221, main_c_69, main_c_70]
/-- The references `main_part4_ops3`'s 6 operations write. -/
abbrev main_part4_ops3_W : List (Ref sig .tc) :=
  [main_call8_v0, main_call8_v1, main_call8_v2, main_call8_v3, main_call8_v4, main_v222]
/-- The references `main_part4_ops4`'s 4 operations write. -/
abbrev main_part4_ops4_W : List (Ref sig .tc) :=
  [main_v223, main_v224, main_v225, main_cst_71]
/-- The references `main_part5_ops0`'s 17 operations write. -/
abbrev main_part5_ops0_W : List (Ref sig .tc) :=
  [main_v226, main_v227, main_cst_72, main_v228, main_v229, main_cst_73, main_v230, main_v231, main_cst_74, main_v232, main_v233, main_cst_75, main_v234, main_v235, main_v236, main_c_76, main_c_77]
/-- The references `main_part5_ops1`'s 6 operations write. -/
abbrev main_part5_ops1_W : List (Ref sig .tc) :=
  [main_call9_v0, main_call9_v1, main_call9_v2, main_call9_v3, main_call9_v4, main_v237]
/-- The references `main_part5_ops2`'s 42 operations write. -/
abbrev main_part5_ops2_W : List (Ref sig .tc) :=
  [main_v238, main_c_78, main_v239, main_v240, main_c_79, main_v241, main_v242, main_v243, main_c_80, main_v244, main_v245, main_c_81, main_v246, main_v247, main_v248, main_v249, main_v250, main_v251, main_v252, main_v253, main_cst_82, main_v254, main_v255, main_cst_83, main_v256, main_v257, main_cst_84, main_v258, main_v259, main_cst_85, main_v260, main_v261, main_v262, main_cst_86, main_v263, main_v264, main_cst_87, main_v265, main_v266, main_cst_88, main_v267, main_v268]
/-- The references `main_part6_ops0`'s 32 operations write. -/
abbrev main_part6_ops0_W : List (Ref sig .tc) :=
  [main_cst_89, main_v269, main_v270, main_v271, main_v272, main_v273, main_v274, main_v275, main_v276, main_v277, main_v278, main_v279, main_v280, main_v281, main_v282, main_v283, main_v284, main_v285, main_v286, main_v287, main_v288, main_cst_90, main_v289, main_v290, main_v291, main_v292, main_v293, main_v294, main_v295, main_v296, main_cst_91, main_cst_92]
/-- The references `main_part6_ops1`'s 6 operations write. -/
abbrev main_part6_ops1_W : List (Ref sig .tc) :=
  [main_call10_v0, main_call10_v1, main_call10_v2, main_call10_v3, main_call10_v4, main_v297]
/-- The references `main_part6_ops2`'s 20 operations write. -/
abbrev main_part6_ops2_W : List (Ref sig .tc) :=
  [main_v298, main_v299, main_cst_93, main_v300, main_v301, main_cst_94, main_v302, main_v303, main_cst_95, main_v304, main_v305, main_cst_96, main_v306, main_v307, main_cst_97, main_v308, main_v309, main_v310, main_c_98, main_c_99]
/-- The references `main_part6_ops3`'s 6 operations write. -/
abbrev main_part6_ops3_W : List (Ref sig .tc) :=
  [main_call11_v0, main_call11_v1, main_call11_v2, main_call11_v3, main_call11_v4, main_v311]
/-- The references `main_part6_ops4`'s 6 operations write. -/
abbrev main_part6_ops4_W : List (Ref sig .tc) :=
  [main_v312, main_v313, main_v314, main_cst_100, main_v315, main_v316]
/-- The references `main_part7_ops0`'s 15 operations write. -/
abbrev main_part7_ops0_W : List (Ref sig .tc) :=
  [main_cst_101, main_v317, main_v318, main_cst_102, main_v319, main_v320, main_cst_103, main_v321, main_v322, main_cst_104, main_v323, main_v324, main_v325, main_c_105, main_c_106]
/-- The references `main_part7_ops1`'s 6 operations write. -/
abbrev main_part7_ops1_W : List (Ref sig .tc) :=
  [main_call12_v0, main_call12_v1, main_call12_v2, main_call12_v3, main_call12_v4, main_v326]
/-- The references `main_part7_ops2`'s 44 operations write. -/
abbrev main_part7_ops2_W : List (Ref sig .tc) :=
  [main_v327, main_c_107, main_v328, main_v329, main_c_108, main_v330, main_v331, main_v332, main_c_109, main_v333, main_v334, main_c_110, main_v335, main_v336, main_v337, main_v338, main_v339, main_v340, main_v341, main_v342, main_cst_111, main_v343, main_v344, main_cst_112, main_v345, main_v346, main_cst_113, main_v347, main_v348, main_cst_114, main_v349, main_v350, main_v351, main_cst_115, main_v352, main_v353, main_cst_116, main_v354, main_v355, main_cst_117, main_v356, main_v357, main_cst_118, main_v358]
/-- The references `main_part8_ops0`'s 52 operations write. -/
abbrev main_part8_ops0_W : List (Ref sig .tc) :=
  [main_v359, main_v360, main_v361, main_v362, main_v363, main_v364, main_v365, main_v366, main_v367, main_v368, main_v369, main_v370, main_v371, main_v372, main_v373, main_v374, main_v375, main_v376, main_v377, main_cst_119, main_v378, main_v379, main_v380, main_v381, main_v382, main_v383, main_v384, main_v385, main_v386, main_v387, main_v388, main_v389, main_v390, main_v391, main_v392, main_v393, main_v394, main_v395, main_v396, main_v397, main_cst_120, main_v398, main_v399, main_v400, main_v401, main_v402, main_v403, main_v404, main_v405, main_v406, main_v407, main_v408]
/-- The references `main_part8_ops1`'s 6 operations write. -/
abbrev main_part8_ops1_W : List (Ref sig .tc) :=
  [main_v410, main_v411, main_cst_121, main_v412, main_cst_122, main_v413]

end Cert.Kernel.Hand
-- ==== Proof.BFold.lean ====
import proofs.«100126_j36189394436483_2_alg».proof.Proof.Gen.Kernel.Launch
import proofs.«100126_j36189394436483_2_alg».proof.Proof.BRegion0
import proofs.«100126_j36189394436483_2_alg».proof.Proof.BRegion1
import proofs.«100126_j36189394436483_2_alg».proof.Proof.BFoldTab
import Idealize.ShloMosaic.Lib.Pipeline.FrameBody
import Idealize.ShloMosaic.Lib.Pipeline.RegionsLoop
import Idealize.ShloMosaic.Lib.Pipeline.FrameSuffix

/-!
# The run of the whole entry function

The entry function is a chain of 38 items: 36 stretches of host operations and two kernel regions. The buffer
contents between two items are a fold from the launch memory: a stretch rewrites the buffers its operations
write, a region leaves its windows' arrays at what its write-backs fold to and every other buffer as entered.
Over that fold every weakly fair execution terminates with nothing faulting, the final memory holds every
unscoped buffer at the last valuation of the fold, and — no item writing an argument array — the thirteen
argument arrays end as launched. Everything here is generic in the float instance.
-/

set_option maxRecDepth 16384

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items: a fold from the launch memory -/

/-- Core `c`'s buffers at launch. -/
abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part0_ops1 (W1 m ρ c)
/-- What the first region is entered from. -/
abbrev W3 : Dev nD → Valuation τ sig (Elt F) := fun c => StableHlo.after main_part0_ops2 (W2 m ρ c)
/-- The same, read at the TensorCore's references: what the first region's proof data take. -/
abbrev Ventry0 : (c : Dev nD) → (b : Ref sig .tc) → Buf (Elt F) ((c : Thread nD τ).loc b) := fun c b => W3 m ρ c b
/-- At the first region's exit: each of its windows' arrays at what the pipeline leaves there (an input as
    entered, the output with its write-backs folded), every other buffer as entered. -/
def W4 (c : Dev nD) : Valuation τ sig (Elt F) :=
  Pipeline.withArrays spec0 c (W3 m ρ c) fun w => (dat0 (Ventry0 m ρ) c).arrAt w cfg0.N
theorem W4_arr (c : Dev nD) (w : Fin cfg0.W) :
    W4 m ρ c (Proc.devRef .tc (Pipeline.arrRef spec0 w)) = (dat0 (Ventry0 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev Wexit0 : Dev nD → Valuation τ sig (Elt F) := W4 m ρ
theorem Wexit0_arr (c : Dev nD) (w : Fin cfg0.W) :
    Wexit0 m ρ c (Proc.devRef .tc (Pipeline.arrRef spec0 w)) = (dat0 (Ventry0 m ρ) c).arrAt w cfg0.N := W4_arr m ρ c w
abbrev W5 : Dev nD → Valuation τ sig (Elt F) := fun c => StableHlo.after main_part0_ops3 (W4 m ρ c)
abbrev W6 : Dev nD → Valuation τ sig (Elt F) := fun c => StableHlo.after main_part0_ops4 (W5 m ρ c)
abbrev W7 : Dev nD → Valuation τ sig (Elt F) := fun c => StableHlo.after main_part0_ops5 (W6 m ρ c)
abbrev W8 : Dev nD → Valuation τ sig (Elt F) := fun c => StableHlo.after main_part0_ops6 (W7 m ρ c)
abbrev W9 : Dev nD → Valuation τ sig (Elt F) := fun c => StableHlo.after main_part1_ops0 (W8 m ρ c)
abbrev W10 : Dev nD → Valuation τ sig (Elt F) := fun c => StableHlo.after main_part1_ops1 (W9 m ρ c)
abbrev W11 : Dev nD → Valuation τ sig (Elt F) := fun c => StableHlo.after main_part1_ops2 (W10 m ρ c)
abbrev W12 : Dev nD → Valuation τ sig (Elt F) := fun c => StableHlo.after main_part2_ops0 (W11 m ρ c)
abbrev W13 : Dev nD → Valuation τ sig (Elt F) := fun c => StableHlo.after main_part2_ops1 (W12 m ρ c)
abbrev W14 : Dev nD → Valuation τ sig (Elt F) := fun c => StableHlo.after main_part2_ops2 (W13 m ρ c)
abbrev W15 : Dev nD → Valuation τ sig (Elt F) := fun c => StableHlo.after main_part2_ops3 (W14 m ρ c)
abbrev W16 : Dev nD → Valuation τ sig (Elt F) := fun c => StableHlo.after main_part2_ops4 (W15 m ρ c)
abbrev W17 : Dev nD → Valuation τ sig (Elt F) := fun c => StableHlo.after main_part3_ops0 (W16 m ρ c)
abbrev W18 : Dev nD → Valuation τ sig (Elt F) := fun c => StableHlo.after main_part3_ops1 (W17 m ρ c)
abbrev W19 : Dev nD → Valuation τ sig (Elt F) := fun c => StableHlo.after main_part3_ops2 (W18 m ρ c)
abbrev W20 : Dev nD → Valuation τ sig (Elt F) := fun c => StableHlo.after main_part4_ops0 (W19 m ρ c)
abbrev W21 : Dev nD → Valuation τ sig (Elt F) := fun c => StableHlo.after main_part4_ops1 (W20 m ρ c)
abbrev W22 : Dev nD → Valuation τ sig (Elt F) := fun c => StableHlo.after main_part4_ops2 (W21 m ρ c)
abbrev W23 : Dev nD → Valuation τ sig (Elt F) := fun c => StableHlo.after main_part4_ops3 (W22 m ρ c)
abbrev W24 : Dev nD → Valuation τ sig (Elt F) := fun c => StableHlo.after main_part4_ops4 (W23 m ρ c)
abbrev W25 : Dev nD → Valuation τ sig (Elt F) := fun c => StableHlo.after main_part5_ops0 (W24 m ρ c)
abbrev W26 : Dev nD → Valuation τ sig (Elt F) := fun c => StableHlo.after main_part5_ops1 (W25 m ρ c)
abbrev W27 : Dev nD → Valuation τ sig (Elt F) := fun c => StableHlo.after main_part5_ops2 (W26 m ρ c)
abbrev W28 : Dev nD → Valuation τ sig (Elt F) := fun c => StableHlo.after main_part6_ops0 (W27 m ρ c)
abbrev W29 : Dev nD → Valuation τ sig (Elt F) := fun c => StableHlo.after main_part6_ops1 (W28 m ρ c)
abbrev W30 : Dev nD → Valuation τ sig (Elt F) := fun c => StableHlo.after main_part6_ops2 (W29 m ρ c)
abbrev W31 : Dev nD → Valuation τ sig (Elt F) := fun c => StableHlo.after main_part6_ops3 (W30 m ρ c)
abbrev W32 : Dev nD → Valuation τ sig (Elt F) := fun c => StableHlo.after main_part6_ops4 (W31 m ρ c)
abbrev W33 : Dev nD → Valuation τ sig (Elt F) := fun c => StableHlo.after main_part7_ops0 (W32 m ρ c)
abbrev W34 : Dev nD → Valuation τ sig (Elt F) := fun c => StableHlo.after main_part7_ops1 (W33 m ρ c)
abbrev W35 : Dev nD → Valuation τ sig (Elt F) := fun c => StableHlo.after main_part7_ops2 (W34 m ρ c)
/-- What the second region is entered from. -/
abbrev W36 : Dev nD → Valuation τ sig (Elt F) := fun c => StableHlo.after main_part8_ops0 (W35 m ρ c)
/-- The same, read at the TensorCore's references: what the second region's proof data take. -/
abbrev Ventry1 : (c : Dev nD) → (b : Ref sig .tc) → Buf (Elt F) ((c : Thread nD τ).loc b) := fun c b => W36 m ρ c b
/-- At the second region's exit, as at the first's. -/
def W37 (c : Dev nD) : Valuation τ sig (Elt F) :=
  Pipeline.withArrays spec1 c (W36 m ρ c) fun w => (dat1 (Ventry1 m ρ) c).arrAt w cfg1.N
theorem W37_arr (c : Dev nD) (w : Fin cfg1.W) :
    W37 m ρ c (Proc.devRef .tc (Pipeline.arrRef spec1 w)) = (dat1 (Ventry1 m ρ) c).arrAt w cfg1.N := by
  unfold W37; exact Pipeline.withArrays_arr spec1 launch1.win.arr_inj c _ _ w
theorem W37_of_ne (c : Dev nD) (b : Ref sig .tc) (hb : ∀ w, Pipeline.arrRef spec1 w ≠ b) :
    W37 m ρ c (Proc.devRef .tc b) = W36 m ρ c (Proc.devRef .tc b) := by
  unfold W37; exact Pipeline.withArrays_of_ne spec1 c _ _ b hb
abbrev Wexit1 : Dev nD → Valuation τ sig (Elt F) := W37 m ρ
theorem Wexit1_arr (c : Dev nD) (w : Fin cfg1.W) :
    Wexit1 m ρ c (Proc.devRef .tc (Pipeline.arrRef spec1 w)) = (dat1 (Ventry1 m ρ) c).arrAt w cfg1.N := W37_arr m ρ c w
/-- After the last stretch: what the entry function returns from. -/
abbrev W38 : Dev nD → Valuation τ sig (Elt F) := fun c => StableHlo.after main_part8_ops1 (W37 m ρ c)
abbrev Wend : Dev nD → Valuation τ sig (Elt F) := W38 m ρ

/-! ## What the stretches write

Per stretch two facts, each one pass over its operations: none allocates, and each writes a reference of the
stretch's list. -/

/-- An operation writing the one reference `y`, `y` in the list, writes inside the list. -/
theorem sub_of_mem {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Operation by operation, no buffer is allocated. -/
local macro "no_alloc" : tactic => `(tactic| (simp only [List.Forall]; repeat' constructor))
/-- Operation by operation: what a builder writes is the singleton of its result, which the list holds. -/
local macro "writes_in" : tactic => `(tactic| (
  simp only [List.Forall]
  repeat' apply And.intro
  all_goals (
    simp only [StableHlo.nullary_writes, StableHlo.unary_writes, StableHlo.binary_writes, StableHlo.ternary_writes,
      StableHlo.quaternary_writes, StableHlo.reshape_writes, StableHlo.nary_writes]
    exact sub_of_mem _ (by decide))))

theorem main_part0_ops0_fresh : (main_part0_ops0 : List (HloOp τ sig (Elt F))).Forall fun op => op.fresh = ∅ := by no_alloc
theorem main_part0_ops1_fresh : (main_part0_ops1 : List (HloOp τ sig (Elt F))).Forall fun op => op.fresh = ∅ := by no_alloc
theorem main_part0_ops2_fresh : (main_part0_ops2 : List (HloOp τ sig (Elt F))).Forall fun op => op.fresh = ∅ := by no_alloc
theorem main_part0_ops3_fresh : (main_part0_ops3 : List (HloOp τ sig (Elt F))).Forall fun op => op.fresh = ∅ := by no_alloc
theorem main_part0_ops4_fresh : (main_part0_ops4 : List (HloOp τ sig (Elt F))).Forall fun op => op.fresh = ∅ := by no_alloc
theorem main_part0_ops5_fresh : (main_part0_ops5 : List (HloOp τ sig (Elt F))).Forall fun op => op.fresh = ∅ := by no_alloc
theorem main_part0_ops6_fresh : (main_part0_ops6 : List (HloOp τ sig (Elt F))).Forall fun op => op.fresh = ∅ := by no_alloc
theorem main_part1_ops0_fresh : (main_part1_ops0 : List (HloOp τ sig (Elt F))).Forall fun op => op.fresh = ∅ := by no_alloc
theorem main_part1_ops1_fresh : (main_part1_ops1 : List (HloOp τ sig (Elt F))).Forall fun op => op.fresh = ∅ := by no_alloc
theorem main_part1_ops2_fresh : (main_part1_ops2 : List (HloOp τ sig (Elt F))).Forall fun op => op.fresh = ∅ := by no_alloc
theorem main_part2_ops0_fresh : (main_part2_ops0 : List (HloOp τ sig (Elt F))).Forall fun op => op.fresh = ∅ := by no_alloc
theorem main_part2_ops1_fresh : (main_part2_ops1 : List (HloOp τ sig (Elt F))).Forall fun op => op.fresh = ∅ := by no_alloc
theorem main_part2_ops2_fresh : (main_part2_ops2 : List (HloOp τ sig (Elt F))).Forall fun op => op.fresh = ∅ := by no_alloc
theorem main_part2_ops3_fresh : (main_part2_ops3 : List (HloOp τ sig (Elt F))).Forall fun op => op.fresh = ∅ := by no_alloc
theorem main_part2_ops4_fresh : (main_part2_ops4 : List (HloOp τ sig (Elt F))).Forall fun op => op.fresh = ∅ := by no_alloc
theorem main_part3_ops0_fresh : (main_part3_ops0 : List (HloOp τ sig (Elt F))).Forall fun op => op.fresh = ∅ := by no_alloc
theorem main_part3_ops1_fresh : (main_part3_ops1 : List (HloOp τ sig (Elt F))).Forall fun op => op.fresh = ∅ := by no_alloc
theorem main_part3_ops2_fresh : (main_part3_ops2 : List (HloOp τ sig (Elt F))).Forall fun op => op.fresh = ∅ := by no_alloc
theorem main_part4_ops0_fresh : (main_part4_ops0 : List (HloOp τ sig (Elt F))).Forall fun op => op.fresh = ∅ := by no_alloc
theorem main_part4_ops1_fresh : (main_part4_ops1 : List (HloOp τ sig (Elt F))).Forall fun op => op.fresh = ∅ := by no_alloc
theorem main_part4_ops2_fresh : (main_part4_ops2 : List (HloOp τ sig (Elt F))).Forall fun op => op.fresh = ∅ := by no_alloc
theorem main_part4_ops3_fresh : (main_part4_ops3 : List (HloOp τ sig (Elt F))).Forall fun op => op.fresh = ∅ := by no_alloc
theorem main_part4_ops4_fresh : (main_part4_ops4 : List (HloOp τ sig (Elt F))).Forall fun op => op.fresh = ∅ := by no_alloc
theorem main_part5_ops0_fresh : (main_part5_ops0 : List (HloOp τ sig (Elt F))).Forall fun op => op.fresh = ∅ := by no_alloc
theorem main_part5_ops1_fresh : (main_part5_ops1 : List (HloOp τ sig (Elt F))).Forall fun op => op.fresh = ∅ := by no_alloc
theorem main_part5_ops2_fresh : (main_part5_ops2 : List (HloOp τ sig (Elt F))).Forall fun op => op.fresh = ∅ := by no_alloc
theorem main_part6_ops0_fresh : (main_part6_ops0 : List (HloOp τ sig (Elt F))).Forall fun op => op.fresh = ∅ := by no_alloc
theorem main_part6_ops1_fresh : (main_part6_ops1 : List (HloOp τ sig (Elt F))).Forall fun op => op.fresh = ∅ := by no_alloc
theorem main_part6_ops2_fresh : (main_part6_ops2 : List (HloOp τ sig (Elt F))).Forall fun op => op.fresh = ∅ := by no_alloc
theorem main_part6_ops3_fresh : (main_part6_ops3 : List (HloOp τ sig (Elt F))).Forall fun op => op.fresh = ∅ := by no_alloc
theorem main_part6_ops4_fresh : (main_part6_ops4 : List (HloOp τ sig (Elt F))).Forall fun op => op.fresh = ∅ := by no_alloc
theorem main_part7_ops0_fresh : (main_part7_ops0 : List (HloOp τ sig (Elt F))).Forall fun op => op.fresh = ∅ := by no_alloc
theorem main_part7_ops1_fresh : (main_part7_ops1 : List (HloOp τ sig (Elt F))).Forall fun op => op.fresh = ∅ := by no_alloc
theorem main_part7_ops2_fresh : (main_part7_ops2 : List (HloOp τ sig (Elt F))).Forall fun op => op.fresh = ∅ := by no_alloc
theorem main_part8_ops0_fresh : (main_part8_ops0 : List (HloOp τ sig (Elt F))).Forall fun op => op.fresh = ∅ := by no_alloc
theorem main_part8_ops1_fresh : (main_part8_ops1 : List (HloOp τ sig (Elt F))).Forall fun op => op.fresh = ∅ := by no_alloc

theorem main_part0_ops0_writes : (main_part0_ops0 : List (HloOp τ sig (Elt F))).Forall fun op => op.writes ⊆ (main_part0_ops0_W.map (Proc.devRef (τ := τ) .tc)).toFinset := by writes_in
theorem main_part0_ops1_writes : (main_part0_ops1 : List (HloOp τ sig (Elt F))).Forall fun op => op.writes ⊆ (main_part0_ops1_W.map (Proc.devRef (τ := τ) .tc)).toFinset := by writes_in
theorem main_part0_ops2_writes : (main_part0_ops2 : List (HloOp τ sig (Elt F))).Forall fun op => op.writes ⊆ (main_part0_ops2_W.map (Proc.devRef (τ := τ) .tc)).toFinset := by writes_in
theorem main_part0_ops3_writes : (main_part0_ops3 : List (HloOp τ sig (Elt F))).Forall fun op => op.writes ⊆ (main_part0_ops3_W.map (Proc.devRef (τ := τ) .tc)).toFinset := by writes_in
theorem main_part0_ops4_writes : (main_part0_ops4 : List (HloOp τ sig (Elt F))).Forall fun op => op.writes ⊆ (main_part0_ops4_W.map (Proc.devRef (τ := τ) .tc)).toFinset := by writes_in
theorem main_part0_ops5_writes : (main_part0_ops5 : List (HloOp τ sig (Elt F))).Forall fun op => op.writes ⊆ (main_part0_ops5_W.map (Proc.devRef (τ := τ) .tc)).toFinset := by writes_in
theorem main_part0_ops6_writes : (main_part0_ops6 : List (HloOp τ sig (Elt F))).Forall fun op => op.writes ⊆ (main_part0_ops6_W.map (Proc.devRef (τ := τ) .tc)).toFinset := by writes_in
theorem main_part1_ops0_writes : (main_part1_ops0 : List (HloOp τ sig (Elt F))).Forall fun op => op.writes ⊆ (main_part1_ops0_W.map (Proc.devRef (τ := τ) .tc)).toFinset := by writes_in
theorem main_part1_ops1_writes : (main_part1_ops1 : List (HloOp τ sig (Elt F))).Forall fun op => op.writes ⊆ (main_part1_ops1_W.map (Proc.devRef (τ := τ) .tc)).toFinset := by writes_in
theorem main_part1_ops2_writes : (main_part1_ops2 : List (HloOp τ sig (Elt F))).Forall fun op => op.writes ⊆ (main_part1_ops2_W.map (Proc.devRef (τ := τ) .tc)).toFinset := by writes_in
theorem main_part2_ops0_writes : (main_part2_ops0 : List (HloOp τ sig (Elt F))).Forall fun op => op.writes ⊆ (main_part2_ops0_W.map (Proc.devRef (τ := τ) .tc)).toFinset := by writes_in
theorem main_part2_ops1_writes : (main_part2_ops1 : List (HloOp τ sig (Elt F))).Forall fun op => op.writes ⊆ (main_part2_ops1_W.map (Proc.devRef (τ := τ) .tc)).toFinset := by writes_in
theorem main_part2_ops2_writes : (main_part2_ops2 : List (HloOp τ sig (Elt F))).Forall fun op => op.writes ⊆ (main_part2_ops2_W.map (Proc.devRef (τ := τ) .tc)).toFinset := by writes_in
theorem main_part2_ops3_writes : (main_part2_ops3 : List (HloOp τ sig (Elt F))).Forall fun op => op.writes ⊆ (main_part2_ops3_W.map (Proc.devRef (τ := τ) .tc)).toFinset := by writes_in
theorem main_part2_ops4_writes : (main_part2_ops4 : List (HloOp τ sig (Elt F))).Forall fun op => op.writes ⊆ (main_part2_ops4_W.map (Proc.devRef (τ := τ) .tc)).toFinset := by writes_in
theorem main_part3_ops0_writes : (main_part3_ops0 : List (HloOp τ sig (Elt F))).Forall fun op => op.writes ⊆ (main_part3_ops0_W.map (Proc.devRef (τ := τ) .tc)).toFinset := by writes_in
theorem main_part3_ops1_writes : (main_part3_ops1 : List (HloOp τ sig (Elt F))).Forall fun op => op.writes ⊆ (main_part3_ops1_W.map (Proc.devRef (τ := τ) .tc)).toFinset := by writes_in
theorem main_part3_ops2_writes : (main_part3_ops2 : List (HloOp τ sig (Elt F))).Forall fun op => op.writes ⊆ (main_part3_ops2_W.map (Proc.devRef (τ := τ) .tc)).toFinset := by writes_in
theorem main_part4_ops0_writes : (main_part4_ops0 : List (HloOp τ sig (Elt F))).Forall fun op => op.writes ⊆ (main_part4_ops0_W.map (Proc.devRef (τ := τ) .tc)).toFinset := by writes_in
theorem main_part4_ops1_writes : (main_part4_ops1 : List (HloOp τ sig (Elt F))).Forall fun op => op.writes ⊆ (main_part4_ops1_W.map (Proc.devRef (τ := τ) .tc)).toFinset := by writes_in
theorem main_part4_ops2_writes : (main_part4_ops2 : List (HloOp τ sig (Elt F))).Forall fun op => op.writes ⊆ (main_part4_ops2_W.map (Proc.devRef (τ := τ) .tc)).toFinset := by writes_in
theorem main_part4_ops3_writes : (main_part4_ops3 : List (HloOp τ sig (Elt F))).Forall fun op => op.writes ⊆ (main_part4_ops3_W.map (Proc.devRef (τ := τ) .tc)).toFinset := by writes_in
theorem main_part4_ops4_writes : (main_part4_ops4 : List (HloOp τ sig (Elt F))).Forall fun op => op.writes ⊆ (main_part4_ops4_W.map (Proc.devRef (τ := τ) .tc)).toFinset := by writes_in
theorem main_part5_ops0_writes : (main_part5_ops0 : List (HloOp τ sig (Elt F))).Forall fun op => op.writes ⊆ (main_part5_ops0_W.map (Proc.devRef (τ := τ) .tc)).toFinset := by writes_in
theorem main_part5_ops1_writes : (main_part5_ops1 : List (HloOp τ sig (Elt F))).Forall fun op => op.writes ⊆ (main_part5_ops1_W.map (Proc.devRef (τ := τ) .tc)).toFinset := by writes_in
theorem main_part5_ops2_writes : (main_part5_ops2 : List (HloOp τ sig (Elt F))).Forall fun op => op.writes ⊆ (main_part5_ops2_W.map (Proc.devRef (τ := τ) .tc)).toFinset := by writes_in
theorem main_part6_ops0_writes : (main_part6_ops0 : List (HloOp τ sig (Elt F))).Forall fun op => op.writes ⊆ (main_part6_ops0_W.map (Proc.devRef (τ := τ) .tc)).toFinset := by writes_in
theorem main_part6_ops1_writes : (main_part6_ops1 : List (HloOp τ sig (Elt F))).Forall fun op => op.writes ⊆ (main_part6_ops1_W.map (Proc.devRef (τ := τ) .tc)).toFinset := by writes_in
theorem main_part6_ops2_writes : (main_part6_ops2 : List (HloOp τ sig (Elt F))).Forall fun op => op.writes ⊆ (main_part6_ops2_W.map (Proc.devRef (τ := τ) .tc)).toFinset := by writes_in
theorem main_part6_ops3_writes : (main_part6_ops3 : List (HloOp τ sig (Elt F))).Forall fun op => op.writes ⊆ (main_part6_ops3_W.map (Proc.devRef (τ := τ) .tc)).toFinset := by writes_in
theorem main_part6_ops4_writes : (main_part6_ops4 : List (HloOp τ sig (Elt F))).Forall fun op => op.writes ⊆ (main_part6_ops4_W.map (Proc.devRef (τ := τ) .tc)).toFinset := by writes_in
theorem main_part7_ops0_writes : (main_part7_ops0 : List (HloOp τ sig (Elt F))).Forall fun op => op.writes ⊆ (main_part7_ops0_W.map (Proc.devRef (τ := τ) .tc)).toFinset := by writes_in
theorem main_part7_ops1_writes : (main_part7_ops1 : List (HloOp τ sig (Elt F))).Forall fun op => op.writes ⊆ (main_part7_ops1_W.map (Proc.devRef (τ := τ) .tc)).toFinset := by writes_in
theorem main_part7_ops2_writes : (main_part7_ops2 : List (HloOp τ sig (Elt F))).Forall fun op => op.writes ⊆ (main_part7_ops2_W.map (Proc.devRef (τ := τ) .tc)).toFinset := by writes_in
theorem main_part8_ops0_writes : (main_part8_ops0 : List (HloOp τ sig (Elt F))).Forall fun op => op.writes ⊆ (main_part8_ops0_W.map (Proc.devRef (τ := τ) .tc)).toFinset := by writes_in
theorem main_part8_ops1_writes : (main_part8_ops1 : List (HloOp τ sig (Elt F))).Forall fun op => op.writes ⊆ (main_part8_ops1_W.map (Proc.devRef (τ := τ) .tc)).toFinset := by writes_in

/-! ## No item writes an argument array

A reference that no stretch's list holds and that is no array of the first region's windows, and at the second
region either no array of its windows or the array of an INPUT window, holds at the end what it held at launch:
each stretch skips it, the first region's exit leaves it as entered, the second's either likewise or — an input
window's array is never written back — at the proof data's entry array, which is the entry contents. -/

theorem Wexit0_of_ne (c : Dev nD) (b : Ref sig .tc) (hb : ∀ w, Pipeline.arrRef spec0 w ≠ b) :
    Wexit0 m ρ c (Proc.devRef .tc b) = W3 m ρ c (Proc.devRef .tc b) := W4_of_ne m ρ c b hb
theorem Wexit1_of_ne (c : Dev nD) (b : Ref sig .tc) (hb : ∀ w, Pipeline.arrRef spec1 w ≠ b) :
    Wexit1 m ρ c (Proc.devRef .tc b) = W36 m ρ c (Proc.devRef .tc b) := W37_of_ne m ρ c b hb

/-- The stretches' lists, in the chain's order. -/
abbrev stretchWs : List (List (Ref sig .tc)) :=
  [main_part0_ops0_W, main_part0_ops1_W, main_part0_ops2_W, main_part0_ops3_W, main_part0_ops4_W, main_part0_ops5_W,
   main_part0_ops6_W, main_part1_ops0_W, main_part1_ops1_W, main_part1_ops2_W, main_part2_ops0_W, main_part2_ops1_W,
   main_part2_ops2_W, main_part2_ops3_W, main_part2_ops4_W, main_part3_ops0_W, main_part3_ops1_W, main_part3_ops2_W,
   main_part4_ops0_W, main_part4_ops1_W, main_part4_ops2_W, main_part4_ops3_W, main_part4_ops4_W, main_part5_ops0_W,
   main_part5_ops1_W, main_part5_ops2_W, main_part6_ops0_W, main_part6_ops1_W, main_part6_ops2_W, main_part6_ops3_W,
   main_part6_ops4_W, main_part7_ops0_W, main_part7_ops1_W, main_part7_ops2_W, main_part8_ops0_W, main_part8_ops1_W]

theorem Wend_of_unwritten (c : Dev nD) (a : Ref sig .tc) (h : ∀ L ∈ stretchWs, a ∉ L)
    (h0 : ∀ w, Pipeline.arrRef spec0 w ≠ a)
    (h1 : (∀ w, Pipeline.arrRef spec1 w ≠ a) ∨ ∃ w, (cfg1.win w).isOut = false ∧ Pipeline.arrRef spec1 w = a) :
    Wend m ρ c (Proc.devRef .tc a) = m ((c : Thread nD τ).loc a) := by
  have h' := List.forall_iff_forall_mem.mpr h
  simp only [stretchWs, List.Forall] at h'
  obtain ⟨n0, n1, n2, n3, n4, n5, n6, n7, n8, n9, n10, n11, n12, n13, n14, n15, n16, n17, n18, n19, n20, n21, n22, n23,
    n24, n25, n26, n27, n28, n29, n30, n31, n32, n33, n34, n35⟩ := h'
  -- up to the second region's entry: 32 stretches back to the first region's exit, that exit, 3 stretches to the launch
  have e36 : W36 m ρ c (Proc.devRef .tc a) = m ((c : Thread nD τ).loc a) :=
    (StableHlo.after_of_writes_sub main_part8_ops0 _ main_part8_ops0_writes n34).trans <|
    (StableHlo.after_of_writes_sub main_part7_ops2 _ main_part7_ops2_writes n33).trans <|
    (StableHlo.after_of_writes_sub main_part7_ops1 _ main_part7_ops1_writes n32).trans <|
    (StableHlo.after_of_writes_sub main_part7_ops0 _ main_part7_ops0_writes n31).trans <|
    (StableHlo.after_of_writes_sub main_part6_ops4 _ main_part6_ops4_writes n30).trans <|
    (StableHlo.after_of_writes_sub main_part6_ops3 _ main_part6_ops3_writes n29).trans <|
    (StableHlo.after_of_writes_sub main_part6_ops2 _ main_part6_ops2_writes n28).trans <|
    (StableHlo.after_of_writes_sub main_part6_ops1 _ main_part6_ops1_writes n27).trans <|
    (StableHlo.after_of_writes_sub main_part6_ops0 _ main_part6_ops0_writes n26).trans <|
    (StableHlo.after_of_writes_sub main_part5_ops2 _ main_part5_ops2_writes n25).trans <|
    (StableHlo.after_of_writes_sub main_part5_ops1 _ main_part5_ops1_writes n24).trans <|
    (StableHlo.after_of_writes_sub main_part5_ops0 _ main_part5_ops0_writes n23).trans <|
    (StableHlo.after_of_writes_sub main_part4_ops4 _ main_part4_ops4_writes n22).trans <|
    (StableHlo.after_of_writes_sub main_part4_ops3 _ main_part4_ops3_writes n21).trans <|
    (StableHlo.after_of_writes_sub main_part4_ops2 _ main_part4_ops2_writes n20).trans <|
    (StableHlo.after_of_writes_sub main_part4_ops1 _ main_part4_ops1_writes n19).trans <|
    (StableHlo.after_of_writes_sub main_part4_ops0 _ main_part4_ops0_writes n18).trans <|
    (StableHlo.after_of_writes_sub main_part3_ops2 _ main_part3_ops2_writes n17).trans <|
    (StableHlo.after_of_writes_sub main_part3_ops1 _ main_part3_ops1_writes n16).trans <|
    (StableHlo.after_of_writes_sub main_part3_ops0 _ main_part3_ops0_writes n15).trans <|
    (StableHlo.after_of_writes_sub main_part2_ops4 _ main_part2_ops4_writes n14).trans <|
    (StableHlo.after_of_writes_sub main_part2_ops3 _ main_part2_ops3_writes n13).trans <|
    (StableHlo.after_of_writes_sub main_part2_ops2 _ main_part2_ops2_writes n12).trans <|
    (StableHlo.after_of_writes_sub main_part2_ops1 _ main_part2_ops1_writes n11).trans <|
    (StableHlo.after_of_writes_sub main_part2_ops0 _ main_part2_ops0_writes n10).trans <|
    (StableHlo.after_of_writes_sub main_part1_ops2 _ main_part1_ops2_writes n9).trans <|
    (StableHlo.after_of_writes_sub main_part1_ops1 _ main_part1_ops1_writes n8).trans <|
    (StableHlo.after_of_writes_sub main_part1_ops0 _ main_part1_ops0_writes n7).trans <|
    (StableHlo.after_of_writes_sub main_part0_ops6 _ main_part0_ops6_writes n6).trans <|
    (StableHlo.after_of_writes_sub main_part0_ops5 _ main_part0_ops5_writes n5).trans <|
    (StableHlo.after_of_writes_sub main_part0_ops4 _ main_part0_ops4_writes n4).trans <|
    (StableHlo.after_of_writes_sub main_part0_ops3 _ main_part0_ops3_writes n3).trans <|
    (W4_of_ne m ρ c a h0).trans <|
    (StableHlo.after_of_writes_sub main_part0_ops2 _ main_part0_ops2_writes n2).trans <|
    (StableHlo.after_of_writes_sub main_part0_ops1 _ main_part0_ops1_writes n1).trans <|
    (StableHlo.after_of_writes_sub main_part0_ops0 _ main_part0_ops0_writes n0).trans rfl
  -- across the second region
  have e37 : W37 m ρ c (Proc.devRef .tc a) = W36 m ρ c (Proc.devRef .tc a) := by
    rcases h1 with h1 | ⟨w, hin, hw⟩
    · exact W37_of_ne m ρ c a h1
    · subst hw
      exact (W37_arr m ρ c w).trans (((dat1 (Ventry1 m ρ) c).arrAt_in w hin _).trans (A_eq1 (Ventry1 m ρ) c w))
  exact (StableHlo.after_of_writes_sub main_part8_ops1 _ main_part8_ops1_writes n35).trans (e37.trans e36)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem Wend_main_arg0 (c : Dev nD) : Wend m ρ c (Proc.devRef .tc main_arg0) = m ((c : Thread nD τ).loc main_arg0) :=
  Wend_of_unwritten m ρ c main_arg0 (by decide) (by decide) (by decide)
theorem Wend_main_arg1 (c : Dev nD) : Wend m ρ c (Proc.devRef .tc main_arg1) = m ((c : Thread nD τ).loc main_arg1) :=
  Wend_of_unwritten m ρ c main_arg1 (by decide) (by decide) (by decide)
theorem Wend_main_arg2 (c : Dev nD) : Wend m ρ c (Proc.devRef .tc main_arg2) = m ((c : Thread nD τ).loc main_arg2) :=
  Wend_of_unwritten m ρ c main_arg2 (by decide) (by decide) (by decide)
theorem Wend_main_arg3 (c : Dev nD) : Wend m ρ c (Proc.devRef .tc main_arg3) = m ((c : Thread nD τ).loc main_arg3) :=
  Wend_of_unwritten m ρ c main_arg3 (by decide) (by decide) (by decide)
theorem Wend_main_arg4 (c : Dev nD) : Wend m ρ c (Proc.devRef .tc main_arg4) = m ((c : Thread nD τ).loc main_arg4) :=
  Wend_of_unwritten m ρ c main_arg4 (by decide) (by decide) (by decide)
theorem Wend_main_arg5 (c : Dev nD) : Wend m ρ c (Proc.devRef .tc main_arg5) = m ((c : Thread nD τ).loc main_arg5) :=
  Wend_of_unwritten m ρ c main_arg5 (by decide) (by decide) (by decide)
theorem Wend_main_arg6 (c : Dev nD) : Wend m ρ c (Proc.devRef .tc main_arg6) = m ((c : Thread nD τ).loc main_arg6) :=
  Wend_of_unwritten m ρ c main_arg6 (by decide) (by decide) (by decide)
theorem Wend_main_arg7 (c : Dev nD) : Wend m ρ c (Proc.devRef .tc main_arg7) = m ((c : Thread nD τ).loc main_arg7) :=
  Wend_of_unwritten m ρ c main_arg7 (by decide) (by decide) (by decide)
theorem Wend_main_arg8 (c : Dev nD) : Wend m ρ c (Proc.devRef .tc main_arg8) = m ((c : Thread nD τ).loc main_arg8) :=
  Wend_of_unwritten m ρ c main_arg8 (by decide) (by decide) (by decide)
theorem Wend_main_arg9 (c : Dev nD) : Wend m ρ c (Proc.devRef .tc main_arg9) = m ((c : Thread nD τ).loc main_arg9) :=
  Wend_of_unwritten m ρ c main_arg9 (by decide) (by decide) (by decide)
theorem Wend_main_arg10 (c : Dev nD) : Wend m ρ c (Proc.devRef .tc main_arg10) = m ((c : Thread nD τ).loc main_arg10) :=
  Wend_of_unwritten m ρ c main_arg10 (by decide) (by decide) (by decide)
theorem Wend_main_arg11 (c : Dev nD) : Wend m ρ c (Proc.devRef .tc main_arg11) = m ((c : Thread nD τ).loc main_arg11) :=
  Wend_of_unwritten m ρ c main_arg11 (by decide) (by decide) (by decide)
theorem Wend_main_arg12 (c : Dev nD) : Wend m ρ c (Proc.devRef .tc main_arg12) = m ((c : Thread nD τ).loc main_arg12) :=
  Wend_of_unwritten m ρ c main_arg12 (by decide) (by decide) (by decide)

/-! ## Both pipelines' proof data, and what a core holds between two items -/

/-- No pipeline prefetches a table: the admissible table contents are the configurations' own. -/
abbrev adm : (p : Fin 2) → (pcfgs (F := F) p).Adm := fun p => (cfgs p).toPCfg_adm

/-- Both pipelines' proof data, each at the contents its region is entered from: a literal match on the pipeline's
    index, so that the configuration pinned at a numeral is the printed one. -/
def pdats : (p : Fin 2) → (c : Dev nD) → Dat τ (Elt F) Unit ℕ (UR sig nD τ) ℕ (Pipeline.pin (pcfgs (F := F)) adm p) c
  | ⟨0, _⟩ => fun c => dat0 (Ventry0 m ρ) c
  | ⟨1, _⟩ => fun c => dat1 (Ventry1 m ρ) c

abbrev 𝒱₀ : Variants := Variants.none
/-- No core ever owes another a unit, so no pair has a level. -/
abbrev L : GSem nD τ sig → Finset Unit := fun _ => ∅
abbrev lv : GSem nD τ sig → Unit → ℕ := fun _ _ => 0

/-- Beside its buffers a core holds, between any two items, its generator register at some state and the record
    that it owes nothing. -/
abbrev Rest (c : Dev nD) : sProp 𝕄 :=
  iprop((∃ r, prngReg c r) ∗ ∃ T, owes (c : Thread nD τ) (0 : CellTallies nD τ sig Unit) T)

/-- What core `c` holds between two items: every unscoped buffer whole at the valuation, and the rest. -/
abbrev At (W : Dev nD → Valuation τ sig (Elt F)) (c : Dev nD) : sProp 𝕄 :=
  iprop(StableHlo.held (c : Thread nD τ) (Pipeline.ucRefs τ sig) (W c) ∗ Rest c)

/-- Owing the tallies `O` with some recorded set is owing them within any bound that holds every pair. -/
theorem owesWithin_of_owes (c : Dev nD) (O : CellTallies nD τ sig Unit) (B : Set (SemLoc sig × Unit)) (hB : ∀ x, x ∈ B) :
    (iprop(∃ T, owes (c : Thread nD τ) O T) : sProp 𝕄) ⊢ Pipeline.owesWithin c O B := by
  iintro ⟨%T, H⟩
  iexists T
  isplitr
  · ipureintro; exact fun x _ => hB x
  · iexact H

/-- Owing within a bound is owing with some recorded set. -/
theorem owes_of_owesWithin (c : Dev nD) (O : CellTallies nD τ sig Unit) (B : Set (SemLoc sig × Unit)) :
    (Pipeline.owesWithin c O B : sProp 𝕄) ⊢ iprop(∃ T, owes (c : Thread nD τ) O T) := by
  iintro ⟨%T, -, H⟩
  iexists T
  iexact H

/-- A stretch as a segment: from every unscoped buffer at `W` to the same at what the stretch leaves, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-! ## The two regions as segments

A region is entered from every unscoped buffer at its entry valuation. Its windows' arrays come out of those
buffers at the proof data's entry contents and the other unscoped buffers bypass the region; the generator
register goes into the class's invariant and comes back; nothing is owed and the kernel has no semaphore of its
own. At the exit the arrays, now at what the pipeline leaves, and the bypassed buffers are every unscoped buffer
again, at the exit valuation: that valuation has the arrays there and agrees with the entry one elsewhere. -/

-- unifying a library statement over the pinned configuration with the printed one unfolds definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ventry0 m ρ) c).loose
  hwaits := Pipeline.hwaits_of_owed_zero _ _ _ _ L lv 0 fun _ _ => rfl
  pre := At (W3 m ρ)
  post := At (W4 m ρ)
  X c := iprop(∃ r, prngReg c r)
  Y c := iprop(∃ r, prngReg c r)
  Z c := Pipeline.unscopedRest (Ix := Unit) (Name := ℕ) (U := UR sig nD τ) (Lvl := ℕ) spec0 c (Ventry0 m ρ c)
  hentry c := by
    have hbufs := Pipeline.arrays_of_unscopedBufs (p := 0) (pcfgs (F := F)) adm (pdats m ρ) launch0.win launch0.arr_whole c
      ((pdats m ρ 0 c).share_full fun _ => rfl) (Ventry0 m ρ c) fun _ => rfl
    rw [Pipeline.unscopedBufs_held] at hbufs
    have howes := owesWithin_of_owes (F := F) c 0 ((pdats m ρ 0 c).bound () 0) fun _ => Or.inl trivial
    have hnotab : (BI.emp : sProp 𝕄) ⊢ Pipeline.prefHeld (pcfgs (F := F) 0).pre c (fun _ => fullShare) (adm (F := F) 0).1 := by
      unfold Pipeline.prefHeld; rw [show (Finset.univ : Finset (Fin 0)) = ∅ from rfl, BI.bigSep_empty]
    rw [Pipeline.ownSems0_none]
    iintro ⟨⟨Hheld, Hreg, Howes⟩, -, -⟩
    imodintro
    ihave Hsplit := hbufs $$ Hheld
    icases Hsplit with ⟨Harr, Hby⟩
    isplitl [Harr]; · iexact Harr
    isplitr; · iapply hnotab; iempintro
    isplitl [Howes]; · iapply howes; iexact Howes
    isplitl [Hreg]; · iexact Hreg
    iexact Hby
  hin c := by
    rw [show (pdats m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ventry0 m ρ c) (fun b => W4 m ρ c b) ((pdats m ρ 0 c).arrAt · cfg0.N)
      (fun w => (W4_arr m ρ c w).symm)
      (fun b hb => W4_of_ne m ρ c b fun w e => hb (Finset.mem_image.mpr ⟨w, Finset.mem_univ _, e⟩))
    rw [Pipeline.unscopedBufs_held] at hjoin
    have howes := owes_of_owesWithin (F := F) c ((pdats m ρ 0 c).owed (Fin.last _)) ((pdats m ρ 0 c).bound () (Fin.last _))
    iintro ⟨Harr, Howes, Hreg, Hby⟩
    imodintro
    isplitl [Harr Hby]
    · iapply hjoin; isplitl [Harr]; · iexact Harr
      iexact Hby
    isplitl [Hreg]; · iexact Hreg
    iapply howes; iexact Howes

-- as for the first region
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ventry1 m ρ) c).loose
  hwaits := Pipeline.hwaits_of_owed_zero _ _ _ _ L lv 1 fun _ _ => rfl
  pre := At (W36 m ρ)
  post := At (W37 m ρ)
  X c := iprop(∃ r, prngReg c r)
  Y c := iprop(∃ r, prngReg c r)
  Z c := Pipeline.unscopedRest (Ix := Unit) (Name := ℕ) (U := UR sig nD τ) (Lvl := ℕ) spec1 c (Ventry1 m ρ c)
  hentry c := by
    have hbufs := Pipeline.arrays_of_unscopedBufs (p := 1) (pcfgs (F := F)) adm (pdats m ρ) launch1.win launch1.arr_whole c
      ((pdats m ρ 1 c).share_full fun _ => rfl) (Ventry1 m ρ c) fun _ => rfl
    rw [Pipeline.unscopedBufs_held] at hbufs
    have howes := owesWithin_of_owes (F := F) c 0 ((pdats m ρ 1 c).bound () 0) fun _ => Or.inl trivial
    have hnotab : (BI.emp : sProp 𝕄) ⊢ Pipeline.prefHeld (pcfgs (F := F) 1).pre c (fun _ => fullShare) (adm (F := F) 1).1 := by
      unfold Pipeline.prefHeld; rw [show (Finset.univ : Finset (Fin 0)) = ∅ from rfl, BI.bigSep_empty]
    rw [Pipeline.ownSems0_none]
    iintro ⟨⟨Hheld, Hreg, Howes⟩, -, -⟩
    imodintro
    ihave Hsplit := hbufs $$ Hheld
    icases Hsplit with ⟨Harr, Hby⟩
    isplitl [Harr]; · iexact Harr
    isplitr; · iapply hnotab; iempintro
    isplitl [Howes]; · iapply howes; iexact Howes
    isplitl [Hreg]; · iexact Hreg
    iexact Hby
  hin c := by
    rw [show (pdats m ρ 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m ρ 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ventry1 m ρ c) (fun b => W37 m ρ c b) ((pdats m ρ 1 c).arrAt · cfg1.N)
      (fun w => (W37_arr m ρ c w).symm)
      (fun b hb => W37_of_ne m ρ c b fun w e => hb (Finset.mem_image.mpr ⟨w, Finset.mem_univ _, e⟩))
    rw [Pipeline.unscopedBufs_held] at hjoin
    have howes := owes_of_owesWithin (F := F) c ((pdats m ρ 1 c).owed (Fin.last _)) ((pdats m ρ 1 c).bound () (Fin.last _))
    iintro ⟨Harr, Howes, Hreg, Hby⟩
    imodintro
    isplitl [Harr Hby]
    · iapply hjoin; isplitl [Harr]; · iexact Harr
      iexact Hby
    isplitl [Hreg]; · iexact Hreg
    iapply howes; iexact Howes

/-! ## The entry function as segments, and the launch -/

/-- The entry function's 38 items as segments, in order: a stretch from the valuation before it, a region per kernel call. -/
abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .region (reg0 m ρ),
    .host (hseg main_part0_ops3 main_part0_ops3_sub main_part0_ops3_fresh (W4 m ρ)),
    .host (hseg main_part0_ops4 main_part0_ops4_sub main_part0_ops4_fresh (W5 m ρ)),
    .host (hseg main_part0_ops5 main_part0_ops5_sub main_part0_ops5_fresh (W6 m ρ)),
    .host (hseg main_part0_ops6 main_part0_ops6_sub main_part0_ops6_fresh (W7 m ρ)),
    .host (hseg main_part1_ops0 main_part1_ops0_sub main_part1_ops0_fresh (W8 m ρ)),
    .host (hseg main_part1_ops1 main_part1_ops1_sub main_part1_ops1_fresh (W9 m ρ)),
    .host (hseg main_part1_ops2 main_part1_ops2_sub main_part1_ops2_fresh (W10 m ρ)),
    .host (hseg main_part2_ops0 main_part2_ops0_sub main_part2_ops0_fresh (W11 m ρ)),
    .host (hseg main_part2_ops1 main_part2_ops1_sub main_part2_ops1_fresh (W12 m ρ)),
    .host (hseg main_part2_ops2 main_part2_ops2_sub main_part2_ops2_fresh (W13 m ρ)),
    .host (hseg main_part2_ops3 main_part2_ops3_sub main_part2_ops3_fresh (W14 m ρ)),
    .host (hseg main_part2_ops4 main_part2_ops4_sub main_part2_ops4_fresh (W15 m ρ)),
    .host (hseg main_part3_ops0 main_part3_ops0_sub main_part3_ops0_fresh (W16 m ρ)),
    .host (hseg main_part3_ops1 main_part3_ops1_sub main_part3_ops1_fresh (W17 m ρ)),
    .host (hseg main_part3_ops2 main_part3_ops2_sub main_part3_ops2_fresh (W18 m ρ)),
    .host (hseg main_part4_ops0 main_part4_ops0_sub main_part4_ops0_fresh (W19 m ρ)),
    .host (hseg main_part4_ops1 main_part4_ops1_sub main_part4_ops1_fresh (W20 m ρ)),
    .host (hseg main_part4_ops2 main_part4_ops2_sub main_part4_ops2_fresh (W21 m ρ)),
    .host (hseg main_part4_ops3 main_part4_ops3_sub main_part4_ops3_fresh (W22 m ρ)),
    .host (hseg main_part4_ops4 main_part4_ops4_sub main_part4_ops4_fresh (W23 m ρ)),
    .host (hseg main_part5_ops0 main_part5_ops0_sub main_part5_ops0_fresh (W24 m ρ)),
    .host (hseg main_part5_ops1 main_part5_ops1_sub main_part5_ops1_fresh (W25 m ρ)),
    .host (hseg main_part5_ops2 main_part5_ops2_sub main_part5_ops2_fresh (W26 m ρ)),
    .host (hseg main_part6_ops0 main_part6_ops0_sub main_part6_ops0_fresh (W27 m ρ)),
    .host (hseg main_part6_ops1 main_part6_ops1_sub main_part6_ops1_fresh (W28 m ρ)),
    .host (hseg main_part6_ops2 main_part6_ops2_sub main_part6_ops2_fresh (W29 m ρ)),
    .host (hseg main_part6_ops3 main_part6_ops3_sub main_part6_ops3_fresh (W30 m ρ)),
    .host (hseg main_part6_ops4 main_part6_ops4_sub main_part6_ops4_fresh (W31 m ρ)),
    .host (hseg main_part7_ops0 main_part7_ops0_sub main_part7_ops0_fresh (W32 m ρ)),
    .host (hseg main_part7_ops1 main_part7_ops1_sub main_part7_ops1_fresh (W33 m ρ)),
    .host (hseg main_part7_ops2 main_part7_ops2_sub main_part7_ops2_fresh (W34 m ρ)),
    .host (hseg main_part8_ops0 main_part8_ops0_sub main_part8_ops0_fresh (W35 m ρ)),
    .region (reg1 m ρ),
    .host (hseg main_part8_ops1 main_part8_ops1_sub main_part8_ops1_fresh (W37 m ρ)) ]

/-- The entry function IS the run of these segments: its chain of items, item by item. -/
theorem main_run (c : Dev nD) : main (F := F) c = Pipeline.Seg.run (segs m ρ) := (main_chain_windows c).trans (by chain_rfl)

/-- The last thread state without the `owes`: every unscoped buffer at the last valuation, the generator register at some state. -/
abbrev Tend (c : Dev nD) : sProp 𝕄 :=
  iprop(StableHlo.held (c : Thread nD τ) (Pipeline.ucRefs τ sig) (W38 m ρ c) ∗ ∃ r, prngReg c r)

-- the launch theorem's implicit arguments are found by unifying its conclusion with this one, which unfolds definitions in a metavariable's type
set_option backward.isDefEq.respectTransparency.types false in
/-- THE RUN, for any postcondition that follows from "the final memory holds every unscoped buffer of every core at
    the last valuation": the launch over the segments. Consecutive thread states agree by name, so the chaining is
    reflexivity but for the end, where the rest is regrouped to set the `owes` apart; the launch makes the first
    thread state on every core; the last one, read against a final state, says what the memory holds. -/
theorem run_with {Q : PUnit × MemSt nD τ sig (Elt F) → Prop}
    (hQ : ∀ s : MemSt nD τ sig (Elt F),
      (∀ c : Dev nD, ∀ b ∈ Pipeline.ucRefs τ sig, s.mem (((c : Thread nD τ)).1, b) = Wend m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (W0 m ρ)) (Tₙ := Tend m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show At (W38 m ρ) c ⊢ _
        iintro ⟨Hheld, Hreg, Howes⟩
        isplitl [Hheld Hreg]
        · isplitl [Hheld]; · iexact Hheld
          iexact Hreg
        iexact Howes⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howes, -, Hreg, -⟩, -⟩
      imodintro
      isplitl [Hheld]; · iexact Hheld
      isplitl [Hreg]; · iexists _; iexact Hreg
      iexists ∅; iexact Howes)
    (QY := fun c s => ∀ b ∈ Pipeline.ucRefs τ sig, s.mem (((c : Thread nD τ)).1, b) = W38 m ρ c b)
    (hfin := fun c s' => by
      iintro ⟨⟨Hheld, -⟩, HSI⟩
      unfold StableHlo.held
      imodintro
      iapply (pointsTo_read_all (Pipeline.ucRefs τ sig) (fun b => (((c : Thread nD τ)).1, b)) (W38 m ρ c) s')
      isplitl [Hheld]; · iexact Hheld
      iexact HSI)
    (hQ := hQ)

/-- Every weakly fair execution of the entry function terminates, nothing faulting, and the final memory holds every
    unscoped buffer of every core at the last valuation of the fold. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Wend m ρ c b) :=
  run_with m ρ fun _ h => h

/-- THE FRAME, at any float instance: the same run, each argument array read off the last valuation, where it holds
    its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_with m ρ fun s h c =>
    ⟨(h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c),
     (h c _ (mem_uc main_arg5 (by decide))).trans (Wend_main_arg5 m ρ c),
     (h c _ (mem_uc main_arg6 (by decide))).trans (Wend_main_arg6 m ρ c),
     (h c _ (mem_uc main_arg7 (by decide))).trans (Wend_main_arg7 m ρ c),
     (h c _ (mem_uc main_arg8 (by decide))).trans (Wend_main_arg8 m ρ c),
     (h c _ (mem_uc main_arg9 (by decide))).trans (Wend_main_arg9 m ρ c),
     (h c _ (mem_uc main_arg10 (by decide))).trans (Wend_main_arg10 m ρ c),
     (h c _ (mem_uc main_arg11 (by decide))).trans (Wend_main_arg11 m ρ c),
     (h c _ (mem_uc main_arg12 (by decide))).trans (Wend_main_arg12 m ρ c)⟩

end Cert.Kernel.Hand

end
-- ==== Proof.KRegion0.lean ====
import proofs.«100126_j36189394436483_2_alg».proof.Proof.Gen.KernelIdeal.Launch
import proofs.«100126_j36189394436483_2_alg».proof.Proof.Gen.KernelIdeal.Skeleton
import proofs.«100126_j36189394436483_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The projection kernel's region, at a parameter `V`

The program's first kernel call multiplies a block of 2048 rows of the activations by the whole 576x256 weight
matrix and rounds the product to bf16. On a grid of 9 points the activations' block and the result's
block move with the point; the weights are fetched once and stay. This module states, for any float
instance and for any contents `V` of the core's buffers at the region's entry, what each window's
staging buffer holds after the body at each point, and proves the pipeline's body obligation. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each is the whole of its block -/

abbrev r0_in0 : Rect S2048x576 := Rect.unit (s := S2048x576) ![0, 0] S2048x576.size inb_S2048x576_S2048x576_0_0
abbrev r0_in1 : Rect S576x256 := Rect.unit (s := S576x256) ![0, 0] S576x256.size inb_S576x256_S576x256_0_0
abbrev r0_out : Rect S2048x256 := Rect.unit (s := S2048x256) ![0, 0] S2048x256.size inb_S2048x256_S2048x256_0_0

/-! ## What the body leaves in the result's buffer -/

/-- The result window's staging buffer after the body: one store of the rounded product over the whole block. -/
def out0_2 (x0 : Vec F S2048x576 .f32) (x1 : Vec F S576x256 .f32) : Vec F S2048x256 .bf16 :=
  View.canon [⟨r0_out, k0_pay1 (View.ld x0 r0_in0) (View.ld x1 r0_in1)⟩]

/-! ## The pipeline's proof data -/

/-- The arrays as the region finds them; after the body each input's buffer still at its block and the
    result's at the rounded product of the two; the invariant the scoped rest and the generator register,
    untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The inputs' buffers before the body -/

/-- The activations' window is never cut nor idle and the body leaves its block where it found it, so at every
    point its current staging buffer holds that point's block. -/
theorem before0_0 (c : Dev nD) (t : Fin cfg0.N) (d) : (dat0 V c).before 0 t d = iblk0 V c 0 t := by
  have hkeep : ∀ t, (cfg0.win 0).cut (cfg0.grid.coords t) ((dat0 V c).after 0 t) = (dat0 V c).blockOf 0 t := by
    intro t; rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The weights' window is fetched at the first point only; at a later point its block index has not moved and
    the body left the block in place, so the buffer still holds the block. -/
theorem before0_1 (c : Dev nD) (t : Fin cfg0.N) (d) : (dat0 V c).before 1 t d = iblk0 V c 1 t := by
  have hkeep : ∀ t, (cfg0.win 1).cut (cfg0.grid.coords t) ((dat0 V c).after 1 t) = (dat0 V c).blockOf 1 t := by
    intro t; rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-! ## The body's triple -/

/-- The body's one store is over the whole block, so every index of the block lies in it. -/
theorem cover0_2 (p : r0_out.shape.Idx → Elt F .bf16) (y : S2048x256.Idx) :
    ∃ pc ∈ ([⟨r0_out, p⟩] : List (View.Piece (Elt F) S2048x256 .bf16)), y ∈ pc.1.set :=
  ⟨⟨r0_out, p⟩, List.mem_singleton_self _, (Rect.mem_set_unit (inb := inb_S2048x256_S2048x256_0_0)).mpr fun a => by
    have h0 : (![0, 0] : Fin 2 → ℕ) a = 0 := (by decide : ∀ b : Fin 2, (![0, 0] : Fin 2 → ℕ) b = 0) a
    exact ⟨h0.le.trans (Nat.zero_le _), Nat.lt_of_lt_of_le (y a).isLt (Nat.le_add_left _ _)⟩⟩

set_option maxHeartbeats 1000000 in
/-- On whole staging memrefs, the two inputs' at contents `x0` and `x1` and the result's at anything, the body
    runs to a continuation that holds the inputs' as they were and the result's at `out0_2 x0 x1`: two whole-block
    loads, a load of the result's buffer whose value is dropped, one whole-block store of the payload. -/
theorem sound_kernel0 (c : Dev nD) (E : Set ℕ) (i : grid0.Coords)
    (arg1 : Memref sig .tc .vmem S2048x576 .f32) (harg1 : arg1.IsWhole)
    (arg2 : Memref sig .tc .vmem S576x256 .f32) (harg2 : arg2.IsWhole)
    (arg3 : Memref sig .tc .vmem S2048x256 .bf16) (harg3 : arg3.IsWhole)
    (x0 : Vec F S2048x576 .f32) (x1 : Vec F S576x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr
    · ipureintro; rfl
    · iexact H1
  isplitl [H2]
  · iexists f2; isplitr
    · ipureintro; rfl
    · iexact H2
  iexists _; isplitr
  swap
  · iexact H3
  ipureintro
  unfold out0_2
  exact View.read_writes_eq_canon _ _ _ (cover0_2 _)

/-! ## The body obligation -/

/-- What the pipeline calls the body with at point `t`: the invariant, what the core owes, and each window's
    current staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body returns: the same invariant and debt, each buffer at what the proof data says it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the inputs' memrefs hold their blocks, whatever the result's holds; the body's triple applies,
    and the invariant and the debt, which the body never reads, pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]
  · iexact H0
  isplitl [H1]
  · iexact H1
  isplitl [H2]
  · iexists _; iexact H2
  iintro ⟨H0, H1, H2⟩
  isplitl [HΦ]
  · iexact HΦ
  isplitl [Ho]
  · iexact Ho
  isplitl [H0]
  · iexact H0
  isplitl [H1]
  · iexact H1
  iexact H2

/-- The library's body obligation: its two conjunctions over the windows written out one by one are the
    pre- and postcondition above, and its program is the kernel function at the point's staging memrefs. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KRegion1.lean ====
import proofs.«100126_j36189394436483_2_alg».proof.Proof.Gen.KernelIdeal.Launch
import proofs.«100126_j36189394436483_2_alg».proof.Proof.Gen.KernelIdeal.Skeleton
import proofs.«100126_j36189394436483_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second pallas_call (`cc1__mlp_blend_kernel`, pipeline 1) as a region, at any entry contents

The kernel runs on a grid of 32 points over 13 input windows and one output window. Its body reads the ten
weight blocks whole, reads the four unit slabs `[k, :, :]` (k = 0..3) of each of the three rank-3 blocks, and
ends with one store over the whole output block. So what the output's staging buffer holds after the body is a
function of the input blocks alone: the one payload, composed through the intermediate payloads over the loaded
slabs. Everything here is generic in the float instance and in the contents `V` the region is entered at. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not
    moved; the windows are uncut and never idle. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

-- the weight blocks, read whole
abbrev r1_0 : Rect S4x256 := Rect.unit (s := S4x256) ![0, 0] S4x256.size inb_S4x256_S4x256_0_0
abbrev r1_1 : Rect S1x256 := Rect.unit (s := S1x256) ![0, 0] S1x256.size inb_S1x256_S1x256_0_0
abbrev r1_2 : Rect S256x256 := Rect.unit (s := S256x256) ![0, 0] S256x256.size inb_S256x256_S256x256_0_0
abbrev r1_3 : Rect S256x2 := Rect.unit (s := S256x2) ![0, 0] S256x2.size inb_S256x2_S256x2_0_0
abbrev r1_4 : Rect S1x2 := Rect.unit (s := S1x2) ![0, 0] S1x2.size inb_S1x2_S1x2_0_0
-- the four unit slabs of window 0's block
abbrev r1_5 : Rect S4x4096x256 := Rect.unit (s := S4x4096x256) ![0, 0, 0] S1x4096x256.size inb_S4x4096x256_S1x4096x256_0_0_0
abbrev r1_6 : Rect S4x4096x256 := Rect.unit (s := S4x4096x256) ![1, 0, 0] S1x4096x256.size inb_S4x4096x256_S1x4096x256_1_0_0
abbrev r1_7 : Rect S4x4096x256 := Rect.unit (s := S4x4096x256) ![2, 0, 0] S1x4096x256.size inb_S4x4096x256_S1x4096x256_2_0_0
abbrev r1_8 : Rect S4x4096x256 := Rect.unit (s := S4x4096x256) ![3, 0, 0] S1x4096x256.size inb_S4x4096x256_S1x4096x256_3_0_0
-- of window 1's
abbrev r1_9 : Rect S4x4096x4 := Rect.unit (s := S4x4096x4) ![0, 0, 0] S1x4096x4.size inb_S4x4096x4_S1x4096x4_0_0_0
abbrev r1_10 : Rect S4x4096x4 := Rect.unit (s := S4x4096x4) ![1, 0, 0] S1x4096x4.size inb_S4x4096x4_S1x4096x4_1_0_0
abbrev r1_11 : Rect S4x4096x4 := Rect.unit (s := S4x4096x4) ![2, 0, 0] S1x4096x4.size inb_S4x4096x4_S1x4096x4_2_0_0
abbrev r1_12 : Rect S4x4096x4 := Rect.unit (s := S4x4096x4) ![3, 0, 0] S1x4096x4.size inb_S4x4096x4_S1x4096x4_3_0_0
-- of window 2's
abbrev r1_13 : Rect S4x4096x1 := Rect.unit (s := S4x4096x1) ![0, 0, 0] S1x4096x1.size inb_S4x4096x1_S1x4096x1_0_0_0
abbrev r1_14 : Rect S4x4096x1 := Rect.unit (s := S4x4096x1) ![1, 0, 0] S1x4096x1.size inb_S4x4096x1_S1x4096x1_1_0_0
abbrev r1_15 : Rect S4x4096x1 := Rect.unit (s := S4x4096x1) ![2, 0, 0] S1x4096x1.size inb_S4x4096x1_S1x4096x1_2_0_0
abbrev r1_16 : Rect S4x4096x1 := Rect.unit (s := S4x4096x1) ![3, 0, 0] S1x4096x1.size inb_S4x4096x1_S1x4096x1_3_0_0
-- the output block, stored whole
abbrev r1_17 : Rect S4096x2 := Rect.unit (s := S4096x2) ![0, 0] S4096x2.size inb_S4096x2_S4096x2_0_0

/-! ## What the body leaves in the output window's buffer -/

/-- Window 13's staging buffer after the body, from the input windows' blocks: its one store, over the whole
    block. The payload is the skeleton's last payload over the values the four parts hand on: the converted
    weights (from windows 3 to 12), and per slab `k` the blend step over slab `k` of windows 0, 1 and 2,
    each step taking the step before it. -/
def out1_13 (x0 : Vec F S4x4096x256 .bf16) (x1 : Vec F S4x4096x4 .f32) (x2 : Vec F S4x4096x1 .f32) (x3 : Vec F S4x256 .f32) (x4 : Vec F S1x256 .f32) (x5 : Vec F S256x256 .f32) (x6 : Vec F S1x256 .f32) (x7 : Vec F S256x256 .f32) (x8 : Vec F S1x256 .f32) (x9 : Vec F S256x256 .f32) (x10 : Vec F S1x256 .f32) (x11 : Vec F S256x2 .f32) (x12 : Vec F S1x2 .f32) : Vec F S4096x2 .f32 :=
  -- the weights, converted once
  let v2 := k1_pay2 (View.ld x3 r1_0)
  let v4 := k1_pay3 (View.ld x4 r1_1)
  let v6 := k1_pay4 (View.ld x5 r1_2)
  let v8 := k1_pay5 (View.ld x6 r1_1)
  let v10 := k1_pay6 (View.ld x7 r1_2)
  let v12 := k1_pay7 (View.ld x8 r1_1)
  let v14 := k1_pay8 (View.ld x9 r1_2)
  let v16 := k1_pay9 (View.ld x10 r1_1)
  let v18 := k1_pay10 (View.ld x11 r1_3)
  let v20 := k1_pay11 (View.ld x12 r1_4)
  -- slab 0
  let v60 := k1_pay15 v2 v4 v6 v8 v10 v12 v14 v16 v18 v20 (k1_pay12 (F := F)) (k1_pay13 (View.ld x0 r1_5)) (k1_pay14 (View.ld x1 r1_9)) (View.ld x2 r1_13)
  -- slab 1
  let v99 := k1_pay19 v4 v6 v8 v10 v12 v14 v16 v18 v20 v60 (k1_pay16 (View.ld x0 r1_6)) (k1_pay17 (View.ld x2 r1_14)) (k1_pay18 v2 (View.ld x1 r1_10))
  -- slab 2
  let v138 := k1_pay22 v6 v8 v10 v12 v14 v16 v18 v20 v99 (k1_pay20 (View.ld x2 r1_15)) (k1_pay21 v2 v4 (View.ld x0 r1_7) (View.ld x1 r1_11))
  -- slab 3, and the store
  View.canon [⟨r1_17, k1_pay1 v6 v8 v10 v12 v14 v16 v18 v20 v138 (k1_pay23 (View.ld x2 r1_16)) (k1_pay24 v2 v4 (View.ld x0 r1_8) (View.ld x1 r1_12))⟩]

/-- The one store is over the whole block, so it covers it. -/
theorem cover1_13 (p0 : Vec F S4096x2 .f32) (y : S4096x2.Idx) :
    ∃ pc ∈ ([⟨r1_17, p0⟩] : List (View.Piece (Elt F) S4096x2 .f32)), y ∈ pc.1.set :=
  View.cover_of_tiled [⟨r1_17, p0⟩] S4096x2.size (by rfl) y

/-! ## The body's triple -/

set_option maxHeartbeats 1000000 in
/-- The kernel body on whole staging memrefs, the inputs' at contents `xW` and the output's at anything, runs to
    the continuation holding the inputs' as they were and the output's at `out1_13` of the inputs': the printed
    function and its four parts are their skeletons, run operation by operation; every load reads contents the
    body never writes, the last store covers the output block, so what it leaves reads as its canon. -/
theorem sound_kernel1 (c : Dev nD) (E : Set ℕ) (i : grid1.Coords) (arg0 : Memref sig .tc .vmem S4x4096x256 .bf16) (harg0 : arg0.IsWhole) (arg1 : Memref sig .tc .vmem S4x4096x4 .f32) (harg1 : arg1.IsWhole) (arg2 : Memref sig .tc .vmem S4x4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x2 .f32) (harg11 : arg11.IsWhole) (arg12 : Memref sig .tc .vmem S1x2 .f32) (harg12 : arg12.IsWhole) (arg13 : Memref sig .tc .vmem S4096x2 .f32) (harg13 : arg13.IsWhole)
    (x0 : Vec F S4x4096x256 .bf16) (x1 : Vec F S4x4096x4 .f32) (x2 : Vec F S4x4096x1 .f32) (x3 : Vec F S4x256 .f32) (x4 : Vec F S1x256 .f32) (x5 : Vec F S256x256 .f32) (x6 : Vec F S1x256 .f32) (x7 : Vec F S256x256 .f32) (x8 : Vec F S1x256 .f32) (x9 : Vec F S256x256 .f32) (x10 : Vec F S1x256 .f32) (x11 : Vec F S256x2 .f32) (x12 : Vec F S1x2 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ (∃ d, owns (c : Thread nD τ) arg13 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare (out1_13 x0 x1 x2 x3 x4 x5 x6 x7 x8 x9 x10 x11 x12)) -∗ K ⟨⟩))
      ⊢ wp frame (wpE (defs₀ (F := F)) Variants.none c none) E (cc1__mlp_blend_kernel i arg0 harg0 arg1 harg1 arg2 harg2 arg3 harg3 arg4 harg4 arg5 harg5 arg6 harg6 arg7 harg7 arg8 harg8 arg9 harg9 arg10 harg10 arg11 harg11 arg12 harg12 arg13 harg13) K := by
  simp only [cc1__mlp_blend_kernel_eq_skeleton]; unfold cc1__mlp_blend_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover1_13 _)

/-! ## The pipeline's proof data -/

/-- The proof data of pipeline 1 on core `c`: the arrays as the region finds them; after the body at point `t`
    each input's buffer at its block and the output's at `out1_13` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KFoldTab.lean ====
import proofs.«100126_j36189394436483_2_alg».proof.KernelIdeal

/-! Per stretch of host operations of the entry function, in the order of its chain, the references the
    stretch's operations write, one entry per operation, in order. -/

namespace Cert.KernelIdeal.Hand

open Idealize.ShloMosaic

/-- The references `main_part0_ops0`'s 8 operations write. -/
abbrev main_part0_ops0_W : List (Ref sig .tc) :=
  [main_cst, main_cst_0, main_cst_1, main_cst_2, main_cst_3, main_v0, main_v1, main_c]
/-- The references `main_part0_ops1`'s 2 operations write. -/
abbrev main_part0_ops1_W : List (Ref sig .tc) :=
  [main_call0_v0, main_v2]
/-- The references `main_part0_ops2`'s 22 operations write. -/
abbrev main_part0_ops2_W : List (Ref sig .tc) :=
  [main_v3, main_v4, main_v5, main_v6, main_v7, main_v8, main_v9, main_v10, main_v11, main_v12, main_v13, main_v14, main_v15, main_v16, main_v17, main_v18, main_v19, main_v20, main_v21, main_v22, main_v23, main_v24]
/-- The references `main_part0_ops3`'s 6 operations write. -/
abbrev main_part0_ops3_W : List (Ref sig .tc) :=
  [main_v26, main_v27, main_v28, main_v29, main_cst_4, main_cst_5]
/-- The references `main_part0_ops4`'s 6 operations write. -/
abbrev main_part0_ops4_W : List (Ref sig .tc) :=
  [main_call1_v0, main_call1_v1, main_call1_v2, main_call1_v3, main_call1_v4, main_v30]
/-- The references `main_part0_ops5`'s 20 operations write. -/
abbrev main_part0_ops5_W : List (Ref sig .tc) :=
  [main_v31, main_v32, main_cst_6, main_v33, main_v34, main_cst_7, main_v35, main_v36, main_cst_8, main_v37, main_v38, main_cst_9, main_v39, main_v40, main_cst_10, main_v41, main_v42, main_v43, main_c_11, main_c_12]
/-- The references `main_part0_ops6`'s 6 operations write. -/
abbrev main_part0_ops6_W : List (Ref sig .tc) :=
  [main_call2_v0, main_call2_v1, main_call2_v2, main_call2_v3, main_call2_v4, main_v44]
/-- The references `main_part1_ops0`'s 21 operations write. -/
abbrev main_part1_ops0_W : List (Ref sig .tc) :=
  [main_v45, main_v46, main_v47, main_cst_13, main_v48, main_v49, main_cst_14, main_v50, main_v51, main_cst_15, main_v52, main_v53, main_cst_16, main_v54, main_v55, main_cst_17, main_v56, main_v57, main_v58, main_c_18, main_c_19]
/-- The references `main_part1_ops1`'s 6 operations write. -/
abbrev main_part1_ops1_W : List (Ref sig .tc) :=
  [main_call3_v0, main_call3_v1, main_call3_v2, main_call3_v3, main_call3_v4, main_v59]
/-- The references `main_part1_ops2`'s 38 operations write. -/
abbrev main_part1_ops2_W : List (Ref sig .tc) :=
  [main_v60, main_c_20, main_v61, main_v62, main_c_21, main_v63, main_v64, main_v65, main_c_22, main_v66, main_v67, main_c_23, main_v68, main_v69, main_v70, main_v71, main_v72, main_v73, main_v74, main_v75, main_cst_24, main_v76, main_v77, main_cst_25, main_v78, main_v79, main_cst_26, main_v80, main_v81, main_cst_27, main_v82, main_v83, main_v84, main_cst_28, main_v85, main_v86, main_cst_29, main_v87]
/-- The references `main_part2_ops0`'s 36 operations write. -/
abbrev main_part2_ops0_W : List (Ref sig .tc) :=
  [main_v88, main_cst_30, main_v89, main_v90, main_cst_31, main_v91, main_v92, main_v93, main_v94, main_v95, main_v96, main_v97, main_v98, main_v99, main_v100, main_v101, main_v102, main_v103, main_v104, main_v105, main_v106, main_v107, main_v108, main_v109, main_v110, main_cst_32, main_v111, main_v112, main_v113, main_v114, main_v115, main_v116, main_v117, main_v118, main_cst_33, main_cst_34]
/-- The references `main_part2_ops1`'s 6 operations write. -/
abbrev main_part2_ops1_W : List (Ref sig .tc) :=
  [main_call4_v0, main_call4_v1, main_call4_v2, main_call4_v3, main_call4_v4, main_v119]
/-- The references `main_part2_ops2`'s 20 operations write. -/
abbrev main_part2_ops2_W : List (Ref sig .tc) :=
  [main_v120, main_v121, main_cst_35, main_v122, main_v123, main_cst_36, main_v124, main_v125, main_cst_37, main_v126, main_v127, main_cst_38, main_v128, main_v129, main_cst_39, main_v130, main_v131, main_v132, main_c_40, main_c_41]
/-- The references `main_part2_ops3`'s 6 operations write. -/
abbrev main_part2_ops3_W : List (Ref sig .tc) :=
  [main_call5_v0, main_call5_v1, main_call5_v2, main_call5_v3, main_call5_v4, main_v133]
/-- The references `main_part2_ops4`'s 2 operations write. -/
abbrev main_part2_ops4_W : List (Ref sig .tc) :=
  [main_v134, main_v135]
/-- The references `main_part3_ops0`'s 19 operations write. -/
abbrev main_part3_ops0_W : List (Ref sig .tc) :=
  [main_v136, main_cst_42, main_v137, main_v138, main_cst_43, main_v139, main_v140, main_cst_44, main_v141, main_v142, main_cst_45, main_v143, main_v144, main_cst_46, main_v145, main_v146, main_v147, main_c_47, main_c_48]
/-- The references `main_part3_ops1`'s 6 operations write. -/
abbrev main_part3_ops1_W : List (Ref sig .tc) :=
  [main_call6_v0, main_call6_v1, main_call6_v2, main_call6_v3, main_call6_v4, main_v148]
/-- The references `main_part3_ops2`'s 40 operations write. -/
abbrev main_part3_ops2_W : List (Ref sig .tc) :=
  [main_v149, main_c_49, main_v150, main_v151, main_c_50, main_v152, main_v153, main_v154, main_c_51, main_v155, main_v156, main_c_52, main_v157, main_v158, main_v159, main_v160, main_v161, main_v162, main_v163, main_v164, main_cst_53, main_v165, main_v166, main_cst_54, main_v167, main_v168, main_cst_55, main_v169, main_v170, main_cst_56, main_v171, main_v172, main_v173, main_cst_57, main_v174, main_v175, main_cst_58, main_v176, main_v177, main_cst_59]
/-- The references `main_part4_ops0`'s 34 operations write. -/
abbrev main_part4_ops0_W : List (Ref sig .tc) :=
  [main_v178, main_v179, main_cst_60, main_v180, main_v181, main_v182, main_v183, main_v184, main_v185, main_v186, main_v187, main_v188, main_v189, main_v190, main_v191, main_v192, main_v193, main_v194, main_v195, main_v196, main_v197, main_v198, main_v199, main_cst_61, main_v200, main_v201, main_v202, main_v203, main_v204, main_v205, main_v206, main_v207, main_cst_62, main_cst_63]
/-- The references `main_part4_ops1`'s 6 operations write. -/
abbrev main_part4_ops1_W : List (Ref sig .tc) :=
  [main_call7_v0, main_call7_v1, main_call7_v2, main_call7_v3, main_call7_v4, main_v208]
/-- The references `main_part4_ops2`'s 20 operations write. -/
abbrev main_part4_ops2_W : List (Ref sig .tc) :=
  [main_v209, main_v210, main_cst_64, main_v211, main_v212, main_cst_65, main_v213, main_v214, main_cst_66, main_v215, main_v216, main_cst_67, main_v217, main_v218, main_cst_68, main_v219, main_v220, main_v221, main_c_69, main_c_70]
/-- The references `main_part4_ops3`'s 6 operations write. -/
abbrev main_part4_ops3_W : List (Ref sig .tc) :=
  [main_call8_v0, main_call8_v1, main_call8_v2, main_call8_v3, main_call8_v4, main_v222]
/-- The references `main_part4_ops4`'s 4 operations write. -/
abbrev main_part4_ops4_W : List (Ref sig .tc) :=
  [main_v223, main_v224, main_v225, main_cst_71]
/-- The references `main_part5_ops0`'s 17 operations write. -/
abbrev main_part5_ops0_W : List (Ref sig .tc) :=
  [main_v226, main_v227, main_cst_72, main_v228, main_v229, main_cst_73, main_v230, main_v231, main_cst_74, main_v232, main_v233, main_cst_75, main_v234, main_v235, main_v236, main_c_76, main_c_77]
/-- The references `main_part5_ops1`'s 6 operations write. -/
abbrev main_part5_ops1_W : List (Ref sig .tc) :=
  [main_call9_v0, main_call9_v1, main_call9_v2, main_call9_v3, main_call9_v4, main_v237]
/-- The references `main_part5_ops2`'s 42 operations write. -/
abbrev main_part5_ops2_W : List (Ref sig .tc) :=
  [main_v238, main_c_78, main_v239, main_v240, main_c_79, main_v241, main_v242, main_v243, main_c_80, main_v244, main_v245, main_c_81, main_v246, main_v247, main_v248, main_v249, main_v250, main_v251, main_v252, main_v253, main_cst_82, main_v254, main_v255, main_cst_83, main_v256, main_v257, main_cst_84, main_v258, main_v259, main_cst_85, main_v260, main_v261, main_v262, main_cst_86, main_v263, main_v264, main_cst_87, main_v265, main_v266, main_cst_88, main_v267, main_v268]
/-- The references `main_part6_ops0`'s 32 operations write. -/
abbrev main_part6_ops0_W : List (Ref sig .tc) :=
  [main_cst_89, main_v269, main_v270, main_v271, main_v272, main_v273, main_v274, main_v275, main_v276, main_v277, main_v278, main_v279, main_v280, main_v281, main_v282, main_v283, main_v284, main_v285, main_v286, main_v287, main_v288, main_cst_90, main_v289, main_v290, main_v291, main_v292, main_v293, main_v294, main_v295, main_v296, main_cst_91, main_cst_92]
/-- The references `main_part6_ops1`'s 6 operations write. -/
abbrev main_part6_ops1_W : List (Ref sig .tc) :=
  [main_call10_v0, main_call10_v1, main_call10_v2, main_call10_v3, main_call10_v4, main_v297]
/-- The references `main_part6_ops2`'s 20 operations write. -/
abbrev main_part6_ops2_W : List (Ref sig .tc) :=
  [main_v298, main_v299, main_cst_93, main_v300, main_v301, main_cst_94, main_v302, main_v303, main_cst_95, main_v304, main_v305, main_cst_96, main_v306, main_v307, main_cst_97, main_v308, main_v309, main_v310, main_c_98, main_c_99]
/-- The references `main_part6_ops3`'s 6 operations write. -/
abbrev main_part6_ops3_W : List (Ref sig .tc) :=
  [main_call11_v0, main_call11_v1, main_call11_v2, main_call11_v3, main_call11_v4, main_v311]
/-- The references `main_part6_ops4`'s 6 operations write. -/
abbrev main_part6_ops4_W : List (Ref sig .tc) :=
  [main_v312, main_v313, main_v314, main_cst_100, main_v315, main_v316]
/-- The references `main_part7_ops0`'s 15 operations write. -/
abbrev main_part7_ops0_W : List (Ref sig .tc) :=
  [main_cst_101, main_v317, main_v318, main_cst_102, main_v319, main_v320, main_cst_103, main_v321, main_v322, main_cst_104, main_v323, main_v324, main_v325, main_c_105, main_c_106]
/-- The references `main_part7_ops1`'s 6 operations write. -/
abbrev main_part7_ops1_W : List (Ref sig .tc) :=
  [main_call12_v0, main_call12_v1, main_call12_v2, main_call12_v3, main_call12_v4, main_v326]
/-- The references `main_part7_ops2`'s 44 operations write. -/
abbrev main_part7_ops2_W : List (Ref sig .tc) :=
  [main_v327, main_c_107, main_v328, main_v329, main_c_108, main_v330, main_v331, main_v332, main_c_109, main_v333, main_v334, main_c_110, main_v335, main_v336, main_v337, main_v338, main_v339, main_v340, main_v341, main_v342, main_cst_111, main_v343, main_v344, main_cst_112, main_v345, main_v346, main_cst_113, main_v347, main_v348, main_cst_114, main_v349, main_v350, main_v351, main_cst_115, main_v352, main_v353, main_cst_116, main_v354, main_v355, main_cst_117, main_v356, main_v357, main_cst_118, main_v358]
/-- The references `main_part8_ops0`'s 52 operations write. -/
abbrev main_part8_ops0_W : List (Ref sig .tc) :=
  [main_v359, main_v360, main_v361, main_v362, main_v363, main_v364, main_v365, main_v366, main_v367, main_v368, main_v369, main_v370, main_v371, main_v372, main_v373, main_v374, main_v375, main_v376, main_v377, main_cst_119, main_v378, main_v379, main_v380, main_v381, main_v382, main_v383, main_v384, main_v385, main_v386, main_v387, main_v388, main_v389, main_v390, main_v391, main_v392, main_v393, main_v394, main_v395, main_v396, main_v397, main_cst_120, main_v398, main_v399, main_v400, main_v401, main_v402, main_v403, main_v404, main_v405, main_v406, main_v407, main_v408]
/-- The references `main_part8_ops1`'s 6 operations write. -/
abbrev main_part8_ops1_W : List (Ref sig .tc) :=
  [main_v410, main_v411, main_cst_121, main_v412, main_cst_122, main_v413]

end Cert.KernelIdeal.Hand
-- ==== Proof.KFold.lean ====
import proofs.«100126_j36189394436483_2_alg».proof.Proof.Gen.KernelIdeal.Launch
import proofs.«100126_j36189394436483_2_alg».proof.Proof.KRegion0
import proofs.«100126_j36189394436483_2_alg».proof.Proof.KRegion1
import proofs.«100126_j36189394436483_2_alg».proof.Proof.KFoldTab
import Idealize.ShloMosaic.Lib.Pipeline.FrameBody
import Idealize.ShloMosaic.Lib.Pipeline.RegionsLoop
import Idealize.ShloMosaic.Lib.Pipeline.FrameSuffix

/-!
# The run of the whole entry function

The entry function is a chain of 38 items: 36 stretches of host operations and two kernel regions. The buffer
contents between two items are a fold from the launch memory: a stretch rewrites the buffers its operations
write, a region leaves its windows' arrays at what its write-backs fold to and every other buffer as entered.
Over that fold every weakly fair execution terminates with nothing faulting, the final memory holds every
unscoped buffer at the last valuation of the fold, and — no item writing an argument array — the thirteen
argument arrays end as launched. Everything here is generic in the float instance.
-/

set_option maxRecDepth 16384

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items: a fold from the launch memory -/

/-- Core `c`'s buffers at launch. -/
abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part0_ops1 (W1 m ρ c)
/-- What the first region is entered from. -/
abbrev W3 : Dev nD → Valuation τ sig (Elt F) := fun c => StableHlo.after main_part0_ops2 (W2 m ρ c)
/-- The same, read at the TensorCore's references: what the first region's proof data take. -/
abbrev Ventry0 : (c : Dev nD) → (b : Ref sig .tc) → Buf (Elt F) ((c : Thread nD τ).loc b) := fun c b => W3 m ρ c b
/-- At the first region's exit: each of its windows' arrays at what the pipeline leaves there (an input as
    entered, the output with its write-backs folded), every other buffer as entered. -/
def W4 (c : Dev nD) : Valuation τ sig (Elt F) :=
  Pipeline.withArrays spec0 c (W3 m ρ c) fun w => (dat0 (Ventry0 m ρ) c).arrAt w cfg0.N
theorem W4_arr (c : Dev nD) (w : Fin cfg0.W) :
    W4 m ρ c (Proc.devRef .tc (Pipeline.arrRef spec0 w)) = (dat0 (Ventry0 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev Wexit0 : Dev nD → Valuation τ sig (Elt F) := W4 m ρ
theorem Wexit0_arr (c : Dev nD) (w : Fin cfg0.W) :
    Wexit0 m ρ c (Proc.devRef .tc (Pipeline.arrRef spec0 w)) = (dat0 (Ventry0 m ρ) c).arrAt w cfg0.N := W4_arr m ρ c w
abbrev W5 : Dev nD → Valuation τ sig (Elt F) := fun c => StableHlo.after main_part0_ops3 (W4 m ρ c)
abbrev W6 : Dev nD → Valuation τ sig (Elt F) := fun c => StableHlo.after main_part0_ops4 (W5 m ρ c)
abbrev W7 : Dev nD → Valuation τ sig (Elt F) := fun c => StableHlo.after main_part0_ops5 (W6 m ρ c)
abbrev W8 : Dev nD → Valuation τ sig (Elt F) := fun c => StableHlo.after main_part0_ops6 (W7 m ρ c)
abbrev W9 : Dev nD → Valuation τ sig (Elt F) := fun c => StableHlo.after main_part1_ops0 (W8 m ρ c)
abbrev W10 : Dev nD → Valuation τ sig (Elt F) := fun c => StableHlo.after main_part1_ops1 (W9 m ρ c)
abbrev W11 : Dev nD → Valuation τ sig (Elt F) := fun c => StableHlo.after main_part1_ops2 (W10 m ρ c)
abbrev W12 : Dev nD → Valuation τ sig (Elt F) := fun c => StableHlo.after main_part2_ops0 (W11 m ρ c)
abbrev W13 : Dev nD → Valuation τ sig (Elt F) := fun c => StableHlo.after main_part2_ops1 (W12 m ρ c)
abbrev W14 : Dev nD → Valuation τ sig (Elt F) := fun c => StableHlo.after main_part2_ops2 (W13 m ρ c)
abbrev W15 : Dev nD → Valuation τ sig (Elt F) := fun c => StableHlo.after main_part2_ops3 (W14 m ρ c)
abbrev W16 : Dev nD → Valuation τ sig (Elt F) := fun c => StableHlo.after main_part2_ops4 (W15 m ρ c)
abbrev W17 : Dev nD → Valuation τ sig (Elt F) := fun c => StableHlo.after main_part3_ops0 (W16 m ρ c)
abbrev W18 : Dev nD → Valuation τ sig (Elt F) := fun c => StableHlo.after main_part3_ops1 (W17 m ρ c)
abbrev W19 : Dev nD → Valuation τ sig (Elt F) := fun c => StableHlo.after main_part3_ops2 (W18 m ρ c)
abbrev W20 : Dev nD → Valuation τ sig (Elt F) := fun c => StableHlo.after main_part4_ops0 (W19 m ρ c)
abbrev W21 : Dev nD → Valuation τ sig (Elt F) := fun c => StableHlo.after main_part4_ops1 (W20 m ρ c)
abbrev W22 : Dev nD → Valuation τ sig (Elt F) := fun c => StableHlo.after main_part4_ops2 (W21 m ρ c)
abbrev W23 : Dev nD → Valuation τ sig (Elt F) := fun c => StableHlo.after main_part4_ops3 (W22 m ρ c)
abbrev W24 : Dev nD → Valuation τ sig (Elt F) := fun c => StableHlo.after main_part4_ops4 (W23 m ρ c)
abbrev W25 : Dev nD → Valuation τ sig (Elt F) := fun c => StableHlo.after main_part5_ops0 (W24 m ρ c)
abbrev W26 : Dev nD → Valuation τ sig (Elt F) := fun c => StableHlo.after main_part5_ops1 (W25 m ρ c)
abbrev W27 : Dev nD → Valuation τ sig (Elt F) := fun c => StableHlo.after main_part5_ops2 (W26 m ρ c)
abbrev W28 : Dev nD → Valuation τ sig (Elt F) := fun c => StableHlo.after main_part6_ops0 (W27 m ρ c)
abbrev W29 : Dev nD → Valuation τ sig (Elt F) := fun c => StableHlo.after main_part6_ops1 (W28 m ρ c)
abbrev W30 : Dev nD → Valuation τ sig (Elt F) := fun c => StableHlo.after main_part6_ops2 (W29 m ρ c)
abbrev W31 : Dev nD → Valuation τ sig (Elt F) := fun c => StableHlo.after main_part6_ops3 (W30 m ρ c)
abbrev W32 : Dev nD → Valuation τ sig (Elt F) := fun c => StableHlo.after main_part6_ops4 (W31 m ρ c)
abbrev W33 : Dev nD → Valuation τ sig (Elt F) := fun c => StableHlo.after main_part7_ops0 (W32 m ρ c)
abbrev W34 : Dev nD → Valuation τ sig (Elt F) := fun c => StableHlo.after main_part7_ops1 (W33 m ρ c)
abbrev W35 : Dev nD → Valuation τ sig (Elt F) := fun c => StableHlo.after main_part7_ops2 (W34 m ρ c)
/-- What the second region is entered from. -/
abbrev W36 : Dev nD → Valuation τ sig (Elt F) := fun c => StableHlo.after main_part8_ops0 (W35 m ρ c)
/-- The same, read at the TensorCore's references: what the second region's proof data take. -/
abbrev Ventry1 : (c : Dev nD) → (b : Ref sig .tc) → Buf (Elt F) ((c : Thread nD τ).loc b) := fun c b => W36 m ρ c b
/-- At the second region's exit, as at the first's. -/
def W37 (c : Dev nD) : Valuation τ sig (Elt F) :=
  Pipeline.withArrays spec1 c (W36 m ρ c) fun w => (dat1 (Ventry1 m ρ) c).arrAt w cfg1.N
theorem W37_arr (c : Dev nD) (w : Fin cfg1.W) :
    W37 m ρ c (Proc.devRef .tc (Pipeline.arrRef spec1 w)) = (dat1 (Ventry1 m ρ) c).arrAt w cfg1.N := by
  unfold W37; exact Pipeline.withArrays_arr spec1 launch1.win.arr_inj c _ _ w
theorem W37_of_ne (c : Dev nD) (b : Ref sig .tc) (hb : ∀ w, Pipeline.arrRef spec1 w ≠ b) :
    W37 m ρ c (Proc.devRef .tc b) = W36 m ρ c (Proc.devRef .tc b) := by
  unfold W37; exact Pipeline.withArrays_of_ne spec1 c _ _ b hb
abbrev Wexit1 : Dev nD → Valuation τ sig (Elt F) := W37 m ρ
theorem Wexit1_arr (c : Dev nD) (w : Fin cfg1.W) :
    Wexit1 m ρ c (Proc.devRef .tc (Pipeline.arrRef spec1 w)) = (dat1 (Ventry1 m ρ) c).arrAt w cfg1.N := W37_arr m ρ c w
/-- After the last stretch: what the entry function returns from. -/
abbrev W38 : Dev nD → Valuation τ sig (Elt F) := fun c => StableHlo.after main_part8_ops1 (W37 m ρ c)
abbrev Wend : Dev nD → Valuation τ sig (Elt F) := W38 m ρ

/-! ## What the stretches write

Per stretch two facts, each one pass over its operations: none allocates, and each writes a reference of the
stretch's list. -/

/-- An operation writing the one reference `y`, `y` in the list, writes inside the list. -/
theorem sub_of_mem {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Operation by operation, no buffer is allocated. -/
local macro "no_alloc" : tactic => `(tactic| (simp only [List.Forall]; repeat' constructor))
/-- Operation by operation: what a builder writes is the singleton of its result, which the list holds. -/
local macro "writes_in" : tactic => `(tactic| (
  simp only [List.Forall]
  repeat' apply And.intro
  all_goals (
    simp only [StableHlo.nullary_writes, StableHlo.unary_writes, StableHlo.binary_writes, StableHlo.ternary_writes,
      StableHlo.quaternary_writes, StableHlo.reshape_writes, StableHlo.nary_writes]
    exact sub_of_mem _ (by decide))))

theorem main_part0_ops0_fresh : (main_part0_ops0 : List (HloOp τ sig (Elt F))).Forall fun op => op.fresh = ∅ := by no_alloc
theorem main_part0_ops1_fresh : (main_part0_ops1 : List (HloOp τ sig (Elt F))).Forall fun op => op.fresh = ∅ := by no_alloc
theorem main_part0_ops2_fresh : (main_part0_ops2 : List (HloOp τ sig (Elt F))).Forall fun op => op.fresh = ∅ := by no_alloc
theorem main_part0_ops3_fresh : (main_part0_ops3 : List (HloOp τ sig (Elt F))).Forall fun op => op.fresh = ∅ := by no_alloc
theorem main_part0_ops4_fresh : (main_part0_ops4 : List (HloOp τ sig (Elt F))).Forall fun op => op.fresh = ∅ := by no_alloc
theorem main_part0_ops5_fresh : (main_part0_ops5 : List (HloOp τ sig (Elt F))).Forall fun op => op.fresh = ∅ := by no_alloc
theorem main_part0_ops6_fresh : (main_part0_ops6 : List (HloOp τ sig (Elt F))).Forall fun op => op.fresh = ∅ := by no_alloc
theorem main_part1_ops0_fresh : (main_part1_ops0 : List (HloOp τ sig (Elt F))).Forall fun op => op.fresh = ∅ := by no_alloc
theorem main_part1_ops1_fresh : (main_part1_ops1 : List (HloOp τ sig (Elt F))).Forall fun op => op.fresh = ∅ := by no_alloc
theorem main_part1_ops2_fresh : (main_part1_ops2 : List (HloOp τ sig (Elt F))).Forall fun op => op.fresh = ∅ := by no_alloc
theorem main_part2_ops0_fresh : (main_part2_ops0 : List (HloOp τ sig (Elt F))).Forall fun op => op.fresh = ∅ := by no_alloc
theorem main_part2_ops1_fresh : (main_part2_ops1 : List (HloOp τ sig (Elt F))).Forall fun op => op.fresh = ∅ := by no_alloc
theorem main_part2_ops2_fresh : (main_part2_ops2 : List (HloOp τ sig (Elt F))).Forall fun op => op.fresh = ∅ := by no_alloc
theorem main_part2_ops3_fresh : (main_part2_ops3 : List (HloOp τ sig (Elt F))).Forall fun op => op.fresh = ∅ := by no_alloc
theorem main_part2_ops4_fresh : (main_part2_ops4 : List (HloOp τ sig (Elt F))).Forall fun op => op.fresh = ∅ := by no_alloc
theorem main_part3_ops0_fresh : (main_part3_ops0 : List (HloOp τ sig (Elt F))).Forall fun op => op.fresh = ∅ := by no_alloc
theorem main_part3_ops1_fresh : (main_part3_ops1 : List (HloOp τ sig (Elt F))).Forall fun op => op.fresh = ∅ := by no_alloc
theorem main_part3_ops2_fresh : (main_part3_ops2 : List (HloOp τ sig (Elt F))).Forall fun op => op.fresh = ∅ := by no_alloc
theorem main_part4_ops0_fresh : (main_part4_ops0 : List (HloOp τ sig (Elt F))).Forall fun op => op.fresh = ∅ := by no_alloc
theorem main_part4_ops1_fresh : (main_part4_ops1 : List (HloOp τ sig (Elt F))).Forall fun op => op.fresh = ∅ := by no_alloc
theorem main_part4_ops2_fresh : (main_part4_ops2 : List (HloOp τ sig (Elt F))).Forall fun op => op.fresh = ∅ := by no_alloc
theorem main_part4_ops3_fresh : (main_part4_ops3 : List (HloOp τ sig (Elt F))).Forall fun op => op.fresh = ∅ := by no_alloc
theorem main_part4_ops4_fresh : (main_part4_ops4 : List (HloOp τ sig (Elt F))).Forall fun op => op.fresh = ∅ := by no_alloc
theorem main_part5_ops0_fresh : (main_part5_ops0 : List (HloOp τ sig (Elt F))).Forall fun op => op.fresh = ∅ := by no_alloc
theorem main_part5_ops1_fresh : (main_part5_ops1 : List (HloOp τ sig (Elt F))).Forall fun op => op.fresh = ∅ := by no_alloc
theorem main_part5_ops2_fresh : (main_part5_ops2 : List (HloOp τ sig (Elt F))).Forall fun op => op.fresh = ∅ := by no_alloc
theorem main_part6_ops0_fresh : (main_part6_ops0 : List (HloOp τ sig (Elt F))).Forall fun op => op.fresh = ∅ := by no_alloc
theorem main_part6_ops1_fresh : (main_part6_ops1 : List (HloOp τ sig (Elt F))).Forall fun op => op.fresh = ∅ := by no_alloc
theorem main_part6_ops2_fresh : (main_part6_ops2 : List (HloOp τ sig (Elt F))).Forall fun op => op.fresh = ∅ := by no_alloc
theorem main_part6_ops3_fresh : (main_part6_ops3 : List (HloOp τ sig (Elt F))).Forall fun op => op.fresh = ∅ := by no_alloc
theorem main_part6_ops4_fresh : (main_part6_ops4 : List (HloOp τ sig (Elt F))).Forall fun op => op.fresh = ∅ := by no_alloc
theorem main_part7_ops0_fresh : (main_part7_ops0 : List (HloOp τ sig (Elt F))).Forall fun op => op.fresh = ∅ := by no_alloc
theorem main_part7_ops1_fresh : (main_part7_ops1 : List (HloOp τ sig (Elt F))).Forall fun op => op.fresh = ∅ := by no_alloc
theorem main_part7_ops2_fresh : (main_part7_ops2 : List (HloOp τ sig (Elt F))).Forall fun op => op.fresh = ∅ := by no_alloc
theorem main_part8_ops0_fresh : (main_part8_ops0 : List (HloOp τ sig (Elt F))).Forall fun op => op.fresh = ∅ := by no_alloc
theorem main_part8_ops1_fresh : (main_part8_ops1 : List (HloOp τ sig (Elt F))).Forall fun op => op.fresh = ∅ := by no_alloc

theorem main_part0_ops0_writes : (main_part0_ops0 : List (HloOp τ sig (Elt F))).Forall fun op => op.writes ⊆ (main_part0_ops0_W.map (Proc.devRef (τ := τ) .tc)).toFinset := by writes_in
theorem main_part0_ops1_writes : (main_part0_ops1 : List (HloOp τ sig (Elt F))).Forall fun op => op.writes ⊆ (main_part0_ops1_W.map (Proc.devRef (τ := τ) .tc)).toFinset := by writes_in
theorem main_part0_ops2_writes : (main_part0_ops2 : List (HloOp τ sig (Elt F))).Forall fun op => op.writes ⊆ (main_part0_ops2_W.map (Proc.devRef (τ := τ) .tc)).toFinset := by writes_in
theorem main_part0_ops3_writes : (main_part0_ops3 : List (HloOp τ sig (Elt F))).Forall fun op => op.writes ⊆ (main_part0_ops3_W.map (Proc.devRef (τ := τ) .tc)).toFinset := by writes_in
theorem main_part0_ops4_writes : (main_part0_ops4 : List (HloOp τ sig (Elt F))).Forall fun op => op.writes ⊆ (main_part0_ops4_W.map (Proc.devRef (τ := τ) .tc)).toFinset := by writes_in
theorem main_part0_ops5_writes : (main_part0_ops5 : List (HloOp τ sig (Elt F))).Forall fun op => op.writes ⊆ (main_part0_ops5_W.map (Proc.devRef (τ := τ) .tc)).toFinset := by writes_in
theorem main_part0_ops6_writes : (main_part0_ops6 : List (HloOp τ sig (Elt F))).Forall fun op => op.writes ⊆ (main_part0_ops6_W.map (Proc.devRef (τ := τ) .tc)).toFinset := by writes_in
theorem main_part1_ops0_writes : (main_part1_ops0 : List (HloOp τ sig (Elt F))).Forall fun op => op.writes ⊆ (main_part1_ops0_W.map (Proc.devRef (τ := τ) .tc)).toFinset := by writes_in
theorem main_part1_ops1_writes : (main_part1_ops1 : List (HloOp τ sig (Elt F))).Forall fun op => op.writes ⊆ (main_part1_ops1_W.map (Proc.devRef (τ := τ) .tc)).toFinset := by writes_in
theorem main_part1_ops2_writes : (main_part1_ops2 : List (HloOp τ sig (Elt F))).Forall fun op => op.writes ⊆ (main_part1_ops2_W.map (Proc.devRef (τ := τ) .tc)).toFinset := by writes_in
theorem main_part2_ops0_writes : (main_part2_ops0 : List (HloOp τ sig (Elt F))).Forall fun op => op.writes ⊆ (main_part2_ops0_W.map (Proc.devRef (τ := τ) .tc)).toFinset := by writes_in
theorem main_part2_ops1_writes : (main_part2_ops1 : List (HloOp τ sig (Elt F))).Forall fun op => op.writes ⊆ (main_part2_ops1_W.map (Proc.devRef (τ := τ) .tc)).toFinset := by writes_in
theorem main_part2_ops2_writes : (main_part2_ops2 : List (HloOp τ sig (Elt F))).Forall fun op => op.writes ⊆ (main_part2_ops2_W.map (Proc.devRef (τ := τ) .tc)).toFinset := by writes_in
theorem main_part2_ops3_writes : (main_part2_ops3 : List (HloOp τ sig (Elt F))).Forall fun op => op.writes ⊆ (main_part2_ops3_W.map (Proc.devRef (τ := τ) .tc)).toFinset := by writes_in
theorem main_part2_ops4_writes : (main_part2_ops4 : List (HloOp τ sig (Elt F))).Forall fun op => op.writes ⊆ (main_part2_ops4_W.map (Proc.devRef (τ := τ) .tc)).toFinset := by writes_in
theorem main_part3_ops0_writes : (main_part3_ops0 : List (HloOp τ sig (Elt F))).Forall fun op => op.writes ⊆ (main_part3_ops0_W.map (Proc.devRef (τ := τ) .tc)).toFinset := by writes_in
theorem main_part3_ops1_writes : (main_part3_ops1 : List (HloOp τ sig (Elt F))).Forall fun op => op.writes ⊆ (main_part3_ops1_W.map (Proc.devRef (τ := τ) .tc)).toFinset := by writes_in
theorem main_part3_ops2_writes : (main_part3_ops2 : List (HloOp τ sig (Elt F))).Forall fun op => op.writes ⊆ (main_part3_ops2_W.map (Proc.devRef (τ := τ) .tc)).toFinset := by writes_in
theorem main_part4_ops0_writes : (main_part4_ops0 : List (HloOp τ sig (Elt F))).Forall fun op => op.writes ⊆ (main_part4_ops0_W.map (Proc.devRef (τ := τ) .tc)).toFinset := by writes_in
theorem main_part4_ops1_writes : (main_part4_ops1 : List (HloOp τ sig (Elt F))).Forall fun op => op.writes ⊆ (main_part4_ops1_W.map (Proc.devRef (τ := τ) .tc)).toFinset := by writes_in
theorem main_part4_ops2_writes : (main_part4_ops2 : List (HloOp τ sig (Elt F))).Forall fun op => op.writes ⊆ (main_part4_ops2_W.map (Proc.devRef (τ := τ) .tc)).toFinset := by writes_in
theorem main_part4_ops3_writes : (main_part4_ops3 : List (HloOp τ sig (Elt F))).Forall fun op => op.writes ⊆ (main_part4_ops3_W.map (Proc.devRef (τ := τ) .tc)).toFinset := by writes_in
theorem main_part4_ops4_writes : (main_part4_ops4 : List (HloOp τ sig (Elt F))).Forall fun op => op.writes ⊆ (main_part4_ops4_W.map (Proc.devRef (τ := τ) .tc)).toFinset := by writes_in
theorem main_part5_ops0_writes : (main_part5_ops0 : List (HloOp τ sig (Elt F))).Forall fun op => op.writes ⊆ (main_part5_ops0_W.map (Proc.devRef (τ := τ) .tc)).toFinset := by writes_in
theorem main_part5_ops1_writes : (main_part5_ops1 : List (HloOp τ sig (Elt F))).Forall fun op => op.writes ⊆ (main_part5_ops1_W.map (Proc.devRef (τ := τ) .tc)).toFinset := by writes_in
theorem main_part5_ops2_writes : (main_part5_ops2 : List (HloOp τ sig (Elt F))).Forall fun op => op.writes ⊆ (main_part5_ops2_W.map (Proc.devRef (τ := τ) .tc)).toFinset := by writes_in
theorem main_part6_ops0_writes : (main_part6_ops0 : List (HloOp τ sig (Elt F))).Forall fun op => op.writes ⊆ (main_part6_ops0_W.map (Proc.devRef (τ := τ) .tc)).toFinset := by writes_in
theorem main_part6_ops1_writes : (main_part6_ops1 : List (HloOp τ sig (Elt F))).Forall fun op => op.writes ⊆ (main_part6_ops1_W.map (Proc.devRef (τ := τ) .tc)).toFinset := by writes_in
theorem main_part6_ops2_writes : (main_part6_ops2 : List (HloOp τ sig (Elt F))).Forall fun op => op.writes ⊆ (main_part6_ops2_W.map (Proc.devRef (τ := τ) .tc)).toFinset := by writes_in
theorem main_part6_ops3_writes : (main_part6_ops3 : List (HloOp τ sig (Elt F))).Forall fun op => op.writes ⊆ (main_part6_ops3_W.map (Proc.devRef (τ := τ) .tc)).toFinset := by writes_in
theorem main_part6_ops4_writes : (main_part6_ops4 : List (HloOp τ sig (Elt F))).Forall fun op => op.writes ⊆ (main_part6_ops4_W.map (Proc.devRef (τ := τ) .tc)).toFinset := by writes_in
theorem main_part7_ops0_writes : (main_part7_ops0 : List (HloOp τ sig (Elt F))).Forall fun op => op.writes ⊆ (main_part7_ops0_W.map (Proc.devRef (τ := τ) .tc)).toFinset := by writes_in
theorem main_part7_ops1_writes : (main_part7_ops1 : List (HloOp τ sig (Elt F))).Forall fun op => op.writes ⊆ (main_part7_ops1_W.map (Proc.devRef (τ := τ) .tc)).toFinset := by writes_in
theorem main_part7_ops2_writes : (main_part7_ops2 : List (HloOp τ sig (Elt F))).Forall fun op => op.writes ⊆ (main_part7_ops2_W.map (Proc.devRef (τ := τ) .tc)).toFinset := by writes_in
theorem main_part8_ops0_writes : (main_part8_ops0 : List (HloOp τ sig (Elt F))).Forall fun op => op.writes ⊆ (main_part8_ops0_W.map (Proc.devRef (τ := τ) .tc)).toFinset := by writes_in
theorem main_part8_ops1_writes : (main_part8_ops1 : List (HloOp τ sig (Elt F))).Forall fun op => op.writes ⊆ (main_part8_ops1_W.map (Proc.devRef (τ := τ) .tc)).toFinset := by writes_in

/-! ## No item writes an argument array

A reference that no stretch's list holds and that is no array of the first region's windows, and at the second
region either no array of its windows or the array of an INPUT window, holds at the end what it held at launch:
each stretch skips it, the first region's exit leaves it as entered, the second's either likewise or — an input
window's array is never written back — at the proof data's entry array, which is the entry contents. -/

theorem Wexit0_of_ne (c : Dev nD) (b : Ref sig .tc) (hb : ∀ w, Pipeline.arrRef spec0 w ≠ b) :
    Wexit0 m ρ c (Proc.devRef .tc b) = W3 m ρ c (Proc.devRef .tc b) := W4_of_ne m ρ c b hb
theorem Wexit1_of_ne (c : Dev nD) (b : Ref sig .tc) (hb : ∀ w, Pipeline.arrRef spec1 w ≠ b) :
    Wexit1 m ρ c (Proc.devRef .tc b) = W36 m ρ c (Proc.devRef .tc b) := W37_of_ne m ρ c b hb

/-- The stretches' lists, in the chain's order. -/
abbrev stretchWs : List (List (Ref sig .tc)) :=
  [main_part0_ops0_W, main_part0_ops1_W, main_part0_ops2_W, main_part0_ops3_W, main_part0_ops4_W, main_part0_ops5_W,
   main_part0_ops6_W, main_part1_ops0_W, main_part1_ops1_W, main_part1_ops2_W, main_part2_ops0_W, main_part2_ops1_W,
   main_part2_ops2_W, main_part2_ops3_W, main_part2_ops4_W, main_part3_ops0_W, main_part3_ops1_W, main_part3_ops2_W,
   main_part4_ops0_W, main_part4_ops1_W, main_part4_ops2_W, main_part4_ops3_W, main_part4_ops4_W, main_part5_ops0_W,
   main_part5_ops1_W, main_part5_ops2_W, main_part6_ops0_W, main_part6_ops1_W, main_part6_ops2_W, main_part6_ops3_W,
   main_part6_ops4_W, main_part7_ops0_W, main_part7_ops1_W, main_part7_ops2_W, main_part8_ops0_W, main_part8_ops1_W]

theorem Wend_of_unwritten (c : Dev nD) (a : Ref sig .tc) (h : ∀ L ∈ stretchWs, a ∉ L)
    (h0 : ∀ w, Pipeline.arrRef spec0 w ≠ a)
    (h1 : (∀ w, Pipeline.arrRef spec1 w ≠ a) ∨ ∃ w, (cfg1.win w).isOut = false ∧ Pipeline.arrRef spec1 w = a) :
    Wend m ρ c (Proc.devRef .tc a) = m ((c : Thread nD τ).loc a) := by
  have h' := List.forall_iff_forall_mem.mpr h
  simp only [stretchWs, List.Forall] at h'
  obtain ⟨n0, n1, n2, n3, n4, n5, n6, n7, n8, n9, n10, n11, n12, n13, n14, n15, n16, n17, n18, n19, n20, n21, n22, n23,
    n24, n25, n26, n27, n28, n29, n30, n31, n32, n33, n34, n35⟩ := h'
  -- up to the second region's entry: 32 stretches back to the first region's exit, that exit, 3 stretches to the launch
  have e36 : W36 m ρ c (Proc.devRef .tc a) = m ((c : Thread nD τ).loc a) :=
    (StableHlo.after_of_writes_sub main_part8_ops0 _ main_part8_ops0_writes n34).trans <|
    (StableHlo.after_of_writes_sub main_part7_ops2 _ main_part7_ops2_writes n33).trans <|
    (StableHlo.after_of_writes_sub main_part7_ops1 _ main_part7_ops1_writes n32).trans <|
    (StableHlo.after_of_writes_sub main_part7_ops0 _ main_part7_ops0_writes n31).trans <|
    (StableHlo.after_of_writes_sub main_part6_ops4 _ main_part6_ops4_writes n30).trans <|
    (StableHlo.after_of_writes_sub main_part6_ops3 _ main_part6_ops3_writes n29).trans <|
    (StableHlo.after_of_writes_sub main_part6_ops2 _ main_part6_ops2_writes n28).trans <|
    (StableHlo.after_of_writes_sub main_part6_ops1 _ main_part6_ops1_writes n27).trans <|
    (StableHlo.after_of_writes_sub main_part6_ops0 _ main_part6_ops0_writes n26).trans <|
    (StableHlo.after_of_writes_sub main_part5_ops2 _ main_part5_ops2_writes n25).trans <|
    (StableHlo.after_of_writes_sub main_part5_ops1 _ main_part5_ops1_writes n24).trans <|
    (StableHlo.after_of_writes_sub main_part5_ops0 _ main_part5_ops0_writes n23).trans <|
    (StableHlo.after_of_writes_sub main_part4_ops4 _ main_part4_ops4_writes n22).trans <|
    (StableHlo.after_of_writes_sub main_part4_ops3 _ main_part4_ops3_writes n21).trans <|
    (StableHlo.after_of_writes_sub main_part4_ops2 _ main_part4_ops2_writes n20).trans <|
    (StableHlo.after_of_writes_sub main_part4_ops1 _ main_part4_ops1_writes n19).trans <|
    (StableHlo.after_of_writes_sub main_part4_ops0 _ main_part4_ops0_writes n18).trans <|
    (StableHlo.after_of_writes_sub main_part3_ops2 _ main_part3_ops2_writes n17).trans <|
    (StableHlo.after_of_writes_sub main_part3_ops1 _ main_part3_ops1_writes n16).trans <|
    (StableHlo.after_of_writes_sub main_part3_ops0 _ main_part3_ops0_writes n15).trans <|
    (StableHlo.after_of_writes_sub main_part2_ops4 _ main_part2_ops4_writes n14).trans <|
    (StableHlo.after_of_writes_sub main_part2_ops3 _ main_part2_ops3_writes n13).trans <|
    (StableHlo.after_of_writes_sub main_part2_ops2 _ main_part2_ops2_writes n12).trans <|
    (StableHlo.after_of_writes_sub main_part2_ops1 _ main_part2_ops1_writes n11).trans <|
    (StableHlo.after_of_writes_sub main_part2_ops0 _ main_part2_ops0_writes n10).trans <|
    (StableHlo.after_of_writes_sub main_part1_ops2 _ main_part1_ops2_writes n9).trans <|
    (StableHlo.after_of_writes_sub main_part1_ops1 _ main_part1_ops1_writes n8).trans <|
    (StableHlo.after_of_writes_sub main_part1_ops0 _ main_part1_ops0_writes n7).trans <|
    (StableHlo.after_of_writes_sub main_part0_ops6 _ main_part0_ops6_writes n6).trans <|
    (StableHlo.after_of_writes_sub main_part0_ops5 _ main_part0_ops5_writes n5).trans <|
    (StableHlo.after_of_writes_sub main_part0_ops4 _ main_part0_ops4_writes n4).trans <|
    (StableHlo.after_of_writes_sub main_part0_ops3 _ main_part0_ops3_writes n3).trans <|
    (W4_of_ne m ρ c a h0).trans <|
    (StableHlo.after_of_writes_sub main_part0_ops2 _ main_part0_ops2_writes n2).trans <|
    (StableHlo.after_of_writes_sub main_part0_ops1 _ main_part0_ops1_writes n1).trans <|
    (StableHlo.after_of_writes_sub main_part0_ops0 _ main_part0_ops0_writes n0).trans rfl
  -- across the second region
  have e37 : W37 m ρ c (Proc.devRef .tc a) = W36 m ρ c (Proc.devRef .tc a) := by
    rcases h1 with h1 | ⟨w, hin, hw⟩
    · exact W37_of_ne m ρ c a h1
    · subst hw
      exact (W37_arr m ρ c w).trans (((dat1 (Ventry1 m ρ) c).arrAt_in w hin _).trans (A_eq1 (Ventry1 m ρ) c w))
  exact (StableHlo.after_of_writes_sub main_part8_ops1 _ main_part8_ops1_writes n35).trans (e37.trans e36)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem Wend_main_arg0 (c : Dev nD) : Wend m ρ c (Proc.devRef .tc main_arg0) = m ((c : Thread nD τ).loc main_arg0) :=
  Wend_of_unwritten m ρ c main_arg0 (by decide) (by decide) (by decide)
theorem Wend_main_arg1 (c : Dev nD) : Wend m ρ c (Proc.devRef .tc main_arg1) = m ((c : Thread nD τ).loc main_arg1) :=
  Wend_of_unwritten m ρ c main_arg1 (by decide) (by decide) (by decide)
theorem Wend_main_arg2 (c : Dev nD) : Wend m ρ c (Proc.devRef .tc main_arg2) = m ((c : Thread nD τ).loc main_arg2) :=
  Wend_of_unwritten m ρ c main_arg2 (by decide) (by decide) (by decide)
theorem Wend_main_arg3 (c : Dev nD) : Wend m ρ c (Proc.devRef .tc main_arg3) = m ((c : Thread nD τ).loc main_arg3) :=
  Wend_of_unwritten m ρ c main_arg3 (by decide) (by decide) (by decide)
theorem Wend_main_arg4 (c : Dev nD) : Wend m ρ c (Proc.devRef .tc main_arg4) = m ((c : Thread nD τ).loc main_arg4) :=
  Wend_of_unwritten m ρ c main_arg4 (by decide) (by decide) (by decide)
theorem Wend_main_arg5 (c : Dev nD) : Wend m ρ c (Proc.devRef .tc main_arg5) = m ((c : Thread nD τ).loc main_arg5) :=
  Wend_of_unwritten m ρ c main_arg5 (by decide) (by decide) (by decide)
theorem Wend_main_arg6 (c : Dev nD) : Wend m ρ c (Proc.devRef .tc main_arg6) = m ((c : Thread nD τ).loc main_arg6) :=
  Wend_of_unwritten m ρ c main_arg6 (by decide) (by decide) (by decide)
theorem Wend_main_arg7 (c : Dev nD) : Wend m ρ c (Proc.devRef .tc main_arg7) = m ((c : Thread nD τ).loc main_arg7) :=
  Wend_of_unwritten m ρ c main_arg7 (by decide) (by decide) (by decide)
theorem Wend_main_arg8 (c : Dev nD) : Wend m ρ c (Proc.devRef .tc main_arg8) = m ((c : Thread nD τ).loc main_arg8) :=
  Wend_of_unwritten m ρ c main_arg8 (by decide) (by decide) (by decide)
theorem Wend_main_arg9 (c : Dev nD) : Wend m ρ c (Proc.devRef .tc main_arg9) = m ((c : Thread nD τ).loc main_arg9) :=
  Wend_of_unwritten m ρ c main_arg9 (by decide) (by decide) (by decide)
theorem Wend_main_arg10 (c : Dev nD) : Wend m ρ c (Proc.devRef .tc main_arg10) = m ((c : Thread nD τ).loc main_arg10) :=
  Wend_of_unwritten m ρ c main_arg10 (by decide) (by decide) (by decide)
theorem Wend_main_arg11 (c : Dev nD) : Wend m ρ c (Proc.devRef .tc main_arg11) = m ((c : Thread nD τ).loc main_arg11) :=
  Wend_of_unwritten m ρ c main_arg11 (by decide) (by decide) (by decide)
theorem Wend_main_arg12 (c : Dev nD) : Wend m ρ c (Proc.devRef .tc main_arg12) = m ((c : Thread nD τ).loc main_arg12) :=
  Wend_of_unwritten m ρ c main_arg12 (by decide) (by decide) (by decide)

/-! ## Both pipelines' proof data, and what a core holds between two items -/

/-- No pipeline prefetches a table: the admissible table contents are the configurations' own. -/
abbrev adm : (p : Fin 2) → (pcfgs (F := F) p).Adm := fun p => (cfgs p).toPCfg_adm

/-- Both pipelines' proof data, each at the contents its region is entered from: a literal match on the pipeline's
    index, so that the configuration pinned at a numeral is the printed one. -/
def pdats : (p : Fin 2) → (c : Dev nD) → Dat τ (Elt F) Unit ℕ (UR sig nD τ) ℕ (Pipeline.pin (pcfgs (F := F)) adm p) c
  | ⟨0, _⟩ => fun c => dat0 (Ventry0 m ρ) c
  | ⟨1, _⟩ => fun c => dat1 (Ventry1 m ρ) c

abbrev 𝒱₀ : Variants := Variants.none
/-- No core ever owes another a unit, so no pair has a level. -/
abbrev L : GSem nD τ sig → Finset Unit := fun _ => ∅
abbrev lv : GSem nD τ sig → Unit → ℕ := fun _ _ => 0

/-- Beside its buffers a core holds, between any two items, its generator register at some state and the record
    that it owes nothing. -/
abbrev Rest (c : Dev nD) : sProp 𝕄 :=
  iprop((∃ r, prngReg c r) ∗ ∃ T, owes (c : Thread nD τ) (0 : CellTallies nD τ sig Unit) T)

/-- What core `c` holds between two items: every unscoped buffer whole at the valuation, and the rest. -/
abbrev At (W : Dev nD → Valuation τ sig (Elt F)) (c : Dev nD) : sProp 𝕄 :=
  iprop(StableHlo.held (c : Thread nD τ) (Pipeline.ucRefs τ sig) (W c) ∗ Rest c)

/-- Owing the tallies `O` with some recorded set is owing them within any bound that holds every pair. -/
theorem owesWithin_of_owes (c : Dev nD) (O : CellTallies nD τ sig Unit) (B : Set (SemLoc sig × Unit)) (hB : ∀ x, x ∈ B) :
    (iprop(∃ T, owes (c : Thread nD τ) O T) : sProp 𝕄) ⊢ Pipeline.owesWithin c O B := by
  iintro ⟨%T, H⟩
  iexists T
  isplitr
  · ipureintro; exact fun x _ => hB x
  · iexact H

/-- Owing within a bound is owing with some recorded set. -/
theorem owes_of_owesWithin (c : Dev nD) (O : CellTallies nD τ sig Unit) (B : Set (SemLoc sig × Unit)) :
    (Pipeline.owesWithin c O B : sProp 𝕄) ⊢ iprop(∃ T, owes (c : Thread nD τ) O T) := by
  iintro ⟨%T, -, H⟩
  iexists T
  iexact H

/-- A stretch as a segment: from every unscoped buffer at `W` to the same at what the stretch leaves, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-! ## The two regions as segments

A region is entered from every unscoped buffer at its entry valuation. Its windows' arrays come out of those
buffers at the proof data's entry contents and the other unscoped buffers bypass the region; the generator
register goes into the class's invariant and comes back; nothing is owed and the kernel has no semaphore of its
own. At the exit the arrays, now at what the pipeline leaves, and the bypassed buffers are every unscoped buffer
again, at the exit valuation: that valuation has the arrays there and agrees with the entry one elsewhere. -/

-- unifying a library statement over the pinned configuration with the printed one unfolds definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ventry0 m ρ) c).loose
  hwaits := Pipeline.hwaits_of_owed_zero _ _ _ _ L lv 0 fun _ _ => rfl
  pre := At (W3 m ρ)
  post := At (W4 m ρ)
  X c := iprop(∃ r, prngReg c r)
  Y c := iprop(∃ r, prngReg c r)
  Z c := Pipeline.unscopedRest (Ix := Unit) (Name := ℕ) (U := UR sig nD τ) (Lvl := ℕ) spec0 c (Ventry0 m ρ c)
  hentry c := by
    have hbufs := Pipeline.arrays_of_unscopedBufs (p := 0) (pcfgs (F := F)) adm (pdats m ρ) launch0.win launch0.arr_whole c
      ((pdats m ρ 0 c).share_full fun _ => rfl) (Ventry0 m ρ c) fun _ => rfl
    rw [Pipeline.unscopedBufs_held] at hbufs
    have howes := owesWithin_of_owes (F := F) c 0 ((pdats m ρ 0 c).bound () 0) fun _ => Or.inl trivial
    have hnotab : (BI.emp : sProp 𝕄) ⊢ Pipeline.prefHeld (pcfgs (F := F) 0).pre c (fun _ => fullShare) (adm (F := F) 0).1 := by
      unfold Pipeline.prefHeld; rw [show (Finset.univ : Finset (Fin 0)) = ∅ from rfl, BI.bigSep_empty]
    rw [Pipeline.ownSems0_none]
    iintro ⟨⟨Hheld, Hreg, Howes⟩, -, -⟩
    imodintro
    ihave Hsplit := hbufs $$ Hheld
    icases Hsplit with ⟨Harr, Hby⟩
    isplitl [Harr]; · iexact Harr
    isplitr; · iapply hnotab; iempintro
    isplitl [Howes]; · iapply howes; iexact Howes
    isplitl [Hreg]; · iexact Hreg
    iexact Hby
  hin c := by
    rw [show (pdats m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ventry0 m ρ c) (fun b => W4 m ρ c b) ((pdats m ρ 0 c).arrAt · cfg0.N)
      (fun w => (W4_arr m ρ c w).symm)
      (fun b hb => W4_of_ne m ρ c b fun w e => hb (Finset.mem_image.mpr ⟨w, Finset.mem_univ _, e⟩))
    rw [Pipeline.unscopedBufs_held] at hjoin
    have howes := owes_of_owesWithin (F := F) c ((pdats m ρ 0 c).owed (Fin.last _)) ((pdats m ρ 0 c).bound () (Fin.last _))
    iintro ⟨Harr, Howes, Hreg, Hby⟩
    imodintro
    isplitl [Harr Hby]
    · iapply hjoin; isplitl [Harr]; · iexact Harr
      iexact Hby
    isplitl [Hreg]; · iexact Hreg
    iapply howes; iexact Howes

-- as for the first region
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ventry1 m ρ) c).loose
  hwaits := Pipeline.hwaits_of_owed_zero _ _ _ _ L lv 1 fun _ _ => rfl
  pre := At (W36 m ρ)
  post := At (W37 m ρ)
  X c := iprop(∃ r, prngReg c r)
  Y c := iprop(∃ r, prngReg c r)
  Z c := Pipeline.unscopedRest (Ix := Unit) (Name := ℕ) (U := UR sig nD τ) (Lvl := ℕ) spec1 c (Ventry1 m ρ c)
  hentry c := by
    have hbufs := Pipeline.arrays_of_unscopedBufs (p := 1) (pcfgs (F := F)) adm (pdats m ρ) launch1.win launch1.arr_whole c
      ((pdats m ρ 1 c).share_full fun _ => rfl) (Ventry1 m ρ c) fun _ => rfl
    rw [Pipeline.unscopedBufs_held] at hbufs
    have howes := owesWithin_of_owes (F := F) c 0 ((pdats m ρ 1 c).bound () 0) fun _ => Or.inl trivial
    have hnotab : (BI.emp : sProp 𝕄) ⊢ Pipeline.prefHeld (pcfgs (F := F) 1).pre c (fun _ => fullShare) (adm (F := F) 1).1 := by
      unfold Pipeline.prefHeld; rw [show (Finset.univ : Finset (Fin 0)) = ∅ from rfl, BI.bigSep_empty]
    rw [Pipeline.ownSems0_none]
    iintro ⟨⟨Hheld, Hreg, Howes⟩, -, -⟩
    imodintro
    ihave Hsplit := hbufs $$ Hheld
    icases Hsplit with ⟨Harr, Hby⟩
    isplitl [Harr]; · iexact Harr
    isplitr; · iapply hnotab; iempintro
    isplitl [Howes]; · iapply howes; iexact Howes
    isplitl [Hreg]; · iexact Hreg
    iexact Hby
  hin c := by
    rw [show (pdats m ρ 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m ρ 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ventry1 m ρ c) (fun b => W37 m ρ c b) ((pdats m ρ 1 c).arrAt · cfg1.N)
      (fun w => (W37_arr m ρ c w).symm)
      (fun b hb => W37_of_ne m ρ c b fun w e => hb (Finset.mem_image.mpr ⟨w, Finset.mem_univ _, e⟩))
    rw [Pipeline.unscopedBufs_held] at hjoin
    have howes := owes_of_owesWithin (F := F) c ((pdats m ρ 1 c).owed (Fin.last _)) ((pdats m ρ 1 c).bound () (Fin.last _))
    iintro ⟨Harr, Howes, Hreg, Hby⟩
    imodintro
    isplitl [Harr Hby]
    · iapply hjoin; isplitl [Harr]; · iexact Harr
      iexact Hby
    isplitl [Hreg]; · iexact Hreg
    iapply howes; iexact Howes

/-! ## The entry function as segments, and the launch -/

/-- The entry function's 38 items as segments, in order: a stretch from the valuation before it, a region per kernel call. -/
abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .region (reg0 m ρ),
    .host (hseg main_part0_ops3 main_part0_ops3_sub main_part0_ops3_fresh (W4 m ρ)),
    .host (hseg main_part0_ops4 main_part0_ops4_sub main_part0_ops4_fresh (W5 m ρ)),
    .host (hseg main_part0_ops5 main_part0_ops5_sub main_part0_ops5_fresh (W6 m ρ)),
    .host (hseg main_part0_ops6 main_part0_ops6_sub main_part0_ops6_fresh (W7 m ρ)),
    .host (hseg main_part1_ops0 main_part1_ops0_sub main_part1_ops0_fresh (W8 m ρ)),
    .host (hseg main_part1_ops1 main_part1_ops1_sub main_part1_ops1_fresh (W9 m ρ)),
    .host (hseg main_part1_ops2 main_part1_ops2_sub main_part1_ops2_fresh (W10 m ρ)),
    .host (hseg main_part2_ops0 main_part2_ops0_sub main_part2_ops0_fresh (W11 m ρ)),
    .host (hseg main_part2_ops1 main_part2_ops1_sub main_part2_ops1_fresh (W12 m ρ)),
    .host (hseg main_part2_ops2 main_part2_ops2_sub main_part2_ops2_fresh (W13 m ρ)),
    .host (hseg main_part2_ops3 main_part2_ops3_sub main_part2_ops3_fresh (W14 m ρ)),
    .host (hseg main_part2_ops4 main_part2_ops4_sub main_part2_ops4_fresh (W15 m ρ)),
    .host (hseg main_part3_ops0 main_part3_ops0_sub main_part3_ops0_fresh (W16 m ρ)),
    .host (hseg main_part3_ops1 main_part3_ops1_sub main_part3_ops1_fresh (W17 m ρ)),
    .host (hseg main_part3_ops2 main_part3_ops2_sub main_part3_ops2_fresh (W18 m ρ)),
    .host (hseg main_part4_ops0 main_part4_ops0_sub main_part4_ops0_fresh (W19 m ρ)),
    .host (hseg main_part4_ops1 main_part4_ops1_sub main_part4_ops1_fresh (W20 m ρ)),
    .host (hseg main_part4_ops2 main_part4_ops2_sub main_part4_ops2_fresh (W21 m ρ)),
    .host (hseg main_part4_ops3 main_part4_ops3_sub main_part4_ops3_fresh (W22 m ρ)),
    .host (hseg main_part4_ops4 main_part4_ops4_sub main_part4_ops4_fresh (W23 m ρ)),
    .host (hseg main_part5_ops0 main_part5_ops0_sub main_part5_ops0_fresh (W24 m ρ)),
    .host (hseg main_part5_ops1 main_part5_ops1_sub main_part5_ops1_fresh (W25 m ρ)),
    .host (hseg main_part5_ops2 main_part5_ops2_sub main_part5_ops2_fresh (W26 m ρ)),
    .host (hseg main_part6_ops0 main_part6_ops0_sub main_part6_ops0_fresh (W27 m ρ)),
    .host (hseg main_part6_ops1 main_part6_ops1_sub main_part6_ops1_fresh (W28 m ρ)),
    .host (hseg main_part6_ops2 main_part6_ops2_sub main_part6_ops2_fresh (W29 m ρ)),
    .host (hseg main_part6_ops3 main_part6_ops3_sub main_part6_ops3_fresh (W30 m ρ)),
    .host (hseg main_part6_ops4 main_part6_ops4_sub main_part6_ops4_fresh (W31 m ρ)),
    .host (hseg main_part7_ops0 main_part7_ops0_sub main_part7_ops0_fresh (W32 m ρ)),
    .host (hseg main_part7_ops1 main_part7_ops1_sub main_part7_ops1_fresh (W33 m ρ)),
    .host (hseg main_part7_ops2 main_part7_ops2_sub main_part7_ops2_fresh (W34 m ρ)),
    .host (hseg main_part8_ops0 main_part8_ops0_sub main_part8_ops0_fresh (W35 m ρ)),
    .region (reg1 m ρ),
    .host (hseg main_part8_ops1 main_part8_ops1_sub main_part8_ops1_fresh (W37 m ρ)) ]

/-- The entry function IS the run of these segments: its chain of items, item by item. -/
theorem main_run (c : Dev nD) : main (F := F) c = Pipeline.Seg.run (segs m ρ) := (main_chain_windows c).trans (by chain_rfl)

/-- The last thread state without the `owes`: every unscoped buffer at the last valuation, the generator register at some state. -/
abbrev Tend (c : Dev nD) : sProp 𝕄 :=
  iprop(StableHlo.held (c : Thread nD τ) (Pipeline.ucRefs τ sig) (W38 m ρ c) ∗ ∃ r, prngReg c r)

-- the launch theorem's implicit arguments are found by unifying its conclusion with this one, which unfolds definitions in a metavariable's type
set_option backward.isDefEq.respectTransparency.types false in
/-- THE RUN, for any postcondition that follows from "the final memory holds every unscoped buffer of every core at
    the last valuation": the launch over the segments. Consecutive thread states agree by name, so the chaining is
    reflexivity but for the end, where the rest is regrouped to set the `owes` apart; the launch makes the first
    thread state on every core; the last one, read against a final state, says what the memory holds. -/
theorem run_with {Q : PUnit × MemSt nD τ sig (Elt F) → Prop}
    (hQ : ∀ s : MemSt nD τ sig (Elt F),
      (∀ c : Dev nD, ∀ b ∈ Pipeline.ucRefs τ sig, s.mem (((c : Thread nD τ)).1, b) = Wend m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (W0 m ρ)) (Tₙ := Tend m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show At (W38 m ρ) c ⊢ _
        iintro ⟨Hheld, Hreg, Howes⟩
        isplitl [Hheld Hreg]
        · isplitl [Hheld]; · iexact Hheld
          iexact Hreg
        iexact Howes⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howes, -, Hreg, -⟩, -⟩
      imodintro
      isplitl [Hheld]; · iexact Hheld
      isplitl [Hreg]; · iexists _; iexact Hreg
      iexists ∅; iexact Howes)
    (QY := fun c s => ∀ b ∈ Pipeline.ucRefs τ sig, s.mem (((c : Thread nD τ)).1, b) = W38 m ρ c b)
    (hfin := fun c s' => by
      iintro ⟨⟨Hheld, -⟩, HSI⟩
      unfold StableHlo.held
      imodintro
      iapply (pointsTo_read_all (Pipeline.ucRefs τ sig) (fun b => (((c : Thread nD τ)).1, b)) (W38 m ρ c) s')
      isplitl [Hheld]; · iexact Hheld
      iexact HSI)
    (hQ := hQ)

/-- Every weakly fair execution of the entry function terminates, nothing faulting, and the final memory holds every
    unscoped buffer of every core at the last valuation of the fold. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Wend m ρ c b) :=
  run_with m ρ fun _ h => h

/-- THE FRAME, at any float instance: the same run, each argument array read off the last valuation, where it holds
    its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_with m ρ fun s h c =>
    ⟨(h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c),
     (h c _ (mem_uc main_arg5 (by decide))).trans (Wend_main_arg5 m ρ c),
     (h c _ (mem_uc main_arg6 (by decide))).trans (Wend_main_arg6 m ρ c),
     (h c _ (mem_uc main_arg7 (by decide))).trans (Wend_main_arg7 m ρ c),
     (h c _ (mem_uc main_arg8 (by decide))).trans (Wend_main_arg8 m ρ c),
     (h c _ (mem_uc main_arg9 (by decide))).trans (Wend_main_arg9 m ρ c),
     (h c _ (mem_uc main_arg10 (by decide))).trans (Wend_main_arg10 m ρ c),
     (h c _ (mem_uc main_arg11 (by decide))).trans (Wend_main_arg11 m ρ c),
     (h c _ (mem_uc main_arg12 (by decide))).trans (Wend_main_arg12 m ρ c)⟩

end Cert.KernelIdeal.Hand

end
-- ==== Proof.ROps0.lean ====
import proofs.«100126_j36189394436483_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0, in order: 71 host operations, a call standing as its callee's operations over the call's buffer record. -/
abbrev ops0 : List (HloOp τ sig (Elt F)) :=
  [ StableHlo.nullary main_cst (constant S2 .f32 0x42C00000#32),
    StableHlo.nullary main_cst_0 (constant S2 .f32 0xBC2AA679#32),
    StableHlo.nullary main_cst_1 (fun i => FloatOps.ofBits .f32 (lit0 (S2.rowMajor i))),
    StableHlo.nullary main_cst_2 (fun i => FloatOps.ofBits .f32 (lit1 (S2.rowMajor i))),
    StableHlo.nullary main_cst_3 (constant S2 .f32 0x3C2AAEDC#32),
    StableHlo.nullary main_c (constantI S_ 32 0#32),
    StableHlo.TRef.unary (.of main_c : StableHlo.TRef sig ⟨S_, .i32⟩) main_call0.v0 (sitofp .f32),
    StableHlo.TRef.binary (.of main_arg0 : StableHlo.TRef sig ⟨S2x64x96x96, .f32⟩) main_call0.v0 main_call0.v1 (fun x v => pad S2x64x98x98 ![0, 0, 1, 1] ![0, 0, 1, 1] ![0, 0, 0, 0] x v pads_S2x64x96x96_S2x64x98x98_000_000_110_110 h_S_),
    StableHlo.unary main_v0 main_v1 ((extractStridedSlice S2x64x96x96 ![0, 0, 0, 0] · slices_S2x64x98x98_S2x64x96x96_0_0_0_0) : (⟨S2x64x98x98, .f32⟩ : BufTy).Contents (Elt F) → (⟨S2x64x96x96, .f32⟩ : BufTy).Contents (Elt F)),
    StableHlo.unary main_v0 main_v2 ((extractStridedSlice S2x64x96x96 ![0, 0, 0, 1] · slices_S2x64x98x98_S2x64x96x96_0_0_0_1) : (⟨S2x64x98x98, .f32⟩ : BufTy).Contents (Elt F) → (⟨S2x64x96x96, .f32⟩ : BufTy).Contents (Elt F)),
    StableHlo.unary main_v0 main_v3 ((extractStridedSlice S2x64x96x96 ![0, 0, 0, 2] · slices_S2x64x98x98_S2x64x96x96_0_0_0_2) : (⟨S2x64x98x98, .f32⟩ : BufTy).Contents (Elt F) → (⟨S2x64x96x96, .f32⟩ : BufTy).Contents (Elt F)),
    StableHlo.unary main_v0 main_v4 ((extractStridedSlice S2x64x96x96 ![0, 0, 1, 0] · slices_S2x64x98x98_S2x64x96x96_0_0_1_0) : (⟨S2x64x98x98, .f32⟩ : BufTy).Contents (Elt F) → (⟨S2x64x96x96, .f32⟩ : BufTy).Contents (Elt F)),
    StableHlo.unary main_v0 main_v5 ((extractStridedSlice S2x64x96x96 ![0, 0, 1, 1] · slices_S2x64x98x98_S2x64x96x96_0_0_1_1) : (⟨S2x64x98x98, .f32⟩ : BufTy).Contents (Elt F) → (⟨S2x64x96x96, .f32⟩ : BufTy).Contents (Elt F)),
    StableHlo.unary main_v0 main_v6 ((extractStridedSlice S2x64x96x96 ![0, 0, 1, 2] · slices_S2x64x98x98_S2x64x96x96_0_0_1_2) : (⟨S2x64x98x98, .f32⟩ : BufTy).Contents (Elt F) → (⟨S2x64x96x96, .f32⟩ : BufTy).Contents (Elt F)),
    StableHlo.unary main_v0 main_v7 ((extractStridedSlice S2x64x96x96 ![0, 0, 2, 0] · slices_S2x64x98x98_S2x64x96x96_0_0_2_0) : (⟨S2x64x98x98, .f32⟩ : BufTy).Contents (Elt F) → (⟨S2x64x96x96, .f32⟩ : BufTy).Contents (Elt F)),
    StableHlo.unary main_v0 main_v8 ((extractStridedSlice S2x64x96x96 ![0, 0, 2, 1] · slices_S2x64x98x98_S2x64x96x96_0_0_2_1) : (⟨S2x64x98x98, .f32⟩ : BufTy).Contents (Elt F) → (⟨S2x64x96x96, .f32⟩ : BufTy).Contents (Elt F)),
    StableHlo.unary main_v0 main_v9 ((extractStridedSlice S2x64x96x96 ![0, 0, 2, 2] · slices_S2x64x98x98_S2x64x96x96_0_0_2_2) : (⟨S2x64x98x98, .f32⟩ : BufTy).Contents (Elt F) → (⟨S2x64x96x96, .f32⟩ : BufTy).Contents (Elt F)),
    StableHlo.unary main_v1 main_v10 (broadcastInDim S2x64x1x96x96 ![0, 1, 3, 4] bcast_S2x64x96x96_S2x64x1x96x96_0_1_3_4 : (⟨S2x64x96x96, .f32⟩ : BufTy).Contents (Elt F) → (⟨S2x64x1x96x96, .f32⟩ : BufTy).Contents (Elt F)),
    StableHlo.unary main_v2 main_v11 (broadcastInDim S2x64x1x96x96 ![0, 1, 3, 4] bcast_S2x64x96x96_S2x64x1x96x96_0_1_3_4 : (⟨S2x64x96x96, .f32⟩ : BufTy).Contents (Elt F) → (⟨S2x64x1x96x96, .f32⟩ : BufTy).Contents (Elt F)),
    StableHlo.unary main_v3 main_v12 (broadcastInDim S2x64x1x96x96 ![0, 1, 3, 4] bcast_S2x64x96x96_S2x64x1x96x96_0_1_3_4 : (⟨S2x64x96x96, .f32⟩ : BufTy).Contents (Elt F) → (⟨S2x64x1x96x96, .f32⟩ : BufTy).Contents (Elt F)),
    StableHlo.unary main_v4 main_v13 (broadcastInDim S2x64x1x96x96 ![0, 1, 3, 4] bcast_S2x64x96x96_S2x64x1x96x96_0_1_3_4 : (⟨S2x64x96x96, .f32⟩ : BufTy).Contents (Elt F) → (⟨S2x64x1x96x96, .f32⟩ : BufTy).Contents (Elt F)),
    StableHlo.unary main_v5 main_v14 (broadcastInDim S2x64x1x96x96 ![0, 1, 3, 4] bcast_S2x64x96x96_S2x64x1x96x96_0_1_3_4 : (⟨S2x64x96x96, .f32⟩ : BufTy).Contents (Elt F) → (⟨S2x64x1x96x96, .f32⟩ : BufTy).Contents (Elt F)),
    StableHlo.unary main_v6 main_v15 (broadcastInDim S2x64x1x96x96 ![0, 1, 3, 4] bcast_S2x64x96x96_S2x64x1x96x96_0_1_3_4 : (⟨S2x64x96x96, .f32⟩ : BufTy).Contents (Elt F) → (⟨S2x64x1x96x96, .f32⟩ : BufTy).Contents (Elt F)),
    StableHlo.unary main_v7 main_v16 (broadcastInDim S2x64x1x96x96 ![0, 1, 3, 4] bcast_S2x64x96x96_S2x64x1x96x96_0_1_3_4 : (⟨S2x64x96x96, .f32⟩ : BufTy).Contents (Elt F) → (⟨S2x64x1x96x96, .f32⟩ : BufTy).Contents (Elt F)),
    StableHlo.unary main_v8 main_v17 (broadcastInDim S2x64x1x96x96 ![0, 1, 3, 4] bcast_S2x64x96x96_S2x64x1x96x96_0_1_3_4 : (⟨S2x64x96x96, .f32⟩ : BufTy).Contents (Elt F) → (⟨S2x64x1x96x96, .f32⟩ : BufTy).Contents (Elt F)),
    StableHlo.unary main_v9 main_v18 (broadcastInDim S2x64x1x96x96 ![0, 1, 3, 4] bcast_S2x64x96x96_S2x64x1x96x96_0_1_3_4 : (⟨S2x64x96x96, .f32⟩ : BufTy).Contents (Elt F) → (⟨S2x64x1x96x96, .f32⟩ : BufTy).Contents (Elt F)),
    StableHlo.nary ![main_v10, main_v11, main_v12, main_v13, main_v14, main_v15, main_v16, main_v17, main_v18] main_v19 (fun u => concatenate S2x64x9x96x96 2 [⟨S2x64x1x96x96, u 0⟩, ⟨S2x64x1x96x96, u 1⟩, ⟨S2x64x1x96x96, u 2⟩, ⟨S2x64x1x96x96, u 3⟩, ⟨S2x64x1x96x96, u 4⟩, ⟨S2x64x1x96x96, u 5⟩, ⟨S2x64x1x96x96, u 6⟩, ⟨S2x64x1x96x96, u 7⟩, ⟨S2x64x1x96x96, u 8⟩] concatenates_S2x64x1x96x96_S2x64x1x96x96_S2x64x1x96x96_S2x64x1x96x96_S2x64x1x96x96_S2x64x1x96x96_S2x64x1x96x96_S2x64x1x96x96_S2x64x1x96x96_S2x64x9x96x96_d2),
    StableHlo.reshape main_v19 main_v20 rfl shapeCasts_S2x64x9x96x96_S2x576x96x96,
    StableHlo.unary main_cst_0 main_v21 (broadcastInDim S1x1x2 ![2] bcast_S2_S1x1x2_2 : (⟨S2, .f32⟩ : BufTy).Contents (Elt F) → (⟨S1x1x2, .f32⟩ : BufTy).Contents (Elt F)),
    StableHlo.unary main_v21 main_v22 (broadcastInDim S2x65536x2 ![0, 1, 2] bcast_S1x1x2_S2x65536x2_0_1_2 : (⟨S1x1x2, .f32⟩ : BufTy).Contents (Elt F) → (⟨S2x65536x2, .f32⟩ : BufTy).Contents (Elt F)),
    StableHlo.binary main_arg1 main_v22 main_v23 (addf : (⟨S2x65536x2, .f32⟩ : BufTy).Contents (Elt F) → (⟨S2x65536x2, .f32⟩ : BufTy).Contents (Elt F) → (⟨S2x65536x2, .f32⟩ : BufTy).Contents (Elt F)),
    StableHlo.nullary main_cst_4 (constant S_ .f32 0xBF7FFFEF#32),
    StableHlo.nullary main_cst_5 (constant S_ .f32 0x3F7FFFEF#32),
    StableHlo.TRef.unary (.of main_cst_4 : StableHlo.TRef sig ⟨S_, .f32⟩) main_call1.v0 id,
    StableHlo.TRef.unary main_call1.v0 main_call1.v1 (broadcastInDim S2x65536x2 ![] bcast_S_S2x65536x2),
    StableHlo.TRef.binary main_call1.v1 (.of main_v23 : StableHlo.TRef sig ⟨S2x65536x2, .f32⟩) main_call1.v2 maximumf,
    StableHlo.TRef.unary (.of main_cst_5 : StableHlo.TRef sig ⟨S_, .f32⟩) main_call1.v3 id,
    StableHlo.TRef.unary main_call1.v3 main_call1.v4 (broadcastInDim S2x65536x2 ![] bcast_S_S2x65536x2),
    StableHlo.TRef.binary main_call1.v4 main_call1.v2 main_call1.v5 minimumf,
    StableHlo.unary main_v24 main_v25 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v25 main_v26 rfl shapeCasts_S2x65536x1_S2x65536,
    StableHlo.nullary main_cst_6 (constant S_ .f32 0x3F800000#32),
    StableHlo.unary main_cst_6 main_v27 (broadcastInDim S2x65536 ![] bcast_S_S2x65536 : (⟨S_, .f32⟩ : BufTy).Contents (Elt F) → (⟨S2x65536, .f32⟩ : BufTy).Contents (Elt F)),
    StableHlo.binary main_v26 main_v27 main_v28 (addf : (⟨S2x65536, .f32⟩ : BufTy).Contents (Elt F) → (⟨S2x65536, .f32⟩ : BufTy).Contents (Elt F) → (⟨S2x65536, .f32⟩ : BufTy).Contents (Elt F)),
    StableHlo.nullary main_cst_7 (constant S_ .f32 0x42C00000#32),
    StableHlo.unary main_cst_7 main_v29 (broadcastInDim S2x65536 ![] bcast_S_S2x65536 : (⟨S_, .f32⟩ : BufTy).Contents (Elt F) → (⟨S2x65536, .f32⟩ : BufTy).Contents (Elt F)),
    StableHlo.binary main_v28 main_v29 main_v30 (mulf : (⟨S2x65536, .f32⟩ : BufTy).Contents (Elt F) → (⟨S2x65536, .f32⟩ : BufTy).Contents (Elt F) → (⟨S2x65536, .f32⟩ : BufTy).Contents (Elt F)),
    StableHlo.nullary main_cst_8 (constant S_ .f32 0x3F800000#32),
    StableHlo.unary main_cst_8 main_v31 (broadcastInDim S2x65536 ![] bcast_S_S2x65536 : (⟨S_, .f32⟩ : BufTy).Contents (Elt F) → (⟨S2x65536, .f32⟩ : BufTy).Contents (Elt F)),
    StableHlo.binary main_v30 main_v31 main_v32 (subf : (⟨S2x65536, .f32⟩ : BufTy).Contents (Elt F) → (⟨S2x65536, .f32⟩ : BufTy).Contents (Elt F) → (⟨S2x65536, .f32⟩ : BufTy).Contents (Elt F)),
    StableHlo.nullary main_cst_9 (constant S_ .f32 0x3F000000#32),
    StableHlo.unary main_cst_9 main_v33 (broadcastInDim S2x65536 ![] bcast_S_S2x65536 : (⟨S_, .f32⟩ : BufTy).Contents (Elt F) → (⟨S2x65536, .f32⟩ : BufTy).Contents (Elt F)),
    StableHlo.binary main_v32 main_v33 main_v34 (mulf : (⟨S2x65536, .f32⟩ : BufTy).Contents (Elt F) → (⟨S2x65536, .f32⟩ : BufTy).Contents (Elt F) → (⟨S2x65536, .f32⟩ : BufTy).Contents (Elt F)),
    StableHlo.nullary main_cst_10 (constant S_ .f32 0x3F000000#32),
    StableHlo.unary main_cst_10 main_v35 (broadcastInDim S2x65536 ![] bcast_S_S2x65536 : (⟨S_, .f32⟩ : BufTy).Contents (Elt F) → (⟨S2x65536, .f32⟩ : BufTy).Contents (Elt F)),
    StableHlo.binary main_v34 main_v35 main_v36 (addf : (⟨S2x65536, .f32⟩ : BufTy).Contents (Elt F) → (⟨S2x65536, .f32⟩ : BufTy).Contents (Elt F) → (⟨S2x65536, .f32⟩ : BufTy).Contents (Elt F)),
    StableHlo.unary main_v36 main_v37 (Host.floor : (⟨S2x65536, .f32⟩ : BufTy).Contents (Elt F) → (⟨S2x65536, .f32⟩ : BufTy).Contents (Elt F)),
    StableHlo.nullary main_c_11 (constantI S_ 32 0#32),
    StableHlo.nullary main_c_12 (constantI S_ 32 95#32),
    StableHlo.TRef.unary (.of main_c_11 : StableHlo.TRef sig ⟨S_, .i32⟩) main_call2.v0 (sitofp .f32),
    StableHlo.TRef.unary main_call2.v0 main_call2.v1 (broadcastInDim S2x65536 ![] bcast_S_S2x65536),
    StableHlo.TRef.binary main_call2.v1 (.of main_v37 : StableHlo.TRef sig ⟨S2x65536, .f32⟩) main_call2.v2 maximumf,
    StableHlo.TRef.unary (.of main_c_12 : StableHlo.TRef sig ⟨S_, .i32⟩) main_call2.v3 (sitofp .f32),
    StableHlo.TRef.unary main_call2.v3 main_call2.v4 (broadcastInDim S2x65536 ![] bcast_S_S2x65536),
    StableHlo.TRef.binary main_call2.v4 main_call2.v2 main_call2.v5 minimumf,
    StableHlo.unary main_v38 main_v39 (fptosi 32 : (⟨S2x65536, .f32⟩ : BufTy).Contents (Elt F) → (⟨S2x65536, .i32⟩ : BufTy).Contents (Elt F)),
    StableHlo.unary main_v24 main_v40 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v40 main_v41 rfl shapeCasts_S2x65536x1_S2x65536,
    StableHlo.nullary main_cst_13 (constant S_ .f32 0x3F800000#32),
    StableHlo.unary main_cst_13 main_v42 (broadcastInDim S2x65536 ![] bcast_S_S2x65536 : (⟨S_, .f32⟩ : BufTy).Contents (Elt F) → (⟨S2x65536, .f32⟩ : BufTy).Contents (Elt F)),
    StableHlo.binary main_v41 main_v42 main_v43 (addf : (⟨S2x65536, .f32⟩ : BufTy).Contents (Elt F) → (⟨S2x65536, .f32⟩ : BufTy).Contents (Elt F) → (⟨S2x65536, .f32⟩ : BufTy).Contents (Elt F)) ]

set_option maxRecDepth 8192 in
set_option maxHeartbeats 4000000 in
/-- The window is that straight line: each callee unfolded at its call, sequencing reassociated. -/
theorem main_part0_eq (c : Dev nD) : main_part0 (F := F) c = seq ops0 := by
  simp only [main_part0, fn_pad.body, fn_clip.body, fn_clip_0.body, fn_relu.body, seq, bind_assoc, pure_bind] <;> rfl

/-- Every operation of the window touches TensorCore references only. -/
theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., reshape_bufs_sub .., nullary_bufs_sub .., unary_bufs_sub .., binary_bufs_sub ..⟩

/-- Every operation of the window determines the buffers it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops0_W : List (Ref sig .tc) :=
  [main_cst, main_cst_0, main_cst_1, main_cst_2, main_cst_3, main_c, main_call0_v0, main_v0, main_v1, main_v2, main_v3, main_v4, main_v5, main_v6, main_v7, main_v8, main_v9, main_v10, main_v11, main_v12, main_v13, main_v14, main_v15, main_v16, main_v17, main_v18, main_v19, main_v20, main_v21, main_v22, main_v23, main_cst_4, main_cst_5, main_call1_v0, main_call1_v1, main_call1_v2, main_call1_v3, main_call1_v4, main_v24, main_v25, main_v26, main_cst_6, main_v27, main_v28, main_cst_7, main_v29, main_v30, main_cst_8, main_v31, main_v32, main_cst_9, main_v33, main_v34, main_cst_10, main_v35, main_v36, main_v37, main_c_11, main_c_12, main_call2_v0, main_call2_v1, main_call2_v2, main_call2_v3, main_call2_v4, main_v38, main_v39, main_v40, main_v41, main_cst_13, main_v42, main_v43]

/-- A reference of a list, as a device buffer, lies in the list's set of device buffers. -/
private theorem single_sub_of_mem {W : List (Ref sig .tc)} (y : Ref sig .tc) (h : y ∈ W) :
    ({(y : DevRef τ sig)} : Finset (DevRef τ sig)) ⊆ (W.map (Proc.devRef (τ := τ) .tc)).toFinset :=
  Finset.singleton_subset_iff.2 (List.mem_toFinset.2 (List.mem_map_of_mem h))

/-- Each operation writes its one result buffer, which the list holds. -/
theorem ops0_writes : (ops0 : List (HloOp τ sig (Elt F))).Forall fun op => op.writes ⊆ (ops0_W.map (Proc.devRef (τ := τ) .tc)).toFinset :=
  ⟨single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide)⟩

end Cert.ReferenceIdeal.Hand

end
-- ==== Proof.ROps1.lean ====
import proofs.«100126_j36189394436483_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 1, in order: 65 host operations, a call standing as its callee's operations over the call's buffer record. -/
abbrev ops1 : List (HloOp τ sig (Elt F)) :=
  [ StableHlo.nullary main_cst_14 (constant S_ .f32 0x42C00000#32),
    StableHlo.unary main_cst_14 main_v44 (broadcastInDim S2x65536 ![] bcast_S_S2x65536 : (⟨S_, .f32⟩ : BufTy).Contents (Elt F) → (⟨S2x65536, .f32⟩ : BufTy).Contents (Elt F)),
    StableHlo.binary main_v43 main_v44 main_v45 (mulf : (⟨S2x65536, .f32⟩ : BufTy).Contents (Elt F) → (⟨S2x65536, .f32⟩ : BufTy).Contents (Elt F) → (⟨S2x65536, .f32⟩ : BufTy).Contents (Elt F)),
    StableHlo.nullary main_cst_15 (constant S_ .f32 0x3F800000#32),
    StableHlo.unary main_cst_15 main_v46 (broadcastInDim S2x65536 ![] bcast_S_S2x65536 : (⟨S_, .f32⟩ : BufTy).Contents (Elt F) → (⟨S2x65536, .f32⟩ : BufTy).Contents (Elt F)),
    StableHlo.binary main_v45 main_v46 main_v47 (subf : (⟨S2x65536, .f32⟩ : BufTy).Contents (Elt F) → (⟨S2x65536, .f32⟩ : BufTy).Contents (Elt F) → (⟨S2x65536, .f32⟩ : BufTy).Contents (Elt F)),
    StableHlo.nullary main_cst_16 (constant S_ .f32 0x3F000000#32),
    StableHlo.unary main_cst_16 main_v48 (broadcastInDim S2x65536 ![] bcast_S_S2x65536 : (⟨S_, .f32⟩ : BufTy).Contents (Elt F) → (⟨S2x65536, .f32⟩ : BufTy).Contents (Elt F)),
    StableHlo.binary main_v47 main_v48 main_v49 (mulf : (⟨S2x65536, .f32⟩ : BufTy).Contents (Elt F) → (⟨S2x65536, .f32⟩ : BufTy).Contents (Elt F) → (⟨S2x65536, .f32⟩ : BufTy).Contents (Elt F)),
    StableHlo.nullary main_cst_17 (constant S_ .f32 0x3F000000#32),
    StableHlo.unary main_cst_17 main_v50 (broadcastInDim S2x65536 ![] bcast_S_S2x65536 : (⟨S_, .f32⟩ : BufTy).Contents (Elt F) → (⟨S2x65536, .f32⟩ : BufTy).Contents (Elt F)),
    StableHlo.binary main_v49 main_v50 main_v51 (addf : (⟨S2x65536, .f32⟩ : BufTy).Contents (Elt F) → (⟨S2x65536, .f32⟩ : BufTy).Contents (Elt F) → (⟨S2x65536, .f32⟩ : BufTy).Contents (Elt F)),
    StableHlo.unary main_v51 main_v52 (Host.floor : (⟨S2x65536, .f32⟩ : BufTy).Contents (Elt F) → (⟨S2x65536, .f32⟩ : BufTy).Contents (Elt F)),
    StableHlo.nullary main_c_18 (constantI S_ 32 0#32),
    StableHlo.nullary main_c_19 (constantI S_ 32 95#32),
    StableHlo.TRef.unary (.of main_c_18 : StableHlo.TRef sig ⟨S_, .i32⟩) main_call3.v0 (sitofp .f32),
    StableHlo.TRef.unary main_call3.v0 main_call3.v1 (broadcastInDim S2x65536 ![] bcast_S_S2x65536),
    StableHlo.TRef.binary main_call3.v1 (.of main_v52 : StableHlo.TRef sig ⟨S2x65536, .f32⟩) main_call3.v2 maximumf,
    StableHlo.TRef.unary (.of main_c_19 : StableHlo.TRef sig ⟨S_, .i32⟩) main_call3.v3 (sitofp .f32),
    StableHlo.TRef.unary main_call3.v3 main_call3.v4 (broadcastInDim S2x65536 ![] bcast_S_S2x65536),
    StableHlo.TRef.binary main_call3.v4 main_call3.v2 main_call3.v5 minimumf,
    StableHlo.unary main_v53 main_v54 (fptosi 32 : (⟨S2x65536, .f32⟩ : BufTy).Contents (Elt F) → (⟨S2x65536, .i32⟩ : BufTy).Contents (Elt F)),
    StableHlo.nullary main_c_20 (constantI S_ 32 0#32),
    StableHlo.unary main_c_20 main_v55 (broadcastInDim S2x65536 ![] bcast_S_S2x65536 : (⟨S_, .i32⟩ : BufTy).Contents (Elt F) → (⟨S2x65536, .i32⟩ : BufTy).Contents (Elt F)),
    StableHlo.binary main_v39 main_v55 main_v56 (cmpi .slt : (⟨S2x65536, .i32⟩ : BufTy).Contents (Elt F) → (⟨S2x65536, .i32⟩ : BufTy).Contents (Elt F) → (⟨S2x65536, .i1⟩ : BufTy).Contents (Elt F)),
    StableHlo.nullary main_c_21 (constantI S_ 32 96#32),
    StableHlo.unary main_c_21 main_v57 (broadcastInDim S2x65536 ![] bcast_S_S2x65536 : (⟨S_, .i32⟩ : BufTy).Contents (Elt F) → (⟨S2x65536, .i32⟩ : BufTy).Contents (Elt F)),
    StableHlo.binary main_v39 main_v57 main_v58 (addi : (⟨S2x65536, .i32⟩ : BufTy).Contents (Elt F) → (⟨S2x65536, .i32⟩ : BufTy).Contents (Elt F) → (⟨S2x65536, .i32⟩ : BufTy).Contents (Elt F)),
    StableHlo.ternary main_v56 main_v58 main_v39 main_v59 (select : (⟨S2x65536, .i1⟩ : BufTy).Contents (Elt F) → (⟨S2x65536, .i32⟩ : BufTy).Contents (Elt F) → (⟨S2x65536, .i32⟩ : BufTy).Contents (Elt F) → (⟨S2x65536, .i32⟩ : BufTy).Contents (Elt F)),
    StableHlo.nullary main_c_22 (constantI S_ 32 0#32),
    StableHlo.unary main_c_22 main_v60 (broadcastInDim S2x65536 ![] bcast_S_S2x65536 : (⟨S_, .i32⟩ : BufTy).Contents (Elt F) → (⟨S2x65536, .i32⟩ : BufTy).Contents (Elt F)),
    StableHlo.binary main_v54 main_v60 main_v61 (cmpi .slt : (⟨S2x65536, .i32⟩ : BufTy).Contents (Elt F) → (⟨S2x65536, .i32⟩ : BufTy).Contents (Elt F) → (⟨S2x65536, .i1⟩ : BufTy).Contents (Elt F)),
    StableHlo.nullary main_c_23 (constantI S_ 32 96#32),
    StableHlo.unary main_c_23 main_v62 (broadcastInDim S2x65536 ![] bcast_S_S2x65536 : (⟨S_, .i32⟩ : BufTy).Contents (Elt F) → (⟨S2x65536, .i32⟩ : BufTy).Contents (Elt F)),
    StableHlo.binary main_v54 main_v62 main_v63 (addi : (⟨S2x65536, .i32⟩ : BufTy).Contents (Elt F) → (⟨S2x65536, .i32⟩ : BufTy).Contents (Elt F) → (⟨S2x65536, .i32⟩ : BufTy).Contents (Elt F)),
    StableHlo.ternary main_v61 main_v63 main_v54 main_v64 (select : (⟨S2x65536, .i1⟩ : BufTy).Contents (Elt F) → (⟨S2x65536, .i32⟩ : BufTy).Contents (Elt F) → (⟨S2x65536, .i32⟩ : BufTy).Contents (Elt F) → (⟨S2x65536, .i32⟩ : BufTy).Contents (Elt F)),
    StableHlo.unary main_v59 main_v65 (broadcastInDim S2x65536x1 ![0, 1] bcast_S2x65536_S2x65536x1_0_1 : (⟨S2x65536, .i32⟩ : BufTy).Contents (Elt F) → (⟨S2x65536x1, .i32⟩ : BufTy).Contents (Elt F)),
    StableHlo.unary main_v64 main_v66 (broadcastInDim S2x65536x1 ![0, 1] bcast_S2x65536_S2x65536x1_0_1 : (⟨S2x65536, .i32⟩ : BufTy).Contents (Elt F) → (⟨S2x65536x1, .i32⟩ : BufTy).Contents (Elt F)),
    StableHlo.binary main_v65 main_v66 main_v67 ((fun a b => concatenate S2x65536x2 2 [⟨S2x65536x1, a⟩, ⟨S2x65536x1, b⟩] concatenates_S2x65536x1_S2x65536x1_S2x65536x2_d2) : (⟨S2x65536x1, .i32⟩ : BufTy).Contents (Elt F) → (⟨S2x65536x1, .i32⟩ : BufTy).Contents (Elt F) → (⟨S2x65536x2, .i32⟩ : BufTy).Contents (Elt F)),
    StableHlo.binary main_v20 main_v67 main_v68 ((fun x i => Host.gather gather_S2x576x96x96_S2x65536x2_S2x576x65536_1_23_0_0_23_2_157611 x i) : (⟨S2x576x96x96, .f32⟩ : BufTy).Contents (Elt F) → (⟨S2x65536x2, .i32⟩ : BufTy).Contents (Elt F) → (⟨S2x576x65536, .f32⟩ : BufTy).Contents (Elt F)),
    StableHlo.unary main_v68 main_v69 ((transpose S2x65536x576 [0, 2, 1] · transposes_S2x576x65536_S2x65536x576_0_2_1) : (⟨S2x576x65536, .f32⟩ : BufTy).Contents (Elt F) → (⟨S2x65536x576, .f32⟩ : BufTy).Contents (Elt F)),
    StableHlo.unary main_v39 main_v70 (sitofp .f32 : (⟨S2x65536, .i32⟩ : BufTy).Contents (Elt F) → (⟨S2x65536, .f32⟩ : BufTy).Contents (Elt F)),
    StableHlo.nullary main_cst_24 (constant S_ .f32 0x40000000#32),
    StableHlo.unary main_cst_24 main_v71 (broadcastInDim S2x65536 ![] bcast_S_S2x65536 : (⟨S_, .f32⟩ : BufTy).Contents (Elt F) → (⟨S2x65536, .f32⟩ : BufTy).Contents (Elt F)),
    StableHlo.binary main_v71 main_v70 main_v72 (mulf : (⟨S2x65536, .f32⟩ : BufTy).Contents (Elt F) → (⟨S2x65536, .f32⟩ : BufTy).Contents (Elt F) → (⟨S2x65536, .f32⟩ : BufTy).Contents (Elt F)),
    StableHlo.nullary main_cst_25 (constant S_ .f32 0x3F800000#32),
    StableHlo.unary main_cst_25 main_v73 (broadcastInDim S2x65536 ![] bcast_S_S2x65536 : (⟨S_, .f32⟩ : BufTy).Contents (Elt F) → (⟨S2x65536, .f32⟩ : BufTy).Contents (Elt F)),
    StableHlo.binary main_v72 main_v73 main_v74 (addf : (⟨S2x65536, .f32⟩ : BufTy).Contents (Elt F) → (⟨S2x65536, .f32⟩ : BufTy).Contents (Elt F) → (⟨S2x65536, .f32⟩ : BufTy).Contents (Elt F)),
    StableHlo.nullary main_cst_26 (constant S_ .f32 0x42C00000#32),
    StableHlo.unary main_cst_26 main_v75 (broadcastInDim S2x65536 ![] bcast_S_S2x65536 : (⟨S_, .f32⟩ : BufTy).Contents (Elt F) → (⟨S2x65536, .f32⟩ : BufTy).Contents (Elt F)),
    StableHlo.binary main_v74 main_v75 main_v76 (Host.divf : (⟨S2x65536, .f32⟩ : BufTy).Contents (Elt F) → (⟨S2x65536, .f32⟩ : BufTy).Contents (Elt F) → (⟨S2x65536, .f32⟩ : BufTy).Contents (Elt F)),
    StableHlo.nullary main_cst_27 (constant S_ .f32 0xBF800000#32),
    StableHlo.unary main_cst_27 main_v77 (broadcastInDim S2x65536 ![] bcast_S_S2x65536 : (⟨S_, .f32⟩ : BufTy).Contents (Elt F) → (⟨S2x65536, .f32⟩ : BufTy).Contents (Elt F)),
    StableHlo.binary main_v77 main_v76 main_v78 (addf : (⟨S2x65536, .f32⟩ : BufTy).Contents (Elt F) → (⟨S2x65536, .f32⟩ : BufTy).Contents (Elt F) → (⟨S2x65536, .f32⟩ : BufTy).Contents (Elt F)),
    StableHlo.unary main_v54 main_v79 (sitofp .f32 : (⟨S2x65536, .i32⟩ : BufTy).Contents (Elt F) → (⟨S2x65536, .f32⟩ : BufTy).Contents (Elt F)),
    StableHlo.nullary main_cst_28 (constant S_ .f32 0x40000000#32),
    StableHlo.unary main_cst_28 main_v80 (broadcastInDim S2x65536 ![] bcast_S_S2x65536 : (⟨S_, .f32⟩ : BufTy).Contents (Elt F) → (⟨S2x65536, .f32⟩ : BufTy).Contents (Elt F)),
    StableHlo.binary main_v80 main_v79 main_v81 (mulf : (⟨S2x65536, .f32⟩ : BufTy).Contents (Elt F) → (⟨S2x65536, .f32⟩ : BufTy).Contents (Elt F) → (⟨S2x65536, .f32⟩ : BufTy).Contents (Elt F)),
    StableHlo.nullary main_cst_29 (constant S_ .f32 0x3F800000#32),
    StableHlo.unary main_cst_29 main_v82 (broadcastInDim S2x65536 ![] bcast_S_S2x65536 : (⟨S_, .f32⟩ : BufTy).Contents (Elt F) → (⟨S2x65536, .f32⟩ : BufTy).Contents (Elt F)),
    StableHlo.binary main_v81 main_v82 main_v83 (addf : (⟨S2x65536, .f32⟩ : BufTy).Contents (Elt F) → (⟨S2x65536, .f32⟩ : BufTy).Contents (Elt F) → (⟨S2x65536, .f32⟩ : BufTy).Contents (Elt F)),
    StableHlo.nullary main_cst_30 (constant S_ .f32 0x42C00000#32),
    StableHlo.unary main_cst_30 main_v84 (broadcastInDim S2x65536 ![] bcast_S_S2x65536 : (⟨S_, .f32⟩ : BufTy).Contents (Elt F) → (⟨S2x65536, .f32⟩ : BufTy).Contents (Elt F)),
    StableHlo.binary main_v83 main_v84 main_v85 (Host.divf : (⟨S2x65536, .f32⟩ : BufTy).Contents (Elt F) → (⟨S2x65536, .f32⟩ : BufTy).Contents (Elt F) → (⟨S2x65536, .f32⟩ : BufTy).Contents (Elt F)),
    StableHlo.nullary main_cst_31 (constant S_ .f32 0xBF800000#32) ]

set_option maxRecDepth 8192 in
set_option maxHeartbeats 4000000 in
/-- The window is that straight line: each callee unfolded at its call, sequencing reassociated. -/
theorem main_part1_eq (c : Dev nD) : main_part1 (F := F) c = seq ops1 := by
  simp only [main_part1, fn_pad.body, fn_clip.body, fn_clip_0.body, fn_relu.body, seq, bind_assoc, pure_bind] <;> rfl

/-- Every operation of the window touches TensorCore references only. -/
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub ..⟩

/-- Every operation of the window determines the buffers it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops1_W : List (Ref sig .tc) :=
  [main_cst_14, main_v44, main_v45, main_cst_15, main_v46, main_v47, main_cst_16, main_v48, main_v49, main_cst_17, main_v50, main_v51, main_v52, main_c_18, main_c_19, main_call3_v0, main_call3_v1, main_call3_v2, main_call3_v3, main_call3_v4, main_v53, main_v54, main_c_20, main_v55, main_v56, main_c_21, main_v57, main_v58, main_v59, main_c_22, main_v60, main_v61, main_c_23, main_v62, main_v63, main_v64, main_v65, main_v66, main_v67, main_v68, main_v69, main_v70, main_cst_24, main_v71, main_v72, main_cst_25, main_v73, main_v74, main_cst_26, main_v75, main_v76, main_cst_27, main_v77, main_v78, main_v79, main_cst_28, main_v80, main_v81, main_cst_29, main_v82, main_v83, main_cst_30, main_v84, main_v85, main_cst_31]

/-- A reference of a list, as a device buffer, lies in the list's set of device buffers. -/
private theorem single_sub_of_mem {W : List (Ref sig .tc)} (y : Ref sig .tc) (h : y ∈ W) :
    ({(y : DevRef τ sig)} : Finset (DevRef τ sig)) ⊆ (W.map (Proc.devRef (τ := τ) .tc)).toFinset :=
  Finset.singleton_subset_iff.2 (List.mem_toFinset.2 (List.mem_map_of_mem h))

/-- Each operation writes its one result buffer, which the list holds. -/
theorem ops1_writes : (ops1 : List (HloOp τ sig (Elt F))).Forall fun op => op.writes ⊆ (ops1_W.map (Proc.devRef (τ := τ) .tc)).toFinset :=
  ⟨single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide)⟩

end Cert.ReferenceIdeal.Hand

end
-- ==== Proof.ROps2.lean ====
import proofs.«100126_j36189394436483_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 2, in order: 73 host operations, a call standing as its callee's operations over the call's buffer record. -/
abbrev ops2 : List (HloOp τ sig (Elt F)) :=
  [ StableHlo.unary main_cst_31 main_v86 (broadcastInDim S2x65536 ![] bcast_S_S2x65536 : (⟨S_, .f32⟩ : BufTy).Contents (Elt F) → (⟨S2x65536, .f32⟩ : BufTy).Contents (Elt F)),
    StableHlo.binary main_v86 main_v85 main_v87 (addf : (⟨S2x65536, .f32⟩ : BufTy).Contents (Elt F) → (⟨S2x65536, .f32⟩ : BufTy).Contents (Elt F) → (⟨S2x65536, .f32⟩ : BufTy).Contents (Elt F)),
    StableHlo.unary main_v78 main_v88 (broadcastInDim S2x65536x1 ![0, 1] bcast_S2x65536_S2x65536x1_0_1 : (⟨S2x65536, .f32⟩ : BufTy).Contents (Elt F) → (⟨S2x65536x1, .f32⟩ : BufTy).Contents (Elt F)),
    StableHlo.unary main_v87 main_v89 (broadcastInDim S2x65536x1 ![0, 1] bcast_S2x65536_S2x65536x1_0_1 : (⟨S2x65536, .f32⟩ : BufTy).Contents (Elt F) → (⟨S2x65536x1, .f32⟩ : BufTy).Contents (Elt F)),
    StableHlo.binary main_v88 main_v89 main_v90 ((fun a b => concatenate S2x65536x2 2 [⟨S2x65536x1, a⟩, ⟨S2x65536x1, b⟩] concatenates_S2x65536x1_S2x65536x1_S2x65536x2_d2) : (⟨S2x65536x1, .f32⟩ : BufTy).Contents (Elt F) → (⟨S2x65536x1, .f32⟩ : BufTy).Contents (Elt F) → (⟨S2x65536x2, .f32⟩ : BufTy).Contents (Elt F)),
    StableHlo.unary main_v90 main_v91 (id : (⟨S2x65536x2, .f32⟩ : BufTy).Contents (Elt F) → (⟨S2x65536x2, .f32⟩ : BufTy).Contents (Elt F)),
    StableHlo.binary main_arg1 main_v91 main_v92 (subf : (⟨S2x65536x2, .f32⟩ : BufTy).Contents (Elt F) → (⟨S2x65536x2, .f32⟩ : BufTy).Contents (Elt F) → (⟨S2x65536x2, .f32⟩ : BufTy).Contents (Elt F)),
    StableHlo.unary main_cst main_v93 (broadcastInDim S1x1x2 ![2] bcast_S2_S1x1x2_2 : (⟨S2, .f32⟩ : BufTy).Contents (Elt F) → (⟨S1x1x2, .f32⟩ : BufTy).Contents (Elt F)),
    StableHlo.unary main_v93 main_v94 (broadcastInDim S2x65536x2 ![0, 1, 2] bcast_S1x1x2_S2x65536x2_0_1_2 : (⟨S1x1x2, .f32⟩ : BufTy).Contents (Elt F) → (⟨S2x65536x2, .f32⟩ : BufTy).Contents (Elt F)),
    StableHlo.binary main_v92 main_v94 main_v95 (mulf : (⟨S2x65536x2, .f32⟩ : BufTy).Contents (Elt F) → (⟨S2x65536x2, .f32⟩ : BufTy).Contents (Elt F) → (⟨S2x65536x2, .f32⟩ : BufTy).Contents (Elt F)),
    StableHlo.unary main_cst main_v96 (broadcastInDim S1x1x2 ![2] bcast_S2_S1x1x2_2 : (⟨S2, .f32⟩ : BufTy).Contents (Elt F) → (⟨S1x1x2, .f32⟩ : BufTy).Contents (Elt F)),
    StableHlo.unary main_v96 main_v97 (broadcastInDim S2x65536x2 ![0, 1, 2] bcast_S1x1x2_S2x65536x2_0_1_2 : (⟨S1x1x2, .f32⟩ : BufTy).Contents (Elt F) → (⟨S2x65536x2, .f32⟩ : BufTy).Contents (Elt F)),
    StableHlo.binary main_arg2 main_v97 main_v98 (mulf : (⟨S2x65536x2, .f32⟩ : BufTy).Contents (Elt F) → (⟨S2x65536x2, .f32⟩ : BufTy).Contents (Elt F) → (⟨S2x65536x2, .f32⟩ : BufTy).Contents (Elt F)),
    StableHlo.nary ![main_v69, main_v95, main_v98] main_v99 (fun u => concatenate S2x65536x580 2 [⟨S2x65536x576, u 0⟩, ⟨S2x65536x2, u 1⟩, ⟨S2x65536x2, u 2⟩] concatenates_S2x65536x576_S2x65536x2_S2x65536x2_S2x65536x580_d2),
    StableHlo.reshape main_v99 main_v100 rfl shapeCasts_S2x65536x580_S131072x580,
    StableHlo.binary main_v100 main_arg3 main_v101 ((fun l r => Host.dotGeneral dot_S131072x580_S580x256_S131072x256_1_0_0_1_n_n none l r) : (⟨S131072x580, .f32⟩ : BufTy).Contents (Elt F) → (⟨S580x256, .f32⟩ : BufTy).Contents (Elt F) → (⟨S131072x256, .f32⟩ : BufTy).Contents (Elt F)),
    StableHlo.unary main_arg4 main_v102 (broadcastInDim S1x256 ![1] bcast_S256_S1x256_1 : (⟨S256, .f32⟩ : BufTy).Contents (Elt F) → (⟨S1x256, .f32⟩ : BufTy).Contents (Elt F)),
    StableHlo.unary main_v102 main_v103 (broadcastInDim S131072x256 ![0, 1] bcast_S1x256_S131072x256_0_1 : (⟨S1x256, .f32⟩ : BufTy).Contents (Elt F) → (⟨S131072x256, .f32⟩ : BufTy).Contents (Elt F)),
    StableHlo.binary main_v101 main_v103 main_v104 (addf : (⟨S131072x256, .f32⟩ : BufTy).Contents (Elt F) → (⟨S131072x256, .f32⟩ : BufTy).Contents (Elt F) → (⟨S131072x256, .f32⟩ : BufTy).Contents (Elt F)),
    StableHlo.TRef.nullary main_call4.cst (constant S_ .f32 0x00000000#32),
    StableHlo.TRef.unary main_call4.cst main_call4.v0 (broadcastInDim S131072x256 ![] bcast_S_S131072x256),
    StableHlo.TRef.binary (.of main_v104 : StableHlo.TRef sig ⟨S131072x256, .f32⟩) main_call4.v0 main_call4.v1 maximumf,
    StableHlo.binary main_v105 main_arg5 main_v106 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    StableHlo.unary main_arg6 main_v107 (broadcastInDim S1x256 ![1] bcast_S256_S1x256_1 : (⟨S256, .f32⟩ : BufTy).Contents (Elt F) → (⟨S1x256, .f32⟩ : BufTy).Contents (Elt F)),
    StableHlo.unary main_v107 main_v108 (broadcastInDim S131072x256 ![0, 1] bcast_S1x256_S131072x256_0_1 : (⟨S1x256, .f32⟩ : BufTy).Contents (Elt F) → (⟨S131072x256, .f32⟩ : BufTy).Contents (Elt F)),
    StableHlo.binary main_v106 main_v108 main_v109 (addf : (⟨S131072x256, .f32⟩ : BufTy).Contents (Elt F) → (⟨S131072x256, .f32⟩ : BufTy).Contents (Elt F) → (⟨S131072x256, .f32⟩ : BufTy).Contents (Elt F)),
    StableHlo.TRef.nullary main_call5.cst (constant S_ .f32 0x00000000#32),
    StableHlo.TRef.unary main_call5.cst main_call5.v0 (broadcastInDim S131072x256 ![] bcast_S_S131072x256),
    StableHlo.TRef.binary (.of main_v109 : StableHlo.TRef sig ⟨S131072x256, .f32⟩) main_call5.v0 main_call5.v1 maximumf,
    StableHlo.binary main_v110 main_arg7 main_v111 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    StableHlo.unary main_arg8 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S131072x256 ![0, 1] bcast_S1x256_S131072x256_0_1 : (⟨S1x256, .f32⟩ : BufTy).Contents (Elt F) → (⟨S131072x256, .f32⟩ : BufTy).Contents (Elt F)),
    StableHlo.binary main_v111 main_v113 main_v114 (addf : (⟨S131072x256, .f32⟩ : BufTy).Contents (Elt F) → (⟨S131072x256, .f32⟩ : BufTy).Contents (Elt F) → (⟨S131072x256, .f32⟩ : BufTy).Contents (Elt F)),
    StableHlo.TRef.nullary main_call6.cst (constant S_ .f32 0x00000000#32),
    StableHlo.TRef.unary main_call6.cst main_call6.v0 (broadcastInDim S131072x256 ![] bcast_S_S131072x256),
    StableHlo.TRef.binary (.of main_v114 : StableHlo.TRef sig ⟨S131072x256, .f32⟩) main_call6.v0 main_call6.v1 maximumf,
    StableHlo.binary main_v115 main_arg9 main_v116 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    StableHlo.unary main_arg10 main_v117 (broadcastInDim S1x256 ![1] bcast_S256_S1x256_1 : (⟨S256, .f32⟩ : BufTy).Contents (Elt F) → (⟨S1x256, .f32⟩ : BufTy).Contents (Elt F)),
    StableHlo.unary main_v117 main_v118 (broadcastInDim S131072x256 ![0, 1] bcast_S1x256_S131072x256_0_1 : (⟨S1x256, .f32⟩ : BufTy).Contents (Elt F) → (⟨S131072x256, .f32⟩ : BufTy).Contents (Elt F)),
    StableHlo.binary main_v116 main_v118 main_v119 (addf : (⟨S131072x256, .f32⟩ : BufTy).Contents (Elt F) → (⟨S131072x256, .f32⟩ : BufTy).Contents (Elt F) → (⟨S131072x256, .f32⟩ : BufTy).Contents (Elt F)),
    StableHlo.TRef.nullary main_call7.cst (constant S_ .f32 0x00000000#32),
    StableHlo.TRef.unary main_call7.cst main_call7.v0 (broadcastInDim S131072x256 ![] bcast_S_S131072x256),
    StableHlo.TRef.binary (.of main_v119 : StableHlo.TRef sig ⟨S131072x256, .f32⟩) main_call7.v0 main_call7.v1 maximumf,
    StableHlo.binary main_v120 main_arg11 main_v121 ((fun l r => Host.dotGeneral dot_S131072x256_S256x2_S131072x2_1_0_0_1_n_n none l r) : (⟨S131072x256, .f32⟩ : BufTy).Contents (Elt F) → (⟨S256x2, .f32⟩ : BufTy).Contents (Elt F) → (⟨S131072x2, .f32⟩ : BufTy).Contents (Elt F)),
    StableHlo.unary main_arg12 main_v122 (broadcastInDim S1x2 ![1] bcast_S2_S1x2_1 : (⟨S2, .f32⟩ : BufTy).Contents (Elt F) → (⟨S1x2, .f32⟩ : BufTy).Contents (Elt F)),
    StableHlo.unary main_v122 main_v123 (broadcastInDim S131072x2 ![0, 1] bcast_S1x2_S131072x2_0_1 : (⟨S1x2, .f32⟩ : BufTy).Contents (Elt F) → (⟨S131072x2, .f32⟩ : BufTy).Contents (Elt F)),
    StableHlo.binary main_v121 main_v123 main_v124 (addf : (⟨S131072x2, .f32⟩ : BufTy).Contents (Elt F) → (⟨S131072x2, .f32⟩ : BufTy).Contents (Elt F) → (⟨S131072x2, .f32⟩ : BufTy).Contents (Elt F)),
    StableHlo.reshape main_v124 main_v125 rfl shapeCasts_S131072x2_S2x65536x2,
    StableHlo.unary main_v95 main_v126 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v126 main_v127 rfl shapeCasts_S2x65536x1_S2x65536,
    StableHlo.unary main_v95 main_v128 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v128 main_v129 rfl shapeCasts_S2x65536x1_S2x65536,
    StableHlo.binary main_v127 main_v129 main_v130 (mulf : (⟨S2x65536, .f32⟩ : BufTy).Contents (Elt F) → (⟨S2x65536, .f32⟩ : BufTy).Contents (Elt F) → (⟨S2x65536, .f32⟩ : BufTy).Contents (Elt F)),
    StableHlo.unary main_v130 main_v131 (Host.absf : (⟨S2x65536, .f32⟩ : BufTy).Contents (Elt F) → (⟨S2x65536, .f32⟩ : BufTy).Contents (Elt F)),
    StableHlo.nullary main_cst_32 (constant S_ .f32 0x3089705F#32),
    StableHlo.unary main_cst_32 main_v132 (broadcastInDim S2x65536 ![] bcast_S_S2x65536 : (⟨S_, .f32⟩ : BufTy).Contents (Elt F) → (⟨S2x65536, .f32⟩ : BufTy).Contents (Elt F)),
    StableHlo.binary main_v131 main_v132 main_v133 (addf : (⟨S2x65536, .f32⟩ : BufTy).Contents (Elt F) → (⟨S2x65536, .f32⟩ : BufTy).Contents (Elt F) → (⟨S2x65536, .f32⟩ : BufTy).Contents (Elt F)),
    StableHlo.unary main_cst_1 main_v134 (broadcastInDim S1x1x2 ![2] bcast_S2_S1x1x2_2 : (⟨S2, .f32⟩ : BufTy).Contents (Elt F) → (⟨S1x1x2, .f32⟩ : BufTy).Contents (Elt F)),
    StableHlo.unary main_v134 main_v135 (broadcastInDim S2x65536x2 ![0, 1, 2] bcast_S1x1x2_S2x65536x2_0_1_2 : (⟨S1x1x2, .f32⟩ : BufTy).Contents (Elt F) → (⟨S2x65536x2, .f32⟩ : BufTy).Contents (Elt F)),
    StableHlo.binary main_arg1 main_v135 main_v136 (addf : (⟨S2x65536x2, .f32⟩ : BufTy).Contents (Elt F) → (⟨S2x65536x2, .f32⟩ : BufTy).Contents (Elt F) → (⟨S2x65536x2, .f32⟩ : BufTy).Contents (Elt F)),
    StableHlo.nullary main_cst_33 (constant S_ .f32 0xBF7FFFEF#32),
    StableHlo.nullary main_cst_34 (constant S_ .f32 0x3F7FFFEF#32),
    StableHlo.TRef.unary (.of main_cst_33 : StableHlo.TRef sig ⟨S_, .f32⟩) main_call8.v0 id,
    StableHlo.TRef.unary main_call8.v0 main_call8.v1 (broadcastInDim S2x65536x2 ![] bcast_S_S2x65536x2),
    StableHlo.TRef.binary main_call8.v1 (.of main_v136 : StableHlo.TRef sig ⟨S2x65536x2, .f32⟩) main_call8.v2 maximumf,
    StableHlo.TRef.unary (.of main_cst_34 : StableHlo.TRef sig ⟨S_, .f32⟩) main_call8.v3 id,
    StableHlo.TRef.unary main_call8.v3 main_call8.v4 (broadcastInDim S2x65536x2 ![] bcast_S_S2x65536x2),
    StableHlo.TRef.binary main_call8.v4 main_call8.v2 main_call8.v5 minimumf,
    StableHlo.unary main_v137 main_v138 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v138 main_v139 rfl shapeCasts_S2x65536x1_S2x65536,
    StableHlo.nullary main_cst_35 (constant S_ .f32 0x3F800000#32),
    StableHlo.unary main_cst_35 main_v140 (broadcastInDim S2x65536 ![] bcast_S_S2x65536 : (⟨S_, .f32⟩ : BufTy).Contents (Elt F) → (⟨S2x65536, .f32⟩ : BufTy).Contents (Elt F)),
    StableHlo.binary main_v139 main_v140 main_v141 (addf : (⟨S2x65536, .f32⟩ : BufTy).Contents (Elt F) → (⟨S2x65536, .f32⟩ : BufTy).Contents (Elt F) → (⟨S2x65536, .f32⟩ : BufTy).Contents (Elt F)) ]

set_option maxRecDepth 8192 in
set_option maxHeartbeats 4000000 in
/-- The window is that straight line: each callee unfolded at its call, sequencing reassociated. -/
theorem main_part2_eq (c : Dev nD) : main_part2 (F := F) c = seq ops2 := by
  simp only [main_part2, fn_pad.body, fn_clip.body, fn_clip_0.body, fn_relu.body, seq, bind_assoc, pure_bind] <;> rfl

/-- Every operation of the window touches TensorCore references only. -/
theorem ops2_sub : (ops2 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., binary_bufs_sub .., nary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., unary_bufs_sub .., reshape_bufs_sub .., unary_bufs_sub .., reshape_bufs_sub .., binary_bufs_sub .., unary_bufs_sub .., nullary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub ..⟩

/-- Every operation of the window determines the buffers it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops2_W : List (Ref sig .tc) :=
  [main_v86, main_v87, main_v88, main_v89, main_v90, main_v91, main_v92, main_v93, main_v94, main_v95, main_v96, main_v97, main_v98, main_v99, main_v100, main_v101, main_v102, main_v103, main_v104, main_call4_cst, main_call4_v0, main_v105, main_v106, main_v107, main_v108, main_v109, main_call5_cst, main_call5_v0, main_v110, main_v111, main_v112, main_v113, main_v114, main_call6_cst, main_call6_v0, main_v115, main_v116, main_v117, main_v118, main_v119, main_call7_cst, main_call7_v0, main_v120, main_v121, main_v122, main_v123, main_v124, main_v125, main_v126, main_v127, main_v128, main_v129, main_v130, main_v131, main_cst_32, main_v132, main_v133, main_v134, main_v135, main_v136, main_cst_33, main_cst_34, main_call8_v0, main_call8_v1, main_call8_v2, main_call8_v3, main_call8_v4, main_v137, main_v138, main_v139, main_cst_35, main_v140, main_v141]

/-- A reference of a list, as a device buffer, lies in the list's set of device buffers. -/
private theorem single_sub_of_mem {W : List (Ref sig .tc)} (y : Ref sig .tc) (h : y ∈ W) :
    ({(y : DevRef τ sig)} : Finset (DevRef τ sig)) ⊆ (W.map (Proc.devRef (τ := τ) .tc)).toFinset :=
  Finset.singleton_subset_iff.2 (List.mem_toFinset.2 (List.mem_map_of_mem h))

/-- Each operation writes its one result buffer, which the list holds. -/
theorem ops2_writes : (ops2 : List (HloOp τ sig (Elt F))).Forall fun op => op.writes ⊆ (ops2_W.map (Proc.devRef (τ := τ) .tc)).toFinset :=
  ⟨single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide)⟩

end Cert.ReferenceIdeal.Hand

end
-- ==== Proof.ROps3.lean ====
import proofs.«100126_j36189394436483_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 3, in order: 70 host operations, a call standing as its callee's operations over the call's buffer record. -/
abbrev ops3 : List (HloOp τ sig (Elt F)) :=
  [ StableHlo.nullary main_cst_36 (constant S_ .f32 0x42C00000#32),
    StableHlo.unary main_cst_36 main_v142 (broadcastInDim S2x65536 ![] bcast_S_S2x65536 : (⟨S_, .f32⟩ : BufTy).Contents (Elt F) → (⟨S2x65536, .f32⟩ : BufTy).Contents (Elt F)),
    StableHlo.binary main_v141 main_v142 main_v143 (mulf : (⟨S2x65536, .f32⟩ : BufTy).Contents (Elt F) → (⟨S2x65536, .f32⟩ : BufTy).Contents (Elt F) → (⟨S2x65536, .f32⟩ : BufTy).Contents (Elt F)),
    StableHlo.nullary main_cst_37 (constant S_ .f32 0x3F800000#32),
    StableHlo.unary main_cst_37 main_v144 (broadcastInDim S2x65536 ![] bcast_S_S2x65536 : (⟨S_, .f32⟩ : BufTy).Contents (Elt F) → (⟨S2x65536, .f32⟩ : BufTy).Contents (Elt F)),
    StableHlo.binary main_v143 main_v144 main_v145 (subf : (⟨S2x65536, .f32⟩ : BufTy).Contents (Elt F) → (⟨S2x65536, .f32⟩ : BufTy).Contents (Elt F) → (⟨S2x65536, .f32⟩ : BufTy).Contents (Elt F)),
    StableHlo.nullary main_cst_38 (constant S_ .f32 0x3F000000#32),
    StableHlo.unary main_cst_38 main_v146 (broadcastInDim S2x65536 ![] bcast_S_S2x65536 : (⟨S_, .f32⟩ : BufTy).Contents (Elt F) → (⟨S2x65536, .f32⟩ : BufTy).Contents (Elt F)),
    StableHlo.binary main_v145 main_v146 main_v147 (mulf : (⟨S2x65536, .f32⟩ : BufTy).Contents (Elt F) → (⟨S2x65536, .f32⟩ : BufTy).Contents (Elt F) → (⟨S2x65536, .f32⟩ : BufTy).Contents (Elt F)),
    StableHlo.nullary main_cst_39 (constant S_ .f32 0x3F000000#32),
    StableHlo.unary main_cst_39 main_v148 (broadcastInDim S2x65536 ![] bcast_S_S2x65536 : (⟨S_, .f32⟩ : BufTy).Contents (Elt F) → (⟨S2x65536, .f32⟩ : BufTy).Contents (Elt F)),
    StableHlo.binary main_v147 main_v148 main_v149 (addf : (⟨S2x65536, .f32⟩ : BufTy).Contents (Elt F) → (⟨S2x65536, .f32⟩ : BufTy).Contents (Elt F) → (⟨S2x65536, .f32⟩ : BufTy).Contents (Elt F)),
    StableHlo.unary main_v149 main_v150 (Host.floor : (⟨S2x65536, .f32⟩ : BufTy).Contents (Elt F) → (⟨S2x65536, .f32⟩ : BufTy).Contents (Elt F)),
    StableHlo.nullary main_c_40 (constantI S_ 32 0#32),
    StableHlo.nullary main_c_41 (constantI S_ 32 95#32),
    StableHlo.TRef.unary (.of main_c_40 : StableHlo.TRef sig ⟨S_, .i32⟩) main_call9.v0 (sitofp .f32),
    StableHlo.TRef.unary main_call9.v0 main_call9.v1 (broadcastInDim S2x65536 ![] bcast_S_S2x65536),
    StableHlo.TRef.binary main_call9.v1 (.of main_v150 : StableHlo.TRef sig ⟨S2x65536, .f32⟩) main_call9.v2 maximumf,
    StableHlo.TRef.unary (.of main_c_41 : StableHlo.TRef sig ⟨S_, .i32⟩) main_call9.v3 (sitofp .f32),
    StableHlo.TRef.unary main_call9.v3 main_call9.v4 (broadcastInDim S2x65536 ![] bcast_S_S2x65536),
    StableHlo.TRef.binary main_call9.v4 main_call9.v2 main_call9.v5 minimumf,
    StableHlo.unary main_v151 main_v152 (fptosi 32 : (⟨S2x65536, .f32⟩ : BufTy).Contents (Elt F) → (⟨S2x65536, .i32⟩ : BufTy).Contents (Elt F)),
    StableHlo.unary main_v137 main_v153 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v153 main_v154 rfl shapeCasts_S2x65536x1_S2x65536,
    StableHlo.nullary main_cst_42 (constant S_ .f32 0x3F800000#32),
    StableHlo.unary main_cst_42 main_v155 (broadcastInDim S2x65536 ![] bcast_S_S2x65536 : (⟨S_, .f32⟩ : BufTy).Contents (Elt F) → (⟨S2x65536, .f32⟩ : BufTy).Contents (Elt F)),
    StableHlo.binary main_v154 main_v155 main_v156 (addf : (⟨S2x65536, .f32⟩ : BufTy).Contents (Elt F) → (⟨S2x65536, .f32⟩ : BufTy).Contents (Elt F) → (⟨S2x65536, .f32⟩ : BufTy).Contents (Elt F)),
    StableHlo.nullary main_cst_43 (constant S_ .f32 0x42C00000#32),
    StableHlo.unary main_cst_43 main_v157 (broadcastInDim S2x65536 ![] bcast_S_S2x65536 : (⟨S_, .f32⟩ : BufTy).Contents (Elt F) → (⟨S2x65536, .f32⟩ : BufTy).Contents (Elt F)),
    StableHlo.binary main_v156 main_v157 main_v158 (mulf : (⟨S2x65536, .f32⟩ : BufTy).Contents (Elt F) → (⟨S2x65536, .f32⟩ : BufTy).Contents (Elt F) → (⟨S2x65536, .f32⟩ : BufTy).Contents (Elt F)),
    StableHlo.nullary main_cst_44 (constant S_ .f32 0x3F800000#32),
    StableHlo.unary main_cst_44 main_v159 (broadcastInDim S2x65536 ![] bcast_S_S2x65536 : (⟨S_, .f32⟩ : BufTy).Contents (Elt F) → (⟨S2x65536, .f32⟩ : BufTy).Contents (Elt F)),
    StableHlo.binary main_v158 main_v159 main_v160 (subf : (⟨S2x65536, .f32⟩ : BufTy).Contents (Elt F) → (⟨S2x65536, .f32⟩ : BufTy).Contents (Elt F) → (⟨S2x65536, .f32⟩ : BufTy).Contents (Elt F)),
    StableHlo.nullary main_cst_45 (constant S_ .f32 0x3F000000#32),
    StableHlo.unary main_cst_45 main_v161 (broadcastInDim S2x65536 ![] bcast_S_S2x65536 : (⟨S_, .f32⟩ : BufTy).Contents (Elt F) → (⟨S2x65536, .f32⟩ : BufTy).Contents (Elt F)),
    StableHlo.binary main_v160 main_v161 main_v162 (mulf : (⟨S2x65536, .f32⟩ : BufTy).Contents (Elt F) → (⟨S2x65536, .f32⟩ : BufTy).Contents (Elt F) → (⟨S2x65536, .f32⟩ : BufTy).Contents (Elt F)),
    StableHlo.nullary main_cst_46 (constant S_ .f32 0x3F000000#32),
    StableHlo.unary main_cst_46 main_v163 (broadcastInDim S2x65536 ![] bcast_S_S2x65536 : (⟨S_, .f32⟩ : BufTy).Contents (Elt F) → (⟨S2x65536, .f32⟩ : BufTy).Contents (Elt F)),
    StableHlo.binary main_v162 main_v163 main_v164 (addf : (⟨S2x65536, .f32⟩ : BufTy).Contents (Elt F) → (⟨S2x65536, .f32⟩ : BufTy).Contents (Elt F) → (⟨S2x65536, .f32⟩ : BufTy).Contents (Elt F)),
    StableHlo.unary main_v164 main_v165 (Host.floor : (⟨S2x65536, .f32⟩ : BufTy).Contents (Elt F) → (⟨S2x65536, .f32⟩ : BufTy).Contents (Elt F)),
    StableHlo.nullary main_c_47 (constantI S_ 32 0#32),
    StableHlo.nullary main_c_48 (constantI S_ 32 95#32),
    StableHlo.TRef.unary (.of main_c_47 : StableHlo.TRef sig ⟨S_, .i32⟩) main_call10.v0 (sitofp .f32),
    StableHlo.TRef.unary main_call10.v0 main_call10.v1 (broadcastInDim S2x65536 ![] bcast_S_S2x65536),
    StableHlo.TRef.binary main_call10.v1 (.of main_v165 : StableHlo.TRef sig ⟨S2x65536, .f32⟩) main_call10.v2 maximumf,
    StableHlo.TRef.unary (.of main_c_48 : StableHlo.TRef sig ⟨S_, .i32⟩) main_call10.v3 (sitofp .f32),
    StableHlo.TRef.unary main_call10.v3 main_call10.v4 (broadcastInDim S2x65536 ![] bcast_S_S2x65536),
    StableHlo.TRef.binary main_call10.v4 main_call10.v2 main_call10.v5 minimumf,
    StableHlo.unary main_v166 main_v167 (fptosi 32 : (⟨S2x65536, .f32⟩ : BufTy).Contents (Elt F) → (⟨S2x65536, .i32⟩ : BufTy).Contents (Elt F)),
    StableHlo.nullary main_c_49 (constantI S_ 32 0#32),
    StableHlo.unary main_c_49 main_v168 (broadcastInDim S2x65536 ![] bcast_S_S2x65536 : (⟨S_, .i32⟩ : BufTy).Contents (Elt F) → (⟨S2x65536, .i32⟩ : BufTy).Contents (Elt F)),
    StableHlo.binary main_v152 main_v168 main_v169 (cmpi .slt : (⟨S2x65536, .i32⟩ : BufTy).Contents (Elt F) → (⟨S2x65536, .i32⟩ : BufTy).Contents (Elt F) → (⟨S2x65536, .i1⟩ : BufTy).Contents (Elt F)),
    StableHlo.nullary main_c_50 (constantI S_ 32 96#32),
    StableHlo.unary main_c_50 main_v170 (broadcastInDim S2x65536 ![] bcast_S_S2x65536 : (⟨S_, .i32⟩ : BufTy).Contents (Elt F) → (⟨S2x65536, .i32⟩ : BufTy).Contents (Elt F)),
    StableHlo.binary main_v152 main_v170 main_v171 (addi : (⟨S2x65536, .i32⟩ : BufTy).Contents (Elt F) → (⟨S2x65536, .i32⟩ : BufTy).Contents (Elt F) → (⟨S2x65536, .i32⟩ : BufTy).Contents (Elt F)),
    StableHlo.ternary main_v169 main_v171 main_v152 main_v172 (select : (⟨S2x65536, .i1⟩ : BufTy).Contents (Elt F) → (⟨S2x65536, .i32⟩ : BufTy).Contents (Elt F) → (⟨S2x65536, .i32⟩ : BufTy).Contents (Elt F) → (⟨S2x65536, .i32⟩ : BufTy).Contents (Elt F)),
    StableHlo.nullary main_c_51 (constantI S_ 32 0#32),
    StableHlo.unary main_c_51 main_v173 (broadcastInDim S2x65536 ![] bcast_S_S2x65536 : (⟨S_, .i32⟩ : BufTy).Contents (Elt F) → (⟨S2x65536, .i32⟩ : BufTy).Contents (Elt F)),
    StableHlo.binary main_v167 main_v173 main_v174 (cmpi .slt : (⟨S2x65536, .i32⟩ : BufTy).Contents (Elt F) → (⟨S2x65536, .i32⟩ : BufTy).Contents (Elt F) → (⟨S2x65536, .i1⟩ : BufTy).Contents (Elt F)),
    StableHlo.nullary main_c_52 (constantI S_ 32 96#32),
    StableHlo.unary main_c_52 main_v175 (broadcastInDim S2x65536 ![] bcast_S_S2x65536 : (⟨S_, .i32⟩ : BufTy).Contents (Elt F) → (⟨S2x65536, .i32⟩ : BufTy).Contents (Elt F)),
    StableHlo.binary main_v167 main_v175 main_v176 (addi : (⟨S2x65536, .i32⟩ : BufTy).Contents (Elt F) → (⟨S2x65536, .i32⟩ : BufTy).Contents (Elt F) → (⟨S2x65536, .i32⟩ : BufTy).Contents (Elt F)),
    StableHlo.ternary main_v174 main_v176 main_v167 main_v177 (select : (⟨S2x65536, .i1⟩ : BufTy).Contents (Elt F) → (⟨S2x65536, .i32⟩ : BufTy).Contents (Elt F) → (⟨S2x65536, .i32⟩ : BufTy).Contents (Elt F) → (⟨S2x65536, .i32⟩ : BufTy).Contents (Elt F)),
    StableHlo.unary main_v172 main_v178 (broadcastInDim S2x65536x1 ![0, 1] bcast_S2x65536_S2x65536x1_0_1 : (⟨S2x65536, .i32⟩ : BufTy).Contents (Elt F) → (⟨S2x65536x1, .i32⟩ : BufTy).Contents (Elt F)),
    StableHlo.unary main_v177 main_v179 (broadcastInDim S2x65536x1 ![0, 1] bcast_S2x65536_S2x65536x1_0_1 : (⟨S2x65536, .i32⟩ : BufTy).Contents (Elt F) → (⟨S2x65536x1, .i32⟩ : BufTy).Contents (Elt F)),
    StableHlo.binary main_v178 main_v179 main_v180 ((fun a b => concatenate S2x65536x2 2 [⟨S2x65536x1, a⟩, ⟨S2x65536x1, b⟩] concatenates_S2x65536x1_S2x65536x1_S2x65536x2_d2) : (⟨S2x65536x1, .i32⟩ : BufTy).Contents (Elt F) → (⟨S2x65536x1, .i32⟩ : BufTy).Contents (Elt F) → (⟨S2x65536x2, .i32⟩ : BufTy).Contents (Elt F)),
    StableHlo.binary main_v20 main_v180 main_v181 ((fun x i => Host.gather gather_S2x576x96x96_S2x65536x2_S2x576x65536_1_23_0_0_23_2_157611 x i) : (⟨S2x576x96x96, .f32⟩ : BufTy).Contents (Elt F) → (⟨S2x65536x2, .i32⟩ : BufTy).Contents (Elt F) → (⟨S2x576x65536, .f32⟩ : BufTy).Contents (Elt F)),
    StableHlo.unary main_v181 main_v182 ((transpose S2x65536x576 [0, 2, 1] · transposes_S2x576x65536_S2x65536x576_0_2_1) : (⟨S2x576x65536, .f32⟩ : BufTy).Contents (Elt F) → (⟨S2x65536x576, .f32⟩ : BufTy).Contents (Elt F)),
    StableHlo.unary main_v152 main_v183 (sitofp .f32 : (⟨S2x65536, .i32⟩ : BufTy).Contents (Elt F) → (⟨S2x65536, .f32⟩ : BufTy).Contents (Elt F)),
    StableHlo.nullary main_cst_53 (constant S_ .f32 0x40000000#32) ]

set_option maxRecDepth 8192 in
set_option maxHeartbeats 4000000 in
/-- The window is that straight line: each callee unfolded at its call, sequencing reassociated. -/
theorem main_part3_eq (c : Dev nD) : main_part3 (F := F) c = seq ops3 := by
  simp only [main_part3, fn_pad.body, fn_clip.body, fn_clip_0.body, fn_relu.body, seq, bind_assoc, pure_bind] <;> rfl

/-- Every operation of the window touches TensorCore references only. -/
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., nullary_bufs_sub ..⟩

/-- Every operation of the window determines the buffers it writes. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops3_W : List (Ref sig .tc) :=
  [main_cst_36, main_v142, main_v143, main_cst_37, main_v144, main_v145, main_cst_38, main_v146, main_v147, main_cst_39, main_v148, main_v149, main_v150, main_c_40, main_c_41, main_call9_v0, main_call9_v1, main_call9_v2, main_call9_v3, main_call9_v4, main_v151, main_v152, main_v153, main_v154, main_cst_42, main_v155, main_v156, main_cst_43, main_v157, main_v158, main_cst_44, main_v159, main_v160, main_cst_45, main_v161, main_v162, main_cst_46, main_v163, main_v164, main_v165, main_c_47, main_c_48, main_call10_v0, main_call10_v1, main_call10_v2, main_call10_v3, main_call10_v4, main_v166, main_v167, main_c_49, main_v168, main_v169, main_c_50, main_v170, main_v171, main_v172, main_c_51, main_v173, main_v174, main_c_52, main_v175, main_v176, main_v177, main_v178, main_v179, main_v180, main_v181, main_v182, main_v183, main_cst_53]

/-- A reference of a list, as a device buffer, lies in the list's set of device buffers. -/
private theorem single_sub_of_mem {W : List (Ref sig .tc)} (y : Ref sig .tc) (h : y ∈ W) :
    ({(y : DevRef τ sig)} : Finset (DevRef τ sig)) ⊆ (W.map (Proc.devRef (τ := τ) .tc)).toFinset :=
  Finset.singleton_subset_iff.2 (List.mem_toFinset.2 (List.mem_map_of_mem h))

/-- Each operation writes its one result buffer, which the list holds. -/
theorem ops3_writes : (ops3 : List (HloOp τ sig (Elt F))).Forall fun op => op.writes ⊆ (ops3_W.map (Proc.devRef (τ := τ) .tc)).toFinset :=
  ⟨single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide)⟩

end Cert.ReferenceIdeal.Hand

end
-- ==== Proof.ROps4.lean ====
import proofs.«100126_j36189394436483_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 4, in order: 68 host operations, a call standing as its callee's operations over the call's buffer record. -/
abbrev ops4 : List (HloOp τ sig (Elt F)) :=
  [ StableHlo.unary main_cst_53 main_v184 (broadcastInDim S2x65536 ![] bcast_S_S2x65536 : (⟨S_, .f32⟩ : BufTy).Contents (Elt F) → (⟨S2x65536, .f32⟩ : BufTy).Contents (Elt F)),
    StableHlo.binary main_v184 main_v183 main_v185 (mulf : (⟨S2x65536, .f32⟩ : BufTy).Contents (Elt F) → (⟨S2x65536, .f32⟩ : BufTy).Contents (Elt F) → (⟨S2x65536, .f32⟩ : BufTy).Contents (Elt F)),
    StableHlo.nullary main_cst_54 (constant S_ .f32 0x3F800000#32),
    StableHlo.unary main_cst_54 main_v186 (broadcastInDim S2x65536 ![] bcast_S_S2x65536 : (⟨S_, .f32⟩ : BufTy).Contents (Elt F) → (⟨S2x65536, .f32⟩ : BufTy).Contents (Elt F)),
    StableHlo.binary main_v185 main_v186 main_v187 (addf : (⟨S2x65536, .f32⟩ : BufTy).Contents (Elt F) → (⟨S2x65536, .f32⟩ : BufTy).Contents (Elt F) → (⟨S2x65536, .f32⟩ : BufTy).Contents (Elt F)),
    StableHlo.nullary main_cst_55 (constant S_ .f32 0x42C00000#32),
    StableHlo.unary main_cst_55 main_v188 (broadcastInDim S2x65536 ![] bcast_S_S2x65536 : (⟨S_, .f32⟩ : BufTy).Contents (Elt F) → (⟨S2x65536, .f32⟩ : BufTy).Contents (Elt F)),
    StableHlo.binary main_v187 main_v188 main_v189 (Host.divf : (⟨S2x65536, .f32⟩ : BufTy).Contents (Elt F) → (⟨S2x65536, .f32⟩ : BufTy).Contents (Elt F) → (⟨S2x65536, .f32⟩ : BufTy).Contents (Elt F)),
    StableHlo.nullary main_cst_56 (constant S_ .f32 0xBF800000#32),
    StableHlo.unary main_cst_56 main_v190 (broadcastInDim S2x65536 ![] bcast_S_S2x65536 : (⟨S_, .f32⟩ : BufTy).Contents (Elt F) → (⟨S2x65536, .f32⟩ : BufTy).Contents (Elt F)),
    StableHlo.binary main_v190 main_v189 main_v191 (addf : (⟨S2x65536, .f32⟩ : BufTy).Contents (Elt F) → (⟨S2x65536, .f32⟩ : BufTy).Contents (Elt F) → (⟨S2x65536, .f32⟩ : BufTy).Contents (Elt F)),
    StableHlo.unary main_v167 main_v192 (sitofp .f32 : (⟨S2x65536, .i32⟩ : BufTy).Contents (Elt F) → (⟨S2x65536, .f32⟩ : BufTy).Contents (Elt F)),
    StableHlo.nullary main_cst_57 (constant S_ .f32 0x40000000#32),
    StableHlo.unary main_cst_57 main_v193 (broadcastInDim S2x65536 ![] bcast_S_S2x65536 : (⟨S_, .f32⟩ : BufTy).Contents (Elt F) → (⟨S2x65536, .f32⟩ : BufTy).Contents (Elt F)),
    StableHlo.binary main_v193 main_v192 main_v194 (mulf : (⟨S2x65536, .f32⟩ : BufTy).Contents (Elt F) → (⟨S2x65536, .f32⟩ : BufTy).Contents (Elt F) → (⟨S2x65536, .f32⟩ : BufTy).Contents (Elt F)),
    StableHlo.nullary main_cst_58 (constant S_ .f32 0x3F800000#32),
    StableHlo.unary main_cst_58 main_v195 (broadcastInDim S2x65536 ![] bcast_S_S2x65536 : (⟨S_, .f32⟩ : BufTy).Contents (Elt F) → (⟨S2x65536, .f32⟩ : BufTy).Contents (Elt F)),
    StableHlo.binary main_v194 main_v195 main_v196 (addf : (⟨S2x65536, .f32⟩ : BufTy).Contents (Elt F) → (⟨S2x65536, .f32⟩ : BufTy).Contents (Elt F) → (⟨S2x65536, .f32⟩ : BufTy).Contents (Elt F)),
    StableHlo.nullary main_cst_59 (constant S_ .f32 0x42C00000#32),
    StableHlo.unary main_cst_59 main_v197 (broadcastInDim S2x65536 ![] bcast_S_S2x65536 : (⟨S_, .f32⟩ : BufTy).Contents (Elt F) → (⟨S2x65536, .f32⟩ : BufTy).Contents (Elt F)),
    StableHlo.binary main_v196 main_v197 main_v198 (Host.divf : (⟨S2x65536, .f32⟩ : BufTy).Contents (Elt F) → (⟨S2x65536, .f32⟩ : BufTy).Contents (Elt F) → (⟨S2x65536, .f32⟩ : BufTy).Contents (Elt F)),
    StableHlo.nullary main_cst_60 (constant S_ .f32 0xBF800000#32),
    StableHlo.unary main_cst_60 main_v199 (broadcastInDim S2x65536 ![] bcast_S_S2x65536 : (⟨S_, .f32⟩ : BufTy).Contents (Elt F) → (⟨S2x65536, .f32⟩ : BufTy).Contents (Elt F)),
    StableHlo.binary main_v199 main_v198 main_v200 (addf : (⟨S2x65536, .f32⟩ : BufTy).Contents (Elt F) → (⟨S2x65536, .f32⟩ : BufTy).Contents (Elt F) → (⟨S2x65536, .f32⟩ : BufTy).Contents (Elt F)),
    StableHlo.unary main_v191 main_v201 (broadcastInDim S2x65536x1 ![0, 1] bcast_S2x65536_S2x65536x1_0_1 : (⟨S2x65536, .f32⟩ : BufTy).Contents (Elt F) → (⟨S2x65536x1, .f32⟩ : BufTy).Contents (Elt F)),
    StableHlo.unary main_v200 main_v202 (broadcastInDim S2x65536x1 ![0, 1] bcast_S2x65536_S2x65536x1_0_1 : (⟨S2x65536, .f32⟩ : BufTy).Contents (Elt F) → (⟨S2x65536x1, .f32⟩ : BufTy).Contents (Elt F)),
    StableHlo.binary main_v201 main_v202 main_v203 ((fun a b => concatenate S2x65536x2 2 [⟨S2x65536x1, a⟩, ⟨S2x65536x1, b⟩] concatenates_S2x65536x1_S2x65536x1_S2x65536x2_d2) : (⟨S2x65536x1, .f32⟩ : BufTy).Contents (Elt F) → (⟨S2x65536x1, .f32⟩ : BufTy).Contents (Elt F) → (⟨S2x65536x2, .f32⟩ : BufTy).Contents (Elt F)),
    StableHlo.unary main_v203 main_v204 (id : (⟨S2x65536x2, .f32⟩ : BufTy).Contents (Elt F) → (⟨S2x65536x2, .f32⟩ : BufTy).Contents (Elt F)),
    StableHlo.binary main_arg1 main_v204 main_v205 (subf : (⟨S2x65536x2, .f32⟩ : BufTy).Contents (Elt F) → (⟨S2x65536x2, .f32⟩ : BufTy).Contents (Elt F) → (⟨S2x65536x2, .f32⟩ : BufTy).Contents (Elt F)),
    StableHlo.unary main_cst main_v206 (broadcastInDim S1x1x2 ![2] bcast_S2_S1x1x2_2 : (⟨S2, .f32⟩ : BufTy).Contents (Elt F) → (⟨S1x1x2, .f32⟩ : BufTy).Contents (Elt F)),
    StableHlo.unary main_v206 main_v207 (broadcastInDim S2x65536x2 ![0, 1, 2] bcast_S1x1x2_S2x65536x2_0_1_2 : (⟨S1x1x2, .f32⟩ : BufTy).Contents (Elt F) → (⟨S2x65536x2, .f32⟩ : BufTy).Contents (Elt F)),
    StableHlo.binary main_v205 main_v207 main_v208 (mulf : (⟨S2x65536x2, .f32⟩ : BufTy).Contents (Elt F) → (⟨S2x65536x2, .f32⟩ : BufTy).Contents (Elt F) → (⟨S2x65536x2, .f32⟩ : BufTy).Contents (Elt F)),
    StableHlo.unary main_cst main_v209 (broadcastInDim S1x1x2 ![2] bcast_S2_S1x1x2_2 : (⟨S2, .f32⟩ : BufTy).Contents (Elt F) → (⟨S1x1x2, .f32⟩ : BufTy).Contents (Elt F)),
    StableHlo.unary main_v209 main_v210 (broadcastInDim S2x65536x2 ![0, 1, 2] bcast_S1x1x2_S2x65536x2_0_1_2 : (⟨S1x1x2, .f32⟩ : BufTy).Contents (Elt F) → (⟨S2x65536x2, .f32⟩ : BufTy).Contents (Elt F)),
    StableHlo.binary main_arg2 main_v210 main_v211 (mulf : (⟨S2x65536x2, .f32⟩ : BufTy).Contents (Elt F) → (⟨S2x65536x2, .f32⟩ : BufTy).Contents (Elt F) → (⟨S2x65536x2, .f32⟩ : BufTy).Contents (Elt F)),
    StableHlo.nary ![main_v182, main_v208, main_v211] main_v212 (fun u => concatenate S2x65536x580 2 [⟨S2x65536x576, u 0⟩, ⟨S2x65536x2, u 1⟩, ⟨S2x65536x2, u 2⟩] concatenates_S2x65536x576_S2x65536x2_S2x65536x2_S2x65536x580_d2),
    StableHlo.reshape main_v212 main_v213 rfl shapeCasts_S2x65536x580_S131072x580,
    StableHlo.binary main_v213 main_arg3 main_v214 ((fun l r => Host.dotGeneral dot_S131072x580_S580x256_S131072x256_1_0_0_1_n_n none l r) : (⟨S131072x580, .f32⟩ : BufTy).Contents (Elt F) → (⟨S580x256, .f32⟩ : BufTy).Contents (Elt F) → (⟨S131072x256, .f32⟩ : BufTy).Contents (Elt F)),
    StableHlo.unary main_arg4 main_v215 (broadcastInDim S1x256 ![1] bcast_S256_S1x256_1 : (⟨S256, .f32⟩ : BufTy).Contents (Elt F) → (⟨S1x256, .f32⟩ : BufTy).Contents (Elt F)),
    StableHlo.unary main_v215 main_v216 (broadcastInDim S131072x256 ![0, 1] bcast_S1x256_S131072x256_0_1 : (⟨S1x256, .f32⟩ : BufTy).Contents (Elt F) → (⟨S131072x256, .f32⟩ : BufTy).Contents (Elt F)),
    StableHlo.binary main_v214 main_v216 main_v217 (addf : (⟨S131072x256, .f32⟩ : BufTy).Contents (Elt F) → (⟨S131072x256, .f32⟩ : BufTy).Contents (Elt F) → (⟨S131072x256, .f32⟩ : BufTy).Contents (Elt F)),
    StableHlo.TRef.nullary main_call11.cst (constant S_ .f32 0x00000000#32),
    StableHlo.TRef.unary main_call11.cst main_call11.v0 (broadcastInDim S131072x256 ![] bcast_S_S131072x256),
    StableHlo.TRef.binary (.of main_v217 : StableHlo.TRef sig ⟨S131072x256, .f32⟩) main_call11.v0 main_call11.v1 maximumf,
    StableHlo.binary main_v218 main_arg5 main_v219 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    StableHlo.unary main_arg6 main_v220 (broadcastInDim S1x256 ![1] bcast_S256_S1x256_1 : (⟨S256, .f32⟩ : BufTy).Contents (Elt F) → (⟨S1x256, .f32⟩ : BufTy).Contents (Elt F)),
    StableHlo.unary main_v220 main_v221 (broadcastInDim S131072x256 ![0, 1] bcast_S1x256_S131072x256_0_1 : (⟨S1x256, .f32⟩ : BufTy).Contents (Elt F) → (⟨S131072x256, .f32⟩ : BufTy).Contents (Elt F)),
    StableHlo.binary main_v219 main_v221 main_v222 (addf : (⟨S131072x256, .f32⟩ : BufTy).Contents (Elt F) → (⟨S131072x256, .f32⟩ : BufTy).Contents (Elt F) → (⟨S131072x256, .f32⟩ : BufTy).Contents (Elt F)),
    StableHlo.TRef.nullary main_call12.cst (constant S_ .f32 0x00000000#32),
    StableHlo.TRef.unary main_call12.cst main_call12.v0 (broadcastInDim S131072x256 ![] bcast_S_S131072x256),
    StableHlo.TRef.binary (.of main_v222 : StableHlo.TRef sig ⟨S131072x256, .f32⟩) main_call12.v0 main_call12.v1 maximumf,
    StableHlo.binary main_v223 main_arg7 main_v224 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    StableHlo.unary main_arg8 main_v225 (broadcastInDim S1x256 ![1] bcast_S256_S1x256_1 : (⟨S256, .f32⟩ : BufTy).Contents (Elt F) → (⟨S1x256, .f32⟩ : BufTy).Contents (Elt F)),
    StableHlo.unary main_v225 main_v226 (broadcastInDim S131072x256 ![0, 1] bcast_S1x256_S131072x256_0_1 : (⟨S1x256, .f32⟩ : BufTy).Contents (Elt F) → (⟨S131072x256, .f32⟩ : BufTy).Contents (Elt F)),
    StableHlo.binary main_v224 main_v226 main_v227 (addf : (⟨S131072x256, .f32⟩ : BufTy).Contents (Elt F) → (⟨S131072x256, .f32⟩ : BufTy).Contents (Elt F) → (⟨S131072x256, .f32⟩ : BufTy).Contents (Elt F)),
    StableHlo.TRef.nullary main_call13.cst (constant S_ .f32 0x00000000#32),
    StableHlo.TRef.unary main_call13.cst main_call13.v0 (broadcastInDim S131072x256 ![] bcast_S_S131072x256),
    StableHlo.TRef.binary (.of main_v227 : StableHlo.TRef sig ⟨S131072x256, .f32⟩) main_call13.v0 main_call13.v1 maximumf,
    StableHlo.binary main_v228 main_arg9 main_v229 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    StableHlo.unary main_arg10 main_v230 (broadcastInDim S1x256 ![1] bcast_S256_S1x256_1 : (⟨S256, .f32⟩ : BufTy).Contents (Elt F) → (⟨S1x256, .f32⟩ : BufTy).Contents (Elt F)),
    StableHlo.unary main_v230 main_v231 (broadcastInDim S131072x256 ![0, 1] bcast_S1x256_S131072x256_0_1 : (⟨S1x256, .f32⟩ : BufTy).Contents (Elt F) → (⟨S131072x256, .f32⟩ : BufTy).Contents (Elt F)),
    StableHlo.binary main_v229 main_v231 main_v232 (addf : (⟨S131072x256, .f32⟩ : BufTy).Contents (Elt F) → (⟨S131072x256, .f32⟩ : BufTy).Contents (Elt F) → (⟨S131072x256, .f32⟩ : BufTy).Contents (Elt F)),
    StableHlo.TRef.nullary main_call14.cst (constant S_ .f32 0x00000000#32),
    StableHlo.TRef.unary main_call14.cst main_call14.v0 (broadcastInDim S131072x256 ![] bcast_S_S131072x256),
    StableHlo.TRef.binary (.of main_v232 : StableHlo.TRef sig ⟨S131072x256, .f32⟩) main_call14.v0 main_call14.v1 maximumf,
    StableHlo.binary main_v233 main_arg11 main_v234 ((fun l r => Host.dotGeneral dot_S131072x256_S256x2_S131072x2_1_0_0_1_n_n none l r) : (⟨S131072x256, .f32⟩ : BufTy).Contents (Elt F) → (⟨S256x2, .f32⟩ : BufTy).Contents (Elt F) → (⟨S131072x2, .f32⟩ : BufTy).Contents (Elt F)),
    StableHlo.unary main_arg12 main_v235 (broadcastInDim S1x2 ![1] bcast_S2_S1x2_1 : (⟨S2, .f32⟩ : BufTy).Contents (Elt F) → (⟨S1x2, .f32⟩ : BufTy).Contents (Elt F)),
    StableHlo.unary main_v235 main_v236 (broadcastInDim S131072x2 ![0, 1] bcast_S1x2_S131072x2_0_1 : (⟨S1x2, .f32⟩ : BufTy).Contents (Elt F) → (⟨S131072x2, .f32⟩ : BufTy).Contents (Elt F)) ]

set_option maxRecDepth 8192 in
set_option maxHeartbeats 4000000 in
/-- The window is that straight line: each callee unfolded at its call, sequencing reassociated. -/
theorem main_part4_eq (c : Dev nD) : main_part4 (F := F) c = seq ops4 := by
  simp only [main_part4, fn_pad.body, fn_clip.body, fn_clip_0.body, fn_relu.body, seq, bind_assoc, pure_bind] <;> rfl

/-- Every operation of the window touches TensorCore references only. -/
theorem ops4_sub : (ops4 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., binary_bufs_sub .., nary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub ..⟩

/-- Every operation of the window determines the buffers it writes. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops4_W : List (Ref sig .tc) :=
  [main_v184, main_v185, main_cst_54, main_v186, main_v187, main_cst_55, main_v188, main_v189, main_cst_56, main_v190, main_v191, main_v192, main_cst_57, main_v193, main_v194, main_cst_58, main_v195, main_v196, main_cst_59, main_v197, main_v198, main_cst_60, main_v199, main_v200, main_v201, main_v202, main_v203, main_v204, main_v205, main_v206, main_v207, main_v208, main_v209, main_v210, main_v211, main_v212, main_v213, main_v214, main_v215, main_v216, main_v217, main_call11_cst, main_call11_v0, main_v218, main_v219, main_v220, main_v221, main_v222, main_call12_cst, main_call12_v0, main_v223, main_v224, main_v225, main_v226, main_v227, main_call13_cst, main_call13_v0, main_v228, main_v229, main_v230, main_v231, main_v232, main_call14_cst, main_call14_v0, main_v233, main_v234, main_v235, main_v236]

/-- A reference of a list, as a device buffer, lies in the list's set of device buffers. -/
private theorem single_sub_of_mem {W : List (Ref sig .tc)} (y : Ref sig .tc) (h : y ∈ W) :
    ({(y : DevRef τ sig)} : Finset (DevRef τ sig)) ⊆ (W.map (Proc.devRef (τ := τ) .tc)).toFinset :=
  Finset.singleton_subset_iff.2 (List.mem_toFinset.2 (List.mem_map_of_mem h))

/-- Each operation writes its one result buffer, which the list holds. -/
theorem ops4_writes : (ops4 : List (HloOp τ sig (Elt F))).Forall fun op => op.writes ⊆ (ops4_W.map (Proc.devRef (τ := τ) .tc)).toFinset :=
  ⟨single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide)⟩

end Cert.ReferenceIdeal.Hand

end
-- ==== Proof.ROps5.lean ====
import proofs.«100126_j36189394436483_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 5, in order: 75 host operations, a call standing as its callee's operations over the call's buffer record. -/
abbrev ops5 : List (HloOp τ sig (Elt F)) :=
  [ StableHlo.binary main_v234 main_v236 main_v237 (addf : (⟨S131072x2, .f32⟩ : BufTy).Contents (Elt F) → (⟨S131072x2, .f32⟩ : BufTy).Contents (Elt F) → (⟨S131072x2, .f32⟩ : BufTy).Contents (Elt F)),
    StableHlo.reshape main_v237 main_v238 rfl shapeCasts_S131072x2_S2x65536x2,
    StableHlo.unary main_v208 main_v239 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v239 main_v240 rfl shapeCasts_S2x65536x1_S2x65536,
    StableHlo.unary main_v208 main_v241 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v241 main_v242 rfl shapeCasts_S2x65536x1_S2x65536,
    StableHlo.binary main_v240 main_v242 main_v243 (mulf : (⟨S2x65536, .f32⟩ : BufTy).Contents (Elt F) → (⟨S2x65536, .f32⟩ : BufTy).Contents (Elt F) → (⟨S2x65536, .f32⟩ : BufTy).Contents (Elt F)),
    StableHlo.unary main_v243 main_v244 (Host.absf : (⟨S2x65536, .f32⟩ : BufTy).Contents (Elt F) → (⟨S2x65536, .f32⟩ : BufTy).Contents (Elt F)),
    StableHlo.nullary main_cst_61 (constant S_ .f32 0x3089705F#32),
    StableHlo.unary main_cst_61 main_v245 (broadcastInDim S2x65536 ![] bcast_S_S2x65536 : (⟨S_, .f32⟩ : BufTy).Contents (Elt F) → (⟨S2x65536, .f32⟩ : BufTy).Contents (Elt F)),
    StableHlo.binary main_v244 main_v245 main_v246 (addf : (⟨S2x65536, .f32⟩ : BufTy).Contents (Elt F) → (⟨S2x65536, .f32⟩ : BufTy).Contents (Elt F) → (⟨S2x65536, .f32⟩ : BufTy).Contents (Elt F)),
    StableHlo.unary main_cst_2 main_v247 (broadcastInDim S1x1x2 ![2] bcast_S2_S1x1x2_2 : (⟨S2, .f32⟩ : BufTy).Contents (Elt F) → (⟨S1x1x2, .f32⟩ : BufTy).Contents (Elt F)),
    StableHlo.unary main_v247 main_v248 (broadcastInDim S2x65536x2 ![0, 1, 2] bcast_S1x1x2_S2x65536x2_0_1_2 : (⟨S1x1x2, .f32⟩ : BufTy).Contents (Elt F) → (⟨S2x65536x2, .f32⟩ : BufTy).Contents (Elt F)),
    StableHlo.binary main_arg1 main_v248 main_v249 (addf : (⟨S2x65536x2, .f32⟩ : BufTy).Contents (Elt F) → (⟨S2x65536x2, .f32⟩ : BufTy).Contents (Elt F) → (⟨S2x65536x2, .f32⟩ : BufTy).Contents (Elt F)),
    StableHlo.nullary main_cst_62 (constant S_ .f32 0xBF7FFFEF#32),
    StableHlo.nullary main_cst_63 (constant S_ .f32 0x3F7FFFEF#32),
    StableHlo.TRef.unary (.of main_cst_62 : StableHlo.TRef sig ⟨S_, .f32⟩) main_call15.v0 id,
    StableHlo.TRef.unary main_call15.v0 main_call15.v1 (broadcastInDim S2x65536x2 ![] bcast_S_S2x65536x2),
    StableHlo.TRef.binary main_call15.v1 (.of main_v249 : StableHlo.TRef sig ⟨S2x65536x2, .f32⟩) main_call15.v2 maximumf,
    StableHlo.TRef.unary (.of main_cst_63 : StableHlo.TRef sig ⟨S_, .f32⟩) main_call15.v3 id,
    StableHlo.TRef.unary main_call15.v3 main_call15.v4 (broadcastInDim S2x65536x2 ![] bcast_S_S2x65536x2),
    StableHlo.TRef.binary main_call15.v4 main_call15.v2 main_call15.v5 minimumf,
    StableHlo.unary main_v250 main_v251 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v251 main_v252 rfl shapeCasts_S2x65536x1_S2x65536,
    StableHlo.nullary main_cst_64 (constant S_ .f32 0x3F800000#32),
    StableHlo.unary main_cst_64 main_v253 (broadcastInDim S2x65536 ![] bcast_S_S2x65536 : (⟨S_, .f32⟩ : BufTy).Contents (Elt F) → (⟨S2x65536, .f32⟩ : BufTy).Contents (Elt F)),
    StableHlo.binary main_v252 main_v253 main_v254 (addf : (⟨S2x65536, .f32⟩ : BufTy).Contents (Elt F) → (⟨S2x65536, .f32⟩ : BufTy).Contents (Elt F) → (⟨S2x65536, .f32⟩ : BufTy).Contents (Elt F)),
    StableHlo.nullary main_cst_65 (constant S_ .f32 0x42C00000#32),
    StableHlo.unary main_cst_65 main_v255 (broadcastInDim S2x65536 ![] bcast_S_S2x65536 : (⟨S_, .f32⟩ : BufTy).Contents (Elt F) → (⟨S2x65536, .f32⟩ : BufTy).Contents (Elt F)),
    StableHlo.binary main_v254 main_v255 main_v256 (mulf : (⟨S2x65536, .f32⟩ : BufTy).Contents (Elt F) → (⟨S2x65536, .f32⟩ : BufTy).Contents (Elt F) → (⟨S2x65536, .f32⟩ : BufTy).Contents (Elt F)),
    StableHlo.nullary main_cst_66 (constant S_ .f32 0x3F800000#32),
    StableHlo.unary main_cst_66 main_v257 (broadcastInDim S2x65536 ![] bcast_S_S2x65536 : (⟨S_, .f32⟩ : BufTy).Contents (Elt F) → (⟨S2x65536, .f32⟩ : BufTy).Contents (Elt F)),
    StableHlo.binary main_v256 main_v257 main_v258 (subf : (⟨S2x65536, .f32⟩ : BufTy).Contents (Elt F) → (⟨S2x65536, .f32⟩ : BufTy).Contents (Elt F) → (⟨S2x65536, .f32⟩ : BufTy).Contents (Elt F)),
    StableHlo.nullary main_cst_67 (constant S_ .f32 0x3F000000#32),
    StableHlo.unary main_cst_67 main_v259 (broadcastInDim S2x65536 ![] bcast_S_S2x65536 : (⟨S_, .f32⟩ : BufTy).Contents (Elt F) → (⟨S2x65536, .f32⟩ : BufTy).Contents (Elt F)),
    StableHlo.binary main_v258 main_v259 main_v260 (mulf : (⟨S2x65536, .f32⟩ : BufTy).Contents (Elt F) → (⟨S2x65536, .f32⟩ : BufTy).Contents (Elt F) → (⟨S2x65536, .f32⟩ : BufTy).Contents (Elt F)),
    StableHlo.nullary main_cst_68 (constant S_ .f32 0x3F000000#32),
    StableHlo.unary main_cst_68 main_v261 (broadcastInDim S2x65536 ![] bcast_S_S2x65536 : (⟨S_, .f32⟩ : BufTy).Contents (Elt F) → (⟨S2x65536, .f32⟩ : BufTy).Contents (Elt F)),
    StableHlo.binary main_v260 main_v261 main_v262 (addf : (⟨S2x65536, .f32⟩ : BufTy).Contents (Elt F) → (⟨S2x65536, .f32⟩ : BufTy).Contents (Elt F) → (⟨S2x65536, .f32⟩ : BufTy).Contents (Elt F)),
    StableHlo.unary main_v262 main_v263 (Host.floor : (⟨S2x65536, .f32⟩ : BufTy).Contents (Elt F) → (⟨S2x65536, .f32⟩ : BufTy).Contents (Elt F)),
    StableHlo.nullary main_c_69 (constantI S_ 32 0#32),
    StableHlo.nullary main_c_70 (constantI S_ 32 95#32),
    StableHlo.TRef.unary (.of main_c_69 : StableHlo.TRef sig ⟨S_, .i32⟩) main_call16.v0 (sitofp .f32),
    StableHlo.TRef.unary main_call16.v0 main_call16.v1 (broadcastInDim S2x65536 ![] bcast_S_S2x65536),
    StableHlo.TRef.binary main_call16.v1 (.of main_v263 : StableHlo.TRef sig ⟨S2x65536, .f32⟩) main_call16.v2 maximumf,
    StableHlo.TRef.unary (.of main_c_70 : StableHlo.TRef sig ⟨S_, .i32⟩) main_call16.v3 (sitofp .f32),
    StableHlo.TRef.unary main_call16.v3 main_call16.v4 (broadcastInDim S2x65536 ![] bcast_S_S2x65536),
    StableHlo.TRef.binary main_call16.v4 main_call16.v2 main_call16.v5 minimumf,
    StableHlo.unary main_v264 main_v265 (fptosi 32 : (⟨S2x65536, .f32⟩ : BufTy).Contents (Elt F) → (⟨S2x65536, .i32⟩ : BufTy).Contents (Elt F)),
    StableHlo.unary main_v250 main_v266 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v266 main_v267 rfl shapeCasts_S2x65536x1_S2x65536,
    StableHlo.nullary main_cst_71 (constant S_ .f32 0x3F800000#32),
    StableHlo.unary main_cst_71 main_v268 (broadcastInDim S2x65536 ![] bcast_S_S2x65536 : (⟨S_, .f32⟩ : BufTy).Contents (Elt F) → (⟨S2x65536, .f32⟩ : BufTy).Contents (Elt F)),
    StableHlo.binary main_v267 main_v268 main_v269 (addf : (⟨S2x65536, .f32⟩ : BufTy).Contents (Elt F) → (⟨S2x65536, .f32⟩ : BufTy).Contents (Elt F) → (⟨S2x65536, .f32⟩ : BufTy).Contents (Elt F)),
    StableHlo.nullary main_cst_72 (constant S_ .f32 0x42C00000#32),
    StableHlo.unary main_cst_72 main_v270 (broadcastInDim S2x65536 ![] bcast_S_S2x65536 : (⟨S_, .f32⟩ : BufTy).Contents (Elt F) → (⟨S2x65536, .f32⟩ : BufTy).Contents (Elt F)),
    StableHlo.binary main_v269 main_v270 main_v271 (mulf : (⟨S2x65536, .f32⟩ : BufTy).Contents (Elt F) → (⟨S2x65536, .f32⟩ : BufTy).Contents (Elt F) → (⟨S2x65536, .f32⟩ : BufTy).Contents (Elt F)),
    StableHlo.nullary main_cst_73 (constant S_ .f32 0x3F800000#32),
    StableHlo.unary main_cst_73 main_v272 (broadcastInDim S2x65536 ![] bcast_S_S2x65536 : (⟨S_, .f32⟩ : BufTy).Contents (Elt F) → (⟨S2x65536, .f32⟩ : BufTy).Contents (Elt F)),
    StableHlo.binary main_v271 main_v272 main_v273 (subf : (⟨S2x65536, .f32⟩ : BufTy).Contents (Elt F) → (⟨S2x65536, .f32⟩ : BufTy).Contents (Elt F) → (⟨S2x65536, .f32⟩ : BufTy).Contents (Elt F)),
    StableHlo.nullary main_cst_74 (constant S_ .f32 0x3F000000#32),
    StableHlo.unary main_cst_74 main_v274 (broadcastInDim S2x65536 ![] bcast_S_S2x65536 : (⟨S_, .f32⟩ : BufTy).Contents (Elt F) → (⟨S2x65536, .f32⟩ : BufTy).Contents (Elt F)),
    StableHlo.binary main_v273 main_v274 main_v275 (mulf : (⟨S2x65536, .f32⟩ : BufTy).Contents (Elt F) → (⟨S2x65536, .f32⟩ : BufTy).Contents (Elt F) → (⟨S2x65536, .f32⟩ : BufTy).Contents (Elt F)),
    StableHlo.nullary main_cst_75 (constant S_ .f32 0x3F000000#32),
    StableHlo.unary main_cst_75 main_v276 (broadcastInDim S2x65536 ![] bcast_S_S2x65536 : (⟨S_, .f32⟩ : BufTy).Contents (Elt F) → (⟨S2x65536, .f32⟩ : BufTy).Contents (Elt F)),
    StableHlo.binary main_v275 main_v276 main_v277 (addf : (⟨S2x65536, .f32⟩ : BufTy).Contents (Elt F) → (⟨S2x65536, .f32⟩ : BufTy).Contents (Elt F) → (⟨S2x65536, .f32⟩ : BufTy).Contents (Elt F)),
    StableHlo.unary main_v277 main_v278 (Host.floor : (⟨S2x65536, .f32⟩ : BufTy).Contents (Elt F) → (⟨S2x65536, .f32⟩ : BufTy).Contents (Elt F)),
    StableHlo.nullary main_c_76 (constantI S_ 32 0#32),
    StableHlo.nullary main_c_77 (constantI S_ 32 95#32),
    StableHlo.TRef.unary (.of main_c_76 : StableHlo.TRef sig ⟨S_, .i32⟩) main_call17.v0 (sitofp .f32),
    StableHlo.TRef.unary main_call17.v0 main_call17.v1 (broadcastInDim S2x65536 ![] bcast_S_S2x65536),
    StableHlo.TRef.binary main_call17.v1 (.of main_v278 : StableHlo.TRef sig ⟨S2x65536, .f32⟩) main_call17.v2 maximumf,
    StableHlo.TRef.unary (.of main_c_77 : StableHlo.TRef sig ⟨S_, .i32⟩) main_call17.v3 (sitofp .f32),
    StableHlo.TRef.unary main_call17.v3 main_call17.v4 (broadcastInDim S2x65536 ![] bcast_S_S2x65536),
    StableHlo.TRef.binary main_call17.v4 main_call17.v2 main_call17.v5 minimumf ]

set_option maxRecDepth 8192 in
set_option maxHeartbeats 4000000 in
/-- The window is that straight line: each callee unfolded at its call, sequencing reassociated. -/
theorem main_part5_eq (c : Dev nD) : main_part5 (F := F) c = seq ops5 := by
  simp only [main_part5, fn_pad.body, fn_clip.body, fn_clip_0.body, fn_relu.body, seq, bind_assoc, pure_bind] <;> rfl

/-- Every operation of the window touches TensorCore references only. -/
theorem ops5_sub : (ops5 : List (HloOp τ sig (Elt F))).Forall fun op => op.bufs ⊆ tcRefs τ sig :=
  ⟨binary_bufs_sub .., reshape_bufs_sub .., unary_bufs_sub .., reshape_bufs_sub .., unary_bufs_sub .., reshape_bufs_sub .., binary_bufs_sub .., unary_bufs_sub .., nullary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub ..⟩

/-- Every operation of the window determines the buffers it writes. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops5_W : List (Ref sig .tc) :=
  [main_v237, main_v238, main_v239, main_v240, main_v241, main_v242, main_v243, main_v244, main_cst_61, main_v245, main_v246, main_v247, main_v248, main_v249, main_cst_62, main_cst_63, main_call15_v0, main_call15_v1, main_call15_v2, main_call15_v3, main_call15_v4, main_v250, main_v251, main_v252, main_cst_64, main_v253, main_v254, main_cst_65, main_v255, main_v256, main_cst_66, main_v257, main_v258, main_cst_67, main_v259, main_v260, main_cst_68, main_v261, main_v262, main_v263, main_c_69, main_c_70, main_call16_v0, main_call16_v1, main_call16_v2, main_call16_v3, main_call16_v4, main_v264, main_v265, main_v266, main_v267, main_cst_71, main_v268, main_v269, main_cst_72, main_v270, main_v271, main_cst_73, main_v272, main_v273, main_cst_74, main_v274, main_v275, main_cst_75, main_v276, main_v277, main_v278, main_c_76, main_c_77, main_call17_v0, main_call17_v1, main_call17_v2, main_call17_v3, main_call17_v4, main_v279]

/-- A reference of a list, as a device buffer, lies in the list's set of device buffers. -/
private theorem single_sub_of_mem {W : List (Ref sig .tc)} (y : Ref sig .tc) (h : y ∈ W) :
    ({(y : DevRef τ sig)} : Finset (DevRef τ sig)) ⊆ (W.map (Proc.devRef (τ := τ) .tc)).toFinset :=
  Finset.singleton_subset_iff.2 (List.mem_toFinset.2 (List.mem_map_of_mem h))

/-- Each operation writes its one result buffer, which the list holds. -/
theorem ops5_writes : (ops5 : List (HloOp τ sig (Elt F))).Forall fun op => op.writes ⊆ (ops5_W.map (Proc.devRef (τ := τ) .tc)).toFinset :=
  ⟨single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide)⟩

end Cert.ReferenceIdeal.Hand

end
-- ==== Proof.ROps6.lean ====
import proofs.«100126_j36189394436483_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 6, in order: 60 host operations, a call standing as its callee's operations over the call's buffer record. -/
abbrev ops6 : List (HloOp τ sig (Elt F)) :=
  [ StableHlo.unary main_v279 main_v280 (fptosi 32 : (⟨S2x65536, .f32⟩ : BufTy).Contents (Elt F) → (⟨S2x65536, .i32⟩ : BufTy).Contents (Elt F)),
    StableHlo.nullary main_c_78 (constantI S_ 32 0#32),
    StableHlo.unary main_c_78 main_v281 (broadcastInDim S2x65536 ![] bcast_S_S2x65536 : (⟨S_, .i32⟩ : BufTy).Contents (Elt F) → (⟨S2x65536, .i32⟩ : BufTy).Contents (Elt F)),
    StableHlo.binary main_v265 main_v281 main_v282 (cmpi .slt : (⟨S2x65536, .i32⟩ : BufTy).Contents (Elt F) → (⟨S2x65536, .i32⟩ : BufTy).Contents (Elt F) → (⟨S2x65536, .i1⟩ : BufTy).Contents (Elt F)),
    StableHlo.nullary main_c_79 (constantI S_ 32 96#32),
    StableHlo.unary main_c_79 main_v283 (broadcastInDim S2x65536 ![] bcast_S_S2x65536 : (⟨S_, .i32⟩ : BufTy).Contents (Elt F) → (⟨S2x65536, .i32⟩ : BufTy).Contents (Elt F)),
    StableHlo.binary main_v265 main_v283 main_v284 (addi : (⟨S2x65536, .i32⟩ : BufTy).Contents (Elt F) → (⟨S2x65536, .i32⟩ : BufTy).Contents (Elt F) → (⟨S2x65536, .i32⟩ : BufTy).Contents (Elt F)),
    StableHlo.ternary main_v282 main_v284 main_v265 main_v285 (select : (⟨S2x65536, .i1⟩ : BufTy).Contents (Elt F) → (⟨S2x65536, .i32⟩ : BufTy).Contents (Elt F) → (⟨S2x65536, .i32⟩ : BufTy).Contents (Elt F) → (⟨S2x65536, .i32⟩ : BufTy).Contents (Elt F)),
    StableHlo.nullary main_c_80 (constantI S_ 32 0#32),
    StableHlo.unary main_c_80 main_v286 (broadcastInDim S2x65536 ![] bcast_S_S2x65536 : (⟨S_, .i32⟩ : BufTy).Contents (Elt F) → (⟨S2x65536, .i32⟩ : BufTy).Contents (Elt F)),
    StableHlo.binary main_v280 main_v286 main_v287 (cmpi .slt : (⟨S2x65536, .i32⟩ : BufTy).Contents (Elt F) → (⟨S2x65536, .i32⟩ : BufTy).Contents (Elt F) → (⟨S2x65536, .i1⟩ : BufTy).Contents (Elt F)),
    StableHlo.nullary main_c_81 (constantI S_ 32 96#32),
    StableHlo.unary main_c_81 main_v288 (broadcastInDim S2x65536 ![] bcast_S_S2x65536 : (⟨S_, .i32⟩ : BufTy).Contents (Elt F) → (⟨S2x65536, .i32⟩ : BufTy).Contents (Elt F)),
    StableHlo.binary main_v280 main_v288 main_v289 (addi : (⟨S2x65536, .i32⟩ : BufTy).Contents (Elt F) → (⟨S2x65536, .i32⟩ : BufTy).Contents (Elt F) → (⟨S2x65536, .i32⟩ : BufTy).Contents (Elt F)),
    StableHlo.ternary main_v287 main_v289 main_v280 main_v290 (select : (⟨S2x65536, .i1⟩ : BufTy).Contents (Elt F) → (⟨S2x65536, .i32⟩ : BufTy).Contents (Elt F) → (⟨S2x65536, .i32⟩ : BufTy).Contents (Elt F) → (⟨S2x65536, .i32⟩ : BufTy).Contents (Elt F)),
    StableHlo.unary main_v285 main_v291 (broadcastInDim S2x65536x1 ![0, 1] bcast_S2x65536_S2x65536x1_0_1 : (⟨S2x65536, .i32⟩ : BufTy).Contents (Elt F) → (⟨S2x65536x1, .i32⟩ : BufTy).Contents (Elt F)),
    StableHlo.unary main_v290 main_v292 (broadcastInDim S2x65536x1 ![0, 1] bcast_S2x65536_S2x65536x1_0_1 : (⟨S2x65536, .i32⟩ : BufTy).Contents (Elt F) → (⟨S2x65536x1, .i32⟩ : BufTy).Contents (Elt F)),
    StableHlo.binary main_v291 main_v292 main_v293 ((fun a b => concatenate S2x65536x2 2 [⟨S2x65536x1, a⟩, ⟨S2x65536x1, b⟩] concatenates_S2x65536x1_S2x65536x1_S2x65536x2_d2) : (⟨S2x65536x1, .i32⟩ : BufTy).Contents (Elt F) → (⟨S2x65536x1, .i32⟩ : BufTy).Contents (Elt F) → (⟨S2x65536x2, .i32⟩ : BufTy).Contents (Elt F)),
    StableHlo.binary main_v20 main_v293 main_v294 ((fun x i => Host.gather gather_S2x576x96x96_S2x65536x2_S2x576x65536_1_23_0_0_23_2_157611 x i) : (⟨S2x576x96x96, .f32⟩ : BufTy).Contents (Elt F) → (⟨S2x65536x2, .i32⟩ : BufTy).Contents (Elt F) → (⟨S2x576x65536, .f32⟩ : BufTy).Contents (Elt F)),
    StableHlo.unary main_v294 main_v295 ((transpose S2x65536x576 [0, 2, 1] · transposes_S2x576x65536_S2x65536x576_0_2_1) : (⟨S2x576x65536, .f32⟩ : BufTy).Contents (Elt F) → (⟨S2x65536x576, .f32⟩ : BufTy).Contents (Elt F)),
    StableHlo.unary main_v265 main_v296 (sitofp .f32 : (⟨S2x65536, .i32⟩ : BufTy).Contents (Elt F) → (⟨S2x65536, .f32⟩ : BufTy).Contents (Elt F)),
    StableHlo.nullary main_cst_82 (constant S_ .f32 0x40000000#32),
    StableHlo.unary main_cst_82 main_v297 (broadcastInDim S2x65536 ![] bcast_S_S2x65536 : (⟨S_, .f32⟩ : BufTy).Contents (Elt F) → (⟨S2x65536, .f32⟩ : BufTy).Contents (Elt F)),
    StableHlo.binary main_v297 main_v296 main_v298 (mulf : (⟨S2x65536, .f32⟩ : BufTy).Contents (Elt F) → (⟨S2x65536, .f32⟩ : BufTy).Contents (Elt F) → (⟨S2x65536, .f32⟩ : BufTy).Contents (Elt F)),
    StableHlo.nullary main_cst_83 (constant S_ .f32 0x3F800000#32),
    StableHlo.unary main_cst_83 main_v299 (broadcastInDim S2x65536 ![] bcast_S_S2x65536 : (⟨S_, .f32⟩ : BufTy).Contents (Elt F) → (⟨S2x65536, .f32⟩ : BufTy).Contents (Elt F)),
    StableHlo.binary main_v298 main_v299 main_v300 (addf : (⟨S2x65536, .f32⟩ : BufTy).Contents (Elt F) → (⟨S2x65536, .f32⟩ : BufTy).Contents (Elt F) → (⟨S2x65536, .f32⟩ : BufTy).Contents (Elt F)),
    StableHlo.nullary main_cst_84 (constant S_ .f32 0x42C00000#32),
    StableHlo.unary main_cst_84 main_v301 (broadcastInDim S2x65536 ![] bcast_S_S2x65536 : (⟨S_, .f32⟩ : BufTy).Contents (Elt F) → (⟨S2x65536, .f32⟩ : BufTy).Contents (Elt F)),
    StableHlo.binary main_v300 main_v301 main_v302 (Host.divf : (⟨S2x65536, .f32⟩ : BufTy).Contents (Elt F) → (⟨S2x65536, .f32⟩ : BufTy).Contents (Elt F) → (⟨S2x65536, .f32⟩ : BufTy).Contents (Elt F)),
    StableHlo.nullary main_cst_85 (constant S_ .f32 0xBF800000#32),
    StableHlo.unary main_cst_85 main_v303 (broadcastInDim S2x65536 ![] bcast_S_S2x65536 : (⟨S_, .f32⟩ : BufTy).Contents (Elt F) → (⟨S2x65536, .f32⟩ : BufTy).Contents (Elt F)),
    StableHlo.binary main_v303 main_v302 main_v304 (addf : (⟨S2x65536, .f32⟩ : BufTy).Contents (Elt F) → (⟨S2x65536, .f32⟩ : BufTy).Contents (Elt F) → (⟨S2x65536, .f32⟩ : BufTy).Contents (Elt F)),
    StableHlo.unary main_v280 main_v305 (sitofp .f32 : (⟨S2x65536, .i32⟩ : BufTy).Contents (Elt F) → (⟨S2x65536, .f32⟩ : BufTy).Contents (Elt F)),
    StableHlo.nullary main_cst_86 (constant S_ .f32 0x40000000#32),
    StableHlo.unary main_cst_86 main_v306 (broadcastInDim S2x65536 ![] bcast_S_S2x65536 : (⟨S_, .f32⟩ : BufTy).Contents (Elt F) → (⟨S2x65536, .f32⟩ : BufTy).Contents (Elt F)),
    StableHlo.binary main_v306 main_v305 main_v307 (mulf : (⟨S2x65536, .f32⟩ : BufTy).Contents (Elt F) → (⟨S2x65536, .f32⟩ : BufTy).Contents (Elt F) → (⟨S2x65536, .f32⟩ : BufTy).Contents (Elt F)),
    StableHlo.nullary main_cst_87 (constant S_ .f32 0x3F800000#32),
    StableHlo.unary main_cst_87 main_v308 (broadcastInDim S2x65536 ![] bcast_S_S2x65536 : (⟨S_, .f32⟩ : BufTy).Contents (Elt F) → (⟨S2x65536, .f32⟩ : BufTy).Contents (Elt F)),
    StableHlo.binary main_v307 main_v308 main_v309 (addf : (⟨S2x65536, .f32⟩ : BufTy).Contents (Elt F) → (⟨S2x65536, .f32⟩ : BufTy).Contents (Elt F) → (⟨S2x65536, .f32⟩ : BufTy).Contents (Elt F)),
    StableHlo.nullary main_cst_88 (constant S_ .f32 0x42C00000#32),
    StableHlo.unary main_cst_88 main_v310 (broadcastInDim S2x65536 ![] bcast_S_S2x65536 : (⟨S_, .f32⟩ : BufTy).Contents (Elt F) → (⟨S2x65536, .f32⟩ : BufTy).Contents (Elt F)),
    StableHlo.binary main_v309 main_v310 main_v311 (Host.divf : (⟨S2x65536, .f32⟩ : BufTy).Contents (Elt F) → (⟨S2x65536, .f32⟩ : BufTy).Contents (Elt F) → (⟨S2x65536, .f32⟩ : BufTy).Contents (Elt F)),
    StableHlo.nullary main_cst_89 (constant S_ .f32 0xBF800000#32),
    StableHlo.unary main_cst_89 main_v312 (broadcastInDim S2x65536 ![] bcast_S_S2x65536 : (⟨S_, .f32⟩ : BufTy).Contents (Elt F) → (⟨S2x65536, .f32⟩ : BufTy).Contents (Elt F)),
    StableHlo.binary main_v312 main_v311 main_v313 (addf : (⟨S2x65536, .f32⟩ : BufTy).Contents (Elt F) → (⟨S2x65536, .f32⟩ : BufTy).Contents (Elt F) → (⟨S2x65536, .f32⟩ : BufTy).Contents (Elt F)),
    StableHlo.unary main_v304 main_v314 (broadcastInDim S2x65536x1 ![0, 1] bcast_S2x65536_S2x65536x1_0_1 : (⟨S2x65536, .f32⟩ : BufTy).Contents (Elt F) → (⟨S2x65536x1, .f32⟩ : BufTy).Contents (Elt F)),
    StableHlo.unary main_v313 main_v315 (broadcastInDim S2x65536x1 ![0, 1] bcast_S2x65536_S2x65536x1_0_1 : (⟨S2x65536, .f32⟩ : BufTy).Contents (Elt F) → (⟨S2x65536x1, .f32⟩ : BufTy).Contents (Elt F)),
    StableHlo.binary main_v314 main_v315 main_v316 ((fun a b => concatenate S2x65536x2 2 [⟨S2x65536x1, a⟩, ⟨S2x65536x1, b⟩] concatenates_S2x65536x1_S2x65536x1_S2x65536x2_d2) : (⟨S2x65536x1, .f32⟩ : BufTy).Contents (Elt F) → (⟨S2x65536x1, .f32⟩ : BufTy).Contents (Elt F) → (⟨S2x65536x2, .f32⟩ : BufTy).Contents (Elt F)),
    StableHlo.unary main_v316 main_v317 (id : (⟨S2x65536x2, .f32⟩ : BufTy).Contents (Elt F) → (⟨S2x65536x2, .f32⟩ : BufTy).Contents (Elt F)),
    StableHlo.binary main_arg1 main_v317 main_v318 (subf : (⟨S2x65536x2, .f32⟩ : BufTy).Contents (Elt F) → (⟨S2x65536x2, .f32⟩ : BufTy).Contents (Elt F) → (⟨S2x65536x2, .f32⟩ : BufTy).Contents (Elt F)),
    StableHlo.unary main_cst main_v319 (broadcastInDim S1x1x2 ![2] bcast_S2_S1x1x2_2 : (⟨S2, .f32⟩ : BufTy).Contents (Elt F) → (⟨S1x1x2, .f32⟩ : BufTy).Contents (Elt F)),
    StableHlo.unary main_v319 main_v320 (broadcastInDim S2x65536x2 ![0, 1, 2] bcast_S1x1x2_S2x65536x2_0_1_2 : (⟨S1x1x2, .f32⟩ : BufTy).Contents (Elt F) → (⟨S2x65536x2, .f32⟩ : BufTy).Contents (Elt F)),
    StableHlo.binary main_v318 main_v320 main_v321 (mulf : (⟨S2x65536x2, .f32⟩ : BufTy).Contents (Elt F) → (⟨S2x65536x2, .f32⟩ : BufTy).Contents (Elt F) → (⟨S2x65536x2, .f32⟩ : BufTy).Contents (Elt F)),
    StableHlo.unary main_cst main_v322 (broadcastInDim S1x1x2 ![2] bcast_S2_S1x1x2_2 : (⟨S2, .f32⟩ : BufTy).Contents (Elt F) → (⟨S1x1x2, .f32⟩ : BufTy).Contents (Elt F)),
    StableHlo.unary main_v322 main_v323 (broadcastInDim S2x65536x2 ![0, 1, 2] bcast_S1x1x2_S2x65536x2_0_1_2 : (⟨S1x1x2, .f32⟩ : BufTy).Contents (Elt F) → (⟨S2x65536x2, .f32⟩ : BufTy).Contents (Elt F)),
    StableHlo.binary main_arg2 main_v323 main_v324 (mulf : (⟨S2x65536x2, .f32⟩ : BufTy).Contents (Elt F) → (⟨S2x65536x2, .f32⟩ : BufTy).Contents (Elt F) → (⟨S2x65536x2, .f32⟩ : BufTy).Contents (Elt F)),
    StableHlo.nary ![main_v295, main_v321, main_v324] main_v325 (fun u => concatenate S2x65536x580 2 [⟨S2x65536x576, u 0⟩, ⟨S2x65536x2, u 1⟩, ⟨S2x65536x2, u 2⟩] concatenates_S2x65536x576_S2x65536x2_S2x65536x2_S2x65536x580_d2),
    StableHlo.reshape main_v325 main_v326 rfl shapeCasts_S2x65536x580_S131072x580,
    StableHlo.binary main_v326 main_arg3 main_v327 ((fun l r => Host.dotGeneral dot_S131072x580_S580x256_S131072x256_1_0_0_1_n_n none l r) : (⟨S131072x580, .f32⟩ : BufTy).Contents (Elt F) → (⟨S580x256, .f32⟩ : BufTy).Contents (Elt F) → (⟨S131072x256, .f32⟩ : BufTy).Contents (Elt F)) ]

set_option maxRecDepth 8192 in
set_option maxHeartbeats 4000000 in
/-- The window is that straight line: each callee unfolded at its call, sequencing reassociated. -/
theorem main_part6_eq (c : Dev nD) : main_part6 (F := F) c = seq ops6 := by
  simp only [main_part6, fn_pad.body, fn_clip.body, fn_clip_0.body, fn_relu.body, seq, bind_assoc, pure_bind] <;> rfl

/-- Every operation of the window touches TensorCore references only. -/
theorem ops6_sub : (ops6 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., binary_bufs_sub .., nary_bufs_sub .., reshape_bufs_sub .., binary_bufs_sub ..⟩

/-- Every operation of the window determines the buffers it writes. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops6_W : List (Ref sig .tc) :=
  [main_v280, main_c_78, main_v281, main_v282, main_c_79, main_v283, main_v284, main_v285, main_c_80, main_v286, main_v287, main_c_81, main_v288, main_v289, main_v290, main_v291, main_v292, main_v293, main_v294, main_v295, main_v296, main_cst_82, main_v297, main_v298, main_cst_83, main_v299, main_v300, main_cst_84, main_v301, main_v302, main_cst_85, main_v303, main_v304, main_v305, main_cst_86, main_v306, main_v307, main_cst_87, main_v308, main_v309, main_cst_88, main_v310, main_v311, main_cst_89, main_v312, main_v313, main_v314, main_v315, main_v316, main_v317, main_v318, main_v319, main_v320, main_v321, main_v322, main_v323, main_v324, main_v325, main_v326, main_v327]

/-- A reference of a list, as a device buffer, lies in the list's set of device buffers. -/
private theorem single_sub_of_mem {W : List (Ref sig .tc)} (y : Ref sig .tc) (h : y ∈ W) :
    ({(y : DevRef τ sig)} : Finset (DevRef τ sig)) ⊆ (W.map (Proc.devRef (τ := τ) .tc)).toFinset :=
  Finset.singleton_subset_iff.2 (List.mem_toFinset.2 (List.mem_map_of_mem h))

/-- Each operation writes its one result buffer, which the list holds. -/
theorem ops6_writes : (ops6 : List (HloOp τ sig (Elt F))).Forall fun op => op.writes ⊆ (ops6_W.map (Proc.devRef (τ := τ) .tc)).toFinset :=
  ⟨single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide)⟩

end Cert.ReferenceIdeal.Hand

end
-- ==== Proof.ROps7.lean ====
import proofs.«100126_j36189394436483_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 7, in order: 78 host operations, a call standing as its callee's operations over the call's buffer record. -/
abbrev ops7 : List (HloOp τ sig (Elt F)) :=
  [ StableHlo.unary main_arg4 main_v328 (broadcastInDim S1x256 ![1] bcast_S256_S1x256_1 : (⟨S256, .f32⟩ : BufTy).Contents (Elt F) → (⟨S1x256, .f32⟩ : BufTy).Contents (Elt F)),
    StableHlo.unary main_v328 main_v329 (broadcastInDim S131072x256 ![0, 1] bcast_S1x256_S131072x256_0_1 : (⟨S1x256, .f32⟩ : BufTy).Contents (Elt F) → (⟨S131072x256, .f32⟩ : BufTy).Contents (Elt F)),
    StableHlo.binary main_v327 main_v329 main_v330 (addf : (⟨S131072x256, .f32⟩ : BufTy).Contents (Elt F) → (⟨S131072x256, .f32⟩ : BufTy).Contents (Elt F) → (⟨S131072x256, .f32⟩ : BufTy).Contents (Elt F)),
    StableHlo.TRef.nullary main_call18.cst (constant S_ .f32 0x00000000#32),
    StableHlo.TRef.unary main_call18.cst main_call18.v0 (broadcastInDim S131072x256 ![] bcast_S_S131072x256),
    StableHlo.TRef.binary (.of main_v330 : StableHlo.TRef sig ⟨S131072x256, .f32⟩) main_call18.v0 main_call18.v1 maximumf,
    StableHlo.binary main_v331 main_arg5 main_v332 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    StableHlo.unary main_arg6 main_v333 (broadcastInDim S1x256 ![1] bcast_S256_S1x256_1 : (⟨S256, .f32⟩ : BufTy).Contents (Elt F) → (⟨S1x256, .f32⟩ : BufTy).Contents (Elt F)),
    StableHlo.unary main_v333 main_v334 (broadcastInDim S131072x256 ![0, 1] bcast_S1x256_S131072x256_0_1 : (⟨S1x256, .f32⟩ : BufTy).Contents (Elt F) → (⟨S131072x256, .f32⟩ : BufTy).Contents (Elt F)),
    StableHlo.binary main_v332 main_v334 main_v335 (addf : (⟨S131072x256, .f32⟩ : BufTy).Contents (Elt F) → (⟨S131072x256, .f32⟩ : BufTy).Contents (Elt F) → (⟨S131072x256, .f32⟩ : BufTy).Contents (Elt F)),
    StableHlo.TRef.nullary main_call19.cst (constant S_ .f32 0x00000000#32),
    StableHlo.TRef.unary main_call19.cst main_call19.v0 (broadcastInDim S131072x256 ![] bcast_S_S131072x256),
    StableHlo.TRef.binary (.of main_v335 : StableHlo.TRef sig ⟨S131072x256, .f32⟩) main_call19.v0 main_call19.v1 maximumf,
    StableHlo.binary main_v336 main_arg7 main_v337 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    StableHlo.unary main_arg8 main_v338 (broadcastInDim S1x256 ![1] bcast_S256_S1x256_1 : (⟨S256, .f32⟩ : BufTy).Contents (Elt F) → (⟨S1x256, .f32⟩ : BufTy).Contents (Elt F)),
    StableHlo.unary main_v338 main_v339 (broadcastInDim S131072x256 ![0, 1] bcast_S1x256_S131072x256_0_1 : (⟨S1x256, .f32⟩ : BufTy).Contents (Elt F) → (⟨S131072x256, .f32⟩ : BufTy).Contents (Elt F)),
    StableHlo.binary main_v337 main_v339 main_v340 (addf : (⟨S131072x256, .f32⟩ : BufTy).Contents (Elt F) → (⟨S131072x256, .f32⟩ : BufTy).Contents (Elt F) → (⟨S131072x256, .f32⟩ : BufTy).Contents (Elt F)),
    StableHlo.TRef.nullary main_call20.cst (constant S_ .f32 0x00000000#32),
    StableHlo.TRef.unary main_call20.cst main_call20.v0 (broadcastInDim S131072x256 ![] bcast_S_S131072x256),
    StableHlo.TRef.binary (.of main_v340 : StableHlo.TRef sig ⟨S131072x256, .f32⟩) main_call20.v0 main_call20.v1 maximumf,
    StableHlo.binary main_v341 main_arg9 main_v342 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    StableHlo.unary main_arg10 main_v343 (broadcastInDim S1x256 ![1] bcast_S256_S1x256_1 : (⟨S256, .f32⟩ : BufTy).Contents (Elt F) → (⟨S1x256, .f32⟩ : BufTy).Contents (Elt F)),
    StableHlo.unary main_v343 main_v344 (broadcastInDim S131072x256 ![0, 1] bcast_S1x256_S131072x256_0_1 : (⟨S1x256, .f32⟩ : BufTy).Contents (Elt F) → (⟨S131072x256, .f32⟩ : BufTy).Contents (Elt F)),
    StableHlo.binary main_v342 main_v344 main_v345 (addf : (⟨S131072x256, .f32⟩ : BufTy).Contents (Elt F) → (⟨S131072x256, .f32⟩ : BufTy).Contents (Elt F) → (⟨S131072x256, .f32⟩ : BufTy).Contents (Elt F)),
    StableHlo.TRef.nullary main_call21.cst (constant S_ .f32 0x00000000#32),
    StableHlo.TRef.unary main_call21.cst main_call21.v0 (broadcastInDim S131072x256 ![] bcast_S_S131072x256),
    StableHlo.TRef.binary (.of main_v345 : StableHlo.TRef sig ⟨S131072x256, .f32⟩) main_call21.v0 main_call21.v1 maximumf,
    StableHlo.binary main_v346 main_arg11 main_v347 ((fun l r => Host.dotGeneral dot_S131072x256_S256x2_S131072x2_1_0_0_1_n_n none l r) : (⟨S131072x256, .f32⟩ : BufTy).Contents (Elt F) → (⟨S256x2, .f32⟩ : BufTy).Contents (Elt F) → (⟨S131072x2, .f32⟩ : BufTy).Contents (Elt F)),
    StableHlo.unary main_arg12 main_v348 (broadcastInDim S1x2 ![1] bcast_S2_S1x2_1 : (⟨S2, .f32⟩ : BufTy).Contents (Elt F) → (⟨S1x2, .f32⟩ : BufTy).Contents (Elt F)),
    StableHlo.unary main_v348 main_v349 (broadcastInDim S131072x2 ![0, 1] bcast_S1x2_S131072x2_0_1 : (⟨S1x2, .f32⟩ : BufTy).Contents (Elt F) → (⟨S131072x2, .f32⟩ : BufTy).Contents (Elt F)),
    StableHlo.binary main_v347 main_v349 main_v350 (addf : (⟨S131072x2, .f32⟩ : BufTy).Contents (Elt F) → (⟨S131072x2, .f32⟩ : BufTy).Contents (Elt F) → (⟨S131072x2, .f32⟩ : BufTy).Contents (Elt F)),
    StableHlo.reshape main_v350 main_v351 rfl shapeCasts_S131072x2_S2x65536x2,
    StableHlo.unary main_v321 main_v352 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v352 main_v353 rfl shapeCasts_S2x65536x1_S2x65536,
    StableHlo.unary main_v321 main_v354 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v354 main_v355 rfl shapeCasts_S2x65536x1_S2x65536,
    StableHlo.binary main_v353 main_v355 main_v356 (mulf : (⟨S2x65536, .f32⟩ : BufTy).Contents (Elt F) → (⟨S2x65536, .f32⟩ : BufTy).Contents (Elt F) → (⟨S2x65536, .f32⟩ : BufTy).Contents (Elt F)),
    StableHlo.unary main_v356 main_v357 (Host.absf : (⟨S2x65536, .f32⟩ : BufTy).Contents (Elt F) → (⟨S2x65536, .f32⟩ : BufTy).Contents (Elt F)),
    StableHlo.nullary main_cst_90 (constant S_ .f32 0x3089705F#32),
    StableHlo.unary main_cst_90 main_v358 (broadcastInDim S2x65536 ![] bcast_S_S2x65536 : (⟨S_, .f32⟩ : BufTy).Contents (Elt F) → (⟨S2x65536, .f32⟩ : BufTy).Contents (Elt F)),
    StableHlo.binary main_v357 main_v358 main_v359 (addf : (⟨S2x65536, .f32⟩ : BufTy).Contents (Elt F) → (⟨S2x65536, .f32⟩ : BufTy).Contents (Elt F) → (⟨S2x65536, .f32⟩ : BufTy).Contents (Elt F)),
    StableHlo.unary main_cst_3 main_v360 (broadcastInDim S1x1x2 ![2] bcast_S2_S1x1x2_2 : (⟨S2, .f32⟩ : BufTy).Contents (Elt F) → (⟨S1x1x2, .f32⟩ : BufTy).Contents (Elt F)),
    StableHlo.unary main_v360 main_v361 (broadcastInDim S2x65536x2 ![0, 1, 2] bcast_S1x1x2_S2x65536x2_0_1_2 : (⟨S1x1x2, .f32⟩ : BufTy).Contents (Elt F) → (⟨S2x65536x2, .f32⟩ : BufTy).Contents (Elt F)),
    StableHlo.binary main_arg1 main_v361 main_v362 (addf : (⟨S2x65536x2, .f32⟩ : BufTy).Contents (Elt F) → (⟨S2x65536x2, .f32⟩ : BufTy).Contents (Elt F) → (⟨S2x65536x2, .f32⟩ : BufTy).Contents (Elt F)),
    StableHlo.nullary main_cst_91 (constant S_ .f32 0xBF7FFFEF#32),
    StableHlo.nullary main_cst_92 (constant S_ .f32 0x3F7FFFEF#32),
    StableHlo.TRef.unary (.of main_cst_91 : StableHlo.TRef sig ⟨S_, .f32⟩) main_call22.v0 id,
    StableHlo.TRef.unary main_call22.v0 main_call22.v1 (broadcastInDim S2x65536x2 ![] bcast_S_S2x65536x2),
    StableHlo.TRef.binary main_call22.v1 (.of main_v362 : StableHlo.TRef sig ⟨S2x65536x2, .f32⟩) main_call22.v2 maximumf,
    StableHlo.TRef.unary (.of main_cst_92 : StableHlo.TRef sig ⟨S_, .f32⟩) main_call22.v3 id,
    StableHlo.TRef.unary main_call22.v3 main_call22.v4 (broadcastInDim S2x65536x2 ![] bcast_S_S2x65536x2),
    StableHlo.TRef.binary main_call22.v4 main_call22.v2 main_call22.v5 minimumf,
    StableHlo.unary main_v363 main_v364 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v364 main_v365 rfl shapeCasts_S2x65536x1_S2x65536,
    StableHlo.nullary main_cst_93 (constant S_ .f32 0x3F800000#32),
    StableHlo.unary main_cst_93 main_v366 (broadcastInDim S2x65536 ![] bcast_S_S2x65536 : (⟨S_, .f32⟩ : BufTy).Contents (Elt F) → (⟨S2x65536, .f32⟩ : BufTy).Contents (Elt F)),
    StableHlo.binary main_v365 main_v366 main_v367 (addf : (⟨S2x65536, .f32⟩ : BufTy).Contents (Elt F) → (⟨S2x65536, .f32⟩ : BufTy).Contents (Elt F) → (⟨S2x65536, .f32⟩ : BufTy).Contents (Elt F)),
    StableHlo.nullary main_cst_94 (constant S_ .f32 0x42C00000#32),
    StableHlo.unary main_cst_94 main_v368 (broadcastInDim S2x65536 ![] bcast_S_S2x65536 : (⟨S_, .f32⟩ : BufTy).Contents (Elt F) → (⟨S2x65536, .f32⟩ : BufTy).Contents (Elt F)),
    StableHlo.binary main_v367 main_v368 main_v369 (mulf : (⟨S2x65536, .f32⟩ : BufTy).Contents (Elt F) → (⟨S2x65536, .f32⟩ : BufTy).Contents (Elt F) → (⟨S2x65536, .f32⟩ : BufTy).Contents (Elt F)),
    StableHlo.nullary main_cst_95 (constant S_ .f32 0x3F800000#32),
    StableHlo.unary main_cst_95 main_v370 (broadcastInDim S2x65536 ![] bcast_S_S2x65536 : (⟨S_, .f32⟩ : BufTy).Contents (Elt F) → (⟨S2x65536, .f32⟩ : BufTy).Contents (Elt F)),
    StableHlo.binary main_v369 main_v370 main_v371 (subf : (⟨S2x65536, .f32⟩ : BufTy).Contents (Elt F) → (⟨S2x65536, .f32⟩ : BufTy).Contents (Elt F) → (⟨S2x65536, .f32⟩ : BufTy).Contents (Elt F)),
    StableHlo.nullary main_cst_96 (constant S_ .f32 0x3F000000#32),
    StableHlo.unary main_cst_96 main_v372 (broadcastInDim S2x65536 ![] bcast_S_S2x65536 : (⟨S_, .f32⟩ : BufTy).Contents (Elt F) → (⟨S2x65536, .f32⟩ : BufTy).Contents (Elt F)),
    StableHlo.binary main_v371 main_v372 main_v373 (mulf : (⟨S2x65536, .f32⟩ : BufTy).Contents (Elt F) → (⟨S2x65536, .f32⟩ : BufTy).Contents (Elt F) → (⟨S2x65536, .f32⟩ : BufTy).Contents (Elt F)),
    StableHlo.nullary main_cst_97 (constant S_ .f32 0x3F000000#32),
    StableHlo.unary main_cst_97 main_v374 (broadcastInDim S2x65536 ![] bcast_S_S2x65536 : (⟨S_, .f32⟩ : BufTy).Contents (Elt F) → (⟨S2x65536, .f32⟩ : BufTy).Contents (Elt F)),
    StableHlo.binary main_v373 main_v374 main_v375 (addf : (⟨S2x65536, .f32⟩ : BufTy).Contents (Elt F) → (⟨S2x65536, .f32⟩ : BufTy).Contents (Elt F) → (⟨S2x65536, .f32⟩ : BufTy).Contents (Elt F)),
    StableHlo.unary main_v375 main_v376 (Host.floor : (⟨S2x65536, .f32⟩ : BufTy).Contents (Elt F) → (⟨S2x65536, .f32⟩ : BufTy).Contents (Elt F)),
    StableHlo.nullary main_c_98 (constantI S_ 32 0#32),
    StableHlo.nullary main_c_99 (constantI S_ 32 95#32),
    StableHlo.TRef.unary (.of main_c_98 : StableHlo.TRef sig ⟨S_, .i32⟩) main_call23.v0 (sitofp .f32),
    StableHlo.TRef.unary main_call23.v0 main_call23.v1 (broadcastInDim S2x65536 ![] bcast_S_S2x65536),
    StableHlo.TRef.binary main_call23.v1 (.of main_v376 : StableHlo.TRef sig ⟨S2x65536, .f32⟩) main_call23.v2 maximumf,
    StableHlo.TRef.unary (.of main_c_99 : StableHlo.TRef sig ⟨S_, .i32⟩) main_call23.v3 (sitofp .f32),
    StableHlo.TRef.unary main_call23.v3 main_call23.v4 (broadcastInDim S2x65536 ![] bcast_S_S2x65536),
    StableHlo.TRef.binary main_call23.v4 main_call23.v2 main_call23.v5 minimumf ]

set_option maxRecDepth 8192 in
set_option maxHeartbeats 4000000 in
/-- The window is that straight line: each callee unfolded at its call, sequencing reassociated. -/
theorem main_part7_eq (c : Dev nD) : main_part7 (F := F) c = seq ops7 := by
  simp only [main_part7, fn_pad.body, fn_clip.body, fn_clip_0.body, fn_relu.body, seq, bind_assoc, pure_bind] <;> rfl

/-- Every operation of the window touches TensorCore references only. -/
theorem ops7_sub : (ops7 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., unary_bufs_sub .., reshape_bufs_sub .., unary_bufs_sub .., reshape_bufs_sub .., binary_bufs_sub .., unary_bufs_sub .., nullary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub ..⟩

/-- Every operation of the window determines the buffers it writes. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops7_W : List (Ref sig .tc) :=
  [main_v328, main_v329, main_v330, main_call18_cst, main_call18_v0, main_v331, main_v332, main_v333, main_v334, main_v335, main_call19_cst, main_call19_v0, main_v336, main_v337, main_v338, main_v339, main_v340, main_call20_cst, main_call20_v0, main_v341, main_v342, main_v343, main_v344, main_v345, main_call21_cst, main_call21_v0, main_v346, main_v347, main_v348, main_v349, main_v350, main_v351, main_v352, main_v353, main_v354, main_v355, main_v356, main_v357, main_cst_90, main_v358, main_v359, main_v360, main_v361, main_v362, main_cst_91, main_cst_92, main_call22_v0, main_call22_v1, main_call22_v2, main_call22_v3, main_call22_v4, main_v363, main_v364, main_v365, main_cst_93, main_v366, main_v367, main_cst_94, main_v368, main_v369, main_cst_95, main_v370, main_v371, main_cst_96, main_v372, main_v373, main_cst_97, main_v374, main_v375, main_v376, main_c_98, main_c_99, main_call23_v0, main_call23_v1, main_call23_v2, main_call23_v3, main_call23_v4, main_v377]

/-- A reference of a list, as a device buffer, lies in the list's set of device buffers. -/
private theorem single_sub_of_mem {W : List (Ref sig .tc)} (y : Ref sig .tc) (h : y ∈ W) :
    ({(y : DevRef τ sig)} : Finset (DevRef τ sig)) ⊆ (W.map (Proc.devRef (τ := τ) .tc)).toFinset :=
  Finset.singleton_subset_iff.2 (List.mem_toFinset.2 (List.mem_map_of_mem h))

/-- Each operation writes its one result buffer, which the list holds. -/
theorem ops7_writes : (ops7 : List (HloOp τ sig (Elt F))).Forall fun op => op.writes ⊆ (ops7_W.map (Proc.devRef (τ := τ) .tc)).toFinset :=
  ⟨single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide)⟩

end Cert.ReferenceIdeal.Hand

end
-- ==== Proof.ROps8.lean ====
import proofs.«100126_j36189394436483_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 8, in order: 65 host operations, a call standing as its callee's operations over the call's buffer record. -/
abbrev ops8 : List (HloOp τ sig (Elt F)) :=
  [ StableHlo.unary main_v377 main_v378 (fptosi 32 : (⟨S2x65536, .f32⟩ : BufTy).Contents (Elt F) → (⟨S2x65536, .i32⟩ : BufTy).Contents (Elt F)),
    StableHlo.unary main_v363 main_v379 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v379 main_v380 rfl shapeCasts_S2x65536x1_S2x65536,
    StableHlo.nullary main_cst_100 (constant S_ .f32 0x3F800000#32),
    StableHlo.unary main_cst_100 main_v381 (broadcastInDim S2x65536 ![] bcast_S_S2x65536 : (⟨S_, .f32⟩ : BufTy).Contents (Elt F) → (⟨S2x65536, .f32⟩ : BufTy).Contents (Elt F)),
    StableHlo.binary main_v380 main_v381 main_v382 (addf : (⟨S2x65536, .f32⟩ : BufTy).Contents (Elt F) → (⟨S2x65536, .f32⟩ : BufTy).Contents (Elt F) → (⟨S2x65536, .f32⟩ : BufTy).Contents (Elt F)),
    StableHlo.nullary main_cst_101 (constant S_ .f32 0x42C00000#32),
    StableHlo.unary main_cst_101 main_v383 (broadcastInDim S2x65536 ![] bcast_S_S2x65536 : (⟨S_, .f32⟩ : BufTy).Contents (Elt F) → (⟨S2x65536, .f32⟩ : BufTy).Contents (Elt F)),
    StableHlo.binary main_v382 main_v383 main_v384 (mulf : (⟨S2x65536, .f32⟩ : BufTy).Contents (Elt F) → (⟨S2x65536, .f32⟩ : BufTy).Contents (Elt F) → (⟨S2x65536, .f32⟩ : BufTy).Contents (Elt F)),
    StableHlo.nullary main_cst_102 (constant S_ .f32 0x3F800000#32),
    StableHlo.unary main_cst_102 main_v385 (broadcastInDim S2x65536 ![] bcast_S_S2x65536 : (⟨S_, .f32⟩ : BufTy).Contents (Elt F) → (⟨S2x65536, .f32⟩ : BufTy).Contents (Elt F)),
    StableHlo.binary main_v384 main_v385 main_v386 (subf : (⟨S2x65536, .f32⟩ : BufTy).Contents (Elt F) → (⟨S2x65536, .f32⟩ : BufTy).Contents (Elt F) → (⟨S2x65536, .f32⟩ : BufTy).Contents (Elt F)),
    StableHlo.nullary main_cst_103 (constant S_ .f32 0x3F000000#32),
    StableHlo.unary main_cst_103 main_v387 (broadcastInDim S2x65536 ![] bcast_S_S2x65536 : (⟨S_, .f32⟩ : BufTy).Contents (Elt F) → (⟨S2x65536, .f32⟩ : BufTy).Contents (Elt F)),
    StableHlo.binary main_v386 main_v387 main_v388 (mulf : (⟨S2x65536, .f32⟩ : BufTy).Contents (Elt F) → (⟨S2x65536, .f32⟩ : BufTy).Contents (Elt F) → (⟨S2x65536, .f32⟩ : BufTy).Contents (Elt F)),
    StableHlo.nullary main_cst_104 (constant S_ .f32 0x3F000000#32),
    StableHlo.unary main_cst_104 main_v389 (broadcastInDim S2x65536 ![] bcast_S_S2x65536 : (⟨S_, .f32⟩ : BufTy).Contents (Elt F) → (⟨S2x65536, .f32⟩ : BufTy).Contents (Elt F)),
    StableHlo.binary main_v388 main_v389 main_v390 (addf : (⟨S2x65536, .f32⟩ : BufTy).Contents (Elt F) → (⟨S2x65536, .f32⟩ : BufTy).Contents (Elt F) → (⟨S2x65536, .f32⟩ : BufTy).Contents (Elt F)),
    StableHlo.unary main_v390 main_v391 (Host.floor : (⟨S2x65536, .f32⟩ : BufTy).Contents (Elt F) → (⟨S2x65536, .f32⟩ : BufTy).Contents (Elt F)),
    StableHlo.nullary main_c_105 (constantI S_ 32 0#32),
    StableHlo.nullary main_c_106 (constantI S_ 32 95#32),
    StableHlo.TRef.unary (.of main_c_105 : StableHlo.TRef sig ⟨S_, .i32⟩) main_call24.v0 (sitofp .f32),
    StableHlo.TRef.unary main_call24.v0 main_call24.v1 (broadcastInDim S2x65536 ![] bcast_S_S2x65536),
    StableHlo.TRef.binary main_call24.v1 (.of main_v391 : StableHlo.TRef sig ⟨S2x65536, .f32⟩) main_call24.v2 maximumf,
    StableHlo.TRef.unary (.of main_c_106 : StableHlo.TRef sig ⟨S_, .i32⟩) main_call24.v3 (sitofp .f32),
    StableHlo.TRef.unary main_call24.v3 main_call24.v4 (broadcastInDim S2x65536 ![] bcast_S_S2x65536),
    StableHlo.TRef.binary main_call24.v4 main_call24.v2 main_call24.v5 minimumf,
    StableHlo.unary main_v392 main_v393 (fptosi 32 : (⟨S2x65536, .f32⟩ : BufTy).Contents (Elt F) → (⟨S2x65536, .i32⟩ : BufTy).Contents (Elt F)),
    StableHlo.nullary main_c_107 (constantI S_ 32 0#32),
    StableHlo.unary main_c_107 main_v394 (broadcastInDim S2x65536 ![] bcast_S_S2x65536 : (⟨S_, .i32⟩ : BufTy).Contents (Elt F) → (⟨S2x65536, .i32⟩ : BufTy).Contents (Elt F)),
    StableHlo.binary main_v378 main_v394 main_v395 (cmpi .slt : (⟨S2x65536, .i32⟩ : BufTy).Contents (Elt F) → (⟨S2x65536, .i32⟩ : BufTy).Contents (Elt F) → (⟨S2x65536, .i1⟩ : BufTy).Contents (Elt F)),
    StableHlo.nullary main_c_108 (constantI S_ 32 96#32),
    StableHlo.unary main_c_108 main_v396 (broadcastInDim S2x65536 ![] bcast_S_S2x65536 : (⟨S_, .i32⟩ : BufTy).Contents (Elt F) → (⟨S2x65536, .i32⟩ : BufTy).Contents (Elt F)),
    StableHlo.binary main_v378 main_v396 main_v397 (addi : (⟨S2x65536, .i32⟩ : BufTy).Contents (Elt F) → (⟨S2x65536, .i32⟩ : BufTy).Contents (Elt F) → (⟨S2x65536, .i32⟩ : BufTy).Contents (Elt F)),
    StableHlo.ternary main_v395 main_v397 main_v378 main_v398 (select : (⟨S2x65536, .i1⟩ : BufTy).Contents (Elt F) → (⟨S2x65536, .i32⟩ : BufTy).Contents (Elt F) → (⟨S2x65536, .i32⟩ : BufTy).Contents (Elt F) → (⟨S2x65536, .i32⟩ : BufTy).Contents (Elt F)),
    StableHlo.nullary main_c_109 (constantI S_ 32 0#32),
    StableHlo.unary main_c_109 main_v399 (broadcastInDim S2x65536 ![] bcast_S_S2x65536 : (⟨S_, .i32⟩ : BufTy).Contents (Elt F) → (⟨S2x65536, .i32⟩ : BufTy).Contents (Elt F)),
    StableHlo.binary main_v393 main_v399 main_v400 (cmpi .slt : (⟨S2x65536, .i32⟩ : BufTy).Contents (Elt F) → (⟨S2x65536, .i32⟩ : BufTy).Contents (Elt F) → (⟨S2x65536, .i1⟩ : BufTy).Contents (Elt F)),
    StableHlo.nullary main_c_110 (constantI S_ 32 96#32),
    StableHlo.unary main_c_110 main_v401 (broadcastInDim S2x65536 ![] bcast_S_S2x65536 : (⟨S_, .i32⟩ : BufTy).Contents (Elt F) → (⟨S2x65536, .i32⟩ : BufTy).Contents (Elt F)),
    StableHlo.binary main_v393 main_v401 main_v402 (addi : (⟨S2x65536, .i32⟩ : BufTy).Contents (Elt F) → (⟨S2x65536, .i32⟩ : BufTy).Contents (Elt F) → (⟨S2x65536, .i32⟩ : BufTy).Contents (Elt F)),
    StableHlo.ternary main_v400 main_v402 main_v393 main_v403 (select : (⟨S2x65536, .i1⟩ : BufTy).Contents (Elt F) → (⟨S2x65536, .i32⟩ : BufTy).Contents (Elt F) → (⟨S2x65536, .i32⟩ : BufTy).Contents (Elt F) → (⟨S2x65536, .i32⟩ : BufTy).Contents (Elt F)),
    StableHlo.unary main_v398 main_v404 (broadcastInDim S2x65536x1 ![0, 1] bcast_S2x65536_S2x65536x1_0_1 : (⟨S2x65536, .i32⟩ : BufTy).Contents (Elt F) → (⟨S2x65536x1, .i32⟩ : BufTy).Contents (Elt F)),
    StableHlo.unary main_v403 main_v405 (broadcastInDim S2x65536x1 ![0, 1] bcast_S2x65536_S2x65536x1_0_1 : (⟨S2x65536, .i32⟩ : BufTy).Contents (Elt F) → (⟨S2x65536x1, .i32⟩ : BufTy).Contents (Elt F)),
    StableHlo.binary main_v404 main_v405 main_v406 ((fun a b => concatenate S2x65536x2 2 [⟨S2x65536x1, a⟩, ⟨S2x65536x1, b⟩] concatenates_S2x65536x1_S2x65536x1_S2x65536x2_d2) : (⟨S2x65536x1, .i32⟩ : BufTy).Contents (Elt F) → (⟨S2x65536x1, .i32⟩ : BufTy).Contents (Elt F) → (⟨S2x65536x2, .i32⟩ : BufTy).Contents (Elt F)),
    StableHlo.binary main_v20 main_v406 main_v407 ((fun x i => Host.gather gather_S2x576x96x96_S2x65536x2_S2x576x65536_1_23_0_0_23_2_157611 x i) : (⟨S2x576x96x96, .f32⟩ : BufTy).Contents (Elt F) → (⟨S2x65536x2, .i32⟩ : BufTy).Contents (Elt F) → (⟨S2x576x65536, .f32⟩ : BufTy).Contents (Elt F)),
    StableHlo.unary main_v407 main_v408 ((transpose S2x65536x576 [0, 2, 1] · transposes_S2x576x65536_S2x65536x576_0_2_1) : (⟨S2x576x65536, .f32⟩ : BufTy).Contents (Elt F) → (⟨S2x65536x576, .f32⟩ : BufTy).Contents (Elt F)),
    StableHlo.unary main_v378 main_v409 (sitofp .f32 : (⟨S2x65536, .i32⟩ : BufTy).Contents (Elt F) → (⟨S2x65536, .f32⟩ : BufTy).Contents (Elt F)),
    StableHlo.nullary main_cst_111 (constant S_ .f32 0x40000000#32),
    StableHlo.unary main_cst_111 main_v410 (broadcastInDim S2x65536 ![] bcast_S_S2x65536 : (⟨S_, .f32⟩ : BufTy).Contents (Elt F) → (⟨S2x65536, .f32⟩ : BufTy).Contents (Elt F)),
    StableHlo.binary main_v410 main_v409 main_v411 (mulf : (⟨S2x65536, .f32⟩ : BufTy).Contents (Elt F) → (⟨S2x65536, .f32⟩ : BufTy).Contents (Elt F) → (⟨S2x65536, .f32⟩ : BufTy).Contents (Elt F)),
    StableHlo.nullary main_cst_112 (constant S_ .f32 0x3F800000#32),
    StableHlo.unary main_cst_112 main_v412 (broadcastInDim S2x65536 ![] bcast_S_S2x65536 : (⟨S_, .f32⟩ : BufTy).Contents (Elt F) → (⟨S2x65536, .f32⟩ : BufTy).Contents (Elt F)),
    StableHlo.binary main_v411 main_v412 main_v413 (addf : (⟨S2x65536, .f32⟩ : BufTy).Contents (Elt F) → (⟨S2x65536, .f32⟩ : BufTy).Contents (Elt F) → (⟨S2x65536, .f32⟩ : BufTy).Contents (Elt F)),
    StableHlo.nullary main_cst_113 (constant S_ .f32 0x42C00000#32),
    StableHlo.unary main_cst_113 main_v414 (broadcastInDim S2x65536 ![] bcast_S_S2x65536 : (⟨S_, .f32⟩ : BufTy).Contents (Elt F) → (⟨S2x65536, .f32⟩ : BufTy).Contents (Elt F)),
    StableHlo.binary main_v413 main_v414 main_v415 (Host.divf : (⟨S2x65536, .f32⟩ : BufTy).Contents (Elt F) → (⟨S2x65536, .f32⟩ : BufTy).Contents (Elt F) → (⟨S2x65536, .f32⟩ : BufTy).Contents (Elt F)),
    StableHlo.nullary main_cst_114 (constant S_ .f32 0xBF800000#32),
    StableHlo.unary main_cst_114 main_v416 (broadcastInDim S2x65536 ![] bcast_S_S2x65536 : (⟨S_, .f32⟩ : BufTy).Contents (Elt F) → (⟨S2x65536, .f32⟩ : BufTy).Contents (Elt F)),
    StableHlo.binary main_v416 main_v415 main_v417 (addf : (⟨S2x65536, .f32⟩ : BufTy).Contents (Elt F) → (⟨S2x65536, .f32⟩ : BufTy).Contents (Elt F) → (⟨S2x65536, .f32⟩ : BufTy).Contents (Elt F)),
    StableHlo.unary main_v393 main_v418 (sitofp .f32 : (⟨S2x65536, .i32⟩ : BufTy).Contents (Elt F) → (⟨S2x65536, .f32⟩ : BufTy).Contents (Elt F)),
    StableHlo.nullary main_cst_115 (constant S_ .f32 0x40000000#32),
    StableHlo.unary main_cst_115 main_v419 (broadcastInDim S2x65536 ![] bcast_S_S2x65536 : (⟨S_, .f32⟩ : BufTy).Contents (Elt F) → (⟨S2x65536, .f32⟩ : BufTy).Contents (Elt F)),
    StableHlo.binary main_v419 main_v418 main_v420 (mulf : (⟨S2x65536, .f32⟩ : BufTy).Contents (Elt F) → (⟨S2x65536, .f32⟩ : BufTy).Contents (Elt F) → (⟨S2x65536, .f32⟩ : BufTy).Contents (Elt F)),
    StableHlo.nullary main_cst_116 (constant S_ .f32 0x3F800000#32) ]

set_option maxRecDepth 8192 in
set_option maxHeartbeats 4000000 in
/-- The window is that straight line: each callee unfolded at its call, sequencing reassociated. -/
theorem main_part8_eq (c : Dev nD) : main_part8 (F := F) c = seq ops8 := by
  simp only [main_part8, fn_pad.body, fn_clip.body, fn_clip_0.body, fn_relu.body, seq, bind_assoc, pure_bind] <;> rfl

/-- Every operation of the window touches TensorCore references only. -/
theorem ops8_sub : (ops8 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub ..⟩

/-- Every operation of the window determines the buffers it writes. -/
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops8_W : List (Ref sig .tc) :=
  [main_v378, main_v379, main_v380, main_cst_100, main_v381, main_v382, main_cst_101, main_v383, main_v384, main_cst_102, main_v385, main_v386, main_cst_103, main_v387, main_v388, main_cst_104, main_v389, main_v390, main_v391, main_c_105, main_c_106, main_call24_v0, main_call24_v1, main_call24_v2, main_call24_v3, main_call24_v4, main_v392, main_v393, main_c_107, main_v394, main_v395, main_c_108, main_v396, main_v397, main_v398, main_c_109, main_v399, main_v400, main_c_110, main_v401, main_v402, main_v403, main_v404, main_v405, main_v406, main_v407, main_v408, main_v409, main_cst_111, main_v410, main_v411, main_cst_112, main_v412, main_v413, main_cst_113, main_v414, main_v415, main_cst_114, main_v416, main_v417, main_v418, main_cst_115, main_v419, main_v420, main_cst_116]

/-- A reference of a list, as a device buffer, lies in the list's set of device buffers. -/
private theorem single_sub_of_mem {W : List (Ref sig .tc)} (y : Ref sig .tc) (h : y ∈ W) :
    ({(y : DevRef τ sig)} : Finset (DevRef τ sig)) ⊆ (W.map (Proc.devRef (τ := τ) .tc)).toFinset :=
  Finset.singleton_subset_iff.2 (List.mem_toFinset.2 (List.mem_map_of_mem h))

/-- Each operation writes its one result buffer, which the list holds. -/
theorem ops8_writes : (ops8 : List (HloOp τ sig (Elt F))).Forall fun op => op.writes ⊆ (ops8_W.map (Proc.devRef (τ := τ) .tc)).toFinset :=
  ⟨single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide)⟩

end Cert.ReferenceIdeal.Hand

end
-- ==== Proof.ROps9.lean ====
import proofs.«100126_j36189394436483_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 9, in order: 68 host operations, a call standing as its callee's operations over the call's buffer record. -/
abbrev ops9 : List (HloOp τ sig (Elt F)) :=
  [ StableHlo.unary main_cst_116 main_v421 (broadcastInDim S2x65536 ![] bcast_S_S2x65536 : (⟨S_, .f32⟩ : BufTy).Contents (Elt F) → (⟨S2x65536, .f32⟩ : BufTy).Contents (Elt F)),
    StableHlo.binary main_v420 main_v421 main_v422 (addf : (⟨S2x65536, .f32⟩ : BufTy).Contents (Elt F) → (⟨S2x65536, .f32⟩ : BufTy).Contents (Elt F) → (⟨S2x65536, .f32⟩ : BufTy).Contents (Elt F)),
    StableHlo.nullary main_cst_117 (constant S_ .f32 0x42C00000#32),
    StableHlo.unary main_cst_117 main_v423 (broadcastInDim S2x65536 ![] bcast_S_S2x65536 : (⟨S_, .f32⟩ : BufTy).Contents (Elt F) → (⟨S2x65536, .f32⟩ : BufTy).Contents (Elt F)),
    StableHlo.binary main_v422 main_v423 main_v424 (Host.divf : (⟨S2x65536, .f32⟩ : BufTy).Contents (Elt F) → (⟨S2x65536, .f32⟩ : BufTy).Contents (Elt F) → (⟨S2x65536, .f32⟩ : BufTy).Contents (Elt F)),
    StableHlo.nullary main_cst_118 (constant S_ .f32 0xBF800000#32),
    StableHlo.unary main_cst_118 main_v425 (broadcastInDim S2x65536 ![] bcast_S_S2x65536 : (⟨S_, .f32⟩ : BufTy).Contents (Elt F) → (⟨S2x65536, .f32⟩ : BufTy).Contents (Elt F)),
    StableHlo.binary main_v425 main_v424 main_v426 (addf : (⟨S2x65536, .f32⟩ : BufTy).Contents (Elt F) → (⟨S2x65536, .f32⟩ : BufTy).Contents (Elt F) → (⟨S2x65536, .f32⟩ : BufTy).Contents (Elt F)),
    StableHlo.unary main_v417 main_v427 (broadcastInDim S2x65536x1 ![0, 1] bcast_S2x65536_S2x65536x1_0_1 : (⟨S2x65536, .f32⟩ : BufTy).Contents (Elt F) → (⟨S2x65536x1, .f32⟩ : BufTy).Contents (Elt F)),
    StableHlo.unary main_v426 main_v428 (broadcastInDim S2x65536x1 ![0, 1] bcast_S2x65536_S2x65536x1_0_1 : (⟨S2x65536, .f32⟩ : BufTy).Contents (Elt F) → (⟨S2x65536x1, .f32⟩ : BufTy).Contents (Elt F)),
    StableHlo.binary main_v427 main_v428 main_v429 ((fun a b => concatenate S2x65536x2 2 [⟨S2x65536x1, a⟩, ⟨S2x65536x1, b⟩] concatenates_S2x65536x1_S2x65536x1_S2x65536x2_d2) : (⟨S2x65536x1, .f32⟩ : BufTy).Contents (Elt F) → (⟨S2x65536x1, .f32⟩ : BufTy).Contents (Elt F) → (⟨S2x65536x2, .f32⟩ : BufTy).Contents (Elt F)),
    StableHlo.unary main_v429 main_v430 (id : (⟨S2x65536x2, .f32⟩ : BufTy).Contents (Elt F) → (⟨S2x65536x2, .f32⟩ : BufTy).Contents (Elt F)),
    StableHlo.binary main_arg1 main_v430 main_v431 (subf : (⟨S2x65536x2, .f32⟩ : BufTy).Contents (Elt F) → (⟨S2x65536x2, .f32⟩ : BufTy).Contents (Elt F) → (⟨S2x65536x2, .f32⟩ : BufTy).Contents (Elt F)),
    StableHlo.unary main_cst main_v432 (broadcastInDim S1x1x2 ![2] bcast_S2_S1x1x2_2 : (⟨S2, .f32⟩ : BufTy).Contents (Elt F) → (⟨S1x1x2, .f32⟩ : BufTy).Contents (Elt F)),
    StableHlo.unary main_v432 main_v433 (broadcastInDim S2x65536x2 ![0, 1, 2] bcast_S1x1x2_S2x65536x2_0_1_2 : (⟨S1x1x2, .f32⟩ : BufTy).Contents (Elt F) → (⟨S2x65536x2, .f32⟩ : BufTy).Contents (Elt F)),
    StableHlo.binary main_v431 main_v433 main_v434 (mulf : (⟨S2x65536x2, .f32⟩ : BufTy).Contents (Elt F) → (⟨S2x65536x2, .f32⟩ : BufTy).Contents (Elt F) → (⟨S2x65536x2, .f32⟩ : BufTy).Contents (Elt F)),
    StableHlo.unary main_cst main_v435 (broadcastInDim S1x1x2 ![2] bcast_S2_S1x1x2_2 : (⟨S2, .f32⟩ : BufTy).Contents (Elt F) → (⟨S1x1x2, .f32⟩ : BufTy).Contents (Elt F)),
    StableHlo.unary main_v435 main_v436 (broadcastInDim S2x65536x2 ![0, 1, 2] bcast_S1x1x2_S2x65536x2_0_1_2 : (⟨S1x1x2, .f32⟩ : BufTy).Contents (Elt F) → (⟨S2x65536x2, .f32⟩ : BufTy).Contents (Elt F)),
    StableHlo.binary main_arg2 main_v436 main_v437 (mulf : (⟨S2x65536x2, .f32⟩ : BufTy).Contents (Elt F) → (⟨S2x65536x2, .f32⟩ : BufTy).Contents (Elt F) → (⟨S2x65536x2, .f32⟩ : BufTy).Contents (Elt F)),
    StableHlo.nary ![main_v408, main_v434, main_v437] main_v438 (fun u => concatenate S2x65536x580 2 [⟨S2x65536x576, u 0⟩, ⟨S2x65536x2, u 1⟩, ⟨S2x65536x2, u 2⟩] concatenates_S2x65536x576_S2x65536x2_S2x65536x2_S2x65536x580_d2),
    StableHlo.reshape main_v438 main_v439 rfl shapeCasts_S2x65536x580_S131072x580,
    StableHlo.binary main_v439 main_arg3 main_v440 ((fun l r => Host.dotGeneral dot_S131072x580_S580x256_S131072x256_1_0_0_1_n_n none l r) : (⟨S131072x580, .f32⟩ : BufTy).Contents (Elt F) → (⟨S580x256, .f32⟩ : BufTy).Contents (Elt F) → (⟨S131072x256, .f32⟩ : BufTy).Contents (Elt F)),
    StableHlo.unary main_arg4 main_v441 (broadcastInDim S1x256 ![1] bcast_S256_S1x256_1 : (⟨S256, .f32⟩ : BufTy).Contents (Elt F) → (⟨S1x256, .f32⟩ : BufTy).Contents (Elt F)),
    StableHlo.unary main_v441 main_v442 (broadcastInDim S131072x256 ![0, 1] bcast_S1x256_S131072x256_0_1 : (⟨S1x256, .f32⟩ : BufTy).Contents (Elt F) → (⟨S131072x256, .f32⟩ : BufTy).Contents (Elt F)),
    StableHlo.binary main_v440 main_v442 main_v443 (addf : (⟨S131072x256, .f32⟩ : BufTy).Contents (Elt F) → (⟨S131072x256, .f32⟩ : BufTy).Contents (Elt F) → (⟨S131072x256, .f32⟩ : BufTy).Contents (Elt F)),
    StableHlo.TRef.nullary main_call25.cst (constant S_ .f32 0x00000000#32),
    StableHlo.TRef.unary main_call25.cst main_call25.v0 (broadcastInDim S131072x256 ![] bcast_S_S131072x256),
    StableHlo.TRef.binary (.of main_v443 : StableHlo.TRef sig ⟨S131072x256, .f32⟩) main_call25.v0 main_call25.v1 maximumf,
    StableHlo.binary main_v444 main_arg5 main_v445 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    StableHlo.unary main_arg6 main_v446 (broadcastInDim S1x256 ![1] bcast_S256_S1x256_1 : (⟨S256, .f32⟩ : BufTy).Contents (Elt F) → (⟨S1x256, .f32⟩ : BufTy).Contents (Elt F)),
    StableHlo.unary main_v446 main_v447 (broadcastInDim S131072x256 ![0, 1] bcast_S1x256_S131072x256_0_1 : (⟨S1x256, .f32⟩ : BufTy).Contents (Elt F) → (⟨S131072x256, .f32⟩ : BufTy).Contents (Elt F)),
    StableHlo.binary main_v445 main_v447 main_v448 (addf : (⟨S131072x256, .f32⟩ : BufTy).Contents (Elt F) → (⟨S131072x256, .f32⟩ : BufTy).Contents (Elt F) → (⟨S131072x256, .f32⟩ : BufTy).Contents (Elt F)),
    StableHlo.TRef.nullary main_call26.cst (constant S_ .f32 0x00000000#32),
    StableHlo.TRef.unary main_call26.cst main_call26.v0 (broadcastInDim S131072x256 ![] bcast_S_S131072x256),
    StableHlo.TRef.binary (.of main_v448 : StableHlo.TRef sig ⟨S131072x256, .f32⟩) main_call26.v0 main_call26.v1 maximumf,
    StableHlo.binary main_v449 main_arg7 main_v450 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    StableHlo.unary main_arg8 main_v451 (broadcastInDim S1x256 ![1] bcast_S256_S1x256_1 : (⟨S256, .f32⟩ : BufTy).Contents (Elt F) → (⟨S1x256, .f32⟩ : BufTy).Contents (Elt F)),
    StableHlo.unary main_v451 main_v452 (broadcastInDim S131072x256 ![0, 1] bcast_S1x256_S131072x256_0_1 : (⟨S1x256, .f32⟩ : BufTy).Contents (Elt F) → (⟨S131072x256, .f32⟩ : BufTy).Contents (Elt F)),
    StableHlo.binary main_v450 main_v452 main_v453 (addf : (⟨S131072x256, .f32⟩ : BufTy).Contents (Elt F) → (⟨S131072x256, .f32⟩ : BufTy).Contents (Elt F) → (⟨S131072x256, .f32⟩ : BufTy).Contents (Elt F)),
    StableHlo.TRef.nullary main_call27.cst (constant S_ .f32 0x00000000#32),
    StableHlo.TRef.unary main_call27.cst main_call27.v0 (broadcastInDim S131072x256 ![] bcast_S_S131072x256),
    StableHlo.TRef.binary (.of main_v453 : StableHlo.TRef sig ⟨S131072x256, .f32⟩) main_call27.v0 main_call27.v1 maximumf,
    StableHlo.binary main_v454 main_arg9 main_v455 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    StableHlo.unary main_arg10 main_v456 (broadcastInDim S1x256 ![1] bcast_S256_S1x256_1 : (⟨S256, .f32⟩ : BufTy).Contents (Elt F) → (⟨S1x256, .f32⟩ : BufTy).Contents (Elt F)),
    StableHlo.unary main_v456 main_v457 (broadcastInDim S131072x256 ![0, 1] bcast_S1x256_S131072x256_0_1 : (⟨S1x256, .f32⟩ : BufTy).Contents (Elt F) → (⟨S131072x256, .f32⟩ : BufTy).Contents (Elt F)),
    StableHlo.binary main_v455 main_v457 main_v458 (addf : (⟨S131072x256, .f32⟩ : BufTy).Contents (Elt F) → (⟨S131072x256, .f32⟩ : BufTy).Contents (Elt F) → (⟨S131072x256, .f32⟩ : BufTy).Contents (Elt F)),
    StableHlo.TRef.nullary main_call28.cst (constant S_ .f32 0x00000000#32),
    StableHlo.TRef.unary main_call28.cst main_call28.v0 (broadcastInDim S131072x256 ![] bcast_S_S131072x256),
    StableHlo.TRef.binary (.of main_v458 : StableHlo.TRef sig ⟨S131072x256, .f32⟩) main_call28.v0 main_call28.v1 maximumf,
    StableHlo.binary main_v459 main_arg11 main_v460 ((fun l r => Host.dotGeneral dot_S131072x256_S256x2_S131072x2_1_0_0_1_n_n none l r) : (⟨S131072x256, .f32⟩ : BufTy).Contents (Elt F) → (⟨S256x2, .f32⟩ : BufTy).Contents (Elt F) → (⟨S131072x2, .f32⟩ : BufTy).Contents (Elt F)),
    StableHlo.unary main_arg12 main_v461 (broadcastInDim S1x2 ![1] bcast_S2_S1x2_1 : (⟨S2, .f32⟩ : BufTy).Contents (Elt F) → (⟨S1x2, .f32⟩ : BufTy).Contents (Elt F)),
    StableHlo.unary main_v461 main_v462 (broadcastInDim S131072x2 ![0, 1] bcast_S1x2_S131072x2_0_1 : (⟨S1x2, .f32⟩ : BufTy).Contents (Elt F) → (⟨S131072x2, .f32⟩ : BufTy).Contents (Elt F)),
    StableHlo.binary main_v460 main_v462 main_v463 (addf : (⟨S131072x2, .f32⟩ : BufTy).Contents (Elt F) → (⟨S131072x2, .f32⟩ : BufTy).Contents (Elt F) → (⟨S131072x2, .f32⟩ : BufTy).Contents (Elt F)),
    StableHlo.reshape main_v463 main_v464 rfl shapeCasts_S131072x2_S2x65536x2,
    StableHlo.unary main_v434 main_v465 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v465 main_v466 rfl shapeCasts_S2x65536x1_S2x65536,
    StableHlo.unary main_v434 main_v467 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v467 main_v468 rfl shapeCasts_S2x65536x1_S2x65536,
    StableHlo.binary main_v466 main_v468 main_v469 (mulf : (⟨S2x65536, .f32⟩ : BufTy).Contents (Elt F) → (⟨S2x65536, .f32⟩ : BufTy).Contents (Elt F) → (⟨S2x65536, .f32⟩ : BufTy).Contents (Elt F)),
    StableHlo.unary main_v469 main_v470 (Host.absf : (⟨S2x65536, .f32⟩ : BufTy).Contents (Elt F) → (⟨S2x65536, .f32⟩ : BufTy).Contents (Elt F)),
    StableHlo.nullary main_cst_119 (constant S_ .f32 0x3089705F#32),
    StableHlo.unary main_cst_119 main_v471 (broadcastInDim S2x65536 ![] bcast_S_S2x65536 : (⟨S_, .f32⟩ : BufTy).Contents (Elt F) → (⟨S2x65536, .f32⟩ : BufTy).Contents (Elt F)),
    StableHlo.binary main_v470 main_v471 main_v472 (addf : (⟨S2x65536, .f32⟩ : BufTy).Contents (Elt F) → (⟨S2x65536, .f32⟩ : BufTy).Contents (Elt F) → (⟨S2x65536, .f32⟩ : BufTy).Contents (Elt F)),
    StableHlo.binary main_v133 main_v246 main_v473 (addf : (⟨S2x65536, .f32⟩ : BufTy).Contents (Elt F) → (⟨S2x65536, .f32⟩ : BufTy).Contents (Elt F) → (⟨S2x65536, .f32⟩ : BufTy).Contents (Elt F)),
    StableHlo.binary main_v473 main_v359 main_v474 (addf : (⟨S2x65536, .f32⟩ : BufTy).Contents (Elt F) → (⟨S2x65536, .f32⟩ : BufTy).Contents (Elt F) → (⟨S2x65536, .f32⟩ : BufTy).Contents (Elt F)),
    StableHlo.binary main_v474 main_v472 main_v475 (addf : (⟨S2x65536, .f32⟩ : BufTy).Contents (Elt F) → (⟨S2x65536, .f32⟩ : BufTy).Contents (Elt F) → (⟨S2x65536, .f32⟩ : BufTy).Contents (Elt F)),
    StableHlo.binary main_v472 main_v475 main_v476 (Host.divf : (⟨S2x65536, .f32⟩ : BufTy).Contents (Elt F) → (⟨S2x65536, .f32⟩ : BufTy).Contents (Elt F) → (⟨S2x65536, .f32⟩ : BufTy).Contents (Elt F)),
    StableHlo.unary main_v476 main_v477 (broadcastInDim S2x65536x1 ![0, 1] bcast_S2x65536_S2x65536x1_0_1 : (⟨S2x65536, .f32⟩ : BufTy).Contents (Elt F) → (⟨S2x65536x1, .f32⟩ : BufTy).Contents (Elt F)) ]

set_option maxRecDepth 8192 in
set_option maxHeartbeats 4000000 in
/-- The window is that straight line: each callee unfolded at its call, sequencing reassociated. -/
theorem main_part9_eq (c : Dev nD) : main_part9 (F := F) c = seq ops9 := by
  simp only [main_part9, fn_pad.body, fn_clip.body, fn_clip_0.body, fn_relu.body, seq, bind_assoc, pure_bind] <;> rfl

/-- Every operation of the window touches TensorCore references only. -/
theorem ops9_sub : (ops9 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., binary_bufs_sub .., nary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., unary_bufs_sub .., reshape_bufs_sub .., unary_bufs_sub .., reshape_bufs_sub .., binary_bufs_sub .., unary_bufs_sub .., nullary_bufs_sub .., unary_bufs_sub .., binary_bufs_sub .., binary_bufs_sub .., binary_bufs_sub .., binary_bufs_sub .., binary_bufs_sub .., unary_bufs_sub ..⟩

/-- Every operation of the window determines the buffers it writes. -/
theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops9_W : List (Ref sig .tc) :=
  [main_v421, main_v422, main_cst_117, main_v423, main_v424, main_cst_118, main_v425, main_v426, main_v427, main_v428, main_v429, main_v430, main_v431, main_v432, main_v433, main_v434, main_v435, main_v436, main_v437, main_v438, main_v439, main_v440, main_v441, main_v442, main_v443, main_call25_cst, main_call25_v0, main_v444, main_v445, main_v446, main_v447, main_v448, main_call26_cst, main_call26_v0, main_v449, main_v450, main_v451, main_v452, main_v453, main_call27_cst, main_call27_v0, main_v454, main_v455, main_v456, main_v457, main_v458, main_call28_cst, main_call28_v0, main_v459, main_v460, main_v461, main_v462, main_v463, main_v464, main_v465, main_v466, main_v467, main_v468, main_v469, main_v470, main_cst_119, main_v471, main_v472, main_v473, main_v474, main_v475, main_v476, main_v477]

/-- A reference of a list, as a device buffer, lies in the list's set of device buffers. -/
private theorem single_sub_of_mem {W : List (Ref sig .tc)} (y : Ref sig .tc) (h : y ∈ W) :
    ({(y : DevRef τ sig)} : Finset (DevRef τ sig)) ⊆ (W.map (Proc.devRef (τ := τ) .tc)).toFinset :=
  Finset.singleton_subset_iff.2 (List.mem_toFinset.2 (List.mem_map_of_mem h))

/-- Each operation writes its one result buffer, which the list holds. -/
theorem ops9_writes : (ops9 : List (HloOp τ sig (Elt F))).Forall fun op => op.writes ⊆ (ops9_W.map (Proc.devRef (τ := τ) .tc)).toFinset :=
  ⟨single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide)⟩

end Cert.ReferenceIdeal.Hand

end
-- ==== Proof.ROps10.lean ====
import proofs.«100126_j36189394436483_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 10, in order: 25 host operations, a call standing as its callee's operations over the call's buffer record. -/
abbrev ops10 : List (HloOp τ sig (Elt F)) :=
  [ StableHlo.unary main_v477 main_v478 (broadcastInDim S2x65536x2 ![0, 1, 2] bcast_S2x65536x1_S2x65536x2_0_1_2 : (⟨S2x65536x1, .f32⟩ : BufTy).Contents (Elt F) → (⟨S2x65536x2, .f32⟩ : BufTy).Contents (Elt F)),
    StableHlo.binary main_v125 main_v478 main_v479 (mulf : (⟨S2x65536x2, .f32⟩ : BufTy).Contents (Elt F) → (⟨S2x65536x2, .f32⟩ : BufTy).Contents (Elt F) → (⟨S2x65536x2, .f32⟩ : BufTy).Contents (Elt F)),
    StableHlo.nullary main_cst_120 (constant S_ .f32 0x00000000#32),
    StableHlo.unary main_cst_120 main_v480 (broadcastInDim S2x65536x2 ![] bcast_S_S2x65536x2 : (⟨S_, .f32⟩ : BufTy).Contents (Elt F) → (⟨S2x65536x2, .f32⟩ : BufTy).Contents (Elt F)),
    StableHlo.binary main_v480 main_v479 main_v481 (addf : (⟨S2x65536x2, .f32⟩ : BufTy).Contents (Elt F) → (⟨S2x65536x2, .f32⟩ : BufTy).Contents (Elt F) → (⟨S2x65536x2, .f32⟩ : BufTy).Contents (Elt F)),
    StableHlo.binary main_v359 main_v475 main_v482 (Host.divf : (⟨S2x65536, .f32⟩ : BufTy).Contents (Elt F) → (⟨S2x65536, .f32⟩ : BufTy).Contents (Elt F) → (⟨S2x65536, .f32⟩ : BufTy).Contents (Elt F)),
    StableHlo.unary main_v482 main_v483 (broadcastInDim S2x65536x1 ![0, 1] bcast_S2x65536_S2x65536x1_0_1 : (⟨S2x65536, .f32⟩ : BufTy).Contents (Elt F) → (⟨S2x65536x1, .f32⟩ : BufTy).Contents (Elt F)),
    StableHlo.unary main_v483 main_v484 (broadcastInDim S2x65536x2 ![0, 1, 2] bcast_S2x65536x1_S2x65536x2_0_1_2 : (⟨S2x65536x1, .f32⟩ : BufTy).Contents (Elt F) → (⟨S2x65536x2, .f32⟩ : BufTy).Contents (Elt F)),
    StableHlo.binary main_v238 main_v484 main_v485 (mulf : (⟨S2x65536x2, .f32⟩ : BufTy).Contents (Elt F) → (⟨S2x65536x2, .f32⟩ : BufTy).Contents (Elt F) → (⟨S2x65536x2, .f32⟩ : BufTy).Contents (Elt F)),
    StableHlo.binary main_v481 main_v485 main_v486 (addf : (⟨S2x65536x2, .f32⟩ : BufTy).Contents (Elt F) → (⟨S2x65536x2, .f32⟩ : BufTy).Contents (Elt F) → (⟨S2x65536x2, .f32⟩ : BufTy).Contents (Elt F)),
    StableHlo.binary main_v246 main_v475 main_v487 (Host.divf : (⟨S2x65536, .f32⟩ : BufTy).Contents (Elt F) → (⟨S2x65536, .f32⟩ : BufTy).Contents (Elt F) → (⟨S2x65536, .f32⟩ : BufTy).Contents (Elt F)),
    StableHlo.unary main_v487 main_v488 (broadcastInDim S2x65536x1 ![0, 1] bcast_S2x65536_S2x65536x1_0_1 : (⟨S2x65536, .f32⟩ : BufTy).Contents (Elt F) → (⟨S2x65536x1, .f32⟩ : BufTy).Contents (Elt F)),
    StableHlo.unary main_v488 main_v489 (broadcastInDim S2x65536x2 ![0, 1, 2] bcast_S2x65536x1_S2x65536x2_0_1_2 : (⟨S2x65536x1, .f32⟩ : BufTy).Contents (Elt F) → (⟨S2x65536x2, .f32⟩ : BufTy).Contents (Elt F)),
    StableHlo.binary main_v351 main_v489 main_v490 (mulf : (⟨S2x65536x2, .f32⟩ : BufTy).Contents (Elt F) → (⟨S2x65536x2, .f32⟩ : BufTy).Contents (Elt F) → (⟨S2x65536x2, .f32⟩ : BufTy).Contents (Elt F)),
    StableHlo.binary main_v486 main_v490 main_v491 (addf : (⟨S2x65536x2, .f32⟩ : BufTy).Contents (Elt F) → (⟨S2x65536x2, .f32⟩ : BufTy).Contents (Elt F) → (⟨S2x65536x2, .f32⟩ : BufTy).Contents (Elt F)),
    StableHlo.binary main_v133 main_v475 main_v492 (Host.divf : (⟨S2x65536, .f32⟩ : BufTy).Contents (Elt F) → (⟨S2x65536, .f32⟩ : BufTy).Contents (Elt F) → (⟨S2x65536, .f32⟩ : BufTy).Contents (Elt F)),
    StableHlo.unary main_v492 main_v493 (broadcastInDim S2x65536x1 ![0, 1] bcast_S2x65536_S2x65536x1_0_1 : (⟨S2x65536, .f32⟩ : BufTy).Contents (Elt F) → (⟨S2x65536x1, .f32⟩ : BufTy).Contents (Elt F)),
    StableHlo.unary main_v493 main_v494 (broadcastInDim S2x65536x2 ![0, 1, 2] bcast_S2x65536x1_S2x65536x2_0_1_2 : (⟨S2x65536x1, .f32⟩ : BufTy).Contents (Elt F) → (⟨S2x65536x2, .f32⟩ : BufTy).Contents (Elt F)),
    StableHlo.binary main_v464 main_v494 main_v495 (mulf : (⟨S2x65536x2, .f32⟩ : BufTy).Contents (Elt F) → (⟨S2x65536x2, .f32⟩ : BufTy).Contents (Elt F) → (⟨S2x65536x2, .f32⟩ : BufTy).Contents (Elt F)),
    StableHlo.binary main_v491 main_v495 main_v496 (addf : (⟨S2x65536x2, .f32⟩ : BufTy).Contents (Elt F) → (⟨S2x65536x2, .f32⟩ : BufTy).Contents (Elt F) → (⟨S2x65536x2, .f32⟩ : BufTy).Contents (Elt F)),
    StableHlo.unary main_v496 main_v497 (Host.absf : (⟨S2x65536x2, .f32⟩ : BufTy).Contents (Elt F) → (⟨S2x65536x2, .f32⟩ : BufTy).Contents (Elt F)),
    StableHlo.nullary main_cst_121 (constant S_ .f32 0x00000000#32),
    StableHlo.binary main_v497 main_cst_121 main_v498 ((fun x v => Host.reduceAdd x v reducesTo_S2x65536x2_S_d0_1_2 h_S_) : (⟨S2x65536x2, .f32⟩ : BufTy).Contents (Elt F) → (⟨S_, .f32⟩ : BufTy).Contents (Elt F) → (⟨S_, .f32⟩ : BufTy).Contents (Elt F)),
    StableHlo.nullary main_cst_122 (constant S_ .f32 0x48800000#32),
    StableHlo.binary main_v498 main_cst_122 main_v499 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The window is that straight line: each callee unfolded at its call, sequencing reassociated. -/
theorem main_part10_eq (c : Dev nD) : main_part10 (F := F) c = seq ops10 := by
  simp only [main_part10, fn_pad.body, fn_clip.body, fn_clip_0.body, fn_relu.body, seq, bind_assoc, pure_bind] <;> rfl

/-- Every operation of the window touches TensorCore references only. -/
theorem ops10_sub : (ops10 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., unary_bufs_sub .., nullary_bufs_sub .., binary_bufs_sub .., nullary_bufs_sub .., binary_bufs_sub ..⟩

/-- Every operation of the window determines the buffers it writes. -/
theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops10_W : List (Ref sig .tc) :=
  [main_v478, main_v479, main_cst_120, main_v480, main_v481, main_v482, main_v483, main_v484, main_v485, main_v486, main_v487, main_v488, main_v489, main_v490, main_v491, main_v492, main_v493, main_v494, main_v495, main_v496, main_v497, main_cst_121, main_v498, main_cst_122, main_v499]

/-- A reference of a list, as a device buffer, lies in the list's set of device buffers. -/
private theorem single_sub_of_mem {W : List (Ref sig .tc)} (y : Ref sig .tc) (h : y ∈ W) :
    ({(y : DevRef τ sig)} : Finset (DevRef τ sig)) ⊆ (W.map (Proc.devRef (τ := τ) .tc)).toFinset :=
  Finset.singleton_subset_iff.2 (List.mem_toFinset.2 (List.mem_map_of_mem h))

/-- Each operation writes its one result buffer, which the list holds. -/
theorem ops10_writes : (ops10 : List (HloOp τ sig (Elt F))).Forall fun op => op.writes ⊆ (ops10_W.map (Proc.devRef (τ := τ) .tc)).toFinset :=
  ⟨single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide), single_sub_of_mem _ (by decide)⟩

end Cert.ReferenceIdeal.Hand

end
-- ==== Proof.RRun.lean ====
import proofs.«100126_j36189394436483_2_alg».proof.Proof.ROps0
import proofs.«100126_j36189394436483_2_alg».proof.Proof.ROps1
import proofs.«100126_j36189394436483_2_alg».proof.Proof.ROps2
import proofs.«100126_j36189394436483_2_alg».proof.Proof.ROps3
import proofs.«100126_j36189394436483_2_alg».proof.Proof.ROps4
import proofs.«100126_j36189394436483_2_alg».proof.Proof.ROps5
import proofs.«100126_j36189394436483_2_alg».proof.Proof.ROps6
import proofs.«100126_j36189394436483_2_alg».proof.Proof.ROps7
import proofs.«100126_j36189394436483_2_alg».proof.Proof.ROps8
import proofs.«100126_j36189394436483_2_alg».proof.Proof.ROps9
import proofs.«100126_j36189394436483_2_alg».proof.Proof.ROps10
import Idealize.ShloMosaic.Lib.StableHlo.Run

/-!
# The run of the reference program

@main of the reference is eleven printed windows run in order; each window is the straight line of its host
operations (`main_partJ_eq`). Here the windows are joined: @main is the straight line of the concatenated list
`ops`, so every weakly fair execution terminates with every TensorCore buffer at the fold of the operations over
the launch contents (`run_all`). No operation writes an argument array, so each of the thirteen arguments ends as
launched (`after_main_argK`, `frame`).

The list is associated to the right, `ops0 ++ (ops1 ++ (… ++ ops10))`: the fold over it peels one window at a time
(`after_append`).
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's host operations, in order: the eleven windows' lists, associated to the right. -/
abbrev ops : List (HloOp τ sig (Elt F)) :=
  ops0 ++ (ops1 ++ (ops2 ++ (ops3 ++ (ops4 ++ (ops5 ++ (ops6 ++ (ops7 ++ (ops8 ++ (ops9 ++ (ops10))))))))))

/-! ## General facts on lists of operations -/

/-- The fold over a concatenation is the fold over the second list from the fold over the first. -/
theorem after_append : ∀ (l₁ l₂ : List (HloOp τ sig (Elt F))) (V : Valuation τ sig (Elt F)),
    after (l₁ ++ l₂) V = after l₂ (after l₁ V)
  | [], _, _ => rfl
  | op :: l, l₂, V => after_append l l₂ (op.result V)

/-- A property of every element of two lists holds of every element of their concatenation. -/
theorem forall_append {α : Type*} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- A reference the first list does not write, and the second list keeps from any contents, is kept by the
    concatenation. -/
theorem after_append_keep {W : List (Ref sig .tc)} {r : Ref sig .tc} (l₁ l₂ : List (HloOp τ sig (Elt F)))
    (hW : l₁.Forall fun op => op.writes ⊆ (W.map (Proc.devRef (τ := τ) .tc)).toFinset) (hr : r ∉ W)
    (h₂ : ∀ V : Valuation τ sig (Elt F), after l₂ V (Proc.devRef .tc r) = V (Proc.devRef .tc r))
    (V : Valuation τ sig (Elt F)) :
    after (l₁ ++ l₂) V (Proc.devRef .tc r) = V (Proc.devRef .tc r) := by
  rw [after_append, h₂, after_of_writes_sub l₁ V hW hr]

/-! ## @main is the straight line of `ops` -/

theorem main_eq (c : Dev nD) : main (F := F) c = seq ops := by
  simp only [main, main_part0_eq, main_part1_eq, main_part2_eq, main_part3_eq, main_part4_eq, main_part5_eq, main_part6_eq, main_part7_eq, main_part8_eq, main_part9_eq, main_part10_eq, ops, seq_append]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  forall_append ops0_sub (forall_append ops1_sub (forall_append ops2_sub (forall_append ops3_sub (forall_append ops4_sub (forall_append ops5_sub (forall_append ops6_sub (forall_append ops7_sub (forall_append ops8_sub (forall_append ops9_sub (ops10_sub))))))))))

/-- Every operation determines the buffers it writes. -/
theorem ops_fresh : ∀ op ∈ (ops : List (HloOp τ sig (Elt F))), op.fresh = ∅ :=
  List.forall_iff_forall_mem.1
    (forall_append ops0_fresh (forall_append ops1_fresh (forall_append ops2_fresh (forall_append ops3_fresh (forall_append ops4_fresh (forall_append ops5_fresh (forall_append ops6_fresh (forall_append ops7_fresh (forall_append ops8_fresh (forall_append ops9_fresh (ops10_fresh)))))))))))

/-! ## The run -/

/-- At the compiled mesh, for any float values, from any memory with zero counters: every weakly fair execution of
    @main on the TensorCores terminates, and every final state has each TensorCore buffer at the operations' fold
    over the launch contents. -/
theorem run_all (m : (ℓ : Loc nD τ sig) → Buf (Elt F) ℓ) (ρ : Dev nD → PrngReg) :
    θ_run defs (onTc (τ := τ) (main (F := F))) ⟨m, fun _ => 0, ρ⟩ (fun r =>
      ∀ (d : Dev nD) (b : Ref sig .tc), r.2.mem ((d.tc : Thread nD τ).loc b) = after ops (launchContents m d) (Proc.devRef .tc b)) :=
  run_seq scopedRefs_eq scopedSems_eq defs main (fun _ => ops) main_eq (fun _ => ops_sub) m ρ (fun _ => ops_fresh)

/-! ## No operation writes an argument -/

/-- A reference none of the eleven windows writes keeps its contents through the whole line. -/
theorem after_ops_of_not_mem (V : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) (h9 : r ∉ ops9_W) (h10 : r ∉ ops10_W) :
    after (ops (F := F)) V (Proc.devRef .tc r) = V (Proc.devRef .tc r) :=
  after_append_keep ops0 _ ops0_writes h0 (fun V =>
  after_append_keep ops1 _ ops1_writes h1 (fun V =>
  after_append_keep ops2 _ ops2_writes h2 (fun V =>
  after_append_keep ops3 _ ops3_writes h3 (fun V =>
  after_append_keep ops4 _ ops4_writes h4 (fun V =>
  after_append_keep ops5 _ ops5_writes h5 (fun V =>
  after_append_keep ops6 _ ops6_writes h6 (fun V =>
  after_append_keep ops7 _ ops7_writes h7 (fun V =>
  after_append_keep ops8 _ ops8_writes h8 (fun V =>
  after_append_keep ops9 _ ops9_writes h9 (fun V =>
  after_of_writes_sub ops10 V ops10_writes h10) V) V) V) V) V) V) V) V) V) V

theorem after_main_arg0 (m : (ℓ : Loc nD τ sig) → Buf (Elt F) ℓ) (d : Dev nD) :
    after (ops (F := F)) (launchContents m d) (Proc.devRef .tc main_arg0) = m ((d.tc : Thread nD τ).loc main_arg0) :=
  (after_ops_of_not_mem _ main_arg0 (by decide) (by decide) (by decide) (by decide) (by decide) (by decide) (by decide) (by decide) (by decide) (by decide) (by decide)).trans rfl

theorem after_main_arg1 (m : (ℓ : Loc nD τ sig) → Buf (Elt F) ℓ) (d : Dev nD) :
    after (ops (F := F)) (launchContents m d) (Proc.devRef .tc main_arg1) = m ((d.tc : Thread nD τ).loc main_arg1) :=
  (after_ops_of_not_mem _ main_arg1 (by decide) (by decide) (by decide) (by decide) (by decide) (by decide) (by decide) (by decide) (by decide) (by decide) (by decide)).trans rfl

theorem after_main_arg2 (m : (ℓ : Loc nD τ sig) → Buf (Elt F) ℓ) (d : Dev nD) :
    after (ops (F := F)) (launchContents m d) (Proc.devRef .tc main_arg2) = m ((d.tc : Thread nD τ).loc main_arg2) :=
  (after_ops_of_not_mem _ main_arg2 (by decide) (by decide) (by decide) (by decide) (by decide) (by decide) (by decide) (by decide) (by decide) (by decide) (by decide)).trans rfl

theorem after_main_arg3 (m : (ℓ : Loc nD τ sig) → Buf (Elt F) ℓ) (d : Dev nD) :
    after (ops (F := F)) (launchContents m d) (Proc.devRef .tc main_arg3) = m ((d.tc : Thread nD τ).loc main_arg3) :=
  (after_ops_of_not_mem _ main_arg3 (by decide) (by decide) (by decide) (by decide) (by decide) (by decide) (by decide) (by decide) (by decide) (by decide) (by decide)).trans rfl

theorem after_main_arg4 (m : (ℓ : Loc nD τ sig) → Buf (Elt F) ℓ) (d : Dev nD) :
    after (ops (F := F)) (launchContents m d) (Proc.devRef .tc main_arg4) = m ((d.tc : Thread nD τ).loc main_arg4) :=
  (after_ops_of_not_mem _ main_arg4 (by decide) (by decide) (by decide) (by decide) (by decide) (by decide) (by decide) (by decide) (by decide) (by decide) (by decide)).trans rfl

theorem after_main_arg5 (m : (ℓ : Loc nD τ sig) → Buf (Elt F) ℓ) (d : Dev nD) :
    after (ops (F := F)) (launchContents m d) (Proc.devRef .tc main_arg5) = m ((d.tc : Thread nD τ).loc main_arg5) :=
  (after_ops_of_not_mem _ main_arg5 (by decide) (by decide) (by decide) (by decide) (by decide) (by decide) (by decide) (by decide) (by decide) (by decide) (by decide)).trans rfl

theorem after_main_arg6 (m : (ℓ : Loc nD τ sig) → Buf (Elt F) ℓ) (d : Dev nD) :
    after (ops (F := F)) (launchContents m d) (Proc.devRef .tc main_arg6) = m ((d.tc : Thread nD τ).loc main_arg6) :=
  (after_ops_of_not_mem _ main_arg6 (by decide) (by decide) (by decide) (by decide) (by decide) (by decide) (by decide) (by decide) (by decide) (by decide) (by decide)).trans rfl

theorem after_main_arg7 (m : (ℓ : Loc nD τ sig) → Buf (Elt F) ℓ) (d : Dev nD) :
    after (ops (F := F)) (launchContents m d) (Proc.devRef .tc main_arg7) = m ((d.tc : Thread nD τ).loc main_arg7) :=
  (after_ops_of_not_mem _ main_arg7 (by decide) (by decide) (by decide) (by decide) (by decide) (by decide) (by decide) (by decide) (by decide) (by decide) (by decide)).trans rfl

theorem after_main_arg8 (m : (ℓ : Loc nD τ sig) → Buf (Elt F) ℓ) (d : Dev nD) :
    after (ops (F := F)) (launchContents m d) (Proc.devRef .tc main_arg8) = m ((d.tc : Thread nD τ).loc main_arg8) :=
  (after_ops_of_not_mem _ main_arg8 (by decide) (by decide) (by decide) (by decide) (by decide) (by decide) (by decide) (by decide) (by decide) (by decide) (by decide)).trans rfl

theorem after_main_arg9 (m : (ℓ : Loc nD τ sig) → Buf (Elt F) ℓ) (d : Dev nD) :
    after (ops (F := F)) (launchContents m d) (Proc.devRef .tc main_arg9) = m ((d.tc : Thread nD τ).loc main_arg9) :=
  (after_ops_of_not_mem _ main_arg9 (by decide) (by decide) (by decide) (by decide) (by decide) (by decide) (by decide) (by decide) (by decide) (by decide) (by decide)).trans rfl

theorem after_main_arg10 (m : (ℓ : Loc nD τ sig) → Buf (Elt F) ℓ) (d : Dev nD) :
    after (ops (F := F)) (launchContents m d) (Proc.devRef .tc main_arg10) = m ((d.tc : Thread nD τ).loc main_arg10) :=
  (after_ops_of_not_mem _ main_arg10 (by decide) (by decide) (by decide) (by decide) (by decide) (by decide) (by decide) (by decide) (by decide) (by decide) (by decide)).trans rfl

theorem after_main_arg11 (m : (ℓ : Loc nD τ sig) → Buf (Elt F) ℓ) (d : Dev nD) :
    after (ops (F := F)) (launchContents m d) (Proc.devRef .tc main_arg11) = m ((d.tc : Thread nD τ).loc main_arg11) :=
  (after_ops_of_not_mem _ main_arg11 (by decide) (by decide) (by decide) (by decide) (by decide) (by decide) (by decide) (by decide) (by decide) (by decide) (by decide)).trans rfl

theorem after_main_arg12 (m : (ℓ : Loc nD τ sig) → Buf (Elt F) ℓ) (d : Dev nD) :
    after (ops (F := F)) (launchContents m d) (Proc.devRef .tc main_arg12) = m ((d.tc : Thread nD τ).loc main_arg12) :=
  (after_ops_of_not_mem _ main_arg12 (by decide) (by decide) (by decide) (by decide) (by decide) (by decide) (by decide) (by decide) (by decide) (by decide) (by decide)).trans rfl

/-! ## The frame -/

/-- Every weakly fair execution of @main terminates with the thirteen argument arrays as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_arg0).trans (after_main_arg0 m c),
      (h c main_arg1).trans (after_main_arg1 m c),
      (h c main_arg2).trans (after_main_arg2 m c),
      (h c main_arg3).trans (after_main_arg3 m c),
      (h c main_arg4).trans (after_main_arg4 m c),
      (h c main_arg5).trans (after_main_arg5 m c),
      (h c main_arg6).trans (after_main_arg6 m c),
      (h c main_arg7).trans (after_main_arg7 m c),
      (h c main_arg8).trans (after_main_arg8 m c),
      (h c main_arg9).trans (after_main_arg9 m c),
      (h c main_arg10).trans (after_main_arg10 m c),
      (h c main_arg11).trans (after_main_arg11 m c),
      (h c main_arg12).trans (after_main_arg12 m c)⟩)
    (run_all m ρ)

end Cert.ReferenceIdeal.Hand

end
-- ==== Proof.KReadA.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-!
# Layout operations of the split program's host side, read at one index

Every operation here moves values without computing on them (a transpose, a change of shape, a slice, a
concatenation, a broadcast, a reversal), or is a four-term sum or a quotient read at one index. Each lemma names the
one operand index a result index reads, over literal extents and coordinates: a batch `b : Fin 2`, a query
`q : Fin 65536`, a pixel `(y, x) : Fin 96 × Fin 96`, a channel `j`. Flattened rows are `rowOf b q = 65536·b + q`
and `pixOf b y x = (96·b + y)·96 + x`.
-/

noncomputable section

namespace Cert.KernelIdeal.Hand

open Idealize.ShloMosaic Idealize.ShloMosaic.ValueIdx

variable {α : Type}

/-- The flattened query row of batch `b`, query `q`. -/
def rowOf (b : Fin 2) (q : Fin 65536) : Fin 131072 := ⟨65536 * b.val + q.val, by omega⟩
/-- The flattened pixel row of batch `b`, pixel `(y, x)`. -/
def pixOf (b : Fin 2) (y x : Fin 96) : Fin 18432 := ⟨(96 * b.val + y.val) * 96 + x.val, by
  have := b.isLt; have := y.isLt; have := x.isLt; omega⟩

theorem rowOf_val (b : Fin 2) (q : Fin 65536) : (rowOf b q).val = 65536 * b.val + q.val := rfl
theorem pixOf_val (b : Fin 2) (y x : Fin 96) : (pixOf b y x).val = (96 * b.val + y.val) * 96 + x.val := rfl

/-! ## The unfolded feature map: channels moved last, pixels flattened -/

/-- Channels moved last: `(b, y, x, i)` of the result is `(b, i, y, x)` of the operand. -/
theorem transpose_feat_apply (x : (⟨4, ![2, 576, 96, 96]⟩ : Shape).Idx → α)
    (h : (⟨4, ![2, 576, 96, 96]⟩ : Shape).Transposes [0, 2, 3, 1] ⟨4, ![2, 96, 96, 576]⟩)
    (b : Fin 2) (py px : Fin 96) (i : Fin 576) :
    transpose ⟨4, ![2, 96, 96, 576]⟩ [0, 2, 3, 1] x h (ix4 b py px i) = x (ix4 b i py px) :=
  transpose_apply _ x h _ _ fun c => match c with | ⟨0, _⟩ => rfl | ⟨1, _⟩ => rfl | ⟨2, _⟩ => rfl | ⟨3, _⟩ => rfl

/-- Pixels flattened: row `pixOf b y x` of the `[18432, 576]` matrix is pixel `(b, y, x)`. -/
theorem reshape_pix576_apply (x : (⟨4, ![2, 96, 96, 576]⟩ : Shape).Idx → α)
    (h : (⟨4, ![2, 96, 96, 576]⟩ : Shape).ShapeCasts ⟨2, ![18432, 576]⟩) (b : Fin 2) (py px : Fin 96) (i : Fin 576) :
    shapeCast ⟨2, ![18432, 576]⟩ x h (ix2 (pixOf b py px) i) = x (ix4 b py px i) :=
  shapeCast_apply x h _ _ (by
    rw [Shape.rowMajor_val_four, Shape.rowMajor_val_two]
    show ((b.val * 96 + py.val) * 96 + px.val) * 576 + i.val = ((96 * b.val + py.val) * 96 + px.val) * 576 + i.val
    rw [Nat.mul_comm b.val 96])

/-- The projected pixels unflattened: pixel `(b, y, x)` is row `pixOf b y x` of the `[18432, 256]` matrix. -/
theorem reshape_pix256_apply (x : (⟨2, ![18432, 256]⟩ : Shape).Idx → α)
    (h : (⟨2, ![18432, 256]⟩ : Shape).ShapeCasts ⟨4, ![2, 96, 96, 256]⟩) (b : Fin 2) (py px : Fin 96) (j : Fin 256) :
    shapeCast ⟨4, ![2, 96, 96, 256]⟩ x h (ix4 b py px j) = x (ix2 (pixOf b py px) j) :=
  shapeCast_apply x h _ _ (by
    rw [Shape.rowMajor_val_four, Shape.rowMajor_val_two]
    show ((96 * b.val + py.val) * 96 + px.val) * 256 + j.val = ((b.val * 96 + py.val) * 96 + px.val) * 256 + j.val
    rw [Nat.mul_comm b.val 96])

/-! ## Query rows flattened and unflattened -/

/-- `[2, 65536, n] → [131072, n]`: row `rowOf b q` is query `(b, q)`. -/
theorem reshape_rows3_apply {n : Nat} (x : (⟨3, ![2, 65536, n]⟩ : Shape).Idx → α)
    (h : (⟨3, ![2, 65536, n]⟩ : Shape).ShapeCasts ⟨2, ![131072, n]⟩) (b : Fin 2) (q : Fin 65536) (j : Fin n) :
    shapeCast ⟨2, ![131072, n]⟩ x h (ix2 (rowOf b q) j) = x (ix3 b q j) :=
  shapeCast_apply x h _ _ (by
    rw [Shape.rowMajor_val_three, Shape.rowMajor_val_two]
    show (b.val * 65536 + q.val) * n + j.val = (65536 * b.val + q.val) * n + j.val
    rw [Nat.mul_comm b.val 65536])

/-- `[2, 65536] → [131072]`: entry `rowOf b q` is query `(b, q)`. -/
theorem reshape_rows2_apply (x : (⟨2, ![2, 65536]⟩ : Shape).Idx → α)
    (h : (⟨2, ![2, 65536]⟩ : Shape).ShapeCasts ⟨1, ![131072]⟩) (b : Fin 2) (q : Fin 65536) :
    shapeCast ⟨1, ![131072]⟩ x h (ix1 (rowOf b q)) = x (ix2 b q) :=
  shapeCast_apply x h _ _ (by
    rw [Shape.rowMajor_val_two, Shape.rowMajor_val_one]
    show b.val * 65536 + q.val = 65536 * b.val + q.val
    rw [Nat.mul_comm b.val 65536])

/-- `[131072, n] → [2, 65536, n]`: query `(b, q)` is row `rowOf b q`. -/
theorem reshape_unrows3_apply {n : Nat} (x : (⟨2, ![131072, n]⟩ : Shape).Idx → α)
    (h : (⟨2, ![131072, n]⟩ : Shape).ShapeCasts ⟨3, ![2, 65536, n]⟩) (b : Fin 2) (q : Fin 65536) (j : Fin n) :
    shapeCast ⟨3, ![2, 65536, n]⟩ x h (ix3 b q j) = x (ix2 (rowOf b q) j) :=
  shapeCast_apply x h _ _ (by
    rw [Shape.rowMajor_val_three, Shape.rowMajor_val_two]
    show (65536 * b.val + q.val) * n + j.val = (b.val * 65536 + q.val) * n + j.val
    rw [Nat.mul_comm b.val 65536])

/-! ## The four relative inputs: two pairs side by side -/

/-- Columns 0 and 1 of the pair concatenation are the first operand's. -/
theorem concat_rel_left_apply (x₁ x₂ : (⟨3, ![2, 65536, 2]⟩ : Shape).Idx → α)
    (h : Shape.Concatenates [(⟨3, ![2, 65536, 2]⟩ : Shape), ⟨3, ![2, 65536, 2]⟩] ⟨3, ![2, 65536, 4]⟩ 2)
    (b : Fin 2) (q : Fin 65536) (i : Fin 2) :
    concatenate ⟨3, ![2, 65536, 4]⟩ 2 [⟨⟨3, ![2, 65536, 2]⟩, x₁⟩, ⟨⟨3, ![2, 65536, 2]⟩, x₂⟩] h (ix3 b q (Fin.castAdd 2 i))
      = x₁ (ix3 b q i) :=
  concatenate_pair_apply_left _ x₁ x₂ h _ rfl _ fun c => match c with | ⟨0, _⟩ => rfl | ⟨1, _⟩ => rfl | ⟨2, _⟩ => rfl

/-- Columns 2 and 3 of the pair concatenation are the second operand's columns 0 and 1. -/
theorem concat_rel_right_apply (x₁ x₂ : (⟨3, ![2, 65536, 2]⟩ : Shape).Idx → α)
    (h : Shape.Concatenates [(⟨3, ![2, 65536, 2]⟩ : Shape), ⟨3, ![2, 65536, 2]⟩] ⟨3, ![2, 65536, 4]⟩ 2)
    (b : Fin 2) (q : Fin 65536) (i : Fin 2) :
    concatenate ⟨3, ![2, 65536, 4]⟩ 2 [⟨⟨3, ![2, 65536, 2]⟩, x₁⟩, ⟨⟨3, ![2, 65536, 2]⟩, x₂⟩] h (ix3 b q (Fin.natAdd 2 i))
      = x₂ (ix3 b q i) :=
  concatenate_pair_apply_right _ x₁ x₂ h _ rfl rfl _
    (fun c hc => match c, hc with | ⟨0, _⟩, _ => rfl | ⟨1, _⟩, _ => rfl | ⟨2, _⟩, hc => absurd rfl hc)
    (by show i.val + 2 = 2 + i.val; omega)

/-! ## Four corners stacked: a new leading axis, four slabs -/

/-- A matrix given a leading unit axis reads itself. -/
theorem bcast_lead3_apply {n m : Nat} (x : (⟨2, ![n, m]⟩ : Shape).Idx → α)
    (h : (⟨2, ![n, m]⟩ : Shape).BroadcastsInDim ⟨3, ![1, n, m]⟩ ![1, 2]) (u : Fin 1) (r : Fin n) (j : Fin m) :
    broadcastInDim ⟨3, ![1, n, m]⟩ ![1, 2] h x (ix3 u r j) = x (ix2 r j) :=
  broadcastInDim_apply _ h x _ _ fun c => match c with
    | ⟨0, _⟩ => by
      show r.val = if n = 1 then 0 else r.val
      split
      · next hn => have := r.isLt; omega
      · rfl
    | ⟨1, _⟩ => by
      show j.val = if m = 1 then 0 else j.val
      split
      · next hm => have := j.isLt; omega
      · rfl

/-- A vector given a leading unit axis reads itself. -/
theorem bcast_lead2_apply {n : Nat} (x : (⟨1, ![n]⟩ : Shape).Idx → α)
    (h : (⟨1, ![n]⟩ : Shape).BroadcastsInDim ⟨2, ![1, n]⟩ ![1]) (u : Fin 1) (r : Fin n) :
    broadcastInDim ⟨2, ![1, n]⟩ ![1] h x (ix2 u r) = x (ix1 r) :=
  broadcastInDim_apply _ h x _ _ fun c => match c with
    | ⟨0, _⟩ => by
      show r.val = if n = 1 then 0 else r.val
      split
      · next hn => have := r.isLt; omega
      · rfl

/-- Four `[1, n, m]` slabs stacked along the leading axis: slab `k` is the `k`-th operand. -/
theorem concat4_slab3_apply {n m : Nat} (u : Fin 4 → (⟨3, ![1, n, m]⟩ : Shape).Idx → α)
    (h : Shape.Concatenates ([(⟨⟨3, ![1, n, m]⟩, u 0⟩ : (s : Shape) × (s.Idx → α)), ⟨⟨3, ![1, n, m]⟩, u 1⟩,
      ⟨⟨3, ![1, n, m]⟩, u 2⟩, ⟨⟨3, ![1, n, m]⟩, u 3⟩].map (·.1)) ⟨3, ![4, n, m]⟩ 0)
    (k : Fin 4) (r : Fin n) (j : Fin m) :
    concatenate ⟨3, ![4, n, m]⟩ 0 [⟨⟨3, ![1, n, m]⟩, u 0⟩, ⟨⟨3, ![1, n, m]⟩, u 1⟩, ⟨⟨3, ![1, n, m]⟩, u 2⟩,
      ⟨⟨3, ![1, n, m]⟩, u 3⟩] h (ix3 k r j) = u k (ix3 0 r j) := by
  have hi : ∀ c : Fin 3, c.cast (rfl : (3 : Nat) = 3) ≠ (0 : Fin 3) →
      ((ix3 (0 : Fin 1) r j) c).val = ((ix3 k r j) (c.cast rfl)).val := fun c hc =>
    match c, hc with | ⟨0, _⟩, hc => absurd rfl hc | ⟨1, _⟩, _ => rfl | ⟨2, _⟩, _ => rfl
  match k with
  | ⟨0, _⟩ => exact concatenate_apply_piece _ _ h _ 0 (by simp) _ (u 0) rfl rfl 0 rfl _ hi rfl
  | ⟨1, _⟩ => exact concatenate_apply_piece _ _ h _ 1 (by simp) _ (u 1) rfl rfl 1 rfl _ hi rfl
  | ⟨2, _⟩ => exact concatenate_apply_piece _ _ h _ 2 (by simp) _ (u 2) rfl rfl 2 rfl _ hi rfl
  | ⟨3, _⟩ => exact concatenate_apply_piece _ _ h _ 3 (by simp) _ (u 3) rfl rfl 3 rfl _ hi rfl

/-- Four `[1, n]` rows stacked along the leading axis: row `k` is the `k`-th operand. -/
theorem concat4_slab2_apply {n : Nat} (u : Fin 4 → (⟨2, ![1, n]⟩ : Shape).Idx → α)
    (h : Shape.Concatenates ([(⟨⟨2, ![1, n]⟩, u 0⟩ : (s : Shape) × (s.Idx → α)), ⟨⟨2, ![1, n]⟩, u 1⟩,
      ⟨⟨2, ![1, n]⟩, u 2⟩, ⟨⟨2, ![1, n]⟩, u 3⟩].map (·.1)) ⟨2, ![4, n]⟩ 0)
    (k : Fin 4) (r : Fin n) :
    concatenate ⟨2, ![4, n]⟩ 0 [⟨⟨2, ![1, n]⟩, u 0⟩, ⟨⟨2, ![1, n]⟩, u 1⟩, ⟨⟨2, ![1, n]⟩, u 2⟩,
      ⟨⟨2, ![1, n]⟩, u 3⟩] h (ix2 k r) = u k (ix2 0 r) := by
  have hi : ∀ c : Fin 2, c.cast (rfl : (2 : Nat) = 2) ≠ (0 : Fin 2) →
      ((ix2 (0 : Fin 1) r) c).val = ((ix2 k r) (c.cast rfl)).val := fun c hc =>
    match c, hc with | ⟨0, _⟩, hc => absurd rfl hc | ⟨1, _⟩, _ => rfl
  match k with
  | ⟨0, _⟩ => exact concatenate_apply_piece _ _ h _ 0 (by simp) _ (u 0) rfl rfl 0 rfl _ hi rfl
  | ⟨1, _⟩ => exact concatenate_apply_piece _ _ h _ 1 (by simp) _ (u 1) rfl rfl 1 rfl _ hi rfl
  | ⟨2, _⟩ => exact concatenate_apply_piece _ _ h _ 2 (by simp) _ (u 2) rfl rfl 2 rfl _ hi rfl
  | ⟨3, _⟩ => exact concatenate_apply_piece _ _ h _ 3 (by simp) _ (u 3) rfl rfl 3 rfl _ hi rfl

/-! ## The area weights: total over the four corners, order reversed, quotient -/

/-- The sum over the leading axis of a `[4, n]` array, from an initial value: the initial value plus the four terms. -/
theorem reduce4_apply {n : Nat} (x : (⟨2, ![4, n]⟩ : Shape).Idx → EReal) (init : EReal)
    (h' : (⟨2, ![4, n]⟩ : Shape).ReducesTo [0] ⟨1, ![n]⟩) (h : (⟨2, ![4, n]⟩ : Shape).Reduces [0] ⟨1, ![n]⟩) (r : Fin n) :
    Ideal.hostReduceAdd h' x init (ix1 r)
      = init + (x (ix2 0 r) + x (ix2 1 r) + x (ix2 2 r) + x (ix2 3 r)) := by
  rw [Ideal.hostReduceAdd_single h' h]
  have hl : ∀ k : Fin 4, h.lift (ix1 r) k = ix2 k r := fun k => funext fun c => Fin.ext (by
    match c with | ⟨0, _⟩ => rfl | ⟨1, _⟩ => rfl)
  show init + ∑ k : Fin 4, x (h.lift (ix1 r) k) = _
  rw [Fin.sum_univ_four, hl 0, hl 1, hl 2, hl 3]

/-- Reversal along the leading axis of a `[4, n]` array: slab `k` reads slab `3 − k`. -/
theorem reverse4_apply {n : Nat} (x : (⟨2, ![4, n]⟩ : Shape).Idx → α) (k : Fin 4) (r : Fin n) :
    Host.reverse (s := ⟨2, ![4, n]⟩) [0] x (ix2 k r) = x (ix2 k.rev r) := by
  unfold Host.reverse
  refine congrArg x (funext fun c => ?_)
  match c with
  | ⟨0, _⟩ => rfl
  | ⟨1, _⟩ => rfl

/-- A `[1, n]` row repeated over four slabs reads the row. -/
theorem bcast_rows4_apply {n : Nat} (x : (⟨2, ![1, n]⟩ : Shape).Idx → α)
    (h : (⟨2, ![1, n]⟩ : Shape).BroadcastsInDim ⟨2, ![4, n]⟩ ![0, 1]) (k : Fin 4) (r : Fin n) :
    broadcastInDim ⟨2, ![4, n]⟩ ![0, 1] h x (ix2 k r) = x (ix2 0 r) :=
  broadcastInDim_apply _ h x _ _ fun c => match c with
    | ⟨0, _⟩ => rfl
    | ⟨1, _⟩ => by
      show r.val = if n = 1 then 0 else r.val
      split
      · next hn => have := r.isLt; omega
      · rfl

/-- A `[4, n]` array given a trailing unit axis reads itself. -/
theorem bcast_trail_apply {n : Nat} (x : (⟨2, ![4, n]⟩ : Shape).Idx → α)
    (h : (⟨2, ![4, n]⟩ : Shape).BroadcastsInDim ⟨3, ![4, n, 1]⟩ ![0, 1]) (k : Fin 4) (r : Fin n) (z : Fin 1) :
    broadcastInDim ⟨3, ![4, n, 1]⟩ ![0, 1] h x (ix3 k r z) = x (ix2 k r) :=
  broadcastInDim_apply _ h x _ _ fun c => match c with
    | ⟨0, _⟩ => rfl
    | ⟨1, _⟩ => by
      show r.val = if n = 1 then 0 else r.val
      split
      · next hn => have := r.isLt; omega
      · rfl

/-! ## The first layer's weights cut in two, and the biases as one-row matrices -/

/-- The first 576 rows of the 580-row weight matrix. -/
theorem slice_w0_top_apply (x : (⟨2, ![580, 256]⟩ : Shape).Idx → α)
    (h : (⟨2, ![580, 256]⟩ : Shape).Slices ![0, 0] ⟨2, ![576, 256]⟩) (i : Fin 576) (j : Fin 256) :
    extractStridedSlice ⟨2, ![576, 256]⟩ ![0, 0] x h (ix2 i j) = x (ix2 (Fin.castAdd 4 i) j) :=
  extractStridedSlice_apply _ x h _ _ fun c => match c with
    | ⟨0, _⟩ => by show i.val = 0 + i.val; omega
    | ⟨1, _⟩ => by show j.val = 0 + j.val; omega

/-- The last four rows of the 580-row weight matrix. -/
theorem slice_w0_bot_apply (x : (⟨2, ![580, 256]⟩ : Shape).Idx → α)
    (h : (⟨2, ![580, 256]⟩ : Shape).Slices ![576, 0] ⟨2, ![4, 256]⟩) (i : Fin 4) (j : Fin 256) :
    extractStridedSlice ⟨2, ![4, 256]⟩ ![576, 0] x h (ix2 i j) = x (ix2 (Fin.natAdd 576 i) j) :=
  extractStridedSlice_apply _ x h _ _ fun c => match c with
    | ⟨0, _⟩ => by show 576 + i.val = 576 + i.val; rfl
    | ⟨1, _⟩ => by show j.val = 0 + j.val; omega

end Cert.KernelIdeal.Hand

end
-- ==== Proof.KReadK.lean ====
import proofs.«100126_j36189394436483_2_alg».proof.Proof.KFold
import proofs.«100126_j36189394436483_2_alg».proof.Proof.KReadA

/-!
# A buffer when the entry function returns, and when it was last written

Every buffer of the entry function is written by at most one of its 38 items. So what a buffer holds when the
function returns is what it held right after the item that wrote it: each later stretch of host operations leaves
it alone, and a kernel region leaves alone every buffer that is not the array of one of its windows, and also the
array of an input window, which is never written back. The lemmas below say so once for every position in the
chain; `lateN` lists the references written by the stretches after position `N`.
-/

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-- Core `c`'s buffer `b` when the entry function returns. -/
abbrev Kv : (c : Dev nD) → (b : Ref sig .tc) → Buf (Elt F) ((c : Thread nD τ).loc b) := fun c b => Wend m ρ c b

/-! ## Across a region -/

/-- The first region leaves a buffer alone that is no array of its windows, or the array of an input window. -/
theorem W4_eq_W3 (c : Dev nD) (b : Ref sig .tc)
    (h0 : (∀ w, Pipeline.arrRef spec0 w ≠ b) ∨ ∃ w, (cfg0.win w).isOut = false ∧ Pipeline.arrRef spec0 w = b) :
    W4 m ρ c (Proc.devRef .tc b) = W3 m ρ c (Proc.devRef .tc b) := by
  rcases h0 with h0 | ⟨w, hin, hw⟩
  · exact W4_of_ne m ρ c b h0
  · subst hw
    exact (W4_arr m ρ c w).trans (((dat0 (Ventry0 m ρ) c).arrAt_in w hin _).trans (A_eq0 (Ventry0 m ρ) c w))

/-- The second region likewise. -/
theorem W37_eq_W36 (c : Dev nD) (b : Ref sig .tc)
    (h1 : (∀ w, Pipeline.arrRef spec1 w ≠ b) ∨ ∃ w, (cfg1.win w).isOut = false ∧ Pipeline.arrRef spec1 w = b) :
    W37 m ρ c (Proc.devRef .tc b) = W36 m ρ c (Proc.devRef .tc b) := by
  rcases h1 with h1 | ⟨w, hin, hw⟩
  · exact W37_of_ne m ρ c b h1
  · subst hw
    exact (W37_arr m ρ c w).trans (((dat1 (Ventry1 m ρ) c).arrAt_in w hin _).trans (A_eq1 (Ventry1 m ρ) c w))

/-! ## The references written after each position -/

/-- The references the stretches after position 37 write. -/
abbrev late37 : List (Ref sig .tc) := main_part8_ops1_W
abbrev late36 : List (Ref sig .tc) := late37
abbrev late35 : List (Ref sig .tc) := main_part8_ops0_W ++ late36
abbrev late34 : List (Ref sig .tc) := main_part7_ops2_W ++ late35
abbrev late33 : List (Ref sig .tc) := main_part7_ops1_W ++ late34
abbrev late32 : List (Ref sig .tc) := main_part7_ops0_W ++ late33
abbrev late31 : List (Ref sig .tc) := main_part6_ops4_W ++ late32
abbrev late30 : List (Ref sig .tc) := main_part6_ops3_W ++ late31
abbrev late29 : List (Ref sig .tc) := main_part6_ops2_W ++ late30
abbrev late28 : List (Ref sig .tc) := main_part6_ops1_W ++ late29
abbrev late27 : List (Ref sig .tc) := main_part6_ops0_W ++ late28
abbrev late26 : List (Ref sig .tc) := main_part5_ops2_W ++ late27
abbrev late25 : List (Ref sig .tc) := main_part5_ops1_W ++ late26
abbrev late24 : List (Ref sig .tc) := main_part5_ops0_W ++ late25
abbrev late23 : List (Ref sig .tc) := main_part4_ops4_W ++ late24
abbrev late22 : List (Ref sig .tc) := main_part4_ops3_W ++ late23
abbrev late21 : List (Ref sig .tc) := main_part4_ops2_W ++ late22
abbrev late20 : List (Ref sig .tc) := main_part4_ops1_W ++ late21
abbrev late19 : List (Ref sig .tc) := main_part4_ops0_W ++ late20
abbrev late18 : List (Ref sig .tc) := main_part3_ops2_W ++ late19
abbrev late17 : List (Ref sig .tc) := main_part3_ops1_W ++ late18
abbrev late16 : List (Ref sig .tc) := main_part3_ops0_W ++ late17
abbrev late15 : List (Ref sig .tc) := main_part2_ops4_W ++ late16
abbrev late14 : List (Ref sig .tc) := main_part2_ops3_W ++ late15
abbrev late13 : List (Ref sig .tc) := main_part2_ops2_W ++ late14
abbrev late12 : List (Ref sig .tc) := main_part2_ops1_W ++ late13
abbrev late11 : List (Ref sig .tc) := main_part2_ops0_W ++ late12
abbrev late10 : List (Ref sig .tc) := main_part1_ops2_W ++ late11
abbrev late9 : List (Ref sig .tc) := main_part1_ops1_W ++ late10
abbrev late8 : List (Ref sig .tc) := main_part1_ops0_W ++ late9
abbrev late7 : List (Ref sig .tc) := main_part0_ops6_W ++ late8
abbrev late6 : List (Ref sig .tc) := main_part0_ops5_W ++ late7
abbrev late5 : List (Ref sig .tc) := main_part0_ops4_W ++ late6
abbrev late4 : List (Ref sig .tc) := main_part0_ops3_W ++ late5
abbrev late3 : List (Ref sig .tc) := late4
abbrev late2 : List (Ref sig .tc) := main_part0_ops2_W ++ late3
abbrev late1 : List (Ref sig .tc) := main_part0_ops1_W ++ late2
abbrev late0 : List (Ref sig .tc) := main_part0_ops0_W ++ late1

/-! ## From the end back to each position

`Wend_atN`: a reference no stretch after position `N` writes (and that each region after it leaves alone) holds at
the end what the valuation at position `N` has. -/

theorem Wend_at37 (c : Dev nD) (b : Ref sig .tc) (h : b ∉ late37) :
    Wend m ρ c (Proc.devRef .tc b) = W37 m ρ c (Proc.devRef .tc b) :=
  StableHlo.after_of_writes_sub main_part8_ops1 _ main_part8_ops1_writes h
theorem Wend_at36 (c : Dev nD) (b : Ref sig .tc) (h : b ∉ late36)
    (h1 : (∀ w, Pipeline.arrRef spec1 w ≠ b) ∨ ∃ w, (cfg1.win w).isOut = false ∧ Pipeline.arrRef spec1 w = b) :
    Wend m ρ c (Proc.devRef .tc b) = W36 m ρ c (Proc.devRef .tc b) :=
  (Wend_at37 m ρ c b h).trans (W37_eq_W36 m ρ c b h1)
theorem Wend_at35 (c : Dev nD) (b : Ref sig .tc) (h : b ∉ late35) (h1 : (∀ w, Pipeline.arrRef spec1 w ≠ b) ∨ ∃ w, (cfg1.win w).isOut = false ∧ Pipeline.arrRef spec1 w = b) :
    Wend m ρ c (Proc.devRef .tc b) = W35 m ρ c (Proc.devRef .tc b) :=
  (Wend_at36 m ρ c b (fun hm => h (List.mem_append_right _ hm)) h1).trans
    (StableHlo.after_of_writes_sub main_part8_ops0 _ main_part8_ops0_writes fun hm => h (List.mem_append_left _ hm))
theorem Wend_at34 (c : Dev nD) (b : Ref sig .tc) (h : b ∉ late34) (h1 : (∀ w, Pipeline.arrRef spec1 w ≠ b) ∨ ∃ w, (cfg1.win w).isOut = false ∧ Pipeline.arrRef spec1 w = b) :
    Wend m ρ c (Proc.devRef .tc b) = W34 m ρ c (Proc.devRef .tc b) :=
  (Wend_at35 m ρ c b (fun hm => h (List.mem_append_right _ hm)) h1).trans
    (StableHlo.after_of_writes_sub main_part7_ops2 _ main_part7_ops2_writes fun hm => h (List.mem_append_left _ hm))
theorem Wend_at33 (c : Dev nD) (b : Ref sig .tc) (h : b ∉ late33) (h1 : (∀ w, Pipeline.arrRef spec1 w ≠ b) ∨ ∃ w, (cfg1.win w).isOut = false ∧ Pipeline.arrRef spec1 w = b) :
    Wend m ρ c (Proc.devRef .tc b) = W33 m ρ c (Proc.devRef .tc b) :=
  (Wend_at34 m ρ c b (fun hm => h (List.mem_append_right _ hm)) h1).trans
    (StableHlo.after_of_writes_sub main_part7_ops1 _ main_part7_ops1_writes fun hm => h (List.mem_append_left _ hm))
theorem Wend_at32 (c : Dev nD) (b : Ref sig .tc) (h : b ∉ late32) (h1 : (∀ w, Pipeline.arrRef spec1 w ≠ b) ∨ ∃ w, (cfg1.win w).isOut = false ∧ Pipeline.arrRef spec1 w = b) :
    Wend m ρ c (Proc.devRef .tc b) = W32 m ρ c (Proc.devRef .tc b) :=
  (Wend_at33 m ρ c b (fun hm => h (List.mem_append_right _ hm)) h1).trans
    (StableHlo.after_of_writes_sub main_part7_ops0 _ main_part7_ops0_writes fun hm => h (List.mem_append_left _ hm))
theorem Wend_at31 (c : Dev nD) (b : Ref sig .tc) (h : b ∉ late31) (h1 : (∀ w, Pipeline.arrRef spec1 w ≠ b) ∨ ∃ w, (cfg1.win w).isOut = false ∧ Pipeline.arrRef spec1 w = b) :
    Wend m ρ c (Proc.devRef .tc b) = W31 m ρ c (Proc.devRef .tc b) :=
  (Wend_at32 m ρ c b (fun hm => h (List.mem_append_right _ hm)) h1).trans
    (StableHlo.after_of_writes_sub main_part6_ops4 _ main_part6_ops4_writes fun hm => h (List.mem_append_left _ hm))
theorem Wend_at30 (c : Dev nD) (b : Ref sig .tc) (h : b ∉ late30) (h1 : (∀ w, Pipeline.arrRef spec1 w ≠ b) ∨ ∃ w, (cfg1.win w).isOut = false ∧ Pipeline.arrRef spec1 w = b) :
    Wend m ρ c (Proc.devRef .tc b) = W30 m ρ c (Proc.devRef .tc b) :=
  (Wend_at31 m ρ c b (fun hm => h (List.mem_append_right _ hm)) h1).trans
    (StableHlo.after_of_writes_sub main_part6_ops3 _ main_part6_ops3_writes fun hm => h (List.mem_append_left _ hm))
theorem Wend_at29 (c : Dev nD) (b : Ref sig .tc) (h : b ∉ late29) (h1 : (∀ w, Pipeline.arrRef spec1 w ≠ b) ∨ ∃ w, (cfg1.win w).isOut = false ∧ Pipeline.arrRef spec1 w = b) :
    Wend m ρ c (Proc.devRef .tc b) = W29 m ρ c (Proc.devRef .tc b) :=
  (Wend_at30 m ρ c b (fun hm => h (List.mem_append_right _ hm)) h1).trans
    (StableHlo.after_of_writes_sub main_part6_ops2 _ main_part6_ops2_writes fun hm => h (List.mem_append_left _ hm))
theorem Wend_at28 (c : Dev nD) (b : Ref sig .tc) (h : b ∉ late28) (h1 : (∀ w, Pipeline.arrRef spec1 w ≠ b) ∨ ∃ w, (cfg1.win w).isOut = false ∧ Pipeline.arrRef spec1 w = b) :
    Wend m ρ c (Proc.devRef .tc b) = W28 m ρ c (Proc.devRef .tc b) :=
  (Wend_at29 m ρ c b (fun hm => h (List.mem_append_right _ hm)) h1).trans
    (StableHlo.after_of_writes_sub main_part6_ops1 _ main_part6_ops1_writes fun hm => h (List.mem_append_left _ hm))
theorem Wend_at27 (c : Dev nD) (b : Ref sig .tc) (h : b ∉ late27) (h1 : (∀ w, Pipeline.arrRef spec1 w ≠ b) ∨ ∃ w, (cfg1.win w).isOut = false ∧ Pipeline.arrRef spec1 w = b) :
    Wend m ρ c (Proc.devRef .tc b) = W27 m ρ c (Proc.devRef .tc b) :=
  (Wend_at28 m ρ c b (fun hm => h (List.mem_append_right _ hm)) h1).trans
    (StableHlo.after_of_writes_sub main_part6_ops0 _ main_part6_ops0_writes fun hm => h (List.mem_append_left _ hm))
theorem Wend_at26 (c : Dev nD) (b : Ref sig .tc) (h : b ∉ late26) (h1 : (∀ w, Pipeline.arrRef spec1 w ≠ b) ∨ ∃ w, (cfg1.win w).isOut = false ∧ Pipeline.arrRef spec1 w = b) :
    Wend m ρ c (Proc.devRef .tc b) = W26 m ρ c (Proc.devRef .tc b) :=
  (Wend_at27 m ρ c b (fun hm => h (List.mem_append_right _ hm)) h1).trans
    (StableHlo.after_of_writes_sub main_part5_ops2 _ main_part5_ops2_writes fun hm => h (List.mem_append_left _ hm))
theorem Wend_at25 (c : Dev nD) (b : Ref sig .tc) (h : b ∉ late25) (h1 : (∀ w, Pipeline.arrRef spec1 w ≠ b) ∨ ∃ w, (cfg1.win w).isOut = false ∧ Pipeline.arrRef spec1 w = b) :
    Wend m ρ c (Proc.devRef .tc b) = W25 m ρ c (Proc.devRef .tc b) :=
  (Wend_at26 m ρ c b (fun hm => h (List.mem_append_right _ hm)) h1).trans
    (StableHlo.after_of_writes_sub main_part5_ops1 _ main_part5_ops1_writes fun hm => h (List.mem_append_left _ hm))
theorem Wend_at24 (c : Dev nD) (b : Ref sig .tc) (h : b ∉ late24) (h1 : (∀ w, Pipeline.arrRef spec1 w ≠ b) ∨ ∃ w, (cfg1.win w).isOut = false ∧ Pipeline.arrRef spec1 w = b) :
    Wend m ρ c (Proc.devRef .tc b) = W24 m ρ c (Proc.devRef .tc b) :=
  (Wend_at25 m ρ c b (fun hm => h (List.mem_append_right _ hm)) h1).trans
    (StableHlo.after_of_writes_sub main_part5_ops0 _ main_part5_ops0_writes fun hm => h (List.mem_append_left _ hm))
theorem Wend_at23 (c : Dev nD) (b : Ref sig .tc) (h : b ∉ late23) (h1 : (∀ w, Pipeline.arrRef spec1 w ≠ b) ∨ ∃ w, (cfg1.win w).isOut = false ∧ Pipeline.arrRef spec1 w = b) :
    Wend m ρ c (Proc.devRef .tc b) = W23 m ρ c (Proc.devRef .tc b) :=
  (Wend_at24 m ρ c b (fun hm => h (List.mem_append_right _ hm)) h1).trans
    (StableHlo.after_of_writes_sub main_part4_ops4 _ main_part4_ops4_writes fun hm => h (List.mem_append_left _ hm))
theorem Wend_at22 (c : Dev nD) (b : Ref sig .tc) (h : b ∉ late22) (h1 : (∀ w, Pipeline.arrRef spec1 w ≠ b) ∨ ∃ w, (cfg1.win w).isOut = false ∧ Pipeline.arrRef spec1 w = b) :
    Wend m ρ c (Proc.devRef .tc b) = W22 m ρ c (Proc.devRef .tc b) :=
  (Wend_at23 m ρ c b (fun hm => h (List.mem_append_right _ hm)) h1).trans
    (StableHlo.after_of_writes_sub main_part4_ops3 _ main_part4_ops3_writes fun hm => h (List.mem_append_left _ hm))
theorem Wend_at21 (c : Dev nD) (b : Ref sig .tc) (h : b ∉ late21) (h1 : (∀ w, Pipeline.arrRef spec1 w ≠ b) ∨ ∃ w, (cfg1.win w).isOut = false ∧ Pipeline.arrRef spec1 w = b) :
    Wend m ρ c (Proc.devRef .tc b) = W21 m ρ c (Proc.devRef .tc b) :=
  (Wend_at22 m ρ c b (fun hm => h (List.mem_append_right _ hm)) h1).trans
    (StableHlo.after_of_writes_sub main_part4_ops2 _ main_part4_ops2_writes fun hm => h (List.mem_append_left _ hm))
theorem Wend_at20 (c : Dev nD) (b : Ref sig .tc) (h : b ∉ late20) (h1 : (∀ w, Pipeline.arrRef spec1 w ≠ b) ∨ ∃ w, (cfg1.win w).isOut = false ∧ Pipeline.arrRef spec1 w = b) :
    Wend m ρ c (Proc.devRef .tc b) = W20 m ρ c (Proc.devRef .tc b) :=
  (Wend_at21 m ρ c b (fun hm => h (List.mem_append_right _ hm)) h1).trans
    (StableHlo.after_of_writes_sub main_part4_ops1 _ main_part4_ops1_writes fun hm => h (List.mem_append_left _ hm))
theorem Wend_at19 (c : Dev nD) (b : Ref sig .tc) (h : b ∉ late19) (h1 : (∀ w, Pipeline.arrRef spec1 w ≠ b) ∨ ∃ w, (cfg1.win w).isOut = false ∧ Pipeline.arrRef spec1 w = b) :
    Wend m ρ c (Proc.devRef .tc b) = W19 m ρ c (Proc.devRef .tc b) :=
  (Wend_at20 m ρ c b (fun hm => h (List.mem_append_right _ hm)) h1).trans
    (StableHlo.after_of_writes_sub main_part4_ops0 _ main_part4_ops0_writes fun hm => h (List.mem_append_left _ hm))
theorem Wend_at18 (c : Dev nD) (b : Ref sig .tc) (h : b ∉ late18) (h1 : (∀ w, Pipeline.arrRef spec1 w ≠ b) ∨ ∃ w, (cfg1.win w).isOut = false ∧ Pipeline.arrRef spec1 w = b) :
    Wend m ρ c (Proc.devRef .tc b) = W18 m ρ c (Proc.devRef .tc b) :=
  (Wend_at19 m ρ c b (fun hm => h (List.mem_append_right _ hm)) h1).trans
    (StableHlo.after_of_writes_sub main_part3_ops2 _ main_part3_ops2_writes fun hm => h (List.mem_append_left _ hm))
theorem Wend_at17 (c : Dev nD) (b : Ref sig .tc) (h : b ∉ late17) (h1 : (∀ w, Pipeline.arrRef spec1 w ≠ b) ∨ ∃ w, (cfg1.win w).isOut = false ∧ Pipeline.arrRef spec1 w = b) :
    Wend m ρ c (Proc.devRef .tc b) = W17 m ρ c (Proc.devRef .tc b) :=
  (Wend_at18 m ρ c b (fun hm => h (List.mem_append_right _ hm)) h1).trans
    (StableHlo.after_of_writes_sub main_part3_ops1 _ main_part3_ops1_writes fun hm => h (List.mem_append_left _ hm))
theorem Wend_at16 (c : Dev nD) (b : Ref sig .tc) (h : b ∉ late16) (h1 : (∀ w, Pipeline.arrRef spec1 w ≠ b) ∨ ∃ w, (cfg1.win w).isOut = false ∧ Pipeline.arrRef spec1 w = b) :
    Wend m ρ c (Proc.devRef .tc b) = W16 m ρ c (Proc.devRef .tc b) :=
  (Wend_at17 m ρ c b (fun hm => h (List.mem_append_right _ hm)) h1).trans
    (StableHlo.after_of_writes_sub main_part3_ops0 _ main_part3_ops0_writes fun hm => h (List.mem_append_left _ hm))
theorem Wend_at15 (c : Dev nD) (b : Ref sig .tc) (h : b ∉ late15) (h1 : (∀ w, Pipeline.arrRef spec1 w ≠ b) ∨ ∃ w, (cfg1.win w).isOut = false ∧ Pipeline.arrRef spec1 w = b) :
    Wend m ρ c (Proc.devRef .tc b) = W15 m ρ c (Proc.devRef .tc b) :=
  (Wend_at16 m ρ c b (fun hm => h (List.mem_append_right _ hm)) h1).trans
    (StableHlo.after_of_writes_sub main_part2_ops4 _ main_part2_ops4_writes fun hm => h (List.mem_append_left _ hm))
theorem Wend_at14 (c : Dev nD) (b : Ref sig .tc) (h : b ∉ late14) (h1 : (∀ w, Pipeline.arrRef spec1 w ≠ b) ∨ ∃ w, (cfg1.win w).isOut = false ∧ Pipeline.arrRef spec1 w = b) :
    Wend m ρ c (Proc.devRef .tc b) = W14 m ρ c (Proc.devRef .tc b) :=
  (Wend_at15 m ρ c b (fun hm => h (List.mem_append_right _ hm)) h1).trans
    (StableHlo.after_of_writes_sub main_part2_ops3 _ main_part2_ops3_writes fun hm => h (List.mem_append_left _ hm))
theorem Wend_at13 (c : Dev nD) (b : Ref sig .tc) (h : b ∉ late13) (h1 : (∀ w, Pipeline.arrRef spec1 w ≠ b) ∨ ∃ w, (cfg1.win w).isOut = false ∧ Pipeline.arrRef spec1 w = b) :
    Wend m ρ c (Proc.devRef .tc b) = W13 m ρ c (Proc.devRef .tc b) :=
  (Wend_at14 m ρ c b (fun hm => h (List.mem_append_right _ hm)) h1).trans
    (StableHlo.after_of_writes_sub main_part2_ops2 _ main_part2_ops2_writes fun hm => h (List.mem_append_left _ hm))
theorem Wend_at12 (c : Dev nD) (b : Ref sig .tc) (h : b ∉ late12) (h1 : (∀ w, Pipeline.arrRef spec1 w ≠ b) ∨ ∃ w, (cfg1.win w).isOut = false ∧ Pipeline.arrRef spec1 w = b) :
    Wend m ρ c (Proc.devRef .tc b) = W12 m ρ c (Proc.devRef .tc b) :=
  (Wend_at13 m ρ c b (fun hm => h (List.mem_append_right _ hm)) h1).trans
    (StableHlo.after_of_writes_sub main_part2_ops1 _ main_part2_ops1_writes fun hm => h (List.mem_append_left _ hm))
theorem Wend_at11 (c : Dev nD) (b : Ref sig .tc) (h : b ∉ late11) (h1 : (∀ w, Pipeline.arrRef spec1 w ≠ b) ∨ ∃ w, (cfg1.win w).isOut = false ∧ Pipeline.arrRef spec1 w = b) :
    Wend m ρ c (Proc.devRef .tc b) = W11 m ρ c (Proc.devRef .tc b) :=
  (Wend_at12 m ρ c b (fun hm => h (List.mem_append_right _ hm)) h1).trans
    (StableHlo.after_of_writes_sub main_part2_ops0 _ main_part2_ops0_writes fun hm => h (List.mem_append_left _ hm))
theorem Wend_at10 (c : Dev nD) (b : Ref sig .tc) (h : b ∉ late10) (h1 : (∀ w, Pipeline.arrRef spec1 w ≠ b) ∨ ∃ w, (cfg1.win w).isOut = false ∧ Pipeline.arrRef spec1 w = b) :
    Wend m ρ c (Proc.devRef .tc b) = W10 m ρ c (Proc.devRef .tc b) :=
  (Wend_at11 m ρ c b (fun hm => h (List.mem_append_right _ hm)) h1).trans
    (StableHlo.after_of_writes_sub main_part1_ops2 _ main_part1_ops2_writes fun hm => h (List.mem_append_left _ hm))
theorem Wend_at9 (c : Dev nD) (b : Ref sig .tc) (h : b ∉ late9) (h1 : (∀ w, Pipeline.arrRef spec1 w ≠ b) ∨ ∃ w, (cfg1.win w).isOut = false ∧ Pipeline.arrRef spec1 w = b) :
    Wend m ρ c (Proc.devRef .tc b) = W9 m ρ c (Proc.devRef .tc b) :=
  (Wend_at10 m ρ c b (fun hm => h (List.mem_append_right _ hm)) h1).trans
    (StableHlo.after_of_writes_sub main_part1_ops1 _ main_part1_ops1_writes fun hm => h (List.mem_append_left _ hm))
theorem Wend_at8 (c : Dev nD) (b : Ref sig .tc) (h : b ∉ late8) (h1 : (∀ w, Pipeline.arrRef spec1 w ≠ b) ∨ ∃ w, (cfg1.win w).isOut = false ∧ Pipeline.arrRef spec1 w = b) :
    Wend m ρ c (Proc.devRef .tc b) = W8 m ρ c (Proc.devRef .tc b) :=
  (Wend_at9 m ρ c b (fun hm => h (List.mem_append_right _ hm)) h1).trans
    (StableHlo.after_of_writes_sub main_part1_ops0 _ main_part1_ops0_writes fun hm => h (List.mem_append_left _ hm))
theorem Wend_at7 (c : Dev nD) (b : Ref sig .tc) (h : b ∉ late7) (h1 : (∀ w, Pipeline.arrRef spec1 w ≠ b) ∨ ∃ w, (cfg1.win w).isOut = false ∧ Pipeline.arrRef spec1 w = b) :
    Wend m ρ c (Proc.devRef .tc b) = W7 m ρ c (Proc.devRef .tc b) :=
  (Wend_at8 m ρ c b (fun hm => h (List.mem_append_right _ hm)) h1).trans
    (StableHlo.after_of_writes_sub main_part0_ops6 _ main_part0_ops6_writes fun hm => h (List.mem_append_left _ hm))
theorem Wend_at6 (c : Dev nD) (b : Ref sig .tc) (h : b ∉ late6) (h1 : (∀ w, Pipeline.arrRef spec1 w ≠ b) ∨ ∃ w, (cfg1.win w).isOut = false ∧ Pipeline.arrRef spec1 w = b) :
    Wend m ρ c (Proc.devRef .tc b) = W6 m ρ c (Proc.devRef .tc b) :=
  (Wend_at7 m ρ c b (fun hm => h (List.mem_append_right _ hm)) h1).trans
    (StableHlo.after_of_writes_sub main_part0_ops5 _ main_part0_ops5_writes fun hm => h (List.mem_append_left _ hm))
theorem Wend_at5 (c : Dev nD) (b : Ref sig .tc) (h : b ∉ late5) (h1 : (∀ w, Pipeline.arrRef spec1 w ≠ b) ∨ ∃ w, (cfg1.win w).isOut = false ∧ Pipeline.arrRef spec1 w = b) :
    Wend m ρ c (Proc.devRef .tc b) = W5 m ρ c (Proc.devRef .tc b) :=
  (Wend_at6 m ρ c b (fun hm => h (List.mem_append_right _ hm)) h1).trans
    (StableHlo.after_of_writes_sub main_part0_ops4 _ main_part0_ops4_writes fun hm => h (List.mem_append_left _ hm))
theorem Wend_at4 (c : Dev nD) (b : Ref sig .tc) (h : b ∉ late4) (h1 : (∀ w, Pipeline.arrRef spec1 w ≠ b) ∨ ∃ w, (cfg1.win w).isOut = false ∧ Pipeline.arrRef spec1 w = b) :
    Wend m ρ c (Proc.devRef .tc b) = W4 m ρ c (Proc.devRef .tc b) :=
  (Wend_at5 m ρ c b (fun hm => h (List.mem_append_right _ hm)) h1).trans
    (StableHlo.after_of_writes_sub main_part0_ops3 _ main_part0_ops3_writes fun hm => h (List.mem_append_left _ hm))
theorem Wend_at3 (c : Dev nD) (b : Ref sig .tc) (h : b ∉ late3) (h1 : (∀ w, Pipeline.arrRef spec1 w ≠ b) ∨ ∃ w, (cfg1.win w).isOut = false ∧ Pipeline.arrRef spec1 w = b) (h0 : (∀ w, Pipeline.arrRef spec0 w ≠ b) ∨ ∃ w, (cfg0.win w).isOut = false ∧ Pipeline.arrRef spec0 w = b) :
    Wend m ρ c (Proc.devRef .tc b) = W3 m ρ c (Proc.devRef .tc b) :=
  (Wend_at4 m ρ c b h h1).trans (W4_eq_W3 m ρ c b h0)
theorem Wend_at2 (c : Dev nD) (b : Ref sig .tc) (h : b ∉ late2) (h1 : (∀ w, Pipeline.arrRef spec1 w ≠ b) ∨ ∃ w, (cfg1.win w).isOut = false ∧ Pipeline.arrRef spec1 w = b) (h0 : (∀ w, Pipeline.arrRef spec0 w ≠ b) ∨ ∃ w, (cfg0.win w).isOut = false ∧ Pipeline.arrRef spec0 w = b) :
    Wend m ρ c (Proc.devRef .tc b) = W2 m ρ c (Proc.devRef .tc b) :=
  (Wend_at3 m ρ c b (fun hm => h (List.mem_append_right _ hm)) h1 h0).trans
    (StableHlo.after_of_writes_sub main_part0_ops2 _ main_part0_ops2_writes fun hm => h (List.mem_append_left _ hm))
theorem Wend_at1 (c : Dev nD) (b : Ref sig .tc) (h : b ∉ late1) (h1 : (∀ w, Pipeline.arrRef spec1 w ≠ b) ∨ ∃ w, (cfg1.win w).isOut = false ∧ Pipeline.arrRef spec1 w = b) (h0 : (∀ w, Pipeline.arrRef spec0 w ≠ b) ∨ ∃ w, (cfg0.win w).isOut = false ∧ Pipeline.arrRef spec0 w = b) :
    Wend m ρ c (Proc.devRef .tc b) = W1 m ρ c (Proc.devRef .tc b) :=
  (Wend_at2 m ρ c b (fun hm => h (List.mem_append_right _ hm)) h1 h0).trans
    (StableHlo.after_of_writes_sub main_part0_ops1 _ main_part0_ops1_writes fun hm => h (List.mem_append_left _ hm))
theorem Wend_at0 (c : Dev nD) (b : Ref sig .tc) (h : b ∉ late0) (h1 : (∀ w, Pipeline.arrRef spec1 w ≠ b) ∨ ∃ w, (cfg1.win w).isOut = false ∧ Pipeline.arrRef spec1 w = b) (h0 : (∀ w, Pipeline.arrRef spec0 w ≠ b) ∨ ∃ w, (cfg0.win w).isOut = false ∧ Pipeline.arrRef spec0 w = b) :
    Wend m ρ c (Proc.devRef .tc b) = W0 m ρ c (Proc.devRef .tc b) :=
  (Wend_at1 m ρ c b (fun hm => h (List.mem_append_right _ hm)) h1 h0).trans
    (StableHlo.after_of_writes_sub main_part0_ops0 _ main_part0_ops0_writes fun hm => h (List.mem_append_left _ hm))

end Cert.KernelIdeal.Hand

end
-- ==== Proof.KReadL.lean ====
import proofs.«100126_j36189394436483_2_alg».proof.Proof.Gen.KernelIdeal.Launch
import proofs.«100126_j36189394436483_2_alg».proof.Proof.KReadA
import Idealize.ShloMosaic.Lib.StableHlo.Run

/-!
# Single operations of the host stretches, read inside their stretch

For a stretch of host operations run from any buffer contents `V`, one operation's result buffer after the whole
stretch, read at an index, is its operand's buffer after the whole stretch at the index the operation reads there.
Both sides are brought to the operation itself: the operations after it write other buffers and are passed over one
by one; then the operation's own result is read, and the layout lemma for it names the operand index.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-- Past the operations that do not write the reference read. -/
macro "peel_ne" : tactic => `(tactic| simp (disch := decide) only [StableHlo.after_cons, StableHlo.after_nil,
  StableHlo.nullary_result_ne', StableHlo.unary_result_ne', StableHlo.binary_result_ne', StableHlo.ternary_result_ne',
  StableHlo.quaternary_result_ne', StableHlo.reshape_result_ne', StableHlo.nary_result_ne', StableHlo.unaryIndexed_result_ne',
  StableHlo.binaryIndexed_result_ne'])
/-- One operation's result at its own reference, read at an index. -/
macro "step_unary" : tactic => `(tactic| refine Eq.trans (congrFun (StableHlo.unary_result _ _ _ _ _ _) _) ?_)
macro "step_reshape" : tactic => `(tactic| refine Eq.trans (congrFun (StableHlo.reshape_result _ _ _ _ _ _ _) _) ?_)
macro "step_nary4" : tactic => `(tactic| refine Eq.trans (congrFun (StableHlo.nary4_result _ _ _ _) _) ?_)

/-- The four members of a literal family of four, read at the numerals. -/
theorem cons4_at0 {T : Fin 4 → Type} (a : T 0) (b : T 1) (c : T 2) (d : T 3) (e : (i : Fin 0) → T i.succ.succ.succ.succ) :
    (Fin.cons (α := T) a (Fin.cons (α := fun i : Fin 3 => T i.succ) b (Fin.cons (α := fun i : Fin 2 => T i.succ.succ) c
      (Fin.cons (α := fun i : Fin 1 => T i.succ.succ.succ) d e)))) 0 = a := rfl
theorem cons4_at1 {T : Fin 4 → Type} (a : T 0) (b : T 1) (c : T 2) (d : T 3) (e : (i : Fin 0) → T i.succ.succ.succ.succ) :
    (Fin.cons (α := T) a (Fin.cons (α := fun i : Fin 3 => T i.succ) b (Fin.cons (α := fun i : Fin 2 => T i.succ.succ) c
      (Fin.cons (α := fun i : Fin 1 => T i.succ.succ.succ) d e)))) 1 = b := rfl
theorem cons4_at2 {T : Fin 4 → Type} (a : T 0) (b : T 1) (c : T 2) (d : T 3) (e : (i : Fin 0) → T i.succ.succ.succ.succ) :
    (Fin.cons (α := T) a (Fin.cons (α := fun i : Fin 3 => T i.succ) b (Fin.cons (α := fun i : Fin 2 => T i.succ.succ) c
      (Fin.cons (α := fun i : Fin 1 => T i.succ.succ.succ) d e)))) 2 = c := rfl
theorem cons4_at3 {T : Fin 4 → Type} (a : T 0) (b : T 1) (c : T 2) (d : T 3) (e : (i : Fin 0) → T i.succ.succ.succ.succ) :
    (Fin.cons (α := T) a (Fin.cons (α := fun i : Fin 3 => T i.succ) b (Fin.cons (α := fun i : Fin 2 => T i.succ.succ) c
      (Fin.cons (α := fun i : Fin 1 => T i.succ.succ.succ) d e)))) 3 = d := rfl

section FourPieces
variable {α : Type}
variable {n m : Nat} (x0 x1 x2 x3 : (⟨3, ![1, n, m]⟩ : Shape).Idx → α)
    (h : Shape.Concatenates ([(⟨⟨3, ![1, n, m]⟩, x0⟩ : (s : Shape) × (s.Idx → α)), ⟨⟨3, ![1, n, m]⟩, x1⟩,
      ⟨⟨3, ![1, n, m]⟩, x2⟩, ⟨⟨3, ![1, n, m]⟩, x3⟩].map (·.1)) ⟨3, ![4, n, m]⟩ 0) (r : Fin n) (j : Fin m)

/-- Four `[1, n, m]` slabs stacked along the leading axis, the operands given one by one: slab 0 is the first operand … -/
theorem concat4_slab3_at0 : concatenate ⟨3, ![4, n, m]⟩ 0 [⟨⟨3, ![1, n, m]⟩, x0⟩, ⟨⟨3, ![1, n, m]⟩, x1⟩, ⟨⟨3, ![1, n, m]⟩, x2⟩,
      ⟨⟨3, ![1, n, m]⟩, x3⟩] h (ix3 0 r j) = x0 (ix3 0 r j) := concat4_slab3_apply ![x0, x1, x2, x3] h 0 r j
theorem concat4_slab3_at1 : concatenate ⟨3, ![4, n, m]⟩ 0 [⟨⟨3, ![1, n, m]⟩, x0⟩, ⟨⟨3, ![1, n, m]⟩, x1⟩, ⟨⟨3, ![1, n, m]⟩, x2⟩,
      ⟨⟨3, ![1, n, m]⟩, x3⟩] h (ix3 1 r j) = x1 (ix3 0 r j) := concat4_slab3_apply ![x0, x1, x2, x3] h 1 r j
theorem concat4_slab3_at2 : concatenate ⟨3, ![4, n, m]⟩ 0 [⟨⟨3, ![1, n, m]⟩, x0⟩, ⟨⟨3, ![1, n, m]⟩, x1⟩, ⟨⟨3, ![1, n, m]⟩, x2⟩,
      ⟨⟨3, ![1, n, m]⟩, x3⟩] h (ix3 2 r j) = x2 (ix3 0 r j) := concat4_slab3_apply ![x0, x1, x2, x3] h 2 r j
theorem concat4_slab3_at3 : concatenate ⟨3, ![4, n, m]⟩ 0 [⟨⟨3, ![1, n, m]⟩, x0⟩, ⟨⟨3, ![1, n, m]⟩, x1⟩, ⟨⟨3, ![1, n, m]⟩, x2⟩,
      ⟨⟨3, ![1, n, m]⟩, x3⟩] h (ix3 3 r j) = x3 (ix3 0 r j) := concat4_slab3_apply ![x0, x1, x2, x3] h 3 r j
end FourPieces

variable (V : Valuation τ sig (Elt Ideal))

/-! ## The last stretch before the second kernel: the four corners' gathered rows stacked -/

set_option maxHeartbeats 4000000 in
/-- Slab 0 of the stack is the first corner's rows under a leading unit axis. -/
theorem stack_proj_0 (n : Fin 131072) (j : Fin 256) :
    (StableHlo.after (main_part8_ops0 (F := Ideal)) V (Proc.devRef .tc main_v387) : Vec Ideal S4x131072x256 .bf16) (ix3 0 n j) = (StableHlo.after (main_part8_ops0 (F := Ideal)) V (Proc.devRef .tc main_v383) : Vec Ideal S1x131072x256 .bf16) (ix3 0 n j) := by
  peel_ne
  step_nary4
  refine (concat4_slab3_at0 _ _ _ _ _ n j).trans ?_
  refine Eq.trans (congrFun (cons4_at0 _ _ _ _ _) _) ?_
  first | peel_ne | rfl

set_option maxHeartbeats 4000000 in
/-- Slab 1 of the stack is the second corner's rows under a leading unit axis. -/
theorem stack_proj_1 (n : Fin 131072) (j : Fin 256) :
    (StableHlo.after (main_part8_ops0 (F := Ideal)) V (Proc.devRef .tc main_v387) : Vec Ideal S4x131072x256 .bf16) (ix3 1 n j) = (StableHlo.after (main_part8_ops0 (F := Ideal)) V (Proc.devRef .tc main_v384) : Vec Ideal S1x131072x256 .bf16) (ix3 0 n j) := by
  peel_ne
  step_nary4
  refine (concat4_slab3_at1 _ _ _ _ _ n j).trans ?_
  refine Eq.trans (congrFun (cons4_at1 _ _ _ _ _) _) ?_
  first | peel_ne | rfl

set_option maxHeartbeats 4000000 in
/-- Slab 2 of the stack is the third corner's rows under a leading unit axis. -/
theorem stack_proj_2 (n : Fin 131072) (j : Fin 256) :
    (StableHlo.after (main_part8_ops0 (F := Ideal)) V (Proc.devRef .tc main_v387) : Vec Ideal S4x131072x256 .bf16) (ix3 2 n j) = (StableHlo.after (main_part8_ops0 (F := Ideal)) V (Proc.devRef .tc main_v385) : Vec Ideal S1x131072x256 .bf16) (ix3 0 n j) := by
  peel_ne
  step_nary4
  refine (concat4_slab3_at2 _ _ _ _ _ n j).trans ?_
  refine Eq.trans (congrFun (cons4_at2 _ _ _ _ _) _) ?_
  first | peel_ne | rfl

set_option maxHeartbeats 4000000 in
/-- Slab 3 of the stack is the fourth corner's rows under a leading unit axis. -/
theorem stack_proj_3 (n : Fin 131072) (j : Fin 256) :
    (StableHlo.after (main_part8_ops0 (F := Ideal)) V (Proc.devRef .tc main_v387) : Vec Ideal S4x131072x256 .bf16) (ix3 3 n j) = (StableHlo.after (main_part8_ops0 (F := Ideal)) V (Proc.devRef .tc main_v386) : Vec Ideal S1x131072x256 .bf16) (ix3 0 n j) := by
  peel_ne
  step_nary4
  refine (concat4_slab3_at3 _ _ _ _ _ n j).trans ?_
  refine Eq.trans (congrFun (cons4_at3 _ _ _ _ _) _) ?_
  first | peel_ne | rfl

set_option maxHeartbeats 4000000 in
/-- The leading unit axis dropped again. -/
theorem lead_proj_0 (n : Fin 131072) (j : Fin 256) :
    (StableHlo.after (main_part8_ops0 (F := Ideal)) V (Proc.devRef .tc main_v383) : Vec Ideal S1x131072x256 .bf16) (ix3 0 n j) = (StableHlo.after (main_part8_ops0 (F := Ideal)) V (Proc.devRef .tc main_v113) : Vec Ideal S131072x256 .bf16) (ix2 n j) := by
  peel_ne
  step_unary
  refine (bcast_lead3_apply _ _ 0 n j).trans ?_
  first | peel_ne | rfl

set_option maxHeartbeats 4000000 in
/-- The leading unit axis dropped again. -/
theorem lead_proj_1 (n : Fin 131072) (j : Fin 256) :
    (StableHlo.after (main_part8_ops0 (F := Ideal)) V (Proc.devRef .tc main_v384) : Vec Ideal S1x131072x256 .bf16) (ix3 0 n j) = (StableHlo.after (main_part8_ops0 (F := Ideal)) V (Proc.devRef .tc main_v202) : Vec Ideal S131072x256 .bf16) (ix2 n j) := by
  peel_ne
  step_unary
  refine (bcast_lead3_apply _ _ 0 n j).trans ?_
  first | peel_ne | rfl

set_option maxHeartbeats 4000000 in
/-- The leading unit axis dropped again. -/
theorem lead_proj_2 (n : Fin 131072) (j : Fin 256) :
    (StableHlo.after (main_part8_ops0 (F := Ideal)) V (Proc.devRef .tc main_v385) : Vec Ideal S1x131072x256 .bf16) (ix3 0 n j) = (StableHlo.after (main_part8_ops0 (F := Ideal)) V (Proc.devRef .tc main_v291) : Vec Ideal S131072x256 .bf16) (ix2 n j) := by
  peel_ne
  step_unary
  refine (bcast_lead3_apply _ _ 0 n j).trans ?_
  first | peel_ne | rfl

set_option maxHeartbeats 4000000 in
/-- The leading unit axis dropped again. -/
theorem lead_proj_3 (n : Fin 131072) (j : Fin 256) :
    (StableHlo.after (main_part8_ops0 (F := Ideal)) V (Proc.devRef .tc main_v386) : Vec Ideal S1x131072x256 .bf16) (ix3 0 n j) = (StableHlo.after (main_part8_ops0 (F := Ideal)) V (Proc.devRef .tc main_v380) : Vec Ideal S131072x256 .bf16) (ix2 n j) := by
  peel_ne
  step_unary
  refine (bcast_lead3_apply _ _ 0 n j).trans ?_
  first | peel_ne | rfl

/-! ## Each corner's gathered rows, flattened -/

set_option maxHeartbeats 4000000 in
/-- Row `rowOf b q` of corner 0's flattened rows is query `(b, q)`. -/
theorem flat_proj_0 (b : Fin 2) (q : Fin 65536) (j : Fin 256) :
    (StableHlo.after (main_part2_ops0 (F := Ideal)) V (Proc.devRef .tc main_v113) : Vec Ideal S131072x256 .bf16) (ix2 (rowOf b q) j) = (StableHlo.after (main_part2_ops0 (F := Ideal)) V (Proc.devRef .tc main_v74) : Vec Ideal S2x65536x256 .bf16) (ix3 b q j) := by
  peel_ne
  step_reshape
  refine (reshape_rows3_apply _ _ b q j).trans ?_
  first | peel_ne | rfl

set_option maxHeartbeats 4000000 in
/-- Row `rowOf b q` of corner 1's flattened rows is query `(b, q)`. -/
theorem flat_proj_1 (b : Fin 2) (q : Fin 65536) (j : Fin 256) :
    (StableHlo.after (main_part4_ops0 (F := Ideal)) V (Proc.devRef .tc main_v202) : Vec Ideal S131072x256 .bf16) (ix2 (rowOf b q) j) = (StableHlo.after (main_part4_ops0 (F := Ideal)) V (Proc.devRef .tc main_v163) : Vec Ideal S2x65536x256 .bf16) (ix3 b q j) := by
  peel_ne
  step_reshape
  refine (reshape_rows3_apply _ _ b q j).trans ?_
  first | peel_ne | rfl

set_option maxHeartbeats 4000000 in
/-- Row `rowOf b q` of corner 2's flattened rows is query `(b, q)`. -/
theorem flat_proj_2 (b : Fin 2) (q : Fin 65536) (j : Fin 256) :
    (StableHlo.after (main_part6_ops0 (F := Ideal)) V (Proc.devRef .tc main_v291) : Vec Ideal S131072x256 .bf16) (ix2 (rowOf b q) j) = (StableHlo.after (main_part6_ops0 (F := Ideal)) V (Proc.devRef .tc main_v252) : Vec Ideal S2x65536x256 .bf16) (ix3 b q j) := by
  peel_ne
  step_reshape
  refine (reshape_rows3_apply _ _ b q j).trans ?_
  first | peel_ne | rfl

set_option maxHeartbeats 4000000 in
/-- Row `rowOf b q` of corner 3's flattened rows is query `(b, q)`. -/
theorem flat_proj_3 (b : Fin 2) (q : Fin 65536) (j : Fin 256) :
    (StableHlo.after (main_part8_ops0 (F := Ideal)) V (Proc.devRef .tc main_v380) : Vec Ideal S131072x256 .bf16) (ix2 (rowOf b q) j) = (StableHlo.after (main_part8_ops0 (F := Ideal)) V (Proc.devRef .tc main_v341) : Vec Ideal S2x65536x256 .bf16) (ix3 b q j) := by
  peel_ne
  step_reshape
  refine (reshape_rows3_apply _ _ b q j).trans ?_
  first | peel_ne | rfl

/-! ## After the second kernel: its output array unflattened -/

set_option maxHeartbeats 4000000 in
/-- Query `(b, q)` of the result is row `rowOf b q` of the kernel's output array. -/
theorem unflat_ret (b : Fin 2) (q : Fin 65536) (o : Fin 2) :
    (StableHlo.after (main_part8_ops1 (F := Ideal)) V (Proc.devRef .tc main_v410) : Vec Ideal S2x65536x2 .f32) (ix3 b q o) = (V (Proc.devRef .tc main_v409) : Vec Ideal S131072x2 .f32) (ix2 (rowOf b q) o) := by
  peel_ne
  step_reshape
  exact reshape_unrows3_apply _ _ b q o

end Cert.KernelIdeal.Hand

end
-- ==== Proof.Spec.lean ====
/-
  The mathematics both programs compute, stated once over the extended reals and over literal index types.
  A query row passes through five dense layers; the first layer's 580 inputs are 576 gathered feature values
  followed by four relative coordinates. One program applies the first layer to the concatenated 580-vector; the
  other applies the first 576 rows of the weight matrix to every PIXEL beforehand, gathers the 256 results, and adds
  the product of the last four inputs with the last four rows. The two agree because a sum over 580 terms is the sum
  over its first 576 plus the sum over its last 4 (addition of extended reals is commutative and associative).
  The four corner predictions are then blended with area weights, accumulated in the same order on both sides.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The value the single-precision zero word denotes. -/
abbrev zf : EReal := Ideal.ofBits .f32 0x00000000#32

theorem zf_eq : zf = 0 := Ideal.ofBits_zero_f32

/-- A matrix of extended reals with `K` rows and `N` columns, as a function of a rank-2 index. -/
abbrev Mat (K N : Nat) : Type := (⟨2, ![K, N]⟩ : Shape).Idx → EReal

/-- Column `j` of the product of the row vector `h` with the matrix `W`. -/
def rowDot {K N : Nat} (W : Mat K N) (h : Fin K → EReal) (j : Fin N) : EReal := ∑ i : Fin K, h i * W (ix2 i j)

/-- One dense layer on one row: the product with the weights plus the bias. -/
def dense {K N : Nat} (W : Mat K N) (b : Fin N → EReal) (h : Fin K → EReal) (j : Fin N) : EReal := rowDot W h j + b j

/-- The rectifier: the larger of the value and zero. -/
def relu (x : EReal) : EReal := max x zf

/-- Layers one to four of the network on one row of 256 hidden values: three rectified dense layers, then the
    linear read-out of two values. -/
def mlpTail (w1 : Mat 256 256) (b1 : Fin 256 → EReal) (w2 : Mat 256 256) (b2 : Fin 256 → EReal)
    (w3 : Mat 256 256) (b3 : Fin 256 → EReal) (w4 : Mat 256 2) (b4 : Fin 2 → EReal) (h0 : Fin 256 → EReal) : Fin 2 → EReal :=
  dense w4 b4 (fun j3 => relu (dense w3 b3 (fun j2 => relu (dense w2 b2 (fun j1 => relu (dense w1 b1 h0 j1)) j2)) j3))

/-- The first layer as the split program computes it on one row: the pre-projected pixel value, plus the product of
    the four relative inputs with the last four weight rows, plus the bias, rectified. -/
def layer0Split (w0r : Mat 4 256) (b0 : Fin 256 → EReal) (proj : Fin 256 → EReal) (rel : Fin 4 → EReal) (j : Fin 256) : EReal :=
  relu ((proj j + rowDot w0r rel j) + b0 j)

/-- The first layer as the plain program computes it on one row of 580 inputs. -/
def layer0Whole (w0 : Mat 580 256) (b0 : Fin 256 → EReal) (inp : Fin 580 → EReal) (j : Fin 256) : EReal :=
  relu (dense w0 b0 inp j)

/-- The blend of four corner predictions `p k` with weights `g k`, accumulated from zero in the order 0, 1, 2, 3. -/
def blend4 (p : Fin 4 → Fin 2 → EReal) (g : Fin 4 → EReal) (o : Fin 2) : EReal :=
  (((zf + p 0 o * g 0) + p 1 o * g 1) + p 2 o * g 2) + p 3 o * g 3

/-- A sum over 580 terms is the sum over the first 576 plus the sum over the last four. -/
theorem sum_580_split (f : Fin 580 → EReal) :
    ∑ i : Fin 580, f i = (∑ i : Fin 576, f (Fin.castAdd 4 i)) + ∑ i : Fin 4, f (Fin.natAdd 576 i) :=
  Fin.sum_univ_add (a := 576) (b := 4) (f : Fin (576 + 4) → EReal)

/-- The two forms of the first layer agree when the pre-projected value is the product of the first 576 inputs with the
    first 576 weight rows, and the four relative inputs and weight rows are the last four. -/
theorem layer0_agree (w0 : Mat 580 256) (w0r : Mat 4 256) (b0 : Fin 256 → EReal) (inp : Fin 580 → EReal)
    (proj : Fin 256 → EReal) (rel : Fin 4 → EReal)
    (hproj : ∀ j, proj j = ∑ i : Fin 576, inp (Fin.castAdd 4 i) * w0 (ix2 (Fin.castAdd 4 i) j))
    (hrel : ∀ i, rel i = inp (Fin.natAdd 576 i))
    (hw : ∀ i j, w0r (ix2 i j) = w0 (ix2 (Fin.natAdd 576 i) j)) (j : Fin 256) :
    layer0Split w0r b0 proj rel j = layer0Whole w0 b0 inp j := by
  unfold layer0Split layer0Whole dense rowDot
  rw [sum_580_split (fun i => inp i * w0 (ix2 i j)), hproj j]
  simp only [hrel, hw]

end Cert.Spec

end
-- ==== Proof.KVal1.lean ====
import proofs.«100126_j36189394436483_2_alg».proof.Proof.KRegion1
import proofs.«100126_j36189394436483_2_alg».proof.Proof.Spec
import Idealize.ShloMosaic.Lib.Pipeline.Value
import Idealize.ShloMosaic.Lib.ValueIdx
import Idealize.ShloMosaic.PureOps.Ideal.Laws

/-! # What the program's second kernel leaves in its output array, at the ideal values

Per query row the kernel evaluates a five-layer network at four corners and blends the four predictions with the
corners' weights. First the body's payloads are restated as compositions of a few vector functions (a dense layer, the
rectifier, the read-out, one blend step); then each is read at an index, where a change of float format is the identity
and a product into a zero accumulator is a plain sum; then the blocks the grid's points write back are put together
into one function of the thirteen input arrays. -/

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! ## The payloads as compositions of vector functions (any float instance) -/

section Vectors
variable {F : FTy → Type} [FloatOps F]

/-- A dense layer on 4096 rows of 256 hidden values: the rows in the narrow format times the weights, plus the bias row. -/
def denseV (W : FVec F S256x256 .bf16) (b : FVec F S1x256 .f32) (h : FVec F S4096x256 .f32) : FVec F S4096x256 .f32 :=
  addf (matmul dot_S4096x256_S256x256_S4096x256_1_0_0_1_n_n none (truncf .bf16 h bitsLt_bf16_f32) W (constant S4096x256 .f32 0x00000000#32))
    (broadcastTo S4096x256 b broadcasts_S1x256_S4096x256)

/-- The rectifier on 4096 rows of 256 values. -/
def reluV (h : FVec F S4096x256 .f32) : FVec F S4096x256 .f32 :=
  maximumf h (broadcast S4096x256 (Scalar.ofBits .f32 0x00000000#32))

/-- The read-out layer: 256 hidden values to two outputs per row. -/
def readoutV (W : FVec F S256x2 .bf16) (b : FVec F S1x2 .f32) (h : FVec F S4096x256 .f32) : FVec F S4096x2 .f32 :=
  addf (matmul dot_S4096x256_S256x2_S4096x2_1_0_0_1_n_n none (truncf .bf16 h bitsLt_bf16_f32) W (constant S4096x2 .f32 0x00000000#32))
    (broadcastTo S4096x2 b broadcasts_S1x2_S4096x2)

/-- Layers one to four on the rectified first layer's rows. -/
def tailV (v6 : FVec F S256x256 .bf16) (v8 : FVec F S1x256 .f32) (v10 : FVec F S256x256 .bf16) (v12 : FVec F S1x256 .f32)
    (v14 : FVec F S256x256 .bf16) (v16 : FVec F S1x256 .f32) (v18 : FVec F S256x2 .bf16) (v20 : FVec F S1x2 .f32)
    (h0 : FVec F S4096x256 .f32) : FVec F S4096x2 .f32 :=
  readoutV v18 v20 (reluV (denseV v14 v16 (reluV (denseV v10 v12 (reluV (denseV v6 v8 h0))))))

/-- One blend step: the running sum plus a corner's prediction times the corner's weight column. -/
def stepV (acc out : FVec F S4096x2 .f32) (g : FVec F S4096x1 .f32) : FVec F S4096x2 .f32 :=
  addf acc (mulf out (broadcastTo S4096x2 g broadcasts_S4096x1_S4096x2))

/-- The four relative inputs of a corner times the last four rows of the first layer's weights. -/
def relV (v2 : FVec F S4x256 .bf16) (xr : Vec F S1x4096x4 .f32) : FVec F S4096x256 .f32 :=
  matmul dot_S4096x4_S4x256_S4096x256_1_0_0_1_n_n none (truncf .bf16 (shapeCast S4096x4 xr shapeCasts_S1x4096x4_S4096x4) bitsLt_bf16_f32) v2
    (constant S4096x256 .f32 0x00000000#32)

/-- A corner's pre-projected pixel values, widened. -/
def projV (xp : Vec F S1x4096x256 .bf16) : FVec F S4096x256 .f32 :=
  extf .f32 (shapeCast S4096x256 xp shapeCasts_S1x4096x256_S4096x256) bitsLt_bf16_f32

/-- A corner's weight column. -/
def gV (xg : Vec F S1x4096x1 .f32) : FVec F S4096x1 .f32 := shapeCast S4096x1 xg shapeCasts_S1x4096x1_S4096x1

/-- The first layer before its rectifier: projection plus relative part plus bias. -/
def pre0V (v4 : FVec F S1x256 .f32) (p q : FVec F S4096x256 .f32) : FVec F S4096x256 .f32 :=
  addf (addf p q) (broadcastTo S4096x256 v4 broadcasts_S1x256_S4096x256)

/-- One corner's whole step: first layer, layers one to four, blend. -/
def cornerV (v2 : FVec F S4x256 .bf16) (v4 : FVec F S1x256 .f32) (v6 : FVec F S256x256 .bf16) (v8 : FVec F S1x256 .f32)
    (v10 : FVec F S256x256 .bf16) (v12 : FVec F S1x256 .f32) (v14 : FVec F S256x256 .bf16) (v16 : FVec F S1x256 .f32)
    (v18 : FVec F S256x2 .bf16) (v20 : FVec F S1x2 .f32) (acc : FVec F S4096x2 .f32)
    (xp : Vec F S1x4096x256 .bf16) (xr : Vec F S1x4096x4 .f32) (xg : Vec F S1x4096x1 .f32) : FVec F S4096x2 .f32 :=
  stepV acc (tailV v6 v8 v10 v12 v14 v16 v18 v20 (reluV (pre0V v4 (projV xp) (relV v2 xr)))) (gV xg)

/-- Corner 0's step, cut where the body's first part ends. -/
theorem pay15_eq (v2 : FVec F S4x256 .bf16) (v4 : FVec F S1x256 .f32) (v6 : FVec F S256x256 .bf16) (v8 : FVec F S1x256 .f32)
    (v10 : FVec F S256x256 .bf16) (v12 : FVec F S1x256 .f32) (v14 : FVec F S256x256 .bf16) (v16 : FVec F S1x256 .f32)
    (v18 : FVec F S256x2 .bf16) (v20 : FVec F S1x2 .f32) (acc : FVec F S4096x2 .f32)
    (xp : Vec F S1x4096x256 .bf16) (xr : Vec F S1x4096x4 .f32) (xg : Vec F S1x4096x1 .f32) :
    k1_pay15 v2 v4 v6 v8 v10 v12 v14 v16 v18 v20 acc (k1_pay13 xp) (k1_pay14 xr) xg
      = cornerV v2 v4 v6 v8 v10 v12 v14 v16 v18 v20 acc xp xr xg := rfl

/-- Corner 1's step. -/
theorem pay19_eq (v2 : FVec F S4x256 .bf16) (v4 : FVec F S1x256 .f32) (v6 : FVec F S256x256 .bf16) (v8 : FVec F S1x256 .f32)
    (v10 : FVec F S256x256 .bf16) (v12 : FVec F S1x256 .f32) (v14 : FVec F S256x256 .bf16) (v16 : FVec F S1x256 .f32)
    (v18 : FVec F S256x2 .bf16) (v20 : FVec F S1x2 .f32) (acc : FVec F S4096x2 .f32)
    (xp : Vec F S1x4096x256 .bf16) (xr : Vec F S1x4096x4 .f32) (xg : Vec F S1x4096x1 .f32) :
    k1_pay19 v4 v6 v8 v10 v12 v14 v16 v18 v20 acc (k1_pay16 xp) (k1_pay17 xg) (k1_pay18 v2 xr)
      = cornerV v2 v4 v6 v8 v10 v12 v14 v16 v18 v20 acc xp xr xg := rfl

/-- Corner 2's step. -/
theorem pay22_eq (v2 : FVec F S4x256 .bf16) (v4 : FVec F S1x256 .f32) (v6 : FVec F S256x256 .bf16) (v8 : FVec F S1x256 .f32)
    (v10 : FVec F S256x256 .bf16) (v12 : FVec F S1x256 .f32) (v14 : FVec F S256x256 .bf16) (v16 : FVec F S1x256 .f32)
    (v18 : FVec F S256x2 .bf16) (v20 : FVec F S1x2 .f32) (acc : FVec F S4096x2 .f32)
    (xp : Vec F S1x4096x256 .bf16) (xr : Vec F S1x4096x4 .f32) (xg : Vec F S1x4096x1 .f32) :
    k1_pay22 v6 v8 v10 v12 v14 v16 v18 v20 acc (k1_pay20 xg) (k1_pay21 v2 v4 xp xr)
      = cornerV v2 v4 v6 v8 v10 v12 v14 v16 v18 v20 acc xp xr xg := rfl

/-- Corner 3's step, the stored payload. -/
theorem pay1_eq (v2 : FVec F S4x256 .bf16) (v4 : FVec F S1x256 .f32) (v6 : FVec F S256x256 .bf16) (v8 : FVec F S1x256 .f32)
    (v10 : FVec F S256x256 .bf16) (v12 : FVec F S1x256 .f32) (v14 : FVec F S256x256 .bf16) (v16 : FVec F S1x256 .f32)
    (v18 : FVec F S256x2 .bf16) (v20 : FVec F S1x2 .f32) (acc : FVec F S4096x2 .f32)
    (xp : Vec F S1x4096x256 .bf16) (xr : Vec F S1x4096x4 .f32) (xg : Vec F S1x4096x1 .f32) :
    k1_pay1 v6 v8 v10 v12 v14 v16 v18 v20 acc (k1_pay23 xg) (k1_pay24 v2 v4 xp xr)
      = cornerV v2 v4 v6 v8 v10 v12 v14 v16 v18 v20 acc xp xr xg := rfl

end Vectors

/-! ## The vector functions at an index, at the ideal values -/

section AtIdeal

/-- The operand indices of the product `[4096,256] × [256,256]` at an output index and a contraction index, axis by axis. -/
theorem lhs_hid_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_hid_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_hid_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_hid_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- That product into the zero accumulator, at row `r` and column `j`: the sum over the 256 contracted positions. -/
theorem matmul_hid_apply (L : FVec Ideal S4096x256 .bf16) (W : FVec Ideal S256x256 .bf16) (r : Fin 4096) (j : Fin 256) :
    matmul dot_S4096x256_S256x256_S4096x256_1_0_0_1_n_n none L W (constant S4096x256 .f32 0x00000000#32) (ix2 r j)
      = ∑ k : Fin 256, L (ix2 r k) * W (ix2 k j) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r j) ((contrEquiv1 dot_S4096x256_S256x256_S4096x256_1_0_0_1_n_n 256 rfl rfl).symm k) = ix2 r k := funext fun a => Fin.ext (by
    match a with
    | ⟨0, _⟩ => exact lhs_hid_0 _ _
    | ⟨1, _⟩ => exact (lhs_hid_1 _ _).trans hk)
  have er : dot_S4096x256_S256x256_S4096x256_1_0_0_1_n_n.rhsIdx (ix2 r j) ((contrEquiv1 dot_S4096x256_S256x256_S4096x256_1_0_0_1_n_n 256 rfl rfl).symm k) = ix2 k j := funext fun a => Fin.ext (by
    match a with
    | ⟨0, _⟩ => exact (rhs_hid_0 _ _).trans hk
    | ⟨1, _⟩ => exact rhs_hid_1 _ _)
  rw [el, er]

/-- The operand indices of the product `[4096,256] × [256,2]` at an output index and a contraction index, axis by axis. -/
theorem lhs_out_0 (i : S4096x2.Idx) (q : dot_S4096x256_S256x2_S4096x2_1_0_0_1_n_n.contr.Idx) :
    (dot_S4096x256_S256x2_S4096x2_1_0_0_1_n_n.lhsIdx i q 0).val = (i 0).val := by
  unfold DotDims.lhsIdx
  rw [dif_neg (show ¬(0 : Fin S4096x256.rank) ∈ dot_S4096x256_S256x2_S4096x2_1_0_0_1_n_n.lhsBatch by decide), dif_pos (show (0 : Fin S4096x256.rank) ∈ dot_S4096x256_S256x2_S4096x2_1_0_0_1_n_n.lhsNonContracting by decide)]
  rfl
theorem lhs_out_1 (i : S4096x2.Idx) (q : dot_S4096x256_S256x2_S4096x2_1_0_0_1_n_n.contr.Idx) :
    (dot_S4096x256_S256x2_S4096x2_1_0_0_1_n_n.lhsIdx i q 1).val = (q ⟨0, by decide⟩).val :=
  dot_S4096x256_S256x2_S4096x2_1_0_0_1_n_n.lhsIdx_val_of_single rfl i q
theorem rhs_out_0 (i : S4096x2.Idx) (q : dot_S4096x256_S256x2_S4096x2_1_0_0_1_n_n.contr.Idx) :
    (dot_S4096x256_S256x2_S4096x2_1_0_0_1_n_n.rhsIdx i q 0).val = (q ⟨0, by decide⟩).val :=
  dot_S4096x256_S256x2_S4096x2_1_0_0_1_n_n.rhsIdx_val_of_single rfl i q
theorem rhs_out_1 (i : S4096x2.Idx) (q : dot_S4096x256_S256x2_S4096x2_1_0_0_1_n_n.contr.Idx) :
    (dot_S4096x256_S256x2_S4096x2_1_0_0_1_n_n.rhsIdx i q 1).val = (i 1).val := by
  unfold DotDims.rhsIdx
  rw [dif_neg (show ¬(1 : Fin S256x2.rank) ∈ dot_S4096x256_S256x2_S4096x2_1_0_0_1_n_n.rhsBatch by decide), dif_pos (show (1 : Fin S256x2.rank) ∈ dot_S4096x256_S256x2_S4096x2_1_0_0_1_n_n.rhsNonContracting by decide)]
  rfl

/-- That product into the zero accumulator, at row `r` and column `j`: the sum over the 256 contracted positions. -/
theorem matmul_out_apply (L : FVec Ideal S4096x256 .bf16) (W : FVec Ideal S256x2 .bf16) (r : Fin 4096) (j : Fin 2) :
    matmul dot_S4096x256_S256x2_S4096x2_1_0_0_1_n_n none L W (constant S4096x2 .f32 0x00000000#32) (ix2 r j)
      = ∑ k : Fin 256, L (ix2 r k) * W (ix2 k j) := by
  simp only [matmul]
  rw [Ideal.matmul_constant_zero_apply, ← Equiv.sum_comp (contrEquiv1 dot_S4096x256_S256x2_S4096x2_1_0_0_1_n_n 256 rfl rfl).symm]
  refine Finset.sum_congr rfl fun k _ => ?_
  have hk := contrEquiv1_symm_val dot_S4096x256_S256x2_S4096x2_1_0_0_1_n_n 256 rfl rfl k
  have el : dot_S4096x256_S256x2_S4096x2_1_0_0_1_n_n.lhsIdx (ix2 r j) ((contrEquiv1 dot_S4096x256_S256x2_S4096x2_1_0_0_1_n_n 256 rfl rfl).symm k) = ix2 r k := funext fun a => Fin.ext (by
    match a with
    | ⟨0, _⟩ => exact lhs_out_0 _ _
    | ⟨1, _⟩ => exact (lhs_out_1 _ _).trans hk)
  have er : dot_S4096x256_S256x2_S4096x2_1_0_0_1_n_n.rhsIdx (ix2 r j) ((contrEquiv1 dot_S4096x256_S256x2_S4096x2_1_0_0_1_n_n 256 rfl rfl).symm k) = ix2 k j := funext fun a => Fin.ext (by
    match a with
    | ⟨0, _⟩ => exact (rhs_out_0 _ _).trans hk
    | ⟨1, _⟩ => exact rhs_out_1 _ _)
  rw [el, er]

/-- The operand indices of the product `[4096,4] × [4,256]` at an output index and a contraction index, axis by axis. -/
theorem lhs_rel_0 (i : S4096x256.Idx) (q : dot_S4096x4_S4x256_S4096x256_1_0_0_1_n_n.contr.Idx) :
    (dot_S4096x4_S4x256_S4096x256_1_0_0_1_n_n.lhsIdx i q 0).val = (i 0).val := by
  unfold DotDims.lhsIdx
  rw [dif_neg (show ¬(0 : Fin S4096x4.rank) ∈ dot_S4096x4_S4x256_S4096x256_1_0_0_1_n_n.lhsBatch by decide), dif_pos (show (0 : Fin S4096x4.rank) ∈ dot_S4096x4_S4x256_S4096x256_1_0_0_1_n_n.lhsNonContracting by decide)]
  rfl
theorem lhs_rel_1 (i : S4096x256.Idx) (q : dot_S4096x4_S4x256_S4096x256_1_0_0_1_n_n.contr.Idx) :
    (dot_S4096x4_S4x256_S4096x256_1_0_0_1_n_n.lhsIdx i q 1).val = (q ⟨0, by decide⟩).val :=
  dot_S4096x4_S4x256_S4096x256_1_0_0_1_n_n.lhsIdx_val_of_single rfl i q
theorem rhs_rel_0 (i : S4096x256.Idx) (q : dot_S4096x4_S4x256_S4096x256_1_0_0_1_n_n.contr.Idx) :
    (dot_S4096x4_S4x256_S4096x256_1_0_0_1_n_n.rhsIdx i q 0).val = (q ⟨0, by decide⟩).val :=
  dot_S4096x4_S4x256_S4096x256_1_0_0_1_n_n.rhsIdx_val_of_single rfl i q
theorem rhs_rel_1 (i : S4096x256.Idx) (q : dot_S4096x4_S4x256_S4096x256_1_0_0_1_n_n.contr.Idx) :
    (dot_S4096x4_S4x256_S4096x256_1_0_0_1_n_n.rhsIdx i q 1).val = (i 1).val := by
  unfold DotDims.rhsIdx
  rw [dif_neg (show ¬(1 : Fin S4x256.rank) ∈ dot_S4096x4_S4x256_S4096x256_1_0_0_1_n_n.rhsBatch by decide), dif_pos (show (1 : Fin S4x256.rank) ∈ dot_S4096x4_S4x256_S4096x256_1_0_0_1_n_n.rhsNonContracting by decide)]
  rfl

/-- That product into the zero accumulator, at row `r` and column `j`: the sum over the 4 contracted positions. -/
theorem matmul_rel_apply (L : FVec Ideal S4096x4 .bf16) (W : FVec Ideal S4x256 .bf16) (r : Fin 4096) (j : Fin 256) :
    matmul dot_S4096x4_S4x256_S4096x256_1_0_0_1_n_n none L W (constant S4096x256 .f32 0x00000000#32) (ix2 r j)
      = ∑ k : Fin 4, L (ix2 r k) * W (ix2 k j) := by
  simp only [matmul]
  rw [Ideal.matmul_constant_zero_apply, ← Equiv.sum_comp (contrEquiv1 dot_S4096x4_S4x256_S4096x256_1_0_0_1_n_n 4 rfl rfl).symm]
  refine Finset.sum_congr rfl fun k _ => ?_
  have hk := contrEquiv1_symm_val dot_S4096x4_S4x256_S4096x256_1_0_0_1_n_n 4 rfl rfl k
  have el : dot_S4096x4_S4x256_S4096x256_1_0_0_1_n_n.lhsIdx (ix2 r j) ((contrEquiv1 dot_S4096x4_S4x256_S4096x256_1_0_0_1_n_n 4 rfl rfl).symm k) = ix2 r k := funext fun a => Fin.ext (by
    match a with
    | ⟨0, _⟩ => exact lhs_rel_0 _ _
    | ⟨1, _⟩ => exact (lhs_rel_1 _ _).trans hk)
  have er : dot_S4096x4_S4x256_S4096x256_1_0_0_1_n_n.rhsIdx (ix2 r j) ((contrEquiv1 dot_S4096x4_S4x256_S4096x256_1_0_0_1_n_n 4 rfl rfl).symm k) = ix2 k j := funext fun a => Fin.ext (by
    match a with
    | ⟨0, _⟩ => exact (rhs_rel_0 _ _).trans hk
    | ⟨1, _⟩ => exact rhs_rel_1 _ _)
  rw [el, er]

/-- A bias row broadcast down 4096 rows reads the row's entry in the column. -/
theorem biasRow256_apply (b : FVec Ideal S1x256 .f32) (r : Fin 4096) (j : Fin 256) :
    broadcastTo S4096x256 b broadcasts_S1x256_S4096x256 (ix2 r j) = b (ix2 0 j) :=
  broadcastTo_apply b _ (ix2 r j) (ix2 0 j) (fun a => by match a with | ⟨0, _⟩ => rfl | ⟨1, _⟩ => rfl)

theorem biasRow2_apply (b : FVec Ideal S1x2 .f32) (r : Fin 4096) (o : Fin 2) :
    broadcastTo S4096x2 b broadcasts_S1x2_S4096x2 (ix2 r o) = b (ix2 0 o) :=
  broadcastTo_apply b _ (ix2 r o) (ix2 0 o) (fun a => by match a with | ⟨0, _⟩ => rfl | ⟨1, _⟩ => rfl)

/-- A weight column broadcast across the two output columns reads the row's weight. -/
theorem weightCol_apply (g : FVec Ideal S4096x1 .f32) (r : Fin 4096) (o : Fin 2) :
    broadcastTo S4096x2 g broadcasts_S4096x1_S4096x2 (ix2 r o) = g (ix2 r 0) :=
  broadcastTo_apply g _ (ix2 r o) (ix2 r 0) (fun a => by match a with | ⟨0, _⟩ => rfl | ⟨1, _⟩ => rfl)

/-- A dense layer at a row and a column is the specification's dense layer on that row. -/
theorem denseV_apply (W : FVec Ideal S256x256 .bf16) (b : FVec Ideal S1x256 .f32) (h : FVec Ideal S4096x256 .f32)
    (r : Fin 4096) (j : Fin 256) :
    denseV W b h (ix2 r j) = Cert.Spec.dense W (fun j => b (ix2 0 j)) (fun i => h (ix2 r i)) j := by
  unfold denseV Cert.Spec.dense Cert.Spec.rowDot
  rw [addf_apply, matmul_hid_apply, biasRow256_apply]
  rfl

/-- The read-out layer likewise. -/
theorem readoutV_apply (W : FVec Ideal S256x2 .bf16) (b : FVec Ideal S1x2 .f32) (h : FVec Ideal S4096x256 .f32)
    (r : Fin 4096) (o : Fin 2) :
    readoutV W b h (ix2 r o) = Cert.Spec.dense W (fun j => b (ix2 0 j)) (fun i => h (ix2 r i)) o := by
  unfold readoutV Cert.Spec.dense Cert.Spec.rowDot
  rw [addf_apply, matmul_out_apply, biasRow2_apply]
  rfl

/-- The rectifier at an index. -/
theorem reluV_apply (h : FVec Ideal S4096x256 .f32) (r : Fin 4096) (j : Fin 256) :
    reluV h (ix2 r j) = Cert.Spec.relu (h (ix2 r j)) := rfl

/-- Layers one to four at a row and an output column. -/
theorem tailV_apply (v6 : FVec Ideal S256x256 .bf16) (v8 : FVec Ideal S1x256 .f32) (v10 : FVec Ideal S256x256 .bf16) (v12 : FVec Ideal S1x256 .f32)
    (v14 : FVec Ideal S256x256 .bf16) (v16 : FVec Ideal S1x256 .f32) (v18 : FVec Ideal S256x2 .bf16) (v20 : FVec Ideal S1x2 .f32)
    (h0 : FVec Ideal S4096x256 .f32) (r : Fin 4096) (o : Fin 2) :
    tailV v6 v8 v10 v12 v14 v16 v18 v20 h0 (ix2 r o)
      = Cert.Spec.mlpTail v6 (fun j => v8 (ix2 0 j)) v10 (fun j => v12 (ix2 0 j)) v14 (fun j => v16 (ix2 0 j)) v18 (fun j => v20 (ix2 0 j))
          (fun i => h0 (ix2 r i)) o := by
  unfold tailV Cert.Spec.mlpTail
  rw [readoutV_apply]
  simp only [reluV_apply, denseV_apply]

/-- One blend step at a row and an output column. -/
theorem stepV_apply (acc out : FVec Ideal S4096x2 .f32) (g : FVec Ideal S4096x1 .f32) (r : Fin 4096) (o : Fin 2) :
    stepV acc out g (ix2 r o) = acc (ix2 r o) + out (ix2 r o) * g (ix2 r 0) := by
  unfold stepV
  rw [addf_apply, mulf_apply, weightCol_apply]

/-- A slab with its unit axis dropped reads the slab at corner position 0. -/
theorem projV_apply (xp : Vec Ideal S1x4096x256 .bf16) (r : Fin 4096) (j : Fin 256) :
    projV xp (ix2 r j) = xp (ix3 0 r j) := by
  unfold projV
  rw [extf_apply]
  refine shapeCast_apply xp _ (ix2 r j) (ix3 0 r j) ?_
  rw [Shape.rowMajor_val_three, Shape.rowMajor_val_two]
  show (0 * 4096 + r.val) * 256 + j.val = r.val * 256 + j.val
  omega

theorem gV_apply (xg : Vec Ideal S1x4096x1 .f32) (r : Fin 4096) :
    gV xg (ix2 r 0) = xg (ix3 0 r 0) := by
  unfold gV
  refine shapeCast_apply xg _ (ix2 r 0) (ix3 0 r 0) ?_
  rw [Shape.rowMajor_val_three, Shape.rowMajor_val_two]
  show (0 * 4096 + r.val) * 1 + 0 = r.val * 1 + 0
  omega

theorem relV_apply (v2 : FVec Ideal S4x256 .bf16) (xr : Vec Ideal S1x4096x4 .f32) (r : Fin 4096) (j : Fin 256) :
    relV v2 xr (ix2 r j) = Cert.Spec.rowDot v2 (fun i => xr (ix3 0 r i)) j := by
  unfold relV Cert.Spec.rowDot
  rw [matmul_rel_apply]
  refine Finset.sum_congr rfl fun k _ => ?_
  rw [truncf_apply]
  refine congrArg (· * v2 (ix2 k j)) (shapeCast_apply xr _ (ix2 r k) (ix3 0 r k) ?_)
  rw [Shape.rowMajor_val_three, Shape.rowMajor_val_two]
  show (0 * 4096 + r.val) * 4 + k.val = r.val * 4 + k.val
  omega

/-- A corner's whole step at a row and an output column. -/
theorem cornerV_apply (v2 : FVec Ideal S4x256 .bf16) (v4 : FVec Ideal S1x256 .f32) (v6 : FVec Ideal S256x256 .bf16) (v8 : FVec Ideal S1x256 .f32)
    (v10 : FVec Ideal S256x256 .bf16) (v12 : FVec Ideal S1x256 .f32) (v14 : FVec Ideal S256x256 .bf16) (v16 : FVec Ideal S1x256 .f32)
    (v18 : FVec Ideal S256x2 .bf16) (v20 : FVec Ideal S1x2 .f32) (acc : FVec Ideal S4096x2 .f32)
    (xp : Vec Ideal S1x4096x256 .bf16) (xr : Vec Ideal S1x4096x4 .f32) (xg : Vec Ideal S1x4096x1 .f32) (r : Fin 4096) (o : Fin 2) :
    cornerV v2 v4 v6 v8 v10 v12 v14 v16 v18 v20 acc xp xr xg (ix2 r o)
      = acc (ix2 r o)
        + Cert.Spec.mlpTail v6 (fun j => v8 (ix2 0 j)) v10 (fun j => v12 (ix2 0 j)) v14 (fun j => v16 (ix2 0 j)) v18 (fun j => v20 (ix2 0 j))
            (Cert.Spec.layer0Split v2 (fun j => v4 (ix2 0 j)) (fun j => xp (ix3 0 r j)) (fun i => xr (ix3 0 r i))) o
          * xg (ix3 0 r 0) := by
  unfold cornerV
  rw [stepV_apply, tailV_apply, gV_apply]
  refine congrArg (fun h => acc (ix2 r o) + Cert.Spec.mlpTail v6 (fun j => v8 (ix2 0 j)) v10 (fun j => v12 (ix2 0 j)) v14 (fun j => v16 (ix2 0 j)) v18 (fun j => v20 (ix2 0 j)) h o * xg (ix3 0 r 0)) ?_
  funext i
  unfold Cert.Spec.layer0Split pre0V
  rw [reluV_apply, addf_apply, addf_apply, projV_apply, relV_apply, biasRow256_apply]

end AtIdeal

/-! ## The stored payload at an index -/

section Payload

theorem hz2 : (![0, 0] : Fin 2 → Nat) = fun _ => 0 := funext fun a => by fin_cases a <;> rfl

/-- The slabs of the three rank-3 blocks: slab `k` at row `r` is the block at corner `k`, row `r`. -/
theorem ld_proj_0 (x0 : Vec Ideal S4x4096x256 .bf16) (r : Fin 4096) :
    (fun j : Fin 256 => View.ld x0 r1_5 (ix3 0 r j)) = fun j => x0 (ix3 0 r j) :=
  funext fun j => congrArg x0 (funext fun a => Fin.ext (by
    match a with
    | ⟨0, _⟩ => rfl
    | ⟨1, _⟩ => show 0 + 1 * r.val = r.val; omega
    | ⟨2, _⟩ => show 0 + 1 * j.val = j.val; omega))
theorem ld_rel_0 (x1 : Vec Ideal S4x4096x4 .f32) (r : Fin 4096) :
    (fun j : Fin 4 => View.ld x1 r1_9 (ix3 0 r j)) = fun j => x1 (ix3 0 r j) :=
  funext fun j => congrArg x1 (funext fun a => Fin.ext (by
    match a with
    | ⟨0, _⟩ => rfl
    | ⟨1, _⟩ => show 0 + 1 * r.val = r.val; omega
    | ⟨2, _⟩ => show 0 + 1 * j.val = j.val; omega))
theorem ld_wt_0 (x2 : Vec Ideal S4x4096x1 .f32) (r : Fin 4096) :
    View.ld x2 r1_13 (ix3 0 r 0) = x2 (ix3 0 r 0) :=
  congrArg x2 (funext fun a => Fin.ext (by
    match a with
    | ⟨0, _⟩ => rfl
    | ⟨1, _⟩ => show 0 + 1 * r.val = r.val; omega
    | ⟨2, _⟩ => rfl))
theorem ld_proj_1 (x0 : Vec Ideal S4x4096x256 .bf16) (r : Fin 4096) :
    (fun j : Fin 256 => View.ld x0 r1_6 (ix3 0 r j)) = fun j => x0 (ix3 1 r j) :=
  funext fun j => congrArg x0 (funext fun a => Fin.ext (by
    match a with
    | ⟨0, _⟩ => rfl
    | ⟨1, _⟩ => show 0 + 1 * r.val = r.val; omega
    | ⟨2, _⟩ => show 0 + 1 * j.val = j.val; omega))
theorem ld_rel_1 (x1 : Vec Ideal S4x4096x4 .f32) (r : Fin 4096) :
    (fun j : Fin 4 => View.ld x1 r1_10 (ix3 0 r j)) = fun j => x1 (ix3 1 r j) :=
  funext fun j => congrArg x1 (funext fun a => Fin.ext (by
    match a with
    | ⟨0, _⟩ => rfl
    | ⟨1, _⟩ => show 0 + 1 * r.val = r.val; omega
    | ⟨2, _⟩ => show 0 + 1 * j.val = j.val; omega))
theorem ld_wt_1 (x2 : Vec Ideal S4x4096x1 .f32) (r : Fin 4096) :
    View.ld x2 r1_14 (ix3 0 r 0) = x2 (ix3 1 r 0) :=
  congrArg x2 (funext fun a => Fin.ext (by
    match a with
    | ⟨0, _⟩ => rfl
    | ⟨1, _⟩ => show 0 + 1 * r.val = r.val; omega
    | ⟨2, _⟩ => rfl))
theorem ld_proj_2 (x0 : Vec Ideal S4x4096x256 .bf16) (r : Fin 4096) :
    (fun j : Fin 256 => View.ld x0 r1_7 (ix3 0 r j)) = fun j => x0 (ix3 2 r j) :=
  funext fun j => congrArg x0 (funext fun a => Fin.ext (by
    match a with
    | ⟨0, _⟩ => rfl
    | ⟨1, _⟩ => show 0 + 1 * r.val = r.val; omega
    | ⟨2, _⟩ => show 0 + 1 * j.val = j.val; omega))
theorem ld_rel_2 (x1 : Vec Ideal S4x4096x4 .f32) (r : Fin 4096) :
    (fun j : Fin 4 => View.ld x1 r1_11 (ix3 0 r j)) = fun j => x1 (ix3 2 r j) :=
  funext fun j => congrArg x1 (funext fun a => Fin.ext (by
    match a with
    | ⟨0, _⟩ => rfl
    | ⟨1, _⟩ => show 0 + 1 * r.val = r.val; omega
    | ⟨2, _⟩ => show 0 + 1 * j.val = j.val; omega))
theorem ld_wt_2 (x2 : Vec Ideal S4x4096x1 .f32) (r : Fin 4096) :
    View.ld x2 r1_15 (ix3 0 r 0) = x2 (ix3 2 r 0) :=
  congrArg x2 (funext fun a => Fin.ext (by
    match a with
    | ⟨0, _⟩ => rfl
    | ⟨1, _⟩ => show 0 + 1 * r.val = r.val; omega
    | ⟨2, _⟩ => rfl))
theorem ld_proj_3 (x0 : Vec Ideal S4x4096x256 .bf16) (r : Fin 4096) :
    (fun j : Fin 256 => View.ld x0 r1_8 (ix3 0 r j)) = fun j => x0 (ix3 3 r j) :=
  funext fun j => congrArg x0 (funext fun a => Fin.ext (by
    match a with
    | ⟨0, _⟩ => rfl
    | ⟨1, _⟩ => show 0 + 1 * r.val = r.val; omega
    | ⟨2, _⟩ => show 0 + 1 * j.val = j.val; omega))
theorem ld_rel_3 (x1 : Vec Ideal S4x4096x4 .f32) (r : Fin 4096) :
    (fun j : Fin 4 => View.ld x1 r1_12 (ix3 0 r j)) = fun j => x1 (ix3 3 r j) :=
  funext fun j => congrArg x1 (funext fun a => Fin.ext (by
    match a with
    | ⟨0, _⟩ => rfl
    | ⟨1, _⟩ => show 0 + 1 * r.val = r.val; omega
    | ⟨2, _⟩ => show 0 + 1 * j.val = j.val; omega))
theorem ld_wt_3 (x2 : Vec Ideal S4x4096x1 .f32) (r : Fin 4096) :
    View.ld x2 r1_16 (ix3 0 r 0) = x2 (ix3 3 r 0) :=
  congrArg x2 (funext fun a => Fin.ext (by
    match a with
    | ⟨0, _⟩ => rfl
    | ⟨1, _⟩ => show 0 + 1 * r.val = r.val; omega
    | ⟨2, _⟩ => rfl))

/-- The weights and biases as the body hands them on are the weight blocks themselves. -/
theorem w0_eq (x3 : Vec Ideal S4x256 .f32) : (k1_pay2 (View.ld x3 r1_0) : S4x256.Idx → EReal) = x3 := by
  unfold k1_pay2
  rw [View.ld_unit_zero (S := S4x256) hz2, shapeCast_self]
  rfl
theorem b0_eq (x4 : Vec Ideal S1x256 .f32) : (k1_pay3 (View.ld x4 r1_1) : S1x256.Idx → EReal) = x4 := by
  unfold k1_pay3
  rw [View.ld_unit_zero (S := S1x256) hz2, shapeCast_self]
theorem w1_eq (x5 : Vec Ideal S256x256 .f32) : (k1_pay4 (View.ld x5 r1_2) : S256x256.Idx → EReal) = x5 := by
  unfold k1_pay4
  rw [View.ld_unit_zero (S := S256x256) hz2]
  rfl
theorem b1_eq (x6 : Vec Ideal S1x256 .f32) : (k1_pay5 (View.ld x6 r1_1) : S1x256.Idx → EReal) = x6 := by
  unfold k1_pay5
  rw [View.ld_unit_zero (S := S1x256) hz2, shapeCast_self]
theorem w2_eq (x7 : Vec Ideal S256x256 .f32) : (k1_pay6 (View.ld x7 r1_2) : S256x256.Idx → EReal) = x7 := by
  unfold k1_pay6
  rw [View.ld_unit_zero (S := S256x256) hz2]
  rfl
theorem b2_eq (x8 : Vec Ideal S1x256 .f32) : (k1_pay7 (View.ld x8 r1_1) : S1x256.Idx → EReal) = x8 := by
  unfold k1_pay7
  rw [View.ld_unit_zero (S := S1x256) hz2, shapeCast_self]
theorem w3_eq (x9 : Vec Ideal S256x256 .f32) : (k1_pay8 (View.ld x9 r1_2) : S256x256.Idx → EReal) = x9 := by
  unfold k1_pay8
  rw [View.ld_unit_zero (S := S256x256) hz2]
  rfl
theorem b3_eq (x10 : Vec Ideal S1x256 .f32) : (k1_pay9 (View.ld x10 r1_1) : S1x256.Idx → EReal) = x10 := by
  unfold k1_pay9
  rw [View.ld_unit_zero (S := S1x256) hz2, shapeCast_self]
theorem w4_eq (x11 : Vec Ideal S256x2 .f32) : (k1_pay10 (View.ld x11 r1_3) : S256x2.Idx → EReal) = x11 := by
  unfold k1_pay10
  rw [View.ld_unit_zero (S := S256x2) hz2]
  rfl
theorem b4_eq (x12 : Vec Ideal S1x2 .f32) : (k1_pay11 (View.ld x12 r1_4) : S1x2.Idx → EReal) = x12 := by
  unfold k1_pay11
  rw [View.ld_unit_zero (S := S1x2) hz2, shapeCast_self]

/-- THE PAYLOAD AT ROW `r`, COLUMN `o` of the block: the blend of the four corners' predictions, each the network on the
    corner's row of the blocks. -/
theorem out1_13_apply (x0 : Vec Ideal S4x4096x256 .bf16) (x1 : Vec Ideal S4x4096x4 .f32) (x2 : Vec Ideal S4x4096x1 .f32) (x3 : Vec Ideal S4x256 .f32)
    (x4 : Vec Ideal S1x256 .f32) (x5 : Vec Ideal S256x256 .f32) (x6 : Vec Ideal S1x256 .f32) (x7 : Vec Ideal S256x256 .f32) (x8 : Vec Ideal S1x256 .f32)
    (x9 : Vec Ideal S256x256 .f32) (x10 : Vec Ideal S1x256 .f32) (x11 : Vec Ideal S256x2 .f32) (x12 : Vec Ideal S1x2 .f32) (r : Fin 4096) (o : Fin 2) :
    out1_13 (F := Ideal) x0 x1 x2 x3 x4 x5 x6 x7 x8 x9 x10 x11 x12 (ix2 r o)
      = Cert.Spec.blend4 (fun k => Cert.Spec.mlpTail x5 (fun j => x6 (ix2 0 j)) x7 (fun j => x8 (ix2 0 j)) x9 (fun j => x10 (ix2 0 j)) x11 (fun j => x12 (ix2 0 j))
          (Cert.Spec.layer0Split x3 (fun j => x4 (ix2 0 j)) (fun j => x0 (ix3 k r j)) (fun i => x1 (ix3 k r i)))) (fun k => x2 (ix3 k r 0)) o := by
  unfold out1_13
  rw [View.canon_unit_zero hz2, pay1_eq, pay22_eq, pay19_eq, pay15_eq]
  rw [cornerV_apply, cornerV_apply, cornerV_apply, cornerV_apply]
  rw [ld_proj_0, ld_proj_1, ld_proj_2, ld_proj_3, ld_rel_0, ld_rel_1, ld_rel_2, ld_rel_3, ld_wt_0, ld_wt_1, ld_wt_2, ld_wt_3]
  rw [w0_eq, b0_eq, w1_eq, b1_eq, w2_eq, b2_eq, w3_eq, b3_eq, w4_eq, b4_eq]
  rfl

end Payload

/-! ## From the blocks to the array -/

section Array

/-- The blend at query row `n` and output column `o`, as a function of the thirteen arrays. -/
def blendRow (A0 : Vec Ideal S4x131072x256 .bf16) (A1 : Vec Ideal S4x131072x4 .f32) (A2 : Vec Ideal S4x131072x1 .f32) (A3 : Vec Ideal S4x256 .f32) (A4 : Vec Ideal S1x256 .f32) (A5 : Vec Ideal S256x256 .f32) (A6 : Vec Ideal S1x256 .f32) (A7 : Vec Ideal S256x256 .f32) (A8 : Vec Ideal S1x256 .f32) (A9 : Vec Ideal S256x256 .f32) (A10 : Vec Ideal S1x256 .f32) (A11 : Vec Ideal S256x2 .f32) (A12 : Vec Ideal S1x2 .f32)
    (n : Fin 131072) (o : Fin 2) : EReal :=
  Cert.Spec.blend4 (fun k => Cert.Spec.mlpTail A5 (fun j => A6 (ix2 0 j)) A7 (fun j => A8 (ix2 0 j)) A9 (fun j => A10 (ix2 0 j)) A11 (fun j => A12 (ix2 0 j))
    (Cert.Spec.layer0Split A3 (fun j => A4 (ix2 0 j)) (fun j => A0 (ix3 k n j)) (fun i => A1 (ix3 k n i)))) (fun k => A2 (ix3 k n 0)) o

/-- The whole output array as one function of the thirteen arrays. -/
def blendArr (A0 : Vec Ideal S4x131072x256 .bf16) (A1 : Vec Ideal S4x131072x4 .f32) (A2 : Vec Ideal S4x131072x1 .f32) (A3 : Vec Ideal S4x256 .f32) (A4 : Vec Ideal S1x256 .f32) (A5 : Vec Ideal S256x256 .f32) (A6 : Vec Ideal S1x256 .f32) (A7 : Vec Ideal S256x256 .f32) (A8 : Vec Ideal S1x256 .f32) (A9 : Vec Ideal S256x256 .f32) (A10 : Vec Ideal S1x256 .f32) (A11 : Vec Ideal S256x2 .f32) (A12 : Vec Ideal S1x2 .f32) :
    Vec Ideal S131072x2 .f32 := fun i => blendRow A0 A1 A2 A3 A4 A5 A6 A7 A8 A9 A10 A11 A12 (i 0) (i 1)

/-- AT ONE GRID POINT: when the three rank-3 blocks are rows `4096 T …` of their arrays and the weight blocks are the
    weight arrays, the body's payload at a block index is the whole-array function at the array index the block index
    sits at. -/
theorem point_eq (A0 : Vec Ideal S4x131072x256 .bf16) (A1 : Vec Ideal S4x131072x4 .f32) (A2 : Vec Ideal S4x131072x1 .f32) (A3 : Vec Ideal S4x256 .f32) (A4 : Vec Ideal S1x256 .f32) (A5 : Vec Ideal S256x256 .f32) (A6 : Vec Ideal S1x256 .f32) (A7 : Vec Ideal S256x256 .f32) (A8 : Vec Ideal S1x256 .f32) (A9 : Vec Ideal S256x256 .f32) (A10 : Vec Ideal S1x256 .f32) (A11 : Vec Ideal S256x2 .f32) (A12 : Vec Ideal S1x2 .f32)
    (x0 : Vec Ideal S4x4096x256 .bf16) (x1 : Vec Ideal S4x4096x4 .f32) (x2 : Vec Ideal S4x4096x1 .f32) (T : Nat)
    (h0 : ∀ (k : Fin 4) (r : Fin 4096) (j : Fin 256) (n : Fin 131072), n.val = 4096 * T + r.val → x0 (ix3 k r j) = A0 (ix3 k n j))
    (h1 : ∀ (k : Fin 4) (r : Fin 4096) (j : Fin 4) (n : Fin 131072), n.val = 4096 * T + r.val → x1 (ix3 k r j) = A1 (ix3 k n j))
    (h2 : ∀ (k : Fin 4) (r : Fin 4096) (j : Fin 1) (n : Fin 131072), n.val = 4096 * T + r.val → x2 (ix3 k r j) = A2 (ix3 k n j))
    (y : S4096x2.Idx) (i : S131072x2.Idx) (hi0 : (i 0).val = 4096 * T + (y 0).val) (hi1 : (i 1).val = (y 1).val) :
    out1_13 (F := Ideal) x0 x1 x2 A3 A4 A5 A6 A7 A8 A9 A10 A11 A12 y = blendArr A0 A1 A2 A3 A4 A5 A6 A7 A8 A9 A10 A11 A12 i := by
  obtain ⟨r, o, rfl⟩ : ∃ (r : Fin 4096) (o : Fin 2), y = ix2 r o := ⟨y 0, y 1, eq_ix2 y⟩
  obtain ⟨n, o', rfl⟩ : ∃ (n : Fin 131072) (o' : Fin 2), i = ix2 n o' := ⟨i 0, i 1, eq_ix2 i⟩
  obtain rfl : o = o' := (Fin.ext hi1).symm
  have hn : n.val = 4096 * T + r.val := hi0
  rw [out1_13_apply]
  show _ = blendRow A0 A1 A2 A3 A4 A5 A6 A7 A8 A9 A10 A11 A12 n o
  unfold blendRow
  simp only [h0 _ r _ n hn, h1 _ r _ n hn, h2 _ r _ n hn]

variable (V : (c : Dev nD) → (b : Ref sig .tc) → Buf (Elt Ideal) ((c : Thread nD τ).loc b))

/-- The thirteen input arrays as the region finds them, at their literal types. -/
abbrev a1_0 (c : Dev nD) : Vec Ideal S4x131072x256 .bf16 := V c main_v387
abbrev a1_1 (c : Dev nD) : Vec Ideal S4x131072x4 .f32 := V c main_v392
abbrev a1_2 (c : Dev nD) : Vec Ideal S4x131072x1 .f32 := V c main_v403
abbrev a1_3 (c : Dev nD) : Vec Ideal S4x256 .f32 := V c main_v1
abbrev a1_4 (c : Dev nD) : Vec Ideal S1x256 .f32 := V c main_v404
abbrev a1_5 (c : Dev nD) : Vec Ideal S256x256 .f32 := V c main_arg5
abbrev a1_6 (c : Dev nD) : Vec Ideal S1x256 .f32 := V c main_v405
abbrev a1_7 (c : Dev nD) : Vec Ideal S256x256 .f32 := V c main_arg7
abbrev a1_8 (c : Dev nD) : Vec Ideal S1x256 .f32 := V c main_v406
abbrev a1_9 (c : Dev nD) : Vec Ideal S256x256 .f32 := V c main_arg9
abbrev a1_10 (c : Dev nD) : Vec Ideal S1x256 .f32 := V c main_v407
abbrev a1_11 (c : Dev nD) : Vec Ideal S256x2 .f32 := V c main_arg11
abbrev a1_12 (c : Dev nD) : Vec Ideal S1x2 .f32 := V c main_v408

/-- The index maps, decided over the grid: the three rank-3 windows move along the row axis with the point, the weight
    windows stay, and the output window moves along its row axis with the point. -/
theorem idx_slab1_0 : ∀ t : Fin cfg1.N, win1_0.index t (0 : Fin 3) = 0 ∧ win1_0.index t (1 : Fin 3) = t.val ∧ win1_0.index t (2 : Fin 3) = 0 :=
  (by decide +kernel : ∀ t : Fin grid1.N, _)
theorem idx_slab1_1 : ∀ t : Fin cfg1.N, win1_1.index t (0 : Fin 3) = 0 ∧ win1_1.index t (1 : Fin 3) = t.val ∧ win1_1.index t (2 : Fin 3) = 0 :=
  (by decide +kernel : ∀ t : Fin grid1.N, _)
theorem idx_slab1_2 : ∀ t : Fin cfg1.N, win1_2.index t (0 : Fin 3) = 0 ∧ win1_2.index t (1 : Fin 3) = t.val ∧ win1_2.index t (2 : Fin 3) = 0 :=
  (by decide +kernel : ∀ t : Fin grid1.N, _)
theorem idx_whole1_3 : ∀ t : Fin cfg1.N, win1_3.index t (0 : Fin 2) = 0 ∧ win1_3.index t (1 : Fin 2) = 0 :=
  (by decide +kernel : ∀ t : Fin grid1.N, _)
theorem idx_whole1_4 : ∀ t : Fin cfg1.N, win1_4.index t (0 : Fin 2) = 0 ∧ win1_4.index t (1 : Fin 2) = 0 :=
  (by decide +kernel : ∀ t : Fin grid1.N, _)
theorem idx_whole1_5 : ∀ t : Fin cfg1.N, win1_5.index t (0 : Fin 2) = 0 ∧ win1_5.index t (1 : Fin 2) = 0 :=
  (by decide +kernel : ∀ t : Fin grid1.N, _)
theorem idx_whole1_6 : ∀ t : Fin cfg1.N, win1_6.index t (0 : Fin 2) = 0 ∧ win1_6.index t (1 : Fin 2) = 0 :=
  (by decide +kernel : ∀ t : Fin grid1.N, _)
theorem idx_whole1_7 : ∀ t : Fin cfg1.N, win1_7.index t (0 : Fin 2) = 0 ∧ win1_7.index t (1 : Fin 2) = 0 :=
  (by decide +kernel : ∀ t : Fin grid1.N, _)
theorem idx_whole1_8 : ∀ t : Fin cfg1.N, win1_8.index t (0 : Fin 2) = 0 ∧ win1_8.index t (1 : Fin 2) = 0 :=
  (by decide +kernel : ∀ t : Fin grid1.N, _)
theorem idx_whole1_9 : ∀ t : Fin cfg1.N, win1_9.index t (0 : Fin 2) = 0 ∧ win1_9.index t (1 : Fin 2) = 0 :=
  (by decide +kernel : ∀ t : Fin grid1.N, _)
theorem idx_whole1_10 : ∀ t : Fin cfg1.N, win1_10.index t (0 : Fin 2) = 0 ∧ win1_10.index t (1 : Fin 2) = 0 :=
  (by decide +kernel : ∀ t : Fin grid1.N, _)
theorem idx_whole1_11 : ∀ t : Fin cfg1.N, win1_11.index t (0 : Fin 2) = 0 ∧ win1_11.index t (1 : Fin 2) = 0 :=
  (by decide +kernel : ∀ t : Fin grid1.N, _)
theorem idx_whole1_12 : ∀ t : Fin cfg1.N, win1_12.index t (0 : Fin 2) = 0 ∧ win1_12.index t (1 : Fin 2) = 0 :=
  (by decide +kernel : ∀ t : Fin grid1.N, _)
theorem idx_out1_13 : ∀ t : Fin cfg1.N, win1_13.index t (0 : Fin 2) = t.val ∧ win1_13.index t (1 : Fin 2) = 0 :=
  (by decide +kernel : ∀ t : Fin grid1.N, _)

/-- The rank-3 windows' blocks at point `t` are rows `4096 t …` of their arrays. -/
theorem iblk1_0_apply (c : Dev nD) (t : Fin cfg1.N) (k : Fin 4) (r : Fin 4096) (j : Fin 256) (n : Fin 131072)
    (hn : n.val = 4096 * t.val + r.val) :
    (iblk1 V c 0 t : Vec Ideal S4x4096x256 .bf16) (ix3 k r j) = a1_0 V c (ix3 k n j) := by
  obtain ⟨e0, e1, e2⟩ := idx_slab1_0 t
  unfold iblk1
  rw [View.read_apply]
  show V c main_v387 _ = V c main_v387 _
  congr 1
  funext a
  apply Fin.ext
  match a with
  | ⟨0, _⟩ => show win1_0.index t (0 : Fin 3) * 4 + 1 * k.val = k.val; rw [e0]; omega
  | ⟨1, _⟩ => show win1_0.index t (1 : Fin 3) * 4096 + 1 * r.val = n.val; rw [e1, hn]; omega
  | ⟨2, _⟩ => show win1_0.index t (2 : Fin 3) * 256 + 1 * j.val = j.val; rw [e2]; omega
theorem iblk1_1_apply (c : Dev nD) (t : Fin cfg1.N) (k : Fin 4) (r : Fin 4096) (j : Fin 4) (n : Fin 131072)
    (hn : n.val = 4096 * t.val + r.val) :
    (iblk1 V c 1 t : Vec Ideal S4x4096x4 .f32) (ix3 k r j) = a1_1 V c (ix3 k n j) := by
  obtain ⟨e0, e1, e2⟩ := idx_slab1_1 t
  unfold iblk1
  rw [View.read_apply]
  show V c main_v392 _ = V c main_v392 _
  congr 1
  funext a
  apply Fin.ext
  match a with
  | ⟨0, _⟩ => show win1_1.index t (0 : Fin 3) * 4 + 1 * k.val = k.val; rw [e0]; omega
  | ⟨1, _⟩ => show win1_1.index t (1 : Fin 3) * 4096 + 1 * r.val = n.val; rw [e1, hn]; omega
  | ⟨2, _⟩ => show win1_1.index t (2 : Fin 3) * 4 + 1 * j.val = j.val; rw [e2]; omega
theorem iblk1_2_apply (c : Dev nD) (t : Fin cfg1.N) (k : Fin 4) (r : Fin 4096) (j : Fin 1) (n : Fin 131072)
    (hn : n.val = 4096 * t.val + r.val) :
    (iblk1 V c 2 t : Vec Ideal S4x4096x1 .f32) (ix3 k r j) = a1_2 V c (ix3 k n j) := by
  obtain ⟨e0, e1, e2⟩ := idx_slab1_2 t
  unfold iblk1
  rw [View.read_apply]
  show V c main_v403 _ = V c main_v403 _
  congr 1
  funext a
  apply Fin.ext
  match a with
  | ⟨0, _⟩ => show win1_2.index t (0 : Fin 3) * 4 + 1 * k.val = k.val; rw [e0]; omega
  | ⟨1, _⟩ => show win1_2.index t (1 : Fin 3) * 4096 + 1 * r.val = n.val; rw [e1, hn]; omega
  | ⟨2, _⟩ => show win1_2.index t (2 : Fin 3) * 1 + 1 * j.val = j.val; rw [e2]; omega

/-- The weight windows' blocks are their arrays, at every point. -/
theorem iblk1_3_eq (c : Dev nD) (t : Fin cfg1.N) : (iblk1 V c 3 t : Vec Ideal S4x256 .f32) = a1_3 V c := by
  obtain ⟨e0, e1⟩ := idx_whole1_3 t
  funext y
  unfold iblk1
  rw [View.read_apply]
  show V c main_v1 _ = V c main_v1 y
  congr 1
  funext a
  apply Fin.ext
  match a with
  | ⟨0, _⟩ => show win1_3.index t (0 : Fin 2) * 4 + 1 * (y 0).val = (y 0).val; rw [e0]; omega
  | ⟨1, _⟩ => show win1_3.index t (1 : Fin 2) * 256 + 1 * (y 1).val = (y 1).val; rw [e1]; omega
theorem iblk1_4_eq (c : Dev nD) (t : Fin cfg1.N) : (iblk1 V c 4 t : Vec Ideal S1x256 .f32) = a1_4 V c := by
  obtain ⟨e0, e1⟩ := idx_whole1_4 t
  funext y
  unfold iblk1
  rw [View.read_apply]
  show V c main_v404 _ = V c main_v404 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega
theorem iblk1_5_eq (c : Dev nD) (t : Fin cfg1.N) : (iblk1 V c 5 t : Vec Ideal S256x256 .f32) = a1_5 V c := by
  obtain ⟨e0, e1⟩ := idx_whole1_5 t
  funext y
  unfold iblk1
  rw [View.read_apply]
  show V c main_arg5 _ = V c main_arg5 y
  congr 1
  funext a
  apply Fin.ext
  match a with
  | ⟨0, _⟩ => show win1_5.index t (0 : Fin 2) * 256 + 1 * (y 0).val = (y 0).val; rw [e0]; omega
  | ⟨1, _⟩ => show win1_5.index t (1 : Fin 2) * 256 + 1 * (y 1).val = (y 1).val; rw [e1]; omega
theorem iblk1_6_eq (c : Dev nD) (t : Fin cfg1.N) : (iblk1 V c 6 t : Vec Ideal S1x256 .f32) = a1_6 V c := by
  obtain ⟨e0, e1⟩ := idx_whole1_6 t
  funext y
  unfold iblk1
  rw [View.read_apply]
  show V c main_v405 _ = V c main_v405 y
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 256 + 1 * (y 1).val = (y 1).val; rw [e1]; omega
theorem iblk1_7_eq (c : Dev nD) (t : Fin cfg1.N) : (iblk1 V c 7 t : Vec Ideal S256x256 .f32) = a1_7 V c := by
  obtain ⟨e0, e1⟩ := idx_whole1_7 t
  funext y
  unfold iblk1
  rw [View.read_apply]
  show V c main_arg7 _ = V c main_arg7 y
  congr 1
  funext a
  apply Fin.ext
  match a with
  | ⟨0, _⟩ => show win1_7.index t (0 : Fin 2) * 256 + 1 * (y 0).val = (y 0).val; rw [e0]; omega
  | ⟨1, _⟩ => show win1_7.index t (1 : Fin 2) * 256 + 1 * (y 1).val = (y 1).val; rw [e1]; omega
theorem iblk1_8_eq (c : Dev nD) (t : Fin cfg1.N) : (iblk1 V c 8 t : Vec Ideal S1x256 .f32) = a1_8 V c := by
  obtain ⟨e0, e1⟩ := idx_whole1_8 t
  funext y
  unfold iblk1
  rw [View.read_apply]
  show V c main_v406 _ = V c main_v406 y
  congr 1
  funext a
  apply Fin.ext
  match a with
  | ⟨0, _⟩ => show win1_8.index t (0 : Fin 2) * 1 + 1 * (y 0).val = (y 0).val; rw [e0]; omega
  | ⟨1, _⟩ => show win1_8.index t (1 : Fin 2) * 256 + 1 * (y 1).val = (y 1).val; rw [e1]; omega
theorem iblk1_9_eq (c : Dev nD) (t : Fin cfg1.N) : (iblk1 V c 9 t : Vec Ideal S256x256 .f32) = a1_9 V c := by
  obtain ⟨e0, e1⟩ := idx_whole1_9 t
  funext y
  unfold iblk1
  rw [View.read_apply]
  show V c main_arg9 _ = V c main_arg9 y
  congr 1
  funext a
  apply Fin.ext
  match a with
  | ⟨0, _⟩ => show win1_9.index t (0 : Fin 2) * 256 + 1 * (y 0).val = (y 0).val; rw [e0]; omega
  | ⟨1, _⟩ => show win1_9.index t (1 : Fin 2) * 256 + 1 * (y 1).val = (y 1).val; rw [e1]; omega
theorem iblk1_10_eq (c : Dev nD) (t : Fin cfg1.N) : (iblk1 V c 10 t : Vec Ideal S1x256 .f32) = a1_10 V c := by
  obtain ⟨e0, e1⟩ := idx_whole1_10 t
  funext y
  unfold iblk1
  rw [View.read_apply]
  show V c main_v407 _ = V c main_v407 y
  congr 1
  funext a
  apply Fin.ext
  match a with
  | ⟨0, _⟩ => show win1_10.index t (0 : Fin 2) * 1 + 1 * (y 0).val = (y 0).val; rw [e0]; omega
  | ⟨1, _⟩ => show win1_10.index t (1 : Fin 2) * 256 + 1 * (y 1).val = (y 1).val; rw [e1]; omega
theorem iblk1_11_eq (c : Dev nD) (t : Fin cfg1.N) : (iblk1 V c 11 t : Vec Ideal S256x2 .f32) = a1_11 V c := by
  obtain ⟨e0, e1⟩ := idx_whole1_11 t
  funext y
  unfold iblk1
  rw [View.read_apply]
  show V c main_arg11 _ = V c main_arg11 y
  congr 1
  funext a
  apply Fin.ext
  match a with
  | ⟨0, _⟩ => show win1_11.index t (0 : Fin 2) * 256 + 1 * (y 0).val = (y 0).val; rw [e0]; omega
  | ⟨1, _⟩ => show win1_11.index t (1 : Fin 2) * 2 + 1 * (y 1).val = (y 1).val; rw [e1]; omega
theorem iblk1_12_eq (c : Dev nD) (t : Fin cfg1.N) : (iblk1 V c 12 t : Vec Ideal S1x2 .f32) = a1_12 V c := by
  obtain ⟨e0, e1⟩ := idx_whole1_12 t
  funext y
  unfold iblk1
  rw [View.read_apply]
  show V c main_v408 _ = V c main_v408 y
  congr 1
  funext a
  apply Fin.ext
  match a with
  | ⟨0, _⟩ => show win1_12.index t (0 : Fin 2) * 1 + 1 * (y 0).val = (y 0).val; rw [e0]; omega
  | ⟨1, _⟩ => show win1_12.index t (1 : Fin 2) * 2 + 1 * (y 1).val = (y 1).val; rw [e1]; omega

/-- WHAT POINT `t` WRITES BACK is block `t` of the whole-array function of the arrays as the region finds them. -/
theorem flushed1_13_eq (c : Dev nD) (t : Fin cfg1.N) :
    (dat1 (F := Ideal) V c).flushed 13 t = ((cfg1.win 13).blk t).view.read (Elt Ideal)
      (blendArr (a1_0 V c) (a1_1 V c) (a1_2 V c) (a1_3 V c) (a1_4 V c) (a1_5 V c) (a1_6 V c) (a1_7 V c) (a1_8 V c) (a1_9 V c) (a1_10 V c) (a1_11 V c) (a1_12 V c)) := by
  show (cfg1.win 13).cut (grid1.coords t) ((dat1 (F := Ideal) V c).after 13 t) = _
  rw [after1_13, iblk1_3_eq, iblk1_4_eq, iblk1_5_eq, iblk1_6_eq, iblk1_7_eq, iblk1_8_eq, iblk1_9_eq, iblk1_10_eq, iblk1_11_eq, iblk1_12_eq]
  obtain ⟨e0, e1⟩ := idx_out1_13 t
  funext y
  rw [View.read_apply]
  refine point_eq (a1_0 V c) (a1_1 V c) (a1_2 V c) (a1_3 V c) (a1_4 V c) (a1_5 V c) (a1_6 V c) (a1_7 V c) (a1_8 V c) (a1_9 V c) (a1_10 V c) (a1_11 V c) (a1_12 V c)
    (iblk1 V c 0 t) (iblk1 V c 1 t) (iblk1 V c 2 t) t.val
    (fun k r j n hn => iblk1_0_apply V c t k r j n hn) (fun k r j n hn => iblk1_1_apply V c t k r j n hn) (fun k r j n hn => iblk1_2_apply V c t k r j n hn)
    y (((cfg1.win 13).blk t).view.emb y) ?_ ?_
  · show win1_13.index t (0 : Fin 2) * 4096 + 1 * (y 0).val = 4096 * t.val + (y 0).val
    rw [e0]; omega
  · show win1_13.index t (1 : Fin 2) * 2 + 1 * (y 1).val = (y 1).val
    rw [e1]; omega

/-- An index of the array is in point `t`'s block iff each coordinate is in the block's range on its axis. -/
theorem mem_blk1_13 (t : Fin cfg1.N) (i : S131072x2.Idx) :
    i ∈ ((cfg1.win 13).blk t).view.set ↔ ∀ a : Fin 2, win1_13.index t a * S4096x2.size a ≤ (i a).val ∧ (i a).val < win1_13.index t a * S4096x2.size a + S4096x2.size a := by
  show i ∈ ((View.whole main_v409).slice (win1_13.rect t)).set ↔ _
  rw [View.set_slice_whole, Rect.mem_set_unit]
  exact Iff.rfl

/-- Every row of the array is in the block of the point its number divided by 4096 names. -/
theorem cover1_13_arr (i : S131072x2.Idx) : ∃ t : Fin cfg1.N, (cfg1.win 13).flush t = true ∧ i ∈ ((cfg1.win 13).blk t).view.set := by
  have hi0 : (i 0).val < 131072 := (i 0).isLt
  have hi1 : (i 1).val < 2 := (i 1).isLt
  have hN : cfg1.N = 32 := N_1
  refine ⟨⟨(i 0).val / 4096, by rw [hN]; omega⟩, flush1_13 _, ?_⟩
  obtain ⟨e0, e1⟩ := idx_out1_13 ⟨(i 0).val / 4096, by rw [hN]; omega⟩
  rw [mem_blk1_13]
  intro a
  match a with
  | ⟨0, _⟩ =>
    show win1_13.index _ (0 : Fin 2) * 4096 ≤ (i 0).val ∧ (i 0).val < win1_13.index _ (0 : Fin 2) * 4096 + 4096
    rw [e0]; show (i 0).val / 4096 * 4096 ≤ (i 0).val ∧ (i 0).val < (i 0).val / 4096 * 4096 + 4096; omega
  | ⟨1, _⟩ =>
    show win1_13.index _ (1 : Fin 2) * 2 ≤ (i 1).val ∧ (i 1).val < win1_13.index _ (1 : Fin 2) * 2 + 2
    rw [e1]; omega

/-- THE ARRAY after the region: the whole-array function of the thirteen arrays. -/
theorem arr1_eq (c : Dev nD) :
    (dat1 (F := Ideal) V c).arrAt 13 cfg1.N
      = blendArr (a1_0 V c) (a1_1 V c) (a1_2 V c) (a1_3 V c) (a1_4 V c) (a1_5 V c) (a1_6 V c) (a1_7 V c) (a1_8 V c) (a1_9 V c) (a1_10 V c) (a1_11 V c) (a1_12 V c) :=
  (dat1 (F := Ideal) V c).arrAt_eq_of_cover 13 _ (fun t _ => flushed1_13_eq V c t) cover1_13_arr

/-- The array at query row `n` and output column `o`: the blend of the four corners' predictions. -/
theorem arr1_apply (c : Dev nD) (n : Fin 131072) (o : Fin 2) :
    ((dat1 (F := Ideal) V c).arrAt 13 cfg1.N) (ix2 n o)
      = Cert.Spec.blend4 (fun k => Cert.Spec.mlpTail (a1_5 V c) (fun j => a1_6 V c (ix2 0 j)) (a1_7 V c) (fun j => a1_8 V c (ix2 0 j)) (a1_9 V c) (fun j => a1_10 V c (ix2 0 j)) (a1_11 V c) (fun j => a1_12 V c (ix2 0 j))
          (Cert.Spec.layer0Split (a1_3 V c) (fun j => a1_4 V c (ix2 0 j)) (fun j => a1_0 V c (ix3 k n j)) (fun i => a1_1 V c (ix3 k n i)))) (fun k => a1_2 V c (ix3 k n 0)) o := by
  rw [arr1_eq]
  rfl

end Array

end Cert.KernelIdeal.Hand

end
-- ==== Proof.KRead.lean ====
import proofs.«100126_j36189394436483_2_alg».proof.Proof.KReadK
import proofs.«100126_j36189394436483_2_alg».proof.Proof.KReadL
import proofs.«100126_j36189394436483_2_alg».proof.Proof.KVal1

/-!
# The split program's result, and the gathered rows it feeds its second kernel

When the entry function returns, its first result is the second kernel's output array unflattened, and that array
is, row by row, the blend of the four corners' networks over the kernel's thirteen input arrays as they stand at the
end: no item after the kernel's region writes them. The first of those arrays stacks the four corners' gathered
pixel rows: slab `k` at row `rowOf b q` is corner `k`'s gathered row of query `(b, q)`.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The second kernel's input arrays stay as the kernel found them -/

/-- The thirteen input arrays of the second kernel, in the order of its windows. -/
abbrev inputs1 : List (Ref sig .tc) :=
  [main_v387, main_v392, main_v403, main_v1, main_v404, main_arg5, main_v405, main_arg7, main_v406, main_arg9, main_v407, main_arg11, main_v408]

/-- An input array of the second kernel holds at the end what the kernel was entered with. -/
theorem Ventry1_stable (c : Dev nD) (b : Ref sig .tc) (hb : b ∈ inputs1) :
    Ventry1 m ρ c b = Wend m ρ c (Proc.devRef .tc b) := by
  simp only [inputs1, List.mem_cons, List.not_mem_nil, or_false] at hb
  rcases hb with rfl | rfl | rfl | rfl | rfl | rfl | rfl | rfl | rfl | rfl | rfl | rfl | rfl
  · exact (Wend_at36 m ρ c main_v387 (by decide) (Or.inr ⟨0, by decide, rfl⟩)).symm
  · exact (Wend_at36 m ρ c main_v392 (by decide) (Or.inr ⟨1, by decide, rfl⟩)).symm
  · exact (Wend_at36 m ρ c main_v403 (by decide) (Or.inr ⟨2, by decide, rfl⟩)).symm
  · exact (Wend_at36 m ρ c main_v1 (by decide) (Or.inr ⟨3, by decide, rfl⟩)).symm
  · exact (Wend_at36 m ρ c main_v404 (by decide) (Or.inr ⟨4, by decide, rfl⟩)).symm
  · exact (Wend_at36 m ρ c main_arg5 (by decide) (Or.inr ⟨5, by decide, rfl⟩)).symm
  · exact (Wend_at36 m ρ c main_v405 (by decide) (Or.inr ⟨6, by decide, rfl⟩)).symm
  · exact (Wend_at36 m ρ c main_arg7 (by decide) (Or.inr ⟨7, by decide, rfl⟩)).symm
  · exact (Wend_at36 m ρ c main_v406 (by decide) (Or.inr ⟨8, by decide, rfl⟩)).symm
  · exact (Wend_at36 m ρ c main_arg9 (by decide) (Or.inr ⟨9, by decide, rfl⟩)).symm
  · exact (Wend_at36 m ρ c main_v407 (by decide) (Or.inr ⟨10, by decide, rfl⟩)).symm
  · exact (Wend_at36 m ρ c main_arg11 (by decide) (Or.inr ⟨11, by decide, rfl⟩)).symm
  · exact (Wend_at36 m ρ c main_v408 (by decide) (Or.inr ⟨12, by decide, rfl⟩)).symm

/-! ## The first result -/

/-- The first result at query `(b, q)`: the blend, over the four corners, of the network applied to the split first
    layer of the stacked inputs' row `rowOf b q`, every array read as it stands at the end. -/
theorem ret_apply (c : Dev nD) (b : Fin 2) (q : Fin 65536) (o : Fin 2) :
    (Kv m ρ c main_v410 : Vec Ideal S2x65536x2 .f32) (ix3 b q o)
      = Cert.Spec.blend4 (fun k => Cert.Spec.mlpTail (a1_5 (Kv m ρ) c) (fun j => a1_6 (Kv m ρ) c (ix2 0 j)) (a1_7 (Kv m ρ) c) (fun j => a1_8 (Kv m ρ) c (ix2 0 j)) (a1_9 (Kv m ρ) c) (fun j => a1_10 (Kv m ρ) c (ix2 0 j)) (a1_11 (Kv m ρ) c) (fun j => a1_12 (Kv m ρ) c (ix2 0 j))
          (Cert.Spec.layer0Split (a1_3 (Kv m ρ) c) (fun j => a1_4 (Kv m ρ) c (ix2 0 j)) (fun j => a1_0 (Kv m ρ) c (ix3 k (rowOf b q) j)) (fun i => a1_1 (Kv m ρ) c (ix3 k (rowOf b q) i)))) (fun k => a1_2 (Kv m ρ) c (ix3 k (rowOf b q) 0)) o := by
  have e0 : a1_0 (Ventry1 m ρ) c = a1_0 (Kv m ρ) c := Ventry1_stable m ρ c main_v387 (by decide)
  have e1 : a1_1 (Ventry1 m ρ) c = a1_1 (Kv m ρ) c := Ventry1_stable m ρ c main_v392 (by decide)
  have e2 : a1_2 (Ventry1 m ρ) c = a1_2 (Kv m ρ) c := Ventry1_stable m ρ c main_v403 (by decide)
  have e3 : a1_3 (Ventry1 m ρ) c = a1_3 (Kv m ρ) c := Ventry1_stable m ρ c main_v1 (by decide)
  have e4 : a1_4 (Ventry1 m ρ) c = a1_4 (Kv m ρ) c := Ventry1_stable m ρ c main_v404 (by decide)
  have e5 : a1_5 (Ventry1 m ρ) c = a1_5 (Kv m ρ) c := Ventry1_stable m ρ c main_arg5 (by decide)
  have e6 : a1_6 (Ventry1 m ρ) c = a1_6 (Kv m ρ) c := Ventry1_stable m ρ c main_v405 (by decide)
  have e7 : a1_7 (Ventry1 m ρ) c = a1_7 (Kv m ρ) c := Ventry1_stable m ρ c main_arg7 (by decide)
  have e8 : a1_8 (Ventry1 m ρ) c = a1_8 (Kv m ρ) c := Ventry1_stable m ρ c main_v406 (by decide)
  have e9 : a1_9 (Ventry1 m ρ) c = a1_9 (Kv m ρ) c := Ventry1_stable m ρ c main_arg9 (by decide)
  have e10 : a1_10 (Ventry1 m ρ) c = a1_10 (Kv m ρ) c := Ventry1_stable m ρ c main_v407 (by decide)
  have e11 : a1_11 (Ventry1 m ρ) c = a1_11 (Kv m ρ) c := Ventry1_stable m ρ c main_arg11 (by decide)
  have e12 : a1_12 (Ventry1 m ρ) c = a1_12 (Kv m ρ) c := Ventry1_stable m ρ c main_v408 (by decide)
  have hout : (W37 m ρ c (Proc.devRef .tc main_v409) : Vec Ideal S131072x2 .f32) = (dat1 (F := Ideal) (Ventry1 m ρ) c).arrAt 13 cfg1.N :=
    Wexit1_arr m ρ c 13
  refine (unflat_ret (W37 m ρ c) b q o).trans ?_
  rw [hout, arr1_apply (Ventry1 m ρ) c (rowOf b q) o, e0, e1, e2, e3, e4, e5, e6, e7, e8, e9, e10, e11, e12]

/-! ## The stacked gathered rows -/

/-- Corner `k`'s gathered pixel rows, as they stand at the end. -/
def gathK (c : Dev nD) (k : Fin 4) : Vec Ideal S2x65536x256 .bf16 :=
  match k with
  | ⟨0, _⟩ => Kv m ρ c main_v74
  | ⟨1, _⟩ => Kv m ρ c main_v163
  | ⟨2, _⟩ => Kv m ρ c main_v252
  | ⟨3, _⟩ => Kv m ρ c main_v341

theorem gathK_0 (c : Dev nD) : gathK m ρ c 0 = Kv m ρ c main_v74 := rfl
theorem gathK_1 (c : Dev nD) : gathK m ρ c 1 = Kv m ρ c main_v163 := rfl
theorem gathK_2 (c : Dev nD) : gathK m ρ c 2 = Kv m ρ c main_v252 := rfl
theorem gathK_3 (c : Dev nD) : gathK m ρ c 3 = Kv m ρ c main_v341 := rfl

/-- Slab 0 of the stack at row `rowOf b q` is corner 0's gathered row of query `(b, q)`. -/
theorem proj4_apply_0 (c : Dev nD) (b : Fin 2) (q : Fin 65536) (j : Fin 256) :
    (Kv m ρ c main_v387 : Vec Ideal S4x131072x256 .bf16) (ix3 0 (rowOf b q) j)
      = (Kv m ρ c main_v74 : Vec Ideal S2x65536x256 .bf16) (ix3 b q j) := by
  have hs : Kv m ρ c main_v387 = W36 m ρ c (Proc.devRef .tc main_v387) := (Wend_at36 m ρ c main_v387 (by decide) (Or.inr ⟨0, by decide, rfl⟩))
  have hf : Kv m ρ c main_v113 = W36 m ρ c (Proc.devRef .tc main_v113) := (Wend_at36 m ρ c main_v113 (by decide) (Or.inl (by decide)))
  have hf' : Kv m ρ c main_v113 = W12 m ρ c (Proc.devRef .tc main_v113) := (Wend_at12 m ρ c main_v113 (by decide) (Or.inl (by decide)))
  have hg : Kv m ρ c main_v74 = W12 m ρ c (Proc.devRef .tc main_v74) := (Wend_at12 m ρ c main_v74 (by decide) (Or.inl (by decide)))
  rw [hs, hg]
  refine (stack_proj_0 (W35 m ρ c) (rowOf b q) j).trans ((lead_proj_0 (W35 m ρ c) (rowOf b q) j).trans ?_)
  refine (congrFun (hf.symm.trans hf') _).trans ?_
  exact flat_proj_0 (W11 m ρ c) b q j

/-- Slab 1 of the stack at row `rowOf b q` is corner 1's gathered row of query `(b, q)`. -/
theorem proj4_apply_1 (c : Dev nD) (b : Fin 2) (q : Fin 65536) (j : Fin 256) :
    (Kv m ρ c main_v387 : Vec Ideal S4x131072x256 .bf16) (ix3 1 (rowOf b q) j)
      = (Kv m ρ c main_v163 : Vec Ideal S2x65536x256 .bf16) (ix3 b q j) := by
  have hs : Kv m ρ c main_v387 = W36 m ρ c (Proc.devRef .tc main_v387) := (Wend_at36 m ρ c main_v387 (by decide) (Or.inr ⟨0, by decide, rfl⟩))
  have hf : Kv m ρ c main_v202 = W36 m ρ c (Proc.devRef .tc main_v202) := (Wend_at36 m ρ c main_v202 (by decide) (Or.inl (by decide)))
  have hf' : Kv m ρ c main_v202 = W20 m ρ c (Proc.devRef .tc main_v202) := (Wend_at20 m ρ c main_v202 (by decide) (Or.inl (by decide)))
  have hg : Kv m ρ c main_v163 = W20 m ρ c (Proc.devRef .tc main_v163) := (Wend_at20 m ρ c main_v163 (by decide) (Or.inl (by decide)))
  rw [hs, hg]
  refine (stack_proj_1 (W35 m ρ c) (rowOf b q) j).trans ((lead_proj_1 (W35 m ρ c) (rowOf b q) j).trans ?_)
  refine (congrFun (hf.symm.trans hf') _).trans ?_
  exact flat_proj_1 (W19 m ρ c) b q j

/-- Slab 2 of the stack at row `rowOf b q` is corner 2's gathered row of query `(b, q)`. -/
theorem proj4_apply_2 (c : Dev nD) (b : Fin 2) (q : Fin 65536) (j : Fin 256) :
    (Kv m ρ c main_v387 : Vec Ideal S4x131072x256 .bf16) (ix3 2 (rowOf b q) j)
      = (Kv m ρ c main_v252 : Vec Ideal S2x65536x256 .bf16) (ix3 b q j) := by
  have hs : Kv m ρ c main_v387 = W36 m ρ c (Proc.devRef .tc main_v387) := (Wend_at36 m ρ c main_v387 (by decide) (Or.inr ⟨0, by decide, rfl⟩))
  have hf : Kv m ρ c main_v291 = W36 m ρ c (Proc.devRef .tc main_v291) := (Wend_at36 m ρ c main_v291 (by decide) (Or.inl (by decide)))
  have hf' : Kv m ρ c main_v291 = W28 m ρ c (Proc.devRef .tc main_v291) := (Wend_at28 m ρ c main_v291 (by decide) (Or.inl (by decide)))
  have hg : Kv m ρ c main_v252 = W28 m ρ c (Proc.devRef .tc main_v252) := (Wend_at28 m ρ c main_v252 (by decide) (Or.inl (by decide)))
  rw [hs, hg]
  refine (stack_proj_2 (W35 m ρ c) (rowOf b q) j).trans ((lead_proj_2 (W35 m ρ c) (rowOf b q) j).trans ?_)
  refine (congrFun (hf.symm.trans hf') _).trans ?_
  exact flat_proj_2 (W27 m ρ c) b q j

/-- Slab 3 of the stack at row `rowOf b q` is corner 3's gathered row of query `(b, q)`. -/
theorem proj4_apply_3 (c : Dev nD) (b : Fin 2) (q : Fin 65536) (j : Fin 256) :
    (Kv m ρ c main_v387 : Vec Ideal S4x131072x256 .bf16) (ix3 3 (rowOf b q) j)
      = (Kv m ρ c main_v341 : Vec Ideal S2x65536x256 .bf16) (ix3 b q j) := by
  have hs : Kv m ρ c main_v387 = W36 m ρ c (Proc.devRef .tc main_v387) := (Wend_at36 m ρ c main_v387 (by decide) (Or.inr ⟨0, by decide, rfl⟩))
  have hf : Kv m ρ c main_v380 = W36 m ρ c (Proc.devRef .tc main_v380) := (Wend_at36 m ρ c main_v380 (by decide) (Or.inl (by decide)))
  have hg : Kv m ρ c main_v341 = W36 m ρ c (Proc.devRef .tc main_v341) := (Wend_at36 m ρ c main_v341 (by decide) (Or.inl (by decide)))
  rw [hs, hg]
  exact (stack_proj_3 (W35 m ρ c) (rowOf b q) j).trans ((lead_proj_3 (W35 m ρ c) (rowOf b q) j).trans (flat_proj_3 (W35 m ρ c) b q j))

/-- Slab `k` of the stack at row `rowOf b q` is corner `k`'s gathered row of query `(b, q)`. -/
theorem proj4_apply (c : Dev nD) (k : Fin 4) (b : Fin 2) (q : Fin 65536) (j : Fin 256) :
    (Kv m ρ c main_v387 : Vec Ideal S4x131072x256 .bf16) (ix3 k (rowOf b q) j) = gathK m ρ c k (ix3 b q j) :=
  match k with
  | ⟨0, _⟩ => proj4_apply_0 m ρ c b q j
  | ⟨1, _⟩ => proj4_apply_1 m ρ c b q j
  | ⟨2, _⟩ => proj4_apply_2 m ρ c b q j
  | ⟨3, _⟩ => proj4_apply_3 m ρ c b q j

end Cert.KernelIdeal.Hand

end
-- ==== Proof.KVal0.lean ====
import proofs.«100126_j36189394436483_2_alg».proof.Proof.KRegion0
import proofs.«100126_j36189394436483_2_alg».proof.Proof.Spec
import Idealize.ShloMosaic.Lib.Pipeline.Value
import Idealize.ShloMosaic.Lib.ValueIdx
import Idealize.ShloMosaic.PureOps.Ideal.Laws

/-! # The projection kernel's result array, as a matrix product

At the ideal values a change of float format is the identity and a matrix unit's product into a zero
accumulator is a plain sum, so the block the body leaves at a point is the product of the activations'
block with the weights. The activations' block and the result's block sit at the same rows of their
arrays, the weights' block is the whole weight matrix, and the nine row blocks tile the result. So the
result array ends holding, entry by entry, the product of the activations' array with the weight matrix. -/

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

-- the core's buffer contents when the region is entered, at the ideal values
variable (V : (c : Dev nD) → (b : Ref sig .tc) → Buf (Elt Ideal) ((c : Thread nD τ).loc b))

/-- The activations' array as the region finds it. -/
abbrev xarr0 (c : Dev nD) : Vec Ideal S18432x576 .f32 := V c main_v24
/-- The weight matrix as the region finds it. -/
abbrev warr0 (c : Dev nD) : Vec Ideal S576x256 .f32 := V c main_v0

/-! ## The payload at an entry -/

/-- The left operand's row is the result's row. -/
theorem lhs_dot0_0 (i : S2048x256.Idx) (q : dot_S2048x576_S576x256_S2048x256_1_0_0_1_n_n.contr.Idx) :
    (dot_S2048x576_S576x256_S2048x256_1_0_0_1_n_n.lhsIdx i q 0).val = (i 0).val := by
  unfold DotDims.lhsIdx
  rw [dif_neg (show ¬(0 : Fin S2048x576.rank) ∈ dot_S2048x576_S576x256_S2048x256_1_0_0_1_n_n.lhsBatch by decide), dif_pos (show (0 : Fin S2048x576.rank) ∈ dot_S2048x576_S576x256_S2048x256_1_0_0_1_n_n.lhsNonContracting by decide)]
  rfl
/-- The left operand's column is the contraction index. -/
theorem lhs_dot0_1 (i : S2048x256.Idx) (q : dot_S2048x576_S576x256_S2048x256_1_0_0_1_n_n.contr.Idx) :
    (dot_S2048x576_S576x256_S2048x256_1_0_0_1_n_n.lhsIdx i q 1).val = (q ⟨0, by decide⟩).val :=
  dot_S2048x576_S576x256_S2048x256_1_0_0_1_n_n.lhsIdx_val_of_single rfl i q
/-- The right operand's row is the contraction index. -/
theorem rhs_dot0_0 (i : S2048x256.Idx) (q : dot_S2048x576_S576x256_S2048x256_1_0_0_1_n_n.contr.Idx) :
    (dot_S2048x576_S576x256_S2048x256_1_0_0_1_n_n.rhsIdx i q 0).val = (q ⟨0, by decide⟩).val :=
  dot_S2048x576_S576x256_S2048x256_1_0_0_1_n_n.rhsIdx_val_of_single rfl i q
/-- The right operand's column is the result's column. -/
theorem rhs_dot0_1 (i : S2048x256.Idx) (q : dot_S2048x576_S576x256_S2048x256_1_0_0_1_n_n.contr.Idx) :
    (dot_S2048x576_S576x256_S2048x256_1_0_0_1_n_n.rhsIdx i q 1).val = (i 1).val := by
  unfold DotDims.rhsIdx
  rw [dif_neg (show ¬(1 : Fin S576x256.rank) ∈ dot_S2048x576_S576x256_S2048x256_1_0_0_1_n_n.rhsBatch by decide), dif_pos (show (1 : Fin S576x256.rank) ∈ dot_S2048x576_S576x256_S2048x256_1_0_0_1_n_n.rhsNonContracting by decide)]
  rfl

/-- The product of two matrices into a zero accumulator, at an entry: the sum over the shared index. -/
theorem matmul0_apply (a : FVec Ideal S2048x576 .bf16) (b : FVec Ideal S576x256 .bf16) (r : Fin 2048) (h : Fin 256) :
    matmul dot_S2048x576_S576x256_S2048x256_1_0_0_1_n_n none a b (constant (F := Ideal) S2048x256 .f32 0x00000000#32) (ix2 r h)
      = ∑ j : Fin 576, a (ix2 r j) * b (ix2 j h) := by
  refine (Ideal.matmul_constant_zero_apply dot_S2048x576_S576x256_S2048x256_1_0_0_1_n_n none a b (ix2 r h)).trans ?_
  rw [← Equiv.sum_comp (contrEquiv1 dot_S2048x576_S576x256_S2048x256_1_0_0_1_n_n 576 rfl rfl).symm]
  refine Finset.sum_congr rfl fun k _ => ?_
  have hk := contrEquiv1_symm_val dot_S2048x576_S576x256_S2048x256_1_0_0_1_n_n 576 rfl rfl k
  have el : dot_S2048x576_S576x256_S2048x256_1_0_0_1_n_n.lhsIdx (ix2 r h) ((contrEquiv1 dot_S2048x576_S576x256_S2048x256_1_0_0_1_n_n 576 rfl rfl).symm k) = ix2 r k := funext fun a => Fin.ext (by
    match a with
    | ⟨0, _⟩ => exact lhs_dot0_0 _ _
    | ⟨1, _⟩ => exact (lhs_dot0_1 _ _).trans hk)
  have er : dot_S2048x576_S576x256_S2048x256_1_0_0_1_n_n.rhsIdx (ix2 r h) ((contrEquiv1 dot_S2048x576_S576x256_S2048x256_1_0_0_1_n_n 576 rfl rfl).symm k) = ix2 k h := funext fun a => Fin.ext (by
    match a with
    | ⟨0, _⟩ => exact (rhs_dot0_0 _ _).trans hk
    | ⟨1, _⟩ => exact rhs_dot0_1 _ _)
  rw [el, er]

/-- The body's payload at an entry of its block: row `r` of the activations' block times column `h` of the weights. -/
theorem pay0_apply (x : Vec Ideal S2048x576 .f32) (w : Vec Ideal S576x256 .f32) (r : Fin 2048) (h : Fin 256) :
    (k0_pay1 (F := Ideal) x w) (ix2 r h) = ∑ j : Fin 576, x (ix2 r j) * w (ix2 j h) := by
  unfold k0_pay1
  simp only [shapeCast_self]
  exact matmul0_apply (truncf .bf16 x bitsLt_bf16_f32) (truncf .bf16 w bitsLt_bf16_f32) r h

/-- The payload at any index of its block, by the index's two coordinates. -/
theorem pay0_at (x : Vec Ideal S2048x576 .f32) (w : Vec Ideal S576x256 .f32) (i : S2048x256.Idx) :
    (k0_pay1 (F := Ideal) x w) i = ∑ j : Fin 576, x (ix2 (n0 := 2048) (i 0) j) * w (ix2 j (n1 := 256) (i 1)) := by
  obtain ⟨r, h, rfl⟩ : ∃ (r : Fin 2048) (h : Fin 256), i = ix2 r h := ⟨i 0, i 1, eq_ix2 i⟩
  exact pay0_apply x w r h

/-! ## From blocks to the array -/

theorem hz0 : (![0, 0] : Fin 2 → Nat) = fun _ => 0 := funext fun a => by fin_cases a <;> rfl

/-- The product of the activations' array with the weight matrix, as contents of the result's array. -/
def prod0 (c : Dev nD) : Vec Ideal S18432x256 .bf16 :=
  fun i => ∑ j : Fin 576, xarr0 V c (ix2 (n0 := 18432) (i 0) j) * warr0 V c (ix2 j (n1 := 256) (i 1))

/-- The index maps, decided over the grid: the activations' and the result's blocks are the point's row block, in
    the one column block; the weights' block is the one block of its array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the activations' block at point `t` is the array's entry `2048 t` rows further down. -/
theorem xblk0_apply (c : Dev nD) (t : Fin cfg0.N) (z : S2048x576.Idx) (k : S18432x576.Idx)
    (hk0 : (k 0).val = 2048 * t.val + (z 0).val) (hk1 : (k 1).val = (z 1).val) :
    (iblk0 V c 0 t : Vec Ideal S2048x576 .f32) z = xarr0 V c k := by
  obtain ⟨e0, e1, -, -, -, -⟩ := idx_facts0 t
  unfold iblk0
  rw [View.read_apply]
  show V c main_v24 _ = V c main_v24 _
  congr 1
  funext a
  apply Fin.ext
  match a with
  | ⟨0, _⟩ => show win0_0.index t (0 : Fin 2) * 2048 + 1 * (z 0).val = (k 0).val; rw [e0, hk0]; omega
  | ⟨1, _⟩ => show win0_0.index t (1 : Fin 2) * 576 + 1 * (z 1).val = (k 1).val; rw [e1, hk1]; omega

/-- The weights' block at every point is the weight matrix. -/
theorem wblk0_apply (c : Dev nD) (t : Fin cfg0.N) (z : S576x256.Idx) :
    (iblk0 V c 1 t : Vec Ideal S576x256 .f32) z = warr0 V c z := by
  obtain ⟨-, -, e2, e3, -, -⟩ := idx_facts0 t
  unfold iblk0
  rw [View.read_apply]
  show V c main_v0 _ = V c main_v0 _
  congr 1
  funext a
  apply Fin.ext
  match a with
  | ⟨0, _⟩ => show win0_1.index t (0 : Fin 2) * 576 + 1 * (z 0).val = (z 0).val; rw [e2]; omega
  | ⟨1, _⟩ => show win0_1.index t (1 : Fin 2) * 256 + 1 * (z 1).val = (z 1).val; rw [e3]; omega

/-- What point `t` writes back is block `t` of the product. -/
theorem flushed0_eq (c : Dev nD) (t : Fin cfg0.N) :
    (dat0 (F := Ideal) V c).flushed 2 t = ((cfg0.win 2).blk t).view.read (Elt Ideal) (prod0 V c) := by
  show (cfg0.win 2).cut (grid0.coords t) ((dat0 (F := Ideal) V c).after 2 t) = _
  rw [after0_2]
  unfold out0_2
  rw [View.canon_unit_zero hz0]
  simp only [View.ld_unit_zero (S := S2048x576) hz0, View.ld_unit_zero (S := S576x256) hz0]
  obtain ⟨-, -, -, -, e4, e5⟩ := idx_facts0 t
  funext y
  have hy0 : ((((cfg0.win 2).blk t).view.emb y) 0).val = 2048 * t.val + (y 0).val := by
    show win0_2.index t (0 : Fin 2) * 2048 + 1 * (y 0).val = _
    rw [e4]; omega
  have hy1 : ((((cfg0.win 2).blk t).view.emb y) 1).val = (y 1).val := by
    show win0_2.index t (1 : Fin 2) * 256 + 1 * (y 1).val = _
    rw [e5]; omega
  refine (pay0_at (iblk0 V c 0 t) (iblk0 V c 1 t) ((cfg0.win 2).xinj (grid0.coords t) y)).trans ?_
  rw [View.read_apply]
  unfold prod0
  refine Finset.sum_congr rfl fun j _ => ?_
  refine congrArg₂ (· * ·) (xblk0_apply V c t _ _ hy0 rfl) ((wblk0_apply V c t _).trans ?_)
  exact congrArg (warr0 V c) (funext fun a => Fin.ext (by
    match a with
    | ⟨0, _⟩ => rfl
    | ⟨1, _⟩ => exact hy1.symm))

/-- An index of the result's array is in point `t`'s block iff each coordinate is in the block's range on its axis. -/
theorem mem_blk0 (t : Fin cfg0.N) (i : S18432x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v25).slice (win0_2.rect t)).set ↔ _
  rw [View.set_slice_whole, Rect.mem_set_unit]
  exact Iff.rfl

/-- The nine row blocks tile the result's array: row `r` is in the block of point `r / 2048`. -/
theorem cover0 (i : S18432x256.Idx) :
    ∃ t : Fin cfg0.N, (cfg0.win 2).flush t = true ∧ i ∈ ((cfg0.win 2).blk t).view.set := by
  have hi0 : (i 0).val < 18432 := idx2_lt0 i
  have hi1 : (i 1).val < 256 := idx2_lt1 i
  have hN : cfg0.N = 9 := N_0
  obtain ⟨t, ht⟩ : ∃ t : Fin cfg0.N, t.val = (i 0).val / 2048 := ⟨⟨(i 0).val / 2048, by rw [hN]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; rw [e4, ht]; omega
  | ⟨1, _⟩ => show win0_2.index t (1 : Fin 2) * 256 ≤ (i 1).val ∧ (i 1).val < win0_2.index t (1 : Fin 2) * 256 + 256; rw [e5]; omega

/-- The result's array after the nine points is the product. -/
theorem final0 (c : Dev nD) : (dat0 (F := Ideal) V c).arrAt 2 cfg0.N = prod0 V c :=
  (dat0 (F := Ideal) V c).arrAt_eq_of_cover 2 (prod0 V c) (fun t _ => flushed0_eq V c t) cover0

/-- The result array after all nine points, entry by entry: the activations' array times the weight matrix. -/
theorem arr0_apply (c : Dev nD) (p : Fin 18432) (h : Fin 256) :
    ((dat0 (F := Ideal) V c).arrAt 2 cfg0.N) (ix2 p h) = ∑ j : Fin 576, xarr0 V c (ix2 p j) * warr0 V c (ix2 j h) :=
  (congrFun (final0 V c) (ix2 p h)).trans rfl

end Cert.KernelIdeal.Hand

end
-- ==== Proof.GatherRead.lean ====
/-
  The two gathers of the certificate read at an index. Each program gathers, for every batch `b` and query `q`, at
  the pair of start indices the index array holds at `(b, q, 0)` and `(b, q, 1)`: each is read as a signed integer
  and clamped into `[0, 95]` (both indexed axes have extent 96 and the slice has size 1 on them). One program reads a
  row of 256 channels of a `[2, 96, 96, 256]` array, the other a column of 576 channels of a `[2, 576, 96, 96]` array;
  the clamped row and column are the same two functions `gy`, `gx` of the index array on both sides.

  The operand index of a gather is, axis by axis, a clamped start plus a batching coordinate plus an offset
  coordinate. On the batch axis only the batching coordinate is not zero and it is the result's batch coordinate; on
  the channel axis only the offset coordinate is not zero and it is the result's channel coordinate; on each of the
  two indexed axes only the start is not zero, and it reads the index array at the result's batch and query
  coordinates with the component number on the last axis.
-/
import proofs.«100126_j36189394436483_2_alg».proof.KernelIdeal
import proofs.«100126_j36189394436483_2_alg».proof.ReferenceIdeal
import Idealize.ShloMosaic.Lib.ValueIdx

noncomputable section

namespace Cert.Hand.Gather

open Idealize.ShloMosaic Idealize.ShloMosaic.ValueIdx

/-- The row the index array names at `(b, q)`: its component 0 read signed and clamped into `[0, 95]`. -/
def gy (idx : IVec (⟨3, ![2, 65536, 2]⟩ : Shape) 32) (b : Fin 2) (q : Fin 65536) : Fin 96 :=
  ⟨min (idx (ix3 b q (0 : Fin 2))).toInt.toNat 95, by omega⟩

/-- The column the index array names at `(b, q)`: its component 1 read signed and clamped into `[0, 95]`. -/
def gx (idx : IVec (⟨3, ![2, 65536, 2]⟩ : Shape) 32) (b : Fin 2) (q : Fin 65536) : Fin 96 :=
  ⟨min (idx (ix3 b q (1 : Fin 2))).toInt.toNat 95, by omega⟩

variable {α : Type}

/-! ## The channels-last gather: operand `[2, 96, 96, 256]`, result `[2, 65536, 256]` -/

section ChannelsLast
variable [Cert.KernelIdeal.Facts₀]

/-- The channels-last gather's dimension numbers. -/
abbrev dK : GatherDims Cert.KernelIdeal.S2x96x96x256 Cert.KernelIdeal.S2x65536x2 Cert.KernelIdeal.S2x65536x256 :=
  Cert.KernelIdeal.gather_S2x96x96x256_S2x65536x2_S2x65536x256_2_12_0_0_12_2_111256

/-- Result index `(b, q, j)` reads component `c` of its start index at `(b, q, c)`. -/
theorem siIdxK (b : Fin 2) (q : Fin 65536) (j : Fin 256) (c : Fin 2) (hc : c.val < dK.startIndexMap.length) :
    dK.siIdx (ix3 b q j) ⟨c.val, hc⟩ = ix3 b q c := by
  funext e
  refine Fin.ext ?_
  fin_cases e <;> rfl

/-- The operand index of result index `(b, q, j)`: batch `b`, the clamped row and column, channel `j`. -/
theorem operandK (idx : IVec (⟨3, ![2, 65536, 2]⟩ : Shape) 32) (b : Fin 2) (q : Fin 65536) (j : Fin 256) :
    dK.operandIdx (ix3 b q j) idx = ix4 b (gy idx b q) (gx idx b q) j := by
  funext a
  refine Fin.ext ?_
  show dK.start (ix3 b q j) idx a + dK.batchCoord (ix3 b q j) a + dK.offCoord (ix3 b q j) a = _
  fin_cases a
  · -- the batch axis
    show dK.start (ix3 b q j) idx (0 : Fin 4) + dK.batchCoord (ix3 b q j) (0 : Fin 4)
      + dK.offCoord (ix3 b q j) (0 : Fin 4) = b.val
    rw [show dK.start (ix3 b q j) idx (0 : Fin 4) = 0 from rfl, show dK.batchCoord (ix3 b q j) (0 : Fin 4) = b.val from rfl,
      show dK.offCoord (ix3 b q j) (0 : Fin 4) = 0 from rfl]
    omega
  · -- the row axis: start index component 0
    show dK.start (ix3 b q j) idx (1 : Fin 4) + dK.batchCoord (ix3 b q j) (1 : Fin 4)
      + dK.offCoord (ix3 b q j) (1 : Fin 4) = (gy idx b q).val
    rw [show dK.batchCoord (ix3 b q j) (1 : Fin 4) = 0 from rfl, show dK.offCoord (ix3 b q j) (1 : Fin 4) = 0 from rfl]
    unfold GatherDims.start
    have h1 : (1 : Fin 4) ∈ dK.startIndexMap := List.mem_cons_self ..
    rw [dif_pos h1]
    have hsi : dK.siIdx (ix3 b q j) ⟨List.idxOf (1 : Fin 4) dK.startIndexMap, List.idxOf_lt_length_iff.2 h1⟩
        = ix3 b q (0 : Fin 2) := siIdxK b q j 0 _
    rw [hsi]
    rfl
  · -- the column axis: start index component 1
    show dK.start (ix3 b q j) idx (2 : Fin 4) + dK.batchCoord (ix3 b q j) (2 : Fin 4)
      + dK.offCoord (ix3 b q j) (2 : Fin 4) = (gx idx b q).val
    rw [show dK.batchCoord (ix3 b q j) (2 : Fin 4) = 0 from rfl, show dK.offCoord (ix3 b q j) (2 : Fin 4) = 0 from rfl]
    unfold GatherDims.start
    have h2 : (2 : Fin 4) ∈ dK.startIndexMap := List.mem_cons_of_mem _ (List.mem_cons_self ..)
    rw [dif_pos h2]
    have hsi : dK.siIdx (ix3 b q j) ⟨List.idxOf (2 : Fin 4) dK.startIndexMap, List.idxOf_lt_length_iff.2 h2⟩
        = ix3 b q (1 : Fin 2) := siIdxK b q j 1 _
    rw [hsi]
    rfl
  · -- the channel axis
    show dK.start (ix3 b q j) idx (3 : Fin 4) + dK.batchCoord (ix3 b q j) (3 : Fin 4)
      + dK.offCoord (ix3 b q j) (3 : Fin 4) = j.val
    rw [show dK.start (ix3 b q j) idx (3 : Fin 4) = 0 from rfl, show dK.batchCoord (ix3 b q j) (3 : Fin 4) = 0 from rfl,
      show dK.offCoord (ix3 b q j) (3 : Fin 4) = j.val from rfl]
    omega

/-- The channels-last gather at `(b, q, j)`: the operand at batch `b`, the clamped row and column, channel `j`. -/
theorem gatherK_apply (x : (⟨4, ![2, 96, 96, 256]⟩ : Shape).Idx → α)
    (idx : IVec (⟨3, ![2, 65536, 2]⟩ : Shape) 32) (b : Fin 2) (q : Fin 65536) (j : Fin 256) :
    Host.gather Cert.KernelIdeal.gather_S2x96x96x256_S2x65536x2_S2x65536x256_2_12_0_0_12_2_111256 x idx (ix3 b q j)
      = x (ix4 b (gy idx b q) (gx idx b q) j) := by
  unfold Host.gather
  exact congrArg x (operandK idx b q j)

end ChannelsLast

/-! ## The channels-first gather: operand `[2, 576, 96, 96]`, result `[2, 576, 65536]` -/

section ChannelsFirst
variable [Cert.ReferenceIdeal.Facts₀]

/-- The channels-first gather's dimension numbers. -/
abbrev dR : GatherDims Cert.ReferenceIdeal.S2x576x96x96 Cert.ReferenceIdeal.S2x65536x2 Cert.ReferenceIdeal.S2x576x65536 :=
  Cert.ReferenceIdeal.gather_S2x576x96x96_S2x65536x2_S2x576x65536_1_23_0_0_23_2_157611

/-- Result index `(b, j, q)` reads component `c` of its start index at `(b, q, c)`. -/
theorem siIdxR (b : Fin 2) (j : Fin 576) (q : Fin 65536) (c : Fin 2) (hc : c.val < dR.startIndexMap.length) :
    dR.siIdx (ix3 b j q) ⟨c.val, hc⟩ = ix3 b q c := by
  funext e
  refine Fin.ext ?_
  fin_cases e <;> rfl

/-- The operand index of result index `(b, j, q)`: batch `b`, channel `j`, the clamped row and column. -/
theorem operandR (idx : IVec (⟨3, ![2, 65536, 2]⟩ : Shape) 32) (b : Fin 2) (j : Fin 576) (q : Fin 65536) :
    dR.operandIdx (ix3 b j q) idx = ix4 b j (gy idx b q) (gx idx b q) := by
  funext a
  refine Fin.ext ?_
  show dR.start (ix3 b j q) idx a + dR.batchCoord (ix3 b j q) a + dR.offCoord (ix3 b j q) a = _
  fin_cases a
  · -- the batch axis
    show dR.start (ix3 b j q) idx (0 : Fin 4) + dR.batchCoord (ix3 b j q) (0 : Fin 4)
      + dR.offCoord (ix3 b j q) (0 : Fin 4) = b.val
    rw [show dR.start (ix3 b j q) idx (0 : Fin 4) = 0 from rfl, show dR.batchCoord (ix3 b j q) (0 : Fin 4) = b.val from rfl,
      show dR.offCoord (ix3 b j q) (0 : Fin 4) = 0 from rfl]
    omega
  · -- the channel axis
    show dR.start (ix3 b j q) idx (1 : Fin 4) + dR.batchCoord (ix3 b j q) (1 : Fin 4)
      + dR.offCoord (ix3 b j q) (1 : Fin 4) = j.val
    rw [show dR.start (ix3 b j q) idx (1 : Fin 4) = 0 from rfl, show dR.batchCoord (ix3 b j q) (1 : Fin 4) = 0 from rfl,
      show dR.offCoord (ix3 b j q) (1 : Fin 4) = j.val from rfl]
    omega
  · -- the row axis: start index component 0
    show dR.start (ix3 b j q) idx (2 : Fin 4) + dR.batchCoord (ix3 b j q) (2 : Fin 4)
      + dR.offCoord (ix3 b j q) (2 : Fin 4) = (gy idx b q).val
    rw [show dR.batchCoord (ix3 b j q) (2 : Fin 4) = 0 from rfl, show dR.offCoord (ix3 b j q) (2 : Fin 4) = 0 from rfl]
    unfold GatherDims.start
    have h2 : (2 : Fin 4) ∈ dR.startIndexMap := List.mem_cons_self ..
    rw [dif_pos h2]
    have hsi : dR.siIdx (ix3 b j q) ⟨List.idxOf (2 : Fin 4) dR.startIndexMap, List.idxOf_lt_length_iff.2 h2⟩
        = ix3 b q (0 : Fin 2) := siIdxR b j q 0 _
    rw [hsi]
    rfl
  · -- the column axis: start index component 1
    show dR.start (ix3 b j q) idx (3 : Fin 4) + dR.batchCoord (ix3 b j q) (3 : Fin 4)
      + dR.offCoord (ix3 b j q) (3 : Fin 4) = (gx idx b q).val
    rw [show dR.batchCoord (ix3 b j q) (3 : Fin 4) = 0 from rfl, show dR.offCoord (ix3 b j q) (3 : Fin 4) = 0 from rfl]
    unfold GatherDims.start
    have h3 : (3 : Fin 4) ∈ dR.startIndexMap := List.mem_cons_of_mem _ (List.mem_cons_self ..)
    rw [dif_pos h3]
    have hsi : dR.siIdx (ix3 b j q) ⟨List.idxOf (3 : Fin 4) dR.startIndexMap, List.idxOf_lt_length_iff.2 h3⟩
        = ix3 b q (1 : Fin 2) := siIdxR b j q 1 _
    rw [hsi]
    rfl

/-- The channels-first gather at `(b, j, q)`: the operand at batch `b`, channel `j`, the clamped row and column. -/
theorem gatherR_apply (x : (⟨4, ![2, 576, 96, 96]⟩ : Shape).Idx → α)
    (idx : IVec (⟨3, ![2, 65536, 2]⟩ : Shape) 32) (b : Fin 2) (j : Fin 576) (q : Fin 65536) :
    Host.gather Cert.ReferenceIdeal.gather_S2x576x96x96_S2x65536x2_S2x576x65536_1_23_0_0_23_2_157611 x idx (ix3 b j q)
      = x (ix4 b j (gy idx b q) (gx idx b q)) := by
  unfold Host.gather
  exact congrArg x (operandR idx b j q)

end ChannelsFirst

end Cert.Hand.Gather

end
-- ==== Proof.KReadB.lean ====
import proofs.«100126_j36189394436483_2_alg».proof.Proof.KReadK
import proofs.«100126_j36189394436483_2_alg».proof.Proof.KVal0
import proofs.«100126_j36189394436483_2_alg».proof.Proof.GatherRead
import Idealize.ShloMosaic.Lib.StableHlo.Run
import Idealize.ShloMosaic.Lib.Pipeline.Frame

/-!
# From a gathered row back to the feature map

For each of the four corners the split program gathers, for every batch and query, one row of 256 channels of
the projected pixels. A projected pixel is a row of the projection kernel's result array, which is the product of
the activations' matrix with the upper 576 rows of the first layer's weight matrix; the activations' matrix is the
unfolded feature map with its channels moved last and its pixels flattened. So, read when the entry function
returns, a gathered entry is the inner product of a column of the unfolded feature map, at the pixel the corner's
index array names, with a column of the weight matrix. Everything is at the ideal values.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Hand.Gather

/-! ## One stretch at a time, from any contents

Each lemma reads one buffer right after the stretch of host operations that writes it, in terms of the
contents `V` the stretch starts from, at one index. -/

section Stretches
variable (V : Valuation τ sig (Elt Ideal))

/-- The first layer's upper weights are the first 576 rows of the whole weight matrix. -/
theorem stretch_w0 (i : Fin 576) (j : Fin 256) :
    (StableHlo.after main_part0_ops0 V (Proc.devRef .tc main_v0) : Vec Ideal S576x256 .f32) (ix2 i j)
      = (V (Proc.devRef .tc main_arg3) : Vec Ideal S580x256 .f32) (ix2 (Fin.castAdd 4 i) j) := by
  have e : StableHlo.after main_part0_ops0 V (Proc.devRef .tc main_v0)
      = extractStridedSlice S576x256 ![0, 0] (V (Proc.devRef .tc main_arg3)) slices_S580x256_S576x256_0_0 := by
    after_results
  rw [e]; exact slice_w0_top_apply _ _ i j

/-- The activations' matrix at pixel row `pixOf b y x`, channel `i`, is the unfolded feature map at `(b, i, y, x)`:
    the channels are moved last and the three leading axes flattened. -/
theorem stretch_feat (b : Fin 2) (y x : Fin 96) (i : Fin 576) :
    (StableHlo.after main_part0_ops2 V (Proc.devRef .tc main_v24) : Vec Ideal S18432x576 .f32) (ix2 (pixOf b y x) i)
      = (StableHlo.after main_part0_ops2 V (Proc.devRef .tc main_v22) : Vec Ideal S2x576x96x96 .f32) (ix4 b i y x) := by
  have e : StableHlo.after main_part0_ops2 V (Proc.devRef .tc main_v24)
      = shapeCast S18432x576 (transpose S2x96x96x576 [0, 2, 3, 1]
          (StableHlo.after main_part0_ops2 V (Proc.devRef .tc main_v22)) transposes_S2x576x96x96_S2x96x96x576_0_2_3_1)
          shapeCasts_S2x96x96x576_S18432x576 := by
    after_results_simp
    first | rfl | fail "feat: rfl"
  rw [e, reshape_pix576_apply, transpose_feat_apply]

/-- The projected pixels unflattened: pixel `(b, y, x)` is row `pixOf b y x` of the kernel's result array. -/
theorem stretch_proj (b : Fin 2) (y x : Fin 96) (j : Fin 256) :
    (StableHlo.after main_part0_ops3 V (Proc.devRef .tc main_v26) : Vec Ideal S2x96x96x256 .bf16) (ix4 b y x j)
      = (V (Proc.devRef .tc main_v25) : Vec Ideal S18432x256 .bf16) (ix2 (pixOf b y x) j) := by
  have e : StableHlo.after main_part0_ops3 V (Proc.devRef .tc main_v26)
      = shapeCast S2x96x96x256 (V (Proc.devRef .tc main_v25)) shapeCasts_S18432x256_S2x96x96x256 := by
    after_results
    first | rfl | fail "proj: rfl"
  rw [e, reshape_pix256_apply]

end Stretches

section Gathers
variable (V : Valuation τ sig (Elt Ideal))

/-- Corner 0's gathered row: the projected pixel the corner's index array names at `(b, q)`, channel `j`. -/
theorem stretch_gather0 (b : Fin 2) (q : Fin 65536) (j : Fin 256) :
    (StableHlo.after main_part1_ops2 V (Proc.devRef .tc main_v74) : Vec Ideal S2x65536x256 .bf16) (ix3 b q j)
      = (V (Proc.devRef .tc main_v26) : Vec Ideal S2x96x96x256 .bf16)
          (ix4 b (gy (StableHlo.after main_part1_ops2 V (Proc.devRef .tc main_v73)) b q)
            (gx (StableHlo.after main_part1_ops2 V (Proc.devRef .tc main_v73)) b q) j) := by
  have e : StableHlo.after main_part1_ops2 V (Proc.devRef .tc main_v74)
      = Host.gather gather_S2x96x96x256_S2x65536x2_S2x65536x256_2_12_0_0_12_2_111256 (V (Proc.devRef .tc main_v26))
          (StableHlo.after main_part1_ops2 V (Proc.devRef .tc main_v73)) := by
    after_results_simp
  rw [e]; exact gatherK_apply _ _ b q j

/-- Corner 1's gathered row: the projected pixel the corner's index array names at `(b, q)`, channel `j`. -/
theorem stretch_gather1 (b : Fin 2) (q : Fin 65536) (j : Fin 256) :
    (StableHlo.after main_part3_ops2 V (Proc.devRef .tc main_v163) : Vec Ideal S2x65536x256 .bf16) (ix3 b q j)
      = (V (Proc.devRef .tc main_v26) : Vec Ideal S2x96x96x256 .bf16)
          (ix4 b (gy (StableHlo.after main_part3_ops2 V (Proc.devRef .tc main_v162)) b q)
            (gx (StableHlo.after main_part3_ops2 V (Proc.devRef .tc main_v162)) b q) j) := by
  have e : StableHlo.after main_part3_ops2 V (Proc.devRef .tc main_v163)
      = Host.gather gather_S2x96x96x256_S2x65536x2_S2x65536x256_2_12_0_0_12_2_111256 (V (Proc.devRef .tc main_v26))
          (StableHlo.after main_part3_ops2 V (Proc.devRef .tc main_v162)) := by
    after_results_simp
  rw [e]; exact gatherK_apply _ _ b q j

/-- Corner 2's gathered row: the projected pixel the corner's index array names at `(b, q)`, channel `j`. -/
theorem stretch_gather2 (b : Fin 2) (q : Fin 65536) (j : Fin 256) :
    (StableHlo.after main_part5_ops2 V (Proc.devRef .tc main_v252) : Vec Ideal S2x65536x256 .bf16) (ix3 b q j)
      = (V (Proc.devRef .tc main_v26) : Vec Ideal S2x96x96x256 .bf16)
          (ix4 b (gy (StableHlo.after main_part5_ops2 V (Proc.devRef .tc main_v251)) b q)
            (gx (StableHlo.after main_part5_ops2 V (Proc.devRef .tc main_v251)) b q) j) := by
  have e : StableHlo.after main_part5_ops2 V (Proc.devRef .tc main_v252)
      = Host.gather gather_S2x96x96x256_S2x65536x2_S2x65536x256_2_12_0_0_12_2_111256 (V (Proc.devRef .tc main_v26))
          (StableHlo.after main_part5_ops2 V (Proc.devRef .tc main_v251)) := by
    after_results_simp
  rw [e]; exact gatherK_apply _ _ b q j

/-- Corner 3's gathered row: the projected pixel the corner's index array names at `(b, q)`, channel `j`. -/
theorem stretch_gather3 (b : Fin 2) (q : Fin 65536) (j : Fin 256) :
    (StableHlo.after main_part7_ops2 V (Proc.devRef .tc main_v341) : Vec Ideal S2x65536x256 .bf16) (ix3 b q j)
      = (V (Proc.devRef .tc main_v26) : Vec Ideal S2x96x96x256 .bf16)
          (ix4 b (gy (StableHlo.after main_part7_ops2 V (Proc.devRef .tc main_v340)) b q)
            (gx (StableHlo.after main_part7_ops2 V (Proc.devRef .tc main_v340)) b q) j) := by
  have e : StableHlo.after main_part7_ops2 V (Proc.devRef .tc main_v341)
      = Host.gather gather_S2x96x96x256_S2x65536x2_S2x65536x256_2_12_0_0_12_2_111256 (V (Proc.devRef .tc main_v26))
          (StableHlo.after main_part7_ops2 V (Proc.devRef .tc main_v340)) := by
    after_results_simp
  rw [e]; exact gatherK_apply _ _ b q j

end Gathers

/-! ## Read when the entry function returns -/

section Chain
variable (m : (ℓ : Loc nD τ sig) → Buf (Elt Ideal) ℓ) (ρ : Dev nD → PrngReg) (c : Dev nD)

/-! The buffers read here when the entry function returns, each at its array type. -/

/-- The unfolded feature map. -/
abbrev Kfeatu : Vec Ideal S2x576x96x96 .f32 := Kv m ρ c main_v22
/-- The first layer's whole weight matrix. -/
abbrev Kw0 : Vec Ideal S580x256 .f32 := Kv m ρ c main_arg3
/-- Its first 576 rows. -/
abbrev Kw0top : Vec Ideal S576x256 .f32 := Kv m ρ c main_v0
/-- The projected pixels. -/
abbrev Kproj : Vec Ideal S2x96x96x256 .bf16 := Kv m ρ c main_v26
/-- The four corners' index arrays -/
abbrev Kidx0 : IVec S2x65536x2 32 := Kv m ρ c main_v73
abbrev Kidx1 : IVec S2x65536x2 32 := Kv m ρ c main_v162
abbrev Kidx2 : IVec S2x65536x2 32 := Kv m ρ c main_v251
abbrev Kidx3 : IVec S2x65536x2 32 := Kv m ρ c main_v340
/-- and gathered rows. -/
abbrev Kgath0 : Vec Ideal S2x65536x256 .bf16 := Kv m ρ c main_v74
abbrev Kgath1 : Vec Ideal S2x65536x256 .bf16 := Kv m ρ c main_v163
abbrev Kgath2 : Vec Ideal S2x65536x256 .bf16 := Kv m ρ c main_v252
abbrev Kgath3 : Vec Ideal S2x65536x256 .bf16 := Kv m ρ c main_v341

/-- The activations' matrix is an input window's array of the first region and no later item writes it: what the
    region is entered from is what is there at the end. -/
theorem Ventry0_stable_v24 : Ventry0 m ρ c main_v24 = Wend m ρ c (Proc.devRef .tc main_v24) :=
  (Wend_at3 m ρ c main_v24 (by decide) (.inl (by decide)) (.inr ⟨0, rfl, rfl⟩)).symm

/-- The upper weights likewise. -/
theorem Ventry0_stable_v0 : Ventry0 m ρ c main_v0 = Wend m ρ c (Proc.devRef .tc main_v0) :=
  (Wend_at3 m ρ c main_v0 (by decide) (.inl (by decide)) (.inr ⟨1, rfl, rfl⟩)).symm

/-- The upper weights are the first 576 rows of the weight matrix. -/
theorem w0p_apply (i : Fin 576) (j : Fin 256) :
    Kw0top m ρ c (ix2 i j) = Kw0 m ρ c (ix2 (Fin.castAdd 4 i) j) := by
  have e0 : Kw0top m ρ c = W1 m ρ c (Proc.devRef .tc main_v0) :=
    Wend_at1 m ρ c main_v0 (by decide) (.inl (by decide)) (.inr ⟨1, rfl, rfl⟩)
  have e3 : Kw0 m ρ c = W0 m ρ c (Proc.devRef .tc main_arg3) :=
    Wend_at0 m ρ c main_arg3 (by decide) (.inl (by decide)) (.inl (by decide))
  rw [e0, e3]
  exact stretch_w0 (W0 m ρ c) i j

/-- The activations' matrix at pixel row `pixOf b y x` is the unfolded feature map's column at that pixel. -/
theorem xarr_apply (b : Fin 2) (y x : Fin 96) (i : Fin 576) :
    xarr0 (Ventry0 m ρ) c (ix2 (pixOf b y x) i) = Kfeatu m ρ c (ix4 b i y x) := by
  have e22 : Kfeatu m ρ c = W3 m ρ c (Proc.devRef .tc main_v22) :=
    Wend_at3 m ρ c main_v22 (by decide) (.inl (by decide)) (.inl (by decide))
  rw [e22]
  exact stretch_feat (W2 m ρ c) b y x i

/-- The weights the first region is entered with are the first 576 rows of the weight matrix. -/
theorem warr_apply (i : Fin 576) (j : Fin 256) :
    warr0 (Ventry0 m ρ) c (ix2 i j) = Kw0 m ρ c (ix2 (Fin.castAdd 4 i) j) := by
  have e : warr0 (Ventry0 m ρ) c = Kw0top m ρ c := Ventry0_stable_v0 m ρ c
  rw [e]
  exact w0p_apply m ρ c i j

/-- A projected pixel at the end: channel `j` of pixel `(b, y, x)` is the inner product of the pixel's column of
    the unfolded feature map with column `j` of the weight matrix' first 576 rows. -/
theorem proj_apply (b : Fin 2) (y x : Fin 96) (j : Fin 256) :
    Kproj m ρ c (ix4 b y x j)
      = ∑ i : Fin 576, Kfeatu m ρ c (ix4 b i y x) * Kw0 m ρ c (ix2 (Fin.castAdd 4 i) j) := by
  have e26 : Kproj m ρ c = W5 m ρ c (Proc.devRef .tc main_v26) :=
    Wend_at5 m ρ c main_v26 (by decide) (.inl (by decide))
  have e25 : (W4 m ρ c (Proc.devRef .tc main_v25) : Vec Ideal S18432x256 .bf16)
      = (dat0 (F := Ideal) (Ventry0 m ρ) c).arrAt 2 cfg0.N := Wexit0_arr m ρ c 2
  have h1 : Kproj m ρ c (ix4 b y x j)
      = (W4 m ρ c (Proc.devRef .tc main_v25) : Vec Ideal S18432x256 .bf16) (ix2 (pixOf b y x) j) := by
    rw [e26]; exact stretch_proj (W4 m ρ c) b y x j
  rw [h1, e25, arr0_apply (Ventry0 m ρ) c (pixOf b y x) j]
  refine Finset.sum_congr rfl fun i _ => ?_
  rw [xarr_apply m ρ c b y x i, warr_apply m ρ c i j]

/-- Corner 0's gathered row when the entry function returns: the inner product of the unfolded feature map's
    column at the pixel the corner's index array names with a column of the weight matrix' first 576 rows. -/
theorem gathered0_apply (b : Fin 2) (q : Fin 65536) (j : Fin 256) :
    Kgath0 m ρ c (ix3 b q j)
      = ∑ i : Fin 576, Kfeatu m ρ c (ix4 b i (gy (Kidx0 m ρ c) b q) (gx (Kidx0 m ρ c) b q))
          * Kw0 m ρ c (ix2 (Fin.castAdd 4 i) j) := by
  have eo : Kgath0 m ρ c = W11 m ρ c (Proc.devRef .tc main_v74) :=
    Wend_at11 m ρ c main_v74 (by decide) (.inl (by decide))
  have ei : Kidx0 m ρ c = W11 m ρ c (Proc.devRef .tc main_v73) :=
    Wend_at11 m ρ c main_v73 (by decide) (.inl (by decide))
  have ep : Kproj m ρ c = W10 m ρ c (Proc.devRef .tc main_v26) :=
    Wend_at10 m ρ c main_v26 (by decide) (.inl (by decide))
  refine Eq.trans ?_ (proj_apply m ρ c b (gy (Kidx0 m ρ c) b q) (gx (Kidx0 m ρ c) b q) j)
  rw [eo, ei, ep]
  exact stretch_gather0 (W10 m ρ c) b q j

/-- Corner 1's gathered row when the entry function returns: the inner product of the unfolded feature map's
    column at the pixel the corner's index array names with a column of the weight matrix' first 576 rows. -/
theorem gathered1_apply (b : Fin 2) (q : Fin 65536) (j : Fin 256) :
    Kgath1 m ρ c (ix3 b q j)
      = ∑ i : Fin 576, Kfeatu m ρ c (ix4 b i (gy (Kidx1 m ρ c) b q) (gx (Kidx1 m ρ c) b q))
          * Kw0 m ρ c (ix2 (Fin.castAdd 4 i) j) := by
  have eo : Kgath1 m ρ c = W19 m ρ c (Proc.devRef .tc main_v163) :=
    Wend_at19 m ρ c main_v163 (by decide) (.inl (by decide))
  have ei : Kidx1 m ρ c = W19 m ρ c (Proc.devRef .tc main_v162) :=
    Wend_at19 m ρ c main_v162 (by decide) (.inl (by decide))
  have ep : Kproj m ρ c = W18 m ρ c (Proc.devRef .tc main_v26) :=
    Wend_at18 m ρ c main_v26 (by decide) (.inl (by decide))
  refine Eq.trans ?_ (proj_apply m ρ c b (gy (Kidx1 m ρ c) b q) (gx (Kidx1 m ρ c) b q) j)
  rw [eo, ei, ep]
  exact stretch_gather1 (W18 m ρ c) b q j

/-- Corner 2's gathered row when the entry function returns: the inner product of the unfolded feature map's
    column at the pixel the corner's index array names with a column of the weight matrix' first 576 rows. -/
theorem gathered2_apply (b : Fin 2) (q : Fin 65536) (j : Fin 256) :
    Kgath2 m ρ c (ix3 b q j)
      = ∑ i : Fin 576, Kfeatu m ρ c (ix4 b i (gy (Kidx2 m ρ c) b q) (gx (Kidx2 m ρ c) b q))
          * Kw0 m ρ c (ix2 (Fin.castAdd 4 i) j) := by
  have eo : Kgath2 m ρ c = W27 m ρ c (Proc.devRef .tc main_v252) :=
    Wend_at27 m ρ c main_v252 (by decide) (.inl (by decide))
  have ei : Kidx2 m ρ c = W27 m ρ c (Proc.devRef .tc main_v251) :=
    Wend_at27 m ρ c main_v251 (by decide) (.inl (by decide))
  have ep : Kproj m ρ c = W26 m ρ c (Proc.devRef .tc main_v26) :=
    Wend_at26 m ρ c main_v26 (by decide) (.inl (by decide))
  refine Eq.trans ?_ (proj_apply m ρ c b (gy (Kidx2 m ρ c) b q) (gx (Kidx2 m ρ c) b q) j)
  rw [eo, ei, ep]
  exact stretch_gather2 (W26 m ρ c) b q j

/-- Corner 3's gathered row when the entry function returns: the inner product of the unfolded feature map's
    column at the pixel the corner's index array names with a column of the weight matrix' first 576 rows. -/
theorem gathered3_apply (b : Fin 2) (q : Fin 65536) (j : Fin 256) :
    Kgath3 m ρ c (ix3 b q j)
      = ∑ i : Fin 576, Kfeatu m ρ c (ix4 b i (gy (Kidx3 m ρ c) b q) (gx (Kidx3 m ρ c) b q))
          * Kw0 m ρ c (ix2 (Fin.castAdd 4 i) j) := by
  have eo : Kgath3 m ρ c = W35 m ρ c (Proc.devRef .tc main_v341) :=
    Wend_at35 m ρ c main_v341 (by decide) (.inl (by decide))
  have ei : Kidx3 m ρ c = W35 m ρ c (Proc.devRef .tc main_v340) :=
    Wend_at35 m ρ c main_v340 (by decide) (.inl (by decide))
  have ep : Kproj m ρ c = W34 m ρ c (Proc.devRef .tc main_v26) :=
    Wend_at34 m ρ c main_v26 (by decide) (.inl (by decide))
  refine Eq.trans ?_ (proj_apply m ρ c b (gy (Kidx3 m ρ c) b q) (gx (Kidx3 m ρ c) b q) j)
  rw [eo, ei, ep]
  exact stretch_gather3 (W34 m ρ c) b q j

end Chain

end Cert.KernelIdeal.Hand
-- ==== Proof.KReadC.lean ====
import proofs.«100126_j36189394436483_2_alg».proof.Proof.KReadK
import proofs.«100126_j36189394436483_2_alg».proof.Proof.Spec
import Idealize.ShloMosaic.Lib.StableHlo.Run

/-!
# The corner weights and the closing mean, read off the entry function's last two stretches

The four corners' areas are flattened, stacked, summed over the corners, reversed along the corner axis and divided by
the sum: the weight the second kernel multiplies corner `k`'s prediction with is the area of corner `3 − k` over the
total of the four. After the kernel, the result is unflattened, and its mean absolute value is three more operations,
kept here as one function of the unflattened result.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-! ## A stretch cut in two -/

section Cut
variable {F : FTy → Type} [FloatOps F]

/-- Two lines run one after the other leave what their concatenation leaves. -/
theorem after_append_eq (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- A line cut after its first `n` operations. -/
theorem after_cut (n : Nat) (ops : List (HloOp τ sig (Elt F))) (V : Valuation τ sig (Elt F)) :
    StableHlo.after ops V = StableHlo.after (ops.drop n) (StableHlo.after (ops.take n) V) := by
  rw [← after_append_eq, List.take_append_drop]

end Cut

/-! ## The weights as a function of the four flattened areas -/

/-- The four flattened areas stacked along a new leading axis. -/
def stackV (a0 a1 a2 a3 : FVec Ideal S131072 .f32) : FVec Ideal S4x131072 .f32 :=
  concatenate S4x131072 0 [⟨S1x131072, broadcastInDim S1x131072 ![1] bcast_S131072_S1x131072_1 a0⟩,
    ⟨S1x131072, broadcastInDim S1x131072 ![1] bcast_S131072_S1x131072_1 a1⟩,
    ⟨S1x131072, broadcastInDim S1x131072 ![1] bcast_S131072_S1x131072_1 a2⟩,
    ⟨S1x131072, broadcastInDim S1x131072 ![1] bcast_S131072_S1x131072_1 a3⟩]
    concatenates_S1x131072_S1x131072_S1x131072_S1x131072_S4x131072_d0

/-- The weights: the stack reversed along the corner axis, over the corners' total repeated on every corner, with a
    trailing unit axis. -/
def wgtV (a0 a1 a2 a3 : FVec Ideal S131072 .f32) : FVec Ideal S4x131072x1 .f32 :=
  broadcastInDim S4x131072x1 ![0, 1] bcast_S4x131072_S4x131072x1_0_1
    (Host.divf (Host.reverse [0] (stackV a0 a1 a2 a3))
      (broadcastInDim S4x131072 ![0, 1] bcast_S1x131072_S4x131072_0_1
        (broadcastInDim S1x131072 ![1] bcast_S131072_S1x131072_1
          (Host.reduceAdd (stackV a0 a1 a2 a3) (constant (F := Ideal) S_ .f32 0x00000000#32) reducesTo_S4x131072_S131072_d0 h_S_))))

/-- The stack at corner `k`, row `n`. -/
theorem stackV_apply (a : Fin 4 → FVec Ideal S131072 .f32) (k : Fin 4) (n : Fin 131072) :
    stackV (a 0) (a 1) (a 2) (a 3) (ix2 k n) = a k (ix1 n) := by
  have h1 := concat4_slab2_apply (α := EReal) (n := 131072) (fun j => broadcastInDim S1x131072 ![1] bcast_S131072_S1x131072_1 (a j))
    concatenates_S1x131072_S1x131072_S1x131072_S1x131072_S4x131072_d0 k n
  have h2 := bcast_lead2_apply (α := EReal) (n := 131072) (a k) bcast_S131072_S1x131072_1 0 n
  unfold stackV
  rw [h1, h2]

/-- The host's quotient of two arrays at an index is the quotient of the entries. -/
theorem hostDivf_apply {s : Shape} (x y : FVec Ideal s .f32) (i : s.Idx) : Host.divf x y i = Ideal.div (x i) (y i) := rfl

/-- THE WEIGHT of corner `k` at row `n`: the area of corner `3 − k` over the total. -/
theorem wgtV_apply (a : Fin 4 → FVec Ideal S131072 .f32) (k : Fin 4) (n : Fin 131072) :
    wgtV (a 0) (a 1) (a 2) (a 3) (ix3 k n 0)
      = Ideal.div (a k.rev (ix1 n)) (Cert.Spec.zf + (a 0 (ix1 n) + a 1 (ix1 n) + a 2 (ix1 n) + a 3 (ix1 n))) := by
  unfold wgtV
  refine (bcast_trail_apply (α := EReal) (n := 131072) _ bcast_S4x131072_S4x131072x1_0_1 k n 0).trans ?_
  refine (hostDivf_apply _ _ _).trans ?_
  have e1 : Host.reverse [0] (stackV (a 0) (a 1) (a 2) (a 3)) (ix2 k n) = a k.rev (ix1 n) :=
    (reverse4_apply (α := EReal) (n := 131072) _ k n).trans (stackV_apply a k.rev n)
  rw [e1]
  refine congrArg (Ideal.div (a k.rev (ix1 n))) ?_
  refine (bcast_rows4_apply (α := EReal) (n := 131072) _ bcast_S1x131072_S4x131072_0_1 k n).trans ?_
  refine (bcast_lead2_apply (α := EReal) (n := 131072) _ bcast_S131072_S1x131072_1 0 n).trans ?_
  refine (reduce4_apply (n := 131072) (stackV (a 0) (a 1) (a 2) (a 3)) Cert.Spec.zf reducesTo_S4x131072_S131072_d0 (by decide) n).trans ?_
  rw [stackV_apply a 0, stackV_apply a 1, stackV_apply a 2, stackV_apply a 3]

/-! ## The closing mean -/

/-- The mean absolute value of the unflattened result: absolute values, their sum over all axes from zero, the sum
    over the number of entries. -/
def tailK (x : FVec Ideal S2x65536x2 .f32) : FVec Ideal S_ .f32 :=
  Host.divf (Host.reduceAdd (Host.absf x) (constant (F := Ideal) S_ .f32 0x00000000#32) reducesTo_S2x65536x2_S_d0_1_2 h_S_)
    (constant (F := Ideal) S_ .f32 0x48800000#32)

/-! ## The last two stretches, from any contents -/

section Stretches
variable (Vq : Valuation τ sig (Elt Ideal))

/-- The last twelve operations on the weights' road, run from any contents: the weights' array is the weight function
    of the four flattened areas as found. -/
theorem part8_wgt :
    (StableHlo.after ((main_part8_ops0 (F := Ideal)).drop 35) Vq (Proc.devRef .tc main_v403) : Vec Ideal S4x131072x1 .f32)
      = wgtV (Vq (Proc.devRef .tc main_v115)) (Vq (Proc.devRef .tc main_v204)) (Vq (Proc.devRef .tc main_v293)) (Vq (Proc.devRef .tc main_v382)) := by
  simp only [List.drop_succ_cons, List.drop_zero]
  after_results_simp
  rfl

/-- Those operations leave the four flattened areas alone. -/
theorem part8_keep115 :
    StableHlo.after ((main_part8_ops0 (F := Ideal)).drop 35) Vq (Proc.devRef .tc main_v115) = Vq (Proc.devRef .tc main_v115) := by
  simp only [List.drop_succ_cons, List.drop_zero]
  after_results_simp
theorem part8_keep204 :
    StableHlo.after ((main_part8_ops0 (F := Ideal)).drop 35) Vq (Proc.devRef .tc main_v204) = Vq (Proc.devRef .tc main_v204) := by
  simp only [List.drop_succ_cons, List.drop_zero]
  after_results_simp
theorem part8_keep293 :
    StableHlo.after ((main_part8_ops0 (F := Ideal)).drop 35) Vq (Proc.devRef .tc main_v293) = Vq (Proc.devRef .tc main_v293) := by
  simp only [List.drop_succ_cons, List.drop_zero]
  after_results_simp
theorem part8_keep382 :
    StableHlo.after ((main_part8_ops0 (F := Ideal)).drop 35) Vq (Proc.devRef .tc main_v382) = Vq (Proc.devRef .tc main_v382) := by
  simp only [List.drop_succ_cons, List.drop_zero]
  after_results_simp

end Stretches

/-! ## The buffers when the entry function returns -/

section AtReturn
variable (m : (ℓ : Loc nD τ sig) → Buf (Elt Ideal) ℓ) (ρ : Dev nD → PrngReg)

/-- Corner 0's flattened area is its area, query by query. -/
theorem flat0_apply (c : Dev nD) (b : Fin 2) (q : Fin 65536) :
    (Kv m ρ c main_v115 : Vec Ideal S131072 .f32) (ix1 (rowOf b q)) = (Kv m ρ c main_v112 : Vec Ideal S2x65536 .f32) (ix2 b q) := by
  have hf : Kv m ρ c main_v115 = W12 m ρ c (Proc.devRef .tc main_v115) := Wend_at12 m ρ c main_v115 (by decide) (Or.inl (by decide))
  have ha : Kv m ρ c main_v112 = W12 m ρ c (Proc.devRef .tc main_v112) := Wend_at12 m ρ c main_v112 (by decide) (Or.inl (by decide))
  rw [hf, ha]
  show StableHlo.after main_part2_ops0 (W11 m ρ c) (Proc.devRef .tc main_v115) (ix1 (rowOf b q)) = StableHlo.after main_part2_ops0 (W11 m ρ c) (Proc.devRef .tc main_v112) (ix2 b q)
  rw [after_cut 30 main_part2_ops0]
  generalize StableHlo.after (List.take 30 main_part2_ops0) (W11 m ρ c) = Vq
  simp only [List.drop_succ_cons, List.drop_zero]
  after_results_simp
  exact reshape_rows2_apply (α := EReal) _ shapeCasts_S2x65536_S131072 b q

/-- Corner 1's flattened area is its area, query by query. -/
theorem flat1_apply (c : Dev nD) (b : Fin 2) (q : Fin 65536) :
    (Kv m ρ c main_v204 : Vec Ideal S131072 .f32) (ix1 (rowOf b q)) = (Kv m ρ c main_v201 : Vec Ideal S2x65536 .f32) (ix2 b q) := by
  have hf : Kv m ρ c main_v204 = W20 m ρ c (Proc.devRef .tc main_v204) := Wend_at20 m ρ c main_v204 (by decide) (Or.inl (by decide))
  have ha : Kv m ρ c main_v201 = W20 m ρ c (Proc.devRef .tc main_v201) := Wend_at20 m ρ c main_v201 (by decide) (Or.inl (by decide))
  rw [hf, ha]
  show StableHlo.after main_part4_ops0 (W19 m ρ c) (Proc.devRef .tc main_v204) (ix1 (rowOf b q)) = StableHlo.after main_part4_ops0 (W19 m ρ c) (Proc.devRef .tc main_v201) (ix2 b q)
  rw [after_cut 28 main_part4_ops0]
  generalize StableHlo.after (List.take 28 main_part4_ops0) (W19 m ρ c) = Vq
  simp only [List.drop_succ_cons, List.drop_zero]
  after_results_simp
  exact reshape_rows2_apply (α := EReal) _ shapeCasts_S2x65536_S131072 b q

/-- Corner 2's flattened area is its area, query by query. -/
theorem flat2_apply (c : Dev nD) (b : Fin 2) (q : Fin 65536) :
    (Kv m ρ c main_v293 : Vec Ideal S131072 .f32) (ix1 (rowOf b q)) = (Kv m ρ c main_v290 : Vec Ideal S2x65536 .f32) (ix2 b q) := by
  have hf : Kv m ρ c main_v293 = W28 m ρ c (Proc.devRef .tc main_v293) := Wend_at28 m ρ c main_v293 (by decide) (Or.inl (by decide))
  have ha : Kv m ρ c main_v290 = W28 m ρ c (Proc.devRef .tc main_v290) := Wend_at28 m ρ c main_v290 (by decide) (Or.inl (by decide))
  rw [hf, ha]
  show StableHlo.after main_part6_ops0 (W27 m ρ c) (Proc.devRef .tc main_v293) (ix1 (rowOf b q)) = StableHlo.after main_part6_ops0 (W27 m ρ c) (Proc.devRef .tc main_v290) (ix2 b q)
  rw [after_cut 26 main_part6_ops0]
  generalize StableHlo.after (List.take 26 main_part6_ops0) (W27 m ρ c) = Vq
  simp only [List.drop_succ_cons, List.drop_zero]
  after_results_simp
  exact reshape_rows2_apply (α := EReal) _ shapeCasts_S2x65536_S131072 b q

/-- Corner 3's flattened area is its area, query by query. -/
theorem flat3_apply (c : Dev nD) (b : Fin 2) (q : Fin 65536) :
    (Kv m ρ c main_v382 : Vec Ideal S131072 .f32) (ix1 (rowOf b q)) = (Kv m ρ c main_v379 : Vec Ideal S2x65536 .f32) (ix2 b q) := by
  have hf : Kv m ρ c main_v382 = W36 m ρ c (Proc.devRef .tc main_v382) := Wend_at36 m ρ c main_v382 (by decide) (Or.inl (by decide))
  have ha : Kv m ρ c main_v379 = W36 m ρ c (Proc.devRef .tc main_v379) := Wend_at36 m ρ c main_v379 (by decide) (Or.inl (by decide))
  rw [hf, ha]
  show StableHlo.after main_part8_ops0 (W35 m ρ c) (Proc.devRef .tc main_v382) (ix1 (rowOf b q)) = StableHlo.after main_part8_ops0 (W35 m ρ c) (Proc.devRef .tc main_v379) (ix2 b q)
  rw [after_cut 24 main_part8_ops0]
  generalize StableHlo.after (List.take 24 main_part8_ops0) (W35 m ρ c) = Vq
  simp only [List.drop_succ_cons, List.drop_zero]
  after_results_simp
  exact reshape_rows2_apply (α := EReal) _ shapeCasts_S2x65536_S131072 b q

/-- The four corners' areas when the entry function returns. -/
def areaK (c : Dev nD) : Fin 4 → FVec Ideal S2x65536 .f32
  | ⟨0, _⟩ => Kv m ρ c main_v112
  | ⟨1, _⟩ => Kv m ρ c main_v201
  | ⟨2, _⟩ => Kv m ρ c main_v290
  | ⟨3, _⟩ => Kv m ρ c main_v379

/-- The four corners' flattened areas when the entry function returns. -/
def flatK (c : Dev nD) : Fin 4 → FVec Ideal S131072 .f32
  | ⟨0, _⟩ => Kv m ρ c main_v115
  | ⟨1, _⟩ => Kv m ρ c main_v204
  | ⟨2, _⟩ => Kv m ρ c main_v293
  | ⟨3, _⟩ => Kv m ρ c main_v382

theorem flatK_apply (c : Dev nD) (k : Fin 4) (b : Fin 2) (q : Fin 65536) :
    flatK m ρ c k (ix1 (rowOf b q)) = areaK m ρ c k (ix2 b q) := by
  match k with
  | ⟨0, _⟩ => exact flat0_apply m ρ c b q
  | ⟨1, _⟩ => exact flat1_apply m ρ c b q
  | ⟨2, _⟩ => exact flat2_apply m ρ c b q
  | ⟨3, _⟩ => exact flat3_apply m ρ c b q

/-- The weights' array is the weight function of the four flattened areas. -/
theorem wgt_eq (c : Dev nD) :
    (Kv m ρ c main_v403 : Vec Ideal S4x131072x1 .f32) = wgtV (flatK m ρ c 0) (flatK m ρ c 1) (flatK m ρ c 2) (flatK m ρ c 3) := by
  have h403 : Kv m ρ c main_v403 = W36 m ρ c (Proc.devRef .tc main_v403) :=
    Wend_at36 m ρ c main_v403 (by decide) (Or.inr ⟨2, rfl, rfl⟩)
  have h115 : Kv m ρ c main_v115 = W36 m ρ c (Proc.devRef .tc main_v115) := Wend_at36 m ρ c main_v115 (by decide) (Or.inl (by decide))
  have h204 : Kv m ρ c main_v204 = W36 m ρ c (Proc.devRef .tc main_v204) := Wend_at36 m ρ c main_v204 (by decide) (Or.inl (by decide))
  have h293 : Kv m ρ c main_v293 = W36 m ρ c (Proc.devRef .tc main_v293) := Wend_at36 m ρ c main_v293 (by decide) (Or.inl (by decide))
  have h382 : Kv m ρ c main_v382 = W36 m ρ c (Proc.devRef .tc main_v382) := Wend_at36 m ρ c main_v382 (by decide) (Or.inl (by decide))
  show Kv m ρ c main_v403 = wgtV (Kv m ρ c main_v115) (Kv m ρ c main_v204) (Kv m ρ c main_v293) (Kv m ρ c main_v382)
  rw [h403, h115, h204, h293, h382]
  show StableHlo.after main_part8_ops0 (W35 m ρ c) (Proc.devRef .tc main_v403)
    = wgtV (StableHlo.after main_part8_ops0 (W35 m ρ c) (Proc.devRef .tc main_v115)) (StableHlo.after main_part8_ops0 (W35 m ρ c) (Proc.devRef .tc main_v204))
        (StableHlo.after main_part8_ops0 (W35 m ρ c) (Proc.devRef .tc main_v293)) (StableHlo.after main_part8_ops0 (W35 m ρ c) (Proc.devRef .tc main_v382))
  rw [after_cut 35 main_part8_ops0]
  generalize StableHlo.after (List.take 35 main_part8_ops0) (W35 m ρ c) = Vq
  rw [part8_wgt, part8_keep115, part8_keep204, part8_keep293, part8_keep382]

/-- THE WEIGHT the second kernel gives corner `k` at query `(b, q)`: the area of corner `3 − k` over zero plus the four
    corners' areas added in order. -/
theorem wgt4_apply (c : Dev nD) (k : Fin 4) (b : Fin 2) (q : Fin 65536) :
    (Kv m ρ c main_v403 : Vec Ideal S4x131072x1 .f32) (ix3 k (rowOf b q) 0)
      = Ideal.div (areaK m ρ c k.rev (ix2 b q))
          (Cert.Spec.zf + (areaK m ρ c 0 (ix2 b q) + areaK m ρ c 1 (ix2 b q) + areaK m ρ c 2 (ix2 b q) + areaK m ρ c 3 (ix2 b q))) := by
  rw [wgt_eq, wgtV_apply (flatK m ρ c), flatK_apply, flatK_apply, flatK_apply, flatK_apply, flatK_apply]

/-- The same with the total written as a sum over the four corners. -/
theorem wgt4_apply_sum (c : Dev nD) (k : Fin 4) (b : Fin 2) (q : Fin 65536) :
    (Kv m ρ c main_v403 : Vec Ideal S4x131072x1 .f32) (ix3 k (rowOf b q) 0)
      = Ideal.div (areaK m ρ c k.rev (ix2 b q)) (Cert.Spec.zf + ∑ k' : Fin 4, areaK m ρ c k' (ix2 b q)) := by
  rw [wgt4_apply, Fin.sum_univ_four]

/-- THE MEAN the entry function returns is the closing function of the unflattened result. -/
theorem mean_eq (c : Dev nD) : (Kv m ρ c main_v413 : Vec Ideal S_ .f32) = tailK (Kv m ρ c main_v410) := by
  show StableHlo.after main_part8_ops1 (W37 m ρ c) (Proc.devRef .tc main_v413) = tailK (StableHlo.after main_part8_ops1 (W37 m ρ c) (Proc.devRef .tc main_v410))
  generalize W37 m ρ c = Vp
  after_results_simp
  rfl

end AtReturn

end Cert.KernelIdeal.Hand

end
-- ==== Proof.KReadD.lean ====
import proofs.«100126_j36189394436483_2_alg».proof.Proof.KReadK
import Idealize.ShloMosaic.Lib.StableHlo.Run
import Idealize.ShloMosaic.Lib.Pipeline.Frame

/-!
# The second region's small operands, read when the entry function returns

Three of the second region's input arrays are pure rearrangements of earlier buffers. The relative inputs,
`[4, 131072, 4]`, stack the four corners: corner `k`'s slab holds, at query row `rowOf b q`, the corner's
relative coordinates in columns 0 and 1 and its relative cell in columns 2 and 3. The lower weights are the last
four rows of the first layer's weight matrix. The biases are the bias vectors given a leading unit axis. Each is
read at one index, at the contents the buffers hold when the entry function returns. Everything is at the ideal
values.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## A vector as a one-row matrix -/

/-- `[n] → [1, n]`: the one row is the vector. -/
theorem reshape_row_apply {α : Type} {n : Nat} (x : (⟨1, ![n]⟩ : Shape).Idx → α)
    (h : (⟨1, ![n]⟩ : Shape).ShapeCasts ⟨2, ![1, n]⟩) (u : Fin 1) (j : Fin n) :
    shapeCast ⟨2, ![1, n]⟩ x h (ix2 u j) = x (ix1 j) :=
  shapeCast_apply x h _ _ (by
    rw [Shape.rowMajor_val_two, Shape.rowMajor_val_one]
    show j.val = u.val * n + j.val
    have hu : u.val = 0 := by omega
    rw [hu, Nat.zero_mul, Nat.zero_add])

/-! ## One stretch at a time, from any contents

Each lemma reads one buffer right after the stretch of host operations that writes it, in terms of the contents
`V` the stretch starts from. -/

section Stretches
variable (V : Valuation τ sig (Elt Ideal))

/-- The first layer's lower weights are the last four rows of the whole weight matrix. -/
theorem stretch_w0r (i : Fin 4) (j : Fin 256) :
    (StableHlo.after main_part0_ops0 V (Proc.devRef .tc main_v1) : Vec Ideal S4x256 .f32) (ix2 i j)
      = (V (Proc.devRef .tc main_arg3) : Vec Ideal S580x256 .f32) (ix2 (Fin.natAdd 576 i) j) := by
  have e : StableHlo.after main_part0_ops0 V (Proc.devRef .tc main_v1)
      = extractStridedSlice S4x256 ![576, 0] (V (Proc.devRef .tc main_arg3)) slices_S580x256_S4x256_576_0 := by
    after_results
  rw [e]; exact slice_w0_bot_apply _ _ i j

/-- A corner's four relative inputs, rows flattened, from the pair it concatenates: at query row `rowOf b q`
    columns 0 and 1 are the first operand's, -/
theorem rel_rows_left (x₁ x₂ : Vec Ideal S2x65536x2 .f32) (b : Fin 2) (q : Fin 65536) (i : Fin 2) :
    shapeCast S131072x4 (concatenate S2x65536x4 2 [⟨S2x65536x2, x₁⟩, ⟨S2x65536x2, x₂⟩]
        concatenates_S2x65536x2_S2x65536x2_S2x65536x4_d2) shapeCasts_S2x65536x4_S131072x4
        (ix2 (rowOf b q) (Fin.castAdd 2 i)) = x₁ (ix3 b q i) := by
  rw [reshape_rows3_apply, concat_rel_left_apply]

/-- and columns 2 and 3 the second operand's columns 0 and 1. -/
theorem rel_rows_right (x₁ x₂ : Vec Ideal S2x65536x2 .f32) (b : Fin 2) (q : Fin 65536) (i : Fin 2) :
    shapeCast S131072x4 (concatenate S2x65536x4 2 [⟨S2x65536x2, x₁⟩, ⟨S2x65536x2, x₂⟩]
        concatenates_S2x65536x2_S2x65536x2_S2x65536x4_d2) shapeCasts_S2x65536x4_S131072x4
        (ix2 (rowOf b q) (Fin.natAdd 2 i)) = x₂ (ix3 b q i) := by
  rw [reshape_rows3_apply, concat_rel_right_apply]

/-- Corner 0's four relative inputs, rows flattened: the pair concatenation of the relative coordinates and the
    relative cell. -/
theorem stretch_rel0 :
    StableHlo.after main_part2_ops0 V (Proc.devRef .tc main_v114)
      = shapeCast S131072x4 (concatenate S2x65536x4 2
          [⟨S2x65536x2, StableHlo.after main_part2_ops0 V (Proc.devRef .tc main_v100)⟩,
           ⟨S2x65536x2, StableHlo.after main_part2_ops0 V (Proc.devRef .tc main_v103)⟩]
          concatenates_S2x65536x2_S2x65536x2_S2x65536x4_d2) shapeCasts_S2x65536x4_S131072x4 := by
  after_results_simp
  first | rfl | fail "rel0: rfl"

/-- Corner 1's. -/
theorem stretch_rel1 :
    StableHlo.after main_part4_ops0 V (Proc.devRef .tc main_v203)
      = shapeCast S131072x4 (concatenate S2x65536x4 2
          [⟨S2x65536x2, StableHlo.after main_part4_ops0 V (Proc.devRef .tc main_v189)⟩,
           ⟨S2x65536x2, StableHlo.after main_part4_ops0 V (Proc.devRef .tc main_v192)⟩]
          concatenates_S2x65536x2_S2x65536x2_S2x65536x4_d2) shapeCasts_S2x65536x4_S131072x4 := by
  after_results_simp
  first | rfl | fail "rel1: rfl"

/-- Corner 2's. -/
theorem stretch_rel2 :
    StableHlo.after main_part6_ops0 V (Proc.devRef .tc main_v292)
      = shapeCast S131072x4 (concatenate S2x65536x4 2
          [⟨S2x65536x2, StableHlo.after main_part6_ops0 V (Proc.devRef .tc main_v278)⟩,
           ⟨S2x65536x2, StableHlo.after main_part6_ops0 V (Proc.devRef .tc main_v281)⟩]
          concatenates_S2x65536x2_S2x65536x2_S2x65536x4_d2) shapeCasts_S2x65536x4_S131072x4 := by
  after_results_simp
  first | rfl | fail "rel2: rfl"

/-- Corner 3's, in the last stretch before the second region. -/
theorem stretch_rel3 :
    StableHlo.after main_part8_ops0 V (Proc.devRef .tc main_v381)
      = shapeCast S131072x4 (concatenate S2x65536x4 2
          [⟨S2x65536x2, StableHlo.after main_part8_ops0 V (Proc.devRef .tc main_v367)⟩,
           ⟨S2x65536x2, StableHlo.after main_part8_ops0 V (Proc.devRef .tc main_v370)⟩]
          concatenates_S2x65536x2_S2x65536x2_S2x65536x4_d2) shapeCasts_S2x65536x4_S131072x4 := by
  after_results_simp
  first | rfl | fail "rel3: rfl"

/-- The four corners stacked: each corner's flattened relative inputs given a leading unit axis, the four slabs
    concatenated along it. Corners 0, 1 and 2 come from earlier stretches, corner 3 from this one. -/
theorem stretch_rel4 :
    StableHlo.after main_part8_ops0 V (Proc.devRef .tc main_v392)
      = concatenate S4x131072x4 0
          [⟨S1x131072x4, broadcastInDim S1x131072x4 ![1, 2] bcast_S131072x4_S1x131072x4_1_2 (V (Proc.devRef .tc main_v114))⟩,
           ⟨S1x131072x4, broadcastInDim S1x131072x4 ![1, 2] bcast_S131072x4_S1x131072x4_1_2 (V (Proc.devRef .tc main_v203))⟩,
           ⟨S1x131072x4, broadcastInDim S1x131072x4 ![1, 2] bcast_S131072x4_S1x131072x4_1_2 (V (Proc.devRef .tc main_v292))⟩,
           ⟨S1x131072x4, broadcastInDim S1x131072x4 ![1, 2] bcast_S131072x4_S1x131072x4_1_2
              (StableHlo.after main_part8_ops0 V (Proc.devRef .tc main_v381))⟩]
          concatenates_S1x131072x4_S1x131072x4_S1x131072x4_S1x131072x4_S4x131072x4_d0 := by
  after_results_simp
  first | rfl | fail "rel4: rfl"

/-- A bias as a one-row matrix: the first hidden layer's, -/
theorem stretch_bias404 (j : Fin 256) :
    (StableHlo.after main_part8_ops0 V (Proc.devRef .tc main_v404) : Vec Ideal S1x256 .f32) (ix2 0 j)
      = (V (Proc.devRef .tc main_arg4) : Vec Ideal S256 .f32) (ix1 j) := by
  have e : StableHlo.after main_part8_ops0 V (Proc.devRef .tc main_v404)
      = shapeCast S1x256 (V (Proc.devRef .tc main_arg4)) shapeCasts_S256_S1x256 := by
    after_results_simp
    first | rfl | fail "bias404: rfl"
  rw [e]; exact reshape_row_apply _ _ 0 j

/-- the second hidden layer's, -/
theorem stretch_bias405 (j : Fin 256) :
    (StableHlo.after main_part8_ops0 V (Proc.devRef .tc main_v405) : Vec Ideal S1x256 .f32) (ix2 0 j)
      = (V (Proc.devRef .tc main_arg6) : Vec Ideal S256 .f32) (ix1 j) := by
  have e : StableHlo.after main_part8_ops0 V (Proc.devRef .tc main_v405)
      = shapeCast S1x256 (V (Proc.devRef .tc main_arg6)) shapeCasts_S256_S1x256 := by
    after_results_simp
    first | rfl | fail "bias405: rfl"
  rw [e]; exact reshape_row_apply _ _ 0 j

/-- the third hidden layer's, -/
theorem stretch_bias406 (j : Fin 256) :
    (StableHlo.after main_part8_ops0 V (Proc.devRef .tc main_v406) : Vec Ideal S1x256 .f32) (ix2 0 j)
      = (V (Proc.devRef .tc main_arg8) : Vec Ideal S256 .f32) (ix1 j) := by
  have e : StableHlo.after main_part8_ops0 V (Proc.devRef .tc main_v406)
      = shapeCast S1x256 (V (Proc.devRef .tc main_arg8)) shapeCasts_S256_S1x256 := by
    after_results_simp
    first | rfl | fail "bias406: rfl"
  rw [e]; exact reshape_row_apply _ _ 0 j

/-- the fourth hidden layer's, -/
theorem stretch_bias407 (j : Fin 256) :
    (StableHlo.after main_part8_ops0 V (Proc.devRef .tc main_v407) : Vec Ideal S1x256 .f32) (ix2 0 j)
      = (V (Proc.devRef .tc main_arg10) : Vec Ideal S256 .f32) (ix1 j) := by
  have e : StableHlo.after main_part8_ops0 V (Proc.devRef .tc main_v407)
      = shapeCast S1x256 (V (Proc.devRef .tc main_arg10)) shapeCasts_S256_S1x256 := by
    after_results_simp
    first | rfl | fail "bias407: rfl"
  rw [e]; exact reshape_row_apply _ _ 0 j

/-- and the output layer's. -/
theorem stretch_bias408 (j : Fin 2) :
    (StableHlo.after main_part8_ops0 V (Proc.devRef .tc main_v408) : Vec Ideal S1x2 .f32) (ix2 0 j)
      = (V (Proc.devRef .tc main_arg12) : Vec Ideal S2 .f32) (ix1 j) := by
  have e : StableHlo.after main_part8_ops0 V (Proc.devRef .tc main_v408)
      = shapeCast S1x2 (V (Proc.devRef .tc main_arg12)) shapeCasts_S2_S1x2 := by
    after_results_simp
    first | rfl | fail "bias408: rfl"
  rw [e]; exact reshape_row_apply _ _ 0 j

/-- Four flattened arrays, each given a leading unit axis, stacked along it: slab `k` at row `r` is the
    `k`-th array's row `r`. -/
theorem stack4_apply (u : Fin 4 → Vec Ideal S131072x4 .f32) (k : Fin 4) (r : Fin 131072) (i : Fin 4) :
    concatenate S4x131072x4 0
        [⟨S1x131072x4, broadcastInDim S1x131072x4 ![1, 2] bcast_S131072x4_S1x131072x4_1_2 (u 0)⟩,
         ⟨S1x131072x4, broadcastInDim S1x131072x4 ![1, 2] bcast_S131072x4_S1x131072x4_1_2 (u 1)⟩,
         ⟨S1x131072x4, broadcastInDim S1x131072x4 ![1, 2] bcast_S131072x4_S1x131072x4_1_2 (u 2)⟩,
         ⟨S1x131072x4, broadcastInDim S1x131072x4 ![1, 2] bcast_S131072x4_S1x131072x4_1_2 (u 3)⟩]
        concatenates_S1x131072x4_S1x131072x4_S1x131072x4_S1x131072x4_S4x131072x4_d0 (ix3 k r i)
      = u k (ix2 r i) :=
  (concat4_slab3_apply (fun k => broadcastInDim S1x131072x4 ![1, 2] bcast_S131072x4_S1x131072x4_1_2 (u k))
    concatenates_S1x131072x4_S1x131072x4_S1x131072x4_S1x131072x4_S4x131072x4_d0 k r i).trans
    (bcast_lead3_apply (u k) bcast_S131072x4_S1x131072x4_1_2 0 r i)

/-- The same with the four arrays named one by one: slab 0, -/
theorem stack4_apply0 (a₀ a₁ a₂ a₃ : Vec Ideal S131072x4 .f32) (r : Fin 131072) (i : Fin 4) :
    concatenate S4x131072x4 0
        [⟨S1x131072x4, broadcastInDim S1x131072x4 ![1, 2] bcast_S131072x4_S1x131072x4_1_2 a₀⟩,
         ⟨S1x131072x4, broadcastInDim S1x131072x4 ![1, 2] bcast_S131072x4_S1x131072x4_1_2 a₁⟩,
         ⟨S1x131072x4, broadcastInDim S1x131072x4 ![1, 2] bcast_S131072x4_S1x131072x4_1_2 a₂⟩,
         ⟨S1x131072x4, broadcastInDim S1x131072x4 ![1, 2] bcast_S131072x4_S1x131072x4_1_2 a₃⟩]
        concatenates_S1x131072x4_S1x131072x4_S1x131072x4_S1x131072x4_S4x131072x4_d0 (ix3 0 r i)
      = a₀ (ix2 r i) := stack4_apply ![a₀, a₁, a₂, a₃] 0 r i
/-- slab 1, -/
theorem stack4_apply1 (a₀ a₁ a₂ a₃ : Vec Ideal S131072x4 .f32) (r : Fin 131072) (i : Fin 4) :
    concatenate S4x131072x4 0
        [⟨S1x131072x4, broadcastInDim S1x131072x4 ![1, 2] bcast_S131072x4_S1x131072x4_1_2 a₀⟩,
         ⟨S1x131072x4, broadcastInDim S1x131072x4 ![1, 2] bcast_S131072x4_S1x131072x4_1_2 a₁⟩,
         ⟨S1x131072x4, broadcastInDim S1x131072x4 ![1, 2] bcast_S131072x4_S1x131072x4_1_2 a₂⟩,
         ⟨S1x131072x4, broadcastInDim S1x131072x4 ![1, 2] bcast_S131072x4_S1x131072x4_1_2 a₃⟩]
        concatenates_S1x131072x4_S1x131072x4_S1x131072x4_S1x131072x4_S4x131072x4_d0 (ix3 1 r i)
      = a₁ (ix2 r i) := stack4_apply ![a₀, a₁, a₂, a₃] 1 r i
/-- slab 2, -/
theorem stack4_apply2 (a₀ a₁ a₂ a₃ : Vec Ideal S131072x4 .f32) (r : Fin 131072) (i : Fin 4) :
    concatenate S4x131072x4 0
        [⟨S1x131072x4, broadcastInDim S1x131072x4 ![1, 2] bcast_S131072x4_S1x131072x4_1_2 a₀⟩,
         ⟨S1x131072x4, broadcastInDim S1x131072x4 ![1, 2] bcast_S131072x4_S1x131072x4_1_2 a₁⟩,
         ⟨S1x131072x4, broadcastInDim S1x131072x4 ![1, 2] bcast_S131072x4_S1x131072x4_1_2 a₂⟩,
         ⟨S1x131072x4, broadcastInDim S1x131072x4 ![1, 2] bcast_S131072x4_S1x131072x4_1_2 a₃⟩]
        concatenates_S1x131072x4_S1x131072x4_S1x131072x4_S1x131072x4_S4x131072x4_d0 (ix3 2 r i)
      = a₂ (ix2 r i) := stack4_apply ![a₀, a₁, a₂, a₃] 2 r i
/-- slab 3. -/
theorem stack4_apply3 (a₀ a₁ a₂ a₃ : Vec Ideal S131072x4 .f32) (r : Fin 131072) (i : Fin 4) :
    concatenate S4x131072x4 0
        [⟨S1x131072x4, broadcastInDim S1x131072x4 ![1, 2] bcast_S131072x4_S1x131072x4_1_2 a₀⟩,
         ⟨S1x131072x4, broadcastInDim S1x131072x4 ![1, 2] bcast_S131072x4_S1x131072x4_1_2 a₁⟩,
         ⟨S1x131072x4, broadcastInDim S1x131072x4 ![1, 2] bcast_S131072x4_S1x131072x4_1_2 a₂⟩,
         ⟨S1x131072x4, broadcastInDim S1x131072x4 ![1, 2] bcast_S131072x4_S1x131072x4_1_2 a₃⟩]
        concatenates_S1x131072x4_S1x131072x4_S1x131072x4_S1x131072x4_S4x131072x4_d0 (ix3 3 r i)
      = a₃ (ix2 r i) := stack4_apply ![a₀, a₁, a₂, a₃] 3 r i

end Stretches

/-! ## Read when the entry function returns -/

section Chain
variable (m : (ℓ : Loc nD τ sig) → Buf (Elt Ideal) ℓ) (ρ : Dev nD → PrngReg) (c : Dev nD)

/-- The lower weights when the entry function returns: the last four rows of the weight matrix. They are an input
    window's array of the second region, which never writes it back. -/
theorem w0r_apply (i : Fin 4) (j : Fin 256) :
    (Kv m ρ c main_v1 : Vec Ideal S4x256 .f32) (ix2 i j)
      = (Kv m ρ c main_arg3 : Vec Ideal S580x256 .f32) (ix2 (Fin.natAdd 576 i) j) := by
  have e1 : Kv m ρ c main_v1 = W1 m ρ c (Proc.devRef .tc main_v1) :=
    Wend_at1 m ρ c main_v1 (by decide) (.inr ⟨3, rfl, rfl⟩) (.inl (by decide))
  have e3 : Kv m ρ c main_arg3 = W0 m ρ c (Proc.devRef .tc main_arg3) :=
    Wend_at0 m ρ c main_arg3 (by decide) (.inl (by decide)) (.inl (by decide))
  refine (congrFun e1 _).trans ?_
  refine (stretch_w0r (W0 m ρ c) i j).trans ?_
  exact (congrFun e3 _).symm

/-! ### The biases: each a bias vector as one row

Each one-row matrix is an input window's array of the second region, written by the last stretch before it; the
bias vectors are arguments, which nothing writes. -/

/-- The first hidden layer's bias as one row, -/
theorem bias_apply_404 (j : Fin 256) :
    (Kv m ρ c main_v404 : Vec Ideal S1x256 .f32) (ix2 0 j) = (Kv m ρ c main_arg4 : Vec Ideal S256 .f32) (ix1 j) := by
  have e : Kv m ρ c main_v404 = W36 m ρ c (Proc.devRef .tc main_v404) :=
    Wend_at36 m ρ c main_v404 (by decide) (.inr ⟨4, rfl, rfl⟩)
  have ea : Kv m ρ c main_arg4 = W35 m ρ c (Proc.devRef .tc main_arg4) :=
    Wend_at35 m ρ c main_arg4 (by decide) (.inl (by decide))
  refine (congrFun e _).trans ?_
  refine (stretch_bias404 (W35 m ρ c) j).trans ?_
  exact (congrFun ea _).symm

/-- the second's, -/
theorem bias_apply_405 (j : Fin 256) :
    (Kv m ρ c main_v405 : Vec Ideal S1x256 .f32) (ix2 0 j) = (Kv m ρ c main_arg6 : Vec Ideal S256 .f32) (ix1 j) := by
  have e : Kv m ρ c main_v405 = W36 m ρ c (Proc.devRef .tc main_v405) :=
    Wend_at36 m ρ c main_v405 (by decide) (.inr ⟨6, rfl, rfl⟩)
  have ea : Kv m ρ c main_arg6 = W35 m ρ c (Proc.devRef .tc main_arg6) :=
    Wend_at35 m ρ c main_arg6 (by decide) (.inl (by decide))
  refine (congrFun e _).trans ?_
  refine (stretch_bias405 (W35 m ρ c) j).trans ?_
  exact (congrFun ea _).symm

/-- the third's, -/
theorem bias_apply_406 (j : Fin 256) :
    (Kv m ρ c main_v406 : Vec Ideal S1x256 .f32) (ix2 0 j) = (Kv m ρ c main_arg8 : Vec Ideal S256 .f32) (ix1 j) := by
  have e : Kv m ρ c main_v406 = W36 m ρ c (Proc.devRef .tc main_v406) :=
    Wend_at36 m ρ c main_v406 (by decide) (.inr ⟨8, rfl, rfl⟩)
  have ea : Kv m ρ c main_arg8 = W35 m ρ c (Proc.devRef .tc main_arg8) :=
    Wend_at35 m ρ c main_arg8 (by decide) (.inl (by decide))
  refine (congrFun e _).trans ?_
  refine (stretch_bias406 (W35 m ρ c) j).trans ?_
  exact (congrFun ea _).symm

/-- the fourth's, -/
theorem bias_apply_407 (j : Fin 256) :
    (Kv m ρ c main_v407 : Vec Ideal S1x256 .f32) (ix2 0 j) = (Kv m ρ c main_arg10 : Vec Ideal S256 .f32) (ix1 j) := by
  have e : Kv m ρ c main_v407 = W36 m ρ c (Proc.devRef .tc main_v407) :=
    Wend_at36 m ρ c main_v407 (by decide) (.inr ⟨10, rfl, rfl⟩)
  have ea : Kv m ρ c main_arg10 = W35 m ρ c (Proc.devRef .tc main_arg10) :=
    Wend_at35 m ρ c main_arg10 (by decide) (.inl (by decide))
  refine (congrFun e _).trans ?_
  refine (stretch_bias407 (W35 m ρ c) j).trans ?_
  exact (congrFun ea _).symm

/-- and the output layer's. -/
theorem bias_apply_408 (j : Fin 2) :
    (Kv m ρ c main_v408 : Vec Ideal S1x2 .f32) (ix2 0 j) = (Kv m ρ c main_arg12 : Vec Ideal S2 .f32) (ix1 j) := by
  have e : Kv m ρ c main_v408 = W36 m ρ c (Proc.devRef .tc main_v408) :=
    Wend_at36 m ρ c main_v408 (by decide) (.inr ⟨12, rfl, rfl⟩)
  have ea : Kv m ρ c main_arg12 = W35 m ρ c (Proc.devRef .tc main_arg12) :=
    Wend_at35 m ρ c main_arg12 (by decide) (.inl (by decide))
  refine (congrFun e _).trans ?_
  refine (stretch_bias408 (W35 m ρ c) j).trans ?_
  exact (congrFun ea _).symm

/-! ### The stacked relative inputs -/

/-- The stacked relative inputs are an input window's array of the second region: what the region is entered from
    is what is there at the end. -/
theorem rel4_at36 : Kv m ρ c main_v392 = W36 m ρ c (Proc.devRef .tc main_v392) :=
  Wend_at36 m ρ c main_v392 (by decide) (.inr ⟨1, rfl, rfl⟩)

/-- Corner 0's slab, columns 0 and 1: the corner's relative coordinates. -/
theorem rel4_coord0 (b : Fin 2) (q : Fin 65536) (i : Fin 2) :
    (Kv m ρ c main_v392 : Vec Ideal S4x131072x4 .f32) (ix3 0 (rowOf b q) (Fin.castAdd 2 i))
      = (Kv m ρ c main_v100 : Vec Ideal S2x65536x2 .f32) (ix3 b q i) := by
  have eflat : W35 m ρ c (Proc.devRef .tc main_v114) = W12 m ρ c (Proc.devRef .tc main_v114) :=
    (Wend_at35 m ρ c main_v114 (by decide) (.inl (by decide))).symm.trans
      (Wend_at12 m ρ c main_v114 (by decide) (.inl (by decide)))
  have esrc : Kv m ρ c main_v100 = W12 m ρ c (Proc.devRef .tc main_v100) :=
    Wend_at12 m ρ c main_v100 (by decide) (.inl (by decide))
  refine (congrFun (rel4_at36 m ρ c) _).trans ?_
  refine (congrFun (stretch_rel4 (W35 m ρ c)) _).trans ?_
  refine (stack4_apply0 _ _ _ _ (rowOf b q) (Fin.castAdd 2 i)).trans ?_
  refine (congrFun eflat _).trans ?_
  refine (congrFun (stretch_rel0 (W11 m ρ c)) _).trans ?_
  refine (rel_rows_left _ _ b q i).trans ?_
  exact (congrFun esrc _).symm

/-- Corner 0's slab, columns 2 and 3: the corner's relative cell. -/
theorem rel4_cell0 (b : Fin 2) (q : Fin 65536) (i : Fin 2) :
    (Kv m ρ c main_v392 : Vec Ideal S4x131072x4 .f32) (ix3 0 (rowOf b q) (Fin.natAdd 2 i))
      = (Kv m ρ c main_v103 : Vec Ideal S2x65536x2 .f32) (ix3 b q i) := by
  have eflat : W35 m ρ c (Proc.devRef .tc main_v114) = W12 m ρ c (Proc.devRef .tc main_v114) :=
    (Wend_at35 m ρ c main_v114 (by decide) (.inl (by decide))).symm.trans
      (Wend_at12 m ρ c main_v114 (by decide) (.inl (by decide)))
  have esrc : Kv m ρ c main_v103 = W12 m ρ c (Proc.devRef .tc main_v103) :=
    Wend_at12 m ρ c main_v103 (by decide) (.inl (by decide))
  refine (congrFun (rel4_at36 m ρ c) _).trans ?_
  refine (congrFun (stretch_rel4 (W35 m ρ c)) _).trans ?_
  refine (stack4_apply0 _ _ _ _ (rowOf b q) (Fin.natAdd 2 i)).trans ?_
  refine (congrFun eflat _).trans ?_
  refine (congrFun (stretch_rel0 (W11 m ρ c)) _).trans ?_
  refine (rel_rows_right _ _ b q i).trans ?_
  exact (congrFun esrc _).symm

/-- Corner 1's slab, columns 0 and 1: the corner's relative coordinates. -/
theorem rel4_coord1 (b : Fin 2) (q : Fin 65536) (i : Fin 2) :
    (Kv m ρ c main_v392 : Vec Ideal S4x131072x4 .f32) (ix3 1 (rowOf b q) (Fin.castAdd 2 i))
      = (Kv m ρ c main_v189 : Vec Ideal S2x65536x2 .f32) (ix3 b q i) := by
  have eflat : W35 m ρ c (Proc.devRef .tc main_v203) = W20 m ρ c (Proc.devRef .tc main_v203) :=
    (Wend_at35 m ρ c main_v203 (by decide) (.inl (by decide))).symm.trans
      (Wend_at20 m ρ c main_v203 (by decide) (.inl (by decide)))
  have esrc : Kv m ρ c main_v189 = W20 m ρ c (Proc.devRef .tc main_v189) :=
    Wend_at20 m ρ c main_v189 (by decide) (.inl (by decide))
  refine (congrFun (rel4_at36 m ρ c) _).trans ?_
  refine (congrFun (stretch_rel4 (W35 m ρ c)) _).trans ?_
  refine (stack4_apply1 _ _ _ _ (rowOf b q) (Fin.castAdd 2 i)).trans ?_
  refine (congrFun eflat _).trans ?_
  refine (congrFun (stretch_rel1 (W19 m ρ c)) _).trans ?_
  refine (rel_rows_left _ _ b q i).trans ?_
  exact (congrFun esrc _).symm

/-- Corner 1's slab, columns 2 and 3: the corner's relative cell. -/
theorem rel4_cell1 (b : Fin 2) (q : Fin 65536) (i : Fin 2) :
    (Kv m ρ c main_v392 : Vec Ideal S4x131072x4 .f32) (ix3 1 (rowOf b q) (Fin.natAdd 2 i))
      = (Kv m ρ c main_v192 : Vec Ideal S2x65536x2 .f32) (ix3 b q i) := by
  have eflat : W35 m ρ c (Proc.devRef .tc main_v203) = W20 m ρ c (Proc.devRef .tc main_v203) :=
    (Wend_at35 m ρ c main_v203 (by decide) (.inl (by decide))).symm.trans
      (Wend_at20 m ρ c main_v203 (by decide) (.inl (by decide)))
  have esrc : Kv m ρ c main_v192 = W20 m ρ c (Proc.devRef .tc main_v192) :=
    Wend_at20 m ρ c main_v192 (by decide) (.inl (by decide))
  refine (congrFun (rel4_at36 m ρ c) _).trans ?_
  refine (congrFun (stretch_rel4 (W35 m ρ c)) _).trans ?_
  refine (stack4_apply1 _ _ _ _ (rowOf b q) (Fin.natAdd 2 i)).trans ?_
  refine (congrFun eflat _).trans ?_
  refine (congrFun (stretch_rel1 (W19 m ρ c)) _).trans ?_
  refine (rel_rows_right _ _ b q i).trans ?_
  exact (congrFun esrc _).symm

/-- Corner 2's slab, columns 0 and 1: the corner's relative coordinates. -/
theorem rel4_coord2 (b : Fin 2) (q : Fin 65536) (i : Fin 2) :
    (Kv m ρ c main_v392 : Vec Ideal S4x131072x4 .f32) (ix3 2 (rowOf b q) (Fin.castAdd 2 i))
      = (Kv m ρ c main_v278 : Vec Ideal S2x65536x2 .f32) (ix3 b q i) := by
  have eflat : W35 m ρ c (Proc.devRef .tc main_v292) = W28 m ρ c (Proc.devRef .tc main_v292) :=
    (Wend_at35 m ρ c main_v292 (by decide) (.inl (by decide))).symm.trans
      (Wend_at28 m ρ c main_v292 (by decide) (.inl (by decide)))
  have esrc : Kv m ρ c main_v278 = W28 m ρ c (Proc.devRef .tc main_v278) :=
    Wend_at28 m ρ c main_v278 (by decide) (.inl (by decide))
  refine (congrFun (rel4_at36 m ρ c) _).trans ?_
  refine (congrFun (stretch_rel4 (W35 m ρ c)) _).trans ?_
  refine (stack4_apply2 _ _ _ _ (rowOf b q) (Fin.castAdd 2 i)).trans ?_
  refine (congrFun eflat _).trans ?_
  refine (congrFun (stretch_rel2 (W27 m ρ c)) _).trans ?_
  refine (rel_rows_left _ _ b q i).trans ?_
  exact (congrFun esrc _).symm

/-- Corner 2's slab, columns 2 and 3: the corner's relative cell. -/
theorem rel4_cell2 (b : Fin 2) (q : Fin 65536) (i : Fin 2) :
    (Kv m ρ c main_v392 : Vec Ideal S4x131072x4 .f32) (ix3 2 (rowOf b q) (Fin.natAdd 2 i))
      = (Kv m ρ c main_v281 : Vec Ideal S2x65536x2 .f32) (ix3 b q i) := by
  have eflat : W35 m ρ c (Proc.devRef .tc main_v292) = W28 m ρ c (Proc.devRef .tc main_v292) :=
    (Wend_at35 m ρ c main_v292 (by decide) (.inl (by decide))).symm.trans
      (Wend_at28 m ρ c main_v292 (by decide) (.inl (by decide)))
  have esrc : Kv m ρ c main_v281 = W28 m ρ c (Proc.devRef .tc main_v281) :=
    Wend_at28 m ρ c main_v281 (by decide) (.inl (by decide))
  refine (congrFun (rel4_at36 m ρ c) _).trans ?_
  refine (congrFun (stretch_rel4 (W35 m ρ c)) _).trans ?_
  refine (stack4_apply2 _ _ _ _ (rowOf b q) (Fin.natAdd 2 i)).trans ?_
  refine (congrFun eflat _).trans ?_
  refine (congrFun (stretch_rel2 (W27 m ρ c)) _).trans ?_
  refine (rel_rows_right _ _ b q i).trans ?_
  exact (congrFun esrc _).symm

/-- Corner 3's slab, columns 0 and 1: the corner's relative coordinates. -/
theorem rel4_coord3 (b : Fin 2) (q : Fin 65536) (i : Fin 2) :
    (Kv m ρ c main_v392 : Vec Ideal S4x131072x4 .f32) (ix3 3 (rowOf b q) (Fin.castAdd 2 i))
      = (Kv m ρ c main_v367 : Vec Ideal S2x65536x2 .f32) (ix3 b q i) := by
  have esrc : Kv m ρ c main_v367 = W36 m ρ c (Proc.devRef .tc main_v367) :=
    Wend_at36 m ρ c main_v367 (by decide) (.inl (by decide))
  refine (congrFun (rel4_at36 m ρ c) _).trans ?_
  refine (congrFun (stretch_rel4 (W35 m ρ c)) _).trans ?_
  refine (stack4_apply3 _ _ _ _ (rowOf b q) (Fin.castAdd 2 i)).trans ?_
  refine (congrFun (stretch_rel3 (W35 m ρ c)) _).trans ?_
  refine (rel_rows_left _ _ b q i).trans ?_
  exact (congrFun esrc _).symm

/-- Corner 3's slab, columns 2 and 3: the corner's relative cell. -/
theorem rel4_cell3 (b : Fin 2) (q : Fin 65536) (i : Fin 2) :
    (Kv m ρ c main_v392 : Vec Ideal S4x131072x4 .f32) (ix3 3 (rowOf b q) (Fin.natAdd 2 i))
      = (Kv m ρ c main_v370 : Vec Ideal S2x65536x2 .f32) (ix3 b q i) := by
  have esrc : Kv m ρ c main_v370 = W36 m ρ c (Proc.devRef .tc main_v370) :=
    Wend_at36 m ρ c main_v370 (by decide) (.inl (by decide))
  refine (congrFun (rel4_at36 m ρ c) _).trans ?_
  refine (congrFun (stretch_rel4 (W35 m ρ c)) _).trans ?_
  refine (stack4_apply3 _ _ _ _ (rowOf b q) (Fin.natAdd 2 i)).trans ?_
  refine (congrFun (stretch_rel3 (W35 m ρ c)) _).trans ?_
  refine (rel_rows_right _ _ b q i).trans ?_
  exact (congrFun esrc _).symm

/-- The four corners at once: columns 0 and 1 of corner `k`'s slab are the corner's relative coordinates, -/
theorem rel4_coord (k : Fin 4) (b : Fin 2) (q : Fin 65536) (i : Fin 2) :
    (Kv m ρ c main_v392 : Vec Ideal S4x131072x4 .f32) (ix3 k (rowOf b q) (Fin.castAdd 2 i))
      = match k with
        | ⟨0, _⟩ => (Kv m ρ c main_v100 : Vec Ideal S2x65536x2 .f32) (ix3 b q i)
        | ⟨1, _⟩ => (Kv m ρ c main_v189 : Vec Ideal S2x65536x2 .f32) (ix3 b q i)
        | ⟨2, _⟩ => (Kv m ρ c main_v278 : Vec Ideal S2x65536x2 .f32) (ix3 b q i)
        | ⟨3, _⟩ => (Kv m ρ c main_v367 : Vec Ideal S2x65536x2 .f32) (ix3 b q i) :=
  match k with
  | ⟨0, _⟩ => rel4_coord0 m ρ c b q i
  | ⟨1, _⟩ => rel4_coord1 m ρ c b q i
  | ⟨2, _⟩ => rel4_coord2 m ρ c b q i
  | ⟨3, _⟩ => rel4_coord3 m ρ c b q i

/-- and columns 2 and 3 its relative cell. -/
theorem rel4_cell (k : Fin 4) (b : Fin 2) (q : Fin 65536) (i : Fin 2) :
    (Kv m ρ c main_v392 : Vec Ideal S4x131072x4 .f32) (ix3 k (rowOf b q) (Fin.natAdd 2 i))
      = match k with
        | ⟨0, _⟩ => (Kv m ρ c main_v103 : Vec Ideal S2x65536x2 .f32) (ix3 b q i)
        | ⟨1, _⟩ => (Kv m ρ c main_v192 : Vec Ideal S2x65536x2 .f32) (ix3 b q i)
        | ⟨2, _⟩ => (Kv m ρ c main_v281 : Vec Ideal S2x65536x2 .f32) (ix3 b q i)
        | ⟨3, _⟩ => (Kv m ρ c main_v370 : Vec Ideal S2x65536x2 .f32) (ix3 b q i) :=
  match k with
  | ⟨0, _⟩ => rel4_cell0 m ρ c b q i
  | ⟨1, _⟩ => rel4_cell1 m ρ c b q i
  | ⟨2, _⟩ => rel4_cell2 m ρ c b q i
  | ⟨3, _⟩ => rel4_cell3 m ρ c b q i

end Chain

end Cert.KernelIdeal.Hand

end
-- ==== Proof.Core.lean ====
/-
  The one algebraic step of the comparison, over abstract data: if, for each of the four corners, the pre-projected
  values are the products of the first 576 inputs with the first 576 weight rows, the four relative inputs are the
  last four inputs, the small weight matrix is the last four weight rows, and the blending weights agree, then the
  blend of the four predictions computed through the split first layer equals the blend computed through the whole
  first layer.
-/
import proofs.«100126_j36189394436483_2_alg».proof.Proof.Spec

noncomputable section

namespace Cert.Spec

open Idealize.ShloMosaic Idealize.ShloMosaic.ValueIdx

theorem blend_agree
    (w0 : Mat 580 256) (w0r : Mat 4 256) (b0 : Fin 256 → EReal)
    (w1 : Mat 256 256) (b1 : Fin 256 → EReal) (w2 : Mat 256 256) (b2 : Fin 256 → EReal)
    (w3 : Mat 256 256) (b3 : Fin 256 → EReal) (w4 : Mat 256 2) (b4 : Fin 2 → EReal)
    (inp : Fin 4 → Fin 580 → EReal) (proj : Fin 4 → Fin 256 → EReal) (rel : Fin 4 → Fin 4 → EReal)
    (g g' : Fin 4 → EReal)
    (hproj : ∀ k j, proj k j = ∑ i : Fin 576, inp k (Fin.castAdd 4 i) * w0 (ix2 (Fin.castAdd 4 i) j))
    (hrel : ∀ k i, rel k i = inp k (Fin.natAdd 576 i))
    (hw : ∀ i j, w0r (ix2 i j) = w0 (ix2 (Fin.natAdd 576 i) j))
    (hg : ∀ k, g k = g' k) (o : Fin 2) :
    blend4 (fun k => mlpTail w1 b1 w2 b2 w3 b3 w4 b4 (layer0Split w0r b0 (proj k) (rel k))) g o
      = blend4 (fun k => mlpTail w1 b1 w2 b2 w3 b3 w4 b4 (layer0Whole w0 b0 (inp k))) g' o := by
  have h0 : ∀ k, layer0Split w0r b0 (proj k) (rel k) = layer0Whole w0 b0 (inp k) := fun k =>
    funext fun j => layer0_agree w0 w0r b0 (inp k) (proj k) (rel k) (hproj k) (hrel k) hw j
  have hg' : g = g' := funext hg
  subst hg'
  simp only [h0]

/-- The total of four areas accumulated from zero over the four corners is their sum in the order 0, 1, 2, 3. -/
theorem total4 (a : Fin 4 → EReal) : zf + ∑ k : Fin 4, a k = ((a 0 + a 1) + a 2) + a 3 := by
  rw [zf_eq, zero_add, Fin.sum_univ_four]

/-- The same step with each program's own spelling of the weights and biases: once those are known equal, the two
    rows agree under the same four hypotheses. -/
theorem row_agree
    (w0 : Mat 580 256) (b0 : Fin 256 → EReal)
    (w1 : Mat 256 256) (b1 : Fin 256 → EReal) (w2 : Mat 256 256) (b2 : Fin 256 → EReal)
    (w3 : Mat 256 256) (b3 : Fin 256 → EReal) (w4 : Mat 256 2) (b4 : Fin 2 → EReal)
    (kw0r : Mat 4 256) (kb0 : Fin 256 → EReal)
    (kw1 : Mat 256 256) (kb1 : Fin 256 → EReal) (kw2 : Mat 256 256) (kb2 : Fin 256 → EReal)
    (kw3 : Mat 256 256) (kb3 : Fin 256 → EReal) (kw4 : Mat 256 2) (kb4 : Fin 2 → EReal)
    (inp : Fin 4 → Fin 580 → EReal) (proj : Fin 4 → Fin 256 → EReal) (rel : Fin 4 → Fin 4 → EReal)
    (g g' : Fin 4 → EReal)
    (hb0 : kb0 = b0) (hw1 : kw1 = w1) (hb1 : kb1 = b1) (hw2 : kw2 = w2) (hb2 : kb2 = b2)
    (hw3 : kw3 = w3) (hb3 : kb3 = b3) (hw4 : kw4 = w4) (hb4 : kb4 = b4)
    (hproj : ∀ k j, proj k j = ∑ i : Fin 576, inp k (Fin.castAdd 4 i) * w0 (ix2 (Fin.castAdd 4 i) j))
    (hrel : ∀ k i, rel k i = inp k (Fin.natAdd 576 i))
    (hw : ∀ i j, kw0r (ix2 i j) = w0 (ix2 (Fin.natAdd 576 i) j))
    (hg : ∀ k, g k = g' k) (o : Fin 2) :
    blend4 (fun k => mlpTail kw1 kb1 kw2 kb2 kw3 kb3 kw4 kb4 (layer0Split kw0r kb0 (proj k) (rel k))) g o
      = blend4 (fun k => mlpTail w1 b1 w2 b2 w3 b3 w4 b4 (layer0Whole w0 b0 (inp k))) g' o := by
  subst hb0 hw1 hb1 hw2 hb2 hw3 hb3 hw4 hb4
  exact blend_agree w0 kw0r kb0 kw1 kb1 kw2 kb2 kw3 kb3 kw4 kb4 inp proj rel g g' hproj hrel hw hg o

end Cert.Spec

end
-- ==== Proof.BridgeK.lean ====
import proofs.«100126_j36189394436483_2_alg».proof.Proof.KRead
import proofs.«100126_j36189394436483_2_alg».proof.Proof.KReadB
import proofs.«100126_j36189394436483_2_alg».proof.Proof.KReadC
import proofs.«100126_j36189394436483_2_alg».proof.Proof.KReadD
import proofs.«100126_j36189394436483_2_alg».proof.Proof.Core

/-!
# The split program's first result over the named intermediates

Read when the entry function returns, the first result at query `(b, q)` is the blend, over the four corners, of
the network's last four layers applied to the split first layer, where for corner `k`: the pre-projected row is
the product of the unfolded feature map's column, at the pixel the corner's index array names, with the first 576
rows of the first layer's weights; the four relative inputs are the corner's two relative coordinates followed by its
two relative cell sizes; the small weight matrix is the last four rows of the first layer's weights; and the
blending weight is the area of corner `3 − k` over the total of the four areas. Every array on the right is an
argument or one of the per-corner intermediates, read at the end.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Hand.Gather

/-- The last four rows of a 580-row weight matrix, as a matrix of their own. -/
def w0rOf (w0 : Cert.Spec.Mat 580 256) : Cert.Spec.Mat 4 256 :=
  fun ij => w0 (ix2 (Fin.natAdd 576 (ij 0 : Fin 4)) (ij 1 : Fin 256))

theorem w0rOf_apply (w0 : Cert.Spec.Mat 580 256) (i : Fin 4) (j : Fin 256) :
    w0rOf w0 (ix2 i j) = w0 (ix2 (Fin.natAdd 576 i) j) := rfl

variable (m : (ℓ : Loc nD τ sig) → Buf (Elt Ideal) ℓ) (ρ : Dev nD → PrngReg) (c : Dev nD)

/-! ## The buffers read here when the entry function returns, each at its array type -/

/-- The four corners' relative coordinates -/
abbrev Krelcoord0 : Vec Ideal S2x65536x2 .f32 := Kv m ρ c main_v100
abbrev Krelcoord1 : Vec Ideal S2x65536x2 .f32 := Kv m ρ c main_v189
abbrev Krelcoord2 : Vec Ideal S2x65536x2 .f32 := Kv m ρ c main_v278
abbrev Krelcoord3 : Vec Ideal S2x65536x2 .f32 := Kv m ρ c main_v367
/-- and relative cell sizes. -/
abbrev Krelcell0 : Vec Ideal S2x65536x2 .f32 := Kv m ρ c main_v103
abbrev Krelcell1 : Vec Ideal S2x65536x2 .f32 := Kv m ρ c main_v192
abbrev Krelcell2 : Vec Ideal S2x65536x2 .f32 := Kv m ρ c main_v281
abbrev Krelcell3 : Vec Ideal S2x65536x2 .f32 := Kv m ρ c main_v370
/-- The biases and the later layers' weights (arguments of the entry function). -/
abbrev Kb0 : Vec Ideal S256 .f32 := Kv m ρ c main_arg4
abbrev Kw1 : Vec Ideal S256x256 .f32 := Kv m ρ c main_arg5
abbrev Kb1 : Vec Ideal S256 .f32 := Kv m ρ c main_arg6
abbrev Kw2 : Vec Ideal S256x256 .f32 := Kv m ρ c main_arg7
abbrev Kb2 : Vec Ideal S256 .f32 := Kv m ρ c main_arg8
abbrev Kw3 : Vec Ideal S256x256 .f32 := Kv m ρ c main_arg9
abbrev Kb3 : Vec Ideal S256 .f32 := Kv m ρ c main_arg10
abbrev Kw4 : Vec Ideal S256x2 .f32 := Kv m ρ c main_arg11
abbrev Kb4 : Vec Ideal S2 .f32 := Kv m ρ c main_arg12

/-! ## The per-corner intermediates as families over the corner -/

/-- Corner `k`'s index array. -/
def KidxT : Fin 4 → IVec S2x65536x2 32
  | ⟨0, _⟩ => Kidx0 m ρ c
  | ⟨1, _⟩ => Kidx1 m ρ c
  | ⟨2, _⟩ => Kidx2 m ρ c
  | ⟨3, _⟩ => Kidx3 m ρ c
/-- Corner `k`'s relative coordinates. -/
def KrelcoordT : Fin 4 → Vec Ideal S2x65536x2 .f32
  | ⟨0, _⟩ => Krelcoord0 m ρ c
  | ⟨1, _⟩ => Krelcoord1 m ρ c
  | ⟨2, _⟩ => Krelcoord2 m ρ c
  | ⟨3, _⟩ => Krelcoord3 m ρ c
/-- Corner `k`'s relative cell sizes. -/
def KrelcellT : Fin 4 → Vec Ideal S2x65536x2 .f32
  | ⟨0, _⟩ => Krelcell0 m ρ c
  | ⟨1, _⟩ => Krelcell1 m ρ c
  | ⟨2, _⟩ => Krelcell2 m ρ c
  | ⟨3, _⟩ => Krelcell3 m ρ c

theorem KidxT_0 : KidxT m ρ c 0 = Kidx0 m ρ c := rfl
theorem KidxT_1 : KidxT m ρ c 1 = Kidx1 m ρ c := rfl
theorem KidxT_2 : KidxT m ρ c 2 = Kidx2 m ρ c := rfl
theorem KidxT_3 : KidxT m ρ c 3 = Kidx3 m ρ c := rfl
theorem KrelcoordT_0 : KrelcoordT m ρ c 0 = Krelcoord0 m ρ c := rfl
theorem KrelcoordT_1 : KrelcoordT m ρ c 1 = Krelcoord1 m ρ c := rfl
theorem KrelcoordT_2 : KrelcoordT m ρ c 2 = Krelcoord2 m ρ c := rfl
theorem KrelcoordT_3 : KrelcoordT m ρ c 3 = Krelcoord3 m ρ c := rfl
theorem KrelcellT_0 : KrelcellT m ρ c 0 = Krelcell0 m ρ c := rfl
theorem KrelcellT_1 : KrelcellT m ρ c 1 = Krelcell1 m ρ c := rfl
theorem KrelcellT_2 : KrelcellT m ρ c 2 = Krelcell2 m ρ c := rfl
theorem KrelcellT_3 : KrelcellT m ρ c 3 = Krelcell3 m ρ c := rfl

/-- Corner `k`'s pre-projected row at query `(b, q)`: the unfolded feature map's column at the pixel the corner's
    index array names, times the first 576 rows of the first layer's weights. -/
def projRowK (k : Fin 4) (b : Fin 2) (q : Fin 65536) : Fin 256 → EReal := fun j =>
  ∑ i : Fin 576, Kfeatu m ρ c (ix4 b i (gy (KidxT m ρ c k) b q) (gx (KidxT m ρ c k) b q)) * Kw0 m ρ c (ix2 (Fin.castAdd 4 i) j)

/-- Corner `k`'s four relative inputs at query `(b, q)`: its two relative coordinates, then its two relative cell sizes. -/
def relRowK (k : Fin 4) (b : Fin 2) (q : Fin 65536) : Fin 4 → EReal :=
  Fin.addCases (m := 2) (n := 2) (motive := fun _ => EReal)
    (fun i' => KrelcoordT m ρ c k (ix3 b q i')) (fun i' => KrelcellT m ρ c k (ix3 b q i'))

theorem relRowK_coord (k : Fin 4) (b : Fin 2) (q : Fin 65536) (i' : Fin 2) :
    relRowK m ρ c k b q (Fin.castAdd 2 i') = KrelcoordT m ρ c k (ix3 b q i') := Fin.addCases_left _
theorem relRowK_cell (k : Fin 4) (b : Fin 2) (q : Fin 65536) (i' : Fin 2) :
    relRowK m ρ c k b q (Fin.natAdd 2 i') = KrelcellT m ρ c k (ix3 b q i') := Fin.addCases_right _

theorem projRowK_0 (b : Fin 2) (q : Fin 65536) (j : Fin 256) : projRowK m ρ c 0 b q j
    = ∑ i : Fin 576, Kfeatu m ρ c (ix4 b i (gy (Kidx0 m ρ c) b q) (gx (Kidx0 m ρ c) b q)) * Kw0 m ρ c (ix2 (Fin.castAdd 4 i) j) := rfl
theorem relRowK_coord0 (b : Fin 2) (q : Fin 65536) (i' : Fin 2) :
    relRowK m ρ c 0 b q (Fin.castAdd 2 i') = Krelcoord0 m ρ c (ix3 b q i') := relRowK_coord m ρ c 0 b q i'
theorem relRowK_cell0 (b : Fin 2) (q : Fin 65536) (i' : Fin 2) :
    relRowK m ρ c 0 b q (Fin.natAdd 2 i') = Krelcell0 m ρ c (ix3 b q i') := relRowK_cell m ρ c 0 b q i'
theorem projRowK_1 (b : Fin 2) (q : Fin 65536) (j : Fin 256) : projRowK m ρ c 1 b q j
    = ∑ i : Fin 576, Kfeatu m ρ c (ix4 b i (gy (Kidx1 m ρ c) b q) (gx (Kidx1 m ρ c) b q)) * Kw0 m ρ c (ix2 (Fin.castAdd 4 i) j) := rfl
theorem relRowK_coord1 (b : Fin 2) (q : Fin 65536) (i' : Fin 2) :
    relRowK m ρ c 1 b q (Fin.castAdd 2 i') = Krelcoord1 m ρ c (ix3 b q i') := relRowK_coord m ρ c 1 b q i'
theorem relRowK_cell1 (b : Fin 2) (q : Fin 65536) (i' : Fin 2) :
    relRowK m ρ c 1 b q (Fin.natAdd 2 i') = Krelcell1 m ρ c (ix3 b q i') := relRowK_cell m ρ c 1 b q i'
theorem projRowK_2 (b : Fin 2) (q : Fin 65536) (j : Fin 256) : projRowK m ρ c 2 b q j
    = ∑ i : Fin 576, Kfeatu m ρ c (ix4 b i (gy (Kidx2 m ρ c) b q) (gx (Kidx2 m ρ c) b q)) * Kw0 m ρ c (ix2 (Fin.castAdd 4 i) j) := rfl
theorem relRowK_coord2 (b : Fin 2) (q : Fin 65536) (i' : Fin 2) :
    relRowK m ρ c 2 b q (Fin.castAdd 2 i') = Krelcoord2 m ρ c (ix3 b q i') := relRowK_coord m ρ c 2 b q i'
theorem relRowK_cell2 (b : Fin 2) (q : Fin 65536) (i' : Fin 2) :
    relRowK m ρ c 2 b q (Fin.natAdd 2 i') = Krelcell2 m ρ c (ix3 b q i') := relRowK_cell m ρ c 2 b q i'
theorem projRowK_3 (b : Fin 2) (q : Fin 65536) (j : Fin 256) : projRowK m ρ c 3 b q j
    = ∑ i : Fin 576, Kfeatu m ρ c (ix4 b i (gy (Kidx3 m ρ c) b q) (gx (Kidx3 m ρ c) b q)) * Kw0 m ρ c (ix2 (Fin.castAdd 4 i) j) := rfl
theorem relRowK_coord3 (b : Fin 2) (q : Fin 65536) (i' : Fin 2) :
    relRowK m ρ c 3 b q (Fin.castAdd 2 i') = Krelcoord3 m ρ c (ix3 b q i') := relRowK_coord m ρ c 3 b q i'
theorem relRowK_cell3 (b : Fin 2) (q : Fin 65536) (i' : Fin 2) :
    relRowK m ρ c 3 b q (Fin.natAdd 2 i') = Krelcell3 m ρ c (ix3 b q i') := relRowK_cell m ρ c 3 b q i'

/-! ## The pieces of the kernel's input arrays -/

/-- The stacked gathered rows, slab `k` at row `rowOf b q`: corner `k`'s pre-projected row. -/
theorem stack_projRow (k : Fin 4) (b : Fin 2) (q : Fin 65536) :
    (fun j => a1_0 (Kv m ρ) c (ix3 k (rowOf b q) j)) = projRowK m ρ c k b q := by
  funext j
  match k with
  | ⟨0, _⟩ => exact (proj4_apply_0 m ρ c b q j).trans (gathered0_apply m ρ c b q j)
  | ⟨1, _⟩ => exact (proj4_apply_1 m ρ c b q j).trans (gathered1_apply m ρ c b q j)
  | ⟨2, _⟩ => exact (proj4_apply_2 m ρ c b q j).trans (gathered2_apply m ρ c b q j)
  | ⟨3, _⟩ => exact (proj4_apply_3 m ρ c b q j).trans (gathered3_apply m ρ c b q j)

/-- The stacked relative inputs, slab `k` at row `rowOf b q`: corner `k`'s four relative inputs. -/
theorem stack_relRow (k : Fin 4) (b : Fin 2) (q : Fin 65536) :
    (fun i => a1_1 (Kv m ρ) c (ix3 k (rowOf b q) i)) = relRowK m ρ c k b q := by
  funext i
  refine Fin.addCases (m := 2) (n := 2) (motive := fun i => a1_1 (Kv m ρ) c (ix3 k (rowOf b q) i) = relRowK m ρ c k b q i)
    (fun i' => ?_) (fun i' => ?_) i
  · rw [relRowK_coord]
    match k with
    | ⟨0, _⟩ => exact rel4_coord0 m ρ c b q i'
    | ⟨1, _⟩ => exact rel4_coord1 m ρ c b q i'
    | ⟨2, _⟩ => exact rel4_coord2 m ρ c b q i'
    | ⟨3, _⟩ => exact rel4_coord3 m ρ c b q i'
  · rw [relRowK_cell]
    match k with
    | ⟨0, _⟩ => exact rel4_cell0 m ρ c b q i'
    | ⟨1, _⟩ => exact rel4_cell1 m ρ c b q i'
    | ⟨2, _⟩ => exact rel4_cell2 m ρ c b q i'
    | ⟨3, _⟩ => exact rel4_cell3 m ρ c b q i'

/-- The small weight matrix is the last four rows of the first layer's weights. -/
theorem small_w0 : a1_3 (Kv m ρ) c = w0rOf (Kw0 m ρ c) := by
  funext ij
  obtain ⟨i, j, rfl⟩ : ∃ (i : Fin 4) (j : Fin 256), ij = ix2 i j := ⟨ij 0, ij 1, eq_ix2 ij⟩
  exact w0r_apply m ρ c i j

/-! ## The first result -/

/-- THE FIRST RESULT at query `(b, q)`, over the named intermediates and the arguments. -/
theorem ret_normal (b : Fin 2) (q : Fin 65536) (o : Fin 2) :
    (Kv m ρ c main_v410 : Vec Ideal S2x65536x2 .f32) (ix3 b q o)
      = Cert.Spec.blend4 (fun k => Cert.Spec.mlpTail (Kw1 m ρ c) (fun j => Kb1 m ρ c (ix1 j)) (Kw2 m ρ c) (fun j => Kb2 m ρ c (ix1 j))
            (Kw3 m ρ c) (fun j => Kb3 m ρ c (ix1 j)) (Kw4 m ρ c) (fun j => Kb4 m ρ c (ix1 j))
            (Cert.Spec.layer0Split (w0rOf (Kw0 m ρ c)) (fun j => Kb0 m ρ c (ix1 j)) (projRowK m ρ c k b q) (relRowK m ρ c k b q)))
          (fun k => Ideal.div (areaK m ρ c k.rev (ix2 b q)) (Cert.Spec.zf + ∑ k' : Fin 4, areaK m ρ c k' (ix2 b q))) o := by
  have hb0 : (fun j => a1_4 (Kv m ρ) c (ix2 0 j)) = fun j => Kb0 m ρ c (ix1 j) := funext fun j => bias_apply_404 m ρ c j
  have hb1 : (fun j => a1_6 (Kv m ρ) c (ix2 0 j)) = fun j => Kb1 m ρ c (ix1 j) := funext fun j => bias_apply_405 m ρ c j
  have hb2 : (fun j => a1_8 (Kv m ρ) c (ix2 0 j)) = fun j => Kb2 m ρ c (ix1 j) := funext fun j => bias_apply_406 m ρ c j
  have hb3 : (fun j => a1_10 (Kv m ρ) c (ix2 0 j)) = fun j => Kb3 m ρ c (ix1 j) := funext fun j => bias_apply_407 m ρ c j
  have hb4 : (fun j => a1_12 (Kv m ρ) c (ix2 0 j)) = fun j => Kb4 m ρ c (ix1 j) := funext fun j => bias_apply_408 m ρ c j
  have hg : (fun k => a1_2 (Kv m ρ) c (ix3 k (rowOf b q) 0))
      = fun k => Ideal.div (areaK m ρ c k.rev (ix2 b q)) (Cert.Spec.zf + ∑ k' : Fin 4, areaK m ρ c k' (ix2 b q)) :=
    funext fun k => wgt4_apply_sum m ρ c k b q
  have hP : (fun k => Cert.Spec.mlpTail (a1_5 (Kv m ρ) c) (fun j => a1_6 (Kv m ρ) c (ix2 0 j)) (a1_7 (Kv m ρ) c) (fun j => a1_8 (Kv m ρ) c (ix2 0 j)) (a1_9 (Kv m ρ) c) (fun j => a1_10 (Kv m ρ) c (ix2 0 j)) (a1_11 (Kv m ρ) c) (fun j => a1_12 (Kv m ρ) c (ix2 0 j))
          (Cert.Spec.layer0Split (a1_3 (Kv m ρ) c) (fun j => a1_4 (Kv m ρ) c (ix2 0 j)) (fun j => a1_0 (Kv m ρ) c (ix3 k (rowOf b q) j)) (fun i => a1_1 (Kv m ρ) c (ix3 k (rowOf b q) i))))
      = fun k => Cert.Spec.mlpTail (Kw1 m ρ c) (fun j => Kb1 m ρ c (ix1 j)) (Kw2 m ρ c) (fun j => Kb2 m ρ c (ix1 j))
            (Kw3 m ρ c) (fun j => Kb3 m ρ c (ix1 j)) (Kw4 m ρ c) (fun j => Kb4 m ρ c (ix1 j))
            (Cert.Spec.layer0Split (w0rOf (Kw0 m ρ c)) (fun j => Kb0 m ρ c (ix1 j)) (projRowK m ρ c k b q) (relRowK m ρ c k b q)) := by
    funext k
    rw [stack_projRow m ρ c k b q, stack_relRow m ρ c k b q, small_w0 m ρ c, hb0, hb1, hb2, hb3, hb4]
  rw [ret_apply m ρ c b q o, hP, hg]

end Cert.KernelIdeal.Hand

end
-- ==== Proof.RBase.lean ====
import proofs.«100126_j36189394436483_2_alg».proof.Proof.RRun
import Idealize.ShloMosaic.PureOps.Ideal

/-! # The reference's buffers after its run, by name

One name for what a buffer of a device holds once the reference's host operations have run from the launch
contents, at the ideal values: the modules that read the reference's arrays state every fact about a buffer over
this one term, so that the facts compose by rewriting.

Reading a buffer. The line of operations is eleven windows. `Rpre J m d` is the valuation BEFORE window `J`
(`Rpre 0` the launch contents, `Rpre 11` the final valuation). Each buffer is written by one operation, so:
* a buffer no window AFTER `J` writes holds at the end what it holds after window `J`, run from `Rpre J`
  (`Rv_in_window_J`): the fold over window `J` alone is then opened operation by operation;
* a buffer no window FROM `J` ON writes holds before window `J` what it holds at the end (`Rpre_stable_J`): the
  operands met while opening window `J` that earlier windows wrote are named back as final values.
The side conditions are non-membership of a literal reference in a literal list, closed by `decide`. Two worked
readings close the file. -/

noncomputable section

namespace Cert.ReferenceIdeal.Hand

open Cert.ReferenceIdeal Cert.ReferenceIdeal.Gen Idealize.ShloMosaic Idealize.ShloMosaic.TcCoe Idealize.SL.Sem Idealize.ShloMosaic.StableHlo

/-- What buffer `b` of device `d` holds after the reference's host operations, run from the launch contents `m`,
    at the ideal values. -/
abbrev Rv (m : (ℓ : Loc nD τ sig) → Buf (Elt Ideal) ℓ) (d : Dev nD) (b : Ref sig .tc) :=
  StableHlo.after (ops (F := Ideal)) (launchContents m d) (Proc.devRef .tc b)

/-! ## The windows from one on, and what they write -/

section Tails

variable {F : FTy → Type} [FloatOps F]

/-- The operations of windows `J` … 10, in order: `opsFrom0` is `ops`. -/
abbrev opsFrom10 : List (HloOp τ sig (Elt F)) := ops10
abbrev opsFrom9 : List (HloOp τ sig (Elt F)) := ops9 ++ opsFrom10
abbrev opsFrom8 : List (HloOp τ sig (Elt F)) := ops8 ++ opsFrom9
abbrev opsFrom7 : List (HloOp τ sig (Elt F)) := ops7 ++ opsFrom8
abbrev opsFrom6 : List (HloOp τ sig (Elt F)) := ops6 ++ opsFrom7
abbrev opsFrom5 : List (HloOp τ sig (Elt F)) := ops5 ++ opsFrom6
abbrev opsFrom4 : List (HloOp τ sig (Elt F)) := ops4 ++ opsFrom5
abbrev opsFrom3 : List (HloOp τ sig (Elt F)) := ops3 ++ opsFrom4
abbrev opsFrom2 : List (HloOp τ sig (Elt F)) := ops2 ++ opsFrom3
abbrev opsFrom1 : List (HloOp τ sig (Elt F)) := ops1 ++ opsFrom2
abbrev opsFrom0 : List (HloOp τ sig (Elt F)) := ops0 ++ opsFrom1

/-- The references windows `J` … 10 write. -/
abbrev opsFrom10_W : List (Ref sig .tc) := ops10_W
abbrev opsFrom9_W : List (Ref sig .tc) := ops9_W ++ opsFrom10_W
abbrev opsFrom8_W : List (Ref sig .tc) := ops8_W ++ opsFrom9_W
abbrev opsFrom7_W : List (Ref sig .tc) := ops7_W ++ opsFrom8_W
abbrev opsFrom6_W : List (Ref sig .tc) := ops6_W ++ opsFrom7_W
abbrev opsFrom5_W : List (Ref sig .tc) := ops5_W ++ opsFrom6_W
abbrev opsFrom4_W : List (Ref sig .tc) := ops4_W ++ opsFrom5_W
abbrev opsFrom3_W : List (Ref sig .tc) := ops3_W ++ opsFrom4_W
abbrev opsFrom2_W : List (Ref sig .tc) := ops2_W ++ opsFrom3_W
abbrev opsFrom1_W : List (Ref sig .tc) := ops1_W ++ opsFrom2_W
abbrev opsFrom0_W : List (Ref sig .tc) := ops0_W ++ opsFrom1_W

/-- Two lines writing inside two lists of references: their concatenation writes inside the lists' concatenation. -/
theorem writes_append {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset :=
  List.forall_iff_forall_mem.2 fun op hop => (List.mem_append.1 hop).elim
    (fun h => Finset.Subset.trans (List.forall_iff_forall_mem.1 h₁ op h) fun x hx =>
      List.mem_toFinset.2 (by rw [List.map_append]; exact List.mem_append_left _ (List.mem_toFinset.1 hx)))
    (fun h => Finset.Subset.trans (List.forall_iff_forall_mem.1 h₂ op h) fun x hx =>
      List.mem_toFinset.2 (by rw [List.map_append]; exact List.mem_append_right _ (List.mem_toFinset.1 hx)))

theorem opsFrom10_writes : (opsFrom10 : List (HloOp τ sig (Elt F))).Forall fun op => op.writes ⊆ (opsFrom10_W.map (Proc.devRef (τ := τ) .tc)).toFinset :=
  ops10_writes
theorem opsFrom9_writes : (opsFrom9 : List (HloOp τ sig (Elt F))).Forall fun op => op.writes ⊆ (opsFrom9_W.map (Proc.devRef (τ := τ) .tc)).toFinset :=
  writes_append ops9_writes opsFrom10_writes
theorem opsFrom8_writes : (opsFrom8 : List (HloOp τ sig (Elt F))).Forall fun op => op.writes ⊆ (opsFrom8_W.map (Proc.devRef (τ := τ) .tc)).toFinset :=
  writes_append ops8_writes opsFrom9_writes
theorem opsFrom7_writes : (opsFrom7 : List (HloOp τ sig (Elt F))).Forall fun op => op.writes ⊆ (opsFrom7_W.map (Proc.devRef (τ := τ) .tc)).toFinset :=
  writes_append ops7_writes opsFrom8_writes
theorem opsFrom6_writes : (opsFrom6 : List (HloOp τ sig (Elt F))).Forall fun op => op.writes ⊆ (opsFrom6_W.map (Proc.devRef (τ := τ) .tc)).toFinset :=
  writes_append ops6_writes opsFrom7_writes
theorem opsFrom5_writes : (opsFrom5 : List (HloOp τ sig (Elt F))).Forall fun op => op.writes ⊆ (opsFrom5_W.map (Proc.devRef (τ := τ) .tc)).toFinset :=
  writes_append ops5_writes opsFrom6_writes
theorem opsFrom4_writes : (opsFrom4 : List (HloOp τ sig (Elt F))).Forall fun op => op.writes ⊆ (opsFrom4_W.map (Proc.devRef (τ := τ) .tc)).toFinset :=
  writes_append ops4_writes opsFrom5_writes
theorem opsFrom3_writes : (opsFrom3 : List (HloOp τ sig (Elt F))).Forall fun op => op.writes ⊆ (opsFrom3_W.map (Proc.devRef (τ := τ) .tc)).toFinset :=
  writes_append ops3_writes opsFrom4_writes
theorem opsFrom2_writes : (opsFrom2 : List (HloOp τ sig (Elt F))).Forall fun op => op.writes ⊆ (opsFrom2_W.map (Proc.devRef (τ := τ) .tc)).toFinset :=
  writes_append ops2_writes opsFrom3_writes
theorem opsFrom1_writes : (opsFrom1 : List (HloOp τ sig (Elt F))).Forall fun op => op.writes ⊆ (opsFrom1_W.map (Proc.devRef (τ := τ) .tc)).toFinset :=
  writes_append ops1_writes opsFrom2_writes
theorem opsFrom0_writes : (opsFrom0 : List (HloOp τ sig (Elt F))).Forall fun op => op.writes ⊆ (opsFrom0_W.map (Proc.devRef (τ := τ) .tc)).toFinset :=
  writes_append ops0_writes opsFrom1_writes

end Tails

/-! ## The valuation before each window -/

/-- Window `J`'s operations, at the ideal values (no operation past the last window). -/
def opsWindow : Nat → List (HloOp τ sig (Elt Ideal))
  | 0 => ops0
  | 1 => ops1
  | 2 => ops2
  | 3 => ops3
  | 4 => ops4
  | 5 => ops5
  | 6 => ops6
  | 7 => ops7
  | 8 => ops8
  | 9 => ops9
  | 10 => ops10
  | _ => []

/-- The device's buffer contents BEFORE window `J`, at the ideal values: the launch contents before window 0, then
    window after window (`Rpre 11`: after the last). -/
def Rpre : Nat → ((ℓ : Loc nD τ sig) → Buf (Elt Ideal) ℓ) → Dev nD → Valuation τ sig (Elt Ideal)
  | 0, m, d => launchContents m d
  | J + 1, m, d => after (opsWindow J) (Rpre J m d)

variable {m : (ℓ : Loc nD τ sig) → Buf (Elt Ideal) ℓ} {d : Dev nD}

theorem Rpre_0 : Rpre 0 m d = launchContents m d := rfl
theorem Rpre_1 : Rpre 1 m d = after ops0 (Rpre 0 m d) := rfl
theorem Rpre_2 : Rpre 2 m d = after ops1 (Rpre 1 m d) := rfl
theorem Rpre_3 : Rpre 3 m d = after ops2 (Rpre 2 m d) := rfl
theorem Rpre_4 : Rpre 4 m d = after ops3 (Rpre 3 m d) := rfl
theorem Rpre_5 : Rpre 5 m d = after ops4 (Rpre 4 m d) := rfl
theorem Rpre_6 : Rpre 6 m d = after ops5 (Rpre 5 m d) := rfl
theorem Rpre_7 : Rpre 7 m d = after ops6 (Rpre 6 m d) := rfl
theorem Rpre_8 : Rpre 8 m d = after ops7 (Rpre 7 m d) := rfl
theorem Rpre_9 : Rpre 9 m d = after ops8 (Rpre 8 m d) := rfl
theorem Rpre_10 : Rpre 10 m d = after ops9 (Rpre 9 m d) := rfl
theorem Rpre_11 : Rpre 11 m d = after ops10 (Rpre 10 m d) := rfl

/-- The windows from `J` on, run from the valuation before window `J`, end where the whole line ends. -/
theorem after_from_0 : after opsFrom0 (Rpre 0 m d) = after ops (launchContents m d) := rfl
theorem after_from_1 : after opsFrom1 (Rpre 1 m d) = after ops (launchContents m d) :=
  (after_append ops0 opsFrom1 (Rpre 0 m d)).symm.trans after_from_0
theorem after_from_2 : after opsFrom2 (Rpre 2 m d) = after ops (launchContents m d) :=
  (after_append ops1 opsFrom2 (Rpre 1 m d)).symm.trans after_from_1
theorem after_from_3 : after opsFrom3 (Rpre 3 m d) = after ops (launchContents m d) :=
  (after_append ops2 opsFrom3 (Rpre 2 m d)).symm.trans after_from_2
theorem after_from_4 : after opsFrom4 (Rpre 4 m d) = after ops (launchContents m d) :=
  (after_append ops3 opsFrom4 (Rpre 3 m d)).symm.trans after_from_3
theorem after_from_5 : after opsFrom5 (Rpre 5 m d) = after ops (launchContents m d) :=
  (after_append ops4 opsFrom5 (Rpre 4 m d)).symm.trans after_from_4
theorem after_from_6 : after opsFrom6 (Rpre 6 m d) = after ops (launchContents m d) :=
  (after_append ops5 opsFrom6 (Rpre 5 m d)).symm.trans after_from_5
theorem after_from_7 : after opsFrom7 (Rpre 7 m d) = after ops (launchContents m d) :=
  (after_append ops6 opsFrom7 (Rpre 6 m d)).symm.trans after_from_6
theorem after_from_8 : after opsFrom8 (Rpre 8 m d) = after ops (launchContents m d) :=
  (after_append ops7 opsFrom8 (Rpre 7 m d)).symm.trans after_from_7
theorem after_from_9 : after opsFrom9 (Rpre 9 m d) = after ops (launchContents m d) :=
  (after_append ops8 opsFrom9 (Rpre 8 m d)).symm.trans after_from_8
theorem after_from_10 : after opsFrom10 (Rpre 10 m d) = after ops (launchContents m d) :=
  (after_append ops9 opsFrom10 (Rpre 9 m d)).symm.trans after_from_9

/-! ## A buffer's final contents, read in the window that writes it

`Rv_in_window_J r h`: no window after `J` writes `r` (`h`, by `decide`), so its final contents are those after
window `J` run from `Rpre J m d`. -/

theorem Rv_in_window_0 (r : Ref sig .tc) (h : r ∉ opsFrom1_W) :
    Rv m d r = after ops0 (Rpre 0 m d) (Proc.devRef .tc r) :=
  (congrFun after_from_1 (Proc.devRef .tc r)).symm.trans (after_of_writes_sub opsFrom1 (Rpre 1 m d) opsFrom1_writes h)
theorem Rv_in_window_1 (r : Ref sig .tc) (h : r ∉ opsFrom2_W) :
    Rv m d r = after ops1 (Rpre 1 m d) (Proc.devRef .tc r) :=
  (congrFun after_from_2 (Proc.devRef .tc r)).symm.trans (after_of_writes_sub opsFrom2 (Rpre 2 m d) opsFrom2_writes h)
theorem Rv_in_window_2 (r : Ref sig .tc) (h : r ∉ opsFrom3_W) :
    Rv m d r = after ops2 (Rpre 2 m d) (Proc.devRef .tc r) :=
  (congrFun after_from_3 (Proc.devRef .tc r)).symm.trans (after_of_writes_sub opsFrom3 (Rpre 3 m d) opsFrom3_writes h)
theorem Rv_in_window_3 (r : Ref sig .tc) (h : r ∉ opsFrom4_W) :
    Rv m d r = after ops3 (Rpre 3 m d) (Proc.devRef .tc r) :=
  (congrFun after_from_4 (Proc.devRef .tc r)).symm.trans (after_of_writes_sub opsFrom4 (Rpre 4 m d) opsFrom4_writes h)
theorem Rv_in_window_4 (r : Ref sig .tc) (h : r ∉ opsFrom5_W) :
    Rv m d r = after ops4 (Rpre 4 m d) (Proc.devRef .tc r) :=
  (congrFun after_from_5 (Proc.devRef .tc r)).symm.trans (after_of_writes_sub opsFrom5 (Rpre 5 m d) opsFrom5_writes h)
theorem Rv_in_window_5 (r : Ref sig .tc) (h : r ∉ opsFrom6_W) :
    Rv m d r = after ops5 (Rpre 5 m d) (Proc.devRef .tc r) :=
  (congrFun after_from_6 (Proc.devRef .tc r)).symm.trans (after_of_writes_sub opsFrom6 (Rpre 6 m d) opsFrom6_writes h)
theorem Rv_in_window_6 (r : Ref sig .tc) (h : r ∉ opsFrom7_W) :
    Rv m d r = after ops6 (Rpre 6 m d) (Proc.devRef .tc r) :=
  (congrFun after_from_7 (Proc.devRef .tc r)).symm.trans (after_of_writes_sub opsFrom7 (Rpre 7 m d) opsFrom7_writes h)
theorem Rv_in_window_7 (r : Ref sig .tc) (h : r ∉ opsFrom8_W) :
    Rv m d r = after ops7 (Rpre 7 m d) (Proc.devRef .tc r) :=
  (congrFun after_from_8 (Proc.devRef .tc r)).symm.trans (after_of_writes_sub opsFrom8 (Rpre 8 m d) opsFrom8_writes h)
theorem Rv_in_window_8 (r : Ref sig .tc) (h : r ∉ opsFrom9_W) :
    Rv m d r = after ops8 (Rpre 8 m d) (Proc.devRef .tc r) :=
  (congrFun after_from_9 (Proc.devRef .tc r)).symm.trans (after_of_writes_sub opsFrom9 (Rpre 9 m d) opsFrom9_writes h)
theorem Rv_in_window_9 (r : Ref sig .tc) (h : r ∉ opsFrom10_W) :
    Rv m d r = after ops9 (Rpre 9 m d) (Proc.devRef .tc r) :=
  (congrFun after_from_10 (Proc.devRef .tc r)).symm.trans (after_of_writes_sub opsFrom10 (Rpre 10 m d) opsFrom10_writes h)
theorem Rv_in_window_10 (r : Ref sig .tc) :
    Rv m d r = after ops10 (Rpre 10 m d) (Proc.devRef .tc r) :=
  (congrFun after_from_10 (Proc.devRef .tc r)).symm

/-! ## A buffer's contents before a window, named as its final contents

`Rpre_stable_J r h`: no window from `J` on writes `r` (`h`, by `decide`), so what it holds before window `J` is
what it holds at the end. -/

theorem Rpre_stable_0 (r : Ref sig .tc) (h : r ∉ opsFrom0_W) :
    Rpre 0 m d (Proc.devRef .tc r) = Rv m d r :=
  (after_of_writes_sub opsFrom0 (Rpre 0 m d) opsFrom0_writes h).symm.trans (congrFun after_from_0 (Proc.devRef .tc r))
theorem Rpre_stable_1 (r : Ref sig .tc) (h : r ∉ opsFrom1_W) :
    Rpre 1 m d (Proc.devRef .tc r) = Rv m d r :=
  (after_of_writes_sub opsFrom1 (Rpre 1 m d) opsFrom1_writes h).symm.trans (congrFun after_from_1 (Proc.devRef .tc r))
theorem Rpre_stable_2 (r : Ref sig .tc) (h : r ∉ opsFrom2_W) :
    Rpre 2 m d (Proc.devRef .tc r) = Rv m d r :=
  (after_of_writes_sub opsFrom2 (Rpre 2 m d) opsFrom2_writes h).symm.trans (congrFun after_from_2 (Proc.devRef .tc r))
theorem Rpre_stable_3 (r : Ref sig .tc) (h : r ∉ opsFrom3_W) :
    Rpre 3 m d (Proc.devRef .tc r) = Rv m d r :=
  (after_of_writes_sub opsFrom3 (Rpre 3 m d) opsFrom3_writes h).symm.trans (congrFun after_from_3 (Proc.devRef .tc r))
theorem Rpre_stable_4 (r : Ref sig .tc) (h : r ∉ opsFrom4_W) :
    Rpre 4 m d (Proc.devRef .tc r) = Rv m d r :=
  (after_of_writes_sub opsFrom4 (Rpre 4 m d) opsFrom4_writes h).symm.trans (congrFun after_from_4 (Proc.devRef .tc r))
theorem Rpre_stable_5 (r : Ref sig .tc) (h : r ∉ opsFrom5_W) :
    Rpre 5 m d (Proc.devRef .tc r) = Rv m d r :=
  (after_of_writes_sub opsFrom5 (Rpre 5 m d) opsFrom5_writes h).symm.trans (congrFun after_from_5 (Proc.devRef .tc r))
theorem Rpre_stable_6 (r : Ref sig .tc) (h : r ∉ opsFrom6_W) :
    Rpre 6 m d (Proc.devRef .tc r) = Rv m d r :=
  (after_of_writes_sub opsFrom6 (Rpre 6 m d) opsFrom6_writes h).symm.trans (congrFun after_from_6 (Proc.devRef .tc r))
theorem Rpre_stable_7 (r : Ref sig .tc) (h : r ∉ opsFrom7_W) :
    Rpre 7 m d (Proc.devRef .tc r) = Rv m d r :=
  (after_of_writes_sub opsFrom7 (Rpre 7 m d) opsFrom7_writes h).symm.trans (congrFun after_from_7 (Proc.devRef .tc r))
theorem Rpre_stable_8 (r : Ref sig .tc) (h : r ∉ opsFrom8_W) :
    Rpre 8 m d (Proc.devRef .tc r) = Rv m d r :=
  (after_of_writes_sub opsFrom8 (Rpre 8 m d) opsFrom8_writes h).symm.trans (congrFun after_from_8 (Proc.devRef .tc r))
theorem Rpre_stable_9 (r : Ref sig .tc) (h : r ∉ opsFrom9_W) :
    Rpre 9 m d (Proc.devRef .tc r) = Rv m d r :=
  (after_of_writes_sub opsFrom9 (Rpre 9 m d) opsFrom9_writes h).symm.trans (congrFun after_from_9 (Proc.devRef .tc r))
theorem Rpre_stable_10 (r : Ref sig .tc) (h : r ∉ opsFrom10_W) :
    Rpre 10 m d (Proc.devRef .tc r) = Rv m d r :=
  (after_of_writes_sub opsFrom10 (Rpre 10 m d) opsFrom10_writes h).symm.trans (congrFun after_from_10 (Proc.devRef .tc r))
theorem Rpre_stable_11 (r : Ref sig .tc) : Rpre 11 m d (Proc.devRef .tc r) = Rv m d r :=
  congrFun after_from_10 (Proc.devRef .tc r)

/-! ## Two worked readings

The pattern: name the buffer's window (`Rv_in_window_J`), open the fold over that window alone
(`after_results_simp`: each operation's result at its own buffer is its function of its operands, at any other
buffer what was there), then name every operand an earlier window wrote as its final value (`Rpre_stable_J`). -/

/-- %479 = multiply %125, %478, with %478 = broadcast_in_dim %477 of this window and %125, %477 of earlier ones. -/
theorem Rv_main_v479 :
    Rv m d main_v479 = mulf (F := Ideal) (s := S2x65536x2) (φ := .f32) (Rv m d main_v125)
      (broadcastInDim S2x65536x2 ![0, 1, 2] bcast_S2x65536x1_S2x65536x2_0_1_2 (Rv m d main_v477 : FVec Ideal S2x65536x1 .f32)) := by
  rw [Rv_in_window_10 main_v479]
  after_results_simp
  rw [Rpre_stable_10 main_v125 (by decide), Rpre_stable_10 main_v477 (by decide)]

/-- %496 = add %491, %495, all three of the last window: both sides opened to the same term over the valuation
    before the window. -/
theorem Rv_main_v496 :
    Rv m d main_v496 = addf (F := Ideal) (s := S2x65536x2) (φ := .f32) (Rv m d main_v491) (Rv m d main_v495) := by
  rw [Rv_in_window_10 main_v496, Rv_in_window_10 main_v491, Rv_in_window_10 main_v495]
  after_results_simp

end Cert.ReferenceIdeal.Hand

end
-- ==== Proof.RReadC.lean ====
import proofs.«100126_j36189394436483_2_alg».proof.Proof.RBase
import proofs.«100126_j36189394436483_2_alg».proof.Proof.Spec
import Idealize.ShloMosaic.Lib.Pipeline.Value
import Idealize.ShloMosaic.Lib.ValueIdx
import Idealize.ShloMosaic.Lib.IdealHost

/-! # The reference's blend and mean, read

After the four corner networks the reference adds the four areas, divides each area by the total, spreads each
quotient over the two outputs, and accumulates from zero the four predictions each times the quotient of the
OPPOSITE corner's area, in the order 0, 1, 2, 3. Read at an entry that is the blend of the specification. The
second result is the mean of the absolute values of the first: three operations, carried as one function. -/

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## The operations as functions of the predictions and the areas -/

/-- The four areas added in the order 0, 1, 2, 3. -/
def totR (a0 a1 a2 a3 : FVec Ideal S2x65536 .f32) : FVec Ideal S2x65536 .f32 := addf (addf (addf a0 a1) a2) a3

/-- One area's share of the total, spread over the two outputs. -/
def wgtR (a tot : FVec Ideal S2x65536 .f32) : FVec Ideal S2x65536x2 .f32 :=
  broadcastInDim S2x65536x2 ![0, 1, 2] bcast_S2x65536x1_S2x65536x2_0_1_2
    (broadcastInDim S2x65536x1 ![0, 1] bcast_S2x65536_S2x65536x1_0_1 (Host.divf a tot))

/-- The blend as the program computes it: from the zero array, each prediction times the share of the opposite
    corner's area, added in the order 0, 1, 2, 3. -/
def blendR (p0 p1 p2 p3 : FVec Ideal S2x65536x2 .f32) (a0 a1 a2 a3 : FVec Ideal S2x65536 .f32) : FVec Ideal S2x65536x2 .f32 :=
  addf (addf (addf (addf (broadcastInDim S2x65536x2 ![] bcast_S_S2x65536x2 (constant (F := Ideal) S_ .f32 0x00000000#32))
    (mulf p0 (wgtR a3 (totR a0 a1 a2 a3)))) (mulf p1 (wgtR a2 (totR a0 a1 a2 a3)))) (mulf p2 (wgtR a1 (totR a0 a1 a2 a3))))
    (mulf p3 (wgtR a0 (totR a0 a1 a2 a3)))

/-- The mean of the absolute values: the absolute value, the sum over all axes from zero, the division by the count. -/
def tailR (x : FVec Ideal S2x65536x2 .f32) : FVec Ideal S_ .f32 :=
  Host.divf (Host.reduceAdd (Host.absf x) (constant (F := Ideal) S_ .f32 0x00000000#32) reducesTo_S2x65536x2_S_d0_1_2 h_S_)
    (constant (F := Ideal) S_ .f32 0x48800000#32)

theorem totR_apply (a0 a1 a2 a3 : FVec Ideal S2x65536 .f32) (i : S2x65536.Idx) :
    totR a0 a1 a2 a3 i = ((a0 i + a1 i) + a2 i) + a3 i := rfl

/-- A share read at an entry: the quotient at the row, whichever output. -/
theorem wgtR_apply (a tot : FVec Ideal S2x65536 .f32) (b : Fin 2) (q : Fin 65536) (o : Fin 2) :
    wgtR a tot (ix3 b q o) = Ideal.div (a (ix2 b q)) (tot (ix2 b q)) := by
  unfold wgtR
  refine (broadcastInDim_apply _ bcast_S2x65536x1_S2x65536x2_0_1_2 _ (ix3 b q o) (ix3 b q (0 : Fin 1)) (fun a => ?_)).trans ?_
  · match a with
    | ⟨0, _⟩ => rfl
    | ⟨1, _⟩ => rfl
    | ⟨2, _⟩ => rfl
  refine (broadcastInDim_apply _ bcast_S2x65536_S2x65536x1_0_1 _ (ix3 b q (0 : Fin 1)) (ix2 b q) (fun a => ?_)).trans ?_
  · match a with
    | ⟨0, _⟩ => rfl
    | ⟨1, _⟩ => rfl
  rfl

/-- The blend read at an entry is the specification's blend of the four predictions there with the four shares,
    the shares in the opposite order of the corners. -/
theorem blendR_apply (p0 p1 p2 p3 : FVec Ideal S2x65536x2 .f32) (a0 a1 a2 a3 : FVec Ideal S2x65536 .f32)
    (b : Fin 2) (q : Fin 65536) (o : Fin 2) :
    blendR p0 p1 p2 p3 a0 a1 a2 a3 (ix3 b q o)
      = Cert.Spec.blend4 (fun k o' => ![p0 (ix3 b q o'), p1 (ix3 b q o'), p2 (ix3 b q o'), p3 (ix3 b q o')] k)
          (fun k => Ideal.div (![a3 (ix2 b q), a2 (ix2 b q), a1 (ix2 b q), a0 (ix2 b q)] k)
            (((a0 (ix2 b q) + a1 (ix2 b q)) + a2 (ix2 b q)) + a3 (ix2 b q))) o := by
  unfold blendR Cert.Spec.blend4
  simp only [addf_apply, mulf_apply, wgtR_apply, totR_apply, broadcastInDim_scalar_apply, constant_apply]
  rfl

/-! ## The last operations of the line -/

/-- The five operations before the last window: the areas' total, the last corner's share, its spreading. -/
abbrev opsB {F : FTy → Type} [FloatOps F] : List (HloOp τ sig (Elt F)) :=
  [ StableHlo.binary main_v133 main_v246 main_v473 (addf : (⟨S2x65536, .f32⟩ : BufTy).Contents (Elt F) → (⟨S2x65536, .f32⟩ : BufTy).Contents (Elt F) → (⟨S2x65536, .f32⟩ : BufTy).Contents (Elt F)),
    StableHlo.binary main_v473 main_v359 main_v474 (addf : (⟨S2x65536, .f32⟩ : BufTy).Contents (Elt F) → (⟨S2x65536, .f32⟩ : BufTy).Contents (Elt F) → (⟨S2x65536, .f32⟩ : BufTy).Contents (Elt F)),
    StableHlo.binary main_v474 main_v472 main_v475 (addf : (⟨S2x65536, .f32⟩ : BufTy).Contents (Elt F) → (⟨S2x65536, .f32⟩ : BufTy).Contents (Elt F) → (⟨S2x65536, .f32⟩ : BufTy).Contents (Elt F)),
    StableHlo.binary main_v472 main_v475 main_v476 (Host.divf : (⟨S2x65536, .f32⟩ : BufTy).Contents (Elt F) → (⟨S2x65536, .f32⟩ : BufTy).Contents (Elt F) → (⟨S2x65536, .f32⟩ : BufTy).Contents (Elt F)),
    StableHlo.unary main_v476 main_v477 (broadcastInDim S2x65536x1 ![0, 1] bcast_S2x65536_S2x65536x1_0_1 : (⟨S2x65536, .f32⟩ : BufTy).Contents (Elt F) → (⟨S2x65536x1, .f32⟩ : BufTy).Contents (Elt F)) ]

/-- The ninth window ends with those five operations. -/
theorem ops9_split {F : FTy → Type} [FloatOps F] : (ops9 (F := F)) = (ops9 (F := F)).take 63 ++ opsB := rfl

/-- The first result after the last thirty operations, from any contents before them: the blend of the contents of
    the predictions' and the areas' buffers. -/
theorem tail_blend (W : Valuation τ sig (Elt Ideal)) :
    after (ops10 (F := Ideal)) (after opsB W) (Proc.devRef .tc main_v496)
      = blendR (W (Proc.devRef .tc main_v125)) (W (Proc.devRef .tc main_v238)) (W (Proc.devRef .tc main_v351)) (W (Proc.devRef .tc main_v464))
          (W (Proc.devRef .tc main_v133)) (W (Proc.devRef .tc main_v246)) (W (Proc.devRef .tc main_v359)) (W (Proc.devRef .tc main_v472)) := by
  after_results_simp
  rfl

/-- The second result after them is the mean of the absolute values of the first. -/
theorem tail_mean (W : Valuation τ sig (Elt Ideal)) :
    after (ops10 (F := Ideal)) (after opsB W) (Proc.devRef .tc main_v499)
      = tailR (after (ops10 (F := Ideal)) (after opsB W) (Proc.devRef .tc main_v496)) := by
  after_results_simp
  rfl

/-- The last thirty operations write none of the predictions' and the areas' buffers. -/
theorem tail_keep (W : Valuation τ sig (Elt Ideal)) :
    after (ops10 (F := Ideal)) (after opsB W) (Proc.devRef .tc main_v125) = W (Proc.devRef .tc main_v125)
    ∧ after (ops10 (F := Ideal)) (after opsB W) (Proc.devRef .tc main_v238) = W (Proc.devRef .tc main_v238)
    ∧ after (ops10 (F := Ideal)) (after opsB W) (Proc.devRef .tc main_v351) = W (Proc.devRef .tc main_v351)
    ∧ after (ops10 (F := Ideal)) (after opsB W) (Proc.devRef .tc main_v464) = W (Proc.devRef .tc main_v464)
    ∧ after (ops10 (F := Ideal)) (after opsB W) (Proc.devRef .tc main_v133) = W (Proc.devRef .tc main_v133)
    ∧ after (ops10 (F := Ideal)) (after opsB W) (Proc.devRef .tc main_v246) = W (Proc.devRef .tc main_v246)
    ∧ after (ops10 (F := Ideal)) (after opsB W) (Proc.devRef .tc main_v359) = W (Proc.devRef .tc main_v359)
    ∧ after (ops10 (F := Ideal)) (after opsB W) (Proc.devRef .tc main_v472) = W (Proc.devRef .tc main_v472) := by
  refine ⟨?_, ?_, ?_, ?_, ?_, ?_, ?_, ?_⟩ <;>
    (rw [after_of_writes_sub ops10 _ ops10_writes (by decide)]; after_results)

/-- The whole line ends with the ninth window's first part, those five operations, and the last window. -/
theorem ops_tail (V : Valuation τ sig (Elt Ideal)) :
    ∃ W : Valuation τ sig (Elt Ideal), after (ops (F := Ideal)) V = after (ops10 (F := Ideal)) (after opsB W) := by
  simp only [ops, after_append]
  rw [ops9_split, after_append]
  exact ⟨_, rfl⟩

/-! ## The two results -/

variable (m : (ℓ : Loc nD τ sig) → Buf (Elt Ideal) ℓ) (d : Dev nD)

/-- The first result is the blend of the four predictions' arrays with the four areas' arrays. -/
theorem ret_eq : Rv m d main_v496 = blendR (Rv m d main_v125) (Rv m d main_v238) (Rv m d main_v351) (Rv m d main_v464)
    (Rv m d main_v133) (Rv m d main_v246) (Rv m d main_v359) (Rv m d main_v472) := by
  obtain ⟨W, hW⟩ := ops_tail (launchContents m d)
  obtain ⟨k0, k1, k2, k3, k4, k5, k6, k7⟩ := tail_keep W
  unfold Rv
  rw [hW, k0, k1, k2, k3, k4, k5, k6, k7]
  exact tail_blend W

-- addition of two entries, read as extended reals
local infixl:65 " +ᵣ " => @HAdd.hAdd EReal EReal EReal instHAdd

/-- The first result at an entry: the specification's blend of the four corner predictions with the shares of the
    opposite corners' areas. -/
theorem ret_apply (b : Fin 2) (q : Fin 65536) (o : Fin 2) :
    Rv m d main_v496 (ix3 b q o)
      = Cert.Spec.blend4
          (fun k o' => (![Rv m d main_v125 (ix3 b q o'), Rv m d main_v238 (ix3 b q o'), Rv m d main_v351 (ix3 b q o'), Rv m d main_v464 (ix3 b q o')] : Fin 4 → EReal) k)
          (fun k => Ideal.div ((![Rv m d main_v472 (ix2 b q), Rv m d main_v359 (ix2 b q), Rv m d main_v246 (ix2 b q), Rv m d main_v133 (ix2 b q)] : Fin 4 → EReal) k)
            (((Rv m d main_v133 (ix2 b q) +ᵣ Rv m d main_v246 (ix2 b q)) +ᵣ Rv m d main_v359 (ix2 b q)) +ᵣ Rv m d main_v472 (ix2 b q))) o :=
  (congrFun (ret_eq m d) (ix3 b q o)).trans (blendR_apply _ _ _ _ _ _ _ _ b q o)

/-- The second result is the mean of the absolute values of the first. -/
theorem mean_eq : Rv m d main_v499 = tailR (Rv m d main_v496) := by
  obtain ⟨W, hW⟩ := ops_tail (launchContents m d)
  unfold Rv
  rw [hW]
  exact tail_mean W

end Cert.ReferenceIdeal.Hand

end
-- ==== Proof.RReadA.lean ====
/-
  Pure index lemmas for the operations of the plain program's dense layers and of its final blend: each layout or
  arithmetic operation, over variables of the literal array types, read at explicit coordinates.
  A query's row in the flattened arrays is 65536·b + q for batch b and query q.
-/
import proofs.«100126_j36189394436483_2_alg».proof.Proof.Gen.ReferenceIdeal
import proofs.«100126_j36189394436483_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option pp.maxSteps 5000
set_option pp.deepTerms false

noncomputable section

namespace Cert.ReferenceIdeal.Hand

open Cert.ReferenceIdeal Cert.ReferenceIdeal.Gen Idealize.ShloMosaic Idealize.ShloMosaic.ValueIdx

/-- The row of query q of batch b in an array flattened over (batch, query). -/
def rowOf (b : Fin 2) (q : Fin 65536) : Fin 131072 := ⟨65536 * b.val + q.val, by omega⟩

theorem rowOf_val (b : Fin 2) (q : Fin 65536) : (rowOf b q).val = 65536 * b.val + q.val := rfl

section Layout
variable {α : Type}

/-- The three-part concatenation along the last axis, read in its first part (columns below 576). -/
theorem concat3_feat (x0 : S2x65536x576.Idx → α) (x1 x2 : S2x65536x2.Idx → α)
    (h : Shape.Concatenates [S2x65536x576, S2x65536x2, S2x65536x2] S2x65536x580 2) (b : Fin 2) (q : Fin 65536) (i : Fin 576) :
    concatenate S2x65536x580 2 [⟨S2x65536x576, x0⟩, ⟨S2x65536x2, x1⟩, ⟨S2x65536x2, x2⟩] h (ix3 b q (Fin.castAdd 4 i))
      = x0 (ix3 b q i) := by
  refine concatenate_apply_piece (t := S2x65536x580) (2 : Fin 3) [⟨S2x65536x576, x0⟩, ⟨S2x65536x2, x1⟩, ⟨S2x65536x2, x2⟩] h
    (ix3 b q (Fin.castAdd 4 i)) 0 (Nat.succ_pos 2) S2x65536x576 x0 rfl rfl 0 rfl (ix3 b q i) ?_ ?_
  · intro c hc
    match c with
    | ⟨0, _⟩ => rfl
    | ⟨1, _⟩ => rfl
    | ⟨2, _⟩ => exact absurd rfl hc
  · exact Nat.zero_add _

/-- The same concatenation read in its second part (columns 576 and 577). -/
theorem concat3_rel (x0 : S2x65536x576.Idx → α) (x1 x2 : S2x65536x2.Idx → α)
    (h : Shape.Concatenates [S2x65536x576, S2x65536x2, S2x65536x2] S2x65536x580 2) (b : Fin 2) (q : Fin 65536) (i : Fin 2) :
    concatenate S2x65536x580 2 [⟨S2x65536x576, x0⟩, ⟨S2x65536x2, x1⟩, ⟨S2x65536x2, x2⟩] h
        (ix3 b q (Fin.natAdd 576 (Fin.castAdd 2 i)))
      = x1 (ix3 b q i) := by
  refine concatenate_apply_piece (t := S2x65536x580) (2 : Fin 3) [⟨S2x65536x576, x0⟩, ⟨S2x65536x2, x1⟩, ⟨S2x65536x2, x2⟩] h
    (ix3 b q (Fin.natAdd 576 (Fin.castAdd 2 i))) 1 (Nat.succ_lt_succ (Nat.succ_pos 1)) S2x65536x2 x1 rfl rfl 576 rfl (ix3 b q i) ?_ ?_
  · intro c hc
    match c with
    | ⟨0, _⟩ => rfl
    | ⟨1, _⟩ => rfl
    | ⟨2, _⟩ => exact absurd rfl hc
  · rfl

/-- The same concatenation read in its third part (columns 578 and 579). -/
theorem concat3_cell (x0 : S2x65536x576.Idx → α) (x1 x2 : S2x65536x2.Idx → α)
    (h : Shape.Concatenates [S2x65536x576, S2x65536x2, S2x65536x2] S2x65536x580 2) (b : Fin 2) (q : Fin 65536) (i : Fin 2) :
    concatenate S2x65536x580 2 [⟨S2x65536x576, x0⟩, ⟨S2x65536x2, x1⟩, ⟨S2x65536x2, x2⟩] h
        (ix3 b q (Fin.natAdd 576 (Fin.natAdd 2 i)))
      = x2 (ix3 b q i) := by
  refine concatenate_apply_piece (t := S2x65536x580) (2 : Fin 3) [⟨S2x65536x576, x0⟩, ⟨S2x65536x2, x1⟩, ⟨S2x65536x2, x2⟩] h
    (ix3 b q (Fin.natAdd 576 (Fin.natAdd 2 i))) 2 (Nat.lt_succ_self 2) S2x65536x2 x2 rfl rfl 578 rfl (ix3 b q i) ?_ ?_
  · intro c hc
    match c with
    | ⟨0, _⟩ => rfl
    | ⟨1, _⟩ => rfl
    | ⟨2, _⟩ => exact absurd rfl hc
  · show 578 + i.val = 576 + (2 + i.val)
    omega

/-- The gathered array with its last two axes exchanged: entry (b, q, i) is the operand's entry (b, i, q). -/
theorem transp_apply (x : S2x576x65536.Idx → α) (h : S2x576x65536.Transposes [0, 2, 1] S2x65536x576)
    (b : Fin 2) (q : Fin 65536) (i : Fin 576) :
    transpose S2x65536x576 [0, 2, 1] x h (ix3 b q i) = x (ix3 b i q) :=
  transpose_ix3_021_apply x h b q i

/-- Flattening (batch, query) into one row axis keeps each row's 580 columns. -/
theorem flat580_apply (x : S2x65536x580.Idx → α) (h : S2x65536x580.ShapeCasts S131072x580)
    (b : Fin 2) (q : Fin 65536) (i : Fin 580) :
    shapeCast S131072x580 x h (ix2 (rowOf b q) i) = x (ix3 b q i) := by
  refine shapeCast_apply x h _ _ ?_
  rw [Shape.rowMajor_val_three, Shape.rowMajor_val_two]
  show (b.val * 65536 + q.val) * 580 + i.val = (65536 * b.val + q.val) * 580 + i.val
  omega

/-- Splitting the row axis back into (batch, query) keeps each row's two columns. -/
theorem unflat2_apply (x : S131072x2.Idx → α) (h : S131072x2.ShapeCasts S2x65536x2)
    (b : Fin 2) (q : Fin 65536) (o : Fin 2) :
    shapeCast S2x65536x2 x h (ix3 b q o) = x (ix2 (rowOf b q) o) := by
  refine shapeCast_apply x h _ _ ?_
  rw [Shape.rowMajor_val_three, Shape.rowMajor_val_two]
  show (65536 * b.val + q.val) * 2 + o.val = (b.val * 65536 + q.val) * 2 + o.val
  omega

end Layout

/-! ## A plain matrix product read at an index -/

/-- The dimension numbers of a row-by-column product of an M×K by a K×N matrix, over any proof that they are well formed. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

section MM
variable {M K N : Nat} (wf : DotDims.WF ⟨2, ![M, K]⟩ ⟨2, ![K, N]⟩ ⟨2, ![M, N]⟩ [1] [0] [0] [1] [] [])

theorem mm_lhs0 (i : (⟨2, ![M, N]⟩ : Shape).Idx) (q : (mmDims M K N wf).contr.Idx) :
    ((mmDims M K N wf).lhsIdx i q 0).val = (i 0).val := by
  unfold DotDims.lhsIdx
  rw [dif_neg (show ¬(0 : Fin (⟨2, ![M, K]⟩ : Shape).rank) ∈ (mmDims M K N wf).lhsBatch from List.not_mem_nil),
    dif_pos (show (0 : Fin (⟨2, ![M, K]⟩ : Shape).rank) ∈ (mmDims M K N wf).lhsNonContracting from List.mem_singleton.2 rfl)]
  rfl

theorem mm_lhs1 (i : (⟨2, ![M, N]⟩ : Shape).Idx) (q : (mmDims M K N wf).contr.Idx) :
    ((mmDims M K N wf).lhsIdx i q 1).val = (q ⟨0, Nat.one_pos⟩).val :=
  (mmDims M K N wf).lhsIdx_val_of_single rfl i q

theorem mm_rhs0 (i : (⟨2, ![M, N]⟩ : Shape).Idx) (q : (mmDims M K N wf).contr.Idx) :
    ((mmDims M K N wf).rhsIdx i q 0).val = (q ⟨0, Nat.one_pos⟩).val :=
  (mmDims M K N wf).rhsIdx_val_of_single rfl i q

theorem mm_rhs1 (i : (⟨2, ![M, N]⟩ : Shape).Idx) (q : (mmDims M K N wf).contr.Idx) :
    ((mmDims M K N wf).rhsIdx i q 1).val = (i 1).val := by
  unfold DotDims.rhsIdx
  rw [dif_neg (show ¬(1 : Fin (⟨2, ![K, N]⟩ : Shape).rank) ∈ (mmDims M K N wf).rhsBatch from List.not_mem_nil),
    dif_pos (show (1 : Fin (⟨2, ![K, N]⟩ : Shape).rank) ∈ (mmDims M K N wf).rhsNonContracting from List.mem_singleton.2 rfl)]
  rfl

/-- Entry (n, j) of the product is the dot product of row n of the left matrix with column j of the right one:
    the sum over the contraction index, re-indexed by its one coordinate. -/
theorem mm_apply (l : FVec Ideal ⟨2, ![M, K]⟩ .f32) (r : FVec Ideal ⟨2, ![K, N]⟩ .f32) (n : Fin M) (j : Fin N) :
    Host.dotGeneral (F := Ideal) (mmDims M K N wf) none l r (ix2 n j) = Cert.Spec.rowDot r (fun i => l (ix2 n i)) j := by
  unfold Cert.Spec.rowDot
  simp only [Host.dotGeneral]
  rw [Ideal.dotGeneral_apply, ← Equiv.sum_comp (contrEquiv1 (mmDims M K N wf) K rfl rfl).symm]
  refine Finset.sum_congr rfl fun k _ => ?_
  have hk := contrEquiv1_symm_val (mmDims M K N wf) K rfl rfl k
  have el : (mmDims M K N wf).lhsIdx (ix2 n j) ((contrEquiv1 (mmDims M K N wf) K rfl rfl).symm k) = ix2 n k :=
    funext fun a => Fin.ext (by
      match a with
      | ⟨0, _⟩ => exact mm_lhs0 wf _ _
      | ⟨1, _⟩ => exact (mm_lhs1 wf _ _).trans hk)
  have er : (mmDims M K N wf).rhsIdx (ix2 n j) ((contrEquiv1 (mmDims M K N wf) K rfl rfl).symm k) = ix2 k j :=
    funext fun a => Fin.ext (by
      match a with
      | ⟨0, _⟩ => exact (mm_rhs0 wf _ _).trans hk
      | ⟨1, _⟩ => exact mm_rhs1 wf _ _)
  rw [el, er]

end MM

/-- The first layer's product (580 inputs). -/
theorem dot580_apply (l : FVec Ideal S131072x580 .f32) (r : FVec Ideal S580x256 .f32) (n : Fin 131072) (j : Fin 256) :
    Host.dotGeneral (F := Ideal) dot_S131072x580_S580x256_S131072x256_1_0_0_1_n_n none l r (ix2 n j)
      = Cert.Spec.rowDot r (fun i => l (ix2 n i)) j :=
  mm_apply dot_S131072x580_S580x256_S131072x256_1_0_0_1_n_n.wf l r n j

/-- A hidden layer's product (256 inputs, 256 outputs). -/
theorem dot256_apply (l : FVec Ideal S131072x256 .f32) (r : FVec Ideal S256x256 .f32) (n : Fin 131072) (j : Fin 256) :
    Host.dotGeneral (F := Ideal) dot_S131072x256_S256x256_S131072x256_1_0_0_1_n_n none l r (ix2 n j)
      = Cert.Spec.rowDot r (fun i => l (ix2 n i)) j :=
  mm_apply dot_S131072x256_S256x256_S131072x256_1_0_0_1_n_n.wf l r n j

/-- The read-out layer's product (256 inputs, two outputs). -/
theorem dot2_apply (l : FVec Ideal S131072x256 .f32) (r : FVec Ideal S256x2 .f32) (n : Fin 131072) (j : Fin 2) :
    Host.dotGeneral (F := Ideal) dot_S131072x256_S256x2_S131072x2_1_0_0_1_n_n none l r (ix2 n j)
      = Cert.Spec.rowDot r (fun i => l (ix2 n i)) j :=
  mm_apply dot_S131072x256_S256x2_S131072x2_1_0_0_1_n_n.wf l r n j

/-! ## The bias rows and the rectifier -/

section Bias
variable {α : Type}

/-- A bias vector of 256 entries, made a row and repeated down 131072 rows, reads its entry j in column j of every row. -/
theorem bias256_apply (v : S256.Idx → α) (h1 : S256.BroadcastsInDim S1x256 (![1] : Fin 1 → Fin S1x256.rank))
    (h2 : S1x256.BroadcastsInDim S131072x256 (![0, 1] : Fin 2 → Fin S131072x256.rank)) (n : Fin 131072) (j : Fin 256) :
    broadcastInDim S131072x256 ![0, 1] h2 (broadcastInDim S1x256 ![1] h1 v) (ix2 n j) = v (ix1 j) := by
  refine (broadcastInDim_apply _ h2 _ (ix2 n j) (ix2 (0 : Fin 1) j) fun a => ?_).trans ?_
  · match a with
    | ⟨0, _⟩ => rfl
    | ⟨1, _⟩ => rfl
  · refine broadcastInDim_apply _ h1 v (ix2 (0 : Fin 1) j) (ix1 j) fun a => ?_
    match a with
    | ⟨0, _⟩ => rfl

/-- The same for the read-out layer's bias of two entries. -/
theorem bias2_apply (v : S2.Idx → α) (h1 : S2.BroadcastsInDim S1x2 (![1] : Fin 1 → Fin S1x2.rank))
    (h2 : S1x2.BroadcastsInDim S131072x2 (![0, 1] : Fin 2 → Fin S131072x2.rank)) (n : Fin 131072) (j : Fin 2) :
    broadcastInDim S131072x2 ![0, 1] h2 (broadcastInDim S1x2 ![1] h1 v) (ix2 n j) = v (ix1 j) := by
  refine (broadcastInDim_apply _ h2 _ (ix2 n j) (ix2 (0 : Fin 1) j) fun a => ?_).trans ?_
  · match a with
    | ⟨0, _⟩ => rfl
    | ⟨1, _⟩ => rfl
  · refine broadcastInDim_apply _ h1 v (ix2 (0 : Fin 1) j) (ix1 j) fun a => ?_
    match a with
    | ⟨0, _⟩ => rfl

end Bias

/-- The larger of an array and the all-zero array, entry by entry, is the rectifier of each entry. -/
theorem relu_apply (x : FVec Ideal S131072x256 .f32)
    (h : S_.BroadcastsInDim S131072x256 (![] : Fin 0 → Fin S131072x256.rank)) (n : Fin 131072) (j : Fin 256) :
    maximumf x (broadcastInDim S131072x256 ![] h (constant (F := Ideal) S_ .f32 0x00000000#32)) (ix2 n j)
      = Cert.Spec.relu (x (ix2 n j)) := by
  rw [maximumf_apply]
  unfold Cert.Spec.relu
  congr 1

end Cert.ReferenceIdeal.Hand

end
-- ==== Proof.RReadD.lean ====
import proofs.«100126_j36189394436483_2_alg».proof.Proof.RBase
import proofs.«100126_j36189394436483_2_alg».proof.Proof.RReadA
import proofs.«100126_j36189394436483_2_alg».proof.Proof.GatherRead
import Idealize.ShloMosaic.Lib.StableHlo.Run

/-!
# The plain program's network input, row by row

Per corner the plain program gathers 576 unfolded feature values at the corner's pixel, turns the gathered array so
that the channels come last, appends the corner's two relative coordinates and two relative cell sizes, and flattens
(batch, query) into one row axis: the 580 inputs of the network's first layer. Here each of the three parts of a row is
read back to where it came from; the unfolded feature map, the corner's index array and its two relative arrays stay
as they are.
-/

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Hand.Gather

/-- A line of operations cut after its first `n`. -/
theorem after_cut {F : FTy → Type} [FloatOps F] (n : Nat) (l : List (HloOp τ sig (Elt F))) (V : Valuation τ sig (Elt F)) :
    after l V = after (l.drop n) (after (l.take n) V) := by
  rw [← after_append, List.take_append_drop]

variable (m : (ℓ : Loc nD τ sig) → Buf (Elt Ideal) ℓ) (d : Dev nD)

/-! ## The arrays read, at their literal types -/

/-- The unfolded feature map. -/
abbrev Rfeatu : Vec Ideal S2x576x96x96 .f32 := Rv m d main_v20
/-- Corner 0: its pixel indices, its gathered features turned channels-last, its relative coordinates and cell sizes, its network input. -/
abbrev Ridx0 : IVec S2x65536x2 32 := Rv m d main_v67
abbrev Rtr0 : Vec Ideal S2x65536x576 .f32 := Rv m d main_v69
abbrev Rrelcoord0 : Vec Ideal S2x65536x2 .f32 := Rv m d main_v95
abbrev Rrelcell0 : Vec Ideal S2x65536x2 .f32 := Rv m d main_v98
abbrev Rinp0 : Vec Ideal S131072x580 .f32 := Rv m d main_v100
/-- Corner 1: its pixel indices, its gathered features turned channels-last, its relative coordinates and cell sizes, its network input. -/
abbrev Ridx1 : IVec S2x65536x2 32 := Rv m d main_v180
abbrev Rtr1 : Vec Ideal S2x65536x576 .f32 := Rv m d main_v182
abbrev Rrelcoord1 : Vec Ideal S2x65536x2 .f32 := Rv m d main_v208
abbrev Rrelcell1 : Vec Ideal S2x65536x2 .f32 := Rv m d main_v211
abbrev Rinp1 : Vec Ideal S131072x580 .f32 := Rv m d main_v213
/-- Corner 2: its pixel indices, its gathered features turned channels-last, its relative coordinates and cell sizes, its network input. -/
abbrev Ridx2 : IVec S2x65536x2 32 := Rv m d main_v293
abbrev Rtr2 : Vec Ideal S2x65536x576 .f32 := Rv m d main_v295
abbrev Rrelcoord2 : Vec Ideal S2x65536x2 .f32 := Rv m d main_v321
abbrev Rrelcell2 : Vec Ideal S2x65536x2 .f32 := Rv m d main_v324
abbrev Rinp2 : Vec Ideal S131072x580 .f32 := Rv m d main_v326
/-- Corner 3: its pixel indices, its gathered features turned channels-last, its relative coordinates and cell sizes, its network input. -/
abbrev Ridx3 : IVec S2x65536x2 32 := Rv m d main_v406
abbrev Rtr3 : Vec Ideal S2x65536x576 .f32 := Rv m d main_v408
abbrev Rrelcoord3 : Vec Ideal S2x65536x2 .f32 := Rv m d main_v434
abbrev Rrelcell3 : Vec Ideal S2x65536x2 .f32 := Rv m d main_v437
abbrev Rinp3 : Vec Ideal S131072x580 .f32 := Rv m d main_v439

/-- The four corners' arrays as families over the corner. -/
def Ridx : Fin 4 → IVec S2x65536x2 32
  | ⟨0, _⟩ => Ridx0 m d | ⟨1, _⟩ => Ridx1 m d | ⟨2, _⟩ => Ridx2 m d | ⟨3, _⟩ => Ridx3 m d
def Rrelcoord : Fin 4 → Vec Ideal S2x65536x2 .f32
  | ⟨0, _⟩ => Rrelcoord0 m d | ⟨1, _⟩ => Rrelcoord1 m d | ⟨2, _⟩ => Rrelcoord2 m d | ⟨3, _⟩ => Rrelcoord3 m d
def Rrelcell : Fin 4 → Vec Ideal S2x65536x2 .f32
  | ⟨0, _⟩ => Rrelcell0 m d | ⟨1, _⟩ => Rrelcell1 m d | ⟨2, _⟩ => Rrelcell2 m d | ⟨3, _⟩ => Rrelcell3 m d
def Rinp : Fin 4 → Vec Ideal S131072x580 .f32
  | ⟨0, _⟩ => Rinp0 m d | ⟨1, _⟩ => Rinp1 m d | ⟨2, _⟩ => Rinp2 m d | ⟨3, _⟩ => Rinp3 m d

/-- THE NETWORK'S INPUT ROW of corner `k` at query `(b, q)`: the 580 entries of the query's row. -/
def inpRow (k : Fin 4) (b : Fin 2) (q : Fin 65536) : Fin 580 → EReal := fun i => Rinp m d k (ix2 (rowOf b q) i)

/-! ## Each corner's two steps, read off the window that runs them -/

/-- Corner 0: the gathered features turned channels-last are the turn of the gather of the unfolded feature map at the
    corner's indices. -/
theorem Rtr0_eq : Rtr0 m d = transpose S2x65536x576 [0, 2, 1]
    (Host.gather gather_S2x576x96x96_S2x65536x2_S2x576x65536_1_23_0_0_23_2_157611 (Rfeatu m d) (Ridx0 m d)) transposes_S2x576x65536_S2x65536x576_0_2_1 := by
  show Rv m d main_v69 = transpose S2x65536x576 [0, 2, 1]
    (Host.gather gather_S2x576x96x96_S2x65536x2_S2x576x65536_1_23_0_0_23_2_157611 (Rv m d main_v20) (Rv m d main_v67)) transposes_S2x576x65536_S2x65536x576_0_2_1
  rw [Rv_in_window_1 main_v69 (by decide), Rv_in_window_1 main_v20 (by decide), Rv_in_window_1 main_v67 (by decide), after_cut 39 ops1]
  generalize after (List.take 39 (ops1 (F := Ideal))) (Rpre 1 m d) = Vq
  simp only [ops1, List.drop_succ_cons, List.drop_zero]
  after_results_simp

/-- Corner 0: the network's input is the flattening of the three parts side by side. -/
theorem Rinp0_eq : Rinp0 m d = shapeCast S131072x580
    (concatenate S2x65536x580 2 [⟨S2x65536x576, Rtr0 m d⟩, ⟨S2x65536x2, Rrelcoord0 m d⟩, ⟨S2x65536x2, Rrelcell0 m d⟩]
      concatenates_S2x65536x576_S2x65536x2_S2x65536x2_S2x65536x580_d2) shapeCasts_S2x65536x580_S131072x580 := by
  show Rv m d main_v100 = shapeCast S131072x580
    (concatenate S2x65536x580 2 [⟨S2x65536x576, Rv m d main_v69⟩, ⟨S2x65536x2, Rv m d main_v95⟩, ⟨S2x65536x2, Rv m d main_v98⟩]
      concatenates_S2x65536x576_S2x65536x2_S2x65536x2_S2x65536x580_d2) shapeCasts_S2x65536x580_S131072x580
  rw [Rv_in_window_2 main_v100 (by decide), Rv_in_window_2 main_v69 (by decide), Rv_in_window_2 main_v95 (by decide), Rv_in_window_2 main_v98 (by decide), after_cut 13 ops2]
  generalize after (List.take 13 (ops2 (F := Ideal))) (Rpre 2 m d) = Vq
  simp only [ops2, List.drop_succ_cons, List.drop_zero]
  after_results_simp
  rfl

/-- Corner 1: the gathered features turned channels-last are the turn of the gather of the unfolded feature map at the
    corner's indices. -/
theorem Rtr1_eq : Rtr1 m d = transpose S2x65536x576 [0, 2, 1]
    (Host.gather gather_S2x576x96x96_S2x65536x2_S2x576x65536_1_23_0_0_23_2_157611 (Rfeatu m d) (Ridx1 m d)) transposes_S2x576x65536_S2x65536x576_0_2_1 := by
  show Rv m d main_v182 = transpose S2x65536x576 [0, 2, 1]
    (Host.gather gather_S2x576x96x96_S2x65536x2_S2x576x65536_1_23_0_0_23_2_157611 (Rv m d main_v20) (Rv m d main_v180)) transposes_S2x576x65536_S2x65536x576_0_2_1
  rw [Rv_in_window_3 main_v182 (by decide), Rv_in_window_3 main_v20 (by decide), Rv_in_window_3 main_v180 (by decide), after_cut 66 ops3]
  generalize after (List.take 66 (ops3 (F := Ideal))) (Rpre 3 m d) = Vq
  simp only [ops3, List.drop_succ_cons, List.drop_zero]
  after_results_simp

/-- Corner 1: the network's input is the flattening of the three parts side by side. -/
theorem Rinp1_eq : Rinp1 m d = shapeCast S131072x580
    (concatenate S2x65536x580 2 [⟨S2x65536x576, Rtr1 m d⟩, ⟨S2x65536x2, Rrelcoord1 m d⟩, ⟨S2x65536x2, Rrelcell1 m d⟩]
      concatenates_S2x65536x576_S2x65536x2_S2x65536x2_S2x65536x580_d2) shapeCasts_S2x65536x580_S131072x580 := by
  show Rv m d main_v213 = shapeCast S131072x580
    (concatenate S2x65536x580 2 [⟨S2x65536x576, Rv m d main_v182⟩, ⟨S2x65536x2, Rv m d main_v208⟩, ⟨S2x65536x2, Rv m d main_v211⟩]
      concatenates_S2x65536x576_S2x65536x2_S2x65536x2_S2x65536x580_d2) shapeCasts_S2x65536x580_S131072x580
  rw [Rv_in_window_4 main_v213 (by decide), Rv_in_window_4 main_v182 (by decide), Rv_in_window_4 main_v208 (by decide), Rv_in_window_4 main_v211 (by decide), after_cut 35 ops4]
  generalize after (List.take 35 (ops4 (F := Ideal))) (Rpre 4 m d) = Vq
  simp only [ops4, List.drop_succ_cons, List.drop_zero]
  after_results_simp
  rfl

/-- Corner 2: the gathered features turned channels-last are the turn of the gather of the unfolded feature map at the
    corner's indices. -/
theorem Rtr2_eq : Rtr2 m d = transpose S2x65536x576 [0, 2, 1]
    (Host.gather gather_S2x576x96x96_S2x65536x2_S2x576x65536_1_23_0_0_23_2_157611 (Rfeatu m d) (Ridx2 m d)) transposes_S2x576x65536_S2x65536x576_0_2_1 := by
  show Rv m d main_v295 = transpose S2x65536x576 [0, 2, 1]
    (Host.gather gather_S2x576x96x96_S2x65536x2_S2x576x65536_1_23_0_0_23_2_157611 (Rv m d main_v20) (Rv m d main_v293)) transposes_S2x576x65536_S2x65536x576_0_2_1
  rw [Rv_in_window_6 main_v295 (by decide), Rv_in_window_6 main_v20 (by decide), Rv_in_window_6 main_v293 (by decide), after_cut 18 ops6]
  generalize after (List.take 18 (ops6 (F := Ideal))) (Rpre 6 m d) = Vq
  simp only [ops6, List.drop_succ_cons, List.drop_zero]
  after_results_simp

/-- Corner 2: the network's input is the flattening of the three parts side by side. -/
theorem Rinp2_eq : Rinp2 m d = shapeCast S131072x580
    (concatenate S2x65536x580 2 [⟨S2x65536x576, Rtr2 m d⟩, ⟨S2x65536x2, Rrelcoord2 m d⟩, ⟨S2x65536x2, Rrelcell2 m d⟩]
      concatenates_S2x65536x576_S2x65536x2_S2x65536x2_S2x65536x580_d2) shapeCasts_S2x65536x580_S131072x580 := by
  show Rv m d main_v326 = shapeCast S131072x580
    (concatenate S2x65536x580 2 [⟨S2x65536x576, Rv m d main_v295⟩, ⟨S2x65536x2, Rv m d main_v321⟩, ⟨S2x65536x2, Rv m d main_v324⟩]
      concatenates_S2x65536x576_S2x65536x2_S2x65536x2_S2x65536x580_d2) shapeCasts_S2x65536x580_S131072x580
  rw [Rv_in_window_6 main_v326 (by decide), Rv_in_window_6 main_v295 (by decide), Rv_in_window_6 main_v321 (by decide), Rv_in_window_6 main_v324 (by decide), after_cut 57 ops6]
  generalize after (List.take 57 (ops6 (F := Ideal))) (Rpre 6 m d) = Vq
  simp only [ops6, List.drop_succ_cons, List.drop_zero]
  after_results_simp
  rfl

/-- Corner 3: the gathered features turned channels-last are the turn of the gather of the unfolded feature map at the
    corner's indices. -/
theorem Rtr3_eq : Rtr3 m d = transpose S2x65536x576 [0, 2, 1]
    (Host.gather gather_S2x576x96x96_S2x65536x2_S2x576x65536_1_23_0_0_23_2_157611 (Rfeatu m d) (Ridx3 m d)) transposes_S2x576x65536_S2x65536x576_0_2_1 := by
  show Rv m d main_v408 = transpose S2x65536x576 [0, 2, 1]
    (Host.gather gather_S2x576x96x96_S2x65536x2_S2x576x65536_1_23_0_0_23_2_157611 (Rv m d main_v20) (Rv m d main_v406)) transposes_S2x576x65536_S2x65536x576_0_2_1
  rw [Rv_in_window_8 main_v408 (by decide), Rv_in_window_8 main_v20 (by decide), Rv_in_window_8 main_v406 (by decide), after_cut 45 ops8]
  generalize after (List.take 45 (ops8 (F := Ideal))) (Rpre 8 m d) = Vq
  simp only [ops8, List.drop_succ_cons, List.drop_zero]
  after_results_simp

/-- Corner 3: the network's input is the flattening of the three parts side by side. -/
theorem Rinp3_eq : Rinp3 m d = shapeCast S131072x580
    (concatenate S2x65536x580 2 [⟨S2x65536x576, Rtr3 m d⟩, ⟨S2x65536x2, Rrelcoord3 m d⟩, ⟨S2x65536x2, Rrelcell3 m d⟩]
      concatenates_S2x65536x576_S2x65536x2_S2x65536x2_S2x65536x580_d2) shapeCasts_S2x65536x580_S131072x580 := by
  show Rv m d main_v439 = shapeCast S131072x580
    (concatenate S2x65536x580 2 [⟨S2x65536x576, Rv m d main_v408⟩, ⟨S2x65536x2, Rv m d main_v434⟩, ⟨S2x65536x2, Rv m d main_v437⟩]
      concatenates_S2x65536x576_S2x65536x2_S2x65536x2_S2x65536x580_d2) shapeCasts_S2x65536x580_S131072x580
  rw [Rv_in_window_9 main_v439 (by decide), Rv_in_window_9 main_v408 (by decide), Rv_in_window_9 main_v434 (by decide), Rv_in_window_9 main_v437 (by decide), after_cut 19 ops9]
  generalize after (List.take 19 (ops9 (F := Ideal))) (Rpre 9 m d) = Vq
  simp only [ops9, List.drop_succ_cons, List.drop_zero]
  after_results_simp
  rfl

/-! ## A row's three parts -/

/-- Corner 0, the three parts of a row. -/
theorem inp0_feat (b : Fin 2) (q : Fin 65536) (i : Fin 576) :
    Rinp0 m d (ix2 (rowOf b q) (Fin.castAdd 4 i)) = Rfeatu m d (ix4 b i (gy (Ridx0 m d) b q) (gx (Ridx0 m d) b q)) := by
  rw [Rinp0_eq]
  refine (flat580_apply (α := EReal) _ shapeCasts_S2x65536x580_S131072x580 b q _).trans ?_
  refine (concat3_feat (α := EReal) _ _ _ concatenates_S2x65536x576_S2x65536x2_S2x65536x2_S2x65536x580_d2 b q i).trans ?_
  rw [Rtr0_eq]
  refine (transp_apply (α := EReal) _ transposes_S2x576x65536_S2x65536x576_0_2_1 b q i).trans ?_
  exact gatherR_apply (α := EReal) (Rfeatu m d) (Ridx0 m d) b i q
theorem inp0_relcoord (b : Fin 2) (q : Fin 65536) (i : Fin 2) :
    Rinp0 m d (ix2 (rowOf b q) (Fin.natAdd 576 (Fin.castAdd 2 i))) = Rrelcoord0 m d (ix3 b q i) := by
  rw [Rinp0_eq]
  refine (flat580_apply (α := EReal) _ shapeCasts_S2x65536x580_S131072x580 b q _).trans ?_
  exact concat3_rel (α := EReal) _ _ _ concatenates_S2x65536x576_S2x65536x2_S2x65536x2_S2x65536x580_d2 b q i
theorem inp0_relcell (b : Fin 2) (q : Fin 65536) (i : Fin 2) :
    Rinp0 m d (ix2 (rowOf b q) (Fin.natAdd 576 (Fin.natAdd 2 i))) = Rrelcell0 m d (ix3 b q i) := by
  rw [Rinp0_eq]
  refine (flat580_apply (α := EReal) _ shapeCasts_S2x65536x580_S131072x580 b q _).trans ?_
  exact concat3_cell (α := EReal) _ _ _ concatenates_S2x65536x576_S2x65536x2_S2x65536x2_S2x65536x580_d2 b q i

/-- Corner 1, the three parts of a row. -/
theorem inp1_feat (b : Fin 2) (q : Fin 65536) (i : Fin 576) :
    Rinp1 m d (ix2 (rowOf b q) (Fin.castAdd 4 i)) = Rfeatu m d (ix4 b i (gy (Ridx1 m d) b q) (gx (Ridx1 m d) b q)) := by
  rw [Rinp1_eq]
  refine (flat580_apply (α := EReal) _ shapeCasts_S2x65536x580_S131072x580 b q _).trans ?_
  refine (concat3_feat (α := EReal) _ _ _ concatenates_S2x65536x576_S2x65536x2_S2x65536x2_S2x65536x580_d2 b q i).trans ?_
  rw [Rtr1_eq]
  refine (transp_apply (α := EReal) _ transposes_S2x576x65536_S2x65536x576_0_2_1 b q i).trans ?_
  exact gatherR_apply (α := EReal) (Rfeatu m d) (Ridx1 m d) b i q
theorem inp1_relcoord (b : Fin 2) (q : Fin 65536) (i : Fin 2) :
    Rinp1 m d (ix2 (rowOf b q) (Fin.natAdd 576 (Fin.castAdd 2 i))) = Rrelcoord1 m d (ix3 b q i) := by
  rw [Rinp1_eq]
  refine (flat580_apply (α := EReal) _ shapeCasts_S2x65536x580_S131072x580 b q _).trans ?_
  exact concat3_rel (α := EReal) _ _ _ concatenates_S2x65536x576_S2x65536x2_S2x65536x2_S2x65536x580_d2 b q i
theorem inp1_relcell (b : Fin 2) (q : Fin 65536) (i : Fin 2) :
    Rinp1 m d (ix2 (rowOf b q) (Fin.natAdd 576 (Fin.natAdd 2 i))) = Rrelcell1 m d (ix3 b q i) := by
  rw [Rinp1_eq]
  refine (flat580_apply (α := EReal) _ shapeCasts_S2x65536x580_S131072x580 b q _).trans ?_
  exact concat3_cell (α := EReal) _ _ _ concatenates_S2x65536x576_S2x65536x2_S2x65536x2_S2x65536x580_d2 b q i

/-- Corner 2, the three parts of a row. -/
theorem inp2_feat (b : Fin 2) (q : Fin 65536) (i : Fin 576) :
    Rinp2 m d (ix2 (rowOf b q) (Fin.castAdd 4 i)) = Rfeatu m d (ix4 b i (gy (Ridx2 m d) b q) (gx (Ridx2 m d) b q)) := by
  rw [Rinp2_eq]
  refine (flat580_apply (α := EReal) _ shapeCasts_S2x65536x580_S131072x580 b q _).trans ?_
  refine (concat3_feat (α := EReal) _ _ _ concatenates_S2x65536x576_S2x65536x2_S2x65536x2_S2x65536x580_d2 b q i).trans ?_
  rw [Rtr2_eq]
  refine (transp_apply (α := EReal) _ transposes_S2x576x65536_S2x65536x576_0_2_1 b q i).trans ?_
  exact gatherR_apply (α := EReal) (Rfeatu m d) (Ridx2 m d) b i q
theorem inp2_relcoord (b : Fin 2) (q : Fin 65536) (i : Fin 2) :
    Rinp2 m d (ix2 (rowOf b q) (Fin.natAdd 576 (Fin.castAdd 2 i))) = Rrelcoord2 m d (ix3 b q i) := by
  rw [Rinp2_eq]
  refine (flat580_apply (α := EReal) _ shapeCasts_S2x65536x580_S131072x580 b q _).trans ?_
  exact concat3_rel (α := EReal) _ _ _ concatenates_S2x65536x576_S2x65536x2_S2x65536x2_S2x65536x580_d2 b q i
theorem inp2_relcell (b : Fin 2) (q : Fin 65536) (i : Fin 2) :
    Rinp2 m d (ix2 (rowOf b q) (Fin.natAdd 576 (Fin.natAdd 2 i))) = Rrelcell2 m d (ix3 b q i) := by
  rw [Rinp2_eq]
  refine (flat580_apply (α := EReal) _ shapeCasts_S2x65536x580_S131072x580 b q _).trans ?_
  exact concat3_cell (α := EReal) _ _ _ concatenates_S2x65536x576_S2x65536x2_S2x65536x2_S2x65536x580_d2 b q i

/-- Corner 3, the three parts of a row. -/
theorem inp3_feat (b : Fin 2) (q : Fin 65536) (i : Fin 576) :
    Rinp3 m d (ix2 (rowOf b q) (Fin.castAdd 4 i)) = Rfeatu m d (ix4 b i (gy (Ridx3 m d) b q) (gx (Ridx3 m d) b q)) := by
  rw [Rinp3_eq]
  refine (flat580_apply (α := EReal) _ shapeCasts_S2x65536x580_S131072x580 b q _).trans ?_
  refine (concat3_feat (α := EReal) _ _ _ concatenates_S2x65536x576_S2x65536x2_S2x65536x2_S2x65536x580_d2 b q i).trans ?_
  rw [Rtr3_eq]
  refine (transp_apply (α := EReal) _ transposes_S2x576x65536_S2x65536x576_0_2_1 b q i).trans ?_
  exact gatherR_apply (α := EReal) (Rfeatu m d) (Ridx3 m d) b i q
theorem inp3_relcoord (b : Fin 2) (q : Fin 65536) (i : Fin 2) :
    Rinp3 m d (ix2 (rowOf b q) (Fin.natAdd 576 (Fin.castAdd 2 i))) = Rrelcoord3 m d (ix3 b q i) := by
  rw [Rinp3_eq]
  refine (flat580_apply (α := EReal) _ shapeCasts_S2x65536x580_S131072x580 b q _).trans ?_
  exact concat3_rel (α := EReal) _ _ _ concatenates_S2x65536x576_S2x65536x2_S2x65536x2_S2x65536x580_d2 b q i
theorem inp3_relcell (b : Fin 2) (q : Fin 65536) (i : Fin 2) :
    Rinp3 m d (ix2 (rowOf b q) (Fin.natAdd 576 (Fin.natAdd 2 i))) = Rrelcell3 m d (ix3 b q i) := by
  rw [Rinp3_eq]
  refine (flat580_apply (α := EReal) _ shapeCasts_S2x65536x580_S131072x580 b q _).trans ?_
  exact concat3_cell (α := EReal) _ _ _ concatenates_S2x65536x576_S2x65536x2_S2x65536x2_S2x65536x580_d2 b q i

/-- THE FIRST 576 ENTRIES of corner `k`'s input row at query `(b, q)`: the unfolded feature map's 576 channels at the
    pixel the corner's index array names there. -/
theorem inpRow_feat (k : Fin 4) (b : Fin 2) (q : Fin 65536) (i : Fin 576) :
    inpRow m d k b q (Fin.castAdd 4 i) = Rfeatu m d (ix4 b i (gy (Ridx m d k) b q) (gx (Ridx m d k) b q)) := by
  match k with
  | ⟨0, _⟩ => exact inp0_feat m d b q i
  | ⟨1, _⟩ => exact inp1_feat m d b q i
  | ⟨2, _⟩ => exact inp2_feat m d b q i
  | ⟨3, _⟩ => exact inp3_feat m d b q i

/-- ENTRIES 576 AND 577: the corner's two relative coordinates. -/
theorem inpRow_relcoord (k : Fin 4) (b : Fin 2) (q : Fin 65536) (i : Fin 2) :
    inpRow m d k b q (Fin.natAdd 576 (Fin.castAdd 2 i)) = Rrelcoord m d k (ix3 b q i) := by
  match k with
  | ⟨0, _⟩ => exact inp0_relcoord m d b q i
  | ⟨1, _⟩ => exact inp1_relcoord m d b q i
  | ⟨2, _⟩ => exact inp2_relcoord m d b q i
  | ⟨3, _⟩ => exact inp3_relcoord m d b q i

/-- ENTRIES 578 AND 579: the corner's two relative cell sizes. -/
theorem inpRow_relcell (k : Fin 4) (b : Fin 2) (q : Fin 65536) (i : Fin 2) :
    inpRow m d k b q (Fin.natAdd 576 (Fin.natAdd 2 i)) = Rrelcell m d k (ix3 b q i) := by
  match k with
  | ⟨0, _⟩ => exact inp0_relcell m d b q i
  | ⟨1, _⟩ => exact inp1_relcell m d b q i
  | ⟨2, _⟩ => exact inp2_relcell m d b q i
  | ⟨3, _⟩ => exact inp3_relcell m d b q i

end Cert.ReferenceIdeal.Hand

end
-- ==== Proof.RReadU.lean ====
/-
  Two facts on straight lines of host operations, used to open a window of the plain program from a chosen operation on.
-/
import proofs.«100126_j36189394436483_2_alg».proof.Proof.RReadA
import Idealize.ShloMosaic.Lib.StableHlo.Run

noncomputable section

namespace Cert.ReferenceIdeal.Hand

open Cert.ReferenceIdeal Idealize.ShloMosaic Idealize.ShloMosaic.StableHlo

/-- The fold over a list is the fold over what is left past its first n operations, from the fold over those n. -/
theorem after_split (l : List (HloOp τ sig (Elt Ideal))) (n : Nat) (V : Valuation τ sig (Elt Ideal)) :
    after l V = after (l.drop n) (after (l.take n) V) := by
  have h : ∀ (t : List (HloOp τ sig (Elt Ideal))) (W : Valuation τ sig (Elt Ideal)),
      after (t ++ l.drop n) W = after (l.drop n) (after t W) := by
    intro t
    induction t with
    | nil => intro W; rfl
    | cons op t ih => intro W; exact ih (op.result W)
  have h' := h (l.take n) V
  rwa [List.take_append_drop] at h'

end Cert.ReferenceIdeal.Hand

end
-- ==== Proof.RReadW0.lean ====
/-
  The plain program's five dense layers for corner 0. Each step is read twice. First at an index inside the one window
  of host operations that computes it, from any contents before that window: the lemma opens the window from the first
  operation it reads, and names what it does not open as the window's own result (for a buffer the window does not
  write, that is what was there before). Then at the end of the whole run, where every buffer is named once. The five
  steps compose to the network's value on one query row.
-/
import proofs.«100126_j36189394436483_2_alg».proof.Proof.RReadU
import proofs.«100126_j36189394436483_2_alg».proof.Proof.RBase

set_option maxHeartbeats 1000000

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (d : Dev nD)

variable (V : Valuation τ sig (Elt Ideal))

/-! ## The five layers -/

/-- Layer 0's product, one entry: the row of the previous array against a column of the weights. -/
theorem w_dot_101 (n : Fin 131072) (j : Fin 256) :
    after (ops2 (F := Ideal)) V (Proc.devRef .tc main_v101) (ix2 n j)
      = Cert.Spec.rowDot (after (ops2 (F := Ideal)) V (Proc.devRef .tc main_arg3)) (fun i => after (ops2 (F := Ideal)) V (Proc.devRef .tc main_v100) (ix2 n i)) j := by
  rw [after_split ops2 15 V]
  generalize after (List.take 15 (ops2 (F := Ideal))) V = VA
  simp only [ops2, List.drop_succ_cons, List.drop_zero]
  after_results_simp
  exact dot580_apply _ _ n j

/-- At the end of the run: the same, every buffer at its final contents. -/
theorem f_dot_101 (n : Fin 131072) (j : Fin 256) :
    Rv m d main_v101 (ix2 n j) = Cert.Spec.rowDot (Rv m d main_arg3) (fun i => Rv m d main_v100 (ix2 n i)) j := by
  have h := w_dot_101 (Rpre 2 m d) n j
  simp only [← Rv_in_window_2 main_v101 (by decide), ← Rv_in_window_2 main_arg3 (by decide), ← Rv_in_window_2 main_v100 (by decide)] at h
  exact h

/-- Layer 0's bias, repeated down the rows. -/
theorem w_bias_103 (n : Fin 131072) (j : Fin 256) :
    after (ops2 (F := Ideal)) V (Proc.devRef .tc main_v103) (ix2 n j) = after (ops2 (F := Ideal)) V (Proc.devRef .tc main_arg4) (ix1 j) := by
  rw [after_split ops2 16 V]
  generalize after (List.take 16 (ops2 (F := Ideal))) V = VA
  simp only [ops2, List.drop_succ_cons, List.drop_zero]
  after_results_simp
  exact bias256_apply _ _ _ n j

/-- At the end of the run: the same, every buffer at its final contents. -/
theorem f_bias_103 (n : Fin 131072) (j : Fin 256) :
    Rv m d main_v103 (ix2 n j) = Rv m d main_arg4 (ix1 j) := by
  have h := w_bias_103 (Rpre 2 m d) n j
  simp only [← Rv_in_window_2 main_v103 (by decide), ← Rv_in_window_2 main_arg4 (by decide)] at h
  exact h

/-- Layer 0's sum and rectifier, over whatever the two summands' entries are. -/
theorem w_relu_105 (n : Fin 131072) (j : Fin 256) (P C : EReal)
    (hp : after (ops2 (F := Ideal)) V (Proc.devRef .tc main_v101) (ix2 n j) = P)
    (hc : after (ops2 (F := Ideal)) V (Proc.devRef .tc main_v103) (ix2 n j) = C) :
    after (ops2 (F := Ideal)) V (Proc.devRef .tc main_v105) (ix2 n j) = Cert.Spec.relu (P + C) := by
  revert hp hc
  rw [after_split ops2 18 V]
  generalize after (List.take 18 (ops2 (F := Ideal))) V = VA
  simp only [ops2, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_105 (n : Fin 131072) (j : Fin 256) (P C : EReal)
    (hp : Rv m d main_v101 (ix2 n j) = P) (hc : Rv m d main_v103 (ix2 n j) = C) :
    Rv m d main_v105 (ix2 n j) = Cert.Spec.relu (P + C) := by
  rw [Rv_in_window_2 main_v101 (by decide)] at hp
  rw [Rv_in_window_2 main_v103 (by decide)] at hc
  rw [Rv_in_window_2 main_v105 (by decide)]
  exact w_relu_105 (Rpre 2 m d) n j P C hp hc

/-- Layer 1's product, one entry: the row of the previous array against a column of the weights. -/
theorem w_dot_106 (n : Fin 131072) (j : Fin 256) :
    after (ops2 (F := Ideal)) V (Proc.devRef .tc main_v106) (ix2 n j)
      = Cert.Spec.rowDot (after (ops2 (F := Ideal)) V (Proc.devRef .tc main_arg5)) (fun i => after (ops2 (F := Ideal)) V (Proc.devRef .tc main_v105) (ix2 n i)) j := by
  rw [after_split ops2 22 V]
  generalize after (List.take 22 (ops2 (F := Ideal))) V = VA
  simp only [ops2, List.drop_succ_cons, List.drop_zero]
  after_results_simp
  exact dot256_apply _ _ n j

/-- At the end of the run: the same, every buffer at its final contents. -/
theorem f_dot_106 (n : Fin 131072) (j : Fin 256) :
    Rv m d main_v106 (ix2 n j) = Cert.Spec.rowDot (Rv m d main_arg5) (fun i => Rv m d main_v105 (ix2 n i)) j := by
  have h := w_dot_106 (Rpre 2 m d) n j
  simp only [← Rv_in_window_2 main_v106 (by decide), ← Rv_in_window_2 main_arg5 (by decide), ← Rv_in_window_2 main_v105 (by decide)] at h
  exact h

/-- Layer 1's bias, repeated down the rows. -/
theorem w_bias_108 (n : Fin 131072) (j : Fin 256) :
    after (ops2 (F := Ideal)) V (Proc.devRef .tc main_v108) (ix2 n j) = after (ops2 (F := Ideal)) V (Proc.devRef .tc main_arg6) (ix1 j) := by
  rw [after_split ops2 23 V]
  generalize after (List.take 23 (ops2 (F := Ideal))) V = VA
  simp only [ops2, List.drop_succ_cons, List.drop_zero]
  after_results_simp
  exact bias256_apply _ _ _ n j

/-- At the end of the run: the same, every buffer at its final contents. -/
theorem f_bias_108 (n : Fin 131072) (j : Fin 256) :
    Rv m d main_v108 (ix2 n j) = Rv m d main_arg6 (ix1 j) := by
  have h := w_bias_108 (Rpre 2 m d) n j
  simp only [← Rv_in_window_2 main_v108 (by decide), ← Rv_in_window_2 main_arg6 (by decide)] at h
  exact h

/-- Layer 1's sum and rectifier, over whatever the two summands' entries are. -/
theorem w_relu_110 (n : Fin 131072) (j : Fin 256) (P C : EReal)
    (hp : after (ops2 (F := Ideal)) V (Proc.devRef .tc main_v106) (ix2 n j) = P)
    (hc : after (ops2 (F := Ideal)) V (Proc.devRef .tc main_v108) (ix2 n j) = C) :
    after (ops2 (F := Ideal)) V (Proc.devRef .tc main_v110) (ix2 n j) = Cert.Spec.relu (P + C) := by
  revert hp hc
  rw [after_split ops2 25 V]
  generalize after (List.take 25 (ops2 (F := Ideal))) V = VA
  simp only [ops2, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_110 (n : Fin 131072) (j : Fin 256) (P C : EReal)
    (hp : Rv m d main_v106 (ix2 n j) = P) (hc : Rv m d main_v108 (ix2 n j) = C) :
    Rv m d main_v110 (ix2 n j) = Cert.Spec.relu (P + C) := by
  rw [Rv_in_window_2 main_v106 (by decide)] at hp
  rw [Rv_in_window_2 main_v108 (by decide)] at hc
  rw [Rv_in_window_2 main_v110 (by decide)]
  exact w_relu_110 (Rpre 2 m d) n j P C hp hc

/-- Layer 2's product, one entry: the row of the previous array against a column of the weights. -/
theorem w_dot_111 (n : Fin 131072) (j : Fin 256) :
    after (ops2 (F := Ideal)) V (Proc.devRef .tc main_v111) (ix2 n j)
      = Cert.Spec.rowDot (after (ops2 (F := Ideal)) V (Proc.devRef .tc main_arg7)) (fun i => after (ops2 (F := Ideal)) V (Proc.devRef .tc main_v110) (ix2 n i)) j := by
  rw [after_split ops2 29 V]
  generalize after (List.take 29 (ops2 (F := Ideal))) V = VA
  simp only [ops2, List.drop_succ_cons, List.drop_zero]
  after_results_simp
  exact dot256_apply _ _ n j

/-- At the end of the run: the same, every buffer at its final contents. -/
theorem f_dot_111 (n : Fin 131072) (j : Fin 256) :
    Rv m d main_v111 (ix2 n j) = Cert.Spec.rowDot (Rv m d main_arg7) (fun i => Rv m d main_v110 (ix2 n i)) j := by
  have h := w_dot_111 (Rpre 2 m d) n j
  simp only [← Rv_in_window_2 main_v111 (by decide), ← Rv_in_window_2 main_arg7 (by decide), ← Rv_in_window_2 main_v110 (by decide)] at h
  exact h

/-- Layer 2's bias, repeated down the rows. -/
theorem w_bias_113 (n : Fin 131072) (j : Fin 256) :
    after (ops2 (F := Ideal)) V (Proc.devRef .tc main_v113) (ix2 n j) = after (ops2 (F := Ideal)) V (Proc.devRef .tc main_arg8) (ix1 j) := by
  rw [after_split ops2 30 V]
  generalize after (List.take 30 (ops2 (F := Ideal))) V = VA
  simp only [ops2, List.drop_succ_cons, List.drop_zero]
  after_results_simp
  exact bias256_apply _ _ _ n j

/-- At the end of the run: the same, every buffer at its final contents. -/
theorem f_bias_113 (n : Fin 131072) (j : Fin 256) :
    Rv m d main_v113 (ix2 n j) = Rv m d main_arg8 (ix1 j) := by
  have h := w_bias_113 (Rpre 2 m d) n j
  simp only [← Rv_in_window_2 main_v113 (by decide), ← Rv_in_window_2 main_arg8 (by decide)] at h
  exact h

/-- Layer 2's sum and rectifier, over whatever the two summands' entries are. -/
theorem w_relu_115 (n : Fin 131072) (j : Fin 256) (P C : EReal)
    (hp : after (ops2 (F := Ideal)) V (Proc.devRef .tc main_v111) (ix2 n j) = P)
    (hc : after (ops2 (F := Ideal)) V (Proc.devRef .tc main_v113) (ix2 n j) = C) :
    after (ops2 (F := Ideal)) V (Proc.devRef .tc main_v115) (ix2 n j) = Cert.Spec.relu (P + C) := by
  revert hp hc
  rw [after_split ops2 32 V]
  generalize after (List.take 32 (ops2 (F := Ideal))) V = VA
  simp only [ops2, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_115 (n : Fin 131072) (j : Fin 256) (P C : EReal)
    (hp : Rv m d main_v111 (ix2 n j) = P) (hc : Rv m d main_v113 (ix2 n j) = C) :
    Rv m d main_v115 (ix2 n j) = Cert.Spec.relu (P + C) := by
  rw [Rv_in_window_2 main_v111 (by decide)] at hp
  rw [Rv_in_window_2 main_v113 (by decide)] at hc
  rw [Rv_in_window_2 main_v115 (by decide)]
  exact w_relu_115 (Rpre 2 m d) n j P C hp hc

/-- Layer 3's product, one entry: the row of the previous array against a column of the weights. -/
theorem w_dot_116 (n : Fin 131072) (j : Fin 256) :
    after (ops2 (F := Ideal)) V (Proc.devRef .tc main_v116) (ix2 n j)
      = Cert.Spec.rowDot (after (ops2 (F := Ideal)) V (Proc.devRef .tc main_arg9)) (fun i => after (ops2 (F := Ideal)) V (Proc.devRef .tc main_v115) (ix2 n i)) j := by
  rw [after_split ops2 36 V]
  generalize after (List.take 36 (ops2 (F := Ideal))) V = VA
  simp only [ops2, List.drop_succ_cons, List.drop_zero]
  after_results_simp
  exact dot256_apply _ _ n j

/-- At the end of the run: the same, every buffer at its final contents. -/
theorem f_dot_116 (n : Fin 131072) (j : Fin 256) :
    Rv m d main_v116 (ix2 n j) = Cert.Spec.rowDot (Rv m d main_arg9) (fun i => Rv m d main_v115 (ix2 n i)) j := by
  have h := w_dot_116 (Rpre 2 m d) n j
  simp only [← Rv_in_window_2 main_v116 (by decide), ← Rv_in_window_2 main_arg9 (by decide), ← Rv_in_window_2 main_v115 (by decide)] at h
  exact h

/-- Layer 3's bias, repeated down the rows. -/
theorem w_bias_118 (n : Fin 131072) (j : Fin 256) :
    after (ops2 (F := Ideal)) V (Proc.devRef .tc main_v118) (ix2 n j) = after (ops2 (F := Ideal)) V (Proc.devRef .tc main_arg10) (ix1 j) := by
  rw [after_split ops2 37 V]
  generalize after (List.take 37 (ops2 (F := Ideal))) V = VA
  simp only [ops2, List.drop_succ_cons, List.drop_zero]
  after_results_simp
  exact bias256_apply _ _ _ n j

/-- At the end of the run: the same, every buffer at its final contents. -/
theorem f_bias_118 (n : Fin 131072) (j : Fin 256) :
    Rv m d main_v118 (ix2 n j) = Rv m d main_arg10 (ix1 j) := by
  have h := w_bias_118 (Rpre 2 m d) n j
  simp only [← Rv_in_window_2 main_v118 (by decide), ← Rv_in_window_2 main_arg10 (by decide)] at h
  exact h

/-- Layer 3's sum and rectifier, over whatever the two summands' entries are. -/
theorem w_relu_120 (n : Fin 131072) (j : Fin 256) (P C : EReal)
    (hp : after (ops2 (F := Ideal)) V (Proc.devRef .tc main_v116) (ix2 n j) = P)
    (hc : after (ops2 (F := Ideal)) V (Proc.devRef .tc main_v118) (ix2 n j) = C) :
    after (ops2 (F := Ideal)) V (Proc.devRef .tc main_v120) (ix2 n j) = Cert.Spec.relu (P + C) := by
  revert hp hc
  rw [after_split ops2 39 V]
  generalize after (List.take 39 (ops2 (F := Ideal))) V = VA
  simp only [ops2, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_120 (n : Fin 131072) (j : Fin 256) (P C : EReal)
    (hp : Rv m d main_v116 (ix2 n j) = P) (hc : Rv m d main_v118 (ix2 n j) = C) :
    Rv m d main_v120 (ix2 n j) = Cert.Spec.relu (P + C) := by
  rw [Rv_in_window_2 main_v116 (by decide)] at hp
  rw [Rv_in_window_2 main_v118 (by decide)] at hc
  rw [Rv_in_window_2 main_v120 (by decide)]
  exact w_relu_120 (Rpre 2 m d) n j P C hp hc

/-- The read-out product, one entry. -/
theorem w_dot_121 (n : Fin 131072) (o : Fin 2) :
    after (ops2 (F := Ideal)) V (Proc.devRef .tc main_v121) (ix2 n o)
      = Cert.Spec.rowDot (after (ops2 (F := Ideal)) V (Proc.devRef .tc main_arg11)) (fun i => after (ops2 (F := Ideal)) V (Proc.devRef .tc main_v120) (ix2 n i)) o := by
  rw [after_split ops2 43 V]
  generalize after (List.take 43 (ops2 (F := Ideal))) V = VA
  simp only [ops2, List.drop_succ_cons, List.drop_zero]
  after_results_simp
  exact dot2_apply _ _ n o

/-- At the end of the run: the same, every buffer at its final contents. -/
theorem f_dot_121 (n : Fin 131072) (o : Fin 2) :
    Rv m d main_v121 (ix2 n o) = Cert.Spec.rowDot (Rv m d main_arg11) (fun i => Rv m d main_v120 (ix2 n i)) o := by
  have h := w_dot_121 (Rpre 2 m d) n o
  simp only [← Rv_in_window_2 main_v121 (by decide), ← Rv_in_window_2 main_arg11 (by decide), ← Rv_in_window_2 main_v120 (by decide)] at h
  exact h

/-- The read-out bias, repeated down the rows. -/
theorem w_bias_123 (n : Fin 131072) (o : Fin 2) :
    after (ops2 (F := Ideal)) V (Proc.devRef .tc main_v123) (ix2 n o) = after (ops2 (F := Ideal)) V (Proc.devRef .tc main_arg12) (ix1 o) := by
  rw [after_split ops2 44 V]
  generalize after (List.take 44 (ops2 (F := Ideal))) V = VA
  simp only [ops2, List.drop_succ_cons, List.drop_zero]
  after_results_simp
  exact bias2_apply _ _ _ n o

/-- At the end of the run: the same, every buffer at its final contents. -/
theorem f_bias_123 (n : Fin 131072) (o : Fin 2) :
    Rv m d main_v123 (ix2 n o) = Rv m d main_arg12 (ix1 o) := by
  have h := w_bias_123 (Rpre 2 m d) n o
  simp only [← Rv_in_window_2 main_v123 (by decide), ← Rv_in_window_2 main_arg12 (by decide)] at h
  exact h

/-- The read-out sum, with the row axis split back into (batch, query). -/
theorem w_out_125 (b : Fin 2) (q : Fin 65536) (o : Fin 2) (P C : EReal)
    (hp : after (ops2 (F := Ideal)) V (Proc.devRef .tc main_v121) (ix2 (rowOf b q) o) = P)
    (hc : after (ops2 (F := Ideal)) V (Proc.devRef .tc main_v123) (ix2 (rowOf b q) o) = C) :
    after (ops2 (F := Ideal)) V (Proc.devRef .tc main_v125) (ix3 b q o) = P + C := by
  revert hp hc
  rw [after_split ops2 46 V]
  generalize after (List.take 46 (ops2 (F := Ideal))) V = VA
  simp only [ops2, List.drop_succ_cons, List.drop_zero]
  after_results_simp
  intro hp hc
  exact (unflat2_apply _ _ b q o).trans ((addf_apply _ _ _).trans (congrArg₂ (· + ·) hp hc))

/-- At the end of the run: the same, every buffer at its final contents. -/
theorem f_out_125 (b : Fin 2) (q : Fin 65536) (o : Fin 2) (P C : EReal)
    (hp : Rv m d main_v121 (ix2 (rowOf b q) o) = P) (hc : Rv m d main_v123 (ix2 (rowOf b q) o) = C) :
    Rv m d main_v125 (ix3 b q o) = P + C := by
  rw [Rv_in_window_2 main_v121 (by decide)] at hp
  rw [Rv_in_window_2 main_v123 (by decide)] at hc
  rw [Rv_in_window_2 main_v125 (by decide)]
  exact w_out_125 (Rpre 2 m d) b q o P C hp hc

/-! ## The network on one query row -/

/-- The prediction of corner 0 at (batch b, query q, output o): the four later layers applied to the first layer's
    value on the row 65536·b + q of the flattened input. -/
theorem pred_row_0 (b : Fin 2) (q : Fin 65536) (o : Fin 2) :
    Rv m d main_v125 (ix3 b q o)
      = Cert.Spec.mlpTail (Rv m d main_arg5) (fun j => Rv m d main_arg6 (ix1 j)) (Rv m d main_arg7) (fun j => Rv m d main_arg8 (ix1 j))
          (Rv m d main_arg9) (fun j => Rv m d main_arg10 (ix1 j)) (Rv m d main_arg11) (fun j => Rv m d main_arg12 (ix1 j))
          (Cert.Spec.layer0Whole (Rv m d main_arg3) (fun j => Rv m d main_arg4 (ix1 j))
            (fun i => Rv m d main_v100 (ix2 (rowOf b q) i))) o := by
  have e0 : (fun j => Rv m d main_v105 (ix2 (rowOf b q) j))
      = Cert.Spec.layer0Whole (Rv m d main_arg3) (fun j => Rv m d main_arg4 (ix1 j)) (fun i => Rv m d main_v100 (ix2 (rowOf b q) i)) :=
    funext fun j => f_relu_105 m d _ j _ _ (f_dot_101 m d _ j) (f_bias_103 m d _ j)
  have e1 : (fun j => Rv m d main_v110 (ix2 (rowOf b q) j))
      = fun j => Cert.Spec.relu (Cert.Spec.dense (Rv m d main_arg5) (fun j => Rv m d main_arg6 (ix1 j)) (fun i => Rv m d main_v105 (ix2 (rowOf b q) i)) j) :=
    funext fun j => f_relu_110 m d _ j _ _ (f_dot_106 m d _ j) (f_bias_108 m d _ j)
  have e2 : (fun j => Rv m d main_v115 (ix2 (rowOf b q) j))
      = fun j => Cert.Spec.relu (Cert.Spec.dense (Rv m d main_arg7) (fun j => Rv m d main_arg8 (ix1 j)) (fun i => Rv m d main_v110 (ix2 (rowOf b q) i)) j) :=
    funext fun j => f_relu_115 m d _ j _ _ (f_dot_111 m d _ j) (f_bias_113 m d _ j)
  have e3 : (fun j => Rv m d main_v120 (ix2 (rowOf b q) j))
      = fun j => Cert.Spec.relu (Cert.Spec.dense (Rv m d main_arg9) (fun j => Rv m d main_arg10 (ix1 j)) (fun i => Rv m d main_v115 (ix2 (rowOf b q) i)) j) :=
    funext fun j => f_relu_120 m d _ j _ _ (f_dot_116 m d _ j) (f_bias_118 m d _ j)
  have e4 : Rv m d main_v125 (ix3 b q o)
      = Cert.Spec.dense (Rv m d main_arg11) (fun j => Rv m d main_arg12 (ix1 j)) (fun i => Rv m d main_v120 (ix2 (rowOf b q) i)) o :=
    f_out_125 m d b q o _ _ (f_dot_121 m d _ o) (f_bias_123 m d _ o)
  rw [e4, e3, e2, e1, e0]
  rfl

end Cert.ReferenceIdeal.Hand

end
-- ==== Proof.RReadW1.lean ====
/-
  The plain program's five dense layers for corner 1. Each step is read twice. First at an index inside the one window
  of host operations that computes it, from any contents before that window: the lemma opens the window from the first
  operation it reads, and names what it does not open as the window's own result (for a buffer the window does not
  write, that is what was there before). Then at the end of the whole run, where every buffer is named once. The five
  steps compose to the network's value on one query row.
-/
import proofs.«100126_j36189394436483_2_alg».proof.Proof.RReadU
import proofs.«100126_j36189394436483_2_alg».proof.Proof.RBase

set_option maxHeartbeats 1000000

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (d : Dev nD)

variable (V : Valuation τ sig (Elt Ideal))

/-! ## The five layers -/

/-- Layer 0's product, one entry: the row of the previous array against a column of the weights. -/
theorem w_dot_214 (n : Fin 131072) (j : Fin 256) :
    after (ops4 (F := Ideal)) V (Proc.devRef .tc main_v214) (ix2 n j)
      = Cert.Spec.rowDot (after (ops4 (F := Ideal)) V (Proc.devRef .tc main_arg3)) (fun i => after (ops4 (F := Ideal)) V (Proc.devRef .tc main_v213) (ix2 n i)) j := by
  rw [after_split ops4 37 V]
  generalize after (List.take 37 (ops4 (F := Ideal))) V = VA
  simp only [ops4, List.drop_succ_cons, List.drop_zero]
  after_results_simp
  exact dot580_apply _ _ n j

/-- At the end of the run: the same, every buffer at its final contents. -/
theorem f_dot_214 (n : Fin 131072) (j : Fin 256) :
    Rv m d main_v214 (ix2 n j) = Cert.Spec.rowDot (Rv m d main_arg3) (fun i => Rv m d main_v213 (ix2 n i)) j := by
  have h := w_dot_214 (Rpre 4 m d) n j
  simp only [← Rv_in_window_4 main_v214 (by decide), ← Rv_in_window_4 main_arg3 (by decide), ← Rv_in_window_4 main_v213 (by decide)] at h
  exact h

/-- Layer 0's bias, repeated down the rows. -/
theorem w_bias_216 (n : Fin 131072) (j : Fin 256) :
    after (ops4 (F := Ideal)) V (Proc.devRef .tc main_v216) (ix2 n j) = after (ops4 (F := Ideal)) V (Proc.devRef .tc main_arg4) (ix1 j) := by
  rw [after_split ops4 38 V]
  generalize after (List.take 38 (ops4 (F := Ideal))) V = VA
  simp only [ops4, List.drop_succ_cons, List.drop_zero]
  after_results_simp
  exact bias256_apply _ _ _ n j

/-- At the end of the run: the same, every buffer at its final contents. -/
theorem f_bias_216 (n : Fin 131072) (j : Fin 256) :
    Rv m d main_v216 (ix2 n j) = Rv m d main_arg4 (ix1 j) := by
  have h := w_bias_216 (Rpre 4 m d) n j
  simp only [← Rv_in_window_4 main_v216 (by decide), ← Rv_in_window_4 main_arg4 (by decide)] at h
  exact h

/-- Layer 0's sum and rectifier, over whatever the two summands' entries are. -/
theorem w_relu_218 (n : Fin 131072) (j : Fin 256) (P C : EReal)
    (hp : after (ops4 (F := Ideal)) V (Proc.devRef .tc main_v214) (ix2 n j) = P)
    (hc : after (ops4 (F := Ideal)) V (Proc.devRef .tc main_v216) (ix2 n j) = C) :
    after (ops4 (F := Ideal)) V (Proc.devRef .tc main_v218) (ix2 n j) = Cert.Spec.relu (P + C) := by
  revert hp hc
  rw [after_split ops4 40 V]
  generalize after (List.take 40 (ops4 (F := Ideal))) V = VA
  simp only [ops4, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_218 (n : Fin 131072) (j : Fin 256) (P C : EReal)
    (hp : Rv m d main_v214 (ix2 n j) = P) (hc : Rv m d main_v216 (ix2 n j) = C) :
    Rv m d main_v218 (ix2 n j) = Cert.Spec.relu (P + C) := by
  rw [Rv_in_window_4 main_v214 (by decide)] at hp
  rw [Rv_in_window_4 main_v216 (by decide)] at hc
  rw [Rv_in_window_4 main_v218 (by decide)]
  exact w_relu_218 (Rpre 4 m d) n j P C hp hc

/-- Layer 1's product, one entry: the row of the previous array against a column of the weights. -/
theorem w_dot_219 (n : Fin 131072) (j : Fin 256) :
    after (ops4 (F := Ideal)) V (Proc.devRef .tc main_v219) (ix2 n j)
      = Cert.Spec.rowDot (after (ops4 (F := Ideal)) V (Proc.devRef .tc main_arg5)) (fun i => after (ops4 (F := Ideal)) V (Proc.devRef .tc main_v218) (ix2 n i)) j := by
  rw [after_split ops4 44 V]
  generalize after (List.take 44 (ops4 (F := Ideal))) V = VA
  simp only [ops4, List.drop_succ_cons, List.drop_zero]
  after_results_simp
  exact dot256_apply _ _ n j

/-- At the end of the run: the same, every buffer at its final contents. -/
theorem f_dot_219 (n : Fin 131072) (j : Fin 256) :
    Rv m d main_v219 (ix2 n j) = Cert.Spec.rowDot (Rv m d main_arg5) (fun i => Rv m d main_v218 (ix2 n i)) j := by
  have h := w_dot_219 (Rpre 4 m d) n j
  simp only [← Rv_in_window_4 main_v219 (by decide), ← Rv_in_window_4 main_arg5 (by decide), ← Rv_in_window_4 main_v218 (by decide)] at h
  exact h

/-- Layer 1's bias, repeated down the rows. -/
theorem w_bias_221 (n : Fin 131072) (j : Fin 256) :
    after (ops4 (F := Ideal)) V (Proc.devRef .tc main_v221) (ix2 n j) = after (ops4 (F := Ideal)) V (Proc.devRef .tc main_arg6) (ix1 j) := by
  rw [after_split ops4 45 V]
  generalize after (List.take 45 (ops4 (F := Ideal))) V = VA
  simp only [ops4, List.drop_succ_cons, List.drop_zero]
  after_results_simp
  exact bias256_apply _ _ _ n j

/-- At the end of the run: the same, every buffer at its final contents. -/
theorem f_bias_221 (n : Fin 131072) (j : Fin 256) :
    Rv m d main_v221 (ix2 n j) = Rv m d main_arg6 (ix1 j) := by
  have h := w_bias_221 (Rpre 4 m d) n j
  simp only [← Rv_in_window_4 main_v221 (by decide), ← Rv_in_window_4 main_arg6 (by decide)] at h
  exact h

/-- Layer 1's sum and rectifier, over whatever the two summands' entries are. -/
theorem w_relu_223 (n : Fin 131072) (j : Fin 256) (P C : EReal)
    (hp : after (ops4 (F := Ideal)) V (Proc.devRef .tc main_v219) (ix2 n j) = P)
    (hc : after (ops4 (F := Ideal)) V (Proc.devRef .tc main_v221) (ix2 n j) = C) :
    after (ops4 (F := Ideal)) V (Proc.devRef .tc main_v223) (ix2 n j) = Cert.Spec.relu (P + C) := by
  revert hp hc
  rw [after_split ops4 47 V]
  generalize after (List.take 47 (ops4 (F := Ideal))) V = VA
  simp only [ops4, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_223 (n : Fin 131072) (j : Fin 256) (P C : EReal)
    (hp : Rv m d main_v219 (ix2 n j) = P) (hc : Rv m d main_v221 (ix2 n j) = C) :
    Rv m d main_v223 (ix2 n j) = Cert.Spec.relu (P + C) := by
  rw [Rv_in_window_4 main_v219 (by decide)] at hp
  rw [Rv_in_window_4 main_v221 (by decide)] at hc
  rw [Rv_in_window_4 main_v223 (by decide)]
  exact w_relu_223 (Rpre 4 m d) n j P C hp hc

/-- Layer 2's product, one entry: the row of the previous array against a column of the weights. -/
theorem w_dot_224 (n : Fin 131072) (j : Fin 256) :
    after (ops4 (F := Ideal)) V (Proc.devRef .tc main_v224) (ix2 n j)
      = Cert.Spec.rowDot (after (ops4 (F := Ideal)) V (Proc.devRef .tc main_arg7)) (fun i => after (ops4 (F := Ideal)) V (Proc.devRef .tc main_v223) (ix2 n i)) j := by
  rw [after_split ops4 51 V]
  generalize after (List.take 51 (ops4 (F := Ideal))) V = VA
  simp only [ops4, List.drop_succ_cons, List.drop_zero]
  after_results_simp
  exact dot256_apply _ _ n j

/-- At the end of the run: the same, every buffer at its final contents. -/
theorem f_dot_224 (n : Fin 131072) (j : Fin 256) :
    Rv m d main_v224 (ix2 n j) = Cert.Spec.rowDot (Rv m d main_arg7) (fun i => Rv m d main_v223 (ix2 n i)) j := by
  have h := w_dot_224 (Rpre 4 m d) n j
  simp only [← Rv_in_window_4 main_v224 (by decide), ← Rv_in_window_4 main_arg7 (by decide), ← Rv_in_window_4 main_v223 (by decide)] at h
  exact h

/-- Layer 2's bias, repeated down the rows. -/
theorem w_bias_226 (n : Fin 131072) (j : Fin 256) :
    after (ops4 (F := Ideal)) V (Proc.devRef .tc main_v226) (ix2 n j) = after (ops4 (F := Ideal)) V (Proc.devRef .tc main_arg8) (ix1 j) := by
  rw [after_split ops4 52 V]
  generalize after (List.take 52 (ops4 (F := Ideal))) V = VA
  simp only [ops4, List.drop_succ_cons, List.drop_zero]
  after_results_simp
  exact bias256_apply _ _ _ n j

/-- At the end of the run: the same, every buffer at its final contents. -/
theorem f_bias_226 (n : Fin 131072) (j : Fin 256) :
    Rv m d main_v226 (ix2 n j) = Rv m d main_arg8 (ix1 j) := by
  have h := w_bias_226 (Rpre 4 m d) n j
  simp only [← Rv_in_window_4 main_v226 (by decide), ← Rv_in_window_4 main_arg8 (by decide)] at h
  exact h

/-- Layer 2's sum and rectifier, over whatever the two summands' entries are. -/
theorem w_relu_228 (n : Fin 131072) (j : Fin 256) (P C : EReal)
    (hp : after (ops4 (F := Ideal)) V (Proc.devRef .tc main_v224) (ix2 n j) = P)
    (hc : after (ops4 (F := Ideal)) V (Proc.devRef .tc main_v226) (ix2 n j) = C) :
    after (ops4 (F := Ideal)) V (Proc.devRef .tc main_v228) (ix2 n j) = Cert.Spec.relu (P + C) := by
  revert hp hc
  rw [after_split ops4 54 V]
  generalize after (List.take 54 (ops4 (F := Ideal))) V = VA
  simp only [ops4, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_228 (n : Fin 131072) (j : Fin 256) (P C : EReal)
    (hp : Rv m d main_v224 (ix2 n j) = P) (hc : Rv m d main_v226 (ix2 n j) = C) :
    Rv m d main_v228 (ix2 n j) = Cert.Spec.relu (P + C) := by
  rw [Rv_in_window_4 main_v224 (by decide)] at hp
  rw [Rv_in_window_4 main_v226 (by decide)] at hc
  rw [Rv_in_window_4 main_v228 (by decide)]
  exact w_relu_228 (Rpre 4 m d) n j P C hp hc

/-- Layer 3's product, one entry: the row of the previous array against a column of the weights. -/
theorem w_dot_229 (n : Fin 131072) (j : Fin 256) :
    after (ops4 (F := Ideal)) V (Proc.devRef .tc main_v229) (ix2 n j)
      = Cert.Spec.rowDot (after (ops4 (F := Ideal)) V (Proc.devRef .tc main_arg9)) (fun i => after (ops4 (F := Ideal)) V (Proc.devRef .tc main_v228) (ix2 n i)) j := by
  rw [after_split ops4 58 V]
  generalize after (List.take 58 (ops4 (F := Ideal))) V = VA
  simp only [ops4, List.drop_succ_cons, List.drop_zero]
  after_results_simp
  exact dot256_apply _ _ n j

/-- At the end of the run: the same, every buffer at its final contents. -/
theorem f_dot_229 (n : Fin 131072) (j : Fin 256) :
    Rv m d main_v229 (ix2 n j) = Cert.Spec.rowDot (Rv m d main_arg9) (fun i => Rv m d main_v228 (ix2 n i)) j := by
  have h := w_dot_229 (Rpre 4 m d) n j
  simp only [← Rv_in_window_4 main_v229 (by decide), ← Rv_in_window_4 main_arg9 (by decide), ← Rv_in_window_4 main_v228 (by decide)] at h
  exact h

/-- Layer 3's bias, repeated down the rows. -/
theorem w_bias_231 (n : Fin 131072) (j : Fin 256) :
    after (ops4 (F := Ideal)) V (Proc.devRef .tc main_v231) (ix2 n j) = after (ops4 (F := Ideal)) V (Proc.devRef .tc main_arg10) (ix1 j) := by
  rw [after_split ops4 59 V]
  generalize after (List.take 59 (ops4 (F := Ideal))) V = VA
  simp only [ops4, List.drop_succ_cons, List.drop_zero]
  after_results_simp
  exact bias256_apply _ _ _ n j

/-- At the end of the run: the same, every buffer at its final contents. -/
theorem f_bias_231 (n : Fin 131072) (j : Fin 256) :
    Rv m d main_v231 (ix2 n j) = Rv m d main_arg10 (ix1 j) := by
  have h := w_bias_231 (Rpre 4 m d) n j
  simp only [← Rv_in_window_4 main_v231 (by decide), ← Rv_in_window_4 main_arg10 (by decide)] at h
  exact h

/-- Layer 3's sum and rectifier, over whatever the two summands' entries are. -/
theorem w_relu_233 (n : Fin 131072) (j : Fin 256) (P C : EReal)
    (hp : after (ops4 (F := Ideal)) V (Proc.devRef .tc main_v229) (ix2 n j) = P)
    (hc : after (ops4 (F := Ideal)) V (Proc.devRef .tc main_v231) (ix2 n j) = C) :
    after (ops4 (F := Ideal)) V (Proc.devRef .tc main_v233) (ix2 n j) = Cert.Spec.relu (P + C) := by
  revert hp hc
  rw [after_split ops4 61 V]
  generalize after (List.take 61 (ops4 (F := Ideal))) V = VA
  simp only [ops4, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_233 (n : Fin 131072) (j : Fin 256) (P C : EReal)
    (hp : Rv m d main_v229 (ix2 n j) = P) (hc : Rv m d main_v231 (ix2 n j) = C) :
    Rv m d main_v233 (ix2 n j) = Cert.Spec.relu (P + C) := by
  rw [Rv_in_window_4 main_v229 (by decide)] at hp
  rw [Rv_in_window_4 main_v231 (by decide)] at hc
  rw [Rv_in_window_4 main_v233 (by decide)]
  exact w_relu_233 (Rpre 4 m d) n j P C hp hc

/-- The read-out product, one entry. -/
theorem w_dot_234 (n : Fin 131072) (o : Fin 2) :
    after (ops4 (F := Ideal)) V (Proc.devRef .tc main_v234) (ix2 n o)
      = Cert.Spec.rowDot (after (ops4 (F := Ideal)) V (Proc.devRef .tc main_arg11)) (fun i => after (ops4 (F := Ideal)) V (Proc.devRef .tc main_v233) (ix2 n i)) o := by
  rw [after_split ops4 65 V]
  generalize after (List.take 65 (ops4 (F := Ideal))) V = VA
  simp only [ops4, List.drop_succ_cons, List.drop_zero]
  after_results_simp
  exact dot2_apply _ _ n o

/-- At the end of the run: the same, every buffer at its final contents. -/
theorem f_dot_234 (n : Fin 131072) (o : Fin 2) :
    Rv m d main_v234 (ix2 n o) = Cert.Spec.rowDot (Rv m d main_arg11) (fun i => Rv m d main_v233 (ix2 n i)) o := by
  have h := w_dot_234 (Rpre 4 m d) n o
  simp only [← Rv_in_window_4 main_v234 (by decide), ← Rv_in_window_4 main_arg11 (by decide), ← Rv_in_window_4 main_v233 (by decide)] at h
  exact h

/-- The read-out bias, repeated down the rows. -/
theorem w_bias_236 (n : Fin 131072) (o : Fin 2) :
    after (ops4 (F := Ideal)) V (Proc.devRef .tc main_v236) (ix2 n o) = after (ops4 (F := Ideal)) V (Proc.devRef .tc main_arg12) (ix1 o) := by
  rw [after_split ops4 66 V]
  generalize after (List.take 66 (ops4 (F := Ideal))) V = VA
  simp only [ops4, List.drop_succ_cons, List.drop_zero]
  after_results_simp
  exact bias2_apply _ _ _ n o

/-- At the end of the run: the same, every buffer at its final contents. -/
theorem f_bias_236 (n : Fin 131072) (o : Fin 2) :
    Rv m d main_v236 (ix2 n o) = Rv m d main_arg12 (ix1 o) := by
  have h := w_bias_236 (Rpre 4 m d) n o
  simp only [← Rv_in_window_4 main_v236 (by decide), ← Rv_in_window_4 main_arg12 (by decide)] at h
  exact h

/-- The read-out sum, with the row axis split back into (batch, query). -/
theorem w_out_238 (b : Fin 2) (q : Fin 65536) (o : Fin 2) (P C : EReal)
    (hp : after (ops5 (F := Ideal)) V (Proc.devRef .tc main_v234) (ix2 (rowOf b q) o) = P)
    (hc : after (ops5 (F := Ideal)) V (Proc.devRef .tc main_v236) (ix2 (rowOf b q) o) = C) :
    after (ops5 (F := Ideal)) V (Proc.devRef .tc main_v238) (ix3 b q o) = P + C := by
  revert hp hc
  rw [after_split ops5 0 V]
  generalize after (List.take 0 (ops5 (F := Ideal))) V = VA
  simp only [ops5, List.drop_succ_cons, List.drop_zero]
  after_results_simp
  intro hp hc
  exact (unflat2_apply _ _ b q o).trans ((addf_apply _ _ _).trans (congrArg₂ (· + ·) hp hc))

/-- At the end of the run: the same, every buffer at its final contents. -/
theorem f_out_238 (b : Fin 2) (q : Fin 65536) (o : Fin 2) (P C : EReal)
    (hp : Rv m d main_v234 (ix2 (rowOf b q) o) = P) (hc : Rv m d main_v236 (ix2 (rowOf b q) o) = C) :
    Rv m d main_v238 (ix3 b q o) = P + C := by
  rw [Rv_in_window_5 main_v234 (by decide)] at hp
  rw [Rv_in_window_5 main_v236 (by decide)] at hc
  rw [Rv_in_window_5 main_v238 (by decide)]
  exact w_out_238 (Rpre 5 m d) b q o P C hp hc

/-! ## The network on one query row -/

/-- The prediction of corner 1 at (batch b, query q, output o): the four later layers applied to the first layer's
    value on the row 65536·b + q of the flattened input. -/
theorem pred_row_1 (b : Fin 2) (q : Fin 65536) (o : Fin 2) :
    Rv m d main_v238 (ix3 b q o)
      = Cert.Spec.mlpTail (Rv m d main_arg5) (fun j => Rv m d main_arg6 (ix1 j)) (Rv m d main_arg7) (fun j => Rv m d main_arg8 (ix1 j))
          (Rv m d main_arg9) (fun j => Rv m d main_arg10 (ix1 j)) (Rv m d main_arg11) (fun j => Rv m d main_arg12 (ix1 j))
          (Cert.Spec.layer0Whole (Rv m d main_arg3) (fun j => Rv m d main_arg4 (ix1 j))
            (fun i => Rv m d main_v213 (ix2 (rowOf b q) i))) o := by
  have e0 : (fun j => Rv m d main_v218 (ix2 (rowOf b q) j))
      = Cert.Spec.layer0Whole (Rv m d main_arg3) (fun j => Rv m d main_arg4 (ix1 j)) (fun i => Rv m d main_v213 (ix2 (rowOf b q) i)) :=
    funext fun j => f_relu_218 m d _ j _ _ (f_dot_214 m d _ j) (f_bias_216 m d _ j)
  have e1 : (fun j => Rv m d main_v223 (ix2 (rowOf b q) j))
      = fun j => Cert.Spec.relu (Cert.Spec.dense (Rv m d main_arg5) (fun j => Rv m d main_arg6 (ix1 j)) (fun i => Rv m d main_v218 (ix2 (rowOf b q) i)) j) :=
    funext fun j => f_relu_223 m d _ j _ _ (f_dot_219 m d _ j) (f_bias_221 m d _ j)
  have e2 : (fun j => Rv m d main_v228 (ix2 (rowOf b q) j))
      = fun j => Cert.Spec.relu (Cert.Spec.dense (Rv m d main_arg7) (fun j => Rv m d main_arg8 (ix1 j)) (fun i => Rv m d main_v223 (ix2 (rowOf b q) i)) j) :=
    funext fun j => f_relu_228 m d _ j _ _ (f_dot_224 m d _ j) (f_bias_226 m d _ j)
  have e3 : (fun j => Rv m d main_v233 (ix2 (rowOf b q) j))
      = fun j => Cert.Spec.relu (Cert.Spec.dense (Rv m d main_arg9) (fun j => Rv m d main_arg10 (ix1 j)) (fun i => Rv m d main_v228 (ix2 (rowOf b q) i)) j) :=
    funext fun j => f_relu_233 m d _ j _ _ (f_dot_229 m d _ j) (f_bias_231 m d _ j)
  have e4 : Rv m d main_v238 (ix3 b q o)
      = Cert.Spec.dense (Rv m d main_arg11) (fun j => Rv m d main_arg12 (ix1 j)) (fun i => Rv m d main_v233 (ix2 (rowOf b q) i)) o :=
    f_out_238 m d b q o _ _ (f_dot_234 m d _ o) (f_bias_236 m d _ o)
  rw [e4, e3, e2, e1, e0]
  rfl

end Cert.ReferenceIdeal.Hand

end
-- ==== Proof.RReadW2.lean ====
/-
  The plain program's five dense layers for corner 2. Each step is read twice. First at an index inside the one window
  of host operations that computes it, from any contents before that window: the lemma opens the window from the first
  operation it reads, and names what it does not open as the window's own result (for a buffer the window does not
  write, that is what was there before). Then at the end of the whole run, where every buffer is named once. The five
  steps compose to the network's value on one query row.
-/
import proofs.«100126_j36189394436483_2_alg».proof.Proof.RReadU
import proofs.«100126_j36189394436483_2_alg».proof.Proof.RBase

set_option maxHeartbeats 1000000

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (d : Dev nD)

variable (V : Valuation τ sig (Elt Ideal))

/-! ## The five layers -/

/-- Layer 0's product, one entry: the row of the previous array against a column of the weights. -/
theorem w_dot_327 (n : Fin 131072) (j : Fin 256) :
    after (ops6 (F := Ideal)) V (Proc.devRef .tc main_v327) (ix2 n j)
      = Cert.Spec.rowDot (after (ops6 (F := Ideal)) V (Proc.devRef .tc main_arg3)) (fun i => after (ops6 (F := Ideal)) V (Proc.devRef .tc main_v326) (ix2 n i)) j := by
  rw [after_split ops6 59 V]
  generalize after (List.take 59 (ops6 (F := Ideal))) V = VA
  simp only [ops6, List.drop_succ_cons, List.drop_zero]
  after_results_simp
  exact dot580_apply _ _ n j

/-- At the end of the run: the same, every buffer at its final contents. -/
theorem f_dot_327 (n : Fin 131072) (j : Fin 256) :
    Rv m d main_v327 (ix2 n j) = Cert.Spec.rowDot (Rv m d main_arg3) (fun i => Rv m d main_v326 (ix2 n i)) j := by
  have h := w_dot_327 (Rpre 6 m d) n j
  simp only [← Rv_in_window_6 main_v327 (by decide), ← Rv_in_window_6 main_arg3 (by decide), ← Rv_in_window_6 main_v326 (by decide)] at h
  exact h

/-- Layer 0's bias, repeated down the rows. -/
theorem w_bias_329 (n : Fin 131072) (j : Fin 256) :
    after (ops7 (F := Ideal)) V (Proc.devRef .tc main_v329) (ix2 n j) = after (ops7 (F := Ideal)) V (Proc.devRef .tc main_arg4) (ix1 j) := by
  rw [after_split ops7 0 V]
  generalize after (List.take 0 (ops7 (F := Ideal))) V = VA
  simp only [ops7, List.drop_succ_cons, List.drop_zero]
  after_results_simp
  exact bias256_apply _ _ _ n j

/-- At the end of the run: the same, every buffer at its final contents. -/
theorem f_bias_329 (n : Fin 131072) (j : Fin 256) :
    Rv m d main_v329 (ix2 n j) = Rv m d main_arg4 (ix1 j) := by
  have h := w_bias_329 (Rpre 7 m d) n j
  simp only [← Rv_in_window_7 main_v329 (by decide), ← Rv_in_window_7 main_arg4 (by decide)] at h
  exact h

/-- Layer 0's sum and rectifier, over whatever the two summands' entries are. -/
theorem w_relu_331 (n : Fin 131072) (j : Fin 256) (P C : EReal)
    (hp : after (ops7 (F := Ideal)) V (Proc.devRef .tc main_v327) (ix2 n j) = P)
    (hc : after (ops7 (F := Ideal)) V (Proc.devRef .tc main_v329) (ix2 n j) = C) :
    after (ops7 (F := Ideal)) V (Proc.devRef .tc main_v331) (ix2 n j) = Cert.Spec.relu (P + C) := by
  revert hp hc
  rw [after_split ops7 2 V]
  generalize after (List.take 2 (ops7 (F := Ideal))) V = VA
  simp only [ops7, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_331 (n : Fin 131072) (j : Fin 256) (P C : EReal)
    (hp : Rv m d main_v327 (ix2 n j) = P) (hc : Rv m d main_v329 (ix2 n j) = C) :
    Rv m d main_v331 (ix2 n j) = Cert.Spec.relu (P + C) := by
  rw [Rv_in_window_7 main_v327 (by decide)] at hp
  rw [Rv_in_window_7 main_v329 (by decide)] at hc
  rw [Rv_in_window_7 main_v331 (by decide)]
  exact w_relu_331 (Rpre 7 m d) n j P C hp hc

/-- Layer 1's product, one entry: the row of the previous array against a column of the weights. -/
theorem w_dot_332 (n : Fin 131072) (j : Fin 256) :
    after (ops7 (F := Ideal)) V (Proc.devRef .tc main_v332) (ix2 n j)
      = Cert.Spec.rowDot (after (ops7 (F := Ideal)) V (Proc.devRef .tc main_arg5)) (fun i => after (ops7 (F := Ideal)) V (Proc.devRef .tc main_v331) (ix2 n i)) j := by
  rw [after_split ops7 6 V]
  generalize after (List.take 6 (ops7 (F := Ideal))) V = VA
  simp only [ops7, List.drop_succ_cons, List.drop_zero]
  after_results_simp
  exact dot256_apply _ _ n j

/-- At the end of the run: the same, every buffer at its final contents. -/
theorem f_dot_332 (n : Fin 131072) (j : Fin 256) :
    Rv m d main_v332 (ix2 n j) = Cert.Spec.rowDot (Rv m d main_arg5) (fun i => Rv m d main_v331 (ix2 n i)) j := by
  have h := w_dot_332 (Rpre 7 m d) n j
  simp only [← Rv_in_window_7 main_v332 (by decide), ← Rv_in_window_7 main_arg5 (by decide), ← Rv_in_window_7 main_v331 (by decide)] at h
  exact h

/-- Layer 1's bias, repeated down the rows. -/
theorem w_bias_334 (n : Fin 131072) (j : Fin 256) :
    after (ops7 (F := Ideal)) V (Proc.devRef .tc main_v334) (ix2 n j) = after (ops7 (F := Ideal)) V (Proc.devRef .tc main_arg6) (ix1 j) := by
  rw [after_split ops7 7 V]
  generalize after (List.take 7 (ops7 (F := Ideal))) V = VA
  simp only [ops7, List.drop_succ_cons, List.drop_zero]
  after_results_simp
  exact bias256_apply _ _ _ n j

/-- At the end of the run: the same, every buffer at its final contents. -/
theorem f_bias_334 (n : Fin 131072) (j : Fin 256) :
    Rv m d main_v334 (ix2 n j) = Rv m d main_arg6 (ix1 j) := by
  have h := w_bias_334 (Rpre 7 m d) n j
  simp only [← Rv_in_window_7 main_v334 (by decide), ← Rv_in_window_7 main_arg6 (by decide)] at h
  exact h

/-- Layer 1's sum and rectifier, over whatever the two summands' entries are. -/
theorem w_relu_336 (n : Fin 131072) (j : Fin 256) (P C : EReal)
    (hp : after (ops7 (F := Ideal)) V (Proc.devRef .tc main_v332) (ix2 n j) = P)
    (hc : after (ops7 (F := Ideal)) V (Proc.devRef .tc main_v334) (ix2 n j) = C) :
    after (ops7 (F := Ideal)) V (Proc.devRef .tc main_v336) (ix2 n j) = Cert.Spec.relu (P + C) := by
  revert hp hc
  rw [after_split ops7 9 V]
  generalize after (List.take 9 (ops7 (F := Ideal))) V = VA
  simp only [ops7, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_336 (n : Fin 131072) (j : Fin 256) (P C : EReal)
    (hp : Rv m d main_v332 (ix2 n j) = P) (hc : Rv m d main_v334 (ix2 n j) = C) :
    Rv m d main_v336 (ix2 n j) = Cert.Spec.relu (P + C) := by
  rw [Rv_in_window_7 main_v332 (by decide)] at hp
  rw [Rv_in_window_7 main_v334 (by decide)] at hc
  rw [Rv_in_window_7 main_v336 (by decide)]
  exact w_relu_336 (Rpre 7 m d) n j P C hp hc

/-- Layer 2's product, one entry: the row of the previous array against a column of the weights. -/
theorem w_dot_337 (n : Fin 131072) (j : Fin 256) :
    after (ops7 (F := Ideal)) V (Proc.devRef .tc main_v337) (ix2 n j)
      = Cert.Spec.rowDot (after (ops7 (F := Ideal)) V (Proc.devRef .tc main_arg7)) (fun i => after (ops7 (F := Ideal)) V (Proc.devRef .tc main_v336) (ix2 n i)) j := by
  rw [after_split ops7 13 V]
  generalize after (List.take 13 (ops7 (F := Ideal))) V = VA
  simp only [ops7, List.drop_succ_cons, List.drop_zero]
  after_results_simp
  exact dot256_apply _ _ n j

/-- At the end of the run: the same, every buffer at its final contents. -/
theorem f_dot_337 (n : Fin 131072) (j : Fin 256) :
    Rv m d main_v337 (ix2 n j) = Cert.Spec.rowDot (Rv m d main_arg7) (fun i => Rv m d main_v336 (ix2 n i)) j := by
  have h := w_dot_337 (Rpre 7 m d) n j
  simp only [← Rv_in_window_7 main_v337 (by decide), ← Rv_in_window_7 main_arg7 (by decide), ← Rv_in_window_7 main_v336 (by decide)] at h
  exact h

/-- Layer 2's bias, repeated down the rows. -/
theorem w_bias_339 (n : Fin 131072) (j : Fin 256) :
    after (ops7 (F := Ideal)) V (Proc.devRef .tc main_v339) (ix2 n j) = after (ops7 (F := Ideal)) V (Proc.devRef .tc main_arg8) (ix1 j) := by
  rw [after_split ops7 14 V]
  generalize after (List.take 14 (ops7 (F := Ideal))) V = VA
  simp only [ops7, List.drop_succ_cons, List.drop_zero]
  after_results_simp
  exact bias256_apply _ _ _ n j

/-- At the end of the run: the same, every buffer at its final contents. -/
theorem f_bias_339 (n : Fin 131072) (j : Fin 256) :
    Rv m d main_v339 (ix2 n j) = Rv m d main_arg8 (ix1 j) := by
  have h := w_bias_339 (Rpre 7 m d) n j
  simp only [← Rv_in_window_7 main_v339 (by decide), ← Rv_in_window_7 main_arg8 (by decide)] at h
  exact h

/-- Layer 2's sum and rectifier, over whatever the two summands' entries are. -/
theorem w_relu_341 (n : Fin 131072) (j : Fin 256) (P C : EReal)
    (hp : after (ops7 (F := Ideal)) V (Proc.devRef .tc main_v337) (ix2 n j) = P)
    (hc : after (ops7 (F := Ideal)) V (Proc.devRef .tc main_v339) (ix2 n j) = C) :
    after (ops7 (F := Ideal)) V (Proc.devRef .tc main_v341) (ix2 n j) = Cert.Spec.relu (P + C) := by
  revert hp hc
  rw [after_split ops7 16 V]
  generalize after (List.take 16 (ops7 (F := Ideal))) V = VA
  simp only [ops7, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_341 (n : Fin 131072) (j : Fin 256) (P C : EReal)
    (hp : Rv m d main_v337 (ix2 n j) = P) (hc : Rv m d main_v339 (ix2 n j) = C) :
    Rv m d main_v341 (ix2 n j) = Cert.Spec.relu (P + C) := by
  rw [Rv_in_window_7 main_v337 (by decide)] at hp
  rw [Rv_in_window_7 main_v339 (by decide)] at hc
  rw [Rv_in_window_7 main_v341 (by decide)]
  exact w_relu_341 (Rpre 7 m d) n j P C hp hc

/-- Layer 3's product, one entry: the row of the previous array against a column of the weights. -/
theorem w_dot_342 (n : Fin 131072) (j : Fin 256) :
    after (ops7 (F := Ideal)) V (Proc.devRef .tc main_v342) (ix2 n j)
      = Cert.Spec.rowDot (after (ops7 (F := Ideal)) V (Proc.devRef .tc main_arg9)) (fun i => after (ops7 (F := Ideal)) V (Proc.devRef .tc main_v341) (ix2 n i)) j := by
  rw [after_split ops7 20 V]
  generalize after (List.take 20 (ops7 (F := Ideal))) V = VA
  simp only [ops7, List.drop_succ_cons, List.drop_zero]
  after_results_simp
  exact dot256_apply _ _ n j

/-- At the end of the run: the same, every buffer at its final contents. -/
theorem f_dot_342 (n : Fin 131072) (j : Fin 256) :
    Rv m d main_v342 (ix2 n j) = Cert.Spec.rowDot (Rv m d main_arg9) (fun i => Rv m d main_v341 (ix2 n i)) j := by
  have h := w_dot_342 (Rpre 7 m d) n j
  simp only [← Rv_in_window_7 main_v342 (by decide), ← Rv_in_window_7 main_arg9 (by decide), ← Rv_in_window_7 main_v341 (by decide)] at h
  exact h

/-- Layer 3's bias, repeated down the rows. -/
theorem w_bias_344 (n : Fin 131072) (j : Fin 256) :
    after (ops7 (F := Ideal)) V (Proc.devRef .tc main_v344) (ix2 n j) = after (ops7 (F := Ideal)) V (Proc.devRef .tc main_arg10) (ix1 j) := by
  rw [after_split ops7 21 V]
  generalize after (List.take 21 (ops7 (F := Ideal))) V = VA
  simp only [ops7, List.drop_succ_cons, List.drop_zero]
  after_results_simp
  exact bias256_apply _ _ _ n j

/-- At the end of the run: the same, every buffer at its final contents. -/
theorem f_bias_344 (n : Fin 131072) (j : Fin 256) :
    Rv m d main_v344 (ix2 n j) = Rv m d main_arg10 (ix1 j) := by
  have h := w_bias_344 (Rpre 7 m d) n j
  simp only [← Rv_in_window_7 main_v344 (by decide), ← Rv_in_window_7 main_arg10 (by decide)] at h
  exact h

/-- Layer 3's sum and rectifier, over whatever the two summands' entries are. -/
theorem w_relu_346 (n : Fin 131072) (j : Fin 256) (P C : EReal)
    (hp : after (ops7 (F := Ideal)) V (Proc.devRef .tc main_v342) (ix2 n j) = P)
    (hc : after (ops7 (F := Ideal)) V (Proc.devRef .tc main_v344) (ix2 n j) = C) :
    after (ops7 (F := Ideal)) V (Proc.devRef .tc main_v346) (ix2 n j) = Cert.Spec.relu (P + C) := by
  revert hp hc
  rw [after_split ops7 23 V]
  generalize after (List.take 23 (ops7 (F := Ideal))) V = VA
  simp only [ops7, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_346 (n : Fin 131072) (j : Fin 256) (P C : EReal)
    (hp : Rv m d main_v342 (ix2 n j) = P) (hc : Rv m d main_v344 (ix2 n j) = C) :
    Rv m d main_v346 (ix2 n j) = Cert.Spec.relu (P + C) := by
  rw [Rv_in_window_7 main_v342 (by decide)] at hp
  rw [Rv_in_window_7 main_v344 (by decide)] at hc
  rw [Rv_in_window_7 main_v346 (by decide)]
  exact w_relu_346 (Rpre 7 m d) n j P C hp hc

/-- The read-out product, one entry. -/
theorem w_dot_347 (n : Fin 131072) (o : Fin 2) :
    after (ops7 (F := Ideal)) V (Proc.devRef .tc main_v347) (ix2 n o)
      = Cert.Spec.rowDot (after (ops7 (F := Ideal)) V (Proc.devRef .tc main_arg11)) (fun i => after (ops7 (F := Ideal)) V (Proc.devRef .tc main_v346) (ix2 n i)) o := by
  rw [after_split ops7 27 V]
  generalize after (List.take 27 (ops7 (F := Ideal))) V = VA
  simp only [ops7, List.drop_succ_cons, List.drop_zero]
  after_results_simp
  exact dot2_apply _ _ n o

/-- At the end of the run: the same, every buffer at its final contents. -/
theorem f_dot_347 (n : Fin 131072) (o : Fin 2) :
    Rv m d main_v347 (ix2 n o) = Cert.Spec.rowDot (Rv m d main_arg11) (fun i => Rv m d main_v346 (ix2 n i)) o := by
  have h := w_dot_347 (Rpre 7 m d) n o
  simp only [← Rv_in_window_7 main_v347 (by decide), ← Rv_in_window_7 main_arg11 (by decide), ← Rv_in_window_7 main_v346 (by decide)] at h
  exact h

/-- The read-out bias, repeated down the rows. -/
theorem w_bias_349 (n : Fin 131072) (o : Fin 2) :
    after (ops7 (F := Ideal)) V (Proc.devRef .tc main_v349) (ix2 n o) = after (ops7 (F := Ideal)) V (Proc.devRef .tc main_arg12) (ix1 o) := by
  rw [after_split ops7 28 V]
  generalize after (List.take 28 (ops7 (F := Ideal))) V = VA
  simp only [ops7, List.drop_succ_cons, List.drop_zero]
  after_results_simp
  exact bias2_apply _ _ _ n o

/-- At the end of the run: the same, every buffer at its final contents. -/
theorem f_bias_349 (n : Fin 131072) (o : Fin 2) :
    Rv m d main_v349 (ix2 n o) = Rv m d main_arg12 (ix1 o) := by
  have h := w_bias_349 (Rpre 7 m d) n o
  simp only [← Rv_in_window_7 main_v349 (by decide), ← Rv_in_window_7 main_arg12 (by decide)] at h
  exact h

/-- The read-out sum, with the row axis split back into (batch, query). -/
theorem w_out_351 (b : Fin 2) (q : Fin 65536) (o : Fin 2) (P C : EReal)
    (hp : after (ops7 (F := Ideal)) V (Proc.devRef .tc main_v347) (ix2 (rowOf b q) o) = P)
    (hc : after (ops7 (F := Ideal)) V (Proc.devRef .tc main_v349) (ix2 (rowOf b q) o) = C) :
    after (ops7 (F := Ideal)) V (Proc.devRef .tc main_v351) (ix3 b q o) = P + C := by
  revert hp hc
  rw [after_split ops7 30 V]
  generalize after (List.take 30 (ops7 (F := Ideal))) V = VA
  simp only [ops7, List.drop_succ_cons, List.drop_zero]
  after_results_simp
  intro hp hc
  exact (unflat2_apply _ _ b q o).trans ((addf_apply _ _ _).trans (congrArg₂ (· + ·) hp hc))

/-- At the end of the run: the same, every buffer at its final contents. -/
theorem f_out_351 (b : Fin 2) (q : Fin 65536) (o : Fin 2) (P C : EReal)
    (hp : Rv m d main_v347 (ix2 (rowOf b q) o) = P) (hc : Rv m d main_v349 (ix2 (rowOf b q) o) = C) :
    Rv m d main_v351 (ix3 b q o) = P + C := by
  rw [Rv_in_window_7 main_v347 (by decide)] at hp
  rw [Rv_in_window_7 main_v349 (by decide)] at hc
  rw [Rv_in_window_7 main_v351 (by decide)]
  exact w_out_351 (Rpre 7 m d) b q o P C hp hc

/-! ## The network on one query row -/

/-- The prediction of corner 2 at (batch b, query q, output o): the four later layers applied to the first layer's
    value on the row 65536·b + q of the flattened input. -/
theorem pred_row_2 (b : Fin 2) (q : Fin 65536) (o : Fin 2) :
    Rv m d main_v351 (ix3 b q o)
      = Cert.Spec.mlpTail (Rv m d main_arg5) (fun j => Rv m d main_arg6 (ix1 j)) (Rv m d main_arg7) (fun j => Rv m d main_arg8 (ix1 j))
          (Rv m d main_arg9) (fun j => Rv m d main_arg10 (ix1 j)) (Rv m d main_arg11) (fun j => Rv m d main_arg12 (ix1 j))
          (Cert.Spec.layer0Whole (Rv m d main_arg3) (fun j => Rv m d main_arg4 (ix1 j))
            (fun i => Rv m d main_v326 (ix2 (rowOf b q) i))) o := by
  have e0 : (fun j => Rv m d main_v331 (ix2 (rowOf b q) j))
      = Cert.Spec.layer0Whole (Rv m d main_arg3) (fun j => Rv m d main_arg4 (ix1 j)) (fun i => Rv m d main_v326 (ix2 (rowOf b q) i)) :=
    funext fun j => f_relu_331 m d _ j _ _ (f_dot_327 m d _ j) (f_bias_329 m d _ j)
  have e1 : (fun j => Rv m d main_v336 (ix2 (rowOf b q) j))
      = fun j => Cert.Spec.relu (Cert.Spec.dense (Rv m d main_arg5) (fun j => Rv m d main_arg6 (ix1 j)) (fun i => Rv m d main_v331 (ix2 (rowOf b q) i)) j) :=
    funext fun j => f_relu_336 m d _ j _ _ (f_dot_332 m d _ j) (f_bias_334 m d _ j)
  have e2 : (fun j => Rv m d main_v341 (ix2 (rowOf b q) j))
      = fun j => Cert.Spec.relu (Cert.Spec.dense (Rv m d main_arg7) (fun j => Rv m d main_arg8 (ix1 j)) (fun i => Rv m d main_v336 (ix2 (rowOf b q) i)) j) :=
    funext fun j => f_relu_341 m d _ j _ _ (f_dot_337 m d _ j) (f_bias_339 m d _ j)
  have e3 : (fun j => Rv m d main_v346 (ix2 (rowOf b q) j))
      = fun j => Cert.Spec.relu (Cert.Spec.dense (Rv m d main_arg9) (fun j => Rv m d main_arg10 (ix1 j)) (fun i => Rv m d main_v341 (ix2 (rowOf b q) i)) j) :=
    funext fun j => f_relu_346 m d _ j _ _ (f_dot_342 m d _ j) (f_bias_344 m d _ j)
  have e4 : Rv m d main_v351 (ix3 b q o)
      = Cert.Spec.dense (Rv m d main_arg11) (fun j => Rv m d main_arg12 (ix1 j)) (fun i => Rv m d main_v346 (ix2 (rowOf b q) i)) o :=
    f_out_351 m d b q o _ _ (f_dot_347 m d _ o) (f_bias_349 m d _ o)
  rw [e4, e3, e2, e1, e0]
  rfl

end Cert.ReferenceIdeal.Hand

end
-- ==== Proof.RReadW3.lean ====
/-
  The plain program's five dense layers for corner 3. Each step is read twice. First at an index inside the one window
  of host operations that computes it, from any contents before that window: the lemma opens the window from the first
  operation it reads, and names what it does not open as the window's own result (for a buffer the window does not
  write, that is what was there before). Then at the end of the whole run, where every buffer is named once. The five
  steps compose to the network's value on one query row.
-/
import proofs.«100126_j36189394436483_2_alg».proof.Proof.RReadU
import proofs.«100126_j36189394436483_2_alg».proof.Proof.RBase

set_option maxHeartbeats 1000000

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (d : Dev nD)

variable (V : Valuation τ sig (Elt Ideal))

/-! ## The five layers -/

/-- Layer 0's product, one entry: the row of the previous array against a column of the weights. -/
theorem w_dot_440 (n : Fin 131072) (j : Fin 256) :
    after (ops9 (F := Ideal)) V (Proc.devRef .tc main_v440) (ix2 n j)
      = Cert.Spec.rowDot (after (ops9 (F := Ideal)) V (Proc.devRef .tc main_arg3)) (fun i => after (ops9 (F := Ideal)) V (Proc.devRef .tc main_v439) (ix2 n i)) j := by
  rw [after_split ops9 21 V]
  generalize after (List.take 21 (ops9 (F := Ideal))) V = VA
  simp only [ops9, List.drop_succ_cons, List.drop_zero]
  after_results_simp
  exact dot580_apply _ _ n j

/-- At the end of the run: the same, every buffer at its final contents. -/
theorem f_dot_440 (n : Fin 131072) (j : Fin 256) :
    Rv m d main_v440 (ix2 n j) = Cert.Spec.rowDot (Rv m d main_arg3) (fun i => Rv m d main_v439 (ix2 n i)) j := by
  have h := w_dot_440 (Rpre 9 m d) n j
  simp only [← Rv_in_window_9 main_v440 (by decide), ← Rv_in_window_9 main_arg3 (by decide), ← Rv_in_window_9 main_v439 (by decide)] at h
  exact h

/-- Layer 0's bias, repeated down the rows. -/
theorem w_bias_442 (n : Fin 131072) (j : Fin 256) :
    after (ops9 (F := Ideal)) V (Proc.devRef .tc main_v442) (ix2 n j) = after (ops9 (F := Ideal)) V (Proc.devRef .tc main_arg4) (ix1 j) := by
  rw [after_split ops9 22 V]
  generalize after (List.take 22 (ops9 (F := Ideal))) V = VA
  simp only [ops9, List.drop_succ_cons, List.drop_zero]
  after_results_simp
  exact bias256_apply _ _ _ n j

/-- At the end of the run: the same, every buffer at its final contents. -/
theorem f_bias_442 (n : Fin 131072) (j : Fin 256) :
    Rv m d main_v442 (ix2 n j) = Rv m d main_arg4 (ix1 j) := by
  have h := w_bias_442 (Rpre 9 m d) n j
  simp only [← Rv_in_window_9 main_v442 (by decide), ← Rv_in_window_9 main_arg4 (by decide)] at h
  exact h

/-- Layer 0's sum and rectifier, over whatever the two summands' entries are. -/
theorem w_relu_444 (n : Fin 131072) (j : Fin 256) (P C : EReal)
    (hp : after (ops9 (F := Ideal)) V (Proc.devRef .tc main_v440) (ix2 n j) = P)
    (hc : after (ops9 (F := Ideal)) V (Proc.devRef .tc main_v442) (ix2 n j) = C) :
    after (ops9 (F := Ideal)) V (Proc.devRef .tc main_v444) (ix2 n j) = Cert.Spec.relu (P + C) := by
  revert hp hc
  rw [after_split ops9 24 V]
  generalize after (List.take 24 (ops9 (F := Ideal))) V = VA
  simp only [ops9, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_444 (n : Fin 131072) (j : Fin 256) (P C : EReal)
    (hp : Rv m d main_v440 (ix2 n j) = P) (hc : Rv m d main_v442 (ix2 n j) = C) :
    Rv m d main_v444 (ix2 n j) = Cert.Spec.relu (P + C) := by
  rw [Rv_in_window_9 main_v440 (by decide)] at hp
  rw [Rv_in_window_9 main_v442 (by decide)] at hc
  rw [Rv_in_window_9 main_v444 (by decide)]
  exact w_relu_444 (Rpre 9 m d) n j P C hp hc

/-- Layer 1's product, one entry: the row of the previous array against a column of the weights. -/
theorem w_dot_445 (n : Fin 131072) (j : Fin 256) :
    after (ops9 (F := Ideal)) V (Proc.devRef .tc main_v445) (ix2 n j)
      = Cert.Spec.rowDot (after (ops9 (F := Ideal)) V (Proc.devRef .tc main_arg5)) (fun i => after (ops9 (F := Ideal)) V (Proc.devRef .tc main_v444) (ix2 n i)) j := by
  rw [after_split ops9 28 V]
  generalize after (List.take 28 (ops9 (F := Ideal))) V = VA
  simp only [ops9, List.drop_succ_cons, List.drop_zero]
  after_results_simp
  exact dot256_apply _ _ n j

/-- At the end of the run: the same, every buffer at its final contents. -/
theorem f_dot_445 (n : Fin 131072) (j : Fin 256) :
    Rv m d main_v445 (ix2 n j) = Cert.Spec.rowDot (Rv m d main_arg5) (fun i => Rv m d main_v444 (ix2 n i)) j := by
  have h := w_dot_445 (Rpre 9 m d) n j
  simp only [← Rv_in_window_9 main_v445 (by decide), ← Rv_in_window_9 main_arg5 (by decide), ← Rv_in_window_9 main_v444 (by decide)] at h
  exact h

/-- Layer 1's bias, repeated down the rows. -/
theorem w_bias_447 (n : Fin 131072) (j : Fin 256) :
    after (ops9 (F := Ideal)) V (Proc.devRef .tc main_v447) (ix2 n j) = after (ops9 (F := Ideal)) V (Proc.devRef .tc main_arg6) (ix1 j) := by
  rw [after_split ops9 29 V]
  generalize after (List.take 29 (ops9 (F := Ideal))) V = VA
  simp only [ops9, List.drop_succ_cons, List.drop_zero]
  after_results_simp
  exact bias256_apply _ _ _ n j

/-- At the end of the run: the same, every buffer at its final contents. -/
theorem f_bias_447 (n : Fin 131072) (j : Fin 256) :
    Rv m d main_v447 (ix2 n j) = Rv m d main_arg6 (ix1 j) := by
  have h := w_bias_447 (Rpre 9 m d) n j
  simp only [← Rv_in_window_9 main_v447 (by decide), ← Rv_in_window_9 main_arg6 (by decide)] at h
  exact h

/-- Layer 1's sum and rectifier, over whatever the two summands' entries are. -/
theorem w_relu_449 (n : Fin 131072) (j : Fin 256) (P C : EReal)
    (hp : after (ops9 (F := Ideal)) V (Proc.devRef .tc main_v445) (ix2 n j) = P)
    (hc : after (ops9 (F := Ideal)) V (Proc.devRef .tc main_v447) (ix2 n j) = C) :
    after (ops9 (F := Ideal)) V (Proc.devRef .tc main_v449) (ix2 n j) = Cert.Spec.relu (P + C) := by
  revert hp hc
  rw [after_split ops9 31 V]
  generalize after (List.take 31 (ops9 (F := Ideal))) V = VA
  simp only [ops9, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_449 (n : Fin 131072) (j : Fin 256) (P C : EReal)
    (hp : Rv m d main_v445 (ix2 n j) = P) (hc : Rv m d main_v447 (ix2 n j) = C) :
    Rv m d main_v449 (ix2 n j) = Cert.Spec.relu (P + C) := by
  rw [Rv_in_window_9 main_v445 (by decide)] at hp
  rw [Rv_in_window_9 main_v447 (by decide)] at hc
  rw [Rv_in_window_9 main_v449 (by decide)]
  exact w_relu_449 (Rpre 9 m d) n j P C hp hc

/-- Layer 2's product, one entry: the row of the previous array against a column of the weights. -/
theorem w_dot_450 (n : Fin 131072) (j : Fin 256) :
    after (ops9 (F := Ideal)) V (Proc.devRef .tc main_v450) (ix2 n j)
      = Cert.Spec.rowDot (after (ops9 (F := Ideal)) V (Proc.devRef .tc main_arg7)) (fun i => after (ops9 (F := Ideal)) V (Proc.devRef .tc main_v449) (ix2 n i)) j := by
  rw [after_split ops9 35 V]
  generalize after (List.take 35 (ops9 (F := Ideal))) V = VA
  simp only [ops9, List.drop_succ_cons, List.drop_zero]
  after_results_simp
  exact dot256_apply _ _ n j

/-- At the end of the run: the same, every buffer at its final contents. -/
theorem f_dot_450 (n : Fin 131072) (j : Fin 256) :
    Rv m d main_v450 (ix2 n j) = Cert.Spec.rowDot (Rv m d main_arg7) (fun i => Rv m d main_v449 (ix2 n i)) j := by
  have h := w_dot_450 (Rpre 9 m d) n j
  simp only [← Rv_in_window_9 main_v450 (by decide), ← Rv_in_window_9 main_arg7 (by decide), ← Rv_in_window_9 main_v449 (by decide)] at h
  exact h

/-- Layer 2's bias, repeated down the rows. -/
theorem w_bias_452 (n : Fin 131072) (j : Fin 256) :
    after (ops9 (F := Ideal)) V (Proc.devRef .tc main_v452) (ix2 n j) = after (ops9 (F := Ideal)) V (Proc.devRef .tc main_arg8) (ix1 j) := by
  rw [after_split ops9 36 V]
  generalize after (List.take 36 (ops9 (F := Ideal))) V = VA
  simp only [ops9, List.drop_succ_cons, List.drop_zero]
  after_results_simp
  exact bias256_apply _ _ _ n j

/-- At the end of the run: the same, every buffer at its final contents. -/
theorem f_bias_452 (n : Fin 131072) (j : Fin 256) :
    Rv m d main_v452 (ix2 n j) = Rv m d main_arg8 (ix1 j) := by
  have h := w_bias_452 (Rpre 9 m d) n j
  simp only [← Rv_in_window_9 main_v452 (by decide), ← Rv_in_window_9 main_arg8 (by decide)] at h
  exact h

/-- Layer 2's sum and rectifier, over whatever the two summands' entries are. -/
theorem w_relu_454 (n : Fin 131072) (j : Fin 256) (P C : EReal)
    (hp : after (ops9 (F := Ideal)) V (Proc.devRef .tc main_v450) (ix2 n j) = P)
    (hc : after (ops9 (F := Ideal)) V (Proc.devRef .tc main_v452) (ix2 n j) = C) :
    after (ops9 (F := Ideal)) V (Proc.devRef .tc main_v454) (ix2 n j) = Cert.Spec.relu (P + C) := by
  revert hp hc
  rw [after_split ops9 38 V]
  generalize after (List.take 38 (ops9 (F := Ideal))) V = VA
  simp only [ops9, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_454 (n : Fin 131072) (j : Fin 256) (P C : EReal)
    (hp : Rv m d main_v450 (ix2 n j) = P) (hc : Rv m d main_v452 (ix2 n j) = C) :
    Rv m d main_v454 (ix2 n j) = Cert.Spec.relu (P + C) := by
  rw [Rv_in_window_9 main_v450 (by decide)] at hp
  rw [Rv_in_window_9 main_v452 (by decide)] at hc
  rw [Rv_in_window_9 main_v454 (by decide)]
  exact w_relu_454 (Rpre 9 m d) n j P C hp hc

/-- Layer 3's product, one entry: the row of the previous array against a column of the weights. -/
theorem w_dot_455 (n : Fin 131072) (j : Fin 256) :
    after (ops9 (F := Ideal)) V (Proc.devRef .tc main_v455) (ix2 n j)
      = Cert.Spec.rowDot (after (ops9 (F := Ideal)) V (Proc.devRef .tc main_arg9)) (fun i => after (ops9 (F := Ideal)) V (Proc.devRef .tc main_v454) (ix2 n i)) j := by
  rw [after_split ops9 42 V]
  generalize after (List.take 42 (ops9 (F := Ideal))) V = VA
  simp only [ops9, List.drop_succ_cons, List.drop_zero]
  after_results_simp
  exact dot256_apply _ _ n j

/-- At the end of the run: the same, every buffer at its final contents. -/
theorem f_dot_455 (n : Fin 131072) (j : Fin 256) :
    Rv m d main_v455 (ix2 n j) = Cert.Spec.rowDot (Rv m d main_arg9) (fun i => Rv m d main_v454 (ix2 n i)) j := by
  have h := w_dot_455 (Rpre 9 m d) n j
  simp only [← Rv_in_window_9 main_v455 (by decide), ← Rv_in_window_9 main_arg9 (by decide), ← Rv_in_window_9 main_v454 (by decide)] at h
  exact h

/-- Layer 3's bias, repeated down the rows. -/
theorem w_bias_457 (n : Fin 131072) (j : Fin 256) :
    after (ops9 (F := Ideal)) V (Proc.devRef .tc main_v457) (ix2 n j) = after (ops9 (F := Ideal)) V (Proc.devRef .tc main_arg10) (ix1 j) := by
  rw [after_split ops9 43 V]
  generalize after (List.take 43 (ops9 (F := Ideal))) V = VA
  simp only [ops9, List.drop_succ_cons, List.drop_zero]
  after_results_simp
  exact bias256_apply _ _ _ n j

/-- At the end of the run: the same, every buffer at its final contents. -/
theorem f_bias_457 (n : Fin 131072) (j : Fin 256) :
    Rv m d main_v457 (ix2 n j) = Rv m d main_arg10 (ix1 j) := by
  have h := w_bias_457 (Rpre 9 m d) n j
  simp only [← Rv_in_window_9 main_v457 (by decide), ← Rv_in_window_9 main_arg10 (by decide)] at h
  exact h

/-- Layer 3's sum and rectifier, over whatever the two summands' entries are. -/
theorem w_relu_459 (n : Fin 131072) (j : Fin 256) (P C : EReal)
    (hp : after (ops9 (F := Ideal)) V (Proc.devRef .tc main_v455) (ix2 n j) = P)
    (hc : after (ops9 (F := Ideal)) V (Proc.devRef .tc main_v457) (ix2 n j) = C) :
    after (ops9 (F := Ideal)) V (Proc.devRef .tc main_v459) (ix2 n j) = Cert.Spec.relu (P + C) := by
  revert hp hc
  rw [after_split ops9 45 V]
  generalize after (List.take 45 (ops9 (F := Ideal))) V = VA
  simp only [ops9, List.drop_succ_cons, List.drop_zero]
  after_results_simp
  simp only [TRef.toBuf, TRef.ofBuf, cast_eq]
  intro hp hc
  exact (relu_apply _ _ n j).trans (congrArg Cert.Spec.relu ((addf_apply _ _ _).trans (congrArg₂ (· + ·) hp hc)))

/-- At the end of the run: the same, every buffer at its final contents. -/
theorem f_relu_459 (n : Fin 131072) (j : Fin 256) (P C : EReal)
    (hp : Rv m d main_v455 (ix2 n j) = P) (hc : Rv m d main_v457 (ix2 n j) = C) :
    Rv m d main_v459 (ix2 n j) = Cert.Spec.relu (P + C) := by
  rw [Rv_in_window_9 main_v455 (by decide)] at hp
  rw [Rv_in_window_9 main_v457 (by decide)] at hc
  rw [Rv_in_window_9 main_v459 (by decide)]
  exact w_relu_459 (Rpre 9 m d) n j P C hp hc

/-- The read-out product, one entry. -/
theorem w_dot_460 (n : Fin 131072) (o : Fin 2) :
    after (ops9 (F := Ideal)) V (Proc.devRef .tc main_v460) (ix2 n o)
      = Cert.Spec.rowDot (after (ops9 (F := Ideal)) V (Proc.devRef .tc main_arg11)) (fun i => after (ops9 (F := Ideal)) V (Proc.devRef .tc main_v459) (ix2 n i)) o := by
  rw [after_split ops9 49 V]
  generalize after (List.take 49 (ops9 (F := Ideal))) V = VA
  simp only [ops9, List.drop_succ_cons, List.drop_zero]
  after_results_simp
  exact dot2_apply _ _ n o

/-- At the end of the run: the same, every buffer at its final contents. -/
theorem f_dot_460 (n : Fin 131072) (o : Fin 2) :
    Rv m d main_v460 (ix2 n o) = Cert.Spec.rowDot (Rv m d main_arg11) (fun i => Rv m d main_v459 (ix2 n i)) o := by
  have h := w_dot_460 (Rpre 9 m d) n o
  simp only [← Rv_in_window_9 main_v460 (by decide), ← Rv_in_window_9 main_arg11 (by decide), ← Rv_in_window_9 main_v459 (by decide)] at h
  exact h

/-- The read-out bias, repeated down the rows. -/
theorem w_bias_462 (n : Fin 131072) (o : Fin 2) :
    after (ops9 (F := Ideal)) V (Proc.devRef .tc main_v462) (ix2 n o) = after (ops9 (F := Ideal)) V (Proc.devRef .tc main_arg12) (ix1 o) := by
  rw [after_split ops9 50 V]
  generalize after (List.take 50 (ops9 (F := Ideal))) V = VA
  simp only [ops9, List.drop_succ_cons, List.drop_zero]
  after_results_simp
  exact bias2_apply _ _ _ n o

/-- At the end of the run: the same, every buffer at its final contents. -/
theorem f_bias_462 (n : Fin 131072) (o : Fin 2) :
    Rv m d main_v462 (ix2 n o) = Rv m d main_arg12 (ix1 o) := by
  have h := w_bias_462 (Rpre 9 m d) n o
  simp only [← Rv_in_window_9 main_v462 (by decide), ← Rv_in_window_9 main_arg12 (by decide)] at h
  exact h

/-- The read-out sum, with the row axis split back into (batch, query). -/
theorem w_out_464 (b : Fin 2) (q : Fin 65536) (o : Fin 2) (P C : EReal)
    (hp : after (ops9 (F := Ideal)) V (Proc.devRef .tc main_v460) (ix2 (rowOf b q) o) = P)
    (hc : after (ops9 (F := Ideal)) V (Proc.devRef .tc main_v462) (ix2 (rowOf b q) o) = C) :
    after (ops9 (F := Ideal)) V (Proc.devRef .tc main_v464) (ix3 b q o) = P + C := by
  revert hp hc
  rw [after_split ops9 52 V]
  generalize after (List.take 52 (ops9 (F := Ideal))) V = VA
  simp only [ops9, List.drop_succ_cons, List.drop_zero]
  after_results_simp
  intro hp hc
  exact (unflat2_apply _ _ b q o).trans ((addf_apply _ _ _).trans (congrArg₂ (· + ·) hp hc))

/-- At the end of the run: the same, every buffer at its final contents. -/
theorem f_out_464 (b : Fin 2) (q : Fin 65536) (o : Fin 2) (P C : EReal)
    (hp : Rv m d main_v460 (ix2 (rowOf b q) o) = P) (hc : Rv m d main_v462 (ix2 (rowOf b q) o) = C) :
    Rv m d main_v464 (ix3 b q o) = P + C := by
  rw [Rv_in_window_9 main_v460 (by decide)] at hp
  rw [Rv_in_window_9 main_v462 (by decide)] at hc
  rw [Rv_in_window_9 main_v464 (by decide)]
  exact w_out_464 (Rpre 9 m d) b q o P C hp hc

/-! ## The network on one query row -/

/-- The prediction of corner 3 at (batch b, query q, output o): the four later layers applied to the first layer's
    value on the row 65536·b + q of the flattened input. -/
theorem pred_row_3 (b : Fin 2) (q : Fin 65536) (o : Fin 2) :
    Rv m d main_v464 (ix3 b q o)
      = Cert.Spec.mlpTail (Rv m d main_arg5) (fun j => Rv m d main_arg6 (ix1 j)) (Rv m d main_arg7) (fun j => Rv m d main_arg8 (ix1 j))
          (Rv m d main_arg9) (fun j => Rv m d main_arg10 (ix1 j)) (Rv m d main_arg11) (fun j => Rv m d main_arg12 (ix1 j))
          (Cert.Spec.layer0Whole (Rv m d main_arg3) (fun j => Rv m d main_arg4 (ix1 j))
            (fun i => Rv m d main_v439 (ix2 (rowOf b q) i))) o := by
  have e0 : (fun j => Rv m d main_v444 (ix2 (rowOf b q) j))
      = Cert.Spec.layer0Whole (Rv m d main_arg3) (fun j => Rv m d main_arg4 (ix1 j)) (fun i => Rv m d main_v439 (ix2 (rowOf b q) i)) :=
    funext fun j => f_relu_444 m d _ j _ _ (f_dot_440 m d _ j) (f_bias_442 m d _ j)
  have e1 : (fun j => Rv m d main_v449 (ix2 (rowOf b q) j))
      = fun j => Cert.Spec.relu (Cert.Spec.dense (Rv m d main_arg5) (fun j => Rv m d main_arg6 (ix1 j)) (fun i => Rv m d main_v444 (ix2 (rowOf b q) i)) j) :=
    funext fun j => f_relu_449 m d _ j _ _ (f_dot_445 m d _ j) (f_bias_447 m d _ j)
  have e2 : (fun j => Rv m d main_v454 (ix2 (rowOf b q) j))
      = fun j => Cert.Spec.relu (Cert.Spec.dense (Rv m d main_arg7) (fun j => Rv m d main_arg8 (ix1 j)) (fun i => Rv m d main_v449 (ix2 (rowOf b q) i)) j) :=
    funext fun j => f_relu_454 m d _ j _ _ (f_dot_450 m d _ j) (f_bias_452 m d _ j)
  have e3 : (fun j => Rv m d main_v459 (ix2 (rowOf b q) j))
      = fun j => Cert.Spec.relu (Cert.Spec.dense (Rv m d main_arg9) (fun j => Rv m d main_arg10 (ix1 j)) (fun i => Rv m d main_v454 (ix2 (rowOf b q) i)) j) :=
    funext fun j => f_relu_459 m d _ j _ _ (f_dot_455 m d _ j) (f_bias_457 m d _ j)
  have e4 : Rv m d main_v464 (ix3 b q o)
      = Cert.Spec.dense (Rv m d main_arg11) (fun j => Rv m d main_arg12 (ix1 j)) (fun i => Rv m d main_v459 (ix2 (rowOf b q) i)) o :=
    f_out_464 m d b q o _ _ (f_dot_460 m d _ o) (f_bias_462 m d _ o)
  rw [e4, e3, e2, e1, e0]
  rfl

end Cert.ReferenceIdeal.Hand

end
-- ==== Proof.RRead.lean ====
/-
  The plain program's four corner predictions at the end of its run, each as the specification's network applied to
  the corner's input row: the four later layers on the first layer's value on the row's 580 inputs.
-/
import proofs.«100126_j36189394436483_2_alg».proof.Proof.RReadD
import proofs.«100126_j36189394436483_2_alg».proof.Proof.RReadW0
import proofs.«100126_j36189394436483_2_alg».proof.Proof.RReadW1
import proofs.«100126_j36189394436483_2_alg».proof.Proof.RReadW2
import proofs.«100126_j36189394436483_2_alg».proof.Proof.RReadW3

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (d : Dev nD)

/-- The prediction of corner 0 on one query row: the four later layers on the first layer's value on the row's 580 inputs. -/
theorem pred_apply_0 (b : Fin 2) (q : Fin 65536) (o : Fin 2) :
    Rv m d main_v125 (ix3 b q o)
      = Cert.Spec.mlpTail (Rv m d main_arg5) (fun j => Rv m d main_arg6 (ix1 j)) (Rv m d main_arg7) (fun j => Rv m d main_arg8 (ix1 j))
          (Rv m d main_arg9) (fun j => Rv m d main_arg10 (ix1 j)) (Rv m d main_arg11) (fun j => Rv m d main_arg12 (ix1 j))
          (Cert.Spec.layer0Whole (Rv m d main_arg3) (fun j => Rv m d main_arg4 (ix1 j)) (inpRow m d 0 b q)) o :=
  pred_row_0 m d b q o

/-- The prediction of corner 1 on one query row: the four later layers on the first layer's value on the row's 580 inputs. -/
theorem pred_apply_1 (b : Fin 2) (q : Fin 65536) (o : Fin 2) :
    Rv m d main_v238 (ix3 b q o)
      = Cert.Spec.mlpTail (Rv m d main_arg5) (fun j => Rv m d main_arg6 (ix1 j)) (Rv m d main_arg7) (fun j => Rv m d main_arg8 (ix1 j))
          (Rv m d main_arg9) (fun j => Rv m d main_arg10 (ix1 j)) (Rv m d main_arg11) (fun j => Rv m d main_arg12 (ix1 j))
          (Cert.Spec.layer0Whole (Rv m d main_arg3) (fun j => Rv m d main_arg4 (ix1 j)) (inpRow m d 1 b q)) o :=
  pred_row_1 m d b q o

/-- The prediction of corner 2 on one query row: the four later layers on the first layer's value on the row's 580 inputs. -/
theorem pred_apply_2 (b : Fin 2) (q : Fin 65536) (o : Fin 2) :
    Rv m d main_v351 (ix3 b q o)
      = Cert.Spec.mlpTail (Rv m d main_arg5) (fun j => Rv m d main_arg6 (ix1 j)) (Rv m d main_arg7) (fun j => Rv m d main_arg8 (ix1 j))
          (Rv m d main_arg9) (fun j => Rv m d main_arg10 (ix1 j)) (Rv m d main_arg11) (fun j => Rv m d main_arg12 (ix1 j))
          (Cert.Spec.layer0Whole (Rv m d main_arg3) (fun j => Rv m d main_arg4 (ix1 j)) (inpRow m d 2 b q)) o :=
  pred_row_2 m d b q o

/-- The prediction of corner 3 on one query row: the four later layers on the first layer's value on the row's 580 inputs. -/
theorem pred_apply_3 (b : Fin 2) (q : Fin 65536) (o : Fin 2) :
    Rv m d main_v464 (ix3 b q o)
      = Cert.Spec.mlpTail (Rv m d main_arg5) (fun j => Rv m d main_arg6 (ix1 j)) (Rv m d main_arg7) (fun j => Rv m d main_arg8 (ix1 j))
          (Rv m d main_arg9) (fun j => Rv m d main_arg10 (ix1 j)) (Rv m d main_arg11) (fun j => Rv m d main_arg12 (ix1 j))
          (Cert.Spec.layer0Whole (Rv m d main_arg3) (fun j => Rv m d main_arg4 (ix1 j)) (inpRow m d 3 b q)) o :=
  pred_row_3 m d b q o

/-- The four corners' prediction arrays at the end of the run, as one family. -/
def Rpred : Fin 4 → Vec Ideal S2x65536x2 .f32
  | ⟨0, _⟩ => Rv m d main_v125
  | ⟨1, _⟩ => Rv m d main_v238
  | ⟨2, _⟩ => Rv m d main_v351
  | ⟨3, _⟩ => Rv m d main_v464

/-- Every corner's prediction on one query row. -/
theorem pred_apply (k : Fin 4) (b : Fin 2) (q : Fin 65536) (o : Fin 2) :
    Rpred m d k (ix3 b q o)
      = Cert.Spec.mlpTail (Rv m d main_arg5) (fun j => Rv m d main_arg6 (ix1 j)) (Rv m d main_arg7) (fun j => Rv m d main_arg8 (ix1 j))
          (Rv m d main_arg9) (fun j => Rv m d main_arg10 (ix1 j)) (Rv m d main_arg11) (fun j => Rv m d main_arg12 (ix1 j))
          (Cert.Spec.layer0Whole (Rv m d main_arg3) (fun j => Rv m d main_arg4 (ix1 j)) (inpRow m d k b q)) o :=
  match k with
  | ⟨0, _⟩ => pred_apply_0 m d b q o
  | ⟨1, _⟩ => pred_apply_1 m d b q o
  | ⟨2, _⟩ => pred_apply_2 m d b q o
  | ⟨3, _⟩ => pred_apply_3 m d b q o

end Cert.ReferenceIdeal.Hand

end
-- ==== Proof.BridgeR.lean ====
import proofs.«100126_j36189394436483_2_alg».proof.Proof.RReadC
import proofs.«100126_j36189394436483_2_alg».proof.Proof.RRead

/-! # The plain program's first result, in normal form

The first result at an entry is the blend of the four corner predictions with the shares of the opposite corners'
areas; each corner's prediction is the network — the whole first layer on the corner's 580 inputs, then the four
remaining layers — read at the entry. Put together: the first result as the specification's blend of the specification's
network, over the weights, the biases, the four input rows and the four areas as the program holds them. -/

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (d : Dev nD)

/-! ## The weights, the biases and the areas, at their array types -/

/-- The first layer's weights and bias. -/
abbrev Rw0 : Vec Ideal S580x256 .f32 := Rv m d main_arg3
abbrev Rb0 : Vec Ideal S256 .f32 := Rv m d main_arg4
/-- The second layer's. -/
abbrev Rw1 : Vec Ideal S256x256 .f32 := Rv m d main_arg5
abbrev Rb1 : Vec Ideal S256 .f32 := Rv m d main_arg6
/-- The third layer's. -/
abbrev Rw2 : Vec Ideal S256x256 .f32 := Rv m d main_arg7
abbrev Rb2 : Vec Ideal S256 .f32 := Rv m d main_arg8
/-- The fourth layer's. -/
abbrev Rw3 : Vec Ideal S256x256 .f32 := Rv m d main_arg9
abbrev Rb3 : Vec Ideal S256 .f32 := Rv m d main_arg10
/-- The read-out's. -/
abbrev Rw4 : Vec Ideal S256x2 .f32 := Rv m d main_arg11
abbrev Rb4 : Vec Ideal S2 .f32 := Rv m d main_arg12

/-- The four corners' areas. -/
def areaR : Fin 4 → FVec Ideal S2x65536 .f32
  | ⟨0, _⟩ => Rv m d main_v133 | ⟨1, _⟩ => Rv m d main_v246 | ⟨2, _⟩ => Rv m d main_v359 | ⟨3, _⟩ => Rv m d main_v472

theorem areaR_0 : areaR m d 0 = Rv m d main_v133 := by unfold areaR; rfl
theorem areaR_1 : areaR m d 1 = Rv m d main_v246 := by unfold areaR; rfl
theorem areaR_2 : areaR m d 2 = Rv m d main_v359 := by unfold areaR; rfl
theorem areaR_3 : areaR m d 3 = Rv m d main_v472 := by unfold areaR; rfl

/-- A family of four given by its members is the family that agrees with each member. -/
theorem vec4_cases {α : Type} (a0 a1 a2 a3 : α) (f : Fin 4 → α) (h0 : a0 = f 0) (h1 : a1 = f 1) (h2 : a2 = f 2) (h3 : a3 = f 3)
    (k : Fin 4) : (![a0, a1, a2, a3] : Fin 4 → α) k = f k := by
  match k with
  | ⟨0, _⟩ => exact h0
  | ⟨1, _⟩ => exact h1
  | ⟨2, _⟩ => exact h2
  | ⟨3, _⟩ => exact h3

/-! ## The normal form -/

/-- The first result at an entry: the blend, with the shares of the opposite corners' areas, of the network's
    predictions on the four corners' input rows. -/
theorem retR_normal (b : Fin 2) (q : Fin 65536) (o : Fin 2) :
    Rv m d main_v496 (ix3 b q o)
      = Cert.Spec.blend4
          (fun k => Cert.Spec.mlpTail (Rw1 m d) (fun j => Rb1 m d (ix1 j)) (Rw2 m d) (fun j => Rb2 m d (ix1 j))
            (Rw3 m d) (fun j => Rb3 m d (ix1 j)) (Rw4 m d) (fun j => Rb4 m d (ix1 j))
            (Cert.Spec.layer0Whole (Rw0 m d) (fun j => Rb0 m d (ix1 j)) (inpRow m d k b q)))
          (fun k => Ideal.div (areaR m d k.rev (ix2 b q))
            (((areaR m d 0 (ix2 b q) + areaR m d 1 (ix2 b q)) + areaR m d 2 (ix2 b q)) + areaR m d 3 (ix2 b q))) o := by
  refine (ret_apply m d b q o).trans ?_
  refine congrArg₂ (fun p g => Cert.Spec.blend4 p g o) ?_ ?_
  · funext k o'
    exact vec4_cases _ _ _ _
      (fun k => Cert.Spec.mlpTail (Rw1 m d) (fun j => Rb1 m d (ix1 j)) (Rw2 m d) (fun j => Rb2 m d (ix1 j))
        (Rw3 m d) (fun j => Rb3 m d (ix1 j)) (Rw4 m d) (fun j => Rb4 m d (ix1 j))
        (Cert.Spec.layer0Whole (Rw0 m d) (fun j => Rb0 m d (ix1 j)) (inpRow m d k b q)) o')
      (pred_apply_0 m d b q o') (pred_apply_1 m d b q o') (pred_apply_2 m d b q o') (pred_apply_3 m d b q o') k
  · funext k
    rw [areaR_0, areaR_1, areaR_2, areaR_3]
    refine congrArg₂ Ideal.div ?_ rfl
    exact vec4_cases _ _ _ _ (fun k => areaR m d k.rev (ix2 b q))
      (congrFun (areaR_3 m d).symm _) (congrFun (areaR_2 m d).symm _) (congrFun (areaR_1 m d).symm _) (congrFun (areaR_0 m d).symm _) k

end Cert.ReferenceIdeal.Hand

end
-- ==== Proof.Agree.lean ====
/-
  The hypothesis of the comparison, for one core: the two launch memories hold the same thirteen argument arrays.
-/
import proofs.«100126_j36189394436483_2_alg».proof.KernelIdeal
import proofs.«100126_j36189394436483_2_alg».proof.ReferenceIdeal
import Idealize.ShloMosaic.PureOps.Ideal

noncomputable section

namespace Cert.Hand

open Idealize.ShloMosaic Idealize.ShloMosaic.TcCoe Idealize.SL.Sem

/-- The two launch memories hold the same thirteen argument arrays on core `c`. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

end Cert.Hand

end
-- ==== Proof.BridgeArgs.lean ====
/-
  The two programs are launched from memories that agree on the thirteen argument arrays, and neither program
  writes an argument; so at the two final valuations each argument array holds the same contents. The weight and
  bias arguments (3 … 12) are the ones the comparison reads; each equation is stated at the array's literal type,
  every step of it between two values of that one type, so that the two programs' buffer types are each computed
  once and never compared with each other.
-/
import proofs.«100126_j36189394436483_2_alg».proof.Proof.KReadK
import proofs.«100126_j36189394436483_2_alg».proof.Proof.RBase
import proofs.«100126_j36189394436483_2_alg».proof.Proof.Agree

noncomputable section

namespace Cert.Hand

open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The ten weight and bias arguments hold the same contents at the two final valuations. One statement for the
    ten: the agreement hypothesis relates a buffer of one program to a buffer of the other, and reading it identifies
    the two programs' buffer types once for all ten. -/
theorem args_eq (h : Agree m m' c) :
    @Eq (Vec Ideal Cert.KernelIdeal.S580x256 .f32) (Cert.KernelIdeal.Hand.Wend m ρ c (Proc.devRef .tc Cert.KernelIdeal.main_arg3)) (Cert.ReferenceIdeal.Hand.Rv m' c Cert.ReferenceIdeal.main_arg3)
    ∧ @Eq (Vec Ideal Cert.KernelIdeal.S256 .f32) (Cert.KernelIdeal.Hand.Wend m ρ c (Proc.devRef .tc Cert.KernelIdeal.main_arg4)) (Cert.ReferenceIdeal.Hand.Rv m' c Cert.ReferenceIdeal.main_arg4)
    ∧ @Eq (Vec Ideal Cert.KernelIdeal.S256x256 .f32) (Cert.KernelIdeal.Hand.Wend m ρ c (Proc.devRef .tc Cert.KernelIdeal.main_arg5)) (Cert.ReferenceIdeal.Hand.Rv m' c Cert.ReferenceIdeal.main_arg5)
    ∧ @Eq (Vec Ideal Cert.KernelIdeal.S256 .f32) (Cert.KernelIdeal.Hand.Wend m ρ c (Proc.devRef .tc Cert.KernelIdeal.main_arg6)) (Cert.ReferenceIdeal.Hand.Rv m' c Cert.ReferenceIdeal.main_arg6)
    ∧ @Eq (Vec Ideal Cert.KernelIdeal.S256x256 .f32) (Cert.KernelIdeal.Hand.Wend m ρ c (Proc.devRef .tc Cert.KernelIdeal.main_arg7)) (Cert.ReferenceIdeal.Hand.Rv m' c Cert.ReferenceIdeal.main_arg7)
    ∧ @Eq (Vec Ideal Cert.KernelIdeal.S256 .f32) (Cert.KernelIdeal.Hand.Wend m ρ c (Proc.devRef .tc Cert.KernelIdeal.main_arg8)) (Cert.ReferenceIdeal.Hand.Rv m' c Cert.ReferenceIdeal.main_arg8)
    ∧ @Eq (Vec Ideal Cert.KernelIdeal.S256x256 .f32) (Cert.KernelIdeal.Hand.Wend m ρ c (Proc.devRef .tc Cert.KernelIdeal.main_arg9)) (Cert.ReferenceIdeal.Hand.Rv m' c Cert.ReferenceIdeal.main_arg9)
    ∧ @Eq (Vec Ideal Cert.KernelIdeal.S256 .f32) (Cert.KernelIdeal.Hand.Wend m ρ c (Proc.devRef .tc Cert.KernelIdeal.main_arg10)) (Cert.ReferenceIdeal.Hand.Rv m' c Cert.ReferenceIdeal.main_arg10)
    ∧ @Eq (Vec Ideal Cert.KernelIdeal.S256x2 .f32) (Cert.KernelIdeal.Hand.Wend m ρ c (Proc.devRef .tc Cert.KernelIdeal.main_arg11)) (Cert.ReferenceIdeal.Hand.Rv m' c Cert.ReferenceIdeal.main_arg11)
    ∧ @Eq (Vec Ideal Cert.KernelIdeal.S2 .f32) (Cert.KernelIdeal.Hand.Wend m ρ c (Proc.devRef .tc Cert.KernelIdeal.main_arg12)) (Cert.ReferenceIdeal.Hand.Rv m' c Cert.ReferenceIdeal.main_arg12) :=
  ⟨(show @Eq (Vec Ideal Cert.KernelIdeal.S580x256 .f32) (Cert.KernelIdeal.Hand.Wend m ρ c (Proc.devRef .tc Cert.KernelIdeal.main_arg3)) (Cert.ReferenceIdeal.Hand.Rv m' c Cert.ReferenceIdeal.main_arg3) from
      (show @Eq (Vec Ideal Cert.KernelIdeal.S580x256 .f32) (Cert.KernelIdeal.Hand.Wend m ρ c (Proc.devRef .tc Cert.KernelIdeal.main_arg3)) (m ((c.tc : Thread Cert.KernelIdeal.nD Cert.KernelIdeal.τ).loc Cert.KernelIdeal.main_arg3)) from Cert.KernelIdeal.Hand.Wend_main_arg3 m ρ c).trans
      ((show @Eq (Vec Ideal Cert.KernelIdeal.S580x256 .f32) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3)) from h.2.2.2.1).symm.trans
      (show @Eq (Vec Ideal Cert.KernelIdeal.S580x256 .f32) (Cert.ReferenceIdeal.Hand.Rv m' c Cert.ReferenceIdeal.main_arg3) (m' ((c.tc : Thread Cert.ReferenceIdeal.nD Cert.ReferenceIdeal.τ).loc Cert.ReferenceIdeal.main_arg3)) from Cert.ReferenceIdeal.Hand.after_main_arg3 m' c).symm)),
   (show @Eq (Vec Ideal Cert.KernelIdeal.S256 .f32) (Cert.KernelIdeal.Hand.Wend m ρ c (Proc.devRef .tc Cert.KernelIdeal.main_arg4)) (Cert.ReferenceIdeal.Hand.Rv m' c Cert.ReferenceIdeal.main_arg4) from
      (show @Eq (Vec Ideal Cert.KernelIdeal.S256 .f32) (Cert.KernelIdeal.Hand.Wend m ρ c (Proc.devRef .tc Cert.KernelIdeal.main_arg4)) (m ((c.tc : Thread Cert.KernelIdeal.nD Cert.KernelIdeal.τ).loc Cert.KernelIdeal.main_arg4)) from Cert.KernelIdeal.Hand.Wend_main_arg4 m ρ c).trans
      ((show @Eq (Vec Ideal Cert.KernelIdeal.S256 .f32) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4)) from h.2.2.2.2.1).symm.trans
      (show @Eq (Vec Ideal Cert.KernelIdeal.S256 .f32) (Cert.ReferenceIdeal.Hand.Rv m' c Cert.ReferenceIdeal.main_arg4) (m' ((c.tc : Thread Cert.ReferenceIdeal.nD Cert.ReferenceIdeal.τ).loc Cert.ReferenceIdeal.main_arg4)) from Cert.ReferenceIdeal.Hand.after_main_arg4 m' c).symm)),
   (show @Eq (Vec Ideal Cert.KernelIdeal.S256x256 .f32) (Cert.KernelIdeal.Hand.Wend m ρ c (Proc.devRef .tc Cert.KernelIdeal.main_arg5)) (Cert.ReferenceIdeal.Hand.Rv m' c Cert.ReferenceIdeal.main_arg5) from
      (show @Eq (Vec Ideal Cert.KernelIdeal.S256x256 .f32) (Cert.KernelIdeal.Hand.Wend m ρ c (Proc.devRef .tc Cert.KernelIdeal.main_arg5)) (m ((c.tc : Thread Cert.KernelIdeal.nD Cert.KernelIdeal.τ).loc Cert.KernelIdeal.main_arg5)) from Cert.KernelIdeal.Hand.Wend_main_arg5 m ρ c).trans
      ((show @Eq (Vec Ideal Cert.KernelIdeal.S256x256 .f32) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5)) from h.2.2.2.2.2.1).symm.trans
      (show @Eq (Vec Ideal Cert.KernelIdeal.S256x256 .f32) (Cert.ReferenceIdeal.Hand.Rv m' c Cert.ReferenceIdeal.main_arg5) (m' ((c.tc : Thread Cert.ReferenceIdeal.nD Cert.ReferenceIdeal.τ).loc Cert.ReferenceIdeal.main_arg5)) from Cert.ReferenceIdeal.Hand.after_main_arg5 m' c).symm)),
   (show @Eq (Vec Ideal Cert.KernelIdeal.S256 .f32) (Cert.KernelIdeal.Hand.Wend m ρ c (Proc.devRef .tc Cert.KernelIdeal.main_arg6)) (Cert.ReferenceIdeal.Hand.Rv m' c Cert.ReferenceIdeal.main_arg6) from
      (show @Eq (Vec Ideal Cert.KernelIdeal.S256 .f32) (Cert.KernelIdeal.Hand.Wend m ρ c (Proc.devRef .tc Cert.KernelIdeal.main_arg6)) (m ((c.tc : Thread Cert.KernelIdeal.nD Cert.KernelIdeal.τ).loc Cert.KernelIdeal.main_arg6)) from Cert.KernelIdeal.Hand.Wend_main_arg6 m ρ c).trans
      ((show @Eq (Vec Ideal Cert.KernelIdeal.S256 .f32) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6)) from h.2.2.2.2.2.2.1).symm.trans
      (show @Eq (Vec Ideal Cert.KernelIdeal.S256 .f32) (Cert.ReferenceIdeal.Hand.Rv m' c Cert.ReferenceIdeal.main_arg6) (m' ((c.tc : Thread Cert.ReferenceIdeal.nD Cert.ReferenceIdeal.τ).loc Cert.ReferenceIdeal.main_arg6)) from Cert.ReferenceIdeal.Hand.after_main_arg6 m' c).symm)),
   (show @Eq (Vec Ideal Cert.KernelIdeal.S256x256 .f32) (Cert.KernelIdeal.Hand.Wend m ρ c (Proc.devRef .tc Cert.KernelIdeal.main_arg7)) (Cert.ReferenceIdeal.Hand.Rv m' c Cert.ReferenceIdeal.main_arg7) from
      (show @Eq (Vec Ideal Cert.KernelIdeal.S256x256 .f32) (Cert.KernelIdeal.Hand.Wend m ρ c (Proc.devRef .tc Cert.KernelIdeal.main_arg7)) (m ((c.tc : Thread Cert.KernelIdeal.nD Cert.KernelIdeal.τ).loc Cert.KernelIdeal.main_arg7)) from Cert.KernelIdeal.Hand.Wend_main_arg7 m ρ c).trans
      ((show @Eq (Vec Ideal Cert.KernelIdeal.S256x256 .f32) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7)) from h.2.2.2.2.2.2.2.1).symm.trans
      (show @Eq (Vec Ideal Cert.KernelIdeal.S256x256 .f32) (Cert.ReferenceIdeal.Hand.Rv m' c Cert.ReferenceIdeal.main_arg7) (m' ((c.tc : Thread Cert.ReferenceIdeal.nD Cert.ReferenceIdeal.τ).loc Cert.ReferenceIdeal.main_arg7)) from Cert.ReferenceIdeal.Hand.after_main_arg7 m' c).symm)),
   (show @Eq (Vec Ideal Cert.KernelIdeal.S256 .f32) (Cert.KernelIdeal.Hand.Wend m ρ c (Proc.devRef .tc Cert.KernelIdeal.main_arg8)) (Cert.ReferenceIdeal.Hand.Rv m' c Cert.ReferenceIdeal.main_arg8) from
      (show @Eq (Vec Ideal Cert.KernelIdeal.S256 .f32) (Cert.KernelIdeal.Hand.Wend m ρ c (Proc.devRef .tc Cert.KernelIdeal.main_arg8)) (m ((c.tc : Thread Cert.KernelIdeal.nD Cert.KernelIdeal.τ).loc Cert.KernelIdeal.main_arg8)) from Cert.KernelIdeal.Hand.Wend_main_arg8 m ρ c).trans
      ((show @Eq (Vec Ideal Cert.KernelIdeal.S256 .f32) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8)) from h.2.2.2.2.2.2.2.2.1).symm.trans
      (show @Eq (Vec Ideal Cert.KernelIdeal.S256 .f32) (Cert.ReferenceIdeal.Hand.Rv m' c Cert.ReferenceIdeal.main_arg8) (m' ((c.tc : Thread Cert.ReferenceIdeal.nD Cert.ReferenceIdeal.τ).loc Cert.ReferenceIdeal.main_arg8)) from Cert.ReferenceIdeal.Hand.after_main_arg8 m' c).symm)),
   (show @Eq (Vec Ideal Cert.KernelIdeal.S256x256 .f32) (Cert.KernelIdeal.Hand.Wend m ρ c (Proc.devRef .tc Cert.KernelIdeal.main_arg9)) (Cert.ReferenceIdeal.Hand.Rv m' c Cert.ReferenceIdeal.main_arg9) from
      (show @Eq (Vec Ideal Cert.KernelIdeal.S256x256 .f32) (Cert.KernelIdeal.Hand.Wend m ρ c (Proc.devRef .tc Cert.KernelIdeal.main_arg9)) (m ((c.tc : Thread Cert.KernelIdeal.nD Cert.KernelIdeal.τ).loc Cert.KernelIdeal.main_arg9)) from Cert.KernelIdeal.Hand.Wend_main_arg9 m ρ c).trans
      ((show @Eq (Vec Ideal Cert.KernelIdeal.S256x256 .f32) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9)) from h.2.2.2.2.2.2.2.2.2.1).symm.trans
      (show @Eq (Vec Ideal Cert.KernelIdeal.S256x256 .f32) (Cert.ReferenceIdeal.Hand.Rv m' c Cert.ReferenceIdeal.main_arg9) (m' ((c.tc : Thread Cert.ReferenceIdeal.nD Cert.ReferenceIdeal.τ).loc Cert.ReferenceIdeal.main_arg9)) from Cert.ReferenceIdeal.Hand.after_main_arg9 m' c).symm)),
   (show @Eq (Vec Ideal Cert.KernelIdeal.S256 .f32) (Cert.KernelIdeal.Hand.Wend m ρ c (Proc.devRef .tc Cert.KernelIdeal.main_arg10)) (Cert.ReferenceIdeal.Hand.Rv m' c Cert.ReferenceIdeal.main_arg10) from
      (show @Eq (Vec Ideal Cert.KernelIdeal.S256 .f32) (Cert.KernelIdeal.Hand.Wend m ρ c (Proc.devRef .tc Cert.KernelIdeal.main_arg10)) (m ((c.tc : Thread Cert.KernelIdeal.nD Cert.KernelIdeal.τ).loc Cert.KernelIdeal.main_arg10)) from Cert.KernelIdeal.Hand.Wend_main_arg10 m ρ c).trans
      ((show @Eq (Vec Ideal Cert.KernelIdeal.S256 .f32) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10)) from h.2.2.2.2.2.2.2.2.2.2.1).symm.trans
      (show @Eq (Vec Ideal Cert.KernelIdeal.S256 .f32) (Cert.ReferenceIdeal.Hand.Rv m' c Cert.ReferenceIdeal.main_arg10) (m' ((c.tc : Thread Cert.ReferenceIdeal.nD Cert.ReferenceIdeal.τ).loc Cert.ReferenceIdeal.main_arg10)) from Cert.ReferenceIdeal.Hand.after_main_arg10 m' c).symm)),
   (show @Eq (Vec Ideal Cert.KernelIdeal.S256x2 .f32) (Cert.KernelIdeal.Hand.Wend m ρ c (Proc.devRef .tc Cert.KernelIdeal.main_arg11)) (Cert.ReferenceIdeal.Hand.Rv m' c Cert.ReferenceIdeal.main_arg11) from
      (show @Eq (Vec Ideal Cert.KernelIdeal.S256x2 .f32) (Cert.KernelIdeal.Hand.Wend m ρ c (Proc.devRef .tc Cert.KernelIdeal.main_arg11)) (m ((c.tc : Thread Cert.KernelIdeal.nD Cert.KernelIdeal.τ).loc Cert.KernelIdeal.main_arg11)) from Cert.KernelIdeal.Hand.Wend_main_arg11 m ρ c).trans
      ((show @Eq (Vec Ideal Cert.KernelIdeal.S256x2 .f32) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11)) from h.2.2.2.2.2.2.2.2.2.2.2.1).symm.trans
      (show @Eq (Vec Ideal Cert.KernelIdeal.S256x2 .f32) (Cert.ReferenceIdeal.Hand.Rv m' c Cert.ReferenceIdeal.main_arg11) (m' ((c.tc : Thread Cert.ReferenceIdeal.nD Cert.ReferenceIdeal.τ).loc Cert.ReferenceIdeal.main_arg11)) from Cert.ReferenceIdeal.Hand.after_main_arg11 m' c).symm)),
   (show @Eq (Vec Ideal Cert.KernelIdeal.S2 .f32) (Cert.KernelIdeal.Hand.Wend m ρ c (Proc.devRef .tc Cert.KernelIdeal.main_arg12)) (Cert.ReferenceIdeal.Hand.Rv m' c Cert.ReferenceIdeal.main_arg12) from
      (show @Eq (Vec Ideal Cert.KernelIdeal.S2 .f32) (Cert.KernelIdeal.Hand.Wend m ρ c (Proc.devRef .tc Cert.KernelIdeal.main_arg12)) (m ((c.tc : Thread Cert.KernelIdeal.nD Cert.KernelIdeal.τ).loc Cert.KernelIdeal.main_arg12)) from Cert.KernelIdeal.Hand.Wend_main_arg12 m ρ c).trans
      ((show @Eq (Vec Ideal Cert.KernelIdeal.S2 .f32) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12)) from h.2.2.2.2.2.2.2.2.2.2.2.2).symm.trans
      (show @Eq (Vec Ideal Cert.KernelIdeal.S2 .f32) (Cert.ReferenceIdeal.Hand.Rv m' c Cert.ReferenceIdeal.main_arg12) (m' ((c.tc : Thread Cert.ReferenceIdeal.nD Cert.ReferenceIdeal.τ).loc Cert.ReferenceIdeal.main_arg12)) from Cert.ReferenceIdeal.Hand.after_main_arg12 m' c).symm))⟩

/-- Argument 3 holds the same contents at the two final valuations. -/
theorem arg3_eq (h : Agree m m' c) :
    @Eq (Vec Ideal Cert.KernelIdeal.S580x256 .f32) (Cert.KernelIdeal.Hand.Wend m ρ c (Proc.devRef .tc Cert.KernelIdeal.main_arg3)) (Cert.ReferenceIdeal.Hand.Rv m' c Cert.ReferenceIdeal.main_arg3) :=
  (args_eq m ρ m' c h).1

/-- Argument 4 holds the same contents at the two final valuations. -/
theorem arg4_eq (h : Agree m m' c) :
    @Eq (Vec Ideal Cert.KernelIdeal.S256 .f32) (Cert.KernelIdeal.Hand.Wend m ρ c (Proc.devRef .tc Cert.KernelIdeal.main_arg4)) (Cert.ReferenceIdeal.Hand.Rv m' c Cert.ReferenceIdeal.main_arg4) :=
  (args_eq m ρ m' c h).2.1

/-- Argument 5 holds the same contents at the two final valuations. -/
theorem arg5_eq (h : Agree m m' c) :
    @Eq (Vec Ideal Cert.KernelIdeal.S256x256 .f32) (Cert.KernelIdeal.Hand.Wend m ρ c (Proc.devRef .tc Cert.KernelIdeal.main_arg5)) (Cert.ReferenceIdeal.Hand.Rv m' c Cert.ReferenceIdeal.main_arg5) :=
  (args_eq m ρ m' c h).2.2.1

/-- Argument 6 holds the same contents at the two final valuations. -/
theorem arg6_eq (h : Agree m m' c) :
    @Eq (Vec Ideal Cert.KernelIdeal.S256 .f32) (Cert.KernelIdeal.Hand.Wend m ρ c (Proc.devRef .tc Cert.KernelIdeal.main_arg6)) (Cert.ReferenceIdeal.Hand.Rv m' c Cert.ReferenceIdeal.main_arg6) :=
  (args_eq m ρ m' c h).2.2.2.1

/-- Argument 7 holds the same contents at the two final valuations. -/
theorem arg7_eq (h : Agree m m' c) :
    @Eq (Vec Ideal Cert.KernelIdeal.S256x256 .f32) (Cert.KernelIdeal.Hand.Wend m ρ c (Proc.devRef .tc Cert.KernelIdeal.main_arg7)) (Cert.ReferenceIdeal.Hand.Rv m' c Cert.ReferenceIdeal.main_arg7) :=
  (args_eq m ρ m' c h).2.2.2.2.1

/-- Argument 8 holds the same contents at the two final valuations. -/
theorem arg8_eq (h : Agree m m' c) :
    @Eq (Vec Ideal Cert.KernelIdeal.S256 .f32) (Cert.KernelIdeal.Hand.Wend m ρ c (Proc.devRef .tc Cert.KernelIdeal.main_arg8)) (Cert.ReferenceIdeal.Hand.Rv m' c Cert.ReferenceIdeal.main_arg8) :=
  (args_eq m ρ m' c h).2.2.2.2.2.1

/-- Argument 9 holds the same contents at the two final valuations. -/
theorem arg9_eq (h : Agree m m' c) :
    @Eq (Vec Ideal Cert.KernelIdeal.S256x256 .f32) (Cert.KernelIdeal.Hand.Wend m ρ c (Proc.devRef .tc Cert.KernelIdeal.main_arg9)) (Cert.ReferenceIdeal.Hand.Rv m' c Cert.ReferenceIdeal.main_arg9) :=
  (args_eq m ρ m' c h).2.2.2.2.2.2.1

/-- Argument 10 holds the same contents at the two final valuations. -/
theorem arg10_eq (h : Agree m m' c) :
    @Eq (Vec Ideal Cert.KernelIdeal.S256 .f32) (Cert.KernelIdeal.Hand.Wend m ρ c (Proc.devRef .tc Cert.KernelIdeal.main_arg10)) (Cert.ReferenceIdeal.Hand.Rv m' c Cert.ReferenceIdeal.main_arg10) :=
  (args_eq m ρ m' c h).2.2.2.2.2.2.2.1

/-- Argument 11 holds the same contents at the two final valuations. -/
theorem arg11_eq (h : Agree m m' c) :
    @Eq (Vec Ideal Cert.KernelIdeal.S256x2 .f32) (Cert.KernelIdeal.Hand.Wend m ρ c (Proc.devRef .tc Cert.KernelIdeal.main_arg11)) (Cert.ReferenceIdeal.Hand.Rv m' c Cert.ReferenceIdeal.main_arg11) :=
  (args_eq m ρ m' c h).2.2.2.2.2.2.2.2.1

/-- Argument 12 holds the same contents at the two final valuations. -/
theorem arg12_eq (h : Agree m m' c) :
    @Eq (Vec Ideal Cert.KernelIdeal.S2 .f32) (Cert.KernelIdeal.Hand.Wend m ρ c (Proc.devRef .tc Cert.KernelIdeal.main_arg12)) (Cert.ReferenceIdeal.Hand.Rv m' c Cert.ReferenceIdeal.main_arg12) :=
  (args_eq m ρ m' c h).2.2.2.2.2.2.2.2.2

end Cert.Hand

end
-- ==== Proof.BridgeMain.lean ====
/-
  The comparison of the first result, entry by entry. Both programs' results are the same blend of four network
  predictions; the kernel program's first layer is split (pre-projected pixel features plus the four relative inputs),
  the reference's is whole. Given that the shared host chains (unfolded features, nearest-pixel indices, relative
  coordinates and cells, areas) end equal in the two programs, the entries agree by the split of the 580-term sum.
-/
import proofs.«100126_j36189394436483_2_alg».proof.Proof.BridgeK
import proofs.«100126_j36189394436483_2_alg».proof.Proof.BridgeR
import proofs.«100126_j36189394436483_2_alg».proof.Proof.BridgeArgs
import proofs.«100126_j36189394436483_2_alg».proof.Proof.Core

noncomputable section

namespace Cert.Hand

open Idealize.ShloMosaic Idealize.ShloMosaic.TcCoe Idealize.ShloMosaic.ValueIdx Idealize.SL.Sem
open Cert.Spec Cert.Hand.Gather

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- Entry `(b, q, o)` of the first result is the same in the two programs, given the arguments' agreement and the
    equality of the shared intermediate arrays. -/
theorem result0_entry (h : Agree m m' c)
    (hfeat : Cert.KernelIdeal.Hand.Kfeatu m ρ c = Cert.ReferenceIdeal.Hand.Rfeatu m' c)
    (hidx : ∀ k : Fin 4, Cert.KernelIdeal.Hand.KidxT m ρ c k = Cert.ReferenceIdeal.Hand.Ridx m' c k)
    (hrc : ∀ k : Fin 4, Cert.KernelIdeal.Hand.KrelcoordT m ρ c k = Cert.ReferenceIdeal.Hand.Rrelcoord m' c k)
    (hcell : ∀ k : Fin 4, Cert.KernelIdeal.Hand.KrelcellT m ρ c k = Cert.ReferenceIdeal.Hand.Rrelcell m' c k)
    (harea : ∀ k : Fin 4, Cert.KernelIdeal.Hand.areaK m ρ c k = Cert.ReferenceIdeal.Hand.areaR m' c k)
    (b : Fin 2) (q : Fin 65536) (o : Fin 2) :
    Cert.ReferenceIdeal.Hand.Rv m' c Cert.ReferenceIdeal.main_v496 (ix3 b q o) = (Cert.KernelIdeal.Hand.Kv m ρ c Cert.KernelIdeal.main_v410 : Vec Ideal Cert.KernelIdeal.S2x65536x2 .f32) (ix3 b q o) := by
  have hW0 : Cert.KernelIdeal.Hand.Kw0 m ρ c = Cert.ReferenceIdeal.Hand.Rw0 m' c := arg3_eq m ρ m' c h
  have hB0 : Cert.KernelIdeal.Hand.Kb0 m ρ c = Cert.ReferenceIdeal.Hand.Rb0 m' c := arg4_eq m ρ m' c h
  have hW1 : Cert.KernelIdeal.Hand.Kw1 m ρ c = Cert.ReferenceIdeal.Hand.Rw1 m' c := arg5_eq m ρ m' c h
  have hB1 : Cert.KernelIdeal.Hand.Kb1 m ρ c = Cert.ReferenceIdeal.Hand.Rb1 m' c := arg6_eq m ρ m' c h
  have hW2 : Cert.KernelIdeal.Hand.Kw2 m ρ c = Cert.ReferenceIdeal.Hand.Rw2 m' c := arg7_eq m ρ m' c h
  have hB2 : Cert.KernelIdeal.Hand.Kb2 m ρ c = Cert.ReferenceIdeal.Hand.Rb2 m' c := arg8_eq m ρ m' c h
  have hW3 : Cert.KernelIdeal.Hand.Kw3 m ρ c = Cert.ReferenceIdeal.Hand.Rw3 m' c := arg9_eq m ρ m' c h
  have hB3 : Cert.KernelIdeal.Hand.Kb3 m ρ c = Cert.ReferenceIdeal.Hand.Rb3 m' c := arg10_eq m ρ m' c h
  have hW4 : Cert.KernelIdeal.Hand.Kw4 m ρ c = Cert.ReferenceIdeal.Hand.Rw4 m' c := arg11_eq m ρ m' c h
  have hB4 : Cert.KernelIdeal.Hand.Kb4 m ρ c = Cert.ReferenceIdeal.Hand.Rb4 m' c := arg12_eq m ρ m' c h
  refine (Cert.ReferenceIdeal.Hand.retR_normal m' c b q o).trans (Eq.trans ?_ (Cert.KernelIdeal.Hand.ret_normal m ρ c b q o).symm)
  symm
  refine row_agree (Cert.ReferenceIdeal.Hand.Rw0 m' c) (fun j => Cert.ReferenceIdeal.Hand.Rb0 m' c (ix1 j))
    (Cert.ReferenceIdeal.Hand.Rw1 m' c) (fun j => Cert.ReferenceIdeal.Hand.Rb1 m' c (ix1 j)) (Cert.ReferenceIdeal.Hand.Rw2 m' c) (fun j => Cert.ReferenceIdeal.Hand.Rb2 m' c (ix1 j))
    (Cert.ReferenceIdeal.Hand.Rw3 m' c) (fun j => Cert.ReferenceIdeal.Hand.Rb3 m' c (ix1 j)) (Cert.ReferenceIdeal.Hand.Rw4 m' c) (fun j => Cert.ReferenceIdeal.Hand.Rb4 m' c (ix1 j))
    (Cert.KernelIdeal.Hand.w0rOf (Cert.KernelIdeal.Hand.Kw0 m ρ c)) (fun j => Cert.KernelIdeal.Hand.Kb0 m ρ c (ix1 j))
    (Cert.KernelIdeal.Hand.Kw1 m ρ c) (fun j => Cert.KernelIdeal.Hand.Kb1 m ρ c (ix1 j)) (Cert.KernelIdeal.Hand.Kw2 m ρ c) (fun j => Cert.KernelIdeal.Hand.Kb2 m ρ c (ix1 j))
    (Cert.KernelIdeal.Hand.Kw3 m ρ c) (fun j => Cert.KernelIdeal.Hand.Kb3 m ρ c (ix1 j)) (Cert.KernelIdeal.Hand.Kw4 m ρ c) (fun j => Cert.KernelIdeal.Hand.Kb4 m ρ c (ix1 j))
    (fun k => Cert.ReferenceIdeal.Hand.inpRow m' c k b q) (fun k => Cert.KernelIdeal.Hand.projRowK m ρ c k b q) (fun k => Cert.KernelIdeal.Hand.relRowK m ρ c k b q)
    _ _
    (by rw [hB0]) (by rw [hW1]) (by rw [hB1]) (by rw [hW2]) (by rw [hB2]) (by rw [hW3]) (by rw [hB3]) (by rw [hW4]) (by rw [hB4])
    ?hproj ?hrel ?hw ?hg o
  case hproj =>
    intro k j
    show (∑ i : Fin 576, Cert.KernelIdeal.Hand.Kfeatu m ρ c (ix4 b i (gy (Cert.KernelIdeal.Hand.KidxT m ρ c k) b q) (gx (Cert.KernelIdeal.Hand.KidxT m ρ c k) b q)) * Cert.KernelIdeal.Hand.Kw0 m ρ c (ix2 (Fin.castAdd 4 i) j)) = _
    rw [hfeat, hidx k, hW0]
    exact Finset.sum_congr rfl fun i _ => by rw [Cert.ReferenceIdeal.Hand.inpRow_feat m' c k b q i]
  case hrel =>
    intro k i
    refine Fin.addCases (m := 2) (n := 2) (motive := fun i => Cert.KernelIdeal.Hand.relRowK m ρ c k b q i = Cert.ReferenceIdeal.Hand.inpRow m' c k b q (Fin.natAdd 576 i)) (fun i' => ?_) (fun i' => ?_) i
    · rw [Cert.KernelIdeal.Hand.relRowK_coord m ρ c k b q i', Cert.ReferenceIdeal.Hand.inpRow_relcoord m' c k b q i', hrc k]
    · rw [Cert.KernelIdeal.Hand.relRowK_cell m ρ c k b q i', Cert.ReferenceIdeal.Hand.inpRow_relcell m' c k b q i', hcell k]
  case hw =>
    intro i j
    rw [Cert.KernelIdeal.Hand.w0rOf_apply, hW0]
  case hg =>
    intro k
    rw [total4 (fun k' => Cert.KernelIdeal.Hand.areaK m ρ c k' (ix2 b q))]
    simp only [harea]

end Cert.Hand

end
-- ==== Proof.SharedOpen.lean ====
/-
  Opening a fold of host operations through an operation of several operands.

  The value a buffer holds after a straight line of host operations is found by walking the line backwards: at the
  operation that writes the buffer, its function applied to the contents of its operand buffers, each found the same
  way. For an operation whose operands are given as a family indexed by `Fin n` (a concatenation), the function
  receives the operands' contents as one dependent family, and a rewriting pass cannot go on into that family once
  it sits inside the function's body. The two lemmas below state such an operation's result, for two and for nine
  operands, as a function applied to the nine (or two) contents one by one, each at its own reference, so that each
  is an ordinary argument and can be opened in turn; `after_open` is the rewriting pass with them. A concatenation of
  two operands may also be given as an operation of two operands whose function builds the list itself; for that form
  `after_open2` keeps every two-operand operation's function held applied to its two operands' contents.
-/
import Idealize.ShloMosaic.Lib.StableHlo.Run

noncomputable section

namespace Cert.Hand.Shared

open Idealize.ShloMosaic Idealize.ShloMosaic.StableHlo

section NaryLiteral
variable {τ : Topo} {sig : RefSig} {Val : EltTy → Type}

/-- A dependent pair of values, one per index of `Fin 2`. -/
def tup2 {α : Fin 2 → Type} (a0 : α 0) (a1 : α 1) : (k : Fin 2) → α k
  | ⟨0, _⟩ => a0
  | ⟨1, _⟩ => a1

/-- A dependent family of nine values, one per index of `Fin 9`. -/
def tup9 {α : Fin 9 → Type} (a0 : α 0) (a1 : α 1) (a2 : α 2) (a3 : α 3) (a4 : α 4) (a5 : α 5) (a6 : α 6) (a7 : α 7)
    (a8 : α 8) : (k : Fin 9) → α k
  | ⟨0, _⟩ => a0
  | ⟨1, _⟩ => a1
  | ⟨2, _⟩ => a2
  | ⟨3, _⟩ => a3
  | ⟨4, _⟩ => a4
  | ⟨5, _⟩ => a5
  | ⟨6, _⟩ => a6
  | ⟨7, _⟩ => a7
  | ⟨8, _⟩ => a8

/-- A function of two arguments applied to them: the arguments stay in argument position, where they can be
    rewritten, whatever the function does with them. -/
@[reducible] def app2 {A0 A1 B : Type} (g : A0 → A1 → B) (a0 : A0) (a1 : A1) : B := g a0 a1

/-- The same for nine arguments. -/
@[reducible] def app9 {A0 A1 A2 A3 A4 A5 A6 A7 A8 B : Type} (g : A0 → A1 → A2 → A3 → A4 → A5 → A6 → A7 → A8 → B)
    (a0 : A0) (a1 : A1) (a2 : A2) (a3 : A3) (a4 : A4) (a5 : A5) (a6 : A6) (a7 : A7) (a8 : A8) : B :=
  g a0 a1 a2 a3 a4 a5 a6 a7 a8

/-- An operation of two operands given as a literal family: its result as a function applied to the operands'
    contents, each at its own reference. -/
theorem nary2_result' {y x0 x1 : Ref sig .tc}
    (f : ((k : Fin 2) → ((![x0, x1] : Fin 2 → Ref sig .tc) k).ty.Contents Val) → y.ty.Contents Val) (hxs hy)
    (F : Valuation τ sig Val) :
    (nary (τ := τ) ![x0, x1] y f hxs hy).result F (no_index (Proc.devRef .tc y))
      = app2 (fun (a0 : ((![x0, x1] : Fin 2 → Ref sig .tc) 0).ty.Contents Val)
                  (a1 : ((![x0, x1] : Fin 2 → Ref sig .tc) 1).ty.Contents Val) =>
                f (tup2 (α := fun k => ((![x0, x1] : Fin 2 → Ref sig .tc) k).ty.Contents Val) a0 a1))
          (F (Proc.devRef .tc x0)) (F (Proc.devRef .tc x1)) := by
  rw [nary_result]; show _ = f _; congr 1; funext k; fin_cases k <;> rfl

/-- The same for nine operands. -/
theorem nary9_result' {y x0 x1 x2 x3 x4 x5 x6 x7 x8 : Ref sig .tc}
    (f : ((k : Fin 9) → ((![x0, x1, x2, x3, x4, x5, x6, x7, x8] : Fin 9 → Ref sig .tc) k).ty.Contents Val) → y.ty.Contents Val)
    (hxs hy) (F : Valuation τ sig Val) :
    (nary (τ := τ) ![x0, x1, x2, x3, x4, x5, x6, x7, x8] y f hxs hy).result F (no_index (Proc.devRef .tc y))
      = app9 (fun (a0 : ((![x0, x1, x2, x3, x4, x5, x6, x7, x8] : Fin 9 → Ref sig .tc) 0).ty.Contents Val)
                  (a1 : ((![x0, x1, x2, x3, x4, x5, x6, x7, x8] : Fin 9 → Ref sig .tc) 1).ty.Contents Val)
                  (a2 : ((![x0, x1, x2, x3, x4, x5, x6, x7, x8] : Fin 9 → Ref sig .tc) 2).ty.Contents Val)
                  (a3 : ((![x0, x1, x2, x3, x4, x5, x6, x7, x8] : Fin 9 → Ref sig .tc) 3).ty.Contents Val)
                  (a4 : ((![x0, x1, x2, x3, x4, x5, x6, x7, x8] : Fin 9 → Ref sig .tc) 4).ty.Contents Val)
                  (a5 : ((![x0, x1, x2, x3, x4, x5, x6, x7, x8] : Fin 9 → Ref sig .tc) 5).ty.Contents Val)
                  (a6 : ((![x0, x1, x2, x3, x4, x5, x6, x7, x8] : Fin 9 → Ref sig .tc) 6).ty.Contents Val)
                  (a7 : ((![x0, x1, x2, x3, x4, x5, x6, x7, x8] : Fin 9 → Ref sig .tc) 7).ty.Contents Val)
                  (a8 : ((![x0, x1, x2, x3, x4, x5, x6, x7, x8] : Fin 9 → Ref sig .tc) 8).ty.Contents Val) =>
                f (tup9 (α := fun k => ((![x0, x1, x2, x3, x4, x5, x6, x7, x8] : Fin 9 → Ref sig .tc) k).ty.Contents Val)
                  a0 a1 a2 a3 a4 a5 a6 a7 a8))
          (F (Proc.devRef .tc x0)) (F (Proc.devRef .tc x1)) (F (Proc.devRef .tc x2)) (F (Proc.devRef .tc x3))
          (F (Proc.devRef .tc x4)) (F (Proc.devRef .tc x5)) (F (Proc.devRef .tc x6)) (F (Proc.devRef .tc x7))
          (F (Proc.devRef .tc x8)) := by
  rw [nary_result]; show _ = f _; congr 1; funext k; fin_cases k <;> rfl

end NaryLiteral

/-- Opens every fold of a literal list of host operations in the goal: each operation's result at its own buffer
    becomes its function's value, at any other buffer what was there before (the buffers' inequality decided). -/
macro "after_open" : tactic =>
  `(tactic| (simp (disch := decide) only [after_cons, after_nil,
      nullary_result', unary_result', binary_result', ternary_result', quaternary_result', reshape_result',
      nary2_result', nary9_result',
      unaryIndexed_result', binaryIndexed_result',
      nullary_result_ne', unary_result_ne', binary_result_ne', ternary_result_ne', quaternary_result_ne', reshape_result_ne',
      nary_result_ne', unaryIndexed_result_ne', binaryIndexed_result_ne']))

section BinaryHeld
variable {τ : Topo} {sig : RefSig} {Val : EltTy → Type}

/-- A function of two arguments applied to them, kept as an application: where the function is a concatenation of
    its two arguments, these stay in argument position, where they can be rewritten. -/
def held2 {A0 A1 B : Type} (g : A0 → A1 → B) (a0 : A0) (a1 : A1) : B := g a0 a1

/-- A two-operand operation's result as its function held applied to the operands' contents. -/
theorem binary_held_result' {a b y : Ref sig .tc} (f : a.ty.Contents Val → b.ty.Contents Val → y.ty.Contents Val)
    (ha hb hy) (F : Valuation τ sig Val) :
    (binary (τ := τ) a b y f ha hb hy).result F (no_index (Proc.devRef .tc y))
      = held2 f (F (Proc.devRef .tc a)) (F (Proc.devRef .tc b)) :=
  binary_result a b y f ha hb hy F

end BinaryHeld

/-- `after_open` with every two-operand operation's function held applied to its operands: for a chain with a
    concatenation of two operands in it. -/
macro "after_open2" : tactic =>
  `(tactic| (simp (disch := decide) only [after_cons, after_nil,
      nullary_result', unary_result', binary_held_result', ternary_result', quaternary_result', reshape_result',
      nary2_result', nary9_result',
      unaryIndexed_result', binaryIndexed_result',
      nullary_result_ne', unary_result_ne', binary_result_ne', ternary_result_ne', quaternary_result_ne', reshape_result_ne',
      nary_result_ne', unaryIndexed_result_ne', binaryIndexed_result_ne']))

end Cert.Hand.Shared

end
-- ==== Proof.Shared.lean ====
/-
  The host chains the two programs share, down to the pixel a query names.

  Both programs compute, for each of the four corners k, from the query coordinates (argument 1) and a shift constant:
  the shifted coordinate clipped into the open square, its two components turned into a pixel row and column (an affine
  map, a floor, a clip into [0, 95], a conversion to a 32-bit integer), and the index array that holds the two,
  negative values wrapped, side by side on a last axis. The operations are the same on both sides, in the same order;
  one program runs them as a chain of short stretches around its two kernel regions, the other as eleven windows.
  Each equation below is proved the same way: the buffer at the end of the run is what it was after the item that
  wrote it; the folds over the items between the corner's first operation and that one are opened, on both sides, to
  one term over the coordinates and the shift constant; those are the same arrays on both sides (the launch memories
  agree on the arguments, the constant is the same literal); and the two terms are then the same term.
-/
import proofs.«100126_j36189394436483_2_alg».proof.Proof.KReadK
import proofs.«100126_j36189394436483_2_alg».proof.Proof.RBase
import proofs.«100126_j36189394436483_2_alg».proof.Proof.SharedOpen
import proofs.«100126_j36189394436483_2_alg».proof.Proof.Agree
import Idealize.ShloMosaic.PureOps.Ideal

set_option maxRecDepth 16384

noncomputable section

namespace Cert.Hand

open Idealize.ShloMosaic Idealize.ShloMosaic.TcCoe Idealize.SL.Sem Idealize.ShloMosaic.StableHlo
open Cert.Hand.Shared
open Cert.KernelIdeal.Hand (Wend W4 W11 W19 W27 Wend_at1 Wend_at4 Wend_at9 Wend_at11 Wend_at16 Wend_at19 Wend_at24 Wend_at27 Wend_at32 Wend_at35 Wend_main_arg1)
open Cert.ReferenceIdeal.Hand (Rv Rpre Rpre_0 Rpre_1 Rpre_2 Rpre_3 Rpre_4 Rpre_5 Rpre_6 Rpre_7 Rpre_8 Rpre_9 Rpre_stable_0 Rpre_stable_2 Rpre_stable_5 Rpre_stable_7 Rv_in_window_0 Rv_in_window_1 Rv_in_window_3 Rv_in_window_5 Rv_in_window_6 Rv_in_window_8 after_main_arg1)

variable [Cert.KernelIdeal.Facts] [Cert.ReferenceIdeal.Facts]
variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-! ## The query coordinates and the shift constants where an opened chain reads them -/

/-- The query coordinates at the first region's exit, on the side of the stretches: the valuations after it are
    folds over it, so every corner's chain, opened, reads the coordinates there. -/
theorem K_arg1_at4 :
    W4 m ρ c (Proc.devRef .tc Cert.KernelIdeal.main_arg1) = m ((c.tc : Thread Cert.KernelIdeal.nD Cert.KernelIdeal.τ).loc Cert.KernelIdeal.main_arg1) :=
  (Wend_at4 m ρ c Cert.KernelIdeal.main_arg1 (by decide) (Or.inl (by decide))).symm.trans (Wend_main_arg1 m ρ c)

/-- The query coordinates before the first window, on the side of the windows: the other launch memory's, which
    agrees. -/
theorem R_arg1_at0
    (hagree : Agree m m' c) :
    Rpre 0 m' c (Proc.devRef .tc Cert.ReferenceIdeal.main_arg1) = m ((c.tc : Thread Cert.KernelIdeal.nD Cert.KernelIdeal.τ).loc Cert.KernelIdeal.main_arg1) :=
  (Rpre_stable_0 Cert.ReferenceIdeal.main_arg1 (by decide)).trans ((after_main_arg1 m' c).trans hagree.2.1)

/-- The same before the third window, where the second corner's chain starts. -/
theorem R_arg1_at2
    (hagree : Agree m m' c) :
    Rpre 2 m' c (Proc.devRef .tc Cert.ReferenceIdeal.main_arg1) = m ((c.tc : Thread Cert.KernelIdeal.nD Cert.KernelIdeal.τ).loc Cert.KernelIdeal.main_arg1) :=
  (Rpre_stable_2 Cert.ReferenceIdeal.main_arg1 (by decide)).trans ((after_main_arg1 m' c).trans hagree.2.1)

/-- The first corner's shift constant is the same array at the end of both runs: the same literal. -/
theorem shared_cst_0 :
    Wend m ρ c (Proc.devRef .tc Cert.KernelIdeal.main_cst_0) = Rv m' c Cert.ReferenceIdeal.main_cst_0 := by
  rw [Wend_at1 m ρ c Cert.KernelIdeal.main_cst_0 (by decide) (Or.inl (by decide)) (Or.inl (by decide)),
    Rv_in_window_0 Cert.ReferenceIdeal.main_cst_0 (by decide)]
  after_open
  first | done | rfl

/-- The second corner's shift constant likewise. -/
theorem shared_cst_1 :
    Wend m ρ c (Proc.devRef .tc Cert.KernelIdeal.main_cst_1) = Rv m' c Cert.ReferenceIdeal.main_cst_1 := by
  rw [Wend_at1 m ρ c Cert.KernelIdeal.main_cst_1 (by decide) (Or.inl (by decide)) (Or.inl (by decide)),
    Rv_in_window_0 Cert.ReferenceIdeal.main_cst_1 (by decide)]
  after_open
  first | done | rfl

/-- The first shift constant at the first region's exit. -/
theorem K_cst_0_at4 :
    W4 m ρ c (Proc.devRef .tc Cert.KernelIdeal.main_cst_0) = Rv m' c Cert.ReferenceIdeal.main_cst_0 :=
  (Wend_at4 m ρ c Cert.KernelIdeal.main_cst_0 (by decide) (Or.inl (by decide))).symm.trans (shared_cst_0 m ρ m' c)

/-- The second shift constant at the first region's exit. -/
theorem K_cst_1_at4 :
    W4 m ρ c (Proc.devRef .tc Cert.KernelIdeal.main_cst_1) = Rv m' c Cert.ReferenceIdeal.main_cst_1 :=
  (Wend_at4 m ρ c Cert.KernelIdeal.main_cst_1 (by decide) (Or.inl (by decide))).symm.trans (shared_cst_1 m ρ m' c)

/-! ## Corner 0

On the side of the stretches the chain runs from the first region's exit (item 4) to item 8 (the row) and item 10
(the column and the index array); on the side of the windows it lies in windows 0 and 1. The shift constant is
written in window 0 itself, so there it is opened like any other buffer of the chain. -/

set_option maxHeartbeats 1000000 in
/-- The pixel row of corner 0, as a 32-bit integer, is the same array at the end of both runs. -/
theorem shared_iy_0
    (hagree : Agree m m' c) :
    Wend m ρ c (Proc.devRef .tc Cert.KernelIdeal.main_v45) = Rv m' c Cert.ReferenceIdeal.main_v39 := by
  rw [Wend_at9 m ρ c Cert.KernelIdeal.main_v45 (by decide) (Or.inl (by decide)),
    Rv_in_window_0 Cert.ReferenceIdeal.main_v39 (by decide)]
  after_open
  rw [K_arg1_at4 m ρ c, K_cst_0_at4 m ρ m' c, R_arg1_at0 m m' c hagree,
    Rv_in_window_0 Cert.ReferenceIdeal.main_cst_0 (by decide)]
  after_open
  first | done | rfl

set_option maxHeartbeats 1000000 in
/-- The pixel column of corner 0 likewise. -/
theorem shared_ix_0
    (hagree : Agree m m' c) :
    Wend m ρ c (Proc.devRef .tc Cert.KernelIdeal.main_v60) = Rv m' c Cert.ReferenceIdeal.main_v54 := by
  rw [Wend_at11 m ρ c Cert.KernelIdeal.main_v60 (by decide) (Or.inl (by decide)),
    Rv_in_window_1 Cert.ReferenceIdeal.main_v54 (by decide), Rpre_1]
  after_open
  rw [K_arg1_at4 m ρ c, K_cst_0_at4 m ρ m' c, R_arg1_at0 m m' c hagree,
    Rv_in_window_0 Cert.ReferenceIdeal.main_cst_0 (by decide)]
  after_open
  first | done | rfl

set_option maxHeartbeats 1000000 in
/-- The index array of corner 0 likewise. -/
theorem shared_idx_0
    (hagree : Agree m m' c) :
    Wend m ρ c (Proc.devRef .tc Cert.KernelIdeal.main_v73) = Rv m' c Cert.ReferenceIdeal.main_v67 := by
  rw [Wend_at11 m ρ c Cert.KernelIdeal.main_v73 (by decide) (Or.inl (by decide)),
    Rv_in_window_1 Cert.ReferenceIdeal.main_v67 (by decide), Rpre_1]
  after_open2
  rw [K_arg1_at4 m ρ c, K_cst_0_at4 m ρ m' c, R_arg1_at0 m m' c hagree,
    Rv_in_window_0 Cert.ReferenceIdeal.main_cst_0 (by decide)]
  after_open
  first | done | rfl

/-! ## Corner 1

On the side of the stretches the chain runs from item 11 to item 15 (the row) and item 18 (the column and the index
array), and the fold is opened down to the first region's exit, which is where the coordinates and the shift
constant are then read; on the side of the windows the chain lies in windows 2 and 3. The shift constant is an
earlier item's and an earlier window's: on both sides it is read at the end of the run, where it is the same array. -/

set_option maxHeartbeats 1000000 in
/-- The pixel row of corner 1, as a 32-bit integer, is the same array at the end of both runs. -/
theorem shared_iy_1
    (hagree : Agree m m' c) :
    Wend m ρ c (Proc.devRef .tc Cert.KernelIdeal.main_v134) = Rv m' c Cert.ReferenceIdeal.main_v152 := by
  rw [Wend_at16 m ρ c Cert.KernelIdeal.main_v134 (by decide) (Or.inl (by decide)),
    Rv_in_window_3 Cert.ReferenceIdeal.main_v152 (by decide), Rpre_3]
  after_open
  rw [K_arg1_at4 m ρ c, K_cst_1_at4 m ρ m' c, R_arg1_at2 m m' c hagree,
    Rpre_stable_2 Cert.ReferenceIdeal.main_cst_1 (by decide)]
  first | done | rfl

set_option maxHeartbeats 1000000 in
/-- The pixel column of corner 1 likewise. -/
theorem shared_ix_1
    (hagree : Agree m m' c) :
    Wend m ρ c (Proc.devRef .tc Cert.KernelIdeal.main_v149) = Rv m' c Cert.ReferenceIdeal.main_v167 := by
  rw [Wend_at19 m ρ c Cert.KernelIdeal.main_v149 (by decide) (Or.inl (by decide)),
    Rv_in_window_3 Cert.ReferenceIdeal.main_v167 (by decide), Rpre_3]
  after_open
  rw [K_arg1_at4 m ρ c, K_cst_1_at4 m ρ m' c, R_arg1_at2 m m' c hagree,
    Rpre_stable_2 Cert.ReferenceIdeal.main_cst_1 (by decide)]
  first | done | rfl

set_option maxHeartbeats 1000000 in
/-- The index array of corner 1 likewise. -/
theorem shared_idx_1
    (hagree : Agree m m' c) :
    Wend m ρ c (Proc.devRef .tc Cert.KernelIdeal.main_v162) = Rv m' c Cert.ReferenceIdeal.main_v180 := by
  rw [Wend_at19 m ρ c Cert.KernelIdeal.main_v162 (by decide) (Or.inl (by decide)),
    Rv_in_window_3 Cert.ReferenceIdeal.main_v180 (by decide), Rpre_3]
  after_open2
  rw [K_arg1_at4 m ρ c, K_cst_1_at4 m ρ m' c, R_arg1_at2 m m' c hagree,
    Rpre_stable_2 Cert.ReferenceIdeal.main_cst_1 (by decide)]
  first | done | rfl

end Cert.Hand

end
-- ==== Proof.Shared2.lean ====
import proofs.«100126_j36189394436483_2_alg».proof.Proof.KReadK
import proofs.«100126_j36189394436483_2_alg».proof.Proof.RBase
import proofs.«100126_j36189394436483_2_alg».proof.Proof.SharedOpen
import proofs.«100126_j36189394436483_2_alg».proof.Proof.Agree
import Idealize.ShloMosaic.PureOps.Ideal

/-!
# The two programs' shared index chains: the third and fourth corners

Both programs find, for each corner of the bilinear neighbourhood, the pixel a query falls in: the query
coordinates shifted by the corner's constant and clipped, each coordinate mapped to the pixel grid, floored, clipped
and converted to an integer (row and column), negative indices wrapped, the two stacked into the index array the
gather reads. The two programs apply the same operations to the same coordinates and the same constant, so — given
launch memories that agree on the arguments — the row array, the column array and the index array of a
corner are equal when the two entry functions return. Here: corners 2 and 3.
-/

set_option maxRecDepth 16384

noncomputable section

namespace Cert.Hand

open Idealize.ShloMosaic Idealize.ShloMosaic.TcCoe Idealize.SL.Sem Idealize.ShloMosaic.StableHlo
open Cert.Hand.Shared
open Cert.KernelIdeal.Hand (Wend W19 W27 Wend_at1 Wend_at19 Wend_at24 Wend_at27 Wend_at32 Wend_at35 Wend_main_arg1)
open Cert.ReferenceIdeal.Hand (Rv Rpre Rpre_5 Rpre_6 Rpre_7 Rpre_8 Rpre_stable_5 Rpre_stable_7 Rv_in_window_0
  Rv_in_window_5 Rv_in_window_6 Rv_in_window_8 after_main_arg1)

/-! ## Opening a fold through a two-operand operation whose function builds a list of its operands

A concatenation of two arrays printed as an operation of two operands puts both operands' contents into a list
inside its function's body, where a rewriting pass does not go on. Stated with the two contents as arguments of an
application, each is opened in turn before the function is applied. -/

/-- An operation of two operands: its result as its function applied to the operands' contents, the application
    kept folded. -/
theorem binary_result_app2_c23 {τ : Topo} {sig : RefSig} {Val : EltTy → Type} {a b y : Ref sig .tc}
    (f : a.ty.Contents Val → b.ty.Contents Val → y.ty.Contents Val) (ha hb hy) (F : Valuation τ sig Val) :
    (binary (τ := τ) a b y f ha hb hy).result F (no_index (Proc.devRef .tc y))
      = app2 f (F (Proc.devRef .tc a)) (F (Proc.devRef .tc b)) :=
  binary_result a b y f ha hb hy F

/-- Opens every fold of a literal list of host operations in the goal, keeping each two-operand operation's
    application folded. -/
macro "after_open_pairs" : tactic =>
  `(tactic| (simp (disch := decide) only [after_cons, after_nil,
      nullary_result', unary_result', binary_result_app2_c23, ternary_result', quaternary_result', reshape_result',
      nary2_result', nary9_result',
      unaryIndexed_result', binaryIndexed_result',
      nullary_result_ne', unary_result_ne', binary_result_ne', ternary_result_ne', quaternary_result_ne', reshape_result_ne',
      nary_result_ne', unaryIndexed_result_ne', binaryIndexed_result_ne']))

variable [Cert.KernelIdeal.Facts] [Cert.ReferenceIdeal.Facts]
variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-! ## Corner 2 -/

/-- The query coordinates where the third corner's chain starts, on the side of the chain of stretches: an
    argument array, which nothing writes. -/
theorem K_arg1_at19_c2 :
    W19 m ρ c (Proc.devRef .tc Cert.KernelIdeal.main_arg1)
      = m ((c.tc : Thread Cert.KernelIdeal.nD Cert.KernelIdeal.τ).loc Cert.KernelIdeal.main_arg1) :=
  (Wend_at19 m ρ c Cert.KernelIdeal.main_arg1 (by decide) (Or.inl (by decide))).symm.trans (Wend_main_arg1 m ρ c)

/-- The query coordinates before the window the third corner's chain starts in, on the side of the windows. -/
theorem R_arg1_at5_c2
    (hagree : Agree m m' c) :
    Rpre 5 m' c (Proc.devRef .tc Cert.ReferenceIdeal.main_arg1)
      = m ((c.tc : Thread Cert.KernelIdeal.nD Cert.KernelIdeal.τ).loc Cert.KernelIdeal.main_arg1) :=
  (Rpre_stable_5 Cert.ReferenceIdeal.main_arg1 (by decide)).trans ((after_main_arg1 m' c).trans hagree.2.1)

/-- The third corner's shift constant is the same array at the end of both runs. -/
theorem shared_cst_2_c2 :
    Wend m ρ c (Proc.devRef .tc Cert.KernelIdeal.main_cst_2) = Rv m' c Cert.ReferenceIdeal.main_cst_2 := by
  rw [Wend_at1 m ρ c Cert.KernelIdeal.main_cst_2 (by decide) (Or.inl (by decide)) (Or.inl (by decide)),
    Rv_in_window_0 Cert.ReferenceIdeal.main_cst_2 (by decide)]
  after_open
  first | done | rfl

/-- The constant where the third corner's chain starts. -/
theorem K_cst_2_at19_c2 :
    W19 m ρ c (Proc.devRef .tc Cert.KernelIdeal.main_cst_2) = Rv m' c Cert.ReferenceIdeal.main_cst_2 :=
  (Wend_at19 m ρ c Cert.KernelIdeal.main_cst_2 (by decide) (Or.inl (by decide))).symm.trans (shared_cst_2_c2 m ρ m' c)

set_option maxHeartbeats 1000000 in
/-- The third corner's pixel rows agree. -/
theorem shared_iy_2
    (hagree : Agree m m' c) :
    Wend m ρ c (Proc.devRef .tc Cert.KernelIdeal.main_v223) = Rv m' c Cert.ReferenceIdeal.main_v265 := by
  rw [Wend_at24 m ρ c Cert.KernelIdeal.main_v223 (by decide) (Or.inl (by decide)),
    Rv_in_window_5 Cert.ReferenceIdeal.main_v265 (by decide)]
  have hW : Cert.KernelIdeal.Hand.W24 m ρ c
      = after Cert.KernelIdeal.Gen.main_part4_ops4 (after Cert.KernelIdeal.Gen.main_part4_ops3 (after Cert.KernelIdeal.Gen.main_part4_ops2 (after Cert.KernelIdeal.Gen.main_part4_ops1 (after Cert.KernelIdeal.Gen.main_part4_ops0 (W19 m ρ c))))) := rfl
  rw [hW]
  generalize hV : W19 m ρ c = V
  after_open
  subst hV
  rw [K_arg1_at19_c2 m ρ c, K_cst_2_at19_c2 m ρ m' c, R_arg1_at5_c2 m m' c hagree,
    Rpre_stable_5 Cert.ReferenceIdeal.main_cst_2 (by decide)]
  rfl

set_option maxHeartbeats 1000000 in
/-- The third corner's pixel columns agree. -/
theorem shared_ix_2
    (hagree : Agree m m' c) :
    Wend m ρ c (Proc.devRef .tc Cert.KernelIdeal.main_v238) = Rv m' c Cert.ReferenceIdeal.main_v280 := by
  rw [Wend_at27 m ρ c Cert.KernelIdeal.main_v238 (by decide) (Or.inl (by decide)),
    Rv_in_window_6 Cert.ReferenceIdeal.main_v280 (by decide), Rpre_6]
  have hW : Cert.KernelIdeal.Hand.W27 m ρ c
      = after Cert.KernelIdeal.Gen.main_part5_ops2 (after Cert.KernelIdeal.Gen.main_part5_ops1 (after Cert.KernelIdeal.Gen.main_part5_ops0 (after Cert.KernelIdeal.Gen.main_part4_ops4 (after Cert.KernelIdeal.Gen.main_part4_ops3 (after Cert.KernelIdeal.Gen.main_part4_ops2 (after Cert.KernelIdeal.Gen.main_part4_ops1 (after Cert.KernelIdeal.Gen.main_part4_ops0 (W19 m ρ c)))))))) := rfl
  rw [hW]
  generalize hV : W19 m ρ c = V
  after_open
  subst hV
  rw [K_arg1_at19_c2 m ρ c, K_cst_2_at19_c2 m ρ m' c, R_arg1_at5_c2 m m' c hagree,
    Rpre_stable_5 Cert.ReferenceIdeal.main_cst_2 (by decide)]
  rfl

set_option maxHeartbeats 1000000 in
/-- The third corner's index arrays agree. -/
theorem shared_idx_2
    (hagree : Agree m m' c) :
    Wend m ρ c (Proc.devRef .tc Cert.KernelIdeal.main_v251) = Rv m' c Cert.ReferenceIdeal.main_v293 := by
  rw [Wend_at27 m ρ c Cert.KernelIdeal.main_v251 (by decide) (Or.inl (by decide)),
    Rv_in_window_6 Cert.ReferenceIdeal.main_v293 (by decide), Rpre_6]
  have hW : Cert.KernelIdeal.Hand.W27 m ρ c
      = after Cert.KernelIdeal.Gen.main_part5_ops2 (after Cert.KernelIdeal.Gen.main_part5_ops1 (after Cert.KernelIdeal.Gen.main_part5_ops0 (after Cert.KernelIdeal.Gen.main_part4_ops4 (after Cert.KernelIdeal.Gen.main_part4_ops3 (after Cert.KernelIdeal.Gen.main_part4_ops2 (after Cert.KernelIdeal.Gen.main_part4_ops1 (after Cert.KernelIdeal.Gen.main_part4_ops0 (W19 m ρ c)))))))) := rfl
  rw [hW]
  generalize hV : W19 m ρ c = V
  after_open_pairs
  subst hV
  rw [K_arg1_at19_c2 m ρ c, K_cst_2_at19_c2 m ρ m' c, R_arg1_at5_c2 m m' c hagree,
    Rpre_stable_5 Cert.ReferenceIdeal.main_cst_2 (by decide)]
  rfl

/-! ## Corner 3 -/

/-- The query coordinates where the fourth corner's chain starts, on the side of the chain of stretches. -/
theorem K_arg1_at27_c3 :
    W27 m ρ c (Proc.devRef .tc Cert.KernelIdeal.main_arg1)
      = m ((c.tc : Thread Cert.KernelIdeal.nD Cert.KernelIdeal.τ).loc Cert.KernelIdeal.main_arg1) :=
  (Wend_at27 m ρ c Cert.KernelIdeal.main_arg1 (by decide) (Or.inl (by decide))).symm.trans (Wend_main_arg1 m ρ c)

/-- The query coordinates before the window the fourth corner's chain starts in, on the side of the windows. -/
theorem R_arg1_at7_c3
    (hagree : Agree m m' c) :
    Rpre 7 m' c (Proc.devRef .tc Cert.ReferenceIdeal.main_arg1)
      = m ((c.tc : Thread Cert.KernelIdeal.nD Cert.KernelIdeal.τ).loc Cert.KernelIdeal.main_arg1) :=
  (Rpre_stable_7 Cert.ReferenceIdeal.main_arg1 (by decide)).trans ((after_main_arg1 m' c).trans hagree.2.1)

/-- The fourth corner's shift constant is the same array at the end of both runs. -/
theorem shared_cst_3_c3 :
    Wend m ρ c (Proc.devRef .tc Cert.KernelIdeal.main_cst_3) = Rv m' c Cert.ReferenceIdeal.main_cst_3 := by
  rw [Wend_at1 m ρ c Cert.KernelIdeal.main_cst_3 (by decide) (Or.inl (by decide)) (Or.inl (by decide)),
    Rv_in_window_0 Cert.ReferenceIdeal.main_cst_3 (by decide)]
  after_open
  first | done | rfl

/-- The constant where the fourth corner's chain starts. -/
theorem K_cst_3_at27_c3 :
    W27 m ρ c (Proc.devRef .tc Cert.KernelIdeal.main_cst_3) = Rv m' c Cert.ReferenceIdeal.main_cst_3 :=
  (Wend_at27 m ρ c Cert.KernelIdeal.main_cst_3 (by decide) (Or.inl (by decide))).symm.trans (shared_cst_3_c3 m ρ m' c)

set_option maxHeartbeats 1000000 in
/-- The fourth corner's pixel rows agree. -/
theorem shared_iy_3
    (hagree : Agree m m' c) :
    Wend m ρ c (Proc.devRef .tc Cert.KernelIdeal.main_v312) = Rv m' c Cert.ReferenceIdeal.main_v378 := by
  rw [Wend_at32 m ρ c Cert.KernelIdeal.main_v312 (by decide) (Or.inl (by decide)),
    Rv_in_window_8 Cert.ReferenceIdeal.main_v378 (by decide), Rpre_8]
  have hW : Cert.KernelIdeal.Hand.W32 m ρ c
      = after Cert.KernelIdeal.Gen.main_part6_ops4 (after Cert.KernelIdeal.Gen.main_part6_ops3 (after Cert.KernelIdeal.Gen.main_part6_ops2 (after Cert.KernelIdeal.Gen.main_part6_ops1 (after Cert.KernelIdeal.Gen.main_part6_ops0 (W27 m ρ c))))) := rfl
  rw [hW]
  generalize hV : W27 m ρ c = V
  after_open
  subst hV
  rw [K_arg1_at27_c3 m ρ c, K_cst_3_at27_c3 m ρ m' c, R_arg1_at7_c3 m m' c hagree,
    Rpre_stable_7 Cert.ReferenceIdeal.main_cst_3 (by decide)]
  rfl

set_option maxHeartbeats 1000000 in
/-- The fourth corner's pixel columns agree. -/
theorem shared_ix_3
    (hagree : Agree m m' c) :
    Wend m ρ c (Proc.devRef .tc Cert.KernelIdeal.main_v327) = Rv m' c Cert.ReferenceIdeal.main_v393 := by
  rw [Wend_at35 m ρ c Cert.KernelIdeal.main_v327 (by decide) (Or.inl (by decide)),
    Rv_in_window_8 Cert.ReferenceIdeal.main_v393 (by decide), Rpre_8]
  have hW : Cert.KernelIdeal.Hand.W35 m ρ c
      = after Cert.KernelIdeal.Gen.main_part7_ops2 (after Cert.KernelIdeal.Gen.main_part7_ops1 (after Cert.KernelIdeal.Gen.main_part7_ops0 (after Cert.KernelIdeal.Gen.main_part6_ops4 (after Cert.KernelIdeal.Gen.main_part6_ops3 (after Cert.KernelIdeal.Gen.main_part6_ops2 (after Cert.KernelIdeal.Gen.main_part6_ops1 (after Cert.KernelIdeal.Gen.main_part6_ops0 (W27 m ρ c)))))))) := rfl
  rw [hW]
  generalize hV : W27 m ρ c = V
  after_open
  subst hV
  rw [K_arg1_at27_c3 m ρ c, K_cst_3_at27_c3 m ρ m' c, R_arg1_at7_c3 m m' c hagree,
    Rpre_stable_7 Cert.ReferenceIdeal.main_cst_3 (by decide)]
  rfl

set_option maxHeartbeats 1000000 in
/-- The fourth corner's index arrays agree. -/
theorem shared_idx_3
    (hagree : Agree m m' c) :
    Wend m ρ c (Proc.devRef .tc Cert.KernelIdeal.main_v340) = Rv m' c Cert.ReferenceIdeal.main_v406 := by
  rw [Wend_at35 m ρ c Cert.KernelIdeal.main_v340 (by decide) (Or.inl (by decide)),
    Rv_in_window_8 Cert.ReferenceIdeal.main_v406 (by decide), Rpre_8]
  have hW : Cert.KernelIdeal.Hand.W35 m ρ c
      = after Cert.KernelIdeal.Gen.main_part7_ops2 (after Cert.KernelIdeal.Gen.main_part7_ops1 (after Cert.KernelIdeal.Gen.main_part7_ops0 (after Cert.KernelIdeal.Gen.main_part6_ops4 (after Cert.KernelIdeal.Gen.main_part6_ops3 (after Cert.KernelIdeal.Gen.main_part6_ops2 (after Cert.KernelIdeal.Gen.main_part6_ops1 (after Cert.KernelIdeal.Gen.main_part6_ops0 (W27 m ρ c)))))))) := rfl
  rw [hW]
  generalize hV : W27 m ρ c = V
  after_open_pairs
  subst hV
  rw [K_arg1_at27_c3 m ρ c, K_cst_3_at27_c3 m ρ m' c, R_arg1_at7_c3 m m' c hagree,
    Rpre_stable_7 Cert.ReferenceIdeal.main_cst_3 (by decide)]
  rfl

end Cert.Hand

end
-- ==== Proof.SharedBCore.lean ====
import proofs.«100126_j36189394436483_2_alg».proof.Proof.KReadK
import proofs.«100126_j36189394436483_2_alg».proof.Proof.RBase

/-!
# The relative coordinates, in each program apart

Both programs compute, per corner of the bilinear neighbourhood, the query coordinate relative to the centre of the
pixel it falls in, scaled by the grid size: from the pixel's row and column indices the centre ((2·i + 1)/96 − 1 on
each axis), its difference from the coordinate argument, and the product with the scale. The computation is named
once (`relCoordOf`), and each program's buffer is shown to hold it at that program's own inputs when its entry
function returns.
-/

set_option maxRecDepth 16384

noncomputable section

namespace Cert.Hand.SharedB

open Idealize.ShloMosaic Idealize.ShloMosaic.TcCoe Idealize.SL.Sem Idealize.ShloMosaic.StableHlo

/-- One pass that opens a fold over a literal list of operations at a reference, here or in hypotheses. -/
local macro "open_results" loc:(Lean.Parser.Tactic.location)? : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] $[$loc]?)

/-! ## The shared computation, named once

Written with the kernel program's names for the shapes and side conditions; the reference program's are the same
literals and the same propositions. -/

section Defs
open Cert.KernelIdeal Cert.KernelIdeal.Facts₀

/-- The centre of pixel row (or column) `i` of a 96-pixel axis, in [-1, 1]: (2·i + 1)/96 − 1, entrywise. -/
def qRow (i : IVec S2x65536 32) : FVec Ideal S2x65536 .f32 :=
  addf (F := Ideal) (broadcastInDim S2x65536 ![] bcast_S_S2x65536 (constant (F := Ideal) S_ .f32 0xBF800000#32))
    (Host.divf (F := Ideal)
      (addf (F := Ideal)
        (mulf (F := Ideal) (broadcastInDim S2x65536 ![] bcast_S_S2x65536 (constant (F := Ideal) S_ .f32 0x40000000#32))
          (sitofp (F := Ideal) .f32 i))
        (broadcastInDim S2x65536 ![] bcast_S_S2x65536 (constant (F := Ideal) S_ .f32 0x3F800000#32)))
      (broadcastInDim S2x65536 ![] bcast_S_S2x65536 (constant (F := Ideal) S_ .f32 0x42C00000#32)))

/-- The query coordinate relative to the pixel centre `(qa, qb)`, scaled by the two-entry scale `s`. -/
def relTop (coord : FVec Ideal S2x65536x2 .f32) (qa qb : FVec Ideal S2x65536 .f32) (s : FVec Ideal S2 .f32) :
    FVec Ideal S2x65536x2 .f32 :=
  mulf (F := Ideal)
    (subf (F := Ideal) coord
      (id (concatenate S2x65536x2 2
        [⟨S2x65536x1, broadcastInDim S2x65536x1 ![0, 1] bcast_S2x65536_S2x65536x1_0_1 qa⟩,
         ⟨S2x65536x1, broadcastInDim S2x65536x1 ![0, 1] bcast_S2x65536_S2x65536x1_0_1 qb⟩]
        concatenates_S2x65536x1_S2x65536x1_S2x65536x2_d2)))
    (broadcastInDim S2x65536x2 ![0, 1, 2] bcast_S1x1x2_S2x65536x2_0_1_2 (broadcastInDim S1x1x2 ![2] bcast_S2_S1x1x2_2 s))

/-- The relative coordinate from the query coordinate and the pixel's row and column indices. -/
def relCoordOf (coord : FVec Ideal S2x65536x2 .f32) (iy ix : IVec S2x65536 32) (s : FVec Ideal S2 .f32) :
    FVec Ideal S2x65536x2 .f32 := relTop coord (qRow iy) (qRow ix) s

end Defs

/-! ## The kernel program's side

Per corner three facts at the returning valuation: the row centre from the row index, the column centre from the
column index, and the relative coordinate from the coordinate argument and the two centres. A buffer is read at
the valuation after the stretch that writes it; the valuation before the stretch is named and the stretch's
operations are applied one by one. The two operands of the concatenation sit inside shape-value pairs, where the
pass does not reach: they are named and opened apart. -/

section K
open Cert.KernelIdeal Cert.KernelIdeal.Gen Cert.KernelIdeal.Hand
variable (m : (ℓ : Loc nD τ sig) → Buf (Elt Ideal) ℓ) (ρ : Dev nD → PrngReg) (c : Dev nD)

/-- The scale: 96 in both entries. -/
theorem K_scale : Wend m ρ c (Proc.devRef .tc main_cst) = constant (F := Ideal) S2 .f32 0x42C00000#32 := by
  rw [Wend_at1 m ρ c main_cst (by decide) (by decide) (by decide)]
  unfold W1
  generalize W0 m ρ c = Vp
  after_results_simp <;> first | rfl | fail "scale"

/-! ### Corner 0 -/

theorem K0_qa : Wend m ρ c (Proc.devRef .tc main_v83) = qRow (Wend m ρ c (Proc.devRef .tc main_v45)) := by
  rw [Wend_at11 m ρ c main_v83 (by decide) (by decide), Wend_at10 m ρ c main_v45 (by decide) (by decide)]
  unfold W11
  generalize W10 m ρ c = Vp
  after_results_simp <;> first | rfl | fail "K0_qa"

theorem K0_qb : Wend m ρ c (Proc.devRef .tc main_v92) = qRow (Wend m ρ c (Proc.devRef .tc main_v60)) := by
  rw [Wend_at12 m ρ c main_v92 (by decide) (by decide), Wend_at11 m ρ c main_v60 (by decide) (by decide)]
  unfold W12 W11
  generalize W10 m ρ c = Vp
  after_results_simp <;> first | rfl | fail "K0_qb"

theorem K0_top : Wend m ρ c (Proc.devRef .tc main_v100)
    = relTop (Wend m ρ c (Proc.devRef .tc main_arg1)) (Wend m ρ c (Proc.devRef .tc main_v83))
        (Wend m ρ c (Proc.devRef .tc main_v92)) (Wend m ρ c (Proc.devRef .tc main_cst)) := by
  rw [Wend_at12 m ρ c main_v100 (by decide) (by decide), Wend_at11 m ρ c main_arg1 (by decide) (by decide),
    Wend_at11 m ρ c main_v83 (by decide) (by decide), Wend_at12 m ρ c main_v92 (by decide) (by decide),
    Wend_at11 m ρ c main_cst (by decide) (by decide)]
  unfold W12
  generalize W11 m ρ c = Vp
  first | after_results_simp | fail "K0_top open"
  generalize ha : HloOp.result _ _ (Proc.devRef (τ := τ) .tc main_v93) = xa
  generalize hb : HloOp.result _ _ (Proc.devRef (τ := τ) .tc main_v94) = xb
  first | open_results at ha hb | fail "K0_top operands"
  subst ha hb
  first | rfl | fail "K0_top"

theorem K0_relcoord : Wend m ρ c (Proc.devRef .tc main_v100)
    = relCoordOf (Wend m ρ c (Proc.devRef .tc main_arg1)) (Wend m ρ c (Proc.devRef .tc main_v45))
        (Wend m ρ c (Proc.devRef .tc main_v60)) (Wend m ρ c (Proc.devRef .tc main_cst)) := by
  rw [K0_top, K0_qa, K0_qb]; rfl

/-! ### Corner 1 -/

theorem K1_qa : Wend m ρ c (Proc.devRef .tc main_v172) = qRow (Wend m ρ c (Proc.devRef .tc main_v134)) := by
  rw [Wend_at19 m ρ c main_v172 (by decide) (by decide), Wend_at18 m ρ c main_v134 (by decide) (by decide)]
  unfold W19
  generalize W18 m ρ c = Vp
  after_results_simp <;> first | rfl | fail "K1_qa"

theorem K1_qb : Wend m ρ c (Proc.devRef .tc main_v181) = qRow (Wend m ρ c (Proc.devRef .tc main_v149)) := by
  rw [Wend_at20 m ρ c main_v181 (by decide) (by decide), Wend_at19 m ρ c main_v149 (by decide) (by decide)]
  unfold W20 W19
  generalize W18 m ρ c = Vp
  after_results_simp <;> first | rfl | fail "K1_qb"

theorem K1_top : Wend m ρ c (Proc.devRef .tc main_v189)
    = relTop (Wend m ρ c (Proc.devRef .tc main_arg1)) (Wend m ρ c (Proc.devRef .tc main_v172))
        (Wend m ρ c (Proc.devRef .tc main_v181)) (Wend m ρ c (Proc.devRef .tc main_cst)) := by
  rw [Wend_at20 m ρ c main_v189 (by decide) (by decide), Wend_at19 m ρ c main_arg1 (by decide) (by decide),
    Wend_at19 m ρ c main_v172 (by decide) (by decide), Wend_at20 m ρ c main_v181 (by decide) (by decide),
    Wend_at19 m ρ c main_cst (by decide) (by decide)]
  unfold W20
  generalize W19 m ρ c = Vp
  first | after_results_simp | fail "K1_top open"
  generalize ha : HloOp.result _ _ (Proc.devRef (τ := τ) .tc main_v182) = xa
  generalize hb : HloOp.result _ _ (Proc.devRef (τ := τ) .tc main_v183) = xb
  first | open_results at ha hb | fail "K1_top operands"
  subst ha hb
  first | rfl | fail "K1_top"

theorem K1_relcoord : Wend m ρ c (Proc.devRef .tc main_v189)
    = relCoordOf (Wend m ρ c (Proc.devRef .tc main_arg1)) (Wend m ρ c (Proc.devRef .tc main_v134))
        (Wend m ρ c (Proc.devRef .tc main_v149)) (Wend m ρ c (Proc.devRef .tc main_cst)) := by
  rw [K1_top, K1_qa, K1_qb]; rfl

/-! ### Corner 2 -/

theorem K2_qa : Wend m ρ c (Proc.devRef .tc main_v261) = qRow (Wend m ρ c (Proc.devRef .tc main_v223)) := by
  rw [Wend_at27 m ρ c main_v261 (by decide) (by decide), Wend_at26 m ρ c main_v223 (by decide) (by decide)]
  unfold W27
  generalize W26 m ρ c = Vp
  after_results_simp <;> first | rfl | fail "K2_qa"

theorem K2_qb : Wend m ρ c (Proc.devRef .tc main_v270) = qRow (Wend m ρ c (Proc.devRef .tc main_v238)) := by
  rw [Wend_at28 m ρ c main_v270 (by decide) (by decide), Wend_at27 m ρ c main_v238 (by decide) (by decide)]
  unfold W28 W27
  generalize W26 m ρ c = Vp
  after_results_simp <;> first | rfl | fail "K2_qb"

theorem K2_top : Wend m ρ c (Proc.devRef .tc main_v278)
    = relTop (Wend m ρ c (Proc.devRef .tc main_arg1)) (Wend m ρ c (Proc.devRef .tc main_v261))
        (Wend m ρ c (Proc.devRef .tc main_v270)) (Wend m ρ c (Proc.devRef .tc main_cst)) := by
  rw [Wend_at28 m ρ c main_v278 (by decide) (by decide), Wend_at27 m ρ c main_arg1 (by decide) (by decide),
    Wend_at27 m ρ c main_v261 (by decide) (by decide), Wend_at28 m ρ c main_v270 (by decide) (by decide),
    Wend_at27 m ρ c main_cst (by decide) (by decide)]
  unfold W28
  generalize W27 m ρ c = Vp
  first | after_results_simp | fail "K2_top open"
  generalize ha : HloOp.result _ _ (Proc.devRef (τ := τ) .tc main_v271) = xa
  generalize hb : HloOp.result _ _ (Proc.devRef (τ := τ) .tc main_v272) = xb
  first | open_results at ha hb | fail "K2_top operands"
  subst ha hb
  first | rfl | fail "K2_top"

theorem K2_relcoord : Wend m ρ c (Proc.devRef .tc main_v278)
    = relCoordOf (Wend m ρ c (Proc.devRef .tc main_arg1)) (Wend m ρ c (Proc.devRef .tc main_v223))
        (Wend m ρ c (Proc.devRef .tc main_v238)) (Wend m ρ c (Proc.devRef .tc main_cst)) := by
  rw [K2_top, K2_qa, K2_qb]; rfl

/-! ### Corner 3 -/

theorem K3_qa : Wend m ρ c (Proc.devRef .tc main_v350) = qRow (Wend m ρ c (Proc.devRef .tc main_v312)) := by
  rw [Wend_at35 m ρ c main_v350 (by decide) (by decide), Wend_at34 m ρ c main_v312 (by decide) (by decide)]
  unfold W35
  generalize W34 m ρ c = Vp
  after_results_simp <;> first | rfl | fail "K3_qa"

theorem K3_qb : Wend m ρ c (Proc.devRef .tc main_v359) = qRow (Wend m ρ c (Proc.devRef .tc main_v327)) := by
  rw [Wend_at36 m ρ c main_v359 (by decide) (by decide), Wend_at35 m ρ c main_v327 (by decide) (by decide)]
  unfold W36 W35
  generalize W34 m ρ c = Vp
  after_results_simp <;> first | rfl | fail "K3_qb"

theorem K3_top : Wend m ρ c (Proc.devRef .tc main_v367)
    = relTop (Wend m ρ c (Proc.devRef .tc main_arg1)) (Wend m ρ c (Proc.devRef .tc main_v350))
        (Wend m ρ c (Proc.devRef .tc main_v359)) (Wend m ρ c (Proc.devRef .tc main_cst)) := by
  rw [Wend_at36 m ρ c main_v367 (by decide) (by decide), Wend_at35 m ρ c main_arg1 (by decide) (by decide),
    Wend_at35 m ρ c main_v350 (by decide) (by decide), Wend_at36 m ρ c main_v359 (by decide) (by decide),
    Wend_at35 m ρ c main_cst (by decide) (by decide)]
  unfold W36
  generalize W35 m ρ c = Vp
  first | after_results_simp | fail "K3_top open"
  generalize ha : HloOp.result _ _ (Proc.devRef (τ := τ) .tc main_v360) = xa
  generalize hb : HloOp.result _ _ (Proc.devRef (τ := τ) .tc main_v361) = xb
  first | open_results at ha hb | fail "K3_top operands"
  subst ha hb
  first | rfl | fail "K3_top"

theorem K3_relcoord : Wend m ρ c (Proc.devRef .tc main_v367)
    = relCoordOf (Wend m ρ c (Proc.devRef .tc main_arg1)) (Wend m ρ c (Proc.devRef .tc main_v312))
        (Wend m ρ c (Proc.devRef .tc main_v327)) (Wend m ρ c (Proc.devRef .tc main_cst)) := by
  rw [K3_top, K3_qa, K3_qb]; rfl

end K

/-! ## The reference program's side

The same three facts per corner over the reference's returning contents. Its windows cut the chain elsewhere: where
a row's computation starts in one window and ends in the next, the buffers that cross are read in their own window
first. -/

section R
open Cert.ReferenceIdeal Cert.ReferenceIdeal.Gen Cert.ReferenceIdeal.Hand
variable (m' : (ℓ : Loc nD τ sig) → Buf (Elt Ideal) ℓ) (c : Dev nD)

/-- The scale: 96 in both entries. -/
theorem R_scale : Rv m' c main_cst = constant (F := Ideal) S2 .f32 0x42C00000#32 := by
  rw [Rv_in_window_0 main_cst (by decide)]
  after_results_simp <;> first | rfl | fail "scale"

/-! ### Corner 0: the column centre ends in the window after the one it starts in -/

theorem R0_qa : Rv m' c main_v78 = qRow (Rv m' c main_v39) := by
  rw [Rv_in_window_1 main_v78 (by decide)]
  first | after_results_simp | fail "R0_qa open"
  rw [Rpre_stable_1 main_v39 (by decide)]
  first | rfl | fail "R0_qa"

theorem R0_v85 : Rv m' c main_v85
    = Host.divf (F := Ideal)
        (addf (F := Ideal)
          (mulf (F := Ideal) (broadcastInDim S2x65536 ![] Facts₀.bcast_S_S2x65536 (constant (F := Ideal) S_ .f32 0x40000000#32))
            (sitofp (F := Ideal) .f32 (Rv m' c main_v54)))
          (broadcastInDim S2x65536 ![] Facts₀.bcast_S_S2x65536 (constant (F := Ideal) S_ .f32 0x3F800000#32)))
        (broadcastInDim S2x65536 ![] Facts₀.bcast_S_S2x65536 (constant (F := Ideal) S_ .f32 0x42C00000#32)) := by
  rw [Rv_in_window_1 main_v85 (by decide), Rv_in_window_1 main_v54 (by decide)]
  after_results_simp <;> first | rfl | fail "R0_v85"

theorem R0_cst31 : Rv m' c main_cst_31 = constant (F := Ideal) S_ .f32 0xBF800000#32 := by
  rw [Rv_in_window_1 main_cst_31 (by decide)]
  after_results_simp <;> first | rfl | fail "R0_cst31"

theorem R0_qb : Rv m' c main_v87 = qRow (Rv m' c main_v54) := by
  rw [Rv_in_window_2 main_v87 (by decide)]
  first | after_results_simp | fail "R0_qb open"
  rw [Rpre_stable_2 main_cst_31 (by decide), Rpre_stable_2 main_v85 (by decide), R0_cst31, R0_v85]
  first | rfl | fail "R0_qb"

theorem R0_top : Rv m' c main_v95
    = relTop (Rv m' c main_arg1) (Rv m' c main_v78) (Rv m' c main_v87) (Rv m' c main_cst) := by
  rw [Rv_in_window_2 main_v95 (by decide), Rv_in_window_2 main_v87 (by decide)]
  first | after_results_simp | fail "R0_top open"
  generalize ha : HloOp.result _ _ (Proc.devRef (τ := τ) .tc main_v88) = xa
  generalize hb : HloOp.result _ _ (Proc.devRef (τ := τ) .tc main_v89) = xb
  first | open_results at ha hb | fail "R0_top operands"
  subst ha hb
  rw [Rpre_stable_2 main_arg1 (by decide), Rpre_stable_2 main_v78 (by decide), Rpre_stable_2 main_cst (by decide)]
  first | rfl | fail "R0_top"

theorem R0_relcoord : Rv m' c main_v95
    = relCoordOf (Rv m' c main_arg1) (Rv m' c main_v39) (Rv m' c main_v54) (Rv m' c main_cst) := by
  rw [R0_top, R0_qa, R0_qb]; rfl

/-! ### Corner 1: the row centre starts in the window before -/

theorem R1_v183 : Rv m' c main_v183 = sitofp (F := Ideal) .f32 (Rv m' c main_v152) := by
  rw [Rv_in_window_3 main_v183 (by decide), Rv_in_window_3 main_v152 (by decide)]
  after_results_simp <;> first | rfl | fail "R1_v183"

theorem R1_cst53 : Rv m' c main_cst_53 = constant (F := Ideal) S_ .f32 0x40000000#32 := by
  rw [Rv_in_window_3 main_cst_53 (by decide)]
  after_results_simp <;> first | rfl | fail "R1_cst53"

theorem R1_qa : Rv m' c main_v191 = qRow (Rv m' c main_v152) := by
  rw [Rv_in_window_4 main_v191 (by decide)]
  first | after_results_simp | fail "R1_qa open"
  rw [Rpre_stable_4 main_cst_53 (by decide), Rpre_stable_4 main_v183 (by decide), R1_cst53, R1_v183]
  first | rfl | fail "R1_qa"

theorem R1_qb : Rv m' c main_v200 = qRow (Rv m' c main_v167) := by
  rw [Rv_in_window_4 main_v200 (by decide)]
  first | after_results_simp | fail "R1_qb open"
  rw [Rpre_stable_4 main_v167 (by decide)]
  first | rfl | fail "R1_qb"

theorem R1_top : Rv m' c main_v208
    = relTop (Rv m' c main_arg1) (Rv m' c main_v191) (Rv m' c main_v200) (Rv m' c main_cst) := by
  rw [Rv_in_window_4 main_v208 (by decide), Rv_in_window_4 main_v191 (by decide), Rv_in_window_4 main_v200 (by decide)]
  first | after_results_simp | fail "R1_top open"
  generalize ha : HloOp.result _ _ (Proc.devRef (τ := τ) .tc main_v201) = xa
  generalize hb : HloOp.result _ _ (Proc.devRef (τ := τ) .tc main_v202) = xb
  first | open_results at ha hb | fail "R1_top operands"
  subst ha hb
  rw [Rpre_stable_4 main_arg1 (by decide), Rpre_stable_4 main_cst (by decide)]
  first | rfl | fail "R1_top"

theorem R1_relcoord : Rv m' c main_v208
    = relCoordOf (Rv m' c main_arg1) (Rv m' c main_v152) (Rv m' c main_v167) (Rv m' c main_cst) := by
  rw [R1_top, R1_qa, R1_qb]; rfl

/-! ### Corner 2: one window -/

theorem R2_qa : Rv m' c main_v304 = qRow (Rv m' c main_v265) := by
  rw [Rv_in_window_6 main_v304 (by decide)]
  first | after_results_simp | fail "R2_qa open"
  rw [Rpre_stable_6 main_v265 (by decide)]
  first | rfl | fail "R2_qa"

theorem R2_qb : Rv m' c main_v313 = qRow (Rv m' c main_v280) := by
  rw [Rv_in_window_6 main_v313 (by decide), Rv_in_window_6 main_v280 (by decide)]
  after_results_simp <;> first | rfl | fail "R2_qb"

theorem R2_top : Rv m' c main_v321
    = relTop (Rv m' c main_arg1) (Rv m' c main_v304) (Rv m' c main_v313) (Rv m' c main_cst) := by
  rw [Rv_in_window_6 main_v321 (by decide), Rv_in_window_6 main_v304 (by decide), Rv_in_window_6 main_v313 (by decide)]
  first | after_results_simp | fail "R2_top open"
  generalize ha : HloOp.result _ _ (Proc.devRef (τ := τ) .tc main_v314) = xa
  generalize hb : HloOp.result _ _ (Proc.devRef (τ := τ) .tc main_v315) = xb
  first | open_results at ha hb | fail "R2_top operands"
  subst ha hb
  rw [Rpre_stable_6 main_arg1 (by decide), Rpre_stable_6 main_cst (by decide)]
  first | rfl | fail "R2_top"

theorem R2_relcoord : Rv m' c main_v321
    = relCoordOf (Rv m' c main_arg1) (Rv m' c main_v265) (Rv m' c main_v280) (Rv m' c main_cst) := by
  rw [R2_top, R2_qa, R2_qb]; rfl

/-! ### Corner 3: the column centre ends in the window after the one it starts in -/

theorem R3_qa : Rv m' c main_v417 = qRow (Rv m' c main_v378) := by
  rw [Rv_in_window_8 main_v417 (by decide), Rv_in_window_8 main_v378 (by decide)]
  after_results_simp <;> first | rfl | fail "R3_qa"

theorem R3_v420 : Rv m' c main_v420
    = mulf (F := Ideal) (broadcastInDim S2x65536 ![] Facts₀.bcast_S_S2x65536 (constant (F := Ideal) S_ .f32 0x40000000#32))
        (sitofp (F := Ideal) .f32 (Rv m' c main_v393)) := by
  rw [Rv_in_window_8 main_v420 (by decide), Rv_in_window_8 main_v393 (by decide)]
  after_results_simp <;> first | rfl | fail "R3_v420"

theorem R3_cst116 : Rv m' c main_cst_116 = constant (F := Ideal) S_ .f32 0x3F800000#32 := by
  rw [Rv_in_window_8 main_cst_116 (by decide)]
  after_results_simp <;> first | rfl | fail "R3_cst116"

theorem R3_qb : Rv m' c main_v426 = qRow (Rv m' c main_v393) := by
  rw [Rv_in_window_9 main_v426 (by decide)]
  first | after_results_simp | fail "R3_qb open"
  rw [Rpre_stable_9 main_v420 (by decide), Rpre_stable_9 main_cst_116 (by decide), R3_v420, R3_cst116]
  first | rfl | fail "R3_qb"

theorem R3_top : Rv m' c main_v434
    = relTop (Rv m' c main_arg1) (Rv m' c main_v417) (Rv m' c main_v426) (Rv m' c main_cst) := by
  rw [Rv_in_window_9 main_v434 (by decide), Rv_in_window_9 main_v426 (by decide)]
  first | after_results_simp | fail "R3_top open"
  generalize ha : HloOp.result _ _ (Proc.devRef (τ := τ) .tc main_v427) = xa
  generalize hb : HloOp.result _ _ (Proc.devRef (τ := τ) .tc main_v428) = xb
  first | open_results at ha hb | fail "R3_top operands"
  subst ha hb
  rw [Rpre_stable_9 main_arg1 (by decide), Rpre_stable_9 main_v417 (by decide), Rpre_stable_9 main_cst (by decide)]
  first | rfl | fail "R3_top"

theorem R3_relcoord : Rv m' c main_v434
    = relCoordOf (Rv m' c main_arg1) (Rv m' c main_v378) (Rv m' c main_v393) (Rv m' c main_cst) := by
  rw [R3_top, R3_qa, R3_qb]; rfl

end R

end Cert.Hand.SharedB

end
-- ==== Proof.SharedB.lean ====
import proofs.«100126_j36189394436483_2_alg».proof.Proof.SharedBCore
import proofs.«100126_j36189394436483_2_alg».proof.Proof.Agree
import proofs.«100126_j36189394436483_2_alg».proof.Proof.Shared
import proofs.«100126_j36189394436483_2_alg».proof.Proof.Shared2

/-!
# The two programs' shared host chains: the relative coordinates

Both programs compute, per corner of the bilinear neighbourhood, the query coordinate relative to the centre of the
pixel it falls in, scaled by the grid size: from the pixel's row and column indices the centre ((2·i + 1)/96 − 1 on
each axis), its difference from the coordinate argument, and the product with the scale — the same host operations
applied to the same values. Each program's buffer holds the one named computation (`relCoordOf`) at that program's
own inputs; the inputs are equal (the coordinate argument by the agreement of the launch
memories, the indices by the shared index chain), so the arrays are equal when the two entry functions return.
-/

set_option maxRecDepth 16384

noncomputable section

namespace Cert.Hand

open Idealize.ShloMosaic Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-! ## The two sides are equal

Each side is `relCoordOf` of its own coordinate argument, row index, column index and scale: the goal is put
between those two values first. The scales are the same constant, the indices are equal by the shared index chain,
and the coordinate arguments by the agreement of the launch memories. -/

theorem shared_relcoord_0 (hagree : Agree m m' c) :
    Cert.KernelIdeal.Hand.Wend m ρ c (Proc.devRef .tc Cert.KernelIdeal.main_v100)
      = StableHlo.after (Cert.ReferenceIdeal.Hand.ops (F := Ideal)) (StableHlo.launchContents m' c) (Proc.devRef .tc Cert.ReferenceIdeal.main_v95) := by
  have hR : Cert.ReferenceIdeal.Hand.Rv m' c Cert.ReferenceIdeal.main_arg1
      = m' ((c.tc : Thread Cert.ReferenceIdeal.nD Cert.ReferenceIdeal.τ).loc Cert.ReferenceIdeal.main_arg1) :=
    Cert.ReferenceIdeal.Hand.after_main_arg1 m' c
  refine (SharedB.K0_relcoord m ρ c).trans (Eq.trans ?_ (SharedB.R0_relcoord m' c).symm)
  rw [shared_iy_0 m ρ m' c hagree, shared_ix_0 m ρ m' c hagree, SharedB.K_scale, SharedB.R_scale,
    Cert.KernelIdeal.Hand.Wend_main_arg1, hR, hagree.2.1]
  try rfl

theorem shared_relcoord_1 (hagree : Agree m m' c) :
    Cert.KernelIdeal.Hand.Wend m ρ c (Proc.devRef .tc Cert.KernelIdeal.main_v189)
      = StableHlo.after (Cert.ReferenceIdeal.Hand.ops (F := Ideal)) (StableHlo.launchContents m' c) (Proc.devRef .tc Cert.ReferenceIdeal.main_v208) := by
  have hR : Cert.ReferenceIdeal.Hand.Rv m' c Cert.ReferenceIdeal.main_arg1
      = m' ((c.tc : Thread Cert.ReferenceIdeal.nD Cert.ReferenceIdeal.τ).loc Cert.ReferenceIdeal.main_arg1) :=
    Cert.ReferenceIdeal.Hand.after_main_arg1 m' c
  refine (SharedB.K1_relcoord m ρ c).trans (Eq.trans ?_ (SharedB.R1_relcoord m' c).symm)
  rw [shared_iy_1 m ρ m' c hagree, shared_ix_1 m ρ m' c hagree, SharedB.K_scale, SharedB.R_scale,
    Cert.KernelIdeal.Hand.Wend_main_arg1, hR, hagree.2.1]
  try rfl

theorem shared_relcoord_2 (hagree : Agree m m' c) :
    Cert.KernelIdeal.Hand.Wend m ρ c (Proc.devRef .tc Cert.KernelIdeal.main_v278)
      = StableHlo.after (Cert.ReferenceIdeal.Hand.ops (F := Ideal)) (StableHlo.launchContents m' c) (Proc.devRef .tc Cert.ReferenceIdeal.main_v321) := by
  have hR : Cert.ReferenceIdeal.Hand.Rv m' c Cert.ReferenceIdeal.main_arg1
      = m' ((c.tc : Thread Cert.ReferenceIdeal.nD Cert.ReferenceIdeal.τ).loc Cert.ReferenceIdeal.main_arg1) :=
    Cert.ReferenceIdeal.Hand.after_main_arg1 m' c
  refine (SharedB.K2_relcoord m ρ c).trans (Eq.trans ?_ (SharedB.R2_relcoord m' c).symm)
  rw [shared_iy_2 m ρ m' c hagree, shared_ix_2 m ρ m' c hagree, SharedB.K_scale, SharedB.R_scale,
    Cert.KernelIdeal.Hand.Wend_main_arg1, hR, hagree.2.1]
  try rfl

theorem shared_relcoord_3 (hagree : Agree m m' c) :
    Cert.KernelIdeal.Hand.Wend m ρ c (Proc.devRef .tc Cert.KernelIdeal.main_v367)
      = StableHlo.after (Cert.ReferenceIdeal.Hand.ops (F := Ideal)) (StableHlo.launchContents m' c) (Proc.devRef .tc Cert.ReferenceIdeal.main_v434) := by
  have hR : Cert.ReferenceIdeal.Hand.Rv m' c Cert.ReferenceIdeal.main_arg1
      = m' ((c.tc : Thread Cert.ReferenceIdeal.nD Cert.ReferenceIdeal.τ).loc Cert.ReferenceIdeal.main_arg1) :=
    Cert.ReferenceIdeal.Hand.after_main_arg1 m' c
  refine (SharedB.K3_relcoord m ρ c).trans (Eq.trans ?_ (SharedB.R3_relcoord m' c).symm)
  rw [shared_iy_3 m ρ m' c hagree, shared_ix_3 m ρ m' c hagree, SharedB.K_scale, SharedB.R_scale,
    Cert.KernelIdeal.Hand.Wend_main_arg1, hR, hagree.2.1]
  try rfl

end Cert.Hand

end
-- ==== Proof.SharedC.lean ====
import proofs.«100126_j36189394436483_2_alg».proof.Proof.KReadK
import proofs.«100126_j36189394436483_2_alg».proof.Proof.RRun
import proofs.«100126_j36189394436483_2_alg».proof.Proof.SharedB
import Idealize.ShloMosaic.Lib.StableHlo.Run

/-! # The four areas agree

Each program computes a corner's area from the corner's relative coordinates by the same nine operations: the
two coordinates sliced out and flattened, multiplied, the absolute value taken, a small constant added. So where the
two programs' relative coordinates agree, so do their areas. -/

set_option maxRecDepth 16384

noncomputable section

namespace Cert.Hand

open Idealize.ShloMosaic Idealize.ShloMosaic.TcCoe Idealize.SL.Sem Idealize.ShloMosaic.StableHlo

/-- A corner's area from its relative coordinates: the product of the two coordinates, its absolute value, plus a
    small constant. -/
def areaOf (rc : FVec Ideal Cert.KernelIdeal.S2x65536x2 .f32) : FVec Ideal Cert.KernelIdeal.S2x65536 .f32 :=
  addf
    (Host.absf
      (mulf
        (shapeCast Cert.KernelIdeal.S2x65536
          (extractStridedSlice Cert.KernelIdeal.S2x65536x1 ![0, 0, 0] rc Cert.KernelIdeal.Facts₀.slices_S2x65536x2_S2x65536x1_0_0_0)
          Cert.KernelIdeal.Facts₀.shapeCasts_S2x65536x1_S2x65536)
        (shapeCast Cert.KernelIdeal.S2x65536
          (extractStridedSlice Cert.KernelIdeal.S2x65536x1 ![0, 0, 1] rc Cert.KernelIdeal.Facts₀.slices_S2x65536x2_S2x65536x1_0_0_1)
          Cert.KernelIdeal.Facts₀.shapeCasts_S2x65536x1_S2x65536)))
    (broadcastInDim Cert.KernelIdeal.S2x65536 ![] Cert.KernelIdeal.Facts₀.bcast_S_S2x65536
      (constant (F := Ideal) Cert.KernelIdeal.S_ .f32 0x3089705F#32))

namespace SharedC

section Kernel
open Cert.KernelIdeal Cert.KernelIdeal.Gen Cert.KernelIdeal.Hand

/-! ## The split program: each corner's stretch computes the area from the relative coordinates it has just computed -/

/-- The first corner's nine operations, inside their stretch, from any contents before it. -/
theorem karea_0 (X : Valuation τ sig (Elt Ideal)) :
    after (main_part2_ops0 (F := Ideal)) X (Proc.devRef .tc main_v112)
      = areaOf (after (main_part2_ops0 (F := Ideal)) X (Proc.devRef .tc main_v100)) := by
  after_results_simp
  rfl

/-- So when the entry function returns, the first corner's area is that function of its relative coordinates. -/
theorem kend_area_0 (m : (ℓ : Loc nD τ sig) → Buf (Elt Ideal) ℓ) (ρ : Dev nD → PrngReg) (c : Dev nD) :
    Wend m ρ c (Proc.devRef .tc main_v112) = areaOf (Wend m ρ c (Proc.devRef .tc main_v100)) :=
  (Wend_at12 m ρ c main_v112 (by decide) (.inl (by decide))).trans
    ((karea_0 (W11 m ρ c)).trans
      (congrArg areaOf (Wend_at12 m ρ c main_v100 (by decide) (.inl (by decide))).symm))

/-- The second corner's nine operations, inside their stretch, from any contents before it. -/
theorem karea_1 (X : Valuation τ sig (Elt Ideal)) :
    after (main_part4_ops0 (F := Ideal)) X (Proc.devRef .tc main_v201)
      = areaOf (after (main_part4_ops0 (F := Ideal)) X (Proc.devRef .tc main_v189)) := by
  after_results_simp
  rfl

/-- So when the entry function returns, the second corner's area is that function of its relative coordinates. -/
theorem kend_area_1 (m : (ℓ : Loc nD τ sig) → Buf (Elt Ideal) ℓ) (ρ : Dev nD → PrngReg) (c : Dev nD) :
    Wend m ρ c (Proc.devRef .tc main_v201) = areaOf (Wend m ρ c (Proc.devRef .tc main_v189)) :=
  (Wend_at20 m ρ c main_v201 (by decide) (.inl (by decide))).trans
    ((karea_1 (W19 m ρ c)).trans
      (congrArg areaOf (Wend_at20 m ρ c main_v189 (by decide) (.inl (by decide))).symm))

/-- The third corner's nine operations, inside their stretch, from any contents before it. -/
theorem karea_2 (X : Valuation τ sig (Elt Ideal)) :
    after (main_part6_ops0 (F := Ideal)) X (Proc.devRef .tc main_v290)
      = areaOf (after (main_part6_ops0 (F := Ideal)) X (Proc.devRef .tc main_v278)) := by
  after_results_simp
  rfl

/-- So when the entry function returns, the third corner's area is that function of its relative coordinates. -/
theorem kend_area_2 (m : (ℓ : Loc nD τ sig) → Buf (Elt Ideal) ℓ) (ρ : Dev nD → PrngReg) (c : Dev nD) :
    Wend m ρ c (Proc.devRef .tc main_v290) = areaOf (Wend m ρ c (Proc.devRef .tc main_v278)) :=
  (Wend_at28 m ρ c main_v290 (by decide) (.inl (by decide))).trans
    ((karea_2 (W27 m ρ c)).trans
      (congrArg areaOf (Wend_at28 m ρ c main_v278 (by decide) (.inl (by decide))).symm))

/-- The fourth corner's nine operations, inside their stretch, from any contents before it. -/
theorem karea_3 (X : Valuation τ sig (Elt Ideal)) :
    after (main_part8_ops0 (F := Ideal)) X (Proc.devRef .tc main_v379)
      = areaOf (after (main_part8_ops0 (F := Ideal)) X (Proc.devRef .tc main_v367)) := by
  after_results_simp
  rfl

/-- So when the entry function returns, the fourth corner's area is that function of its relative coordinates. -/
theorem kend_area_3 (m : (ℓ : Loc nD τ sig) → Buf (Elt Ideal) ℓ) (ρ : Dev nD → PrngReg) (c : Dev nD) :
    Wend m ρ c (Proc.devRef .tc main_v379) = areaOf (Wend m ρ c (Proc.devRef .tc main_v367)) :=
  (Wend_at36 m ρ c main_v379 (by decide) (.inl (by decide))).trans
    ((karea_3 (W35 m ρ c)).trans
      (congrArg areaOf (Wend_at36 m ρ c main_v367 (by decide) (.inl (by decide))).symm))

end Kernel

section Reference
open Cert.ReferenceIdeal Cert.ReferenceIdeal.Gen Cert.ReferenceIdeal.Hand

/-! ## The plain program: the contents before each of its eleven windows, and a buffer no later window writes -/

/-- The contents before window `J`, from the launch contents `V`. -/
abbrev rpre0 (V : Valuation τ sig (Elt Ideal)) : Valuation τ sig (Elt Ideal) := V
abbrev rpre1 (V : Valuation τ sig (Elt Ideal)) : Valuation τ sig (Elt Ideal) := after (ops0 (F := Ideal)) (rpre0 V)
abbrev rpre2 (V : Valuation τ sig (Elt Ideal)) : Valuation τ sig (Elt Ideal) := after (ops1 (F := Ideal)) (rpre1 V)
abbrev rpre3 (V : Valuation τ sig (Elt Ideal)) : Valuation τ sig (Elt Ideal) := after (ops2 (F := Ideal)) (rpre2 V)
abbrev rpre4 (V : Valuation τ sig (Elt Ideal)) : Valuation τ sig (Elt Ideal) := after (ops3 (F := Ideal)) (rpre3 V)
abbrev rpre5 (V : Valuation τ sig (Elt Ideal)) : Valuation τ sig (Elt Ideal) := after (ops4 (F := Ideal)) (rpre4 V)
abbrev rpre6 (V : Valuation τ sig (Elt Ideal)) : Valuation τ sig (Elt Ideal) := after (ops5 (F := Ideal)) (rpre5 V)
abbrev rpre7 (V : Valuation τ sig (Elt Ideal)) : Valuation τ sig (Elt Ideal) := after (ops6 (F := Ideal)) (rpre6 V)
abbrev rpre8 (V : Valuation τ sig (Elt Ideal)) : Valuation τ sig (Elt Ideal) := after (ops7 (F := Ideal)) (rpre7 V)
abbrev rpre9 (V : Valuation τ sig (Elt Ideal)) : Valuation τ sig (Elt Ideal) := after (ops8 (F := Ideal)) (rpre8 V)
abbrev rpre10 (V : Valuation τ sig (Elt Ideal)) : Valuation τ sig (Elt Ideal) := after (ops9 (F := Ideal)) (rpre9 V)
abbrev rpre11 (V : Valuation τ sig (Elt Ideal)) : Valuation τ sig (Elt Ideal) := after (ops10 (F := Ideal)) (rpre10 V)

/-- The whole line is the eleven windows in turn. -/
theorem after_ops_eq (V : Valuation τ sig (Elt Ideal)) : after (ops (F := Ideal)) V = rpre11 V := by
  simp only [ops, after_append]

/-- A buffer the last window does not write ends as the window found it; and so on backwards. -/
theorem rend_at10 (V : Valuation τ sig (Elt Ideal)) (b : Ref sig .tc) (h10 : b ∉ ops10_W) :
    after (ops (F := Ideal)) V (Proc.devRef .tc b) = rpre10 V (Proc.devRef .tc b) := by
  rw [after_ops_eq]; exact after_of_writes_sub ops10 _ ops10_writes h10
theorem rend_at9 (V : Valuation τ sig (Elt Ideal)) (b : Ref sig .tc) (h10 : b ∉ ops10_W) (h9 : b ∉ ops9_W) :
    after (ops (F := Ideal)) V (Proc.devRef .tc b) = rpre9 V (Proc.devRef .tc b) :=
  (rend_at10 V b h10).trans (after_of_writes_sub ops9 _ ops9_writes h9)
theorem rend_at8 (V : Valuation τ sig (Elt Ideal)) (b : Ref sig .tc) (h10 : b ∉ ops10_W) (h9 : b ∉ ops9_W) (h8 : b ∉ ops8_W) :
    after (ops (F := Ideal)) V (Proc.devRef .tc b) = rpre8 V (Proc.devRef .tc b) :=
  (rend_at9 V b h10 h9).trans (after_of_writes_sub ops8 _ ops8_writes h8)
theorem rend_at7 (V : Valuation τ sig (Elt Ideal)) (b : Ref sig .tc) (h10 : b ∉ ops10_W) (h9 : b ∉ ops9_W) (h8 : b ∉ ops8_W) (h7 : b ∉ ops7_W) :
    after (ops (F := Ideal)) V (Proc.devRef .tc b) = rpre7 V (Proc.devRef .tc b) :=
  (rend_at8 V b h10 h9 h8).trans (after_of_writes_sub ops7 _ ops7_writes h7)
theorem rend_at6 (V : Valuation τ sig (Elt Ideal)) (b : Ref sig .tc) (h10 : b ∉ ops10_W) (h9 : b ∉ ops9_W) (h8 : b ∉ ops8_W) (h7 : b ∉ ops7_W) (h6 : b ∉ ops6_W) :
    after (ops (F := Ideal)) V (Proc.devRef .tc b) = rpre6 V (Proc.devRef .tc b) :=
  (rend_at7 V b h10 h9 h8 h7).trans (after_of_writes_sub ops6 _ ops6_writes h6)
theorem rend_at5 (V : Valuation τ sig (Elt Ideal)) (b : Ref sig .tc) (h10 : b ∉ ops10_W) (h9 : b ∉ ops9_W) (h8 : b ∉ ops8_W) (h7 : b ∉ ops7_W) (h6 : b ∉ ops6_W) (h5 : b ∉ ops5_W) :
    after (ops (F := Ideal)) V (Proc.devRef .tc b) = rpre5 V (Proc.devRef .tc b) :=
  (rend_at6 V b h10 h9 h8 h7 h6).trans (after_of_writes_sub ops5 _ ops5_writes h5)
theorem rend_at4 (V : Valuation τ sig (Elt Ideal)) (b : Ref sig .tc) (h10 : b ∉ ops10_W) (h9 : b ∉ ops9_W) (h8 : b ∉ ops8_W) (h7 : b ∉ ops7_W) (h6 : b ∉ ops6_W) (h5 : b ∉ ops5_W) (h4 : b ∉ ops4_W) :
    after (ops (F := Ideal)) V (Proc.devRef .tc b) = rpre4 V (Proc.devRef .tc b) :=
  (rend_at5 V b h10 h9 h8 h7 h6 h5).trans (after_of_writes_sub ops4 _ ops4_writes h4)
theorem rend_at3 (V : Valuation τ sig (Elt Ideal)) (b : Ref sig .tc) (h10 : b ∉ ops10_W) (h9 : b ∉ ops9_W) (h8 : b ∉ ops8_W) (h7 : b ∉ ops7_W) (h6 : b ∉ ops6_W) (h5 : b ∉ ops5_W) (h4 : b ∉ ops4_W) (h3 : b ∉ ops3_W) :
    after (ops (F := Ideal)) V (Proc.devRef .tc b) = rpre3 V (Proc.devRef .tc b) :=
  (rend_at4 V b h10 h9 h8 h7 h6 h5 h4).trans (after_of_writes_sub ops3 _ ops3_writes h3)

/-! ## The plain program: each corner's window computes the area from the relative coordinates -/

/-- The first corner's nine operations, inside their window, from any contents before it. -/
theorem rarea_0 (X : Valuation τ sig (Elt Ideal)) :
    after (ops2 (F := Ideal)) X (Proc.devRef .tc main_v133)
      = areaOf (after (ops2 (F := Ideal)) X (Proc.devRef .tc main_v95)) := by
  after_results_simp
  rfl

/-- So when the line ends, the first corner's area is that function of its relative coordinates. -/
theorem rend_area_0 (V : Valuation τ sig (Elt Ideal)) :
    after (ops (F := Ideal)) V (Proc.devRef .tc main_v133) = areaOf (after (ops (F := Ideal)) V (Proc.devRef .tc main_v95)) :=
  (rend_at3 V main_v133 (by decide) (by decide) (by decide) (by decide) (by decide) (by decide) (by decide) (by decide)).trans
    ((rarea_0 (rpre2 V)).trans
      (congrArg areaOf (rend_at3 V main_v95 (by decide) (by decide) (by decide) (by decide) (by decide) (by decide) (by decide) (by decide)).symm))

/-- The second corner's nine operations, inside their window, from any contents before it. -/
theorem rarea_1 (X : Valuation τ sig (Elt Ideal)) :
    after (ops5 (F := Ideal)) X (Proc.devRef .tc main_v246)
      = areaOf (X (Proc.devRef .tc main_v208)) := by
  after_results_simp
  rfl

/-- So when the line ends, the second corner's area is that function of its relative coordinates. -/
theorem rend_area_1 (V : Valuation τ sig (Elt Ideal)) :
    after (ops (F := Ideal)) V (Proc.devRef .tc main_v246) = areaOf (after (ops (F := Ideal)) V (Proc.devRef .tc main_v208)) :=
  (rend_at6 V main_v246 (by decide) (by decide) (by decide) (by decide) (by decide)).trans
    ((rarea_1 (rpre5 V)).trans
      (congrArg areaOf (rend_at5 V main_v208 (by decide) (by decide) (by decide) (by decide) (by decide) (by decide)).symm))

/-- The third corner's nine operations, inside their window, from any contents before it. -/
theorem rarea_2 (X : Valuation τ sig (Elt Ideal)) :
    after (ops7 (F := Ideal)) X (Proc.devRef .tc main_v359)
      = areaOf (X (Proc.devRef .tc main_v321)) := by
  after_results_simp
  rfl

/-- So when the line ends, the third corner's area is that function of its relative coordinates. -/
theorem rend_area_2 (V : Valuation τ sig (Elt Ideal)) :
    after (ops (F := Ideal)) V (Proc.devRef .tc main_v359) = areaOf (after (ops (F := Ideal)) V (Proc.devRef .tc main_v321)) :=
  (rend_at8 V main_v359 (by decide) (by decide) (by decide)).trans
    ((rarea_2 (rpre7 V)).trans
      (congrArg areaOf (rend_at7 V main_v321 (by decide) (by decide) (by decide) (by decide)).symm))

/-- The fourth corner's nine operations, inside their window, from any contents before it. -/
theorem rarea_3 (X : Valuation τ sig (Elt Ideal)) :
    after (ops9 (F := Ideal)) X (Proc.devRef .tc main_v472)
      = areaOf (after (ops9 (F := Ideal)) X (Proc.devRef .tc main_v434)) := by
  after_results_simp
  rfl

/-- So when the line ends, the fourth corner's area is that function of its relative coordinates. -/
theorem rend_area_3 (V : Valuation τ sig (Elt Ideal)) :
    after (ops (F := Ideal)) V (Proc.devRef .tc main_v472) = areaOf (after (ops (F := Ideal)) V (Proc.devRef .tc main_v434)) :=
  (rend_at10 V main_v472 (by decide)).trans
    ((rarea_3 (rpre9 V)).trans
      (congrArg areaOf (rend_at10 V main_v434 (by decide)).symm))

end Reference

end SharedC

/-! ## The four areas agree -/

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- Where the two programs' first corners' relative coordinates agree, so do the corners' areas. -/
theorem shared_area_0_of
    (hrel : Cert.KernelIdeal.Hand.Wend m ρ c (Proc.devRef .tc Cert.KernelIdeal.main_v100)
      = StableHlo.after (Cert.ReferenceIdeal.Hand.ops (F := Ideal)) (StableHlo.launchContents m' c) (Proc.devRef .tc Cert.ReferenceIdeal.main_v95)) :
    Cert.KernelIdeal.Hand.Wend m ρ c (Proc.devRef .tc Cert.KernelIdeal.main_v112)
      = StableHlo.after (Cert.ReferenceIdeal.Hand.ops (F := Ideal)) (StableHlo.launchContents m' c) (Proc.devRef .tc Cert.ReferenceIdeal.main_v133) :=
  (SharedC.kend_area_0 m ρ c).trans ((congrArg areaOf hrel).trans (SharedC.rend_area_0 (StableHlo.launchContents m' c)).symm)

/-- The two programs' first corners' areas agree when the programs are launched on agreeing arguments. -/
theorem shared_area_0 (hagree : Agree m m' c) :
    Cert.KernelIdeal.Hand.Wend m ρ c (Proc.devRef .tc Cert.KernelIdeal.main_v112)
      = StableHlo.after (Cert.ReferenceIdeal.Hand.ops (F := Ideal)) (StableHlo.launchContents m' c) (Proc.devRef .tc Cert.ReferenceIdeal.main_v133) :=
  shared_area_0_of m ρ m' c (shared_relcoord_0 m ρ m' c hagree)

/-- Where the two programs' second corners' relative coordinates agree, so do the corners' areas. -/
theorem shared_area_1_of
    (hrel : Cert.KernelIdeal.Hand.Wend m ρ c (Proc.devRef .tc Cert.KernelIdeal.main_v189)
      = StableHlo.after (Cert.ReferenceIdeal.Hand.ops (F := Ideal)) (StableHlo.launchContents m' c) (Proc.devRef .tc Cert.ReferenceIdeal.main_v208)) :
    Cert.KernelIdeal.Hand.Wend m ρ c (Proc.devRef .tc Cert.KernelIdeal.main_v201)
      = StableHlo.after (Cert.ReferenceIdeal.Hand.ops (F := Ideal)) (StableHlo.launchContents m' c) (Proc.devRef .tc Cert.ReferenceIdeal.main_v246) :=
  (SharedC.kend_area_1 m ρ c).trans ((congrArg areaOf hrel).trans (SharedC.rend_area_1 (StableHlo.launchContents m' c)).symm)

/-- The two programs' second corners' areas agree when the programs are launched on agreeing arguments. -/
theorem shared_area_1 (hagree : Agree m m' c) :
    Cert.KernelIdeal.Hand.Wend m ρ c (Proc.devRef .tc Cert.KernelIdeal.main_v201)
      = StableHlo.after (Cert.ReferenceIdeal.Hand.ops (F := Ideal)) (StableHlo.launchContents m' c) (Proc.devRef .tc Cert.ReferenceIdeal.main_v246) :=
  shared_area_1_of m ρ m' c (shared_relcoord_1 m ρ m' c hagree)

/-- Where the two programs' third corners' relative coordinates agree, so do the corners' areas. -/
theorem shared_area_2_of
    (hrel : Cert.KernelIdeal.Hand.Wend m ρ c (Proc.devRef .tc Cert.KernelIdeal.main_v278)
      = StableHlo.after (Cert.ReferenceIdeal.Hand.ops (F := Ideal)) (StableHlo.launchContents m' c) (Proc.devRef .tc Cert.ReferenceIdeal.main_v321)) :
    Cert.KernelIdeal.Hand.Wend m ρ c (Proc.devRef .tc Cert.KernelIdeal.main_v290)
      = StableHlo.after (Cert.ReferenceIdeal.Hand.ops (F := Ideal)) (StableHlo.launchContents m' c) (Proc.devRef .tc Cert.ReferenceIdeal.main_v359) :=
  (SharedC.kend_area_2 m ρ c).trans ((congrArg areaOf hrel).trans (SharedC.rend_area_2 (StableHlo.launchContents m' c)).symm)

/-- The two programs' third corners' areas agree when the programs are launched on agreeing arguments. -/
theorem shared_area_2 (hagree : Agree m m' c) :
    Cert.KernelIdeal.Hand.Wend m ρ c (Proc.devRef .tc Cert.KernelIdeal.main_v290)
      = StableHlo.after (Cert.ReferenceIdeal.Hand.ops (F := Ideal)) (StableHlo.launchContents m' c) (Proc.devRef .tc Cert.ReferenceIdeal.main_v359) :=
  shared_area_2_of m ρ m' c (shared_relcoord_2 m ρ m' c hagree)

/-- Where the two programs' fourth corners' relative coordinates agree, so do the corners' areas. -/
theorem shared_area_3_of
    (hrel : Cert.KernelIdeal.Hand.Wend m ρ c (Proc.devRef .tc Cert.KernelIdeal.main_v367)
      = StableHlo.after (Cert.ReferenceIdeal.Hand.ops (F := Ideal)) (StableHlo.launchContents m' c) (Proc.devRef .tc Cert.ReferenceIdeal.main_v434)) :
    Cert.KernelIdeal.Hand.Wend m ρ c (Proc.devRef .tc Cert.KernelIdeal.main_v379)
      = StableHlo.after (Cert.ReferenceIdeal.Hand.ops (F := Ideal)) (StableHlo.launchContents m' c) (Proc.devRef .tc Cert.ReferenceIdeal.main_v472) :=
  (SharedC.kend_area_3 m ρ c).trans ((congrArg areaOf hrel).trans (SharedC.rend_area_3 (StableHlo.launchContents m' c)).symm)

/-- The two programs' fourth corners' areas agree when the programs are launched on agreeing arguments. -/
theorem shared_area_3 (hagree : Agree m m' c) :
    Cert.KernelIdeal.Hand.Wend m ρ c (Proc.devRef .tc Cert.KernelIdeal.main_v379)
      = StableHlo.after (Cert.ReferenceIdeal.Hand.ops (F := Ideal)) (StableHlo.launchContents m' c) (Proc.devRef .tc Cert.ReferenceIdeal.main_v472) :=
  shared_area_3_of m ρ m' c (shared_relcoord_3 m ρ m' c hagree)

end Cert.Hand

end
-- ==== Proof.SharedD.lean ====
import proofs.«100126_j36189394436483_2_alg».proof.Proof.KReadK
import proofs.«100126_j36189394436483_2_alg».proof.Proof.RBase
import proofs.«100126_j36189394436483_2_alg».proof.Proof.SharedOpen
import proofs.«100126_j36189394436483_2_alg».proof.Proof.Agree

/-!
# The two programs' shared host chain: the unfolded feature map

Both programs compute the unfolded feature map — the 3 × 3 neighbourhood of every pixel of the zero-padded feature
array, stacked along the channel axis — from the feature argument by the same host operations: the pad (its zero a
converted integer constant), nine slices of the padded array, nine broadcasts to a five-axis array, one
concatenation of the nine, one reshape. Given launch memories that agree on the feature argument, the two arrays are
equal when the two entry functions return: each is a buffer written once, early, so its final contents are the
composed term of those operations over the feature argument at launch, and the two composed terms are the same
term — they differ only in which program's names spell the shapes and the side conditions.
-/

set_option maxRecDepth 16384

noncomputable section

namespace Cert.Hand

open Idealize.ShloMosaic Idealize.ShloMosaic.TcCoe Idealize.SL.Sem Idealize.ShloMosaic.StableHlo
open Cert.Hand.Shared

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

set_option maxHeartbeats 1000000 in
/-- The unfolded feature map of the kernel's program (%22) and of the reference (%20) are equal when the two entry
    functions return, from launch memories holding the same feature array.

    The kernel's buffer is written in the third stretch of host operations and by nothing after it, the reference's
    in its first window and by nothing after it; each side's fold over those operations is opened down to the feature
    argument's launch contents, the reference's are rewritten to the kernel's, and the two terms are then equal by
    computation of the buffers' types alone (no operation is opened). -/
theorem shared_featu_of_arg0
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.KernelIdeal.Hand.Wend m ρ c (Proc.devRef .tc Cert.KernelIdeal.main_v22)
      = StableHlo.after (Cert.ReferenceIdeal.Hand.ops (F := Ideal)) (StableHlo.launchContents m' c) (Proc.devRef .tc Cert.ReferenceIdeal.main_v20) := by
  have hK := Cert.KernelIdeal.Hand.Wend_at3 m ρ c Cert.KernelIdeal.main_v22 (by decide) (.inl (by decide)) (.inl (by decide))
  have hR := Cert.ReferenceIdeal.Hand.Rv_in_window_0 (m := m') (d := c) Cert.ReferenceIdeal.main_v20 (by decide)
  refine hK.trans (Eq.trans ?_ hR.symm)
  after_open
  have e0 : Cert.ReferenceIdeal.Hand.Rpre 0 m' c (Proc.devRef .tc Cert.ReferenceIdeal.main_arg0)
      = Cert.KernelIdeal.Hand.W0 m ρ c (Proc.devRef .tc Cert.KernelIdeal.main_arg0) := h0
  rw [e0]
  rfl

/-- The same from the agreement of the two launch memories on all thirteen arguments: only the feature argument's is used. -/
theorem shared_featu (hagree : Agree m m' c) :
    Cert.KernelIdeal.Hand.Wend m ρ c (Proc.devRef .tc Cert.KernelIdeal.main_v22)
      = StableHlo.after (Cert.ReferenceIdeal.Hand.ops (F := Ideal)) (StableHlo.launchContents m' c) (Proc.devRef .tc Cert.ReferenceIdeal.main_v20) :=
  shared_featu_of_arg0 m ρ m' c hagree.1

end Cert.Hand

end
-- ==== Proof.SharedEK.lean ====
import proofs.«100126_j36189394436483_2_alg».proof.Proof.KReadK
import Idealize.ShloMosaic.Lib.StableHlo.Run

/-!
# The split program's relative cell sizes

For each of the four corners the split program scales the cell sizes by the constant 96.0: the two-entry
constant is broadcast over the batches and the queries and multiplied with the argument that holds the cell
sizes. Read when the entry function returns, each corner's array is that product over the argument as launched.
Everything is at the ideal values.
-/

set_option maxRecDepth 16384

noncomputable section

namespace Cert.Hand

open Idealize.ShloMosaic Idealize.ShloMosaic.TcCoe
open Idealize.SL.Sem

section KSide
open Cert.KernelIdeal Cert.KernelIdeal.Gen Cert.KernelIdeal.Hand
variable (m : (ℓ : Loc nD τ sig) → Buf (Elt Ideal) ℓ) (ρ : Dev nD → PrngReg) (c : Dev nD)

/-- The scale constant is written by the first stretch and by nothing after it. -/
theorem Kcst_end : Wend m ρ c (Proc.devRef .tc main_cst) = constant (F := Ideal) S2 .f32 0x42C00000#32 := by
  refine (Wend_at1 m ρ c main_cst (by decide) (.inl (by decide)) (.inl (by decide))).trans ?_
  show StableHlo.after main_part0_ops0 (W0 m ρ c) (Proc.devRef .tc main_cst) = _
  after_results

/-! Before each of the four stretches that scale the cell sizes, the argument is as launched and the constant is
    as written. -/

theorem Karg2_at11 : W11 m ρ c (Proc.devRef .tc main_arg2) = m ((c : Thread nD τ).loc main_arg2) :=
  (Wend_at11 m ρ c main_arg2 (by decide) (.inl (by decide))).symm.trans (Wend_main_arg2 m ρ c)
theorem Kcst_at11 : W11 m ρ c (Proc.devRef .tc main_cst) = constant (F := Ideal) S2 .f32 0x42C00000#32 :=
  (Wend_at11 m ρ c main_cst (by decide) (.inl (by decide))).symm.trans (Kcst_end m ρ c)

theorem Karg2_at19 : W19 m ρ c (Proc.devRef .tc main_arg2) = m ((c : Thread nD τ).loc main_arg2) :=
  (Wend_at19 m ρ c main_arg2 (by decide) (.inl (by decide))).symm.trans (Wend_main_arg2 m ρ c)
theorem Kcst_at19 : W19 m ρ c (Proc.devRef .tc main_cst) = constant (F := Ideal) S2 .f32 0x42C00000#32 :=
  (Wend_at19 m ρ c main_cst (by decide) (.inl (by decide))).symm.trans (Kcst_end m ρ c)

theorem Karg2_at27 : W27 m ρ c (Proc.devRef .tc main_arg2) = m ((c : Thread nD τ).loc main_arg2) :=
  (Wend_at27 m ρ c main_arg2 (by decide) (.inl (by decide))).symm.trans (Wend_main_arg2 m ρ c)
theorem Kcst_at27 : W27 m ρ c (Proc.devRef .tc main_cst) = constant (F := Ideal) S2 .f32 0x42C00000#32 :=
  (Wend_at27 m ρ c main_cst (by decide) (.inl (by decide))).symm.trans (Kcst_end m ρ c)

theorem Karg2_at35 : W35 m ρ c (Proc.devRef .tc main_arg2) = m ((c : Thread nD τ).loc main_arg2) :=
  (Wend_at35 m ρ c main_arg2 (by decide) (.inl (by decide))).symm.trans (Wend_main_arg2 m ρ c)
theorem Kcst_at35 : W35 m ρ c (Proc.devRef .tc main_cst) = constant (F := Ideal) S2 .f32 0x42C00000#32 :=
  (Wend_at35 m ρ c main_cst (by decide) (.inl (by decide))).symm.trans (Kcst_end m ρ c)

set_option maxHeartbeats 4000000 in
/-- Corner 0's relative cell sizes in the split program, at the end of its run. -/
theorem Krel0 : Wend m ρ c (Proc.devRef .tc main_v103)
    = mulf (F := Ideal) (s := S2x65536x2) (φ := .f32) (m ((c : Thread nD τ).loc main_arg2))
        (broadcastInDim S2x65536x2 ![0, 1, 2] bcast_S1x1x2_S2x65536x2_0_1_2
          (broadcastInDim S1x1x2 ![2] bcast_S2_S1x1x2_2 (constant (F := Ideal) S2 .f32 0x42C00000#32))) := by
  refine (Wend_at12 m ρ c main_v103 (by decide) (.inl (by decide))).trans ?_
  rw [← Karg2_at11 m ρ c, ← Kcst_at11 m ρ c]
  show StableHlo.after main_part2_ops0 (W11 m ρ c) (Proc.devRef .tc main_v103) = _
  after_results_simp

set_option maxHeartbeats 4000000 in
/-- Corner 1's relative cell sizes in the split program, at the end of its run. -/
theorem Krel1 : Wend m ρ c (Proc.devRef .tc main_v192)
    = mulf (F := Ideal) (s := S2x65536x2) (φ := .f32) (m ((c : Thread nD τ).loc main_arg2))
        (broadcastInDim S2x65536x2 ![0, 1, 2] bcast_S1x1x2_S2x65536x2_0_1_2
          (broadcastInDim S1x1x2 ![2] bcast_S2_S1x1x2_2 (constant (F := Ideal) S2 .f32 0x42C00000#32))) := by
  refine (Wend_at20 m ρ c main_v192 (by decide) (.inl (by decide))).trans ?_
  rw [← Karg2_at19 m ρ c, ← Kcst_at19 m ρ c]
  show StableHlo.after main_part4_ops0 (W19 m ρ c) (Proc.devRef .tc main_v192) = _
  after_results_simp

set_option maxHeartbeats 4000000 in
/-- Corner 2's relative cell sizes in the split program, at the end of its run. -/
theorem Krel2 : Wend m ρ c (Proc.devRef .tc main_v281)
    = mulf (F := Ideal) (s := S2x65536x2) (φ := .f32) (m ((c : Thread nD τ).loc main_arg2))
        (broadcastInDim S2x65536x2 ![0, 1, 2] bcast_S1x1x2_S2x65536x2_0_1_2
          (broadcastInDim S1x1x2 ![2] bcast_S2_S1x1x2_2 (constant (F := Ideal) S2 .f32 0x42C00000#32))) := by
  refine (Wend_at28 m ρ c main_v281 (by decide) (.inl (by decide))).trans ?_
  rw [← Karg2_at27 m ρ c, ← Kcst_at27 m ρ c]
  show StableHlo.after main_part6_ops0 (W27 m ρ c) (Proc.devRef .tc main_v281) = _
  after_results_simp

set_option maxHeartbeats 4000000 in
/-- Corner 3's relative cell sizes in the split program, at the end of its run. -/
theorem Krel3 : Wend m ρ c (Proc.devRef .tc main_v370)
    = mulf (F := Ideal) (s := S2x65536x2) (φ := .f32) (m ((c : Thread nD τ).loc main_arg2))
        (broadcastInDim S2x65536x2 ![0, 1, 2] bcast_S1x1x2_S2x65536x2_0_1_2
          (broadcastInDim S1x1x2 ![2] bcast_S2_S1x1x2_2 (constant (F := Ideal) S2 .f32 0x42C00000#32))) := by
  refine (Wend_at36 m ρ c main_v370 (by decide) (.inl (by decide))).trans ?_
  rw [← Karg2_at35 m ρ c, ← Kcst_at35 m ρ c]
  show StableHlo.after main_part8_ops0 (W35 m ρ c) (Proc.devRef .tc main_v370) = _
  after_results_simp

end KSide

end Cert.Hand
-- ==== Proof.SharedER.lean ====
import proofs.«100126_j36189394436483_2_alg».proof.Proof.RBase
import Idealize.ShloMosaic.Lib.StableHlo.Run

/-!
# The reference's relative cell sizes

For each of the four corners the reference scales the cell sizes by the constant 96.0: the two-entry constant is
broadcast over the batches and the queries and multiplied with the argument that holds the cell sizes. Read
after the reference's run, each corner's array is that product over the argument as launched. Everything is at
the ideal values.
-/

set_option maxRecDepth 16384

noncomputable section

namespace Cert.Hand

open Idealize.ShloMosaic Idealize.ShloMosaic.TcCoe
open Idealize.SL.Sem

section RSide
open Cert.ReferenceIdeal Cert.ReferenceIdeal.Gen Cert.ReferenceIdeal.Hand
variable (m' : (ℓ : Loc nD τ sig) → Buf (Elt Ideal) ℓ) (d : Dev nD)

/-- No operation writes the argument. -/
theorem Rarg2_end : Rv m' d main_arg2 = m' ((d.tc : Thread nD τ).loc main_arg2) := after_main_arg2 m' d

/-- The scale constant is written in the first window and by nothing after it. -/
theorem Rcst_end : Rv m' d main_cst = constant (F := Ideal) S2 .f32 0x42C00000#32 := by
  rw [Rv_in_window_0 main_cst (by decide)]
  after_results

/-- Corner 0's relative cell sizes in the reference, at the end of its run. -/
theorem Rrel0 : Rv m' d main_v98
    = mulf (F := Ideal) (s := S2x65536x2) (φ := .f32) (m' ((d.tc : Thread nD τ).loc main_arg2))
        (broadcastInDim S2x65536x2 ![0, 1, 2] bcast_S1x1x2_S2x65536x2_0_1_2
          (broadcastInDim S1x1x2 ![2] bcast_S2_S1x1x2_2 (constant (F := Ideal) S2 .f32 0x42C00000#32))) := by
  rw [← Rarg2_end m' d, ← Rcst_end m' d, ← Rpre_stable_2 main_arg2 (by decide), ← Rpre_stable_2 main_cst (by decide),
    Rv_in_window_2 main_v98 (by decide)]
  after_results_simp

/-- Corner 1's relative cell sizes in the reference, at the end of its run. -/
theorem Rrel1 : Rv m' d main_v211
    = mulf (F := Ideal) (s := S2x65536x2) (φ := .f32) (m' ((d.tc : Thread nD τ).loc main_arg2))
        (broadcastInDim S2x65536x2 ![0, 1, 2] bcast_S1x1x2_S2x65536x2_0_1_2
          (broadcastInDim S1x1x2 ![2] bcast_S2_S1x1x2_2 (constant (F := Ideal) S2 .f32 0x42C00000#32))) := by
  rw [← Rarg2_end m' d, ← Rcst_end m' d, ← Rpre_stable_4 main_arg2 (by decide), ← Rpre_stable_4 main_cst (by decide),
    Rv_in_window_4 main_v211 (by decide)]
  after_results_simp

/-- Corner 2's relative cell sizes in the reference, at the end of its run. -/
theorem Rrel2 : Rv m' d main_v324
    = mulf (F := Ideal) (s := S2x65536x2) (φ := .f32) (m' ((d.tc : Thread nD τ).loc main_arg2))
        (broadcastInDim S2x65536x2 ![0, 1, 2] bcast_S1x1x2_S2x65536x2_0_1_2
          (broadcastInDim S1x1x2 ![2] bcast_S2_S1x1x2_2 (constant (F := Ideal) S2 .f32 0x42C00000#32))) := by
  rw [← Rarg2_end m' d, ← Rcst_end m' d, ← Rpre_stable_6 main_arg2 (by decide), ← Rpre_stable_6 main_cst (by decide),
    Rv_in_window_6 main_v324 (by decide)]
  after_results_simp

/-- Corner 3's relative cell sizes in the reference, at the end of its run. -/
theorem Rrel3 : Rv m' d main_v437
    = mulf (F := Ideal) (s := S2x65536x2) (φ := .f32) (m' ((d.tc : Thread nD τ).loc main_arg2))
        (broadcastInDim S2x65536x2 ![0, 1, 2] bcast_S1x1x2_S2x65536x2_0_1_2
          (broadcastInDim S1x1x2 ![2] bcast_S2_S1x1x2_2 (constant (F := Ideal) S2 .f32 0x42C00000#32))) := by
  rw [← Rarg2_end m' d, ← Rcst_end m' d, ← Rpre_stable_9 main_arg2 (by decide), ← Rpre_stable_9 main_cst (by decide),
    Rv_in_window_9 main_v437 (by decide)]
  after_results_simp

end RSide

end Cert.Hand
-- ==== Proof.SharedE.lean ====
import proofs.«100126_j36189394436483_2_alg».proof.Proof.SharedEK
import proofs.«100126_j36189394436483_2_alg».proof.Proof.SharedER
import proofs.«100126_j36189394436483_2_alg».proof.Proof.Agree

/-!
# The relative cell sizes of the two programs agree

For each of the four corners both programs scale the cell sizes by the same constant: the two-entry constant
96.0 is broadcast over the batches and the queries and multiplied with the argument that holds the cell sizes.
Read at the end of its program's run, each side's array is that product over its own copy of the argument; the
two programs are run from memories that agree on the argument, so the two arrays are equal. Everything is at
the ideal values.
-/

set_option maxRecDepth 16384

noncomputable section

namespace Cert.Hand

open Idealize.ShloMosaic Idealize.ShloMosaic.TcCoe
open Idealize.SL.Sem

section Both
variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- Corner 0: the two programs' relative cell sizes are equal, the launch memories agreeing on the cell sizes. -/
theorem shared_relcell_0 (hagree : Agree m m' c) :
    Cert.KernelIdeal.Hand.Wend m ρ c (Proc.devRef .tc Cert.KernelIdeal.main_v103)
      = Cert.ReferenceIdeal.Hand.Rv m' c Cert.ReferenceIdeal.main_v98 := by
  refine (Krel0 m ρ c).trans (Eq.trans ?_ (Rrel0 m' c).symm)
  rw [hagree.2.2.1]

/-- Corner 1: the two programs' relative cell sizes are equal, the launch memories agreeing on the cell sizes. -/
theorem shared_relcell_1 (hagree : Agree m m' c) :
    Cert.KernelIdeal.Hand.Wend m ρ c (Proc.devRef .tc Cert.KernelIdeal.main_v192)
      = Cert.ReferenceIdeal.Hand.Rv m' c Cert.ReferenceIdeal.main_v211 := by
  refine (Krel1 m ρ c).trans (Eq.trans ?_ (Rrel1 m' c).symm)
  rw [hagree.2.2.1]

/-- Corner 2: the two programs' relative cell sizes are equal, the launch memories agreeing on the cell sizes. -/
theorem shared_relcell_2 (hagree : Agree m m' c) :
    Cert.KernelIdeal.Hand.Wend m ρ c (Proc.devRef .tc Cert.KernelIdeal.main_v281)
      = Cert.ReferenceIdeal.Hand.Rv m' c Cert.ReferenceIdeal.main_v324 := by
  refine (Krel2 m ρ c).trans (Eq.trans ?_ (Rrel2 m' c).symm)
  rw [hagree.2.2.1]

/-- Corner 3: the two programs' relative cell sizes are equal, the launch memories agreeing on the cell sizes. -/
theorem shared_relcell_3 (hagree : Agree m m' c) :
    Cert.KernelIdeal.Hand.Wend m ρ c (Proc.devRef .tc Cert.KernelIdeal.main_v370)
      = Cert.ReferenceIdeal.Hand.Rv m' c Cert.ReferenceIdeal.main_v437 := by
  refine (Krel3 m ρ c).trans (Eq.trans ?_ (Rrel3 m' c).symm)
  rw [hagree.2.2.1]

end Both

end Cert.Hand
-- ==== Proof.BridgeShared.lean ====
import proofs.«100126_j36189394436483_2_alg».proof.Proof.BridgeK
import proofs.«100126_j36189394436483_2_alg».proof.Proof.BridgeR
import proofs.«100126_j36189394436483_2_alg».proof.Proof.RReadD
import proofs.«100126_j36189394436483_2_alg».proof.Proof.Agree
import proofs.«100126_j36189394436483_2_alg».proof.Proof.Shared
import proofs.«100126_j36189394436483_2_alg».proof.Proof.Shared2
import proofs.«100126_j36189394436483_2_alg».proof.Proof.SharedB
import proofs.«100126_j36189394436483_2_alg».proof.Proof.SharedC
import proofs.«100126_j36189394436483_2_alg».proof.Proof.SharedD
import proofs.«100126_j36189394436483_2_alg».proof.Proof.SharedE

/-!
# The shared intermediates are the same arrays at the end of both runs

Both programs compute, per corner, the same index array, relative coordinates, relative cell sizes and area from the
same coordinate and cell arguments, and the same unfolded feature map from the same feature argument. When the two
launch memories hold the same argument arrays, each of these arrays is therefore the same at the end of both runs.
Here the corner-by-corner equalities are gathered into families over the corner, at the arrays' types.
-/

noncomputable section

namespace Cert.Hand

open Idealize.ShloMosaic Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The unfolded feature map is the same array at the end of both runs. -/
theorem hfeat (h : Agree m m' c) : Cert.KernelIdeal.Hand.Kfeatu m ρ c = Cert.ReferenceIdeal.Hand.Rfeatu m' c :=
  shared_featu m ρ m' c h

/-- Corner `k`'s index array is the same array at the end of both runs. -/
theorem hidx (h : Agree m m' c) (k : Fin 4) : Cert.KernelIdeal.Hand.KidxT m ρ c k = Cert.ReferenceIdeal.Hand.Ridx m' c k :=
  match k with
  | ⟨0, _⟩ => shared_idx_0 m ρ m' c h
  | ⟨1, _⟩ => shared_idx_1 m ρ m' c h
  | ⟨2, _⟩ => shared_idx_2 m ρ m' c h
  | ⟨3, _⟩ => shared_idx_3 m ρ m' c h

/-- Corner `k`'s relative coordinates likewise. -/
theorem hrc (h : Agree m m' c) (k : Fin 4) : Cert.KernelIdeal.Hand.KrelcoordT m ρ c k = Cert.ReferenceIdeal.Hand.Rrelcoord m' c k :=
  match k with
  | ⟨0, _⟩ => shared_relcoord_0 m ρ m' c h
  | ⟨1, _⟩ => shared_relcoord_1 m ρ m' c h
  | ⟨2, _⟩ => shared_relcoord_2 m ρ m' c h
  | ⟨3, _⟩ => shared_relcoord_3 m ρ m' c h

/-- Corner `k`'s relative cell sizes likewise. -/
theorem hcell (h : Agree m m' c) (k : Fin 4) : Cert.KernelIdeal.Hand.KrelcellT m ρ c k = Cert.ReferenceIdeal.Hand.Rrelcell m' c k :=
  match k with
  | ⟨0, _⟩ => shared_relcell_0 m ρ m' c h
  | ⟨1, _⟩ => shared_relcell_1 m ρ m' c h
  | ⟨2, _⟩ => shared_relcell_2 m ρ m' c h
  | ⟨3, _⟩ => shared_relcell_3 m ρ m' c h

/-- Corner `k`'s area likewise. -/
theorem harea (h : Agree m m' c) (k : Fin 4) : Cert.KernelIdeal.Hand.areaK m ρ c k = Cert.ReferenceIdeal.Hand.areaR m' c k :=
  match k with
  | ⟨0, _⟩ => shared_area_0 m ρ m' c h
  | ⟨1, _⟩ => shared_area_1 m ρ m' c h
  | ⟨2, _⟩ => shared_area_2 m ρ m' c h
  | ⟨3, _⟩ => shared_area_3 m ρ m' c h

end Cert.Hand

end
-- ==== Proof.BridgeTail.lean ====
import proofs.«100126_j36189394436483_2_alg».proof.Proof.KReadC
import proofs.«100126_j36189394436483_2_alg».proof.Proof.RReadC

/-!
# The two programs' closing means are one function

Both programs end with the mean of the absolute values of their first result: the absolute values, their sum over all
axes from zero, the sum over the number of entries. The two printed forms differ only in the names of the shapes, which
abbreviate the same literals, and in the proofs of the side conditions. So when the first results agree, so do the
second.
-/

set_option maxRecDepth 16384

noncomputable section

namespace Cert.Hand

open Idealize.ShloMosaic Idealize.ShloMosaic.TcCoe Idealize.SL.Sem

/-- The closing mean of the plain program is the closing mean of the split program. -/
theorem tail_same (x : FVec Ideal Cert.KernelIdeal.S2x65536x2 .f32) :
    Cert.ReferenceIdeal.Hand.tailR x = Cert.KernelIdeal.Hand.tailK x := by
  unfold Cert.ReferenceIdeal.Hand.tailR Cert.KernelIdeal.Hand.tailK
  rfl

/-- When the two programs' first results agree, so do their second results. -/
theorem mean_same (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : Cert.ReferenceIdeal.Hand.Rv m' c Cert.ReferenceIdeal.main_v496
      = Cert.KernelIdeal.Hand.Wend m ρ c (Proc.devRef .tc Cert.KernelIdeal.main_v410)) :
    Cert.ReferenceIdeal.Hand.Rv m' c Cert.ReferenceIdeal.main_v499
      = Cert.KernelIdeal.Hand.Wend m ρ c (Proc.devRef .tc Cert.KernelIdeal.main_v413) := by
  have hR := Cert.ReferenceIdeal.Hand.mean_eq m' c
  have hK := Cert.KernelIdeal.Hand.mean_eq m ρ c
  refine hR.trans ?_
  rw [h0]
  exact (tail_same _).trans hK.symm

end Cert.Hand

end
-- ==== Proof.Bridge.lean ====
/-
  The two results agree. Result 0: entry by entry (the split of the first layer's sum), from the equality of the shared
  intermediate arrays. Result 1: both programs take the same mean of absolute values of result 0.
-/
import proofs.«100126_j36189394436483_2_alg».proof.Proof.BridgeMain
import proofs.«100126_j36189394436483_2_alg».proof.Proof.BridgeShared
import proofs.«100126_j36189394436483_2_alg».proof.Proof.BridgeTail

noncomputable section

namespace Cert.Hand

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The first result is the same array in the two programs. -/
theorem result0_eq (h : Agree m m' c) :
    Cert.ReferenceIdeal.Hand.Rv m' c Cert.ReferenceIdeal.main_v496 = Cert.KernelIdeal.Hand.Wend m ρ c (Proc.devRef .tc Cert.KernelIdeal.main_v410) := by
  show (Cert.ReferenceIdeal.Hand.Rv m' c Cert.ReferenceIdeal.main_v496 : Vec Ideal Cert.KernelIdeal.S2x65536x2 .f32) = (Cert.KernelIdeal.Hand.Kv m ρ c Cert.KernelIdeal.main_v410 : Vec Ideal Cert.KernelIdeal.S2x65536x2 .f32)
  funext j
  obtain ⟨b, q, o, rfl⟩ : ∃ (b : Fin 2) (q : Fin 65536) (o : Fin 2), j = ix3 b q o := ⟨j 0, j 1, j 2, eq_ix3 j⟩
  exact result0_entry m ρ m' c h (hfeat m ρ m' c h) (hidx m ρ m' c h) (hrc m ρ m' c h) (hcell m ρ m' c h) (harea m ρ m' c h) b q o

/-- The second result, the mean of the absolute values of the first, is the same number in the two programs. -/
theorem result1_eq (h : Agree m m' c) :
    Cert.ReferenceIdeal.Hand.Rv m' c Cert.ReferenceIdeal.main_v499 = Cert.KernelIdeal.Hand.Wend m ρ c (Proc.devRef .tc Cert.KernelIdeal.main_v413) :=
  mean_same m ρ m' c (result0_eq m ρ m' c h)

end Cert.Hand

end
-- ==== Proof.lean ====
/-
  The certificate's five claims assembled.
  Both kernel programs (the word-level one and its reading over the extended reals) run to the end, faulting nowhere,
  with the thirteen argument arrays unchanged: the run of the whole entry function over its 38 items, two of them
  pipelined launches. The reference runs as a straight line of host operations. Over the extended reals the two
  results agree: result 0 element by element (the split of the first layer's 580-term sum), result 1 as the same
  mean of absolute values of equal arrays.
-/
import proofs.«100126_j36189394436483_2_alg».proof.Defs
import proofs.«100126_j36189394436483_2_alg».proof.Proof.Gen.Kernel
import proofs.«100126_j36189394436483_2_alg».proof.Proof.Gen.KernelIdeal
import proofs.«100126_j36189394436483_2_alg».proof.Proof.Gen.ReferenceIdeal
import proofs.«100126_j36189394436483_2_alg».proof.Proof.Gen.Pre_finite_inputs
import proofs.«100126_j36189394436483_2_alg».proof.Proof.BFold
import proofs.«100126_j36189394436483_2_alg».proof.Proof.KFold
import proofs.«100126_j36189394436483_2_alg».proof.Proof.RRun
import proofs.«100126_j36189394436483_2_alg».proof.Proof.Bridge

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.Hand.frame (F := Ideal) m ρ

/-- From memories agreeing on the arguments both programs run, the kernel program ending at its last valuation and the
    reference at the fold of its operations; the two results are equal arrays. -/
theorem algebraic : Cert.algebraic_KernelIdeal_ReferenceIdeal := by
  intro m ρ m' ρ' _ hagree
  refine ⟨fun c => Cert.KernelIdeal.Hand.Wend m ρ c (Proc.devRef .tc Cert.KernelIdeal.main_v410),
    fun c => Cert.KernelIdeal.Hand.Wend m ρ c (Proc.devRef .tc Cert.KernelIdeal.main_v413), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v410 (by decide)),
      h c _ (Cert.KernelIdeal.Hand.mem_uc Cert.KernelIdeal.main_v413 (by decide)),
      (h c _ (Cert.KernelIdeal.Hand.mem_uc Cert.KernelIdeal.main_arg0 (by decide))).trans (Cert.KernelIdeal.Hand.Wend_main_arg0 m ρ c),
      (h c _ (Cert.KernelIdeal.Hand.mem_uc Cert.KernelIdeal.main_arg1 (by decide))).trans (Cert.KernelIdeal.Hand.Wend_main_arg1 m ρ c),
      (h c _ (Cert.KernelIdeal.Hand.mem_uc Cert.KernelIdeal.main_arg2 (by decide))).trans (Cert.KernelIdeal.Hand.Wend_main_arg2 m ρ c),
      (h c _ (Cert.KernelIdeal.Hand.mem_uc Cert.KernelIdeal.main_arg3 (by decide))).trans (Cert.KernelIdeal.Hand.Wend_main_arg3 m ρ c),
      (h c _ (Cert.KernelIdeal.Hand.mem_uc Cert.KernelIdeal.main_arg4 (by decide))).trans (Cert.KernelIdeal.Hand.Wend_main_arg4 m ρ c),
      (h c _ (Cert.KernelIdeal.Hand.mem_uc Cert.KernelIdeal.main_arg5 (by decide))).trans (Cert.KernelIdeal.Hand.Wend_main_arg5 m ρ c),
      (h c _ (Cert.KernelIdeal.Hand.mem_uc Cert.KernelIdeal.main_arg6 (by decide))).trans (Cert.KernelIdeal.Hand.Wend_main_arg6 m ρ c),
      (h c _ (Cert.KernelIdeal.Hand.mem_uc Cert.KernelIdeal.main_arg7 (by decide))).trans (Cert.KernelIdeal.Hand.Wend_main_arg7 m ρ c),
      (h c _ (Cert.KernelIdeal.Hand.mem_uc Cert.KernelIdeal.main_arg8 (by decide))).trans (Cert.KernelIdeal.Hand.Wend_main_arg8 m ρ c),
      (h c _ (Cert.KernelIdeal.Hand.mem_uc Cert.KernelIdeal.main_arg9 (by decide))).trans (Cert.KernelIdeal.Hand.Wend_main_arg9 m ρ c),
      (h c _ (Cert.KernelIdeal.Hand.mem_uc Cert.KernelIdeal.main_arg10 (by decide))).trans (Cert.KernelIdeal.Hand.Wend_main_arg10 m ρ c),
      (h c _ (Cert.KernelIdeal.Hand.mem_uc Cert.KernelIdeal.main_arg11 (by decide))).trans (Cert.KernelIdeal.Hand.Wend_main_arg11 m ρ c),
      (h c _ (Cert.KernelIdeal.Hand.mem_uc Cert.KernelIdeal.main_arg12 (by decide))).trans (Cert.KernelIdeal.Hand.Wend_main_arg12 m ρ c)⟩
  · refine (θ_run Cert.ReferenceIdeal.defs _ _).mono (fun r h c => ?_) (Cert.ReferenceIdeal.Hand.run_all (F := Ideal) m' ρ')
    exact ⟨(h c Cert.ReferenceIdeal.main_v496).trans (Cert.Hand.result0_eq m ρ m' c (hagree c)),
      (h c Cert.ReferenceIdeal.main_v499).trans (Cert.Hand.result1_eq m ρ m' c (hagree c)),
      (h c Cert.ReferenceIdeal.main_arg0).trans (Cert.ReferenceIdeal.Hand.after_main_arg0 m' c),
      (h c Cert.ReferenceIdeal.main_arg1).trans (Cert.ReferenceIdeal.Hand.after_main_arg1 m' c),
      (h c Cert.ReferenceIdeal.main_arg2).trans (Cert.ReferenceIdeal.Hand.after_main_arg2 m' c),
      (h c Cert.ReferenceIdeal.main_arg3).trans (Cert.ReferenceIdeal.Hand.after_main_arg3 m' c),
      (h c Cert.ReferenceIdeal.main_arg4).trans (Cert.ReferenceIdeal.Hand.after_main_arg4 m' c),
      (h c Cert.ReferenceIdeal.main_arg5).trans (Cert.ReferenceIdeal.Hand.after_main_arg5 m' c),
      (h c Cert.ReferenceIdeal.main_arg6).trans (Cert.ReferenceIdeal.Hand.after_main_arg6 m' c),
      (h c Cert.ReferenceIdeal.main_arg7).trans (Cert.ReferenceIdeal.Hand.after_main_arg7 m' c),
      (h c Cert.ReferenceIdeal.main_arg8).trans (Cert.ReferenceIdeal.Hand.after_main_arg8 m' c),
      (h c Cert.ReferenceIdeal.main_arg9).trans (Cert.ReferenceIdeal.Hand.after_main_arg9 m' c),
      (h c Cert.ReferenceIdeal.main_arg10).trans (Cert.ReferenceIdeal.Hand.after_main_arg10 m' c),
      (h c Cert.ReferenceIdeal.main_arg11).trans (Cert.ReferenceIdeal.Hand.after_main_arg11 m' c),
      (h c Cert.ReferenceIdeal.main_arg12).trans (Cert.ReferenceIdeal.Hand.after_main_arg12 m' c)⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
